-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x13 : Shape := ⟨2, ![16384, 13]⟩
abbrev S16384x26 : Shape := ⟨2, ![16384, 26]⟩
abbrev S26x131073x64 : Shape := ⟨3, ![26, 131073, 64]⟩
abbrev S13x128 : Shape := ⟨2, ![13, 128]⟩
abbrev S128 : Shape := ⟨1, ![128]⟩
abbrev S128x64 : Shape := ⟨2, ![128, 64]⟩
abbrev S64 : Shape := ⟨1, ![64]⟩
abbrev S415x512 : Shape := ⟨2, ![415, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S26x131073x64 : S_.BroadcastsInDim S26x131073x64 (![] : Fin 0 → Fin S26x131073x64.rank)
  reducesTo_S26x131073x64_S_d0_1_2 : S26x131073x64.ReducesTo [0, 1, 2] S_
  bcast_S_S13x128 : S_.BroadcastsInDim S13x128 (![] : Fin 0 → Fin S13x128.rank)
  reducesTo_S13x128_S_d0_1 : S13x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S415x512 : S_.BroadcastsInDim S415x512 (![] : Fin 0 → Fin S415x512.rank)
  reducesTo_S415x512_S_d0_1 : S415x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S16384x26 : S_.BroadcastsInDim S16384x26 (![] : Fin 0 → Fin S16384x26.rank)
  reducesTo_S16384x26_S_d0_1 : S16384x26.ReducesTo [0, 1] S_

variable [Facts]

def fn_part3 {F : FTy → Type} [FloatOps F] (main_arg1 : IVec S16384x26 32) (main_arg12 : FVec F S1 .f32) (main_v48 : IVec S_ 1) (main_v49 : FVec F S256x1 .f32) (main_v50 : FVec F S256x1 .f32) : IVec S_ 1 :=
  let main_v51 : IVec S256x1 1 := cmpf .olt main_v49 main_v50
  let main_c_19 : IVec S_ 1 := constantI S_ 1 1#1
  let main_v52 : IVec S_ 1 := (fun x v => Host.reduce IntOp.andi x v reducesTo_S256x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S16384x26 32 := broadcastInDim S16384x26 ![] bcast_S_S16384x26 main_c_22
  let main_v60 : IVec S16384x26 1 := cmpi .sge main_arg1 main_v59
  let main_c_23 : IVec S_ 1 := constantI S_ 1 1#1
  let main_v61 : IVec S_ 1 := (fun x v => Host.reduce IntOp.andi x v reducesTo_S16384x26_S_d0_1 h_S_) main_v60 main_c_23
  let main_v62 : IVec S_ 1 := andi main_v58 main_v61
  let main_c_24 : IVec S_ 32 := constantI S_ 32 131073#32
  let main_v63 : IVec S16384x26 32 := broadcastInDim S16384x26 ![] bcast_S_S16384x26 main_c_24
  let main_v64 : IVec S16384x26 1 := cmpi .slt main_arg1 main_v63
  let main_c_25 : IVec S_ 1 := constantI S_ 1 1#1
  let main_v65 : IVec S_ 1 := (fun x v => Host.reduce IntOp.andi x v reducesTo_S16384x26_S_d0_1 h_S_) main_v64 main_c_25
  let main_v66 : IVec S_ 1 := andi main_v62 main_v65
  main_v66

def fn_part2 {F : FTy → Type} [FloatOps F] (main_arg1 : IVec S16384x26 32) (main_arg8 : FVec F S512 .f32) (main_arg9 : FVec F S512x256 .f32) (main_arg10 : FVec F S256 .f32) (main_arg11 : FVec F S256x1 .f32) (main_arg12 : FVec F S1 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x256 .f32 := Host.absf main_arg9
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x1 .f32 := Host.absf main_arg11
  let main_cst_18 : FVec F S_ .f32 := constant S_ .f32 0x7F800000#32
  let main_v50 : FVec F S256x1 .f32 := broadcastInDim S256x1 ![] bcast_S_S256x1 main_cst_18
  fn_part3 (F := F) main_arg1 main_arg12 main_v48 main_v49 main_v50

def fn_part1 {F : FTy → Type} [FloatOps F] (main_arg1 : IVec S16384x26 32) (main_arg5 : FVec F S128x64 .f32) (main_arg6 : FVec F S64 .f32) (main_arg7 : FVec F S415x512 .f32) (main_arg8 : FVec F S512 .f32) (main_arg9 : FVec F S512x256 .f32) (main_arg10 : FVec F S256 .f32) (main_arg11 : FVec F S256x1 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S415x512 .f32 := Host.absf main_arg7
  let main_cst_10 : FVec F S_ .f32 := constant S_ .f32 0x7F800000#32
  let main_v30 : FVec F S415x512 .f32 := broadcastInDim S415x512 ![] bcast_S_S415x512 main_cst_10
  let main_v31 : IVec S415x512 1 := cmpf .olt main_v29 main_v30
  let main_c_11 : IVec S_ 1 := constantI S_ 1 1#1
  let main_v32 : IVec S_ 1 := (fun x v => Host.reduce IntOp.andi x v reducesTo_S415x512_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S16384x13 .f32) (main_arg1 : IVec S16384x26 32) (main_arg2 : FVec F S26x131073x64 .f32) (main_arg3 : FVec F S13x128 .f32) (main_arg4 : FVec F S128 .f32) (main_arg5 : FVec F S128x64 .f32) (main_arg6 : FVec F S64 .f32) (main_arg7 : FVec F S415x512 .f32) (main_arg8 : FVec F S512 .f32) (main_arg9 : FVec F S512x256 .f32) (main_arg10 : FVec F S256 .f32) (main_arg11 : FVec F S256x1 .f32) (main_arg12 : FVec F S1 .f32) : IVec S_ 1 :=
  let main_v0 : FVec F S16384x13 .f32 := Host.absf main_arg0
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S26x131073x64 .f32 := Host.absf main_arg2
  let main_cst_0 : FVec F S_ .f32 := constant S_ .f32 0x7F800000#32
  let main_v5 : FVec F S26x131073x64 .f32 := broadcastInDim S26x131073x64 ![] bcast_S_S26x131073x64 main_cst_0
  let main_v6 : IVec S26x131073x64 1 := cmpf .olt main_v4 main_v5
  let main_c_1 : IVec S_ 1 := constantI S_ 1 1#1
  let main_v7 : IVec S_ 1 := (fun x v => Host.reduce IntOp.andi x v reducesTo_S26x131073x64_S_d0_1_2 h_S_) main_v6 main_c_1
  let main_v8 : IVec S_ 1 := andi main_v3 main_v7
  let main_v9 : FVec F S13x128 .f32 := Host.absf main_arg3
  let main_cst_2 : FVec F S_ .f32 := constant S_ .f32 0x7F800000#32
  let main_v10 : FVec F S13x128 .f32 := broadcastInDim S13x128 ![] bcast_S_S13x128 main_cst_2
  let main_v11 : IVec S13x128 1 := cmpf .olt main_v9 main_v10
  let main_c_3 : IVec S_ 1 := constantI S_ 1 1#1
  let main_v12 : IVec S_ 1 := (fun x v => Host.reduce IntOp.andi x v reducesTo_S13x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_v13 main_v16
-- ==== Kernel.lean ====
abbrev S16384x13 : Shape := ⟨2, ![16384, 13]⟩
abbrev S16384x26 : Shape := ⟨2, ![16384, 26]⟩
abbrev S26x131073x64 : Shape := ⟨3, ![26, 131073, 64]⟩
abbrev S13x128 : Shape := ⟨2, ![13, 128]⟩
abbrev S128 : Shape := ⟨1, ![128]⟩
abbrev S128x64 : Shape := ⟨2, ![128, 64]⟩
abbrev S64 : Shape := ⟨1, ![64]⟩
abbrev S415x512 : Shape := ⟨2, ![415, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S16384x128 : Shape := ⟨2, ![16384, 128]⟩
abbrev S1x128 : Shape := ⟨2, ![1, 128]⟩
abbrev S_ : Shape := ⟨0, ![]⟩
abbrev S16384x64 : Shape := ⟨2, ![16384, 64]⟩
abbrev S1x64 : Shape := ⟨2, ![1, 64]⟩
abbrev S4096x26 : Shape := ⟨2, ![4096, 26]⟩
abbrev S4096x26x64 : Shape := ⟨3, ![4096, 26, 64]⟩
abbrev S1x26x64 : Shape := ⟨3, ![1, 26, 64]⟩
abbrev S26 : Shape := ⟨1, ![26]⟩
abbrev S1x1 : Shape := ⟨2, ![1, 1]⟩
abbrev S1x1x64 : Shape := ⟨3, ![1, 1, 64]⟩
abbrev S16384x26x64 : Shape := ⟨3, ![16384, 26, 64]⟩
abbrev S16384x415 : Shape := ⟨2, ![16384, 415]⟩
abbrev S256x64 : Shape := ⟨2, ![256, 64]⟩
abbrev S256x26x64 : Shape := ⟨3, ![256, 26, 64]⟩
abbrev S256x415 : Shape := ⟨2, ![256, 415]⟩
abbrev S256x1x64 : Shape := ⟨3, ![256, 1, 64]⟩
abbrev S256x27x64 : Shape := ⟨3, ![256, 27, 64]⟩
abbrev S256x27x27 : Shape := ⟨3, ![256, 27, 27]⟩
abbrev S256x1x26 : Shape := ⟨3, ![256, 1, 26]⟩
abbrev S256x26 : Shape := ⟨2, ![256, 26]⟩
abbrev S256x1x25 : Shape := ⟨3, ![256, 1, 25]⟩
abbrev S256x25 : Shape := ⟨2, ![256, 25]⟩
abbrev S256x1x24 : Shape := ⟨3, ![256, 1, 24]⟩
abbrev S256x24 : Shape := ⟨2, ![256, 24]⟩
abbrev S256x1x23 : Shape := ⟨3, ![256, 1, 23]⟩
abbrev S256x23 : Shape := ⟨2, ![256, 23]⟩
abbrev S256x1x22 : Shape := ⟨3, ![256, 1, 22]⟩
abbrev S256x22 : Shape := ⟨2, ![256, 22]⟩
abbrev S256x1x21 : Shape := ⟨3, ![256, 1, 21]⟩
abbrev S256x21 : Shape := ⟨2, ![256, 21]⟩
abbrev S256x1x20 : Shape := ⟨3, ![256, 1, 20]⟩
abbrev S256x20 : Shape := ⟨2, ![256, 20]⟩
abbrev S256x1x19 : Shape := ⟨3, ![256, 1, 19]⟩
abbrev S256x19 : Shape := ⟨2, ![256, 19]⟩
abbrev S256x1x18 : Shape := ⟨3, ![256, 1, 18]⟩
abbrev S256x18 : Shape := ⟨2, ![256, 18]⟩
abbrev S256x1x17 : Shape := ⟨3, ![256, 1, 17]⟩
abbrev S256x17 : Shape := ⟨2, ![256, 17]⟩
abbrev S256x1x16 : Shape := ⟨3, ![256, 1, 16]⟩
abbrev S256x16 : Shape := ⟨2, ![256, 16]⟩
abbrev S256x1x15 : Shape := ⟨3, ![256, 1, 15]⟩
abbrev S256x15 : Shape := ⟨2, ![256, 15]⟩
abbrev S256x1x14 : Shape := ⟨3, ![256, 1, 14]⟩
abbrev S256x14 : Shape := ⟨2, ![256, 14]⟩
abbrev S256x1x13 : Shape := ⟨3, ![256, 1, 13]⟩
abbrev S256x13 : Shape := ⟨2, ![256, 13]⟩
abbrev S256x1x12 : Shape := ⟨3, ![256, 1, 12]⟩
abbrev S256x12 : Shape := ⟨2, ![256, 12]⟩
abbrev S256x1x11 : Shape := ⟨3, ![256, 1, 11]⟩
abbrev S256x11 : Shape := ⟨2, ![256, 11]⟩
abbrev S256x1x10 : Shape := ⟨3, ![256, 1, 10]⟩
abbrev S256x10 : Shape := ⟨2, ![256, 10]⟩
abbrev S256x1x9 : Shape := ⟨3, ![256, 1, 9]⟩
abbrev S256x9 : Shape := ⟨2, ![256, 9]⟩
abbrev S256x1x8 : Shape := ⟨3, ![256, 1, 8]⟩
abbrev S256x8 : Shape := ⟨2, ![256, 8]⟩
abbrev S256x1x7 : Shape := ⟨3, ![256, 1, 7]⟩
abbrev S256x7 : Shape := ⟨2, ![256, 7]⟩
abbrev S256x1x6 : Shape := ⟨3, ![256, 1, 6]⟩
abbrev S256x6 : Shape := ⟨2, ![256, 6]⟩
abbrev S256x1x5 : Shape := ⟨3, ![256, 1, 5]⟩
abbrev S256x5 : Shape := ⟨2, ![256, 5]⟩
abbrev S256x1x4 : Shape := ⟨3, ![256, 1, 4]⟩
abbrev S256x4 : Shape := ⟨2, ![256, 4]⟩
abbrev S256x1x3 : Shape := ⟨3, ![256, 1, 3]⟩
abbrev S256x3 : Shape := ⟨2, ![256, 3]⟩
abbrev S256x1x2 : Shape := ⟨3, ![256, 1, 2]⟩
abbrev S256x2 : Shape := ⟨2, ![256, 2]⟩
abbrev S256x1x1 : Shape := ⟨3, ![256, 1, 1]⟩
abbrev S256x351 : Shape := ⟨2, ![256, 351]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S16384x1 : Shape := ⟨2, ![16384, 1]⟩
abbrev S16384 : Shape := ⟨1, ![16384]⟩

abbrev nBuf : Space → Nat
  | .hbm => 52
  | .vmem => 14
  | .smem => 4
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S26x131073x64, .f32⟩
  | .hbm, ⟨3, _⟩ => ⟨S13x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S415x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S256x1, .f32⟩
  | .hbm, ⟨12, _⟩ => ⟨S1, .f32⟩
  | .hbm, ⟨13, _⟩ => ⟨S16384x128, .f32⟩
  | .hbm, ⟨14, _⟩ => ⟨S1x128, .f32⟩
  | .hbm, ⟨15, _⟩ => ⟨S16384x128, .f32⟩
  | .hbm, ⟨16, _⟩ => ⟨S16384x128, .f32⟩
  | .hbm, ⟨17, _⟩ => ⟨S_, .f32⟩
  | .hbm, ⟨18, _⟩ => ⟨S16384x128, .f32⟩
  | .hbm, ⟨19, _⟩ => ⟨S16384x128, .f32⟩
  | .hbm, ⟨20, _⟩ => ⟨S16384x64, .f32⟩
  | .hbm, ⟨21, _⟩ => ⟨S1x64, .f32⟩
  | .hbm, ⟨22, _⟩ => ⟨S16384x64, .f32⟩
  | .hbm, ⟨23, _⟩ => ⟨S16384x64, .f32⟩
  | .hbm, ⟨24, _⟩ => ⟨S_, .f32⟩
  | .hbm, ⟨25, _⟩ => ⟨S16384x64, .f32⟩
  | .hbm, ⟨26, _⟩ => ⟨S16384x64, .f32⟩
  | .hbm, ⟨27, _⟩ => ⟨S4096x26x64, .f32⟩
  | .hbm, ⟨28, _⟩ => ⟨S4096x26x64, .f32⟩
  | .hbm, ⟨29, _⟩ => ⟨S4096x26x64, .f32⟩
  | .hbm, ⟨30, _⟩ => ⟨S4096x26x64, .f32⟩
  | .hbm, ⟨31, _⟩ => ⟨S16384x26x64, .f32⟩
  | .hbm, ⟨32, _⟩ => ⟨S16384x415, .f32⟩
  | .hbm, ⟨33, _⟩ => ⟨S16384x512, .f32⟩
  | .hbm, ⟨34, _⟩ => ⟨S1x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S16384x256, .f32⟩
  | .hbm, ⟨41, _⟩ => ⟨S1x256, .f32⟩
  | .hbm, ⟨42, _⟩ => ⟨S16384x256, .f32⟩
  | .hbm, ⟨43, _⟩ => ⟨S16384x256, .f32⟩
  | .hbm, ⟨44, _⟩ => ⟨S_, .f32⟩
  | .hbm, ⟨45, _⟩ => ⟨S16384x256, .f32⟩
  | .hbm, ⟨46, _⟩ => ⟨S16384x256, .f32⟩
  | .hbm, ⟨47, _⟩ => ⟨S16384x1, .f32⟩
  | .hbm, ⟨48, _⟩ => ⟨S1x1, .f32⟩
  | .hbm, ⟨49, _⟩ => ⟨S16384x1, .f32⟩
  | .hbm, ⟨50, _⟩ => ⟨S16384x1, .f32⟩
  | .hbm, ⟨51, _⟩ => ⟨S16384, .f32⟩
  | .local _ .vmem, ⟨0, _⟩ => ⟨S1x26x64, .f32⟩
  | .local _ .vmem, ⟨1, _⟩ => ⟨S1x26x64, .f32⟩
  | .local _ .vmem, ⟨2, _⟩ => ⟨S1x26x64, .f32⟩
  | .local _ .vmem, ⟨3, _⟩ => ⟨S1x26x64, .f32⟩
  | .local _ .vmem, ⟨4, _⟩ => ⟨S1x26x64, .f32⟩
  | .local _ .vmem, ⟨5, _⟩ => ⟨S1x26x64, .f32⟩
  | .local _ .vmem, ⟨6, _⟩ => ⟨S1x26x64, .f32⟩
  | .local _ .vmem, ⟨7, _⟩ => ⟨S1x26x64, .f32⟩
  | .local _ .vmem, ⟨8, _⟩ => ⟨S256x64, .f32⟩
  | .local _ .vmem, ⟨9, _⟩ => ⟨S256x64, .f32⟩
  | .local _ .vmem, ⟨10, _⟩ => ⟨S256x26x64, .f32⟩
  | .local _ .vmem, ⟨11, _⟩ => ⟨S256x26x64, .f32⟩
  | .local _ .vmem, ⟨12, _⟩ => ⟨S256x415, .f32⟩
  | .local _ .vmem, ⟨13, _⟩ => ⟨S256x415, .f32⟩
  | .local _ .smem, ⟨0, _⟩ => ⟨S4096x26, .i32⟩
  | .local _ .smem, ⟨1, _⟩ => ⟨S4096x26, .i32⟩
  | .local _ .smem, ⟨2, _⟩ => ⟨S4096x26, .i32⟩
  | .local _ .smem, ⟨3, _⟩ => ⟨S4096x26, .i32⟩
  | _, _ => ⟨S16384x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 118 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | _ => false

abbrev sig : RefSig :=
  ofTc nBuf bufTy 0 118 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_cst : Ref sig .tc := ⟨.hbm, 24, rfl⟩
abbrev main_call1_v0 : Ref sig .tc := ⟨.hbm, 25, rfl⟩
abbrev main_v9 : Ref sig .tc := ⟨.hbm, 26, rfl⟩
abbrev main_v11 : Ref sig .tc := ⟨.hbm, 27, rfl⟩
abbrev main_v13 : Ref sig .tc := ⟨.hbm, 28, rfl⟩
abbrev main_v15 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call2_cst : Ref sig .tc := ⟨.hbm, 37, rfl⟩
abbrev main_call2_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call3_cst : Ref sig .tc := ⟨.hbm, 44, rfl⟩
abbrev main_call3_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v10 : Ref sig .tc := ⟨.smem, 0, rfl⟩
abbrev main_v12 : Ref sig .tc := ⟨.smem, 1, rfl⟩
abbrev main_v14 : Ref sig .tc := ⟨.smem, 2, rfl⟩
abbrev main_v16 : Ref sig .tc := ⟨.smem, 3, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc2_stg0_0 : Ref sig .tc := ⟨.vmem, 4, rfl⟩
abbrev cc2_stg0_1 : Ref sig .tc := ⟨.vmem, 5, rfl⟩
abbrev cc3_stg0_0 : Ref sig .tc := ⟨.vmem, 6, rfl⟩
abbrev cc3_stg0_1 : Ref sig .tc := ⟨.vmem, 7, rfl⟩
abbrev cc4_stg0_0 : Ref sig .tc := ⟨.vmem, 8, rfl⟩
abbrev cc4_stg0_1 : Ref sig .tc := ⟨.vmem, 9, rfl⟩
abbrev cc4_stg1_0 : Ref sig .tc := ⟨.vmem, 10, rfl⟩
abbrev cc4_stg1_1 : Ref sig .tc := ⟨.vmem, 11, rfl⟩
abbrev cc4_stg2_0 : Ref sig .tc := ⟨.vmem, 12, rfl⟩
abbrev cc4_stg2_1 : Ref sig .tc := ⟨.vmem, 13, rfl⟩
abbrev cc0_sem0_0 : DmaSem sig := 0
abbrev cc0_sem0_1 : DmaSem sig := 1
abbrev cc1_sem0_0 : DmaSem sig := 28
abbrev cc1_sem0_1 : DmaSem sig := 29
abbrev cc2_sem0_0 : DmaSem sig := 56
abbrev cc2_sem0_1 : DmaSem sig := 57
abbrev cc3_sem0_0 : DmaSem sig := 84
abbrev cc3_sem0_1 : DmaSem sig := 85
abbrev cc4_sem0_0 : DmaSem sig := 112
abbrev cc4_sem0_1 : DmaSem sig := 113
abbrev cc4_sem1_0 : DmaSem sig := 114
abbrev cc4_sem1_1 : DmaSem sig := 115
abbrev cc4_sem2_0 : DmaSem sig := 116
abbrev cc4_sem2_1 : DmaSem sig := 117

abbrev nD : Nat := 1
abbrev τ : Topo := Topo.v7x

variable {F : FTy → Type} [FloatOps F]

abbrev grid0 : Pipeline.Grid := ⟨1, ![4096], ![false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (v1 : BitVec 32) : Fin 3 → Nat :=
  let c0_i32 : BitVec 32 := 0#32
  let c0_i32_4 : BitVec 32 := 0#32
  ![0, v1.toNat, 0]

def k0_off3 (i : grid0.Coords) : Fin 2 → Nat :=
  let arg0 : BitVec 32 := BitVec.ofNat 32 (i 0).val
  let v8 : Index := Scalar.indexCast arg0
  let c1 : Index := 1#32
  ![v8.toNat, 1]
def k0_off4 (v9 : BitVec 32) : Fin 3 → Nat :=
  let c1_i32 : BitVec 32 := 1#32
  let c0_i32_9 : BitVec 32 := 0#32
  ![1, v9.toNat, 0]

def k0_off5 (i : grid0.Coords) : Fin 2 → Nat :=
  let arg0 : BitVec 32 := BitVec.ofNat 32 (i 0).val
  let v16 : Index := Scalar.indexCast arg0
  let c2 : Index := 2#32
  ![v16.toNat, 2]
def k0_off6 (v17 : BitVec 32) : Fin 3 → Nat :=
  let c2_i32 : BitVec 32 := 2#32
  let c0_i32_14 : BitVec 32 := 0#32
  ![2, v17.toNat, 0]

def k0_off7 (i : grid0.Coords) : Fin 2 → Nat :=
  let arg0 : BitVec 32 := BitVec.ofNat 32 (i 0).val
  let v24 : Index := Scalar.indexCast arg0
  let c3 : Index := 3#32
  ![v24.toNat, 3]
def k0_off8 (v25 : BitVec 32) : Fin 3 → Nat :=
  let c3_i32 : BitVec 32 := 3#32
  let c0_i32_19 : BitVec 32 := 0#32
  ![3, v25.toNat, 0]

def k0_off9 (i : grid0.Coords) : Fin 2 → Nat :=
  let arg0 : BitVec 32 := BitVec.ofNat 32 (i 0).val
  let v32 : Index := Scalar.indexCast arg0
  let c4 : Index := 4#32
  ![v32.toNat, 4]
def k0_off10 (v33 : BitVec 32) : Fin 3 → Nat :=
  let c4_i32 : BitVec 32 := 4#32
  let c0_i32_24 : BitVec 32 := 0#32
  ![4, v33.toNat, 0]

def k0_off11 (i : grid0.Coords) : Fin 2 → Nat :=
  let arg0 : BitVec 32 := BitVec.ofNat 32 (i 0).val
  let v40 : Index := Scalar.indexCast arg0
  let c5 : Index := 5#32
  ![v40.toNat, 5]
def k0_off12 (v41 : BitVec 32) : Fin 3 → Nat :=
  let c5_i32 : BitVec 32 := 5#32
  let c0_i32_29 : BitVec 32 := 0#32
  ![5, v41.toNat, 0]

def k0_off13 (i : grid0.Coords) : Fin 2 → Nat :=
  let arg0 : BitVec 32 := BitVec.ofNat 32 (i 0).val
  let v48 : Index := Scalar.indexCast arg0
  let c6 : Index := 6#32
  ![v48.toNat, 6]
def k0_off14 (v49 : BitVec 32) : Fin 3 → Nat :=
  let c6_i32 : BitVec 32 := 6#32
  let c0_i32_34 : BitVec 32 := 0#32
  ![6, v49.toNat, 0]

def k0_off15 (i : grid0.Coords) : Fin 2 → Nat :=
  let arg0 : BitVec 32 := BitVec.ofNat 32 (i 0).val
  let v56 : Index := Scalar.indexCast arg0
  let c7 : Index := 7#32
  ![v56.toNat, 7]
def k0_off16 (v57 : BitVec 32) : Fin 3 → Nat :=
  let c7_i32 : BitVec 32 := 7#32
  let c0_i32_39 : BitVec 32 := 0#32
  ![7, v57.toNat, 0]

def k0_off17 (i : grid0.Coords) : Fin 2 → Nat :=
  let arg0 : BitVec 32 := BitVec.ofNat 32 (i 0).val
  let v64 : Index := Scalar.indexCast arg0
  let c8 : Index := 8#32
  ![v64.toNat, 8]
def k0_off18 (v65 : BitVec 32) : Fin 3 → Nat :=
  let c8_i32 : BitVec 32 := 8#32
  let c0_i32_44 : BitVec 32 := 0#32
  ![8, v65.toNat, 0]

def k0_off19 (i : grid0.Coords) : Fin 2 → Nat :=
  let arg0 : BitVec 32 := BitVec.ofNat 32 (i 0).val
  let v72 : Index := Scalar.indexCast arg0
  let c9 : Index := 9#32
  ![v72.toNat, 9]
def k0_off20 (v73 : BitVec 32) : Fin 3 → Nat :=
  let c9_i32 : BitVec 32 := 9#32
  let c0_i32_49 : BitVec 32 := 0#32
  ![9, v73.toNat, 0]

def k0_off21 (i : grid0.Coords) : Fin 2 → Nat :=
  let arg0 : BitVec 32 := BitVec.ofNat 32 (i 0).val
  let v80 : Index := Scalar.indexCast arg0
  let c10 : Index := 10#32
  ![v80.toNat, 10]
def k0_off22 (v81 : BitVec 32) : Fin 3 → Nat :=
  let c10_i32 : BitVec 32 := 10#32
  let c0_i32_54 : BitVec 32 := 0#32
  ![10, v81.toNat, 0]

def k0_off23 (i : grid0.Coords) : Fin 2 → Nat :=
  let arg0 : BitVec 32 := BitVec.ofNat 32 (i 0).val
  let v88 : Index := Scalar.indexCast arg0
  let c11 : Index := 11#32
  ![v88.toNat, 11]
def k0_off24 (v89 : BitVec 32) : Fin 3 → Nat :=
  let c11_i32 : BitVec 32 := 11#32
  let c0_i32_59 : BitVec 32 := 0#32
  ![11, v89.toNat, 0]

def k0_off25 (i : grid0.Coords) : Fin 2 → Nat :=
  let arg0 : BitVec 32 := BitVec.ofNat 32 (i 0).val
  let v96 : Index := Scalar.indexCast arg0
  let c12 : Index := 12#32
  ![v96.toNat, 12]
def k0_off26 (v97 : BitVec 32) : Fin 3 → Nat :=
  let c12_i32 : BitVec 32 := 12#32
  let c0_i32_64 : BitVec 32 := 0#32
  ![12, v97.toNat, 0]

def k0_off27 (i : grid0.Coords) : Fin 2 → Nat :=
  let arg0 : BitVec 32 := BitVec.ofNat 32 (i 0).val
  let v104 : Index := Scalar.indexCast arg0
  let c13 : Index := 13#32
  ![v104.toNat, 13]
def k0_off28 (v105 : BitVec 32) : Fin 3 → Nat :=
  let c13_i32 : BitVec 32 := 13#32
  let c0_i32_69 : BitVec 32 := 0#32
  ![13, v105.toNat, 0]

def k0_off29 (i : grid0.Coords) : Fin 2 → Nat :=
  let arg0 : BitVec 32 := BitVec.ofNat 32 (i 0).val
  let v112 : Index := Scalar.indexCast arg0
  let c14 : Index := 14#32
  ![v112.toNat, 14]
def k0_off30 (v113 : BitVec 32) : Fin 3 → Nat :=
  let c14_i32 : BitVec 32 := 14#32
  let c0_i32_74 : BitVec 32 := 0#32
  ![14, v113.toNat, 0]

def k0_off31 (i : grid0.Coords) : Fin 2 → Nat :=
  let arg0 : BitVec 32 := BitVec.ofNat 32 (i 0).val
  let v120 : Index := Scalar.indexCast arg0
  let c15 : Index := 15#32
  ![v120.toNat, 15]
def k0_off32 (v121 : BitVec 32) : Fin 3 → Nat :=
  let c15_i32 : BitVec 32 := 15#32
  let c0_i32_79 : BitVec 32 := 0#32
  ![15, v121.toNat, 0]

def k0_off33 (i : grid0.Coords) : Fin 2 → Nat :=
  let arg0 : BitVec 32 := BitVec.ofNat 32 (i 0).val
  let v128 : Index := Scalar.indexCast arg0
  let c16 : Index := 16#32
  ![v128.toNat, 16]
def k0_off34 (v129 : BitVec 32) : Fin 3 → Nat :=
  let c16_i32 : BitVec 32 := 16#32
  let c0_i32_84 : BitVec 32 := 0#32
  ![16, v129.toNat, 0]

def k0_off35 (i : grid0.Coords) : Fin 2 → Nat :=
  let arg0 : BitVec 32 := BitVec.ofNat 32 (i 0).val
  let v136 : Index := Scalar.indexCast arg0
  let c17 : Index := 17#32
  ![v136.toNat, 17]
def k0_off36 (v137 : BitVec 32) : Fin 3 → Nat :=
  let c17_i32 : BitVec 32 := 17#32
  let c0_i32_89 : BitVec 32 := 0#32
  ![17, v137.toNat, 0]

def k0_off37 (i : grid0.Coords) : Fin 2 → Nat :=
  let arg0 : BitVec 32 := BitVec.ofNat 32 (i 0).val
  let v144 : Index := Scalar.indexCast arg0
  let c18 : Index := 18#32
  ![v144.toNat, 18]
def k0_off38 (v145 : BitVec 32) : Fin 3 → Nat :=
  let c18_i32 : BitVec 32 := 18#32
  let c0_i32_94 : BitVec 32 := 0#32
  ![18, v145.toNat, 0]

def k0_off39 (i : grid0.Coords) : Fin 2 → Nat :=
  let arg0 : BitVec 32 := BitVec.ofNat 32 (i 0).val
  let v152 : Index := Scalar.indexCast arg0
  let c19 : Index := 19#32
  ![v152.toNat, 19]
def k0_off40 (v153 : BitVec 32) : Fin 3 → Nat :=
  let c19_i32 : BitVec 32 := 19#32
  let c0_i32_99 : BitVec 32 := 0#32
  ![19, v153.toNat, 0]

def k0_off41 (i : grid0.Coords) : Fin 2 → Nat :=
  let arg0 : BitVec 32 := BitVec.ofNat 32 (i 0).val
  let v160 : Index := Scalar.indexCast arg0
  let c20 : Index := 20#32
  ![v160.toNat, 20]
def k0_off42 (v161 : BitVec 32) : Fin 3 → Nat :=
  let c20_i32 : BitVec 32 := 20#32
  let c0_i32_104 : BitVec 32 := 0#32
  ![20, v161.toNat, 0]

def k0_off43 (i : grid0.Coords) : Fin 2 → Nat :=
  let arg0 : BitVec 32 := BitVec.ofNat 32 (i 0).val
  let v168 : Index := Scalar.indexCast arg0
  let c21 : Index := 21#32
  ![v168.toNat, 21]
def k0_off44 (v169 : BitVec 32) : Fin 3 → Nat :=
  let c21_i32 : BitVec 32 := 21#32
  let c0_i32_109 : BitVec 32 := 0#32
  ![21, v169.toNat, 0]

def k0_off45 (i : grid0.Coords) : Fin 2 → Nat :=
  let arg0 : BitVec 32 := BitVec.ofNat 32 (i 0).val
  let v176 : Index := Scalar.indexCast arg0
  let c22 : Index := 22#32
  ![v176.toNat, 22]
def k0_off46 (v177 : BitVec 32) : Fin 3 → Nat :=
  let c22_i32 : BitVec 32 := 22#32
  let c0_i32_114 : BitVec 32 := 0#32
  ![22, v177.toNat, 0]

def k0_off47 (i : grid0.Coords) : Fin 2 → Nat :=
  let arg0 : BitVec 32 := BitVec.ofNat 32 (i 0).val
  let v184 : Index := Scalar.indexCast arg0
  let c23 : Index := 23#32
  ![v184.toNat, 23]
def k0_off48 (v185 : BitVec 32) : Fin 3 → Nat :=
  let c23_i32 : BitVec 32 := 23#32
  let c0_i32_119 : BitVec 32 := 0#32
  ![23, v185.toNat, 0]

def k0_off49 (i : grid0.Coords) : Fin 2 → Nat :=
  let arg0 : BitVec 32 := BitVec.ofNat 32 (i 0).val
  let v192 : Index := Scalar.indexCast arg0
  let c24 : Index := 24#32
  ![v192.toNat, 24]
def k0_off50 (v193 : BitVec 32) : Fin 3 → Nat :=
  let c24_i32 : BitVec 32 := 24#32
  let c0_i32_124 : BitVec 32 := 0#32
  ![24, v193.toNat, 0]

def k0_off51 (i : grid0.Coords) : Fin 2 → Nat :=
  let arg0 : BitVec 32 := BitVec.ofNat 32 (i 0).val
  let v200 : Index := Scalar.indexCast arg0
  let c25 : Index := 25#32
  ![v200.toNat, 25]
def k0_off52 (v201 : BitVec 32) : Fin 3 → Nat :=
  let c25_i32 : BitVec 32 := 25#32
  let c0_i32_129 : BitVec 32 := 0#32
  ![25, v201.toNat, 0]

def k0_chk26 (v201 : BitVec 32) : Prop :=
  (∀ a, (k0_off52 v201) a + S1x1x64.size a ≤ S26x131073x64.size a)
instance k0_chk26.dec : ∀ (v201 : BitVec 32), Decidable (k0_chk26 v201) := fun v201 => decidable_of_iff' _ (Iff.of_eq (k0_chk26.eq_1 v201))
theorem k0_off52_inb : ∀ (v201 : BitVec 32) (k0_hw26 : k0_chk26 v201), ∀ a, (k0_off52 v201) a + S1x1x64.size a ≤ S26x131073x64.size a := fun v201 k0_hw26 => k0_hw26

def k0_off53 (v1 : BitVec 32) : Fin 3 → Nat :=
  let c0_i32_130 : BitVec 32 := 0#32
  let c0_i32_135 : BitVec 32 := 0#32
  ![0, v1.toNat, 0]

def k0_chk1 (v1 : BitVec 32) : Prop :=
  (∀ a, (k0_off2 v1) a + S1x1x64.size a ≤ S26x131073x64.size a) ∧
  (∀ a, (k0_off53 v1) a + S1x1x64.size a ≤ S26x131073x64.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x1x64.size a ≤ S26x131073x64.size a := fun v1 k0_hw1 => k0_hw1.1
theorem k0_off53_inb : ∀ (v1 : BitVec 32) (k0_hw1 : k0_chk1 v1), ∀ a, (k0_off53 v1) a + S1x1x64.size a ≤ S26x131073x64.size a := fun v1 k0_hw1 => k0_hw1.2

def k0_off54 (v9 : BitVec 32) : Fin 3 → Nat :=
  let c1_i32_136 : BitVec 32 := 1#32
  let c0_i32_141 : BitVec 32 := 0#32
  ![1, v9.toNat, 0]

def k0_chk2 (v9 : BitVec 32) : Prop :=
  (∀ a, (k0_off4 v9) a + S1x1x64.size a ≤ S26x131073x64.size a) ∧
  (∀ a, (k0_off54 v9) a + S1x1x64.size a ≤ S26x131073x64.size a)
instance k0_chk2.dec : ∀ (v9 : BitVec 32), Decidable (k0_chk2 v9) := fun v9 => decidable_of_iff' _ (Iff.of_eq (k0_chk2.eq_1 v9))
theorem k0_off4_inb : ∀ (v9 : BitVec 32) (k0_hw2 : k0_chk2 v9), ∀ a, (k0_off4 v9) a + S1x1x64.size a ≤ S26x131073x64.size a := fun v9 k0_hw2 => k0_hw2.1
theorem k0_off54_inb : ∀ (v9 : BitVec 32) (k0_hw2 : k0_chk2 v9), ∀ a, (k0_off54 v9) a + S1x1x64.size a ≤ S26x131073x64.size a := fun v9 k0_hw2 => k0_hw2.2

def k0_off55 (v17 : BitVec 32) : Fin 3 → Nat :=
  let c2_i32_142 : BitVec 32 := 2#32
  let c0_i32_147 : BitVec 32 := 0#32
  ![2, v17.toNat, 0]

def k0_chk3 (v17 : BitVec 32) : Prop :=
  (∀ a, (k0_off6 v17) a + S1x1x64.size a ≤ S26x131073x64.size a) ∧
  (∀ a, (k0_off55 v17) a + S1x1x64.size a ≤ S26x131073x64.size a)
instance k0_chk3.dec : ∀ (v17 : BitVec 32), Decidable (k0_chk3 v17) := fun v17 => decidable_of_iff' _ (Iff.of_eq (k0_chk3.eq_1 v17))
theorem k0_off6_inb : ∀ (v17 : BitVec 32) (k0_hw3 : k0_chk3 v17), ∀ a, (k0_off6 v17) a + S1x1x64.size a ≤ S26x131073x64.size a := fun v17 k0_hw3 => k0_hw3.1
theorem k0_off55_inb : ∀ (v17 : BitVec 32) (k0_hw3 : k0_chk3 v17), ∀ a, (k0_off55 v17) a + S1x1x64.size a ≤ S26x131073x64.size a := fun v17 k0_hw3 => k0_hw3.2

def k0_off56 (v25 : BitVec 32) : Fin 3 → Nat :=
  let c3_i32_148 : BitVec 32 := 3#32
  let c0_i32_153 : BitVec 32 := 0#32
  ![3, v25.toNat, 0]

def k0_chk4 (v25 : BitVec 32) : Prop :=
  (∀ a, (k0_off8 v25) a + S1x1x64.size a ≤ S26x131073x64.size a) ∧
  (∀ a, (k0_off56 v25) a + S1x1x64.size a ≤ S26x131073x64.size a)
instance k0_chk4.dec : ∀ (v25 : BitVec 32), Decidable (k0_chk4 v25) := fun v25 => decidable_of_iff' _ (Iff.of_eq (k0_chk4.eq_1 v25))
theorem k0_off8_inb : ∀ (v25 : BitVec 32) (k0_hw4 : k0_chk4 v25), ∀ a, (k0_off8 v25) a + S1x1x64.size a ≤ S26x131073x64.size a := fun v25 k0_hw4 => k0_hw4.1
theorem k0_off56_inb : ∀ (v25 : BitVec 32) (k0_hw4 : k0_chk4 v25), ∀ a, (k0_off56 v25) a + S1x1x64.size a ≤ S26x131073x64.size a := fun v25 k0_hw4 => k0_hw4.2

def k0_off57 (v33 : BitVec 32) : Fin 3 → Nat :=
  let c4_i32_154 : BitVec 32 := 4#32
  let c0_i32_159 : BitVec 32 := 0#32
  ![4, v33.toNat, 0]

def k0_chk5 (v33 : BitVec 32) : Prop :=
  (∀ a, (k0_off10 v33) a + S1x1x64.size a ≤ S26x131073x64.size a) ∧
  (∀ a, (k0_off57 v33) a + S1x1x64.size a ≤ S26x131073x64.size a)
instance k0_chk5.dec : ∀ (v33 : BitVec 32), Decidable (k0_chk5 v33) := fun v33 => decidable_of_iff' _ (Iff.of_eq (k0_chk5.eq_1 v33))
theorem k0_off10_inb : ∀ (v33 : BitVec 32) (k0_hw5 : k0_chk5 v33), ∀ a, (k0_off10 v33) a + S1x1x64.size a ≤ S26x131073x64.size a := fun v33 k0_hw5 => k0_hw5.1
theorem k0_off57_inb : ∀ (v33 : BitVec 32) (k0_hw5 : k0_chk5 v33), ∀ a, (k0_off57 v33) a + S1x1x64.size a ≤ S26x131073x64.size a := fun v33 k0_hw5 => k0_hw5.2

def k0_off58 (v41 : BitVec 32) : Fin 3 → Nat :=
  let c5_i32_160 : BitVec 32 := 5#32
  let c0_i32_165 : BitVec 32 := 0#32
  ![5, v41.toNat, 0]

def k0_chk6 (v41 : BitVec 32) : Prop :=
  (∀ a, (k0_off12 v41) a + S1x1x64.size a ≤ S26x131073x64.size a) ∧
  (∀ a, (k0_off58 v41) a + S1x1x64.size a ≤ S26x131073x64.size a)
instance k0_chk6.dec : ∀ (v41 : BitVec 32), Decidable (k0_chk6 v41) := fun v41 => decidable_of_iff' _ (Iff.of_eq (k0_chk6.eq_1 v41))
theorem k0_off12_inb : ∀ (v41 : BitVec 32) (k0_hw6 : k0_chk6 v41), ∀ a, (k0_off12 v41) a + S1x1x64.size a ≤ S26x131073x64.size a := fun v41 k0_hw6 => k0_hw6.1
theorem k0_off58_inb : ∀ (v41 : BitVec 32) (k0_hw6 : k0_chk6 v41), ∀ a, (k0_off58 v41) a + S1x1x64.size a ≤ S26x131073x64.size a := fun v41 k0_hw6 => k0_hw6.2

def k0_off59 (v49 : BitVec 32) : Fin 3 → Nat :=
  let c6_i32_166 : BitVec 32 := 6#32
  let c0_i32_171 : BitVec 32 := 0#32
  ![6, v49.toNat, 0]

def k0_chk7 (v49 : BitVec 32) : Prop :=
  (∀ a, (k0_off14 v49) a + S1x1x64.size a ≤ S26x131073x64.size a) ∧
  (∀ a, (k0_off59 v49) a + S1x1x64.size a ≤ S26x131073x64.size a)
instance k0_chk7.dec : ∀ (v49 : BitVec 32), Decidable (k0_chk7 v49) := fun v49 => decidable_of_iff' _ (Iff.of_eq (k0_chk7.eq_1 v49))
theorem k0_off14_inb : ∀ (v49 : BitVec 32) (k0_hw7 : k0_chk7 v49), ∀ a, (k0_off14 v49) a + S1x1x64.size a ≤ S26x131073x64.size a := fun v49 k0_hw7 => k0_hw7.1
theorem k0_off59_inb : ∀ (v49 : BitVec 32) (k0_hw7 : k0_chk7 v49), ∀ a, (k0_off59 v49) a + S1x1x64.size a ≤ S26x131073x64.size a := fun v49 k0_hw7 => k0_hw7.2

def k0_off60 (v57 : BitVec 32) : Fin 3 → Nat :=
  let c7_i32_172 : BitVec 32 := 7#32
  let c0_i32_177 : BitVec 32 := 0#32
  ![7, v57.toNat, 0]

def k0_chk8 (v57 : BitVec 32) : Prop :=
  (∀ a, (k0_off16 v57) a + S1x1x64.size a ≤ S26x131073x64.size a) ∧
  (∀ a, (k0_off60 v57) a + S1x1x64.size a ≤ S26x131073x64.size a)
instance k0_chk8.dec : ∀ (v57 : BitVec 32), Decidable (k0_chk8 v57) := fun v57 => decidable_of_iff' _ (Iff.of_eq (k0_chk8.eq_1 v57))
theorem k0_off16_inb : ∀ (v57 : BitVec 32) (k0_hw8 : k0_chk8 v57), ∀ a, (k0_off16 v57) a + S1x1x64.size a ≤ S26x131073x64.size a := fun v57 k0_hw8 => k0_hw8.1
theorem k0_off60_inb : ∀ (v57 : BitVec 32) (k0_hw8 : k0_chk8 v57), ∀ a, (k0_off60 v57) a + S1x1x64.size a ≤ S26x131073x64.size a := fun v57 k0_hw8 => k0_hw8.2

def k0_off61 (v65 : BitVec 32) : Fin 3 → Nat :=
  let c8_i32_178 : BitVec 32 := 8#32
  let c0_i32_183 : BitVec 32 := 0#32
  ![8, v65.toNat, 0]

def k0_chk9 (v65 : BitVec 32) : Prop :=
  (∀ a, (k0_off18 v65) a + S1x1x64.size a ≤ S26x131073x64.size a) ∧
  (∀ a, (k0_off61 v65) a + S1x1x64.size a ≤ S26x131073x64.size a)
instance k0_chk9.dec : ∀ (v65 : BitVec 32), Decidable (k0_chk9 v65) := fun v65 => decidable_of_iff' _ (Iff.of_eq (k0_chk9.eq_1 v65))
theorem k0_off18_inb : ∀ (v65 : BitVec 32) (k0_hw9 : k0_chk9 v65), ∀ a, (k0_off18 v65) a + S1x1x64.size a ≤ S26x131073x64.size a := fun v65 k0_hw9 => k0_hw9.1
theorem k0_off61_inb : ∀ (v65 : BitVec 32) (k0_hw9 : k0_chk9 v65), ∀ a, (k0_off61 v65) a + S1x1x64.size a ≤ S26x131073x64.size a := fun v65 k0_hw9 => k0_hw9.2

def k0_off62 (v73 : BitVec 32) : Fin 3 → Nat :=
  let c9_i32_184 : BitVec 32 := 9#32
  let c0_i32_189 : BitVec 32 := 0#32
  ![9, v73.toNat, 0]

def k0_chk10 (v73 : BitVec 32) : Prop :=
  (∀ a, (k0_off20 v73) a + S1x1x64.size a ≤ S26x131073x64.size a) ∧
  (∀ a, (k0_off62 v73) a + S1x1x64.size a ≤ S26x131073x64.size a)
instance k0_chk10.dec : ∀ (v73 : BitVec 32), Decidable (k0_chk10 v73) := fun v73 => decidable_of_iff' _ (Iff.of_eq (k0_chk10.eq_1 v73))
theorem k0_off20_inb : ∀ (v73 : BitVec 32) (k0_hw10 : k0_chk10 v73), ∀ a, (k0_off20 v73) a + S1x1x64.size a ≤ S26x131073x64.size a := fun v73 k0_hw10 => k0_hw10.1
theorem k0_off62_inb : ∀ (v73 : BitVec 32) (k0_hw10 : k0_chk10 v73), ∀ a, (k0_off62 v73) a + S1x1x64.size a ≤ S26x131073x64.size a := fun v73 k0_hw10 => k0_hw10.2

def k0_off63 (v81 : BitVec 32) : Fin 3 → Nat :=
  let c10_i32_190 : BitVec 32 := 10#32
  let c0_i32_195 : BitVec 32 := 0#32
  ![10, v81.toNat, 0]

def k0_chk11 (v81 : BitVec 32) : Prop :=
  (∀ a, (k0_off22 v81) a + S1x1x64.size a ≤ S26x131073x64.size a) ∧
  (∀ a, (k0_off63 v81) a + S1x1x64.size a ≤ S26x131073x64.size a)
instance k0_chk11.dec : ∀ (v81 : BitVec 32), Decidable (k0_chk11 v81) := fun v81 => decidable_of_iff' _ (Iff.of_eq (k0_chk11.eq_1 v81))
theorem k0_off22_inb : ∀ (v81 : BitVec 32) (k0_hw11 : k0_chk11 v81), ∀ a, (k0_off22 v81) a + S1x1x64.size a ≤ S26x131073x64.size a := fun v81 k0_hw11 => k0_hw11.1
theorem k0_off63_inb : ∀ (v81 : BitVec 32) (k0_hw11 : k0_chk11 v81), ∀ a, (k0_off63 v81) a + S1x1x64.size a ≤ S26x131073x64.size a := fun v81 k0_hw11 => k0_hw11.2

def k0_off64 (v89 : BitVec 32) : Fin 3 → Nat :=
  let c11_i32_196 : BitVec 32 := 11#32
  let c0_i32_201 : BitVec 32 := 0#32
  ![11, v89.toNat, 0]

def k0_chk12 (v89 : BitVec 32) : Prop :=
  (∀ a, (k0_off24 v89) a + S1x1x64.size a ≤ S26x131073x64.size a) ∧
  (∀ a, (k0_off64 v89) a + S1x1x64.size a ≤ S26x131073x64.size a)
instance k0_chk12.dec : ∀ (v89 : BitVec 32), Decidable (k0_chk12 v89) := fun v89 => decidable_of_iff' _ (Iff.of_eq (k0_chk12.eq_1 v89))
theorem k0_off24_inb : ∀ (v89 : BitVec 32) (k0_hw12 : k0_chk12 v89), ∀ a, (k0_off24 v89) a + S1x1x64.size a ≤ S26x131073x64.size a := fun v89 k0_hw12 => k0_hw12.1
theorem k0_off64_inb : ∀ (v89 : BitVec 32) (k0_hw12 : k0_chk12 v89), ∀ a, (k0_off64 v89) a + S1x1x64.size a ≤ S26x131073x64.size a := fun v89 k0_hw12 => k0_hw12.2

def k0_off65 (v97 : BitVec 32) : Fin 3 → Nat :=
  let c12_i32_202 : BitVec 32 := 12#32
  let c0_i32_207 : BitVec 32 := 0#32
  ![12, v97.toNat, 0]

def k0_chk13 (v97 : BitVec 32) : Prop :=
  (∀ a, (k0_off26 v97) a + S1x1x64.size a ≤ S26x131073x64.size a) ∧
  (∀ a, (k0_off65 v97) a + S1x1x64.size a ≤ S26x131073x64.size a)
instance k0_chk13.dec : ∀ (v97 : BitVec 32), Decidable (k0_chk13 v97) := fun v97 => decidable_of_iff' _ (Iff.of_eq (k0_chk13.eq_1 v97))
theorem k0_off26_inb : ∀ (v97 : BitVec 32) (k0_hw13 : k0_chk13 v97), ∀ a, (k0_off26 v97) a + S1x1x64.size a ≤ S26x131073x64.size a := fun v97 k0_hw13 => k0_hw13.1
theorem k0_off65_inb : ∀ (v97 : BitVec 32) (k0_hw13 : k0_chk13 v97), ∀ a, (k0_off65 v97) a + S1x1x64.size a ≤ S26x131073x64.size a := fun v97 k0_hw13 => k0_hw13.2

def k0_off66 (v105 : BitVec 32) : Fin 3 → Nat :=
  let c13_i32_208 : BitVec 32 := 13#32
  let c0_i32_213 : BitVec 32 := 0#32
  ![13, v105.toNat, 0]

def k0_chk14 (v105 : BitVec 32) : Prop :=
  (∀ a, (k0_off28 v105) a + S1x1x64.size a ≤ S26x131073x64.size a) ∧
  (∀ a, (k0_off66 v105) a + S1x1x64.size a ≤ S26x131073x64.size a)
instance k0_chk14.dec : ∀ (v105 : BitVec 32), Decidable (k0_chk14 v105) := fun v105 => decidable_of_iff' _ (Iff.of_eq (k0_chk14.eq_1 v105))
theorem k0_off28_inb : ∀ (v105 : BitVec 32) (k0_hw14 : k0_chk14 v105), ∀ a, (k0_off28 v105) a + S1x1x64.size a ≤ S26x131073x64.size a := fun v105 k0_hw14 => k0_hw14.1
theorem k0_off66_inb : ∀ (v105 : BitVec 32) (k0_hw14 : k0_chk14 v105), ∀ a, (k0_off66 v105) a + S1x1x64.size a ≤ S26x131073x64.size a := fun v105 k0_hw14 => k0_hw14.2

def k0_off67 (v113 : BitVec 32) : Fin 3 → Nat :=
  let c14_i32_214 : BitVec 32 := 14#32
  let c0_i32_219 : BitVec 32 := 0#32
  ![14, v113.toNat, 0]

def k0_chk15 (v113 : BitVec 32) : Prop :=
  (∀ a, (k0_off30 v113) a + S1x1x64.size a ≤ S26x131073x64.size a) ∧
  (∀ a, (k0_off67 v113) a + S1x1x64.size a ≤ S26x131073x64.size a)
instance k0_chk15.dec : ∀ (v113 : BitVec 32), Decidable (k0_chk15 v113) := fun v113 => decidable_of_iff' _ (Iff.of_eq (k0_chk15.eq_1 v113))
theorem k0_off30_inb : ∀ (v113 : BitVec 32) (k0_hw15 : k0_chk15 v113), ∀ a, (k0_off30 v113) a + S1x1x64.size a ≤ S26x131073x64.size a := fun v113 k0_hw15 => k0_hw15.1
theorem k0_off67_inb : ∀ (v113 : BitVec 32) (k0_hw15 : k0_chk15 v113), ∀ a, (k0_off67 v113) a + S1x1x64.size a ≤ S26x131073x64.size a := fun v113 k0_hw15 => k0_hw15.2

def k0_off68 (v121 : BitVec 32) : Fin 3 → Nat :=
  let c15_i32_220 : BitVec 32 := 15#32
  let c0_i32_225 : BitVec 32 := 0#32
  ![15, v121.toNat, 0]

def k0_chk16 (v121 : BitVec 32) : Prop :=
  (∀ a, (k0_off32 v121) a + S1x1x64.size a ≤ S26x131073x64.size a) ∧
  (∀ a, (k0_off68 v121) a + S1x1x64.size a ≤ S26x131073x64.size a)
instance k0_chk16.dec : ∀ (v121 : BitVec 32), Decidable (k0_chk16 v121) := fun v121 => decidable_of_iff' _ (Iff.of_eq (k0_chk16.eq_1 v121))
theorem k0_off32_inb : ∀ (v121 : BitVec 32) (k0_hw16 : k0_chk16 v121), ∀ a, (k0_off32 v121) a + S1x1x64.size a ≤ S26x131073x64.size a := fun v121 k0_hw16 => k0_hw16.1
theorem k0_off68_inb : ∀ (v121 : BitVec 32) (k0_hw16 : k0_chk16 v121), ∀ a, (k0_off68 v121) a + S1x1x64.size a ≤ S26x131073x64.size a := fun v121 k0_hw16 => k0_hw16.2

def k0_off69 (v129 : BitVec 32) : Fin 3 → Nat :=
  let c16_i32_226 : BitVec 32 := 16#32
  let c0_i32_231 : BitVec 32 := 0#32
  ![16, v129.toNat, 0]

def k0_chk17 (v129 : BitVec 32) : Prop :=
  (∀ a, (k0_off34 v129) a + S1x1x64.size a ≤ S26x131073x64.size a) ∧
  (∀ a, (k0_off69 v129) a + S1x1x64.size a ≤ S26x131073x64.size a)
instance k0_chk17.dec : ∀ (v129 : BitVec 32), Decidable (k0_chk17 v129) := fun v129 => decidable_of_iff' _ (Iff.of_eq (k0_chk17.eq_1 v129))
theorem k0_off34_inb : ∀ (v129 : BitVec 32) (k0_hw17 : k0_chk17 v129), ∀ a, (k0_off34 v129) a + S1x1x64.size a ≤ S26x131073x64.size a := fun v129 k0_hw17 => k0_hw17.1
theorem k0_off69_inb : ∀ (v129 : BitVec 32) (k0_hw17 : k0_chk17 v129), ∀ a, (k0_off69 v129) a + S1x1x64.size a ≤ S26x131073x64.size a := fun v129 k0_hw17 => k0_hw17.2

def k0_off70 (v137 : BitVec 32) : Fin 3 → Nat :=
  let c17_i32_232 : BitVec 32 := 17#32
  let c0_i32_237 : BitVec 32 := 0#32
  ![17, v137.toNat, 0]

def k0_chk18 (v137 : BitVec 32) : Prop :=
  (∀ a, (k0_off36 v137) a + S1x1x64.size a ≤ S26x131073x64.size a) ∧
  (∀ a, (k0_off70 v137) a + S1x1x64.size a ≤ S26x131073x64.size a)
instance k0_chk18.dec : ∀ (v137 : BitVec 32), Decidable (k0_chk18 v137) := fun v137 => decidable_of_iff' _ (Iff.of_eq (k0_chk18.eq_1 v137))
theorem k0_off36_inb : ∀ (v137 : BitVec 32) (k0_hw18 : k0_chk18 v137), ∀ a, (k0_off36 v137) a + S1x1x64.size a ≤ S26x131073x64.size a := fun v137 k0_hw18 => k0_hw18.1
theorem k0_off70_inb : ∀ (v137 : BitVec 32) (k0_hw18 : k0_chk18 v137), ∀ a, (k0_off70 v137) a + S1x1x64.size a ≤ S26x131073x64.size a := fun v137 k0_hw18 => k0_hw18.2

def k0_off71 (v145 : BitVec 32) : Fin 3 → Nat :=
  let c18_i32_238 : BitVec 32 := 18#32
  let c0_i32_243 : BitVec 32 := 0#32
  ![18, v145.toNat, 0]

def k0_chk19 (v145 : BitVec 32) : Prop :=
  (∀ a, (k0_off38 v145) a + S1x1x64.size a ≤ S26x131073x64.size a) ∧
  (∀ a, (k0_off71 v145) a + S1x1x64.size a ≤ S26x131073x64.size a)
instance k0_chk19.dec : ∀ (v145 : BitVec 32), Decidable (k0_chk19 v145) := fun v145 => decidable_of_iff' _ (Iff.of_eq (k0_chk19.eq_1 v145))
theorem k0_off38_inb : ∀ (v145 : BitVec 32) (k0_hw19 : k0_chk19 v145), ∀ a, (k0_off38 v145) a + S1x1x64.size a ≤ S26x131073x64.size a := fun v145 k0_hw19 => k0_hw19.1
theorem k0_off71_inb : ∀ (v145 : BitVec 32) (k0_hw19 : k0_chk19 v145), ∀ a, (k0_off71 v145) a + S1x1x64.size a ≤ S26x131073x64.size a := fun v145 k0_hw19 => k0_hw19.2

def k0_off72 (v153 : BitVec 32) : Fin 3 → Nat :=
  let c19_i32_244 : BitVec 32 := 19#32
  let c0_i32_249 : BitVec 32 := 0#32
  ![19, v153.toNat, 0]

def k0_chk20 (v153 : BitVec 32) : Prop :=
  (∀ a, (k0_off40 v153) a + S1x1x64.size a ≤ S26x131073x64.size a) ∧
  (∀ a, (k0_off72 v153) a + S1x1x64.size a ≤ S26x131073x64.size a)
instance k0_chk20.dec : ∀ (v153 : BitVec 32), Decidable (k0_chk20 v153) := fun v153 => decidable_of_iff' _ (Iff.of_eq (k0_chk20.eq_1 v153))
theorem k0_off40_inb : ∀ (v153 : BitVec 32) (k0_hw20 : k0_chk20 v153), ∀ a, (k0_off40 v153) a + S1x1x64.size a ≤ S26x131073x64.size a := fun v153 k0_hw20 => k0_hw20.1
theorem k0_off72_inb : ∀ (v153 : BitVec 32) (k0_hw20 : k0_chk20 v153), ∀ a, (k0_off72 v153) a + S1x1x64.size a ≤ S26x131073x64.size a := fun v153 k0_hw20 => k0_hw20.2

def k0_off73 (v161 : BitVec 32) : Fin 3 → Nat :=
  let c20_i32_250 : BitVec 32 := 20#32
  let c0_i32_255 : BitVec 32 := 0#32
  ![20, v161.toNat, 0]

def k0_chk21 (v161 : BitVec 32) : Prop :=
  (∀ a, (k0_off42 v161) a + S1x1x64.size a ≤ S26x131073x64.size a) ∧
  (∀ a, (k0_off73 v161) a + S1x1x64.size a ≤ S26x131073x64.size a)
instance k0_chk21.dec : ∀ (v161 : BitVec 32), Decidable (k0_chk21 v161) := fun v161 => decidable_of_iff' _ (Iff.of_eq (k0_chk21.eq_1 v161))
theorem k0_off42_inb : ∀ (v161 : BitVec 32) (k0_hw21 : k0_chk21 v161), ∀ a, (k0_off42 v161) a + S1x1x64.size a ≤ S26x131073x64.size a := fun v161 k0_hw21 => k0_hw21.1
theorem k0_off73_inb : ∀ (v161 : BitVec 32) (k0_hw21 : k0_chk21 v161), ∀ a, (k0_off73 v161) a + S1x1x64.size a ≤ S26x131073x64.size a := fun v161 k0_hw21 => k0_hw21.2

def k0_off74 (v169 : BitVec 32) : Fin 3 → Nat :=
  let c21_i32_256 : BitVec 32 := 21#32
  let c0_i32_261 : BitVec 32 := 0#32
  ![21, v169.toNat, 0]

def k0_chk22 (v169 : BitVec 32) : Prop :=
  (∀ a, (k0_off44 v169) a + S1x1x64.size a ≤ S26x131073x64.size a) ∧
  (∀ a, (k0_off74 v169) a + S1x1x64.size a ≤ S26x131073x64.size a)
instance k0_chk22.dec : ∀ (v169 : BitVec 32), Decidable (k0_chk22 v169) := fun v169 => decidable_of_iff' _ (Iff.of_eq (k0_chk22.eq_1 v169))
theorem k0_off44_inb : ∀ (v169 : BitVec 32) (k0_hw22 : k0_chk22 v169), ∀ a, (k0_off44 v169) a + S1x1x64.size a ≤ S26x131073x64.size a := fun v169 k0_hw22 => k0_hw22.1
theorem k0_off74_inb : ∀ (v169 : BitVec 32) (k0_hw22 : k0_chk22 v169), ∀ a, (k0_off74 v169) a + S1x1x64.size a ≤ S26x131073x64.size a := fun v169 k0_hw22 => k0_hw22.2

def k0_off75 (v177 : BitVec 32) : Fin 3 → Nat :=
  let c22_i32_262 : BitVec 32 := 22#32
  let c0_i32_267 : BitVec 32 := 0#32
  ![22, v177.toNat, 0]

def k0_chk23 (v177 : BitVec 32) : Prop :=
  (∀ a, (k0_off46 v177) a + S1x1x64.size a ≤ S26x131073x64.size a) ∧
  (∀ a, (k0_off75 v177) a + S1x1x64.size a ≤ S26x131073x64.size a)
instance k0_chk23.dec : ∀ (v177 : BitVec 32), Decidable (k0_chk23 v177) := fun v177 => decidable_of_iff' _ (Iff.of_eq (k0_chk23.eq_1 v177))
theorem k0_off46_inb : ∀ (v177 : BitVec 32) (k0_hw23 : k0_chk23 v177), ∀ a, (k0_off46 v177) a + S1x1x64.size a ≤ S26x131073x64.size a := fun v177 k0_hw23 => k0_hw23.1
theorem k0_off75_inb : ∀ (v177 : BitVec 32) (k0_hw23 : k0_chk23 v177), ∀ a, (k0_off75 v177) a + S1x1x64.size a ≤ S26x131073x64.size a := fun v177 k0_hw23 => k0_hw23.2

def k0_off76 (v185 : BitVec 32) : Fin 3 → Nat :=
  let c23_i32_268 : BitVec 32 := 23#32
  let c0_i32_273 : BitVec 32 := 0#32
  ![23, v185.toNat, 0]

def k0_chk24 (v185 : BitVec 32) : Prop :=
  (∀ a, (k0_off48 v185) a + S1x1x64.size a ≤ S26x131073x64.size a) ∧
  (∀ a, (k0_off76 v185) a + S1x1x64.size a ≤ S26x131073x64.size a)
instance k0_chk24.dec : ∀ (v185 : BitVec 32), Decidable (k0_chk24 v185) := fun v185 => decidable_of_iff' _ (Iff.of_eq (k0_chk24.eq_1 v185))
theorem k0_off48_inb : ∀ (v185 : BitVec 32) (k0_hw24 : k0_chk24 v185), ∀ a, (k0_off48 v185) a + S1x1x64.size a ≤ S26x131073x64.size a := fun v185 k0_hw24 => k0_hw24.1
theorem k0_off76_inb : ∀ (v185 : BitVec 32) (k0_hw24 : k0_chk24 v185), ∀ a, (k0_off76 v185) a + S1x1x64.size a ≤ S26x131073x64.size a := fun v185 k0_hw24 => k0_hw24.2

def k0_off77 (v193 : BitVec 32) : Fin 3 → Nat :=
  let c24_i32_274 : BitVec 32 := 24#32
  let c0_i32_279 : BitVec 32 := 0#32
  ![24, v193.toNat, 0]

def k0_chk25 (v193 : BitVec 32) : Prop :=
  (∀ a, (k0_off50 v193) a + S1x1x64.size a ≤ S26x131073x64.size a) ∧
  (∀ a, (k0_off77 v193) a + S1x1x64.size a ≤ S26x131073x64.size a)
instance k0_chk25.dec : ∀ (v193 : BitVec 32), Decidable (k0_chk25 v193) := fun v193 => decidable_of_iff' _ (Iff.of_eq (k0_chk25.eq_1 v193))
theorem k0_off50_inb : ∀ (v193 : BitVec 32) (k0_hw25 : k0_chk25 v193), ∀ a, (k0_off50 v193) a + S1x1x64.size a ≤ S26x131073x64.size a := fun v193 k0_hw25 => k0_hw25.1
theorem k0_off77_inb : ∀ (v193 : BitVec 32) (k0_hw25 : k0_chk25 v193), ∀ a, (k0_off77 v193) a + S1x1x64.size a ≤ S26x131073x64.size a := fun v193 k0_hw25 => k0_hw25.2

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x26x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![4096], ![false]⟩

abbrev pre1 : Pipeline.Prefetch sig := ⟨1, ![main_v12.idx], fun | 0 => main_v12.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 2 → Nat :=
  let arg0 : BitVec 32 := BitVec.ofNat 32 (i 0).val
  let v0 : Index := Scalar.indexCast arg0
  let c0 : Index := 0#32
  ![v0.toNat, 0]
def k1_off2 (v1 : BitVec 32) : Fin 3 → Nat :=
  let c0_i32 : BitVec 32 := 0#32
  let c0_i32_4 : BitVec 32 := 0#32
  ![0, v1.toNat, 0]

def k1_off3 (i : grid1.Coords) : Fin 2 → Nat :=
  let arg0 : BitVec 32 := BitVec.ofNat 32 (i 0).val
  let v8 : Index := Scalar.indexCast arg0
  let c1 : Index := 1#32
  ![v8.toNat, 1]
def k1_off4 (v9 : BitVec 32) : Fin 3 → Nat :=
  let c1_i32 : BitVec 32 := 1#32
  let c0_i32_9 : BitVec 32 := 0#32
  ![1, v9.toNat, 0]

def k1_off5 (i : grid1.Coords) : Fin 2 → Nat :=
  let arg0 : BitVec 32 := BitVec.ofNat 32 (i 0).val
  let v16 : Index := Scalar.indexCast arg0
  let c2 : Index := 2#32
  ![v16.toNat, 2]
def k1_off6 (v17 : BitVec 32) : Fin 3 → Nat :=
  let c2_i32 : BitVec 32 := 2#32
  let c0_i32_14 : BitVec 32 := 0#32
  ![2, v17.toNat, 0]

def k1_off7 (i : grid1.Coords) : Fin 2 → Nat :=
  let arg0 : BitVec 32 := BitVec.ofNat 32 (i 0).val
  let v24 : Index := Scalar.indexCast arg0
  let c3 : Index := 3#32
  ![v24.toNat, 3]
def k1_off8 (v25 : BitVec 32) : Fin 3 → Nat :=
  let c3_i32 : BitVec 32 := 3#32
  let c0_i32_19 : BitVec 32 := 0#32
  ![3, v25.toNat, 0]

def k1_off9 (i : grid1.Coords) : Fin 2 → Nat :=
  let arg0 : BitVec 32 := BitVec.ofNat 32 (i 0).val
  let v32 : Index := Scalar.indexCast arg0
  let c4 : Index := 4#32
  ![v32.toNat, 4]
def k1_off10 (v33 : BitVec 32) : Fin 3 → Nat :=
  let c4_i32 : BitVec 32 := 4#32
  let c0_i32_24 : BitVec 32 := 0#32
  ![4, v33.toNat, 0]

def k1_off11 (i : grid1.Coords) : Fin 2 → Nat :=
  let arg0 : BitVec 32 := BitVec.ofNat 32 (i 0).val
  let v40 : Index := Scalar.indexCast arg0
  let c5 : Index := 5#32
  ![v40.toNat, 5]
def k1_off12 (v41 : BitVec 32) : Fin 3 → Nat :=
  let c5_i32 : BitVec 32 := 5#32
  let c0_i32_29 : BitVec 32 := 0#32
  ![5, v41.toNat, 0]

def k1_off13 (i : grid1.Coords) : Fin 2 → Nat :=
  let arg0 : BitVec 32 := BitVec.ofNat 32 (i 0).val
  let v48 : Index := Scalar.indexCast arg0
  let c6 : Index := 6#32
  ![v48.toNat, 6]
def k1_off14 (v49 : BitVec 32) : Fin 3 → Nat :=
  let c6_i32 : BitVec 32 := 6#32
  let c0_i32_34 : BitVec 32 := 0#32
  ![6, v49.toNat, 0]

def k1_off15 (i : grid1.Coords) : Fin 2 → Nat :=
  let arg0 : BitVec 32 := BitVec.ofNat 32 (i 0).val
  let v56 : Index := Scalar.indexCast arg0
  let c7 : Index := 7#32
  ![v56.toNat, 7]
def k1_off16 (v57 : BitVec 32) : Fin 3 → Nat :=
  let c7_i32 : BitVec 32 := 7#32
  let c0_i32_39 : BitVec 32 := 0#32
  ![7, v57.toNat, 0]

def k1_off17 (i : grid1.Coords) : Fin 2 → Nat :=
  let arg0 : BitVec 32 := BitVec.ofNat 32 (i 0).val
  let v64 : Index := Scalar.indexCast arg0
  let c8 : Index := 8#32
  ![v64.toNat, 8]
def k1_off18 (v65 : BitVec 32) : Fin 3 → Nat :=
  let c8_i32 : BitVec 32 := 8#32
  let c0_i32_44 : BitVec 32 := 0#32
  ![8, v65.toNat, 0]

def k1_off19 (i : grid1.Coords) : Fin 2 → Nat :=
  let arg0 : BitVec 32 := BitVec.ofNat 32 (i 0).val
  let v72 : Index := Scalar.indexCast arg0
  let c9 : Index := 9#32
  ![v72.toNat, 9]
def k1_off20 (v73 : BitVec 32) : Fin 3 → Nat :=
  let c9_i32 : BitVec 32 := 9#32
  let c0_i32_49 : BitVec 32 := 0#32
  ![9, v73.toNat, 0]

def k1_off21 (i : grid1.Coords) : Fin 2 → Nat :=
  let arg0 : BitVec 32 := BitVec.ofNat 32 (i 0).val
  let v80 : Index := Scalar.indexCast arg0
  let c10 : Index := 10#32
  ![v80.toNat, 10]
def k1_off22 (v81 : BitVec 32) : Fin 3 → Nat :=
  let c10_i32 : BitVec 32 := 10#32
  let c0_i32_54 : BitVec 32 := 0#32
  ![10, v81.toNat, 0]

def k1_off23 (i : grid1.Coords) : Fin 2 → Nat :=
  let arg0 : BitVec 32 := BitVec.ofNat 32 (i 0).val
  let v88 : Index := Scalar.indexCast arg0
  let c11 : Index := 11#32
  ![v88.toNat, 11]
def k1_off24 (v89 : BitVec 32) : Fin 3 → Nat :=
  let c11_i32 : BitVec 32 := 11#32
  let c0_i32_59 : BitVec 32 := 0#32
  ![11, v89.toNat, 0]

def k1_off25 (i : grid1.Coords) : Fin 2 → Nat :=
  let arg0 : BitVec 32 := BitVec.ofNat 32 (i 0).val
  let v96 : Index := Scalar.indexCast arg0
  let c12 : Index := 12#32
  ![v96.toNat, 12]
def k1_off26 (v97 : BitVec 32) : Fin 3 → Nat :=
  let c12_i32 : BitVec 32 := 12#32
  let c0_i32_64 : BitVec 32 := 0#32
  ![12, v97.toNat, 0]

def k1_off27 (i : grid1.Coords) : Fin 2 → Nat :=
  let arg0 : BitVec 32 := BitVec.ofNat 32 (i 0).val
  let v104 : Index := Scalar.indexCast arg0
  let c13 : Index := 13#32
  ![v104.toNat, 13]
def k1_off28 (v105 : BitVec 32) : Fin 3 → Nat :=
  let c13_i32 : BitVec 32 := 13#32
  let c0_i32_69 : BitVec 32 := 0#32
  ![13, v105.toNat, 0]

def k1_off29 (i : grid1.Coords) : Fin 2 → Nat :=
  let arg0 : BitVec 32 := BitVec.ofNat 32 (i 0).val
  let v112 : Index := Scalar.indexCast arg0
  let c14 : Index := 14#32
  ![v112.toNat, 14]
def k1_off30 (v113 : BitVec 32) : Fin 3 → Nat :=
  let c14_i32 : BitVec 32 := 14#32
  let c0_i32_74 : BitVec 32 := 0#32
  ![14, v113.toNat, 0]

def k1_off31 (i : grid1.Coords) : Fin 2 → Nat :=
  let arg0 : BitVec 32 := BitVec.ofNat 32 (i 0).val
  let v120 : Index := Scalar.indexCast arg0
  let c15 : Index := 15#32
  ![v120.toNat, 15]
def k1_off32 (v121 : BitVec 32) : Fin 3 → Nat :=
  let c15_i32 : BitVec 32 := 15#32
  let c0_i32_79 : BitVec 32 := 0#32
  ![15, v121.toNat, 0]

def k1_off33 (i : grid1.Coords) : Fin 2 → Nat :=
  let arg0 : BitVec 32 := BitVec.ofNat 32 (i 0).val
  let v128 : Index := Scalar.indexCast arg0
  let c16 : Index := 16#32
  ![v128.toNat, 16]
def k1_off34 (v129 : BitVec 32) : Fin 3 → Nat :=
  let c16_i32 : BitVec 32 := 16#32
  let c0_i32_84 : BitVec 32 := 0#32
  ![16, v129.toNat, 0]

def k1_off35 (i : grid1.Coords) : Fin 2 → Nat :=
  let arg0 : BitVec 32 := BitVec.ofNat 32 (i 0).val
  let v136 : Index := Scalar.indexCast arg0
  let c17 : Index := 17#32
  ![v136.toNat, 17]
def k1_off36 (v137 : BitVec 32) : Fin 3 → Nat :=
  let c17_i32 : BitVec 32 := 17#32
  let c0_i32_89 : BitVec 32 := 0#32
  ![17, v137.toNat, 0]

def k1_off37 (i : grid1.Coords) : Fin 2 → Nat :=
  let arg0 : BitVec 32 := BitVec.ofNat 32 (i 0).val
  let v144 : Index := Scalar.indexCast arg0
  let c18 : Index := 18#32
  ![v144.toNat, 18]
def k1_off38 (v145 : BitVec 32) : Fin 3 → Nat :=
  let c18_i32 : BitVec 32 := 18#32
  let c0_i32_94 : BitVec 32 := 0#32
  ![18, v145.toNat, 0]

def k1_off39 (i : grid1.Coords) : Fin 2 → Nat :=
  let arg0 : BitVec 32 := BitVec.ofNat 32 (i 0).val
  let v152 : Index := Scalar.indexCast arg0
  let c19 : Index := 19#32
  ![v152.toNat, 19]
def k1_off40 (v153 : BitVec 32) : Fin 3 → Nat :=
  let c19_i32 : BitVec 32 := 19#32
  let c0_i32_99 : BitVec 32 := 0#32
  ![19, v153.toNat, 0]

def k1_off41 (i : grid1.Coords) : Fin 2 → Nat :=
  let arg0 : BitVec 32 := BitVec.ofNat 32 (i 0).val
  let v160 : Index := Scalar.indexCast arg0
  let c20 : Index := 20#32
  ![v160.toNat, 20]
def k1_off42 (v161 : BitVec 32) : Fin 3 → Nat :=
  let c20_i32 : BitVec 32 := 20#32
  let c0_i32_104 : BitVec 32 := 0#32
  ![20, v161.toNat, 0]

def k1_off43 (i : grid1.Coords) : Fin 2 → Nat :=
  let arg0 : BitVec 32 := BitVec.ofNat 32 (i 0).val
  let v168 : Index := Scalar.indexCast arg0
  let c21 : Index := 21#32
  ![v168.toNat, 21]
def k1_off44 (v169 : BitVec 32) : Fin 3 → Nat :=
  let c21_i32 : BitVec 32 := 21#32
  let c0_i32_109 : BitVec 32 := 0#32
  ![21, v169.toNat, 0]

def k1_off45 (i : grid1.Coords) : Fin 2 → Nat :=
  let arg0 : BitVec 32 := BitVec.ofNat 32 (i 0).val
  let v176 : Index := Scalar.indexCast arg0
  let c22 : Index := 22#32
  ![v176.toNat, 22]
def k1_off46 (v177 : BitVec 32) : Fin 3 → Nat :=
  let c22_i32 : BitVec 32 := 22#32
  let c0_i32_114 : BitVec 32 := 0#32
  ![22, v177.toNat, 0]

def k1_off47 (i : grid1.Coords) : Fin 2 → Nat :=
  let arg0 : BitVec 32 := BitVec.ofNat 32 (i 0).val
  let v184 : Index := Scalar.indexCast arg0
  let c23 : Index := 23#32
  ![v184.toNat, 23]
def k1_off48 (v185 : BitVec 32) : Fin 3 → Nat :=
  let c23_i32 : BitVec 32 := 23#32
  let c0_i32_119 : BitVec 32 := 0#32
  ![23, v185.toNat, 0]

def k1_off49 (i : grid1.Coords) : Fin 2 → Nat :=
  let arg0 : BitVec 32 := BitVec.ofNat 32 (i 0).val
  let v192 : Index := Scalar.indexCast arg0
  let c24 : Index := 24#32
  ![v192.toNat, 24]
def k1_off50 (v193 : BitVec 32) : Fin 3 → Nat :=
  let c24_i32 : BitVec 32 := 24#32
  let c0_i32_124 : BitVec 32 := 0#32
  ![24, v193.toNat, 0]

def k1_off51 (i : grid1.Coords) : Fin 2 → Nat :=
  let arg0 : BitVec 32 := BitVec.ofNat 32 (i 0).val
  let v200 : Index := Scalar.indexCast arg0
  let c25 : Index := 25#32
  ![v200.toNat, 25]
def k1_off52 (v201 : BitVec 32) : Fin 3 → Nat :=
  let c25_i32 : BitVec 32 := 25#32
  let c0_i32_129 : BitVec 32 := 0#32
  ![25, v201.toNat, 0]

def k1_chk26 (v201 : BitVec 32) : Prop :=
  (∀ a, (k1_off52 v201) a + S1x1x64.size a ≤ S26x131073x64.size a)
instance k1_chk26.dec : ∀ (v201 : BitVec 32), Decidable (k1_chk26 v201) := fun v201 => decidable_of_iff' _ (Iff.of_eq (k1_chk26.eq_1 v201))
theorem k1_off52_inb : ∀ (v201 : BitVec 32) (k1_hw26 : k1_chk26 v201), ∀ a, (k1_off52 v201) a + S1x1x64.size a ≤ S26x131073x64.size a := fun v201 k1_hw26 => k1_hw26

def k1_off53 (v1 : BitVec 32) : Fin 3 → Nat :=
  let c0_i32_130 : BitVec 32 := 0#32
  let c0_i32_135 : BitVec 32 := 0#32
  ![0, v1.toNat, 0]

def k1_chk1 (v1 : BitVec 32) : Prop :=
  (∀ a, (k1_off2 v1) a + S1x1x64.size a ≤ S26x131073x64.size a) ∧
  (∀ a, (k1_off53 v1) a + S1x1x64.size a ≤ S26x131073x64.size a)
instance k1_chk1.dec : ∀ (v1 : BitVec 32), Decidable (k1_chk1 v1) := fun v1 => decidable_of_iff' _ (Iff.of_eq (k1_chk1.eq_1 v1))
theorem k1_off2_inb : ∀ (v1 : BitVec 32) (k1_hw1 : k1_chk1 v1), ∀ a, (k1_off2 v1) a + S1x1x64.size a ≤ S26x131073x64.size a := fun v1 k1_hw1 => k1_hw1.1
theorem k1_off53_inb : ∀ (v1 : BitVec 32) (k1_hw1 : k1_chk1 v1), ∀ a, (k1_off53 v1) a + S1x1x64.size a ≤ S26x131073x64.size a := fun v1 k1_hw1 => k1_hw1.2

def k1_off54 (v9 : BitVec 32) : Fin 3 → Nat :=
  let c1_i32_136 : BitVec 32 := 1#32
  let c0_i32_141 : BitVec 32 := 0#32
  ![1, v9.toNat, 0]

def k1_chk2 (v9 : BitVec 32) : Prop :=
  (∀ a, (k1_off4 v9) a + S1x1x64.size a ≤ S26x131073x64.size a) ∧
  (∀ a, (k1_off54 v9) a + S1x1x64.size a ≤ S26x131073x64.size a)
instance k1_chk2.dec : ∀ (v9 : BitVec 32), Decidable (k1_chk2 v9) := fun v9 => decidable_of_iff' _ (Iff.of_eq (k1_chk2.eq_1 v9))
theorem k1_off4_inb : ∀ (v9 : BitVec 32) (k1_hw2 : k1_chk2 v9), ∀ a, (k1_off4 v9) a + S1x1x64.size a ≤ S26x131073x64.size a := fun v9 k1_hw2 => k1_hw2.1
theorem k1_off54_inb : ∀ (v9 : BitVec 32) (k1_hw2 : k1_chk2 v9), ∀ a, (k1_off54 v9) a + S1x1x64.size a ≤ S26x131073x64.size a := fun v9 k1_hw2 => k1_hw2.2

def k1_off55 (v17 : BitVec 32) : Fin 3 → Nat :=
  let c2_i32_142 : BitVec 32 := 2#32
  let c0_i32_147 : BitVec 32 := 0#32
  ![2, v17.toNat, 0]

def k1_chk3 (v17 : BitVec 32) : Prop :=
  (∀ a, (k1_off6 v17) a + S1x1x64.size a ≤ S26x131073x64.size a) ∧
  (∀ a, (k1_off55 v17) a + S1x1x64.size a ≤ S26x131073x64.size a)
instance k1_chk3.dec : ∀ (v17 : BitVec 32), Decidable (k1_chk3 v17) := fun v17 => decidable_of_iff' _ (Iff.of_eq (k1_chk3.eq_1 v17))
theorem k1_off6_inb : ∀ (v17 : BitVec 32) (k1_hw3 : k1_chk3 v17), ∀ a, (k1_off6 v17) a + S1x1x64.size a ≤ S26x131073x64.size a := fun v17 k1_hw3 => k1_hw3.1
theorem k1_off55_inb : ∀ (v17 : BitVec 32) (k1_hw3 : k1_chk3 v17), ∀ a, (k1_off55 v17) a + S1x1x64.size a ≤ S26x131073x64.size a := fun v17 k1_hw3 => k1_hw3.2

def k1_off56 (v25 : BitVec 32) : Fin 3 → Nat :=
  let c3_i32_148 : BitVec 32 := 3#32
  let c0_i32_153 : BitVec 32 := 0#32
  ![3, v25.toNat, 0]

def k1_chk4 (v25 : BitVec 32) : Prop :=
  (∀ a, (k1_off8 v25) a + S1x1x64.size a ≤ S26x131073x64.size a) ∧
  (∀ a, (k1_off56 v25) a + S1x1x64.size a ≤ S26x131073x64.size a)
instance k1_chk4.dec : ∀ (v25 : BitVec 32), Decidable (k1_chk4 v25) := fun v25 => decidable_of_iff' _ (Iff.of_eq (k1_chk4.eq_1 v25))
theorem k1_off8_inb : ∀ (v25 : BitVec 32) (k1_hw4 : k1_chk4 v25), ∀ a, (k1_off8 v25) a + S1x1x64.size a ≤ S26x131073x64.size a := fun v25 k1_hw4 => k1_hw4.1
theorem k1_off56_inb : ∀ (v25 : BitVec 32) (k1_hw4 : k1_chk4 v25), ∀ a, (k1_off56 v25) a + S1x1x64.size a ≤ S26x131073x64.size a := fun v25 k1_hw4 => k1_hw4.2

def k1_off57 (v33 : BitVec 32) : Fin 3 → Nat :=
  let c4_i32_154 : BitVec 32 := 4#32
  let c0_i32_159 : BitVec 32 := 0#32
  ![4, v33.toNat, 0]

def k1_chk5 (v33 : BitVec 32) : Prop :=
  (∀ a, (k1_off10 v33) a + S1x1x64.size a ≤ S26x131073x64.size a) ∧
  (∀ a, (k1_off57 v33) a + S1x1x64.size a ≤ S26x131073x64.size a)
instance k1_chk5.dec : ∀ (v33 : BitVec 32), Decidable (k1_chk5 v33) := fun v33 => decidable_of_iff' _ (Iff.of_eq (k1_chk5.eq_1 v33))
theorem k1_off10_inb : ∀ (v33 : BitVec 32) (k1_hw5 : k1_chk5 v33), ∀ a, (k1_off10 v33) a + S1x1x64.size a ≤ S26x131073x64.size a := fun v33 k1_hw5 => k1_hw5.1
theorem k1_off57_inb : ∀ (v33 : BitVec 32) (k1_hw5 : k1_chk5 v33), ∀ a, (k1_off57 v33) a + S1x1x64.size a ≤ S26x131073x64.size a := fun v33 k1_hw5 => k1_hw5.2

def k1_off58 (v41 : BitVec 32) : Fin 3 → Nat :=
  let c5_i32_160 : BitVec 32 := 5#32
  let c0_i32_165 : BitVec 32 := 0#32
  ![5, v41.toNat, 0]

def k1_chk6 (v41 : BitVec 32) : Prop :=
  (∀ a, (k1_off12 v41) a + S1x1x64.size a ≤ S26x131073x64.size a) ∧
  (∀ a, (k1_off58 v41) a + S1x1x64.size a ≤ S26x131073x64.size a)
instance k1_chk6.dec : ∀ (v41 : BitVec 32), Decidable (k1_chk6 v41) := fun v41 => decidable_of_iff' _ (Iff.of_eq (k1_chk6.eq_1 v41))
theorem k1_off12_inb : ∀ (v41 : BitVec 32) (k1_hw6 : k1_chk6 v41), ∀ a, (k1_off12 v41) a + S1x1x64.size a ≤ S26x131073x64.size a := fun v41 k1_hw6 => k1_hw6.1
theorem k1_off58_inb : ∀ (v41 : BitVec 32) (k1_hw6 : k1_chk6 v41), ∀ a, (k1_off58 v41) a + S1x1x64.size a ≤ S26x131073x64.size a := fun v41 k1_hw6 => k1_hw6.2

def k1_off59 (v49 : BitVec 32) : Fin 3 → Nat :=
  let c6_i32_166 : BitVec 32 := 6#32
  let c0_i32_171 : BitVec 32 := 0#32
  ![6, v49.toNat, 0]

def k1_chk7 (v49 : BitVec 32) : Prop :=
  (∀ a, (k1_off14 v49) a + S1x1x64.size a ≤ S26x131073x64.size a) ∧
  (∀ a, (k1_off59 v49) a + S1x1x64.size a ≤ S26x131073x64.size a)
instance k1_chk7.dec : ∀ (v49 : BitVec 32), Decidable (k1_chk7 v49) := fun v49 => decidable_of_iff' _ (Iff.of_eq (k1_chk7.eq_1 v49))
theorem k1_off14_inb : ∀ (v49 : BitVec 32) (k1_hw7 : k1_chk7 v49), ∀ a, (k1_off14 v49) a + S1x1x64.size a ≤ S26x131073x64.size a := fun v49 k1_hw7 => k1_hw7.1
theorem k1_off59_inb : ∀ (v49 : BitVec 32) (k1_hw7 : k1_chk7 v49), ∀ a, (k1_off59 v49) a + S1x1x64.size a ≤ S26x131073x64.size a := fun v49 k1_hw7 => k1_hw7.2

def k1_off60 (v57 : BitVec 32) : Fin 3 → Nat :=
  let c7_i32_172 : BitVec 32 := 7#32
  let c0_i32_177 : BitVec 32 := 0#32
  ![7, v57.toNat, 0]

def k1_chk8 (v57 : BitVec 32) : Prop :=
  (∀ a, (k1_off16 v57) a + S1x1x64.size a ≤ S26x131073x64.size a) ∧
  (∀ a, (k1_off60 v57) a + S1x1x64.size a ≤ S26x131073x64.size a)
instance k1_chk8.dec : ∀ (v57 : BitVec 32), Decidable (k1_chk8 v57) := fun v57 => decidable_of_iff' _ (Iff.of_eq (k1_chk8.eq_1 v57))
theorem k1_off16_inb : ∀ (v57 : BitVec 32) (k1_hw8 : k1_chk8 v57), ∀ a, (k1_off16 v57) a + S1x1x64.size a ≤ S26x131073x64.size a := fun v57 k1_hw8 => k1_hw8.1
theorem k1_off60_inb : ∀ (v57 : BitVec 32) (k1_hw8 : k1_chk8 v57), ∀ a, (k1_off60 v57) a + S1x1x64.size a ≤ S26x131073x64.size a := fun v57 k1_hw8 => k1_hw8.2

def k1_off61 (v65 : BitVec 32) : Fin 3 → Nat :=
  let c8_i32_178 : BitVec 32 := 8#32
  let c0_i32_183 : BitVec 32 := 0#32
  ![8, v65.toNat, 0]

def k1_chk9 (v65 : BitVec 32) : Prop :=
  (∀ a, (k1_off18 v65) a + S1x1x64.size a ≤ S26x131073x64.size a) ∧
  (∀ a, (k1_off61 v65) a + S1x1x64.size a ≤ S26x131073x64.size a)
instance k1_chk9.dec : ∀ (v65 : BitVec 32), Decidable (k1_chk9 v65) := fun v65 => decidable_of_iff' _ (Iff.of_eq (k1_chk9.eq_1 v65))
theorem k1_off18_inb : ∀ (v65 : BitVec 32) (k1_hw9 : k1_chk9 v65), ∀ a, (k1_off18 v65) a + S1x1x64.size a ≤ S26x131073x64.size a := fun v65 k1_hw9 => k1_hw9.1
theorem k1_off61_inb : ∀ (v65 : BitVec 32) (k1_hw9 : k1_chk9 v65), ∀ a, (k1_off61 v65) a + S1x1x64.size a ≤ S26x131073x64.size a := fun v65 k1_hw9 => k1_hw9.2

def k1_off62 (v73 : BitVec 32) : Fin 3 → Nat :=
  let c9_i32_184 : BitVec 32 := 9#32
  let c0_i32_189 : BitVec 32 := 0#32
  ![9, v73.toNat, 0]

def k1_chk10 (v73 : BitVec 32) : Prop :=
  (∀ a, (k1_off20 v73) a + S1x1x64.size a ≤ S26x131073x64.size a) ∧
  (∀ a, (k1_off62 v73) a + S1x1x64.size a ≤ S26x131073x64.size a)
instance k1_chk10.dec : ∀ (v73 : BitVec 32), Decidable (k1_chk10 v73) := fun v73 => decidable_of_iff' _ (Iff.of_eq (k1_chk10.eq_1 v73))
theorem k1_off20_inb : ∀ (v73 : BitVec 32) (k1_hw10 : k1_chk10 v73), ∀ a, (k1_off20 v73) a + S1x1x64.size a ≤ S26x131073x64.size a := fun v73 k1_hw10 => k1_hw10.1
theorem k1_off62_inb : ∀ (v73 : BitVec 32) (k1_hw10 : k1_chk10 v73), ∀ a, (k1_off62 v73) a + S1x1x64.size a ≤ S26x131073x64.size a := fun v73 k1_hw10 => k1_hw10.2

def k1_off63 (v81 : BitVec 32) : Fin 3 → Nat :=
  let c10_i32_190 : BitVec 32 := 10#32
  let c0_i32_195 : BitVec 32 := 0#32
  ![10, v81.toNat, 0]

def k1_chk11 (v81 : BitVec 32) : Prop :=
  (∀ a, (k1_off22 v81) a + S1x1x64.size a ≤ S26x131073x64.size a) ∧
  (∀ a, (k1_off63 v81) a + S1x1x64.size a ≤ S26x131073x64.size a)
instance k1_chk11.dec : ∀ (v81 : BitVec 32), Decidable (k1_chk11 v81) := fun v81 => decidable_of_iff' _ (Iff.of_eq (k1_chk11.eq_1 v81))
theorem k1_off22_inb : ∀ (v81 : BitVec 32) (k1_hw11 : k1_chk11 v81), ∀ a, (k1_off22 v81) a + S1x1x64.size a ≤ S26x131073x64.size a := fun v81 k1_hw11 => k1_hw11.1
theorem k1_off63_inb : ∀ (v81 : BitVec 32) (k1_hw11 : k1_chk11 v81), ∀ a, (k1_off63 v81) a + S1x1x64.size a ≤ S26x131073x64.size a := fun v81 k1_hw11 => k1_hw11.2

def k1_off64 (v89 : BitVec 32) : Fin 3 → Nat :=
  let c11_i32_196 : BitVec 32 := 11#32
  let c0_i32_201 : BitVec 32 := 0#32
  ![11, v89.toNat, 0]

def k1_chk12 (v89 : BitVec 32) : Prop :=
  (∀ a, (k1_off24 v89) a + S1x1x64.size a ≤ S26x131073x64.size a) ∧
  (∀ a, (k1_off64 v89) a + S1x1x64.size a ≤ S26x131073x64.size a)
instance k1_chk12.dec : ∀ (v89 : BitVec 32), Decidable (k1_chk12 v89) := fun v89 => decidable_of_iff' _ (Iff.of_eq (k1_chk12.eq_1 v89))
theorem k1_off24_inb : ∀ (v89 : BitVec 32) (k1_hw12 : k1_chk12 v89), ∀ a, (k1_off24 v89) a + S1x1x64.size a ≤ S26x131073x64.size a := fun v89 k1_hw12 => k1_hw12.1
theorem k1_off64_inb : ∀ (v89 : BitVec 32) (k1_hw12 : k1_chk12 v89), ∀ a, (k1_off64 v89) a + S1x1x64.size a ≤ S26x131073x64.size a := fun v89 k1_hw12 => k1_hw12.2

def k1_off65 (v97 : BitVec 32) : Fin 3 → Nat :=
  let c12_i32_202 : BitVec 32 := 12#32
  let c0_i32_207 : BitVec 32 := 0#32
  ![12, v97.toNat, 0]

def k1_chk13 (v97 : BitVec 32) : Prop :=
  (∀ a, (k1_off26 v97) a + S1x1x64.size a ≤ S26x131073x64.size a) ∧
  (∀ a, (k1_off65 v97) a + S1x1x64.size a ≤ S26x131073x64.size a)
instance k1_chk13.dec : ∀ (v97 : BitVec 32), Decidable (k1_chk13 v97) := fun v97 => decidable_of_iff' _ (Iff.of_eq (k1_chk13.eq_1 v97))
theorem k1_off26_inb : ∀ (v97 : BitVec 32) (k1_hw13 : k1_chk13 v97), ∀ a, (k1_off26 v97) a + S1x1x64.size a ≤ S26x131073x64.size a := fun v97 k1_hw13 => k1_hw13.1
theorem k1_off65_inb : ∀ (v97 : BitVec 32) (k1_hw13 : k1_chk13 v97), ∀ a, (k1_off65 v97) a + S1x1x64.size a ≤ S26x131073x64.size a := fun v97 k1_hw13 => k1_hw13.2

def k1_off66 (v105 : BitVec 32) : Fin 3 → Nat :=
  let c13_i32_208 : BitVec 32 := 13#32
  let c0_i32_213 : BitVec 32 := 0#32
  ![13, v105.toNat, 0]

def k1_chk14 (v105 : BitVec 32) : Prop :=
  (∀ a, (k1_off28 v105) a + S1x1x64.size a ≤ S26x131073x64.size a) ∧
  (∀ a, (k1_off66 v105) a + S1x1x64.size a ≤ S26x131073x64.size a)
instance k1_chk14.dec : ∀ (v105 : BitVec 32), Decidable (k1_chk14 v105) := fun v105 => decidable_of_iff' _ (Iff.of_eq (k1_chk14.eq_1 v105))
theorem k1_off28_inb : ∀ (v105 : BitVec 32) (k1_hw14 : k1_chk14 v105), ∀ a, (k1_off28 v105) a + S1x1x64.size a ≤ S26x131073x64.size a := fun v105 k1_hw14 => k1_hw14.1
theorem k1_off66_inb : ∀ (v105 : BitVec 32) (k1_hw14 : k1_chk14 v105), ∀ a, (k1_off66 v105) a + S1x1x64.size a ≤ S26x131073x64.size a := fun v105 k1_hw14 => k1_hw14.2

def k1_off67 (v113 : BitVec 32) : Fin 3 → Nat :=
  let c14_i32_214 : BitVec 32 := 14#32
  let c0_i32_219 : BitVec 32 := 0#32
  ![14, v113.toNat, 0]

def k1_chk15 (v113 : BitVec 32) : Prop :=
  (∀ a, (k1_off30 v113) a + S1x1x64.size a ≤ S26x131073x64.size a) ∧
  (∀ a, (k1_off67 v113) a + S1x1x64.size a ≤ S26x131073x64.size a)
instance k1_chk15.dec : ∀ (v113 : BitVec 32), Decidable (k1_chk15 v113) := fun v113 => decidable_of_iff' _ (Iff.of_eq (k1_chk15.eq_1 v113))
theorem k1_off30_inb : ∀ (v113 : BitVec 32) (k1_hw15 : k1_chk15 v113), ∀ a, (k1_off30 v113) a + S1x1x64.size a ≤ S26x131073x64.size a := fun v113 k1_hw15 => k1_hw15.1
theorem k1_off67_inb : ∀ (v113 : BitVec 32) (k1_hw15 : k1_chk15 v113), ∀ a, (k1_off67 v113) a + S1x1x64.size a ≤ S26x131073x64.size a := fun v113 k1_hw15 => k1_hw15.2

def k1_off68 (v121 : BitVec 32) : Fin 3 → Nat :=
  let c15_i32_220 : BitVec 32 := 15#32
  let c0_i32_225 : BitVec 32 := 0#32
  ![15, v121.toNat, 0]

def k1_chk16 (v121 : BitVec 32) : Prop :=
  (∀ a, (k1_off32 v121) a + S1x1x64.size a ≤ S26x131073x64.size a) ∧
  (∀ a, (k1_off68 v121) a + S1x1x64.size a ≤ S26x131073x64.size a)
instance k1_chk16.dec : ∀ (v121 : BitVec 32), Decidable (k1_chk16 v121) := fun v121 => decidable_of_iff' _ (Iff.of_eq (k1_chk16.eq_1 v121))
theorem k1_off32_inb : ∀ (v121 : BitVec 32) (k1_hw16 : k1_chk16 v121), ∀ a, (k1_off32 v121) a + S1x1x64.size a ≤ S26x131073x64.size a := fun v121 k1_hw16 => k1_hw16.1
theorem k1_off68_inb : ∀ (v121 : BitVec 32) (k1_hw16 : k1_chk16 v121), ∀ a, (k1_off68 v121) a + S1x1x64.size a ≤ S26x131073x64.size a := fun v121 k1_hw16 => k1_hw16.2

def k1_off69 (v129 : BitVec 32) : Fin 3 → Nat :=
  let c16_i32_226 : BitVec 32 := 16#32
  let c0_i32_231 : BitVec 32 := 0#32
  ![16, v129.toNat, 0]

def k1_chk17 (v129 : BitVec 32) : Prop :=
  (∀ a, (k1_off34 v129) a + S1x1x64.size a ≤ S26x131073x64.size a) ∧
  (∀ a, (k1_off69 v129) a + S1x1x64.size a ≤ S26x131073x64.size a)
instance k1_chk17.dec : ∀ (v129 : BitVec 32), Decidable (k1_chk17 v129) := fun v129 => decidable_of_iff' _ (Iff.of_eq (k1_chk17.eq_1 v129))
theorem k1_off34_inb : ∀ (v129 : BitVec 32) (k1_hw17 : k1_chk17 v129), ∀ a, (k1_off34 v129) a + S1x1x64.size a ≤ S26x131073x64.size a := fun v129 k1_hw17 => k1_hw17.1
theorem k1_off69_inb : ∀ (v129 : BitVec 32) (k1_hw17 : k1_chk17 v129), ∀ a, (k1_off69 v129) a + S1x1x64.size a ≤ S26x131073x64.size a := fun v129 k1_hw17 => k1_hw17.2

def k1_off70 (v137 : BitVec 32) : Fin 3 → Nat :=
  let c17_i32_232 : BitVec 32 := 17#32
  let c0_i32_237 : BitVec 32 := 0#32
  ![17, v137.toNat, 0]

def k1_chk18 (v137 : BitVec 32) : Prop :=
  (∀ a, (k1_off36 v137) a + S1x1x64.size a ≤ S26x131073x64.size a) ∧
  (∀ a, (k1_off70 v137) a + S1x1x64.size a ≤ S26x131073x64.size a)
instance k1_chk18.dec : ∀ (v137 : BitVec 32), Decidable (k1_chk18 v137) := fun v137 => decidable_of_iff' _ (Iff.of_eq (k1_chk18.eq_1 v137))
theorem k1_off36_inb : ∀ (v137 : BitVec 32) (k1_hw18 : k1_chk18 v137), ∀ a, (k1_off36 v137) a + S1x1x64.size a ≤ S26x131073x64.size a := fun v137 k1_hw18 => k1_hw18.1
theorem k1_off70_inb : ∀ (v137 : BitVec 32) (k1_hw18 : k1_chk18 v137), ∀ a, (k1_off70 v137) a + S1x1x64.size a ≤ S26x131073x64.size a := fun v137 k1_hw18 => k1_hw18.2

def k1_off71 (v145 : BitVec 32) : Fin 3 → Nat :=
  let c18_i32_238 : BitVec 32 := 18#32
  let c0_i32_243 : BitVec 32 := 0#32
  ![18, v145.toNat, 0]

def k1_chk19 (v145 : BitVec 32) : Prop :=
  (∀ a, (k1_off38 v145) a + S1x1x64.size a ≤ S26x131073x64.size a) ∧
  (∀ a, (k1_off71 v145) a + S1x1x64.size a ≤ S26x131073x64.size a)
instance k1_chk19.dec : ∀ (v145 : BitVec 32), Decidable (k1_chk19 v145) := fun v145 => decidable_of_iff' _ (Iff.of_eq (k1_chk19.eq_1 v145))
theorem k1_off38_inb : ∀ (v145 : BitVec 32) (k1_hw19 : k1_chk19 v145), ∀ a, (k1_off38 v145) a + S1x1x64.size a ≤ S26x131073x64.size a := fun v145 k1_hw19 => k1_hw19.1
theorem k1_off71_inb : ∀ (v145 : BitVec 32) (k1_hw19 : k1_chk19 v145), ∀ a, (k1_off71 v145) a + S1x1x64.size a ≤ S26x131073x64.size a := fun v145 k1_hw19 => k1_hw19.2

def k1_off72 (v153 : BitVec 32) : Fin 3 → Nat :=
  let c19_i32_244 : BitVec 32 := 19#32
  let c0_i32_249 : BitVec 32 := 0#32
  ![19, v153.toNat, 0]

def k1_chk20 (v153 : BitVec 32) : Prop :=
  (∀ a, (k1_off40 v153) a + S1x1x64.size a ≤ S26x131073x64.size a) ∧
  (∀ a, (k1_off72 v153) a + S1x1x64.size a ≤ S26x131073x64.size a)
instance k1_chk20.dec : ∀ (v153 : BitVec 32), Decidable (k1_chk20 v153) := fun v153 => decidable_of_iff' _ (Iff.of_eq (k1_chk20.eq_1 v153))
theorem k1_off40_inb : ∀ (v153 : BitVec 32) (k1_hw20 : k1_chk20 v153), ∀ a, (k1_off40 v153) a + S1x1x64.size a ≤ S26x131073x64.size a := fun v153 k1_hw20 => k1_hw20.1
theorem k1_off72_inb : ∀ (v153 : BitVec 32) (k1_hw20 : k1_chk20 v153), ∀ a, (k1_off72 v153) a + S1x1x64.size a ≤ S26x131073x64.size a := fun v153 k1_hw20 => k1_hw20.2

def k1_off73 (v161 : BitVec 32) : Fin 3 → Nat :=
  let c20_i32_250 : BitVec 32 := 20#32
  let c0_i32_255 : BitVec 32 := 0#32
  ![20, v161.toNat, 0]

def k1_chk21 (v161 : BitVec 32) : Prop :=
  (∀ a, (k1_off42 v161) a + S1x1x64.size a ≤ S26x131073x64.size a) ∧
  (∀ a, (k1_off73 v161) a + S1x1x64.size a ≤ S26x131073x64.size a)
instance k1_chk21.dec : ∀ (v161 : BitVec 32), Decidable (k1_chk21 v161) := fun v161 => decidable_of_iff' _ (Iff.of_eq (k1_chk21.eq_1 v161))
theorem k1_off42_inb : ∀ (v161 : BitVec 32) (k1_hw21 : k1_chk21 v161), ∀ a, (k1_off42 v161) a + S1x1x64.size a ≤ S26x131073x64.size a := fun v161 k1_hw21 => k1_hw21.1
theorem k1_off73_inb : ∀ (v161 : BitVec 32) (k1_hw21 : k1_chk21 v161), ∀ a, (k1_off73 v161) a + S1x1x64.size a ≤ S26x131073x64.size a := fun v161 k1_hw21 => k1_hw21.2

def k1_off74 (v169 : BitVec 32) : Fin 3 → Nat :=
  let c21_i32_256 : BitVec 32 := 21#32
  let c0_i32_261 : BitVec 32 := 0#32
  ![21, v169.toNat, 0]

def k1_chk22 (v169 : BitVec 32) : Prop :=
  (∀ a, (k1_off44 v169) a + S1x1x64.size a ≤ S26x131073x64.size a) ∧
  (∀ a, (k1_off74 v169) a + S1x1x64.size a ≤ S26x131073x64.size a)
instance k1_chk22.dec : ∀ (v169 : BitVec 32), Decidable (k1_chk22 v169) := fun v169 => decidable_of_iff' _ (Iff.of_eq (k1_chk22.eq_1 v169))
theorem k1_off44_inb : ∀ (v169 : BitVec 32) (k1_hw22 : k1_chk22 v169), ∀ a, (k1_off44 v169) a + S1x1x64.size a ≤ S26x131073x64.size a := fun v169 k1_hw22 => k1_hw22.1
theorem k1_off74_inb : ∀ (v169 : BitVec 32) (k1_hw22 : k1_chk22 v169), ∀ a, (k1_off74 v169) a + S1x1x64.size a ≤ S26x131073x64.size a := fun v169 k1_hw22 => k1_hw22.2

def k1_off75 (v177 : BitVec 32) : Fin 3 → Nat :=
  let c22_i32_262 : BitVec 32 := 22#32
  let c0_i32_267 : BitVec 32 := 0#32
  ![22, v177.toNat, 0]

def k1_chk23 (v177 : BitVec 32) : Prop :=
  (∀ a, (k1_off46 v177) a + S1x1x64.size a ≤ S26x131073x64.size a) ∧
  (∀ a, (k1_off75 v177) a + S1x1x64.size a ≤ S26x131073x64.size a)
instance k1_chk23.dec : ∀ (v177 : BitVec 32), Decidable (k1_chk23 v177) := fun v177 => decidable_of_iff' _ (Iff.of_eq (k1_chk23.eq_1 v177))
theorem k1_off46_inb : ∀ (v177 : BitVec 32) (k1_hw23 : k1_chk23 v177), ∀ a, (k1_off46 v177) a + S1x1x64.size a ≤ S26x131073x64.size a := fun v177 k1_hw23 => k1_hw23.1
theorem k1_off75_inb : ∀ (v177 : BitVec 32) (k1_hw23 : k1_chk23 v177), ∀ a, (k1_off75 v177) a + S1x1x64.size a ≤ S26x131073x64.size a := fun v177 k1_hw23 => k1_hw23.2

def k1_off76 (v185 : BitVec 32) : Fin 3 → Nat :=
  let c23_i32_268 : BitVec 32 := 23#32
  let c0_i32_273 : BitVec 32 := 0#32
  ![23, v185.toNat, 0]

def k1_chk24 (v185 : BitVec 32) : Prop :=
  (∀ a, (k1_off48 v185) a + S1x1x64.size a ≤ S26x131073x64.size a) ∧
  (∀ a, (k1_off76 v185) a + S1x1x64.size a ≤ S26x131073x64.size a)
instance k1_chk24.dec : ∀ (v185 : BitVec 32), Decidable (k1_chk24 v185) := fun v185 => decidable_of_iff' _ (Iff.of_eq (k1_chk24.eq_1 v185))
theorem k1_off48_inb : ∀ (v185 : BitVec 32) (k1_hw24 : k1_chk24 v185), ∀ a, (k1_off48 v185) a + S1x1x64.size a ≤ S26x131073x64.size a := fun v185 k1_hw24 => k1_hw24.1
theorem k1_off76_inb : ∀ (v185 : BitVec 32) (k1_hw24 : k1_chk24 v185), ∀ a, (k1_off76 v185) a + S1x1x64.size a ≤ S26x131073x64.size a := fun v185 k1_hw24 => k1_hw24.2

def k1_off77 (v193 : BitVec 32) : Fin 3 → Nat :=
  let c24_i32_274 : BitVec 32 := 24#32
  let c0_i32_279 : BitVec 32 := 0#32
  ![24, v193.toNat, 0]

def k1_chk25 (v193 : BitVec 32) : Prop :=
  (∀ a, (k1_off50 v193) a + S1x1x64.size a ≤ S26x131073x64.size a) ∧
  (∀ a, (k1_off77 v193) a + S1x1x64.size a ≤ S26x131073x64.size a)
instance k1_chk25.dec : ∀ (v193 : BitVec 32), Decidable (k1_chk25 v193) := fun v193 => decidable_of_iff' _ (Iff.of_eq (k1_chk25.eq_1 v193))
theorem k1_off50_inb : ∀ (v193 : BitVec 32) (k1_hw25 : k1_chk25 v193), ∀ a, (k1_off50 v193) a + S1x1x64.size a ≤ S26x131073x64.size a := fun v193 k1_hw25 => k1_hw25.1
theorem k1_off77_inb : ∀ (v193 : BitVec 32) (k1_hw25 : k1_chk25 v193), ∀ a, (k1_off77 v193) a + S1x1x64.size a ≤ S26x131073x64.size a := fun v193 k1_hw25 => k1_hw25.2

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x26x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev grid2 : Pipeline.Grid := ⟨1, ![4096], ![false]⟩

abbrev pre2 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 2 → Nat :=
  let arg0 : BitVec 32 := BitVec.ofNat 32 (i 0).val
  let v0 : Index := Scalar.indexCast arg0
  let c0 : Index := 0#32
  ![v0.toNat, 0]
def k2_off2 (v1 : BitVec 32) : Fin 3 → Nat :=
  let c0_i32 : BitVec 32 := 0#32
  let c0_i32_4 : BitVec 32 := 0#32
  ![0, v1.toNat, 0]

def k2_off3 (i : grid2.Coords) : Fin 2 → Nat :=
  let arg0 : BitVec 32 := BitVec.ofNat 32 (i 0).val
  let v8 : Index := Scalar.indexCast arg0
  let c1 : Index := 1#32
  ![v8.toNat, 1]
def k2_off4 (v9 : BitVec 32) : Fin 3 → Nat :=
  let c1_i32 : BitVec 32 := 1#32
  let c0_i32_9 : BitVec 32 := 0#32
  ![1, v9.toNat, 0]

def k2_off5 (i : grid2.Coords) : Fin 2 → Nat :=
  let arg0 : BitVec 32 := BitVec.ofNat 32 (i 0).val
  let v16 : Index := Scalar.indexCast arg0
  let c2 : Index := 2#32
  ![v16.toNat, 2]
def k2_off6 (v17 : BitVec 32) : Fin 3 → Nat :=
  let c2_i32 : BitVec 32 := 2#32
  let c0_i32_14 : BitVec 32 := 0#32
  ![2, v17.toNat, 0]

def k2_off7 (i : grid2.Coords) : Fin 2 → Nat :=
  let arg0 : BitVec 32 := BitVec.ofNat 32 (i 0).val
  let v24 : Index := Scalar.indexCast arg0
  let c3 : Index := 3#32
  ![v24.toNat, 3]
def k2_off8 (v25 : BitVec 32) : Fin 3 → Nat :=
  let c3_i32 : BitVec 32 := 3#32
  let c0_i32_19 : BitVec 32 := 0#32
  ![3, v25.toNat, 0]

def k2_off9 (i : grid2.Coords) : Fin 2 → Nat :=
  let arg0 : BitVec 32 := BitVec.ofNat 32 (i 0).val
  let v32 : Index := Scalar.indexCast arg0
  let c4 : Index := 4#32
  ![v32.toNat, 4]
def k2_off10 (v33 : BitVec 32) : Fin 3 → Nat :=
  let c4_i32 : BitVec 32 := 4#32
  let c0_i32_24 : BitVec 32 := 0#32
  ![4, v33.toNat, 0]

def k2_off11 (i : grid2.Coords) : Fin 2 → Nat :=
  let arg0 : BitVec 32 := BitVec.ofNat 32 (i 0).val
  let v40 : Index := Scalar.indexCast arg0
  let c5 : Index := 5#32
  ![v40.toNat, 5]
def k2_off12 (v41 : BitVec 32) : Fin 3 → Nat :=
  let c5_i32 : BitVec 32 := 5#32
  let c0_i32_29 : BitVec 32 := 0#32
  ![5, v41.toNat, 0]

def k2_off13 (i : grid2.Coords) : Fin 2 → Nat :=
  let arg0 : BitVec 32 := BitVec.ofNat 32 (i 0).val
  let v48 : Index := Scalar.indexCast arg0
  let c6 : Index := 6#32
  ![v48.toNat, 6]
def k2_off14 (v49 : BitVec 32) : Fin 3 → Nat :=
  let c6_i32 : BitVec 32 := 6#32
  let c0_i32_34 : BitVec 32 := 0#32
  ![6, v49.toNat, 0]

def k2_off15 (i : grid2.Coords) : Fin 2 → Nat :=
  let arg0 : BitVec 32 := BitVec.ofNat 32 (i 0).val
  let v56 : Index := Scalar.indexCast arg0
  let c7 : Index := 7#32
  ![v56.toNat, 7]
def k2_off16 (v57 : BitVec 32) : Fin 3 → Nat :=
  let c7_i32 : BitVec 32 := 7#32
  let c0_i32_39 : BitVec 32 := 0#32
  ![7, v57.toNat, 0]

def k2_off17 (i : grid2.Coords) : Fin 2 → Nat :=
  let arg0 : BitVec 32 := BitVec.ofNat 32 (i 0).val
  let v64 : Index := Scalar.indexCast arg0
  let c8 : Index := 8#32
  ![v64.toNat, 8]
def k2_off18 (v65 : BitVec 32) : Fin 3 → Nat :=
  let c8_i32 : BitVec 32 := 8#32
  let c0_i32_44 : BitVec 32 := 0#32
  ![8, v65.toNat, 0]

def k2_off19 (i : grid2.Coords) : Fin 2 → Nat :=
  let arg0 : BitVec 32 := BitVec.ofNat 32 (i 0).val
  let v72 : Index := Scalar.indexCast arg0
  let c9 : Index := 9#32
  ![v72.toNat, 9]
def k2_off20 (v73 : BitVec 32) : Fin 3 → Nat :=
  let c9_i32 : BitVec 32 := 9#32
  let c0_i32_49 : BitVec 32 := 0#32
  ![9, v73.toNat, 0]

def k2_off21 (i : grid2.Coords) : Fin 2 → Nat :=
  let arg0 : BitVec 32 := BitVec.ofNat 32 (i 0).val
  let v80 : Index := Scalar.indexCast arg0
  let c10 : Index := 10#32
  ![v80.toNat, 10]
def k2_off22 (v81 : BitVec 32) : Fin 3 → Nat :=
  let c10_i32 : BitVec 32 := 10#32
  let c0_i32_54 : BitVec 32 := 0#32
  ![10, v81.toNat, 0]

def k2_off23 (i : grid2.Coords) : Fin 2 → Nat :=
  let arg0 : BitVec 32 := BitVec.ofNat 32 (i 0).val
  let v88 : Index := Scalar.indexCast arg0
  let c11 : Index := 11#32
  ![v88.toNat, 11]
def k2_off24 (v89 : BitVec 32) : Fin 3 → Nat :=
  let c11_i32 : BitVec 32 := 11#32
  let c0_i32_59 : BitVec 32 := 0#32
  ![11, v89.toNat, 0]

def k2_off25 (i : grid2.Coords) : Fin 2 → Nat :=
  let arg0 : BitVec 32 := BitVec.ofNat 32 (i 0).val
  let v96 : Index := Scalar.indexCast arg0
  let c12 : Index := 12#32
  ![v96.toNat, 12]
def k2_off26 (v97 : BitVec 32) : Fin 3 → Nat :=
  let c12_i32 : BitVec 32 := 12#32
  let c0_i32_64 : BitVec 32 := 0#32
  ![12, v97.toNat, 0]

def k2_off27 (i : grid2.Coords) : Fin 2 → Nat :=
  let arg0 : BitVec 32 := BitVec.ofNat 32 (i 0).val
  let v104 : Index := Scalar.indexCast arg0
  let c13 : Index := 13#32
  ![v104.toNat, 13]
def k2_off28 (v105 : BitVec 32) : Fin 3 → Nat :=
  let c13_i32 : BitVec 32 := 13#32
  let c0_i32_69 : BitVec 32 := 0#32
  ![13, v105.toNat, 0]

def k2_off29 (i : grid2.Coords) : Fin 2 → Nat :=
  let arg0 : BitVec 32 := BitVec.ofNat 32 (i 0).val
  let v112 : Index := Scalar.indexCast arg0
  let c14 : Index := 14#32
  ![v112.toNat, 14]
def k2_off30 (v113 : BitVec 32) : Fin 3 → Nat :=
  let c14_i32 : BitVec 32 := 14#32
  let c0_i32_74 : BitVec 32 := 0#32
  ![14, v113.toNat, 0]

def k2_off31 (i : grid2.Coords) : Fin 2 → Nat :=
  let arg0 : BitVec 32 := BitVec.ofNat 32 (i 0).val
  let v120 : Index := Scalar.indexCast arg0
  let c15 : Index := 15#32
  ![v120.toNat, 15]
def k2_off32 (v121 : BitVec 32) : Fin 3 → Nat :=
  let c15_i32 : BitVec 32 := 15#32
  let c0_i32_79 : BitVec 32 := 0#32
  ![15, v121.toNat, 0]

def k2_off33 (i : grid2.Coords) : Fin 2 → Nat :=
  let arg0 : BitVec 32 := BitVec.ofNat 32 (i 0).val
  let v128 : Index := Scalar.indexCast arg0
  let c16 : Index := 16#32
  ![v128.toNat, 16]
def k2_off34 (v129 : BitVec 32) : Fin 3 → Nat :=
  let c16_i32 : BitVec 32 := 16#32
  let c0_i32_84 : BitVec 32 := 0#32
  ![16, v129.toNat, 0]

def k2_off35 (i : grid2.Coords) : Fin 2 → Nat :=
  let arg0 : BitVec 32 := BitVec.ofNat 32 (i 0).val
  let v136 : Index := Scalar.indexCast arg0
  let c17 : Index := 17#32
  ![v136.toNat, 17]
def k2_off36 (v137 : BitVec 32) : Fin 3 → Nat :=
  let c17_i32 : BitVec 32 := 17#32
  let c0_i32_89 : BitVec 32 := 0#32
  ![17, v137.toNat, 0]

def k2_off37 (i : grid2.Coords) : Fin 2 → Nat :=
  let arg0 : BitVec 32 := BitVec.ofNat 32 (i 0).val
  let v144 : Index := Scalar.indexCast arg0
  let c18 : Index := 18#32
  ![v144.toNat, 18]
def k2_off38 (v145 : BitVec 32) : Fin 3 → Nat :=
  let c18_i32 : BitVec 32 := 18#32
  let c0_i32_94 : BitVec 32 := 0#32
  ![18, v145.toNat, 0]

def k2_off39 (i : grid2.Coords) : Fin 2 → Nat :=
  let arg0 : BitVec 32 := BitVec.ofNat 32 (i 0).val
  let v152 : Index := Scalar.indexCast arg0
  let c19 : Index := 19#32
  ![v152.toNat, 19]
def k2_off40 (v153 : BitVec 32) : Fin 3 → Nat :=
  let c19_i32 : BitVec 32 := 19#32
  let c0_i32_99 : BitVec 32 := 0#32
  ![19, v153.toNat, 0]

def k2_off41 (i : grid2.Coords) : Fin 2 → Nat :=
  let arg0 : BitVec 32 := BitVec.ofNat 32 (i 0).val
  let v160 : Index := Scalar.indexCast arg0
  let c20 : Index := 20#32
  ![v160.toNat, 20]
def k2_off42 (v161 : BitVec 32) : Fin 3 → Nat :=
  let c20_i32 : BitVec 32 := 20#32
  let c0_i32_104 : BitVec 32 := 0#32
  ![20, v161.toNat, 0]

def k2_off43 (i : grid2.Coords) : Fin 2 → Nat :=
  let arg0 : BitVec 32 := BitVec.ofNat 32 (i 0).val
  let v168 : Index := Scalar.indexCast arg0
  let c21 : Index := 21#32
  ![v168.toNat, 21]
def k2_off44 (v169 : BitVec 32) : Fin 3 → Nat :=
  let c21_i32 : BitVec 32 := 21#32
  let c0_i32_109 : BitVec 32 := 0#32
  ![21, v169.toNat, 0]

def k2_off45 (i : grid2.Coords) : Fin 2 → Nat :=
  let arg0 : BitVec 32 := BitVec.ofNat 32 (i 0).val
  let v176 : Index := Scalar.indexCast arg0
  let c22 : Index := 22#32
  ![v176.toNat, 22]
def k2_off46 (v177 : BitVec 32) : Fin 3 → Nat :=
  let c22_i32 : BitVec 32 := 22#32
  let c0_i32_114 : BitVec 32 := 0#32
  ![22, v177.toNat, 0]

def k2_off47 (i : grid2.Coords) : Fin 2 → Nat :=
  let arg0 : BitVec 32 := BitVec.ofNat 32 (i 0).val
  let v184 : Index := Scalar.indexCast arg0
  let c23 : Index := 23#32
  ![v184.toNat, 23]
def k2_off48 (v185 : BitVec 32) : Fin 3 → Nat :=
  let c23_i32 : BitVec 32 := 23#32
  let c0_i32_119 : BitVec 32 := 0#32
  ![23, v185.toNat, 0]

def k2_off49 (i : grid2.Coords) : Fin 2 → Nat :=
  let arg0 : BitVec 32 := BitVec.ofNat 32 (i 0).val
  let v192 : Index := Scalar.indexCast arg0
  let c24 : Index := 24#32
  ![v192.toNat, 24]
def k2_off50 (v193 : BitVec 32) : Fin 3 → Nat :=
  let c24_i32 : BitVec 32 := 24#32
  let c0_i32_124 : BitVec 32 := 0#32
  ![24, v193.toNat, 0]

def k2_off51 (i : grid2.Coords) : Fin 2 → Nat :=
  let arg0 : BitVec 32 := BitVec.ofNat 32 (i 0).val
  let v200 : Index := Scalar.indexCast arg0
  let c25 : Index := 25#32
  ![v200.toNat, 25]
def k2_off52 (v201 : BitVec 32) : Fin 3 → Nat :=
  let c25_i32 : BitVec 32 := 25#32
  let c0_i32_129 : BitVec 32 := 0#32
  ![25, v201.toNat, 0]

def k2_chk26 (v201 : BitVec 32) : Prop :=
  (∀ a, (k2_off52 v201) a + S1x1x64.size a ≤ S26x131073x64.size a)
instance k2_chk26.dec : ∀ (v201 : BitVec 32), Decidable (k2_chk26 v201) := fun v201 => decidable_of_iff' _ (Iff.of_eq (k2_chk26.eq_1 v201))
theorem k2_off52_inb : ∀ (v201 : BitVec 32) (k2_hw26 : k2_chk26 v201), ∀ a, (k2_off52 v201) a + S1x1x64.size a ≤ S26x131073x64.size a := fun v201 k2_hw26 => k2_hw26

def k2_off53 (v1 : BitVec 32) : Fin 3 → Nat :=
  let c0_i32_130 : BitVec 32 := 0#32
  let c0_i32_135 : BitVec 32 := 0#32
  ![0, v1.toNat, 0]

def k2_chk1 (v1 : BitVec 32) : Prop :=
  (∀ a, (k2_off2 v1) a + S1x1x64.size a ≤ S26x131073x64.size a) ∧
  (∀ a, (k2_off53 v1) a + S1x1x64.size a ≤ S26x131073x64.size a)
instance k2_chk1.dec : ∀ (v1 : BitVec 32), Decidable (k2_chk1 v1) := fun v1 => decidable_of_iff' _ (Iff.of_eq (k2_chk1.eq_1 v1))
theorem k2_off2_inb : ∀ (v1 : BitVec 32) (k2_hw1 : k2_chk1 v1), ∀ a, (k2_off2 v1) a + S1x1x64.size a ≤ S26x131073x64.size a := fun v1 k2_hw1 => k2_hw1.1
theorem k2_off53_inb : ∀ (v1 : BitVec 32) (k2_hw1 : k2_chk1 v1), ∀ a, (k2_off53 v1) a + S1x1x64.size a ≤ S26x131073x64.size a := fun v1 k2_hw1 => k2_hw1.2

def k2_off54 (v9 : BitVec 32) : Fin 3 → Nat :=
  let c1_i32_136 : BitVec 32 := 1#32
  let c0_i32_141 : BitVec 32 := 0#32
  ![1, v9.toNat, 0]

def k2_chk2 (v9 : BitVec 32) : Prop :=
  (∀ a, (k2_off4 v9) a + S1x1x64.size a ≤ S26x131073x64.size a) ∧
  (∀ a, (k2_off54 v9) a + S1x1x64.size a ≤ S26x131073x64.size a)
instance k2_chk2.dec : ∀ (v9 : BitVec 32), Decidable (k2_chk2 v9) := fun v9 => decidable_of_iff' _ (Iff.of_eq (k2_chk2.eq_1 v9))
theorem k2_off4_inb : ∀ (v9 : BitVec 32) (k2_hw2 : k2_chk2 v9), ∀ a, (k2_off4 v9) a + S1x1x64.size a ≤ S26x131073x64.size a := fun v9 k2_hw2 => k2_hw2.1
theorem k2_off54_inb : ∀ (v9 : BitVec 32) (k2_hw2 : k2_chk2 v9), ∀ a, (k2_off54 v9) a + S1x1x64.size a ≤ S26x131073x64.size a := fun v9 k2_hw2 => k2_hw2.2

def k2_off55 (v17 : BitVec 32) : Fin 3 → Nat :=
  let c2_i32_142 : BitVec 32 := 2#32
  let c0_i32_147 : BitVec 32 := 0#32
  ![2, v17.toNat, 0]

def k2_chk3 (v17 : BitVec 32) : Prop :=
  (∀ a, (k2_off6 v17) a + S1x1x64.size a ≤ S26x131073x64.size a) ∧
  (∀ a, (k2_off55 v17) a + S1x1x64.size a ≤ S26x131073x64.size a)
instance k2_chk3.dec : ∀ (v17 : BitVec 32), Decidable (k2_chk3 v17) := fun v17 => decidable_of_iff' _ (Iff.of_eq (k2_chk3.eq_1 v17))
theorem k2_off6_inb : ∀ (v17 : BitVec 32) (k2_hw3 : k2_chk3 v17), ∀ a, (k2_off6 v17) a + S1x1x64.size a ≤ S26x131073x64.size a := fun v17 k2_hw3 => k2_hw3.1
theorem k2_off55_inb : ∀ (v17 : BitVec 32) (k2_hw3 : k2_chk3 v17), ∀ a, (k2_off55 v17) a + S1x1x64.size a ≤ S26x131073x64.size a := fun v17 k2_hw3 => k2_hw3.2

def k2_off56 (v25 : BitVec 32) : Fin 3 → Nat :=
  let c3_i32_148 : BitVec 32 := 3#32
  let c0_i32_153 : BitVec 32 := 0#32
  ![3, v25.toNat, 0]

def k2_chk4 (v25 : BitVec 32) : Prop :=
  (∀ a, (k2_off8 v25) a + S1x1x64.size a ≤ S26x131073x64.size a) ∧
  (∀ a, (k2_off56 v25) a + S1x1x64.size a ≤ S26x131073x64.size a)
instance k2_chk4.dec : ∀ (v25 : BitVec 32), Decidable (k2_chk4 v25) := fun v25 => decidable_of_iff' _ (Iff.of_eq (k2_chk4.eq_1 v25))
theorem k2_off8_inb : ∀ (v25 : BitVec 32) (k2_hw4 : k2_chk4 v25), ∀ a, (k2_off8 v25) a + S1x1x64.size a ≤ S26x131073x64.size a := fun v25 k2_hw4 => k2_hw4.1
theorem k2_off56_inb : ∀ (v25 : BitVec 32) (k2_hw4 : k2_chk4 v25), ∀ a, (k2_off56 v25) a + S1x1x64.size a ≤ S26x131073x64.size a := fun v25 k2_hw4 => k2_hw4.2

def k2_off57 (v33 : BitVec 32) : Fin 3 → Nat :=
  let c4_i32_154 : BitVec 32 := 4#32
  let c0_i32_159 : BitVec 32 := 0#32
  ![4, v33.toNat, 0]

def k2_chk5 (v33 : BitVec 32) : Prop :=
  (∀ a, (k2_off10 v33) a + S1x1x64.size a ≤ S26x131073x64.size a) ∧
  (∀ a, (k2_off57 v33) a + S1x1x64.size a ≤ S26x131073x64.size a)
instance k2_chk5.dec : ∀ (v33 : BitVec 32), Decidable (k2_chk5 v33) := fun v33 => decidable_of_iff' _ (Iff.of_eq (k2_chk5.eq_1 v33))
theorem k2_off10_inb : ∀ (v33 : BitVec 32) (k2_hw5 : k2_chk5 v33), ∀ a, (k2_off10 v33) a + S1x1x64.size a ≤ S26x131073x64.size a := fun v33 k2_hw5 => k2_hw5.1
theorem k2_off57_inb : ∀ (v33 : BitVec 32) (k2_hw5 : k2_chk5 v33), ∀ a, (k2_off57 v33) a + S1x1x64.size a ≤ S26x131073x64.size a := fun v33 k2_hw5 => k2_hw5.2

def k2_off58 (v41 : BitVec 32) : Fin 3 → Nat :=
  let c5_i32_160 : BitVec 32 := 5#32
  let c0_i32_165 : BitVec 32 := 0#32
  ![5, v41.toNat, 0]

def k2_chk6 (v41 : BitVec 32) : Prop :=
  (∀ a, (k2_off12 v41) a + S1x1x64.size a ≤ S26x131073x64.size a) ∧
  (∀ a, (k2_off58 v41) a + S1x1x64.size a ≤ S26x131073x64.size a)
instance k2_chk6.dec : ∀ (v41 : BitVec 32), Decidable (k2_chk6 v41) := fun v41 => decidable_of_iff' _ (Iff.of_eq (k2_chk6.eq_1 v41))
theorem k2_off12_inb : ∀ (v41 : BitVec 32) (k2_hw6 : k2_chk6 v41), ∀ a, (k2_off12 v41) a + S1x1x64.size a ≤ S26x131073x64.size a := fun v41 k2_hw6 => k2_hw6.1
theorem k2_off58_inb : ∀ (v41 : BitVec 32) (k2_hw6 : k2_chk6 v41), ∀ a, (k2_off58 v41) a + S1x1x64.size a ≤ S26x131073x64.size a := fun v41 k2_hw6 => k2_hw6.2

def k2_off59 (v49 : BitVec 32) : Fin 3 → Nat :=
  let c6_i32_166 : BitVec 32 := 6#32
  let c0_i32_171 : BitVec 32 := 0#32
  ![6, v49.toNat, 0]

def k2_chk7 (v49 : BitVec 32) : Prop :=
  (∀ a, (k2_off14 v49) a + S1x1x64.size a ≤ S26x131073x64.size a) ∧
  (∀ a, (k2_off59 v49) a + S1x1x64.size a ≤ S26x131073x64.size a)
instance k2_chk7.dec : ∀ (v49 : BitVec 32), Decidable (k2_chk7 v49) := fun v49 => decidable_of_iff' _ (Iff.of_eq (k2_chk7.eq_1 v49))
theorem k2_off14_inb : ∀ (v49 : BitVec 32) (k2_hw7 : k2_chk7 v49), ∀ a, (k2_off14 v49) a + S1x1x64.size a ≤ S26x131073x64.size a := fun v49 k2_hw7 => k2_hw7.1
theorem k2_off59_inb : ∀ (v49 : BitVec 32) (k2_hw7 : k2_chk7 v49), ∀ a, (k2_off59 v49) a + S1x1x64.size a ≤ S26x131073x64.size a := fun v49 k2_hw7 => k2_hw7.2

def k2_off60 (v57 : BitVec 32) : Fin 3 → Nat :=
  let c7_i32_172 : BitVec 32 := 7#32
  let c0_i32_177 : BitVec 32 := 0#32
  ![7, v57.toNat, 0]

def k2_chk8 (v57 : BitVec 32) : Prop :=
  (∀ a, (k2_off16 v57) a + S1x1x64.size a ≤ S26x131073x64.size a) ∧
  (∀ a, (k2_off60 v57) a + S1x1x64.size a ≤ S26x131073x64.size a)
instance k2_chk8.dec : ∀ (v57 : BitVec 32), Decidable (k2_chk8 v57) := fun v57 => decidable_of_iff' _ (Iff.of_eq (k2_chk8.eq_1 v57))
theorem k2_off16_inb : ∀ (v57 : BitVec 32) (k2_hw8 : k2_chk8 v57), ∀ a, (k2_off16 v57) a + S1x1x64.size a ≤ S26x131073x64.size a := fun v57 k2_hw8 => k2_hw8.1
theorem k2_off60_inb : ∀ (v57 : BitVec 32) (k2_hw8 : k2_chk8 v57), ∀ a, (k2_off60 v57) a + S1x1x64.size a ≤ S26x131073x64.size a := fun v57 k2_hw8 => k2_hw8.2

def k2_off61 (v65 : BitVec 32) : Fin 3 → Nat :=
  let c8_i32_178 : BitVec 32 := 8#32
  let c0_i32_183 : BitVec 32 := 0#32
  ![8, v65.toNat, 0]

def k2_chk9 (v65 : BitVec 32) : Prop :=
  (∀ a, (k2_off18 v65) a + S1x1x64.size a ≤ S26x131073x64.size a) ∧
  (∀ a, (k2_off61 v65) a + S1x1x64.size a ≤ S26x131073x64.size a)
instance k2_chk9.dec : ∀ (v65 : BitVec 32), Decidable (k2_chk9 v65) := fun v65 => decidable_of_iff' _ (Iff.of_eq (k2_chk9.eq_1 v65))
theorem k2_off18_inb : ∀ (v65 : BitVec 32) (k2_hw9 : k2_chk9 v65), ∀ a, (k2_off18 v65) a + S1x1x64.size a ≤ S26x131073x64.size a := fun v65 k2_hw9 => k2_hw9.1
theorem k2_off61_inb : ∀ (v65 : BitVec 32) (k2_hw9 : k2_chk9 v65), ∀ a, (k2_off61 v65) a + S1x1x64.size a ≤ S26x131073x64.size a := fun v65 k2_hw9 => k2_hw9.2

def k2_off62 (v73 : BitVec 32) : Fin 3 → Nat :=
  let c9_i32_184 : BitVec 32 := 9#32
  let c0_i32_189 : BitVec 32 := 0#32
  ![9, v73.toNat, 0]

def k2_chk10 (v73 : BitVec 32) : Prop :=
  (∀ a, (k2_off20 v73) a + S1x1x64.size a ≤ S26x131073x64.size a) ∧
  (∀ a, (k2_off62 v73) a + S1x1x64.size a ≤ S26x131073x64.size a)
instance k2_chk10.dec : ∀ (v73 : BitVec 32), Decidable (k2_chk10 v73) := fun v73 => decidable_of_iff' _ (Iff.of_eq (k2_chk10.eq_1 v73))
theorem k2_off20_inb : ∀ (v73 : BitVec 32) (k2_hw10 : k2_chk10 v73), ∀ a, (k2_off20 v73) a + S1x1x64.size a ≤ S26x131073x64.size a := fun v73 k2_hw10 => k2_hw10.1
theorem k2_off62_inb : ∀ (v73 : BitVec 32) (k2_hw10 : k2_chk10 v73), ∀ a, (k2_off62 v73) a + S1x1x64.size a ≤ S26x131073x64.size a := fun v73 k2_hw10 => k2_hw10.2

def k2_off63 (v81 : BitVec 32) : Fin 3 → Nat :=
  let c10_i32_190 : BitVec 32 := 10#32
  let c0_i32_195 : BitVec 32 := 0#32
  ![10, v81.toNat, 0]

def k2_chk11 (v81 : BitVec 32) : Prop :=
  (∀ a, (k2_off22 v81) a + S1x1x64.size a ≤ S26x131073x64.size a) ∧
  (∀ a, (k2_off63 v81) a + S1x1x64.size a ≤ S26x131073x64.size a)
instance k2_chk11.dec : ∀ (v81 : BitVec 32), Decidable (k2_chk11 v81) := fun v81 => decidable_of_iff' _ (Iff.of_eq (k2_chk11.eq_1 v81))
theorem k2_off22_inb : ∀ (v81 : BitVec 32) (k2_hw11 : k2_chk11 v81), ∀ a, (k2_off22 v81) a + S1x1x64.size a ≤ S26x131073x64.size a := fun v81 k2_hw11 => k2_hw11.1
theorem k2_off63_inb : ∀ (v81 : BitVec 32) (k2_hw11 : k2_chk11 v81), ∀ a, (k2_off63 v81) a + S1x1x64.size a ≤ S26x131073x64.size a := fun v81 k2_hw11 => k2_hw11.2

def k2_off64 (v89 : BitVec 32) : Fin 3 → Nat :=
  let c11_i32_196 : BitVec 32 := 11#32
  let c0_i32_201 : BitVec 32 := 0#32
  ![11, v89.toNat, 0]

def k2_chk12 (v89 : BitVec 32) : Prop :=
  (∀ a, (k2_off24 v89) a + S1x1x64.size a ≤ S26x131073x64.size a) ∧
  (∀ a, (k2_off64 v89) a + S1x1x64.size a ≤ S26x131073x64.size a)
instance k2_chk12.dec : ∀ (v89 : BitVec 32), Decidable (k2_chk12 v89) := fun v89 => decidable_of_iff' _ (Iff.of_eq (k2_chk12.eq_1 v89))
theorem k2_off24_inb : ∀ (v89 : BitVec 32) (k2_hw12 : k2_chk12 v89), ∀ a, (k2_off24 v89) a + S1x1x64.size a ≤ S26x131073x64.size a := fun v89 k2_hw12 => k2_hw12.1
theorem k2_off64_inb : ∀ (v89 : BitVec 32) (k2_hw12 : k2_chk12 v89), ∀ a, (k2_off64 v89) a + S1x1x64.size a ≤ S26x131073x64.size a := fun v89 k2_hw12 => k2_hw12.2

def k2_off65 (v97 : BitVec 32) : Fin 3 → Nat :=
  let c12_i32_202 : BitVec 32 := 12#32
  let c0_i32_207 : BitVec 32 := 0#32
  ![12, v97.toNat, 0]

def k2_chk13 (v97 : BitVec 32) : Prop :=
  (∀ a, (k2_off26 v97) a + S1x1x64.size a ≤ S26x131073x64.size a) ∧
  (∀ a, (k2_off65 v97) a + S1x1x64.size a ≤ S26x131073x64.size a)
instance k2_chk13.dec : ∀ (v97 : BitVec 32), Decidable (k2_chk13 v97) := fun v97 => decidable_of_iff' _ (Iff.of_eq (k2_chk13.eq_1 v97))
theorem k2_off26_inb : ∀ (v97 : BitVec 32) (k2_hw13 : k2_chk13 v97), ∀ a, (k2_off26 v97) a + S1x1x64.size a ≤ S26x131073x64.size a := fun v97 k2_hw13 => k2_hw13.1
theorem k2_off65_inb : ∀ (v97 : BitVec 32) (k2_hw13 : k2_chk13 v97), ∀ a, (k2_off65 v97) a + S1x1x64.size a ≤ S26x131073x64.size a := fun v97 k2_hw13 => k2_hw13.2

def k2_off66 (v105 : BitVec 32) : Fin 3 → Nat :=
  let c13_i32_208 : BitVec 32 := 13#32
  let c0_i32_213 : BitVec 32 := 0#32
  ![13, v105.toNat, 0]

def k2_chk14 (v105 : BitVec 32) : Prop :=
  (∀ a, (k2_off28 v105) a + S1x1x64.size a ≤ S26x131073x64.size a) ∧
  (∀ a, (k2_off66 v105) a + S1x1x64.size a ≤ S26x131073x64.size a)
instance k2_chk14.dec : ∀ (v105 : BitVec 32), Decidable (k2_chk14 v105) := fun v105 => decidable_of_iff' _ (Iff.of_eq (k2_chk14.eq_1 v105))
theorem k2_off28_inb : ∀ (v105 : BitVec 32) (k2_hw14 : k2_chk14 v105), ∀ a, (k2_off28 v105) a + S1x1x64.size a ≤ S26x131073x64.size a := fun v105 k2_hw14 => k2_hw14.1
theorem k2_off66_inb : ∀ (v105 : BitVec 32) (k2_hw14 : k2_chk14 v105), ∀ a, (k2_off66 v105) a + S1x1x64.size a ≤ S26x131073x64.size a := fun v105 k2_hw14 => k2_hw14.2

def k2_off67 (v113 : BitVec 32) : Fin 3 → Nat :=
  let c14_i32_214 : BitVec 32 := 14#32
  let c0_i32_219 : BitVec 32 := 0#32
  ![14, v113.toNat, 0]

def k2_chk15 (v113 : BitVec 32) : Prop :=
  (∀ a, (k2_off30 v113) a + S1x1x64.size a ≤ S26x131073x64.size a) ∧
  (∀ a, (k2_off67 v113) a + S1x1x64.size a ≤ S26x131073x64.size a)
instance k2_chk15.dec : ∀ (v113 : BitVec 32), Decidable (k2_chk15 v113) := fun v113 => decidable_of_iff' _ (Iff.of_eq (k2_chk15.eq_1 v113))
theorem k2_off30_inb : ∀ (v113 : BitVec 32) (k2_hw15 : k2_chk15 v113), ∀ a, (k2_off30 v113) a + S1x1x64.size a ≤ S26x131073x64.size a := fun v113 k2_hw15 => k2_hw15.1
theorem k2_off67_inb : ∀ (v113 : BitVec 32) (k2_hw15 : k2_chk15 v113), ∀ a, (k2_off67 v113) a + S1x1x64.size a ≤ S26x131073x64.size a := fun v113 k2_hw15 => k2_hw15.2

def k2_off68 (v121 : BitVec 32) : Fin 3 → Nat :=
  let c15_i32_220 : BitVec 32 := 15#32
  let c0_i32_225 : BitVec 32 := 0#32
  ![15, v121.toNat, 0]

def k2_chk16 (v121 : BitVec 32) : Prop :=
  (∀ a, (k2_off32 v121) a + S1x1x64.size a ≤ S26x131073x64.size a) ∧
  (∀ a, (k2_off68 v121) a + S1x1x64.size a ≤ S26x131073x64.size a)
instance k2_chk16.dec : ∀ (v121 : BitVec 32), Decidable (k2_chk16 v121) := fun v121 => decidable_of_iff' _ (Iff.of_eq (k2_chk16.eq_1 v121))
theorem k2_off32_inb : ∀ (v121 : BitVec 32) (k2_hw16 : k2_chk16 v121), ∀ a, (k2_off32 v121) a + S1x1x64.size a ≤ S26x131073x64.size a := fun v121 k2_hw16 => k2_hw16.1
theorem k2_off68_inb : ∀ (v121 : BitVec 32) (k2_hw16 : k2_chk16 v121), ∀ a, (k2_off68 v121) a + S1x1x64.size a ≤ S26x131073x64.size a := fun v121 k2_hw16 => k2_hw16.2

def k2_off69 (v129 : BitVec 32) : Fin 3 → Nat :=
  let c16_i32_226 : BitVec 32 := 16#32
  let c0_i32_231 : BitVec 32 := 0#32
  ![16, v129.toNat, 0]

def k2_chk17 (v129 : BitVec 32) : Prop :=
  (∀ a, (k2_off34 v129) a + S1x1x64.size a ≤ S26x131073x64.size a) ∧
  (∀ a, (k2_off69 v129) a + S1x1x64.size a ≤ S26x131073x64.size a)
instance k2_chk17.dec : ∀ (v129 : BitVec 32), Decidable (k2_chk17 v129) := fun v129 => decidable_of_iff' _ (Iff.of_eq (k2_chk17.eq_1 v129))
theorem k2_off34_inb : ∀ (v129 : BitVec 32) (k2_hw17 : k2_chk17 v129), ∀ a, (k2_off34 v129) a + S1x1x64.size a ≤ S26x131073x64.size a := fun v129 k2_hw17 => k2_hw17.1
theorem k2_off69_inb : ∀ (v129 : BitVec 32) (k2_hw17 : k2_chk17 v129), ∀ a, (k2_off69 v129) a + S1x1x64.size a ≤ S26x131073x64.size a := fun v129 k2_hw17 => k2_hw17.2

def k2_off70 (v137 : BitVec 32) : Fin 3 → Nat :=
  let c17_i32_232 : BitVec 32 := 17#32
  let c0_i32_237 : BitVec 32 := 0#32
  ![17, v137.toNat, 0]

def k2_chk18 (v137 : BitVec 32) : Prop :=
  (∀ a, (k2_off36 v137) a + S1x1x64.size a ≤ S26x131073x64.size a) ∧
  (∀ a, (k2_off70 v137) a + S1x1x64.size a ≤ S26x131073x64.size a)
instance k2_chk18.dec : ∀ (v137 : BitVec 32), Decidable (k2_chk18 v137) := fun v137 => decidable_of_iff' _ (Iff.of_eq (k2_chk18.eq_1 v137))
theorem k2_off36_inb : ∀ (v137 : BitVec 32) (k2_hw18 : k2_chk18 v137), ∀ a, (k2_off36 v137) a + S1x1x64.size a ≤ S26x131073x64.size a := fun v137 k2_hw18 => k2_hw18.1
theorem k2_off70_inb : ∀ (v137 : BitVec 32) (k2_hw18 : k2_chk18 v137), ∀ a, (k2_off70 v137) a + S1x1x64.size a ≤ S26x131073x64.size a := fun v137 k2_hw18 => k2_hw18.2

def k2_off71 (v145 : BitVec 32) : Fin 3 → Nat :=
  let c18_i32_238 : BitVec 32 := 18#32
  let c0_i32_243 : BitVec 32 := 0#32
  ![18, v145.toNat, 0]

def k2_chk19 (v145 : BitVec 32) : Prop :=
  (∀ a, (k2_off38 v145) a + S1x1x64.size a ≤ S26x131073x64.size a) ∧
  (∀ a, (k2_off71 v145) a + S1x1x64.size a ≤ S26x131073x64.size a)
instance k2_chk19.dec : ∀ (v145 : BitVec 32), Decidable (k2_chk19 v145) := fun v145 => decidable_of_iff' _ (Iff.of_eq (k2_chk19.eq_1 v145))
theorem k2_off38_inb : ∀ (v145 : BitVec 32) (k2_hw19 : k2_chk19 v145), ∀ a, (k2_off38 v145) a + S1x1x64.size a ≤ S26x131073x64.size a := fun v145 k2_hw19 => k2_hw19.1
theorem k2_off71_inb : ∀ (v145 : BitVec 32) (k2_hw19 : k2_chk19 v145), ∀ a, (k2_off71 v145) a + S1x1x64.size a ≤ S26x131073x64.size a := fun v145 k2_hw19 => k2_hw19.2

def k2_off72 (v153 : BitVec 32) : Fin 3 → Nat :=
  let c19_i32_244 : BitVec 32 := 19#32
  let c0_i32_249 : BitVec 32 := 0#32
  ![19, v153.toNat, 0]

def k2_chk20 (v153 : BitVec 32) : Prop :=
  (∀ a, (k2_off40 v153) a + S1x1x64.size a ≤ S26x131073x64.size a) ∧
  (∀ a, (k2_off72 v153) a + S1x1x64.size a ≤ S26x131073x64.size a)
instance k2_chk20.dec : ∀ (v153 : BitVec 32), Decidable (k2_chk20 v153) := fun v153 => decidable_of_iff' _ (Iff.of_eq (k2_chk20.eq_1 v153))
theorem k2_off40_inb : ∀ (v153 : BitVec 32) (k2_hw20 : k2_chk20 v153), ∀ a, (k2_off40 v153) a + S1x1x64.size a ≤ S26x131073x64.size a := fun v153 k2_hw20 => k2_hw20.1
theorem k2_off72_inb : ∀ (v153 : BitVec 32) (k2_hw20 : k2_chk20 v153), ∀ a, (k2_off72 v153) a + S1x1x64.size a ≤ S26x131073x64.size a := fun v153 k2_hw20 => k2_hw20.2

def k2_off73 (v161 : BitVec 32) : Fin 3 → Nat :=
  let c20_i32_250 : BitVec 32 := 20#32
  let c0_i32_255 : BitVec 32 := 0#32
  ![20, v161.toNat, 0]

def k2_chk21 (v161 : BitVec 32) : Prop :=
  (∀ a, (k2_off42 v161) a + S1x1x64.size a ≤ S26x131073x64.size a) ∧
  (∀ a, (k2_off73 v161) a + S1x1x64.size a ≤ S26x131073x64.size a)
instance k2_chk21.dec : ∀ (v161 : BitVec 32), Decidable (k2_chk21 v161) := fun v161 => decidable_of_iff' _ (Iff.of_eq (k2_chk21.eq_1 v161))
theorem k2_off42_inb : ∀ (v161 : BitVec 32) (k2_hw21 : k2_chk21 v161), ∀ a, (k2_off42 v161) a + S1x1x64.size a ≤ S26x131073x64.size a := fun v161 k2_hw21 => k2_hw21.1
theorem k2_off73_inb : ∀ (v161 : BitVec 32) (k2_hw21 : k2_chk21 v161), ∀ a, (k2_off73 v161) a + S1x1x64.size a ≤ S26x131073x64.size a := fun v161 k2_hw21 => k2_hw21.2

def k2_off74 (v169 : BitVec 32) : Fin 3 → Nat :=
  let c21_i32_256 : BitVec 32 := 21#32
  let c0_i32_261 : BitVec 32 := 0#32
  ![21, v169.toNat, 0]

def k2_chk22 (v169 : BitVec 32) : Prop :=
  (∀ a, (k2_off44 v169) a + S1x1x64.size a ≤ S26x131073x64.size a) ∧
  (∀ a, (k2_off74 v169) a + S1x1x64.size a ≤ S26x131073x64.size a)
instance k2_chk22.dec : ∀ (v169 : BitVec 32), Decidable (k2_chk22 v169) := fun v169 => decidable_of_iff' _ (Iff.of_eq (k2_chk22.eq_1 v169))
theorem k2_off44_inb : ∀ (v169 : BitVec 32) (k2_hw22 : k2_chk22 v169), ∀ a, (k2_off44 v169) a + S1x1x64.size a ≤ S26x131073x64.size a := fun v169 k2_hw22 => k2_hw22.1
theorem k2_off74_inb : ∀ (v169 : BitVec 32) (k2_hw22 : k2_chk22 v169), ∀ a, (k2_off74 v169) a + S1x1x64.size a ≤ S26x131073x64.size a := fun v169 k2_hw22 => k2_hw22.2

def k2_off75 (v177 : BitVec 32) : Fin 3 → Nat :=
  let c22_i32_262 : BitVec 32 := 22#32
  let c0_i32_267 : BitVec 32 := 0#32
  ![22, v177.toNat, 0]

def k2_chk23 (v177 : BitVec 32) : Prop :=
  (∀ a, (k2_off46 v177) a + S1x1x64.size a ≤ S26x131073x64.size a) ∧
  (∀ a, (k2_off75 v177) a + S1x1x64.size a ≤ S26x131073x64.size a)
instance k2_chk23.dec : ∀ (v177 : BitVec 32), Decidable (k2_chk23 v177) := fun v177 => decidable_of_iff' _ (Iff.of_eq (k2_chk23.eq_1 v177))
theorem k2_off46_inb : ∀ (v177 : BitVec 32) (k2_hw23 : k2_chk23 v177), ∀ a, (k2_off46 v177) a + S1x1x64.size a ≤ S26x131073x64.size a := fun v177 k2_hw23 => k2_hw23.1
theorem k2_off75_inb : ∀ (v177 : BitVec 32) (k2_hw23 : k2_chk23 v177), ∀ a, (k2_off75 v177) a + S1x1x64.size a ≤ S26x131073x64.size a := fun v177 k2_hw23 => k2_hw23.2

def k2_off76 (v185 : BitVec 32) : Fin 3 → Nat :=
  let c23_i32_268 : BitVec 32 := 23#32
  let c0_i32_273 : BitVec 32 := 0#32
  ![23, v185.toNat, 0]

def k2_chk24 (v185 : BitVec 32) : Prop :=
  (∀ a, (k2_off48 v185) a + S1x1x64.size a ≤ S26x131073x64.size a) ∧
  (∀ a, (k2_off76 v185) a + S1x1x64.size a ≤ S26x131073x64.size a)
instance k2_chk24.dec : ∀ (v185 : BitVec 32), Decidable (k2_chk24 v185) := fun v185 => decidable_of_iff' _ (Iff.of_eq (k2_chk24.eq_1 v185))
theorem k2_off48_inb : ∀ (v185 : BitVec 32) (k2_hw24 : k2_chk24 v185), ∀ a, (k2_off48 v185) a + S1x1x64.size a ≤ S26x131073x64.size a := fun v185 k2_hw24 => k2_hw24.1
theorem k2_off76_inb : ∀ (v185 : BitVec 32) (k2_hw24 : k2_chk24 v185), ∀ a, (k2_off76 v185) a + S1x1x64.size a ≤ S26x131073x64.size a := fun v185 k2_hw24 => k2_hw24.2

def k2_off77 (v193 : BitVec 32) : Fin 3 → Nat :=
  let c24_i32_274 : BitVec 32 := 24#32
  let c0_i32_279 : BitVec 32 := 0#32
  ![24, v193.toNat, 0]

def k2_chk25 (v193 : BitVec 32) : Prop :=
  (∀ a, (k2_off50 v193) a + S1x1x64.size a ≤ S26x131073x64.size a) ∧
  (∀ a, (k2_off77 v193) a + S1x1x64.size a ≤ S26x131073x64.size a)
instance k2_chk25.dec : ∀ (v193 : BitVec 32), Decidable (k2_chk25 v193) := fun v193 => decidable_of_iff' _ (Iff.of_eq (k2_chk25.eq_1 v193))
theorem k2_off50_inb : ∀ (v193 : BitVec 32) (k2_hw25 : k2_chk25 v193), ∀ a, (k2_off50 v193) a + S1x1x64.size a ≤ S26x131073x64.size a := fun v193 k2_hw25 => k2_hw25.1
theorem k2_off77_inb : ∀ (v193 : BitVec 32) (k2_hw25 : k2_chk25 v193), ∀ a, (k2_off77 v193) a + S1x1x64.size a ≤ S26x131073x64.size a := fun v193 k2_hw25 => k2_hw25.2

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x26x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev grid3 : Pipeline.Grid := ⟨1, ![4096], ![false]⟩

abbrev pre3 : Pipeline.Prefetch sig := ⟨1, ![main_v16.idx], fun | 0 => main_v16.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 2 → Nat :=
  let arg0 : BitVec 32 := BitVec.ofNat 32 (i 0).val
  let v0 : Index := Scalar.indexCast arg0
  let c0 : Index := 0#32
  ![v0.toNat, 0]
def k3_off2 (v1 : BitVec 32) : Fin 3 → Nat :=
  let c0_i32 : BitVec 32 := 0#32
  let c0_i32_4 : BitVec 32 := 0#32
  ![0, v1.toNat, 0]

def k3_off3 (i : grid3.Coords) : Fin 2 → Nat :=
  let arg0 : BitVec 32 := BitVec.ofNat 32 (i 0).val
  let v8 : Index := Scalar.indexCast arg0
  let c1 : Index := 1#32
  ![v8.toNat, 1]
def k3_off4 (v9 : BitVec 32) : Fin 3 → Nat :=
  let c1_i32 : BitVec 32 := 1#32
  let c0_i32_9 : BitVec 32 := 0#32
  ![1, v9.toNat, 0]

def k3_off5 (i : grid3.Coords) : Fin 2 → Nat :=
  let arg0 : BitVec 32 := BitVec.ofNat 32 (i 0).val
  let v16 : Index := Scalar.indexCast arg0
  let c2 : Index := 2#32
  ![v16.toNat, 2]
def k3_off6 (v17 : BitVec 32) : Fin 3 → Nat :=
  let c2_i32 : BitVec 32 := 2#32
  let c0_i32_14 : BitVec 32 := 0#32
  ![2, v17.toNat, 0]

def k3_off7 (i : grid3.Coords) : Fin 2 → Nat :=
  let arg0 : BitVec 32 := BitVec.ofNat 32 (i 0).val
  let v24 : Index := Scalar.indexCast arg0
  let c3 : Index := 3#32
  ![v24.toNat, 3]
def k3_off8 (v25 : BitVec 32) : Fin 3 → Nat :=
  let c3_i32 : BitVec 32 := 3#32
  let c0_i32_19 : BitVec 32 := 0#32
  ![3, v25.toNat, 0]

def k3_off9 (i : grid3.Coords) : Fin 2 → Nat :=
  let arg0 : BitVec 32 := BitVec.ofNat 32 (i 0).val
  let v32 : Index := Scalar.indexCast arg0
  let c4 : Index := 4#32
  ![v32.toNat, 4]
def k3_off10 (v33 : BitVec 32) : Fin 3 → Nat :=
  let c4_i32 : BitVec 32 := 4#32
  let c0_i32_24 : BitVec 32 := 0#32
  ![4, v33.toNat, 0]

def k3_off11 (i : grid3.Coords) : Fin 2 → Nat :=
  let arg0 : BitVec 32 := BitVec.ofNat 32 (i 0).val
  let v40 : Index := Scalar.indexCast arg0
  let c5 : Index := 5#32
  ![v40.toNat, 5]
def k3_off12 (v41 : BitVec 32) : Fin 3 → Nat :=
  let c5_i32 : BitVec 32 := 5#32
  let c0_i32_29 : BitVec 32 := 0#32
  ![5, v41.toNat, 0]

def k3_off13 (i : grid3.Coords) : Fin 2 → Nat :=
  let arg0 : BitVec 32 := BitVec.ofNat 32 (i 0).val
  let v48 : Index := Scalar.indexCast arg0
  let c6 : Index := 6#32
  ![v48.toNat, 6]
def k3_off14 (v49 : BitVec 32) : Fin 3 → Nat :=
  let c6_i32 : BitVec 32 := 6#32
  let c0_i32_34 : BitVec 32 := 0#32
  ![6, v49.toNat, 0]

def k3_off15 (i : grid3.Coords) : Fin 2 → Nat :=
  let arg0 : BitVec 32 := BitVec.ofNat 32 (i 0).val
  let v56 : Index := Scalar.indexCast arg0
  let c7 : Index := 7#32
  ![v56.toNat, 7]
def k3_off16 (v57 : BitVec 32) : Fin 3 → Nat :=
  let c7_i32 : BitVec 32 := 7#32
  let c0_i32_39 : BitVec 32 := 0#32
  ![7, v57.toNat, 0]

def k3_off17 (i : grid3.Coords) : Fin 2 → Nat :=
  let arg0 : BitVec 32 := BitVec.ofNat 32 (i 0).val
  let v64 : Index := Scalar.indexCast arg0
  let c8 : Index := 8#32
  ![v64.toNat, 8]
def k3_off18 (v65 : BitVec 32) : Fin 3 → Nat :=
  let c8_i32 : BitVec 32 := 8#32
  let c0_i32_44 : BitVec 32 := 0#32
  ![8, v65.toNat, 0]

def k3_off19 (i : grid3.Coords) : Fin 2 → Nat :=
  let arg0 : BitVec 32 := BitVec.ofNat 32 (i 0).val
  let v72 : Index := Scalar.indexCast arg0
  let c9 : Index := 9#32
  ![v72.toNat, 9]
def k3_off20 (v73 : BitVec 32) : Fin 3 → Nat :=
  let c9_i32 : BitVec 32 := 9#32
  let c0_i32_49 : BitVec 32 := 0#32
  ![9, v73.toNat, 0]

def k3_off21 (i : grid3.Coords) : Fin 2 → Nat :=
  let arg0 : BitVec 32 := BitVec.ofNat 32 (i 0).val
  let v80 : Index := Scalar.indexCast arg0
  let c10 : Index := 10#32
  ![v80.toNat, 10]
def k3_off22 (v81 : BitVec 32) : Fin 3 → Nat :=
  let c10_i32 : BitVec 32 := 10#32
  let c0_i32_54 : BitVec 32 := 0#32
  ![10, v81.toNat, 0]

def k3_off23 (i : grid3.Coords) : Fin 2 → Nat :=
  let arg0 : BitVec 32 := BitVec.ofNat 32 (i 0).val
  let v88 : Index := Scalar.indexCast arg0
  let c11 : Index := 11#32
  ![v88.toNat, 11]
def k3_off24 (v89 : BitVec 32) : Fin 3 → Nat :=
  let c11_i32 : BitVec 32 := 11#32
  let c0_i32_59 : BitVec 32 := 0#32
  ![11, v89.toNat, 0]

def k3_off25 (i : grid3.Coords) : Fin 2 → Nat :=
  let arg0 : BitVec 32 := BitVec.ofNat 32 (i 0).val
  let v96 : Index := Scalar.indexCast arg0
  let c12 : Index := 12#32
  ![v96.toNat, 12]
def k3_off26 (v97 : BitVec 32) : Fin 3 → Nat :=
  let c12_i32 : BitVec 32 := 12#32
  let c0_i32_64 : BitVec 32 := 0#32
  ![12, v97.toNat, 0]

def k3_off27 (i : grid3.Coords) : Fin 2 → Nat :=
  let arg0 : BitVec 32 := BitVec.ofNat 32 (i 0).val
  let v104 : Index := Scalar.indexCast arg0
  let c13 : Index := 13#32
  ![v104.toNat, 13]
def k3_off28 (v105 : BitVec 32) : Fin 3 → Nat :=
  let c13_i32 : BitVec 32 := 13#32
  let c0_i32_69 : BitVec 32 := 0#32
  ![13, v105.toNat, 0]

def k3_off29 (i : grid3.Coords) : Fin 2 → Nat :=
  let arg0 : BitVec 32 := BitVec.ofNat 32 (i 0).val
  let v112 : Index := Scalar.indexCast arg0
  let c14 : Index := 14#32
  ![v112.toNat, 14]
def k3_off30 (v113 : BitVec 32) : Fin 3 → Nat :=
  let c14_i32 : BitVec 32 := 14#32
  let c0_i32_74 : BitVec 32 := 0#32
  ![14, v113.toNat, 0]

def k3_off31 (i : grid3.Coords) : Fin 2 → Nat :=
  let arg0 : BitVec 32 := BitVec.ofNat 32 (i 0).val
  let v120 : Index := Scalar.indexCast arg0
  let c15 : Index := 15#32
  ![v120.toNat, 15]
def k3_off32 (v121 : BitVec 32) : Fin 3 → Nat :=
  let c15_i32 : BitVec 32 := 15#32
  let c0_i32_79 : BitVec 32 := 0#32
  ![15, v121.toNat, 0]

def k3_off33 (i : grid3.Coords) : Fin 2 → Nat :=
  let arg0 : BitVec 32 := BitVec.ofNat 32 (i 0).val
  let v128 : Index := Scalar.indexCast arg0
  let c16 : Index := 16#32
  ![v128.toNat, 16]
def k3_off34 (v129 : BitVec 32) : Fin 3 → Nat :=
  let c16_i32 : BitVec 32 := 16#32
  let c0_i32_84 : BitVec 32 := 0#32
  ![16, v129.toNat, 0]

def k3_off35 (i : grid3.Coords) : Fin 2 → Nat :=
  let arg0 : BitVec 32 := BitVec.ofNat 32 (i 0).val
  let v136 : Index := Scalar.indexCast arg0
  let c17 : Index := 17#32
  ![v136.toNat, 17]
def k3_off36 (v137 : BitVec 32) : Fin 3 → Nat :=
  let c17_i32 : BitVec 32 := 17#32
  let c0_i32_89 : BitVec 32 := 0#32
  ![17, v137.toNat, 0]

def k3_off37 (i : grid3.Coords) : Fin 2 → Nat :=
  let arg0 : BitVec 32 := BitVec.ofNat 32 (i 0).val
  let v144 : Index := Scalar.indexCast arg0
  let c18 : Index := 18#32
  ![v144.toNat, 18]
def k3_off38 (v145 : BitVec 32) : Fin 3 → Nat :=
  let c18_i32 : BitVec 32 := 18#32
  let c0_i32_94 : BitVec 32 := 0#32
  ![18, v145.toNat, 0]

def k3_off39 (i : grid3.Coords) : Fin 2 → Nat :=
  let arg0 : BitVec 32 := BitVec.ofNat 32 (i 0).val
  let v152 : Index := Scalar.indexCast arg0
  let c19 : Index := 19#32
  ![v152.toNat, 19]
def k3_off40 (v153 : BitVec 32) : Fin 3 → Nat :=
  let c19_i32 : BitVec 32 := 19#32
  let c0_i32_99 : BitVec 32 := 0#32
  ![19, v153.toNat, 0]

def k3_off41 (i : grid3.Coords) : Fin 2 → Nat :=
  let arg0 : BitVec 32 := BitVec.ofNat 32 (i 0).val
  let v160 : Index := Scalar.indexCast arg0
  let c20 : Index := 20#32
  ![v160.toNat, 20]
def k3_off42 (v161 : BitVec 32) : Fin 3 → Nat :=
  let c20_i32 : BitVec 32 := 20#32
  let c0_i32_104 : BitVec 32 := 0#32
  ![20, v161.toNat, 0]

def k3_off43 (i : grid3.Coords) : Fin 2 → Nat :=
  let arg0 : BitVec 32 := BitVec.ofNat 32 (i 0).val
  let v168 : Index := Scalar.indexCast arg0
  let c21 : Index := 21#32
  ![v168.toNat, 21]
def k3_off44 (v169 : BitVec 32) : Fin 3 → Nat :=
  let c21_i32 : BitVec 32 := 21#32
  let c0_i32_109 : BitVec 32 := 0#32
  ![21, v169.toNat, 0]

def k3_off45 (i : grid3.Coords) : Fin 2 → Nat :=
  let arg0 : BitVec 32 := BitVec.ofNat 32 (i 0).val
  let v176 : Index := Scalar.indexCast arg0
  let c22 : Index := 22#32
  ![v176.toNat, 22]
def k3_off46 (v177 : BitVec 32) : Fin 3 → Nat :=
  let c22_i32 : BitVec 32 := 22#32
  let c0_i32_114 : BitVec 32 := 0#32
  ![22, v177.toNat, 0]

def k3_off47 (i : grid3.Coords) : Fin 2 → Nat :=
  let arg0 : BitVec 32 := BitVec.ofNat 32 (i 0).val
  let v184 : Index := Scalar.indexCast arg0
  let c23 : Index := 23#32
  ![v184.toNat, 23]
def k3_off48 (v185 : BitVec 32) : Fin 3 → Nat :=
  let c23_i32 : BitVec 32 := 23#32
  let c0_i32_119 : BitVec 32 := 0#32
  ![23, v185.toNat, 0]

def k3_off49 (i : grid3.Coords) : Fin 2 → Nat :=
  let arg0 : BitVec 32 := BitVec.ofNat 32 (i 0).val
  let v192 : Index := Scalar.indexCast arg0
  let c24 : Index := 24#32
  ![v192.toNat, 24]
def k3_off50 (v193 : BitVec 32) : Fin 3 → Nat :=
  let c24_i32 : BitVec 32 := 24#32
  let c0_i32_124 : BitVec 32 := 0#32
  ![24, v193.toNat, 0]

def k3_off51 (i : grid3.Coords) : Fin 2 → Nat :=
  let arg0 : BitVec 32 := BitVec.ofNat 32 (i 0).val
  let v200 : Index := Scalar.indexCast arg0
  let c25 : Index := 25#32
  ![v200.toNat, 25]
def k3_off52 (v201 : BitVec 32) : Fin 3 → Nat :=
  let c25_i32 : BitVec 32 := 25#32
  let c0_i32_129 : BitVec 32 := 0#32
  ![25, v201.toNat, 0]

def k3_chk26 (v201 : BitVec 32) : Prop :=
  (∀ a, (k3_off52 v201) a + S1x1x64.size a ≤ S26x131073x64.size a)
instance k3_chk26.dec : ∀ (v201 : BitVec 32), Decidable (k3_chk26 v201) := fun v201 => decidable_of_iff' _ (Iff.of_eq (k3_chk26.eq_1 v201))
theorem k3_off52_inb : ∀ (v201 : BitVec 32) (k3_hw26 : k3_chk26 v201), ∀ a, (k3_off52 v201) a + S1x1x64.size a ≤ S26x131073x64.size a := fun v201 k3_hw26 => k3_hw26

def k3_off53 (v1 : BitVec 32) : Fin 3 → Nat :=
  let c0_i32_130 : BitVec 32 := 0#32
  let c0_i32_135 : BitVec 32 := 0#32
  ![0, v1.toNat, 0]

def k3_chk1 (v1 : BitVec 32) : Prop :=
  (∀ a, (k3_off2 v1) a + S1x1x64.size a ≤ S26x131073x64.size a) ∧
  (∀ a, (k3_off53 v1) a + S1x1x64.size a ≤ S26x131073x64.size a)
instance k3_chk1.dec : ∀ (v1 : BitVec 32), Decidable (k3_chk1 v1) := fun v1 => decidable_of_iff' _ (Iff.of_eq (k3_chk1.eq_1 v1))
theorem k3_off2_inb : ∀ (v1 : BitVec 32) (k3_hw1 : k3_chk1 v1), ∀ a, (k3_off2 v1) a + S1x1x64.size a ≤ S26x131073x64.size a := fun v1 k3_hw1 => k3_hw1.1
theorem k3_off53_inb : ∀ (v1 : BitVec 32) (k3_hw1 : k3_chk1 v1), ∀ a, (k3_off53 v1) a + S1x1x64.size a ≤ S26x131073x64.size a := fun v1 k3_hw1 => k3_hw1.2

def k3_off54 (v9 : BitVec 32) : Fin 3 → Nat :=
  let c1_i32_136 : BitVec 32 := 1#32
  let c0_i32_141 : BitVec 32 := 0#32
  ![1, v9.toNat, 0]

def k3_chk2 (v9 : BitVec 32) : Prop :=
  (∀ a, (k3_off4 v9) a + S1x1x64.size a ≤ S26x131073x64.size a) ∧
  (∀ a, (k3_off54 v9) a + S1x1x64.size a ≤ S26x131073x64.size a)
instance k3_chk2.dec : ∀ (v9 : BitVec 32), Decidable (k3_chk2 v9) := fun v9 => decidable_of_iff' _ (Iff.of_eq (k3_chk2.eq_1 v9))
theorem k3_off4_inb : ∀ (v9 : BitVec 32) (k3_hw2 : k3_chk2 v9), ∀ a, (k3_off4 v9) a + S1x1x64.size a ≤ S26x131073x64.size a := fun v9 k3_hw2 => k3_hw2.1
theorem k3_off54_inb : ∀ (v9 : BitVec 32) (k3_hw2 : k3_chk2 v9), ∀ a, (k3_off54 v9) a + S1x1x64.size a ≤ S26x131073x64.size a := fun v9 k3_hw2 => k3_hw2.2

def k3_off55 (v17 : BitVec 32) : Fin 3 → Nat :=
  let c2_i32_142 : BitVec 32 := 2#32
  let c0_i32_147 : BitVec 32 := 0#32
  ![2, v17.toNat, 0]

def k3_chk3 (v17 : BitVec 32) : Prop :=
  (∀ a, (k3_off6 v17) a + S1x1x64.size a ≤ S26x131073x64.size a) ∧
  (∀ a, (k3_off55 v17) a + S1x1x64.size a ≤ S26x131073x64.size a)
instance k3_chk3.dec : ∀ (v17 : BitVec 32), Decidable (k3_chk3 v17) := fun v17 => decidable_of_iff' _ (Iff.of_eq (k3_chk3.eq_1 v17))
theorem k3_off6_inb : ∀ (v17 : BitVec 32) (k3_hw3 : k3_chk3 v17), ∀ a, (k3_off6 v17) a + S1x1x64.size a ≤ S26x131073x64.size a := fun v17 k3_hw3 => k3_hw3.1
theorem k3_off55_inb : ∀ (v17 : BitVec 32) (k3_hw3 : k3_chk3 v17), ∀ a, (k3_off55 v17) a + S1x1x64.size a ≤ S26x131073x64.size a := fun v17 k3_hw3 => k3_hw3.2

def k3_off56 (v25 : BitVec 32) : Fin 3 → Nat :=
  let c3_i32_148 : BitVec 32 := 3#32
  let c0_i32_153 : BitVec 32 := 0#32
  ![3, v25.toNat, 0]

def k3_chk4 (v25 : BitVec 32) : Prop :=
  (∀ a, (k3_off8 v25) a + S1x1x64.size a ≤ S26x131073x64.size a) ∧
  (∀ a, (k3_off56 v25) a + S1x1x64.size a ≤ S26x131073x64.size a)
instance k3_chk4.dec : ∀ (v25 : BitVec 32), Decidable (k3_chk4 v25) := fun v25 => decidable_of_iff' _ (Iff.of_eq (k3_chk4.eq_1 v25))
theorem k3_off8_inb : ∀ (v25 : BitVec 32) (k3_hw4 : k3_chk4 v25), ∀ a, (k3_off8 v25) a + S1x1x64.size a ≤ S26x131073x64.size a := fun v25 k3_hw4 => k3_hw4.1
theorem k3_off56_inb : ∀ (v25 : BitVec 32) (k3_hw4 : k3_chk4 v25), ∀ a, (k3_off56 v25) a + S1x1x64.size a ≤ S26x131073x64.size a := fun v25 k3_hw4 => k3_hw4.2

def k3_off57 (v33 : BitVec 32) : Fin 3 → Nat :=
  let c4_i32_154 : BitVec 32 := 4#32
  let c0_i32_159 : BitVec 32 := 0#32
  ![4, v33.toNat, 0]

def k3_chk5 (v33 : BitVec 32) : Prop :=
  (∀ a, (k3_off10 v33) a + S1x1x64.size a ≤ S26x131073x64.size a) ∧
  (∀ a, (k3_off57 v33) a + S1x1x64.size a ≤ S26x131073x64.size a)
instance k3_chk5.dec : ∀ (v33 : BitVec 32), Decidable (k3_chk5 v33) := fun v33 => decidable_of_iff' _ (Iff.of_eq (k3_chk5.eq_1 v33))
theorem k3_off10_inb : ∀ (v33 : BitVec 32) (k3_hw5 : k3_chk5 v33), ∀ a, (k3_off10 v33) a + S1x1x64.size a ≤ S26x131073x64.size a := fun v33 k3_hw5 => k3_hw5.1
theorem k3_off57_inb : ∀ (v33 : BitVec 32) (k3_hw5 : k3_chk5 v33), ∀ a, (k3_off57 v33) a + S1x1x64.size a ≤ S26x131073x64.size a := fun v33 k3_hw5 => k3_hw5.2

def k3_off58 (v41 : BitVec 32) : Fin 3 → Nat :=
  let c5_i32_160 : BitVec 32 := 5#32
  let c0_i32_165 : BitVec 32 := 0#32
  ![5, v41.toNat, 0]

def k3_chk6 (v41 : BitVec 32) : Prop :=
  (∀ a, (k3_off12 v41) a + S1x1x64.size a ≤ S26x131073x64.size a) ∧
  (∀ a, (k3_off58 v41) a + S1x1x64.size a ≤ S26x131073x64.size a)
instance k3_chk6.dec : ∀ (v41 : BitVec 32), Decidable (k3_chk6 v41) := fun v41 => decidable_of_iff' _ (Iff.of_eq (k3_chk6.eq_1 v41))
theorem k3_off12_inb : ∀ (v41 : BitVec 32) (k3_hw6 : k3_chk6 v41), ∀ a, (k3_off12 v41) a + S1x1x64.size a ≤ S26x131073x64.size a := fun v41 k3_hw6 => k3_hw6.1
theorem k3_off58_inb : ∀ (v41 : BitVec 32) (k3_hw6 : k3_chk6 v41), ∀ a, (k3_off58 v41) a + S1x1x64.size a ≤ S26x131073x64.size a := fun v41 k3_hw6 => k3_hw6.2

def k3_off59 (v49 : BitVec 32) : Fin 3 → Nat :=
  let c6_i32_166 : BitVec 32 := 6#32
  let c0_i32_171 : BitVec 32 := 0#32
  ![6, v49.toNat, 0]

def k3_chk7 (v49 : BitVec 32) : Prop :=
  (∀ a, (k3_off14 v49) a + S1x1x64.size a ≤ S26x131073x64.size a) ∧
  (∀ a, (k3_off59 v49) a + S1x1x64.size a ≤ S26x131073x64.size a)
instance k3_chk7.dec : ∀ (v49 : BitVec 32), Decidable (k3_chk7 v49) := fun v49 => decidable_of_iff' _ (Iff.of_eq (k3_chk7.eq_1 v49))
theorem k3_off14_inb : ∀ (v49 : BitVec 32) (k3_hw7 : k3_chk7 v49), ∀ a, (k3_off14 v49) a + S1x1x64.size a ≤ S26x131073x64.size a := fun v49 k3_hw7 => k3_hw7.1
theorem k3_off59_inb : ∀ (v49 : BitVec 32) (k3_hw7 : k3_chk7 v49), ∀ a, (k3_off59 v49) a + S1x1x64.size a ≤ S26x131073x64.size a := fun v49 k3_hw7 => k3_hw7.2

def k3_off60 (v57 : BitVec 32) : Fin 3 → Nat :=
  let c7_i32_172 : BitVec 32 := 7#32
  let c0_i32_177 : BitVec 32 := 0#32
  ![7, v57.toNat, 0]

def k3_chk8 (v57 : BitVec 32) : Prop :=
  (∀ a, (k3_off16 v57) a + S1x1x64.size a ≤ S26x131073x64.size a) ∧
  (∀ a, (k3_off60 v57) a + S1x1x64.size a ≤ S26x131073x64.size a)
instance k3_chk8.dec : ∀ (v57 : BitVec 32), Decidable (k3_chk8 v57) := fun v57 => decidable_of_iff' _ (Iff.of_eq (k3_chk8.eq_1 v57))
theorem k3_off16_inb : ∀ (v57 : BitVec 32) (k3_hw8 : k3_chk8 v57), ∀ a, (k3_off16 v57) a + S1x1x64.size a ≤ S26x131073x64.size a := fun v57 k3_hw8 => k3_hw8.1
theorem k3_off60_inb : ∀ (v57 : BitVec 32) (k3_hw8 : k3_chk8 v57), ∀ a, (k3_off60 v57) a + S1x1x64.size a ≤ S26x131073x64.size a := fun v57 k3_hw8 => k3_hw8.2

def k3_off61 (v65 : BitVec 32) : Fin 3 → Nat :=
  let c8_i32_178 : BitVec 32 := 8#32
  let c0_i32_183 : BitVec 32 := 0#32
  ![8, v65.toNat, 0]

def k3_chk9 (v65 : BitVec 32) : Prop :=
  (∀ a, (k3_off18 v65) a + S1x1x64.size a ≤ S26x131073x64.size a) ∧
  (∀ a, (k3_off61 v65) a + S1x1x64.size a ≤ S26x131073x64.size a)
instance k3_chk9.dec : ∀ (v65 : BitVec 32), Decidable (k3_chk9 v65) := fun v65 => decidable_of_iff' _ (Iff.of_eq (k3_chk9.eq_1 v65))
theorem k3_off18_inb : ∀ (v65 : BitVec 32) (k3_hw9 : k3_chk9 v65), ∀ a, (k3_off18 v65) a + S1x1x64.size a ≤ S26x131073x64.size a := fun v65 k3_hw9 => k3_hw9.1
theorem k3_off61_inb : ∀ (v65 : BitVec 32) (k3_hw9 : k3_chk9 v65), ∀ a, (k3_off61 v65) a + S1x1x64.size a ≤ S26x131073x64.size a := fun v65 k3_hw9 => k3_hw9.2

def k3_off62 (v73 : BitVec 32) : Fin 3 → Nat :=
  let c9_i32_184 : BitVec 32 := 9#32
  let c0_i32_189 : BitVec 32 := 0#32
  ![9, v73.toNat, 0]

def k3_chk10 (v73 : BitVec 32) : Prop :=
  (∀ a, (k3_off20 v73) a + S1x1x64.size a ≤ S26x131073x64.size a) ∧
  (∀ a, (k3_off62 v73) a + S1x1x64.size a ≤ S26x131073x64.size a)
instance k3_chk10.dec : ∀ (v73 : BitVec 32), Decidable (k3_chk10 v73) := fun v73 => decidable_of_iff' _ (Iff.of_eq (k3_chk10.eq_1 v73))
theorem k3_off20_inb : ∀ (v73 : BitVec 32) (k3_hw10 : k3_chk10 v73), ∀ a, (k3_off20 v73) a + S1x1x64.size a ≤ S26x131073x64.size a := fun v73 k3_hw10 => k3_hw10.1
theorem k3_off62_inb : ∀ (v73 : BitVec 32) (k3_hw10 : k3_chk10 v73), ∀ a, (k3_off62 v73) a + S1x1x64.size a ≤ S26x131073x64.size a := fun v73 k3_hw10 => k3_hw10.2

def k3_off63 (v81 : BitVec 32) : Fin 3 → Nat :=
  let c10_i32_190 : BitVec 32 := 10#32
  let c0_i32_195 : BitVec 32 := 0#32
  ![10, v81.toNat, 0]

def k3_chk11 (v81 : BitVec 32) : Prop :=
  (∀ a, (k3_off22 v81) a + S1x1x64.size a ≤ S26x131073x64.size a) ∧
  (∀ a, (k3_off63 v81) a + S1x1x64.size a ≤ S26x131073x64.size a)
instance k3_chk11.dec : ∀ (v81 : BitVec 32), Decidable (k3_chk11 v81) := fun v81 => decidable_of_iff' _ (Iff.of_eq (k3_chk11.eq_1 v81))
theorem k3_off22_inb : ∀ (v81 : BitVec 32) (k3_hw11 : k3_chk11 v81), ∀ a, (k3_off22 v81) a + S1x1x64.size a ≤ S26x131073x64.size a := fun v81 k3_hw11 => k3_hw11.1
theorem k3_off63_inb : ∀ (v81 : BitVec 32) (k3_hw11 : k3_chk11 v81), ∀ a, (k3_off63 v81) a + S1x1x64.size a ≤ S26x131073x64.size a := fun v81 k3_hw11 => k3_hw11.2

def k3_off64 (v89 : BitVec 32) : Fin 3 → Nat :=
  let c11_i32_196 : BitVec 32 := 11#32
  let c0_i32_201 : BitVec 32 := 0#32
  ![11, v89.toNat, 0]

def k3_chk12 (v89 : BitVec 32) : Prop :=
  (∀ a, (k3_off24 v89) a + S1x1x64.size a ≤ S26x131073x64.size a) ∧
  (∀ a, (k3_off64 v89) a + S1x1x64.size a ≤ S26x131073x64.size a)
instance k3_chk12.dec : ∀ (v89 : BitVec 32), Decidable (k3_chk12 v89) := fun v89 => decidable_of_iff' _ (Iff.of_eq (k3_chk12.eq_1 v89))
theorem k3_off24_inb : ∀ (v89 : BitVec 32) (k3_hw12 : k3_chk12 v89), ∀ a, (k3_off24 v89) a + S1x1x64.size a ≤ S26x131073x64.size a := fun v89 k3_hw12 => k3_hw12.1
theorem k3_off64_inb : ∀ (v89 : BitVec 32) (k3_hw12 : k3_chk12 v89), ∀ a, (k3_off64 v89) a + S1x1x64.size a ≤ S26x131073x64.size a := fun v89 k3_hw12 => k3_hw12.2

def k3_off65 (v97 : BitVec 32) : Fin 3 → Nat :=
  let c12_i32_202 : BitVec 32 := 12#32
  let c0_i32_207 : BitVec 32 := 0#32
  ![12, v97.toNat, 0]

def k3_chk13 (v97 : BitVec 32) : Prop :=
  (∀ a, (k3_off26 v97) a + S1x1x64.size a ≤ S26x131073x64.size a) ∧
  (∀ a, (k3_off65 v97) a + S1x1x64.size a ≤ S26x131073x64.size a)
instance k3_chk13.dec : ∀ (v97 : BitVec 32), Decidable (k3_chk13 v97) := fun v97 => decidable_of_iff' _ (Iff.of_eq (k3_chk13.eq_1 v97))
theorem k3_off26_inb : ∀ (v97 : BitVec 32) (k3_hw13 : k3_chk13 v97), ∀ a, (k3_off26 v97) a + S1x1x64.size a ≤ S26x131073x64.size a := fun v97 k3_hw13 => k3_hw13.1
theorem k3_off65_inb : ∀ (v97 : BitVec 32) (k3_hw13 : k3_chk13 v97), ∀ a, (k3_off65 v97) a + S1x1x64.size a ≤ S26x131073x64.size a := fun v97 k3_hw13 => k3_hw13.2

def k3_off66 (v105 : BitVec 32) : Fin 3 → Nat :=
  let c13_i32_208 : BitVec 32 := 13#32
  let c0_i32_213 : BitVec 32 := 0#32
  ![13, v105.toNat, 0]

def k3_chk14 (v105 : BitVec 32) : Prop :=
  (∀ a, (k3_off28 v105) a + S1x1x64.size a ≤ S26x131073x64.size a) ∧
  (∀ a, (k3_off66 v105) a + S1x1x64.size a ≤ S26x131073x64.size a)
instance k3_chk14.dec : ∀ (v105 : BitVec 32), Decidable (k3_chk14 v105) := fun v105 => decidable_of_iff' _ (Iff.of_eq (k3_chk14.eq_1 v105))
theorem k3_off28_inb : ∀ (v105 : BitVec 32) (k3_hw14 : k3_chk14 v105), ∀ a, (k3_off28 v105) a + S1x1x64.size a ≤ S26x131073x64.size a := fun v105 k3_hw14 => k3_hw14.1
theorem k3_off66_inb : ∀ (v105 : BitVec 32) (k3_hw14 : k3_chk14 v105), ∀ a, (k3_off66 v105) a + S1x1x64.size a ≤ S26x131073x64.size a := fun v105 k3_hw14 => k3_hw14.2

def k3_off67 (v113 : BitVec 32) : Fin 3 → Nat :=
  let c14_i32_214 : BitVec 32 := 14#32
  let c0_i32_219 : BitVec 32 := 0#32
  ![14, v113.toNat, 0]

def k3_chk15 (v113 : BitVec 32) : Prop :=
  (∀ a, (k3_off30 v113) a + S1x1x64.size a ≤ S26x131073x64.size a) ∧
  (∀ a, (k3_off67 v113) a + S1x1x64.size a ≤ S26x131073x64.size a)
instance k3_chk15.dec : ∀ (v113 : BitVec 32), Decidable (k3_chk15 v113) := fun v113 => decidable_of_iff' _ (Iff.of_eq (k3_chk15.eq_1 v113))
theorem k3_off30_inb : ∀ (v113 : BitVec 32) (k3_hw15 : k3_chk15 v113), ∀ a, (k3_off30 v113) a + S1x1x64.size a ≤ S26x131073x64.size a := fun v113 k3_hw15 => k3_hw15.1
theorem k3_off67_inb : ∀ (v113 : BitVec 32) (k3_hw15 : k3_chk15 v113), ∀ a, (k3_off67 v113) a + S1x1x64.size a ≤ S26x131073x64.size a := fun v113 k3_hw15 => k3_hw15.2

def k3_off68 (v121 : BitVec 32) : Fin 3 → Nat :=
  let c15_i32_220 : BitVec 32 := 15#32
  let c0_i32_225 : BitVec 32 := 0#32
  ![15, v121.toNat, 0]

def k3_chk16 (v121 : BitVec 32) : Prop :=
  (∀ a, (k3_off32 v121) a + S1x1x64.size a ≤ S26x131073x64.size a) ∧
  (∀ a, (k3_off68 v121) a + S1x1x64.size a ≤ S26x131073x64.size a)
instance k3_chk16.dec : ∀ (v121 : BitVec 32), Decidable (k3_chk16 v121) := fun v121 => decidable_of_iff' _ (Iff.of_eq (k3_chk16.eq_1 v121))
theorem k3_off32_inb : ∀ (v121 : BitVec 32) (k3_hw16 : k3_chk16 v121), ∀ a, (k3_off32 v121) a + S1x1x64.size a ≤ S26x131073x64.size a := fun v121 k3_hw16 => k3_hw16.1
theorem k3_off68_inb : ∀ (v121 : BitVec 32) (k3_hw16 : k3_chk16 v121), ∀ a, (k3_off68 v121) a + S1x1x64.size a ≤ S26x131073x64.size a := fun v121 k3_hw16 => k3_hw16.2

def k3_off69 (v129 : BitVec 32) : Fin 3 → Nat :=
  let c16_i32_226 : BitVec 32 := 16#32
  let c0_i32_231 : BitVec 32 := 0#32
  ![16, v129.toNat, 0]

def k3_chk17 (v129 : BitVec 32) : Prop :=
  (∀ a, (k3_off34 v129) a + S1x1x64.size a ≤ S26x131073x64.size a) ∧
  (∀ a, (k3_off69 v129) a + S1x1x64.size a ≤ S26x131073x64.size a)
instance k3_chk17.dec : ∀ (v129 : BitVec 32), Decidable (k3_chk17 v129) := fun v129 => decidable_of_iff' _ (Iff.of_eq (k3_chk17.eq_1 v129))
theorem k3_off34_inb : ∀ (v129 : BitVec 32) (k3_hw17 : k3_chk17 v129), ∀ a, (k3_off34 v129) a + S1x1x64.size a ≤ S26x131073x64.size a := fun v129 k3_hw17 => k3_hw17.1
theorem k3_off69_inb : ∀ (v129 : BitVec 32) (k3_hw17 : k3_chk17 v129), ∀ a, (k3_off69 v129) a + S1x1x64.size a ≤ S26x131073x64.size a := fun v129 k3_hw17 => k3_hw17.2

def k3_off70 (v137 : BitVec 32) : Fin 3 → Nat :=
  let c17_i32_232 : BitVec 32 := 17#32
  let c0_i32_237 : BitVec 32 := 0#32
  ![17, v137.toNat, 0]

def k3_chk18 (v137 : BitVec 32) : Prop :=
  (∀ a, (k3_off36 v137) a + S1x1x64.size a ≤ S26x131073x64.size a) ∧
  (∀ a, (k3_off70 v137) a + S1x1x64.size a ≤ S26x131073x64.size a)
instance k3_chk18.dec : ∀ (v137 : BitVec 32), Decidable (k3_chk18 v137) := fun v137 => decidable_of_iff' _ (Iff.of_eq (k3_chk18.eq_1 v137))
theorem k3_off36_inb : ∀ (v137 : BitVec 32) (k3_hw18 : k3_chk18 v137), ∀ a, (k3_off36 v137) a + S1x1x64.size a ≤ S26x131073x64.size a := fun v137 k3_hw18 => k3_hw18.1
theorem k3_off70_inb : ∀ (v137 : BitVec 32) (k3_hw18 : k3_chk18 v137), ∀ a, (k3_off70 v137) a + S1x1x64.size a ≤ S26x131073x64.size a := fun v137 k3_hw18 => k3_hw18.2

def k3_off71 (v145 : BitVec 32) : Fin 3 → Nat :=
  let c18_i32_238 : BitVec 32 := 18#32
  let c0_i32_243 : BitVec 32 := 0#32
  ![18, v145.toNat, 0]

def k3_chk19 (v145 : BitVec 32) : Prop :=
  (∀ a, (k3_off38 v145) a + S1x1x64.size a ≤ S26x131073x64.size a) ∧
  (∀ a, (k3_off71 v145) a + S1x1x64.size a ≤ S26x131073x64.size a)
instance k3_chk19.dec : ∀ (v145 : BitVec 32), Decidable (k3_chk19 v145) := fun v145 => decidable_of_iff' _ (Iff.of_eq (k3_chk19.eq_1 v145))
theorem k3_off38_inb : ∀ (v145 : BitVec 32) (k3_hw19 : k3_chk19 v145), ∀ a, (k3_off38 v145) a + S1x1x64.size a ≤ S26x131073x64.size a := fun v145 k3_hw19 => k3_hw19.1
theorem k3_off71_inb : ∀ (v145 : BitVec 32) (k3_hw19 : k3_chk19 v145), ∀ a, (k3_off71 v145) a + S1x1x64.size a ≤ S26x131073x64.size a := fun v145 k3_hw19 => k3_hw19.2

def k3_off72 (v153 : BitVec 32) : Fin 3 → Nat :=
  let c19_i32_244 : BitVec 32 := 19#32
  let c0_i32_249 : BitVec 32 := 0#32
  ![19, v153.toNat, 0]

def k3_chk20 (v153 : BitVec 32) : Prop :=
  (∀ a, (k3_off40 v153) a + S1x1x64.size a ≤ S26x131073x64.size a) ∧
  (∀ a, (k3_off72 v153) a + S1x1x64.size a ≤ S26x131073x64.size a)
instance k3_chk20.dec : ∀ (v153 : BitVec 32), Decidable (k3_chk20 v153) := fun v153 => decidable_of_iff' _ (Iff.of_eq (k3_chk20.eq_1 v153))
theorem k3_off40_inb : ∀ (v153 : BitVec 32) (k3_hw20 : k3_chk20 v153), ∀ a, (k3_off40 v153) a + S1x1x64.size a ≤ S26x131073x64.size a := fun v153 k3_hw20 => k3_hw20.1
theorem k3_off72_inb : ∀ (v153 : BitVec 32) (k3_hw20 : k3_chk20 v153), ∀ a, (k3_off72 v153) a + S1x1x64.size a ≤ S26x131073x64.size a := fun v153 k3_hw20 => k3_hw20.2

def k3_off73 (v161 : BitVec 32) : Fin 3 → Nat :=
  let c20_i32_250 : BitVec 32 := 20#32
  let c0_i32_255 : BitVec 32 := 0#32
  ![20, v161.toNat, 0]

def k3_chk21 (v161 : BitVec 32) : Prop :=
  (∀ a, (k3_off42 v161) a + S1x1x64.size a ≤ S26x131073x64.size a) ∧
  (∀ a, (k3_off73 v161) a + S1x1x64.size a ≤ S26x131073x64.size a)
instance k3_chk21.dec : ∀ (v161 : BitVec 32), Decidable (k3_chk21 v161) := fun v161 => decidable_of_iff' _ (Iff.of_eq (k3_chk21.eq_1 v161))
theorem k3_off42_inb : ∀ (v161 : BitVec 32) (k3_hw21 : k3_chk21 v161), ∀ a, (k3_off42 v161) a + S1x1x64.size a ≤ S26x131073x64.size a := fun v161 k3_hw21 => k3_hw21.1
theorem k3_off73_inb : ∀ (v161 : BitVec 32) (k3_hw21 : k3_chk21 v161), ∀ a, (k3_off73 v161) a + S1x1x64.size a ≤ S26x131073x64.size a := fun v161 k3_hw21 => k3_hw21.2

def k3_off74 (v169 : BitVec 32) : Fin 3 → Nat :=
  let c21_i32_256 : BitVec 32 := 21#32
  let c0_i32_261 : BitVec 32 := 0#32
  ![21, v169.toNat, 0]

def k3_chk22 (v169 : BitVec 32) : Prop :=
  (∀ a, (k3_off44 v169) a + S1x1x64.size a ≤ S26x131073x64.size a) ∧
  (∀ a, (k3_off74 v169) a + S1x1x64.size a ≤ S26x131073x64.size a)
instance k3_chk22.dec : ∀ (v169 : BitVec 32), Decidable (k3_chk22 v169) := fun v169 => decidable_of_iff' _ (Iff.of_eq (k3_chk22.eq_1 v169))
theorem k3_off44_inb : ∀ (v169 : BitVec 32) (k3_hw22 : k3_chk22 v169), ∀ a, (k3_off44 v169) a + S1x1x64.size a ≤ S26x131073x64.size a := fun v169 k3_hw22 => k3_hw22.1
theorem k3_off74_inb : ∀ (v169 : BitVec 32) (k3_hw22 : k3_chk22 v169), ∀ a, (k3_off74 v169) a + S1x1x64.size a ≤ S26x131073x64.size a := fun v169 k3_hw22 => k3_hw22.2

def k3_off75 (v177 : BitVec 32) : Fin 3 → Nat :=
  let c22_i32_262 : BitVec 32 := 22#32
  let c0_i32_267 : BitVec 32 := 0#32
  ![22, v177.toNat, 0]

def k3_chk23 (v177 : BitVec 32) : Prop :=
  (∀ a, (k3_off46 v177) a + S1x1x64.size a ≤ S26x131073x64.size a) ∧
  (∀ a, (k3_off75 v177) a + S1x1x64.size a ≤ S26x131073x64.size a)
instance k3_chk23.dec : ∀ (v177 : BitVec 32), Decidable (k3_chk23 v177) := fun v177 => decidable_of_iff' _ (Iff.of_eq (k3_chk23.eq_1 v177))
theorem k3_off46_inb : ∀ (v177 : BitVec 32) (k3_hw23 : k3_chk23 v177), ∀ a, (k3_off46 v177) a + S1x1x64.size a ≤ S26x131073x64.size a := fun v177 k3_hw23 => k3_hw23.1
theorem k3_off75_inb : ∀ (v177 : BitVec 32) (k3_hw23 : k3_chk23 v177), ∀ a, (k3_off75 v177) a + S1x1x64.size a ≤ S26x131073x64.size a := fun v177 k3_hw23 => k3_hw23.2

def k3_off76 (v185 : BitVec 32) : Fin 3 → Nat :=
  let c23_i32_268 : BitVec 32 := 23#32
  let c0_i32_273 : BitVec 32 := 0#32
  ![23, v185.toNat, 0]

def k3_chk24 (v185 : BitVec 32) : Prop :=
  (∀ a, (k3_off48 v185) a + S1x1x64.size a ≤ S26x131073x64.size a) ∧
  (∀ a, (k3_off76 v185) a + S1x1x64.size a ≤ S26x131073x64.size a)
instance k3_chk24.dec : ∀ (v185 : BitVec 32), Decidable (k3_chk24 v185) := fun v185 => decidable_of_iff' _ (Iff.of_eq (k3_chk24.eq_1 v185))
theorem k3_off48_inb : ∀ (v185 : BitVec 32) (k3_hw24 : k3_chk24 v185), ∀ a, (k3_off48 v185) a + S1x1x64.size a ≤ S26x131073x64.size a := fun v185 k3_hw24 => k3_hw24.1
theorem k3_off76_inb : ∀ (v185 : BitVec 32) (k3_hw24 : k3_chk24 v185), ∀ a, (k3_off76 v185) a + S1x1x64.size a ≤ S26x131073x64.size a := fun v185 k3_hw24 => k3_hw24.2

def k3_off77 (v193 : BitVec 32) : Fin 3 → Nat :=
  let c24_i32_274 : BitVec 32 := 24#32
  let c0_i32_279 : BitVec 32 := 0#32
  ![24, v193.toNat, 0]

def k3_chk25 (v193 : BitVec 32) : Prop :=
  (∀ a, (k3_off50 v193) a + S1x1x64.size a ≤ S26x131073x64.size a) ∧
  (∀ a, (k3_off77 v193) a + S1x1x64.size a ≤ S26x131073x64.size a)
instance k3_chk25.dec : ∀ (v193 : BitVec 32), Decidable (k3_chk25 v193) := fun v193 => decidable_of_iff' _ (Iff.of_eq (k3_chk25.eq_1 v193))
theorem k3_off50_inb : ∀ (v193 : BitVec 32) (k3_hw25 : k3_chk25 v193), ∀ a, (k3_off50 v193) a + S1x1x64.size a ≤ S26x131073x64.size a := fun v193 k3_hw25 => k3_hw25.1
theorem k3_off77_inb : ∀ (v193 : BitVec 32) (k3_hw25 : k3_chk25 v193), ∀ a, (k3_off77 v193) a + S1x1x64.size a ≤ S26x131073x64.size a := fun v193 k3_hw25 => k3_hw25.2

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x26x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x26x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x415 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  slices_S16384x26_S4096x26_0_0 : S16384x26.Slices ![0, 0] S4096x26
  numel1_S1x1 : S1x1.numel = 1
  inb_S26_S1_0 : ∀ a, (![0] : Fin 1 → Nat) a + S1.size a ≤ S26.size a
  squeezes_S1_S_ : S1.Squeezes S_
  inb_S1x26x64_S1x1x64_0_0_0 : ∀ a, (![0, 0, 0] : Fin 3 → Nat) a + S1x1x64.size a ≤ S1x26x64.size a
  squeezes_S1x1x64_S64 : S1x1x64.Squeezes S64
  inb_S26_S1_1 : ∀ a, (![1] : Fin 1 → Nat) a + S1.size a ≤ S26.size a
  inb_S1x26x64_S1x1x64_0_1_0 : ∀ a, (![0, 1, 0] : Fin 3 → Nat) a + S1x1x64.size a ≤ S1x26x64.size a
  inb_S26_S1_2 : ∀ a, (![2] : Fin 1 → Nat) a + S1.size a ≤ S26.size a
  inb_S1x26x64_S1x1x64_0_2_0 : ∀ a, (![0, 2, 0] : Fin 3 → Nat) a + S1x1x64.size a ≤ S1x26x64.size a
  inb_S26_S1_3 : ∀ a, (![3] : Fin 1 → Nat) a + S1.size a ≤ S26.size a
  inb_S1x26x64_S1x1x64_0_3_0 : ∀ a, (![0, 3, 0] : Fin 3 → Nat) a + S1x1x64.size a ≤ S1x26x64.size a
  inb_S26_S1_4 : ∀ a, (![4] : Fin 1 → Nat) a + S1.size a ≤ S26.size a
  inb_S1x26x64_S1x1x64_0_4_0 : ∀ a, (![0, 4, 0] : Fin 3 → Nat) a + S1x1x64.size a ≤ S1x26x64.size a
  inb_S26_S1_5 : ∀ a, (![5] : Fin 1 → Nat) a + S1.size a ≤ S26.size a
  inb_S1x26x64_S1x1x64_0_5_0 : ∀ a, (![0, 5, 0] : Fin 3 → Nat) a + S1x1x64.size a ≤ S1x26x64.size a
  inb_S26_S1_6 : ∀ a, (![6] : Fin 1 → Nat) a + S1.size a ≤ S26.size a
  inb_S1x26x64_S1x1x64_0_6_0 : ∀ a, (![0, 6, 0] : Fin 3 → Nat) a + S1x1x64.size a ≤ S1x26x64.size a
  inb_S26_S1_7 : ∀ a, (![7] : Fin 1 → Nat) a + S1.size a ≤ S26.size a
  inb_S1x26x64_S1x1x64_0_7_0 : ∀ a, (![0, 7, 0] : Fin 3 → Nat) a + S1x1x64.size a ≤ S1x26x64.size a
  inb_S26_S1_8 : ∀ a, (![8] : Fin 1 → Nat) a + S1.size a ≤ S26.size a
  inb_S1x26x64_S1x1x64_0_8_0 : ∀ a, (![0, 8, 0] : Fin 3 → Nat) a + S1x1x64.size a ≤ S1x26x64.size a
  inb_S26_S1_9 : ∀ a, (![9] : Fin 1 → Nat) a + S1.size a ≤ S26.size a
  inb_S1x26x64_S1x1x64_0_9_0 : ∀ a, (![0, 9, 0] : Fin 3 → Nat) a + S1x1x64.size a ≤ S1x26x64.size a
  inb_S26_S1_10 : ∀ a, (![10] : Fin 1 → Nat) a + S1.size a ≤ S26.size a
  inb_S1x26x64_S1x1x64_0_10_0 : ∀ a, (![0, 10, 0] : Fin 3 → Nat) a + S1x1x64.size a ≤ S1x26x64.size a
  inb_S26_S1_11 : ∀ a, (![11] : Fin 1 → Nat) a + S1.size a ≤ S26.size a
  inb_S1x26x64_S1x1x64_0_11_0 : ∀ a, (![0, 11, 0] : Fin 3 → Nat) a + S1x1x64.size a ≤ S1x26x64.size a
  inb_S26_S1_12 : ∀ a, (![12] : Fin 1 → Nat) a + S1.size a ≤ S26.size a
  inb_S1x26x64_S1x1x64_0_12_0 : ∀ a, (![0, 12, 0] : Fin 3 → Nat) a + S1x1x64.size a ≤ S1x26x64.size a
  inb_S26_S1_13 : ∀ a, (![13] : Fin 1 → Nat) a + S1.size a ≤ S26.size a
  inb_S1x26x64_S1x1x64_0_13_0 : ∀ a, (![0, 13, 0] : Fin 3 → Nat) a + S1x1x64.size a ≤ S1x26x64.size a
  inb_S26_S1_14 : ∀ a, (![14] : Fin 1 → Nat) a + S1.size a ≤ S26.size a
  inb_S1x26x64_S1x1x64_0_14_0 : ∀ a, (![0, 14, 0] : Fin 3 → Nat) a + S1x1x64.size a ≤ S1x26x64.size a
  inb_S26_S1_15 : ∀ a, (![15] : Fin 1 → Nat) a + S1.size a ≤ S26.size a
  inb_S1x26x64_S1x1x64_0_15_0 : ∀ a, (![0, 15, 0] : Fin 3 → Nat) a + S1x1x64.size a ≤ S1x26x64.size a
  inb_S26_S1_16 : ∀ a, (![16] : Fin 1 → Nat) a + S1.size a ≤ S26.size a
  inb_S1x26x64_S1x1x64_0_16_0 : ∀ a, (![0, 16, 0] : Fin 3 → Nat) a + S1x1x64.size a ≤ S1x26x64.size a
  inb_S26_S1_17 : ∀ a, (![17] : Fin 1 → Nat) a + S1.size a ≤ S26.size a
  inb_S1x26x64_S1x1x64_0_17_0 : ∀ a, (![0, 17, 0] : Fin 3 → Nat) a + S1x1x64.size a ≤ S1x26x64.size a
  inb_S26_S1_18 : ∀ a, (![18] : Fin 1 → Nat) a + S1.size a ≤ S26.size a
  inb_S1x26x64_S1x1x64_0_18_0 : ∀ a, (![0, 18, 0] : Fin 3 → Nat) a + S1x1x64.size a ≤ S1x26x64.size a
  inb_S26_S1_19 : ∀ a, (![19] : Fin 1 → Nat) a + S1.size a ≤ S26.size a
  inb_S1x26x64_S1x1x64_0_19_0 : ∀ a, (![0, 19, 0] : Fin 3 → Nat) a + S1x1x64.size a ≤ S1x26x64.size a
  inb_S26_S1_20 : ∀ a, (![20] : Fin 1 → Nat) a + S1.size a ≤ S26.size a
  inb_S1x26x64_S1x1x64_0_20_0 : ∀ a, (![0, 20, 0] : Fin 3 → Nat) a + S1x1x64.size a ≤ S1x26x64.size a
  inb_S26_S1_21 : ∀ a, (![21] : Fin 1 → Nat) a + S1.size a ≤ S26.size a
  inb_S1x26x64_S1x1x64_0_21_0 : ∀ a, (![0, 21, 0] : Fin 3 → Nat) a + S1x1x64.size a ≤ S1x26x64.size a
  inb_S26_S1_22 : ∀ a, (![22] : Fin 1 → Nat) a + S1.size a ≤ S26.size a
  inb_S1x26x64_S1x1x64_0_22_0 : ∀ a, (![0, 22, 0] : Fin 3 → Nat) a + S1x1x64.size a ≤ S1x26x64.size a
  inb_S26_S1_23 : ∀ a, (![23] : Fin 1 → Nat) a + S1.size a ≤ S26.size a
  inb_S1x26x64_S1x1x64_0_23_0 : ∀ a, (![0, 23, 0] : Fin 3 → Nat) a + S1x1x64.size a ≤ S1x26x64.size a
  inb_S26_S1_24 : ∀ a, (![24] : Fin 1 → Nat) a + S1.size a ≤ S26.size a
  inb_S1x26x64_S1x1x64_0_24_0 : ∀ a, (![0, 24, 0] : Fin 3 → Nat) a + S1x1x64.size a ≤ S1x26x64.size a
  inb_S26_S1_25 : ∀ a, (![25] : Fin 1 → Nat) a + S1.size a ≤ S26.size a
  inb_S1x26x64_S1x1x64_0_25_0 : ∀ a, (![0, 25, 0] : Fin 3 → Nat) a + S1x1x64.size a ≤ S1x26x64.size a
  slices_S16384x26_S4096x26_4096_0 : S16384x26.Slices ![4096, 0] S4096x26
  slices_S16384x26_S4096x26_8192_0 : S16384x26.Slices ![8192, 0] S4096x26
  slices_S16384x26_S4096x26_12288_0 : S16384x26.Slices ![12288, 0] S4096x26
  concatenates_S4096x26x64_S4096x26x64_S4096x26x64_S4096x26x64_S16384x26x64_d0 : Shape.Concatenates [S4096x26x64, S4096x26x64, S4096x26x64, S4096x26x64] S16384x26x64 0
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x26x64_S256x26x64_0_0_0 : ∀ a, (![0, 0, 0] : Fin 3 → Nat) a + S256x26x64.size a ≤ S256x26x64.size a
  h_S256x26x64 : 0 < S256x26x64.numel
  shapeCasts_S256x26x64_S256x26x64 : S256x26x64.ShapeCasts S256x26x64
  shapeCasts_S256x64_S256x1x64 : S256x64.ShapeCasts S256x1x64
  concatenates_S256x1x64_S256x26x64_S256x27x64_d1 : Shape.Concatenates [S256x1x64, S256x26x64] S256x27x64 1
  bitsLt_bf16_f32 : FTy.bits .bf16 < FTy.bits .f32
  slices_S256x27x27_o0_0_1_S256x1x26 : S256x27x27.Slices ![0, 0, 1] S256x1x26
  shapeCasts_S256x1x26_S256x26 : S256x1x26.ShapeCasts S256x26
  slices_S256x27x27_o0_1_2_S256x1x25 : S256x27x27.Slices ![0, 1, 2] S256x1x25
  shapeCasts_S256x1x25_S256x25 : S256x1x25.ShapeCasts S256x25
  slices_S256x27x27_o0_2_3_S256x1x24 : S256x27x27.Slices ![0, 2, 3] S256x1x24
  shapeCasts_S256x1x24_S256x24 : S256x1x24.ShapeCasts S256x24
  slices_S256x27x27_o0_3_4_S256x1x23 : S256x27x27.Slices ![0, 3, 4] S256x1x23
  shapeCasts_S256x1x23_S256x23 : S256x1x23.ShapeCasts S256x23
  slices_S256x27x27_o0_4_5_S256x1x22 : S256x27x27.Slices ![0, 4, 5] S256x1x22
  shapeCasts_S256x1x22_S256x22 : S256x1x22.ShapeCasts S256x22
  slices_S256x27x27_o0_5_6_S256x1x21 : S256x27x27.Slices ![0, 5, 6] S256x1x21
  shapeCasts_S256x1x21_S256x21 : S256x1x21.ShapeCasts S256x21
  slices_S256x27x27_o0_6_7_S256x1x20 : S256x27x27.Slices ![0, 6, 7] S256x1x20
  shapeCasts_S256x1x20_S256x20 : S256x1x20.ShapeCasts S256x20
  slices_S256x27x27_o0_7_8_S256x1x19 : S256x27x27.Slices ![0, 7, 8] S256x1x19
  shapeCasts_S256x1x19_S256x19 : S256x1x19.ShapeCasts S256x19
  slices_S256x27x27_o0_8_9_S256x1x18 : S256x27x27.Slices ![0, 8, 9] S256x1x18
  shapeCasts_S256x1x18_S256x18 : S256x1x18.ShapeCasts S256x18
  slices_S256x27x27_o0_9_10_S256x1x17 : S256x27x27.Slices ![0, 9, 10] S256x1x17
  shapeCasts_S256x1x17_S256x17 : S256x1x17.ShapeCasts S256x17
  slices_S256x27x27_o0_10_11_S256x1x16 : S256x27x27.Slices ![0, 10, 11] S256x1x16
  shapeCasts_S256x1x16_S256x16 : S256x1x16.ShapeCasts S256x16
  slices_S256x27x27_o0_11_12_S256x1x15 : S256x27x27.Slices ![0, 11, 12] S256x1x15
  shapeCasts_S256x1x15_S256x15 : S256x1x15.ShapeCasts S256x15
  slices_S256x27x27_o0_12_13_S256x1x14 : S256x27x27.Slices ![0, 12, 13] S256x1x14
  shapeCasts_S256x1x14_S256x14 : S256x1x14.ShapeCasts S256x14
  slices_S256x27x27_o0_13_14_S256x1x13 : S256x27x27.Slices ![0, 13, 14] S256x1x13
  shapeCasts_S256x1x13_S256x13 : S256x1x13.ShapeCasts S256x13
  slices_S256x27x27_o0_14_15_S256x1x12 : S256x27x27.Slices ![0, 14, 15] S256x1x12
  shapeCasts_S256x1x12_S256x12 : S256x1x12.ShapeCasts S256x12
  slices_S256x27x27_o0_15_16_S256x1x11 : S256x27x27.Slices ![0, 15, 16] S256x1x11
  shapeCasts_S256x1x11_S256x11 : S256x1x11.ShapeCasts S256x11
  slices_S256x27x27_o0_16_17_S256x1x10 : S256x27x27.Slices ![0, 16, 17] S256x1x10
  shapeCasts_S256x1x10_S256x10 : S256x1x10.ShapeCasts S256x10
  slices_S256x27x27_o0_17_18_S256x1x9 : S256x27x27.Slices ![0, 17, 18] S256x1x9
  shapeCasts_S256x1x9_S256x9 : S256x1x9.ShapeCasts S256x9
  slices_S256x27x27_o0_18_19_S256x1x8 : S256x27x27.Slices ![0, 18, 19] S256x1x8
  shapeCasts_S256x1x8_S256x8 : S256x1x8.ShapeCasts S256x8
  slices_S256x27x27_o0_19_20_S256x1x7 : S256x27x27.Slices ![0, 19, 20] S256x1x7
  shapeCasts_S256x1x7_S256x7 : S256x1x7.ShapeCasts S256x7
  slices_S256x27x27_o0_20_21_S256x1x6 : S256x27x27.Slices ![0, 20, 21] S256x1x6
  shapeCasts_S256x1x6_S256x6 : S256x1x6.ShapeCasts S256x6
  slices_S256x27x27_o0_21_22_S256x1x5 : S256x27x27.Slices ![0, 21, 22] S256x1x5
  shapeCasts_S256x1x5_S256x5 : S256x1x5.ShapeCasts S256x5
  slices_S256x27x27_o0_22_23_S256x1x4 : S256x27x27.Slices ![0, 22, 23] S256x1x4
  shapeCasts_S256x1x4_S256x4 : S256x1x4.ShapeCasts S256x4
  slices_S256x27x27_o0_23_24_S256x1x3 : S256x27x27.Slices ![0, 23, 24] S256x1x3
  shapeCasts_S256x1x3_S256x3 : S256x1x3.ShapeCasts S256x3
  slices_S256x27x27_o0_24_25_S256x1x2 : S256x27x27.Slices ![0, 24, 25] S256x1x2
  shapeCasts_S256x1x2_S256x2 : S256x1x2.ShapeCasts S256x2
  slices_S256x27x27_o0_25_26_S256x1x1 : S256x27x27.Slices ![0, 25, 26] S256x1x1
  shapeCasts_S256x1x1_S256x1 : S256x1x1.ShapeCasts S256x1
  concatenates_S256x26_S256x25_S256x24_S256x23_S256x22_S256x21_S256x20_S256x19_S256x18_S256x17_S256x16_S256x15_S256x14_S256x13_S256x12_S256x11_S256x10_S256x9_S256x8_S256x7_S256x6_S256x5_S256x4_S256x3_S256x2_S256x1_S256x351_d1 : Shape.Concatenates [S256x26, S256x25, S256x24, S256x23, S256x22, S256x21, S256x20, S256x19, S256x18, S256x17, S256x16, S256x15, S256x14, S256x13, S256x12, S256x11, S256x10, S256x9, S256x8, S256x7, S256x6, S256x5, S256x4, S256x3, S256x2, S256x1] S256x351 1
  concatenates_S256x64_S256x351_S256x415_d1 : Shape.Concatenates [S256x64, S256x351] S256x415 1
  inb_S256x415_S256x415_0_0 : ∀ a, (![0, 0] : Fin 2 → Nat) a + S256x415.size a ≤ S256x415.size a
  h_S256x415 : 0 < S256x415.numel
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  dot_S16384x13_S13x128_S16384x128_1_0_0_1_n_n_wf : DotDims.WF S16384x13 S13x128 S16384x128 [1] [0] [0] [1] [] []
  dot_S16384x128_S128x64_S16384x64_1_0_0_1_n_n_wf : DotDims.WF S16384x128 S128x64 S16384x64 [1] [0] [0] [1] [] []
  dot_S256x27x64_S256x27x64_S256x27x27_2_2_1_1_0_0_wf : DotDims.WF S256x27x64 S256x27x64 S256x27x27 [2] [2] [1] [1] [0] [0]
  dot_S16384x415_S415x512_S16384x512_1_0_0_1_n_n_wf : DotDims.WF S16384x415 S415x512 S16384x512 [1] [0] [0] [1] [] []
  dot_S16384x512_S512x256_S16384x256_1_0_0_1_n_n_wf : DotDims.WF S16384x512 S512x256 S16384x256 [1] [0] [0] [1] [] []
  dot_S16384x256_S256x1_S16384x1_1_0_0_1_n_n_wf : DotDims.WF S16384x256 S256x1 S16384x1 [1] [0] [0] [1] [] []
  hcc0_scratch0 : 2 + S26.numel ≤ 118
  hcc1_scratch0 : 30 + S26.numel ≤ 118
  hcc2_scratch0 : 58 + S26.numel ≤ 118
  hcc3_scratch0 : 86 + S26.numel ≤ 118
  hrank0 : 0 < grid0.rank
  k0_off1_inb : ∀ i : grid0.Coords, ∀ a, (k0_off1 i) a + S1x1.size a ≤ S4096x26.size a
  k0_off3_inb : ∀ i : grid0.Coords, ∀ a, (k0_off3 i) a + S1x1.size a ≤ S4096x26.size a
  k0_off5_inb : ∀ i : grid0.Coords, ∀ a, (k0_off5 i) a + S1x1.size a ≤ S4096x26.size a
  k0_off7_inb : ∀ i : grid0.Coords, ∀ a, (k0_off7 i) a + S1x1.size a ≤ S4096x26.size a
  k0_off9_inb : ∀ i : grid0.Coords, ∀ a, (k0_off9 i) a + S1x1.size a ≤ S4096x26.size a
  k0_off11_inb : ∀ i : grid0.Coords, ∀ a, (k0_off11 i) a + S1x1.size a ≤ S4096x26.size a
  k0_off13_inb : ∀ i : grid0.Coords, ∀ a, (k0_off13 i) a + S1x1.size a ≤ S4096x26.size a
  k0_off15_inb : ∀ i : grid0.Coords, ∀ a, (k0_off15 i) a + S1x1.size a ≤ S4096x26.size a
  k0_off17_inb : ∀ i : grid0.Coords, ∀ a, (k0_off17 i) a + S1x1.size a ≤ S4096x26.size a
  k0_off19_inb : ∀ i : grid0.Coords, ∀ a, (k0_off19 i) a + S1x1.size a ≤ S4096x26.size a
  k0_off21_inb : ∀ i : grid0.Coords, ∀ a, (k0_off21 i) a + S1x1.size a ≤ S4096x26.size a
  k0_off23_inb : ∀ i : grid0.Coords, ∀ a, (k0_off23 i) a + S1x1.size a ≤ S4096x26.size a
  k0_off25_inb : ∀ i : grid0.Coords, ∀ a, (k0_off25 i) a + S1x1.size a ≤ S4096x26.size a
  k0_off27_inb : ∀ i : grid0.Coords, ∀ a, (k0_off27 i) a + S1x1.size a ≤ S4096x26.size a
  k0_off29_inb : ∀ i : grid0.Coords, ∀ a, (k0_off29 i) a + S1x1.size a ≤ S4096x26.size a
  k0_off31_inb : ∀ i : grid0.Coords, ∀ a, (k0_off31 i) a + S1x1.size a ≤ S4096x26.size a
  k0_off33_inb : ∀ i : grid0.Coords, ∀ a, (k0_off33 i) a + S1x1.size a ≤ S4096x26.size a
  k0_off35_inb : ∀ i : grid0.Coords, ∀ a, (k0_off35 i) a + S1x1.size a ≤ S4096x26.size a
  k0_off37_inb : ∀ i : grid0.Coords, ∀ a, (k0_off37 i) a + S1x1.size a ≤ S4096x26.size a
  k0_off39_inb : ∀ i : grid0.Coords, ∀ a, (k0_off39 i) a + S1x1.size a ≤ S4096x26.size a
  k0_off41_inb : ∀ i : grid0.Coords, ∀ a, (k0_off41 i) a + S1x1.size a ≤ S4096x26.size a
  k0_off43_inb : ∀ i : grid0.Coords, ∀ a, (k0_off43 i) a + S1x1.size a ≤ S4096x26.size a
  k0_off45_inb : ∀ i : grid0.Coords, ∀ a, (k0_off45 i) a + S1x1.size a ≤ S4096x26.size a
  k0_off47_inb : ∀ i : grid0.Coords, ∀ a, (k0_off47 i) a + S1x1.size a ≤ S4096x26.size a
  k0_off49_inb : ∀ i : grid0.Coords, ∀ a, (k0_off49 i) a + S1x1.size a ≤ S4096x26.size a
  k0_off51_inb : ∀ i : grid0.Coords, ∀ a, (k0_off51 i) a + S1x1.size a ≤ S4096x26.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1x26x64.size a ≤ S4096x26x64.size a
  hwx0_0 : ∀ i : grid0.Coords, EltTy.bits .f32 = 32 ∨ (Rect.block (s := S4096x26x64) S1x26x64.size (cc0_transform_1 i) (hinb0_0 i)).WholeWords (EltTy.packing .f32)
  hrank1 : 0 < grid1.rank
  k1_off1_inb : ∀ i : grid1.Coords, ∀ a, (k1_off1 i) a + S1x1.size a ≤ S4096x26.size a
  k1_off3_inb : ∀ i : grid1.Coords, ∀ a, (k1_off3 i) a + S1x1.size a ≤ S4096x26.size a
  k1_off5_inb : ∀ i : grid1.Coords, ∀ a, (k1_off5 i) a + S1x1.size a ≤ S4096x26.size a
  k1_off7_inb : ∀ i : grid1.Coords, ∀ a, (k1_off7 i) a + S1x1.size a ≤ S4096x26.size a
  k1_off9_inb : ∀ i : grid1.Coords, ∀ a, (k1_off9 i) a + S1x1.size a ≤ S4096x26.size a
  k1_off11_inb : ∀ i : grid1.Coords, ∀ a, (k1_off11 i) a + S1x1.size a ≤ S4096x26.size a
  k1_off13_inb : ∀ i : grid1.Coords, ∀ a, (k1_off13 i) a + S1x1.size a ≤ S4096x26.size a
  k1_off15_inb : ∀ i : grid1.Coords, ∀ a, (k1_off15 i) a + S1x1.size a ≤ S4096x26.size a
  k1_off17_inb : ∀ i : grid1.Coords, ∀ a, (k1_off17 i) a + S1x1.size a ≤ S4096x26.size a
  k1_off19_inb : ∀ i : grid1.Coords, ∀ a, (k1_off19 i) a + S1x1.size a ≤ S4096x26.size a
  k1_off21_inb : ∀ i : grid1.Coords, ∀ a, (k1_off21 i) a + S1x1.size a ≤ S4096x26.size a
  k1_off23_inb : ∀ i : grid1.Coords, ∀ a, (k1_off23 i) a + S1x1.size a ≤ S4096x26.size a
  k1_off25_inb : ∀ i : grid1.Coords, ∀ a, (k1_off25 i) a + S1x1.size a ≤ S4096x26.size a
  k1_off27_inb : ∀ i : grid1.Coords, ∀ a, (k1_off27 i) a + S1x1.size a ≤ S4096x26.size a
  k1_off29_inb : ∀ i : grid1.Coords, ∀ a, (k1_off29 i) a + S1x1.size a ≤ S4096x26.size a
  k1_off31_inb : ∀ i : grid1.Coords, ∀ a, (k1_off31 i) a + S1x1.size a ≤ S4096x26.size a
  k1_off33_inb : ∀ i : grid1.Coords, ∀ a, (k1_off33 i) a + S1x1.size a ≤ S4096x26.size a
  k1_off35_inb : ∀ i : grid1.Coords, ∀ a, (k1_off35 i) a + S1x1.size a ≤ S4096x26.size a
  k1_off37_inb : ∀ i : grid1.Coords, ∀ a, (k1_off37 i) a + S1x1.size a ≤ S4096x26.size a
  k1_off39_inb : ∀ i : grid1.Coords, ∀ a, (k1_off39 i) a + S1x1.size a ≤ S4096x26.size a
  k1_off41_inb : ∀ i : grid1.Coords, ∀ a, (k1_off41 i) a + S1x1.size a ≤ S4096x26.size a
  k1_off43_inb : ∀ i : grid1.Coords, ∀ a, (k1_off43 i) a + S1x1.size a ≤ S4096x26.size a
  k1_off45_inb : ∀ i : grid1.Coords, ∀ a, (k1_off45 i) a + S1x1.size a ≤ S4096x26.size a
  k1_off47_inb : ∀ i : grid1.Coords, ∀ a, (k1_off47 i) a + S1x1.size a ≤ S4096x26.size a
  k1_off49_inb : ∀ i : grid1.Coords, ∀ a, (k1_off49 i) a + S1x1.size a ≤ S4096x26.size a
  k1_off51_inb : ∀ i : grid1.Coords, ∀ a, (k1_off51 i) a + S1x1.size a ≤ S4096x26.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S1x26x64.size a ≤ S4096x26x64.size a
  hwx1_0 : ∀ i : grid1.Coords, EltTy.bits .f32 = 32 ∨ (Rect.block (s := S4096x26x64) S1x26x64.size (cc1_transform_1 i) (hinb1_0 i)).WholeWords (EltTy.packing .f32)
  hrank2 : 0 < grid2.rank
  k2_off1_inb : ∀ i : grid2.Coords, ∀ a, (k2_off1 i) a + S1x1.size a ≤ S4096x26.size a
  k2_off3_inb : ∀ i : grid2.Coords, ∀ a, (k2_off3 i) a + S1x1.size a ≤ S4096x26.size a
  k2_off5_inb : ∀ i : grid2.Coords, ∀ a, (k2_off5 i) a + S1x1.size a ≤ S4096x26.size a
  k2_off7_inb : ∀ i : grid2.Coords, ∀ a, (k2_off7 i) a + S1x1.size a ≤ S4096x26.size a
  k2_off9_inb : ∀ i : grid2.Coords, ∀ a, (k2_off9 i) a + S1x1.size a ≤ S4096x26.size a
  k2_off11_inb : ∀ i : grid2.Coords, ∀ a, (k2_off11 i) a + S1x1.size a ≤ S4096x26.size a
  k2_off13_inb : ∀ i : grid2.Coords, ∀ a, (k2_off13 i) a + S1x1.size a ≤ S4096x26.size a
  k2_off15_inb : ∀ i : grid2.Coords, ∀ a, (k2_off15 i) a + S1x1.size a ≤ S4096x26.size a
  k2_off17_inb : ∀ i : grid2.Coords, ∀ a, (k2_off17 i) a + S1x1.size a ≤ S4096x26.size a
  k2_off19_inb : ∀ i : grid2.Coords, ∀ a, (k2_off19 i) a + S1x1.size a ≤ S4096x26.size a
  k2_off21_inb : ∀ i : grid2.Coords, ∀ a, (k2_off21 i) a + S1x1.size a ≤ S4096x26.size a
  k2_off23_inb : ∀ i : grid2.Coords, ∀ a, (k2_off23 i) a + S1x1.size a ≤ S4096x26.size a
  k2_off25_inb : ∀ i : grid2.Coords, ∀ a, (k2_off25 i) a + S1x1.size a ≤ S4096x26.size a
  k2_off27_inb : ∀ i : grid2.Coords, ∀ a, (k2_off27 i) a + S1x1.size a ≤ S4096x26.size a
  k2_off29_inb : ∀ i : grid2.Coords, ∀ a, (k2_off29 i) a + S1x1.size a ≤ S4096x26.size a
  k2_off31_inb : ∀ i : grid2.Coords, ∀ a, (k2_off31 i) a + S1x1.size a ≤ S4096x26.size a
  k2_off33_inb : ∀ i : grid2.Coords, ∀ a, (k2_off33 i) a + S1x1.size a ≤ S4096x26.size a
  k2_off35_inb : ∀ i : grid2.Coords, ∀ a, (k2_off35 i) a + S1x1.size a ≤ S4096x26.size a
  k2_off37_inb : ∀ i : grid2.Coords, ∀ a, (k2_off37 i) a + S1x1.size a ≤ S4096x26.size a
  k2_off39_inb : ∀ i : grid2.Coords, ∀ a, (k2_off39 i) a + S1x1.size a ≤ S4096x26.size a
  k2_off41_inb : ∀ i : grid2.Coords, ∀ a, (k2_off41 i) a + S1x1.size a ≤ S4096x26.size a
  k2_off43_inb : ∀ i : grid2.Coords, ∀ a, (k2_off43 i) a + S1x1.size a ≤ S4096x26.size a
  k2_off45_inb : ∀ i : grid2.Coords, ∀ a, (k2_off45 i) a + S1x1.size a ≤ S4096x26.size a
  k2_off47_inb : ∀ i : grid2.Coords, ∀ a, (k2_off47 i) a + S1x1.size a ≤ S4096x26.size a
  k2_off49_inb : ∀ i : grid2.Coords, ∀ a, (k2_off49 i) a + S1x1.size a ≤ S4096x26.size a
  k2_off51_inb : ∀ i : grid2.Coords, ∀ a, (k2_off51 i) a + S1x1.size a ≤ S4096x26.size a
  hstage2_0 : ∀ j, (stage2_0 j).IsWhole
  nbuf2_0 : grid2.bufCount reads2_0 false = 2
  hreads2_0 : ∀ i i' : grid2.Coords, (∀ a, reads2_0 a = true → i a = i' a) → cc2_transform_1 i = cc2_transform_1 i'
  hinb2_0 : ∀ (i : grid2.Coords) a, (cc2_transform_1 i a + 1) * S1x26x64.size a ≤ S4096x26x64.size a
  hwx2_0 : ∀ i : grid2.Coords, EltTy.bits .f32 = 32 ∨ (Rect.block (s := S4096x26x64) S1x26x64.size (cc2_transform_1 i) (hinb2_0 i)).WholeWords (EltTy.packing .f32)
  hrank3 : 0 < grid3.rank
  k3_off1_inb : ∀ i : grid3.Coords, ∀ a, (k3_off1 i) a + S1x1.size a ≤ S4096x26.size a
  k3_off3_inb : ∀ i : grid3.Coords, ∀ a, (k3_off3 i) a + S1x1.size a ≤ S4096x26.size a
  k3_off5_inb : ∀ i : grid3.Coords, ∀ a, (k3_off5 i) a + S1x1.size a ≤ S4096x26.size a
  k3_off7_inb : ∀ i : grid3.Coords, ∀ a, (k3_off7 i) a + S1x1.size a ≤ S4096x26.size a
  k3_off9_inb : ∀ i : grid3.Coords, ∀ a, (k3_off9 i) a + S1x1.size a ≤ S4096x26.size a
  k3_off11_inb : ∀ i : grid3.Coords, ∀ a, (k3_off11 i) a + S1x1.size a ≤ S4096x26.size a
  k3_off13_inb : ∀ i : grid3.Coords, ∀ a, (k3_off13 i) a + S1x1.size a ≤ S4096x26.size a
  k3_off15_inb : ∀ i : grid3.Coords, ∀ a, (k3_off15 i) a + S1x1.size a ≤ S4096x26.size a
  k3_off17_inb : ∀ i : grid3.Coords, ∀ a, (k3_off17 i) a + S1x1.size a ≤ S4096x26.size a
  k3_off19_inb : ∀ i : grid3.Coords, ∀ a, (k3_off19 i) a + S1x1.size a ≤ S4096x26.size a
  k3_off21_inb : ∀ i : grid3.Coords, ∀ a, (k3_off21 i) a + S1x1.size a ≤ S4096x26.size a
  k3_off23_inb : ∀ i : grid3.Coords, ∀ a, (k3_off23 i) a + S1x1.size a ≤ S4096x26.size a
  k3_off25_inb : ∀ i : grid3.Coords, ∀ a, (k3_off25 i) a + S1x1.size a ≤ S4096x26.size a
  k3_off27_inb : ∀ i : grid3.Coords, ∀ a, (k3_off27 i) a + S1x1.size a ≤ S4096x26.size a
  k3_off29_inb : ∀ i : grid3.Coords, ∀ a, (k3_off29 i) a + S1x1.size a ≤ S4096x26.size a
  k3_off31_inb : ∀ i : grid3.Coords, ∀ a, (k3_off31 i) a + S1x1.size a ≤ S4096x26.size a
  k3_off33_inb : ∀ i : grid3.Coords, ∀ a, (k3_off33 i) a + S1x1.size a ≤ S4096x26.size a
  k3_off35_inb : ∀ i : grid3.Coords, ∀ a, (k3_off35 i) a + S1x1.size a ≤ S4096x26.size a
  k3_off37_inb : ∀ i : grid3.Coords, ∀ a, (k3_off37 i) a + S1x1.size a ≤ S4096x26.size a
  k3_off39_inb : ∀ i : grid3.Coords, ∀ a, (k3_off39 i) a + S1x1.size a ≤ S4096x26.size a
  k3_off41_inb : ∀ i : grid3.Coords, ∀ a, (k3_off41 i) a + S1x1.size a ≤ S4096x26.size a
  k3_off43_inb : ∀ i : grid3.Coords, ∀ a, (k3_off43 i) a + S1x1.size a ≤ S4096x26.size a
  k3_off45_inb : ∀ i : grid3.Coords, ∀ a, (k3_off45 i) a + S1x1.size a ≤ S4096x26.size a
  k3_off47_inb : ∀ i : grid3.Coords, ∀ a, (k3_off47 i) a + S1x1.size a ≤ S4096x26.size a
  k3_off49_inb : ∀ i : grid3.Coords, ∀ a, (k3_off49 i) a + S1x1.size a ≤ S4096x26.size a
  k3_off51_inb : ∀ i : grid3.Coords, ∀ a, (k3_off51 i) a + S1x1.size a ≤ S4096x26.size a
  hstage3_0 : ∀ j, (stage3_0 j).IsWhole
  nbuf3_0 : grid3.bufCount reads3_0 false = 2
  hreads3_0 : ∀ i i' : grid3.Coords, (∀ a, reads3_0 a = true → i a = i' a) → cc3_transform_1 i = cc3_transform_1 i'
  hinb3_0 : ∀ (i : grid3.Coords) a, (cc3_transform_1 i a + 1) * S1x26x64.size a ≤ S4096x26x64.size a
  hwx3_0 : ∀ i : grid3.Coords, EltTy.bits .f32 = 32 ∨ (Rect.block (s := S4096x26x64) S1x26x64.size (cc3_transform_1 i) (hinb3_0 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x64.size a ≤ S16384x64.size a
  hwx4_0 : ∀ i : grid4.Coords, EltTy.bits .f32 = 32 ∨ (Rect.block (s := S16384x64) S256x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x26x64.size a ≤ S16384x26x64.size a
  hwx4_1 : ∀ i : grid4.Coords, EltTy.bits .f32 = 32 ∨ (Rect.block (s := S16384x26x64) S256x26x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x415.size a ≤ S16384x415.size a
  hwx4_2 : ∀ i : grid4.Coords, EltTy.bits .f32 = 32 ∨ (Rect.block (s := S16384x415) S256x415.size (cc4_transform_2 i) (hinb4_2 i)).WholeWords (EltTy.packing .f32)

variable [Facts₀]

abbrev cc0_scratch0 : DmaSems sig S26 := SemArray.consecutive 2 S26 hcc0_scratch0
abbrev cc1_scratch0 : DmaSems sig S26 := SemArray.consecutive 30 S26 hcc1_scratch0
abbrev cc2_scratch0 : DmaSems sig S26 := SemArray.consecutive 58 S26 hcc2_scratch0
abbrev cc3_scratch0 : DmaSems sig S26 := SemArray.consecutive 86 S26 hcc3_scratch0
def dot_S16384x13_S13x128_S16384x128_1_0_0_1_n_n : DotDims S16384x13 S13x128 S16384x128 where
  lhsContracting := [1]
  rhsContracting := [0]
  lhsNonContracting := [0]
  rhsNonContracting := [1]
  lhsBatch := []
  rhsBatch := []
  wf := dot_S16384x13_S13x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S256x27x64_S256x27x64_S256x27x27_2_2_1_1_0_0 : DotDims S256x27x64 S256x27x64 S256x27x27 where
  lhsContracting := [2]
  rhsContracting := [2]
  lhsNonContracting := [1]
  rhsNonContracting := [1]
  lhsBatch := [0]
  rhsBatch := [0]
  wf := dot_S256x27x64_S256x27x64_S256x27x27_2_2_1_1_0_0_wf
def dot_S16384x415_S415x512_S16384x512_1_0_0_1_n_n : DotDims S16384x415 S415x512 S16384x512 where
  lhsContracting := [1]
  rhsContracting := [0]
  lhsNonContracting := [0]
  rhsNonContracting := [1]
  lhsBatch := []
  rhsBatch := []
  wf := dot_S16384x415_S415x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

abbrev spec0_0 : Pipeline.WinSpec sig grid0.rank :=
  Pipeline.WinSpec.ofSpec (Memref.whole main_v11) S1x26x64.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))
abbrev spec1_0 : Pipeline.WinSpec sig grid1.rank :=
  Pipeline.WinSpec.ofSpec (Memref.whole main_v13) S1x26x64.size reads1_0 true false 2 stage1_0 sem1_0 nbuf1_0 hstage1_0

abbrev spec1 : Fin 1 → Pipeline.WinSpec sig grid1.rank := fun | 0 => spec1_0 | ⟨_ + 1, h⟩ => absurd h (Nat.not_lt.2 (Nat.le_add_left _ _))
theorem hcount1 : ∀ w, grid1.bufCount (spec1 w).reads (spec1 w).sync = (spec1 w).nbuf := fun | 0 => nbuf1_0 | ⟨_ + 1, h⟩ => absurd h (Nat.not_lt.2 (Nat.le_add_left _ _))
abbrev ix1 (pf : pre1.Contents (Elt F)) : (w : Fin 1) → grid1.Coords → Fin (spec1 w).shape.rank → Nat := fun | 0 => cc1_transform_1 | ⟨_ + 1, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | ⟨_ + 1, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | ⟨_ + 1, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | ⟨_ + 1, h⟩ => absurd h (Nat.not_lt.2 (Nat.le_add_left _ _))
abbrev spec2_0 : Pipeline.WinSpec sig grid2.rank :=
  Pipeline.WinSpec.ofSpec (Memref.whole main_v15) S1x26x64.size reads2_0 true false 2 stage2_0 sem2_0 nbuf2_0 hstage2_0

abbrev spec2 : Fin 1 → Pipeline.WinSpec sig grid2.rank := fun | 0 => spec2_0 | ⟨_ + 1, h⟩ => absurd h (Nat.not_lt.2 (Nat.le_add_left _ _))
theorem hcount2 : ∀ w, grid2.bufCount (spec2 w).reads (spec2 w).sync = (spec2 w).nbuf := fun | 0 => nbuf2_0 | ⟨_ + 1, h⟩ => absurd h (Nat.not_lt.2 (Nat.le_add_left _ _))
abbrev ix2 (pf : pre2.Contents (Elt F)) : (w : Fin 1) → grid2.Coords → Fin (spec2 w).shape.rank → Nat := fun | 0 => cc2_transform_1 | ⟨_ + 1, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | ⟨_ + 1, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | ⟨_ + 1, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | ⟨_ + 1, h⟩ => absurd h (Nat.not_lt.2 (Nat.le_add_left _ _))
abbrev spec3_0 : Pipeline.WinSpec sig grid3.rank :=
  Pipeline.WinSpec.ofSpec (Memref.whole main_v17) S1x26x64.size reads3_0 true false 2 stage3_0 sem3_0 nbuf3_0 hstage3_0

abbrev spec3 : Fin 1 → Pipeline.WinSpec sig grid3.rank := fun | 0 => spec3_0 | ⟨_ + 1, h⟩ => absurd h (Nat.not_lt.2 (Nat.le_add_left _ _))
theorem hcount3 : ∀ w, grid3.bufCount (spec3 w).reads (spec3 w).sync = (spec3 w).nbuf := fun | 0 => nbuf3_0 | ⟨_ + 1, h⟩ => absurd h (Nat.not_lt.2 (Nat.le_add_left _ _))
abbrev ix3 (pf : pre3.Contents (Elt F)) : (w : Fin 1) → grid3.Coords → Fin (spec3 w).shape.rank → Nat := fun | 0 => cc3_transform_1 | ⟨_ + 1, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | ⟨_ + 1, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | ⟨_ + 1, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | ⟨_ + 1, h⟩ => absurd h (Nat.not_lt.2 (Nat.le_add_left _ _))
abbrev win4_0 : Pipeline.Window sig grid4 :=
  Pipeline.Window.ofSpec (Memref.whole main_v9) S256x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v18) S256x26x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v19) S256x415.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole

variable [Facts]
-- ==== ReferenceIdeal.lean ====
abbrev S16384x13 : Shape := ⟨2, ![16384, 13]⟩
abbrev S16384x26 : Shape := ⟨2, ![16384, 26]⟩
abbrev S26x131073x64 : Shape := ⟨3, ![26, 131073, 64]⟩
abbrev S13x128 : Shape := ⟨2, ![13, 128]⟩
abbrev S128 : Shape := ⟨1, ![128]⟩
abbrev S128x64 : Shape := ⟨2, ![128, 64]⟩
abbrev S64 : Shape := ⟨1, ![64]⟩
abbrev S415x512 : Shape := ⟨2, ![415, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S351 : Shape := ⟨1, ![351]⟩
abbrev S16384x128 : Shape := ⟨2, ![16384, 128]⟩
abbrev S1x128 : Shape := ⟨2, ![1, 128]⟩
abbrev S_ : Shape := ⟨0, ![]⟩
abbrev S16384x64 : Shape := ⟨2, ![16384, 64]⟩
abbrev S1x64 : Shape := ⟨2, ![1, 64]⟩
abbrev S26 : Shape := ⟨1, ![26]⟩
abbrev S1x26 : Shape := ⟨2, ![1, 26]⟩
abbrev S16384x26x1 : Shape := ⟨3, ![16384, 26, 1]⟩
abbrev S16384x26x2 : Shape := ⟨3, ![16384, 26, 2]⟩
abbrev S16384x26x64 : Shape := ⟨3, ![16384, 26, 64]⟩
abbrev S16384x1x64 : Shape := ⟨3, ![16384, 1, 64]⟩
abbrev S16384x27x64 : Shape := ⟨3, ![16384, 27, 64]⟩
abbrev S16384x27x27 : Shape := ⟨3, ![16384, 27, 27]⟩
abbrev S351x1 : Shape := ⟨2, ![351, 1]⟩
abbrev S351x2 : Shape := ⟨2, ![351, 2]⟩
abbrev S16384x351 : Shape := ⟨2, ![16384, 351]⟩
abbrev S16384x415 : Shape := ⟨2, ![16384, 415]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S16384x1 : Shape := ⟨2, ![16384, 1]⟩
abbrev S1x1 : Shape := ⟨2, ![1, 1]⟩
abbrev S16384 : Shape := ⟨1, ![16384]⟩

abbrev nBuf : Space → Nat
  | .hbm => 87
  | .vmem => 0
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S26x131073x64, .f32⟩
  | .hbm, ⟨3, _⟩ => ⟨S13x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S415x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S256x1, .f32⟩
  | .hbm, ⟨12, _⟩ => ⟨S1, .f32⟩
  | .hbm, ⟨13, _⟩ => ⟨S351, .i32⟩
  | .hbm, ⟨14, _⟩ => ⟨S351, .i1⟩
  | .hbm, ⟨15, _⟩ => ⟨S351, .i32⟩
  | .hbm, ⟨16, _⟩ => ⟨S351, .i1⟩
  | .hbm, ⟨17, _⟩ => ⟨S16384x128, .f32⟩
  | .hbm, ⟨18, _⟩ => ⟨S1x128, .f32⟩
  | .hbm, ⟨19, _⟩ => ⟨S16384x128, .f32⟩
  | .hbm, ⟨20, _⟩ => ⟨S16384x128, .f32⟩
  | .hbm, ⟨21, _⟩ => ⟨S_, .f32⟩
  | .hbm, ⟨22, _⟩ => ⟨S16384x128, .f32⟩
  | .hbm, ⟨23, _⟩ => ⟨S16384x128, .f32⟩
  | .hbm, ⟨24, _⟩ => ⟨S16384x64, .f32⟩
  | .hbm, ⟨25, _⟩ => ⟨S1x64, .f32⟩
  | .hbm, ⟨26, _⟩ => ⟨S16384x64, .f32⟩
  | .hbm, ⟨27, _⟩ => ⟨S16384x64, .f32⟩
  | .hbm, ⟨28, _⟩ => ⟨S_, .f32⟩
  | .hbm, ⟨29, _⟩ => ⟨S16384x64, .f32⟩
  | .hbm, ⟨30, _⟩ => ⟨S16384x64, .f32⟩
  | .hbm, ⟨31, _⟩ => ⟨S26, .i32⟩
  | .hbm, ⟨32, _⟩ => ⟨S1x26, .i32⟩
  | .hbm, ⟨33, _⟩ => ⟨S_, .i32⟩
  | .hbm, ⟨34, _⟩ => ⟨S1x26, .i32⟩
  | .hbm, ⟨35, _⟩ => ⟨S1x26, .i1⟩
  | .hbm, ⟨36, _⟩ => ⟨S_, .i32⟩
  | .hbm, ⟨37, _⟩ => ⟨S1x26, .i32⟩
  | .hbm, ⟨38, _⟩ => ⟨S1x26, .i32⟩
  | .hbm, ⟨39, _⟩ => ⟨S1x26, .i32⟩
  | .hbm, ⟨40, _⟩ => ⟨S_, .i32⟩
  | .hbm, ⟨41, _⟩ => ⟨S16384x26, .i32⟩
  | .hbm, ⟨42, _⟩ => ⟨S16384x26, .i1⟩
  | .hbm, ⟨43, _⟩ => ⟨S_, .i32⟩
  | .hbm, ⟨44, _⟩ => ⟨S16384x26, .i32⟩
  | .hbm, ⟨45, _⟩ => ⟨S16384x26, .i32⟩
  | .hbm, ⟨46, _⟩ => ⟨S16384x26, .i32⟩
  | .hbm, ⟨47, _⟩ => ⟨S16384x26, .i32⟩
  | .hbm, ⟨48, _⟩ => ⟨S16384x26x1, .i32⟩
  | .hbm, ⟨49, _⟩ => ⟨S16384x26x1, .i32⟩
  | .hbm, ⟨50, _⟩ => ⟨S16384x26x2, .i32⟩
  | .hbm, ⟨51, _⟩ => ⟨S16384x26x64, .f32⟩
  | .hbm, ⟨52, _⟩ => ⟨S16384x1x64, .f32⟩
  | .hbm, ⟨53, _⟩ => ⟨S16384x27x64, .f32⟩
  | .hbm, ⟨54, _⟩ => ⟨S16384x27x27, .f32⟩
  | .hbm, ⟨55, _⟩ => ⟨S_, .i32⟩
  | .hbm, ⟨56, _⟩ => ⟨S351, .i32⟩
  | .hbm, ⟨57, _⟩ => ⟨S351, .i32⟩
  | .hbm, ⟨58, _⟩ => ⟨S351, .i32⟩
  | .hbm, ⟨59, _⟩ => ⟨S_, .i32⟩
  | .hbm, ⟨60, _⟩ => ⟨S351, .i32⟩
  | .hbm, ⟨61, _⟩ => ⟨S351, .i32⟩
  | .hbm, ⟨62, _⟩ => ⟨S351, .i32⟩
  | .hbm, ⟨63, _⟩ => ⟨S351x1, .i32⟩
  | .hbm, ⟨64, _⟩ => ⟨S351x1, .i32⟩
  | .hbm, ⟨65, _⟩ => ⟨S351x2, .i32⟩
  | .hbm, ⟨66, _⟩ => ⟨S16384x351, .f32⟩
  | .hbm, ⟨67, _⟩ => ⟨S16384x415, .f32⟩
  | .hbm, ⟨68, _⟩ => ⟨S16384x512, .f32⟩
  | .hbm, ⟨69, _⟩ => ⟨S1x512, .f32⟩
  | .hbm, ⟨70, _⟩ => ⟨S16384x512, .f32⟩
  | .hbm, ⟨71, _⟩ => ⟨S16384x512, .f32⟩
  | .hbm, ⟨72, _⟩ => ⟨S_, .f32⟩
  | .hbm, ⟨73, _⟩ => ⟨S16384x512, .f32⟩
  | .hbm, ⟨74, _⟩ => ⟨S16384x512, .f32⟩
  | .hbm, ⟨75, _⟩ => ⟨S16384x256, .f32⟩
  | .hbm, ⟨76, _⟩ => ⟨S1x256, .f32⟩
  | .hbm, ⟨77, _⟩ => ⟨S16384x256, .f32⟩
  | .hbm, ⟨78, _⟩ => ⟨S16384x256, .f32⟩
  | .hbm, ⟨79, _⟩ => ⟨S_, .f32⟩
  | .hbm, ⟨80, _⟩ => ⟨S16384x256, .f32⟩
  | .hbm, ⟨81, _⟩ => ⟨S16384x256, .f32⟩
  | .hbm, ⟨82, _⟩ => ⟨S16384x1, .f32⟩
  | .hbm, ⟨83, _⟩ => ⟨S1x1, .f32⟩
  | .hbm, ⟨84, _⟩ => ⟨S16384x1, .f32⟩
  | .hbm, ⟨85, _⟩ => ⟨S16384x1, .f32⟩
  | .hbm, ⟨86, _⟩ => ⟨S16384, .f32⟩
  | _, _ => ⟨S16384x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_c_2 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call1_cst : Ref sig .tc := ⟨.hbm, 28, rfl⟩
abbrev main_call1_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_3 : Ref sig .tc := ⟨.hbm, 33, rfl⟩
abbrev main_v12 : Ref sig .tc := ⟨.hbm, 34, rfl⟩
abbrev main_v13 : Ref sig .tc := ⟨.hbm, 35, rfl⟩
abbrev main_c_4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_5 : Ref sig .tc := ⟨.hbm, 40, rfl⟩
abbrev main_v17 : Ref sig .tc := ⟨.hbm, 41, rfl⟩
abbrev main_v18 : Ref sig .tc := ⟨.hbm, 42, rfl⟩
abbrev main_c_6 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call2_cst : Ref sig .tc := ⟨.hbm, 72, rfl⟩
abbrev main_call2_v0 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call3_cst : Ref sig .tc := ⟨.hbm, 79, rfl⟩
abbrev main_call3_v0 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  bcast_S16384x64_S16384x1x64_0_2 : S16384x64.BroadcastsInDim S16384x1x64 (![0, 2] : Fin 2 → Fin S16384x1x64.rank)
  concatenates_S16384x1x64_S16384x26x64_S16384x27x64_d1 : Shape.Concatenates [S16384x1x64, S16384x26x64] S16384x27x64 1
  bcast_S_S351 : S_.BroadcastsInDim S351 (![] : Fin 0 → Fin S351.rank)
  bcast_S351_S351x1_0 : S351.BroadcastsInDim S351x1 (![0] : Fin 1 → Fin S351x1.rank)
  concatenates_S351x1_S351x1_S351x2_d1 : Shape.Concatenates [S351x1, S351x1] S351x2 1
  concatenates_S16384x64_S16384x351_S16384x415_d1 : Shape.Concatenates [S16384x64, S16384x351] S16384x415 1
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  dot_S16384x13_S13x128_S16384x128_1_0_0_1_n_n_wf : DotDims.WF S16384x13 S13x128 S16384x128 [1] [0] [0] [1] [] []
  dot_S16384x128_S128x64_S16384x64_1_0_0_1_n_n_wf : DotDims.WF S16384x128 S128x64 S16384x64 [1] [0] [0] [1] [] []
  gather_S26x131073x64_S16384x26x2_S16384x26x64_2_01_n_n_01_2_1164_wf : GatherDims.WF S26x131073x64 S16384x26x2 S16384x26x64 [2] [0, 1] [] [0, 1] [] 2 ![1, 1, 64]
  dot_S16384x27x64_S16384x27x64_S16384x27x27_2_2_1_1_0_0_wf : DotDims.WF S16384x27x64 S16384x27x64 S16384x27x27 [2] [2] [1] [1] [0] [0]
  gather_S16384x27x27_S351x2_S16384x351_0_12_n_n_12_1_1638411_wf : GatherDims.WF S16384x27x27 S351x2 S16384x351 [0] [1, 2] [] [1, 2] [] 1 ![16384, 1, 1]
  dot_S16384x415_S415x512_S16384x512_1_0_0_1_n_n_wf : DotDims.WF S16384x415 S415x512 S16384x512 [1] [0] [0] [1] [] []
  dot_S16384x512_S512x256_S16384x256_1_0_0_1_n_n_wf : DotDims.WF S16384x512 S512x256 S16384x256 [1] [0] [0] [1] [] []
  dot_S16384x256_S256x1_S16384x1_1_0_0_1_n_n_wf : DotDims.WF S16384x256 S256x1 S16384x1 [1] [0] [0] [1] [] []

variable [Facts₀]

def dot_S16384x13_S13x128_S16384x128_1_0_0_1_n_n : DotDims S16384x13 S13x128 S16384x128 where
  lhsContracting := [1]
  rhsContracting := [0]
  lhsNonContracting := [0]
  rhsNonContracting := [1]
  lhsBatch := []
  rhsBatch := []
  wf := dot_S16384x13_S13x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def gather_S26x131073x64_S16384x26x2_S16384x26x64_2_01_n_n_01_2_1164 : GatherDims S26x131073x64 S16384x26x2 S16384x26x64 where
  offsetDims := [2]
  collapsedSliceDims := [0, 1]
  operandBatchingDims := []
  startIndicesBatchingDims := []
  startIndexMap := [0, 1]
  indexVectorDim := 2
  sliceSizes := ![1, 1, 64]
  wf := gather_S26x131073x64_S16384x26x2_S16384x26x64_2_01_n_n_01_2_1164_wf
def dot_S16384x27x64_S16384x27x64_S16384x27x27_2_2_1_1_0_0 : DotDims S16384x27x64 S16384x27x64 S16384x27x27 where
  lhsContracting := [2]
  rhsContracting := [2]
  lhsNonContracting := [1]
  rhsNonContracting := [1]
  lhsBatch := [0]
  rhsBatch := [0]
  wf := dot_S16384x27x64_S16384x27x64_S16384x27x27_2_2_1_1_0_0_wf
def gather_S16384x27x27_S351x2_S16384x351_0_12_n_n_12_1_1638411 : GatherDims S16384x27x27 S351x2 S16384x351 where
  offsetDims := [0]
  collapsedSliceDims := [1, 2]
  operandBatchingDims := []
  startIndicesBatchingDims := []
  startIndexMap := [1, 2]
  indexVectorDim := 1
  sliceSizes := ![16384, 1, 1]
  wf := gather_S16384x27x27_S351x2_S16384x351_0_12_n_n_12_1_1638411_wf
def dot_S16384x415_S415x512_S16384x512_1_0_0_1_n_n : DotDims S16384x415 S415x512 S16384x512 where
  lhsContracting := [1]
  rhsContracting := [0]
  lhsNonContracting := [0]
  rhsNonContracting := [1]
  lhsBatch := []
  rhsBatch := []
  wf := dot_S16384x415_S415x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

class Facts : Prop extends Facts₀ where

variable [Facts]
-- ==== Proof.RefRun.lean ====
/- The reference program's @main as the list of its host operations, and its run read back: every weakly fair
   execution terminates with each buffer at the fold of the operations' results over the launch contents, so the
   result buffer holds the fold at its reference and each argument buffer what it held. The four calls of the
   outlined maximum-with-zero are listed inline at their call sites, three operations each (the zero, its
   broadcast, the maximum), over the call's own buffers. -/
import proofs.«407213_j20864951124667_1_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- @main's 74 operations, in order: its own 62 and the three of each of the four calls. -/
abbrev ops : List (HloOp τ sig (Elt F)) :=
  [
    nullary main_c (fun i => lit0 (S351.rowMajor i)),
    nullary main_c_0 (constantI S351 1 0#1),
    nullary main_c_1 (fun i => lit1 (S351.rowMajor i)),
    nullary main_c_2 (constantI S351 1 0#1),
    binary main_arg0 main_arg3 main_v0 ((fun l r => Host.dotGeneral dot_S16384x13_S13x128_S16384x128_1_0_0_1_n_n none l r) : (⟨S16384x13, .f32⟩ : BufTy).Contents (Elt F) → (⟨S13x128, .f32⟩ : BufTy).Contents (Elt F) → (⟨S16384x128, .f32⟩ : BufTy).Contents (Elt F)),
    unary main_arg4 main_v1 (broadcastInDim S1x128 ![1] bcast_S128_S1x128_1 : (⟨S128, .f32⟩ : BufTy).Contents (Elt F) → (⟨S1x128, .f32⟩ : BufTy).Contents (Elt F)),
    unary main_v1 main_v2 (broadcastInDim S16384x128 ![0, 1] bcast_S1x128_S16384x128_0_1 : (⟨S1x128, .f32⟩ : BufTy).Contents (Elt F) → (⟨S16384x128, .f32⟩ : BufTy).Contents (Elt F)),
    binary main_v0 main_v2 main_v3 (addf : (⟨S16384x128, .f32⟩ : BufTy).Contents (Elt F) → (⟨S16384x128, .f32⟩ : BufTy).Contents (Elt F) → (⟨S16384x128, .f32⟩ : BufTy).Contents (Elt F)),
    TRef.nullary main_call0.cst (constant S_ .f32 0x00000000#32),
    TRef.unary main_call0.cst main_call0.v0 (broadcastInDim S16384x128 ![] bcast_S_S16384x128),
    TRef.binary (.of main_v3) main_call0.v0 main_call0.v1 maximumf,
    binary main_v4 main_arg5 main_v5 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    unary main_arg6 main_v6 (broadcastInDim S1x64 ![1] bcast_S64_S1x64_1 : (⟨S64, .f32⟩ : BufTy).Contents (Elt F) → (⟨S1x64, .f32⟩ : BufTy).Contents (Elt F)),
    unary main_v6 main_v7 (broadcastInDim S16384x64 ![0, 1] bcast_S1x64_S16384x64_0_1 : (⟨S1x64, .f32⟩ : BufTy).Contents (Elt F) → (⟨S16384x64, .f32⟩ : BufTy).Contents (Elt F)),
    binary main_v5 main_v7 main_v8 (addf : (⟨S16384x64, .f32⟩ : BufTy).Contents (Elt F) → (⟨S16384x64, .f32⟩ : BufTy).Contents (Elt F) → (⟨S16384x64, .f32⟩ : BufTy).Contents (Elt F)),
    TRef.nullary main_call1.cst (constant S_ .f32 0x00000000#32),
    TRef.unary main_call1.cst main_call1.v0 (broadcastInDim S16384x64 ![] bcast_S_S16384x64),
    TRef.binary (.of main_v8) main_call1.v0 main_call1.v1 maximumf,
    nullary main_v10 (iotaInDim S26 32 0),
    unary main_v10 main_v11 (broadcastInDim S1x26 ![1] bcast_S26_S1x26_1 : (⟨S26, .i32⟩ : BufTy).Contents (Elt F) → (⟨S1x26, .i32⟩ : BufTy).Contents (Elt F)),
    nullary main_c_3 (constantI S_ 32 0#32),
    unary main_c_3 main_v12 (broadcastInDim S1x26 ![] bcast_S_S1x26 : (⟨S_, .i32⟩ : BufTy).Contents (Elt F) → (⟨S1x26, .i32⟩ : BufTy).Contents (Elt F)),
    binary main_v11 main_v12 main_v13 (cmpi .slt : (⟨S1x26, .i32⟩ : BufTy).Contents (Elt F) → (⟨S1x26, .i32⟩ : BufTy).Contents (Elt F) → (⟨S1x26, .i1⟩ : BufTy).Contents (Elt F)),
    nullary main_c_4 (constantI S_ 32 26#32),
    unary main_c_4 main_v14 (broadcastInDim S1x26 ![] bcast_S_S1x26 : (⟨S_, .i32⟩ : BufTy).Contents (Elt F) → (⟨S1x26, .i32⟩ : BufTy).Contents (Elt F)),
    binary main_v11 main_v14 main_v15 (addi : (⟨S1x26, .i32⟩ : BufTy).Contents (Elt F) → (⟨S1x26, .i32⟩ : BufTy).Contents (Elt F) → (⟨S1x26, .i32⟩ : BufTy).Contents (Elt F)),
    ternary main_v13 main_v15 main_v11 main_v16 (select : (⟨S1x26, .i1⟩ : BufTy).Contents (Elt F) → (⟨S1x26, .i32⟩ : BufTy).Contents (Elt F) → (⟨S1x26, .i32⟩ : BufTy).Contents (Elt F) → (⟨S1x26, .i32⟩ : BufTy).Contents (Elt F)),
    nullary main_c_5 (constantI S_ 32 0#32),
    unary main_c_5 main_v17 (broadcastInDim S16384x26 ![] bcast_S_S16384x26 : (⟨S_, .i32⟩ : BufTy).Contents (Elt F) → (⟨S16384x26, .i32⟩ : BufTy).Contents (Elt F)),
    binary main_arg1 main_v17 main_v18 (cmpi .slt : (⟨S16384x26, .i32⟩ : BufTy).Contents (Elt F) → (⟨S16384x26, .i32⟩ : BufTy).Contents (Elt F) → (⟨S16384x26, .i1⟩ : BufTy).Contents (Elt F)),
    nullary main_c_6 (constantI S_ 32 131073#32),
    unary main_c_6 main_v19 (broadcastInDim S16384x26 ![] bcast_S_S16384x26 : (⟨S_, .i32⟩ : BufTy).Contents (Elt F) → (⟨S16384x26, .i32⟩ : BufTy).Contents (Elt F)),
    binary main_arg1 main_v19 main_v20 (addi : (⟨S16384x26, .i32⟩ : BufTy).Contents (Elt F) → (⟨S16384x26, .i32⟩ : BufTy).Contents (Elt F) → (⟨S16384x26, .i32⟩ : BufTy).Contents (Elt F)),
    ternary main_v18 main_v20 main_arg1 main_v21 (select : (⟨S16384x26, .i1⟩ : BufTy).Contents (Elt F) → (⟨S16384x26, .i32⟩ : BufTy).Contents (Elt F) → (⟨S16384x26, .i32⟩ : BufTy).Contents (Elt F) → (⟨S16384x26, .i32⟩ : BufTy).Contents (Elt F)),
    unary main_v16 main_v22 (broadcastInDim S16384x26 ![0, 1] bcast_S1x26_S16384x26_0_1 : (⟨S1x26, .i32⟩ : BufTy).Contents (Elt F) → (⟨S16384x26, .i32⟩ : BufTy).Contents (Elt F)),
    unary main_v22 main_v23 (broadcastInDim S16384x26x1 ![0, 1] bcast_S16384x26_S16384x26x1_0_1 : (⟨S16384x26, .i32⟩ : BufTy).Contents (Elt F) → (⟨S16384x26x1, .i32⟩ : BufTy).Contents (Elt F)),
    unary main_v21 main_v24 (broadcastInDim S16384x26x1 ![0, 1] bcast_S16384x26_S16384x26x1_0_1 : (⟨S16384x26, .i32⟩ : BufTy).Contents (Elt F) → (⟨S16384x26x1, .i32⟩ : BufTy).Contents (Elt F)),
    binary main_v23 main_v24 main_v25 ((fun a b => concatenate S16384x26x2 2 [⟨S16384x26x1, a⟩, ⟨S16384x26x1, b⟩] concatenates_S16384x26x1_S16384x26x1_S16384x26x2_d2) : (⟨S16384x26x1, .i32⟩ : BufTy).Contents (Elt F) → (⟨S16384x26x1, .i32⟩ : BufTy).Contents (Elt F) → (⟨S16384x26x2, .i32⟩ : BufTy).Contents (Elt F)),
    binary main_arg2 main_v25 main_v26 ((fun x i => Host.gather gather_S26x131073x64_S16384x26x2_S16384x26x64_2_01_n_n_01_2_1164 x i) : (⟨S26x131073x64, .f32⟩ : BufTy).Contents (Elt F) → (⟨S16384x26x2, .i32⟩ : BufTy).Contents (Elt F) → (⟨S16384x26x64, .f32⟩ : BufTy).Contents (Elt F)),
    unary main_v9 main_v27 (broadcastInDim S16384x1x64 ![0, 2] bcast_S16384x64_S16384x1x64_0_2 : (⟨S16384x64, .f32⟩ : BufTy).Contents (Elt F) → (⟨S16384x1x64, .f32⟩ : BufTy).Contents (Elt F)),
    binary main_v27 main_v26 main_v28 ((fun a b => concatenate S16384x27x64 1 [⟨S16384x1x64, a⟩, ⟨S16384x26x64, b⟩] concatenates_S16384x1x64_S16384x26x64_S16384x27x64_d1) : (⟨S16384x1x64, .f32⟩ : BufTy).Contents (Elt F) → (⟨S16384x26x64, .f32⟩ : BufTy).Contents (Elt F) → (⟨S16384x27x64, .f32⟩ : BufTy).Contents (Elt F)),
    binary main_v28 main_v28 main_v29 ((fun l r => Host.dotGeneral dot_S16384x27x64_S16384x27x64_S16384x27x27_2_2_1_1_0_0 none l r) : (⟨S16384x27x64, .f32⟩ : BufTy).Contents (Elt F) → (⟨S16384x27x64, .f32⟩ : BufTy).Contents (Elt F) → (⟨S16384x27x27, .f32⟩ : BufTy).Contents (Elt F)),
    nullary main_c_7 (constantI S_ 32 27#32),
    unary main_c_7 main_v30 (broadcastInDim S351 ![] bcast_S_S351 : (⟨S_, .i32⟩ : BufTy).Contents (Elt F) → (⟨S351, .i32⟩ : BufTy).Contents (Elt F)),
    binary main_c main_v30 main_v31 (addi : (⟨S351, .i32⟩ : BufTy).Contents (Elt F) → (⟨S351, .i32⟩ : BufTy).Contents (Elt F) → (⟨S351, .i32⟩ : BufTy).Contents (Elt F)),
    ternary main_c_0 main_v31 main_c main_v32 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    nullary main_c_8 (constantI S_ 32 27#32),
    unary main_c_8 main_v33 (broadcastInDim S351 ![] bcast_S_S351 : (⟨S_, .i32⟩ : BufTy).Contents (Elt F) → (⟨S351, .i32⟩ : BufTy).Contents (Elt F)),
    binary main_c_1 main_v33 main_v34 (addi : (⟨S351, .i32⟩ : BufTy).Contents (Elt F) → (⟨S351, .i32⟩ : BufTy).Contents (Elt F) → (⟨S351, .i32⟩ : BufTy).Contents (Elt F)),
    ternary main_c_2 main_v34 main_c_1 main_v35 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    unary main_v32 main_v36 (broadcastInDim S351x1 ![0] bcast_S351_S351x1_0 : (⟨S351, .i32⟩ : BufTy).Contents (Elt F) → (⟨S351x1, .i32⟩ : BufTy).Contents (Elt F)),
    unary main_v35 main_v37 (broadcastInDim S351x1 ![0] bcast_S351_S351x1_0 : (⟨S351, .i32⟩ : BufTy).Contents (Elt F) → (⟨S351x1, .i32⟩ : BufTy).Contents (Elt F)),
    binary main_v36 main_v37 main_v38 ((fun a b => concatenate S351x2 1 [⟨S351x1, a⟩, ⟨S351x1, b⟩] concatenates_S351x1_S351x1_S351x2_d1) : (⟨S351x1, .i32⟩ : BufTy).Contents (Elt F) → (⟨S351x1, .i32⟩ : BufTy).Contents (Elt F) → (⟨S351x2, .i32⟩ : BufTy).Contents (Elt F)),
    binary main_v29 main_v38 main_v39 ((fun x i => Host.gather gather_S16384x27x27_S351x2_S16384x351_0_12_n_n_12_1_1638411 x i) : (⟨S16384x27x27, .f32⟩ : BufTy).Contents (Elt F) → (⟨S351x2, .i32⟩ : BufTy).Contents (Elt F) → (⟨S16384x351, .f32⟩ : BufTy).Contents (Elt F)),
    binary main_v9 main_v39 main_v40 ((fun a b => concatenate S16384x415 1 [⟨S16384x64, a⟩, ⟨S16384x351, b⟩] concatenates_S16384x64_S16384x351_S16384x415_d1) : (⟨S16384x64, .f32⟩ : BufTy).Contents (Elt F) → (⟨S16384x351, .f32⟩ : BufTy).Contents (Elt F) → (⟨S16384x415, .f32⟩ : BufTy).Contents (Elt F)),
    binary main_v40 main_arg7 main_v41 ((fun l r => Host.dotGeneral dot_S16384x415_S415x512_S16384x512_1_0_0_1_n_n none l r) : (⟨S16384x415, .f32⟩ : BufTy).Contents (Elt F) → (⟨S415x512, .f32⟩ : BufTy).Contents (Elt F) → (⟨S16384x512, .f32⟩ : BufTy).Contents (Elt F)),
    unary main_arg8 main_v42 (broadcastInDim S1x512 ![1] bcast_S512_S1x512_1 : (⟨S512, .f32⟩ : BufTy).Contents (Elt F) → (⟨S1x512, .f32⟩ : BufTy).Contents (Elt F)),
    unary main_v42 main_v43 (broadcastInDim S16384x512 ![0, 1] bcast_S1x512_S16384x512_0_1 : (⟨S1x512, .f32⟩ : BufTy).Contents (Elt F) → (⟨S16384x512, .f32⟩ : BufTy).Contents (Elt F)),
    binary main_v41 main_v43 main_v44 (addf : (⟨S16384x512, .f32⟩ : BufTy).Contents (Elt F) → (⟨S16384x512, .f32⟩ : BufTy).Contents (Elt F) → (⟨S16384x512, .f32⟩ : BufTy).Contents (Elt F)),
    TRef.nullary main_call2.cst (constant S_ .f32 0x00000000#32),
    TRef.unary main_call2.cst main_call2.v0 (broadcastInDim S16384x512 ![] bcast_S_S16384x512),
    TRef.binary (.of main_v44) main_call2.v0 main_call2.v1 maximumf,
    binary main_v45 main_arg9 main_v46 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    unary main_arg10 main_v47 (broadcastInDim S1x256 ![1] bcast_S256_S1x256_1 : (⟨S256, .f32⟩ : BufTy).Contents (Elt F) → (⟨S1x256, .f32⟩ : BufTy).Contents (Elt F)),
    unary main_v47 main_v48 (broadcastInDim S16384x256 ![0, 1] bcast_S1x256_S16384x256_0_1 : (⟨S1x256, .f32⟩ : BufTy).Contents (Elt F) → (⟨S16384x256, .f32⟩ : BufTy).Contents (Elt F)),
    binary main_v46 main_v48 main_v49 (addf : (⟨S16384x256, .f32⟩ : BufTy).Contents (Elt F) → (⟨S16384x256, .f32⟩ : BufTy).Contents (Elt F) → (⟨S16384x256, .f32⟩ : BufTy).Contents (Elt F)),
    TRef.nullary main_call3.cst (constant S_ .f32 0x00000000#32),
    TRef.unary main_call3.cst main_call3.v0 (broadcastInDim S16384x256 ![] bcast_S_S16384x256),
    TRef.binary (.of main_v49) main_call3.v0 main_call3.v1 maximumf,
    binary main_v50 main_arg11 main_v51 ((fun l r => Host.dotGeneral dot_S16384x256_S256x1_S16384x1_1_0_0_1_n_n none l r) : (⟨S16384x256, .f32⟩ : BufTy).Contents (Elt F) → (⟨S256x1, .f32⟩ : BufTy).Contents (Elt F) → (⟨S16384x1, .f32⟩ : BufTy).Contents (Elt F)),
    unary main_arg12 main_v52 (broadcastInDim S1x1 ![1] bcast_S1_S1x1_1 : (⟨S1, .f32⟩ : BufTy).Contents (Elt F) → (⟨S1x1, .f32⟩ : BufTy).Contents (Elt F)),
    unary main_v52 main_v53 (broadcastInDim S16384x1 ![0, 1] bcast_S1x1_S16384x1_0_1 : (⟨S1x1, .f32⟩ : BufTy).Contents (Elt F) → (⟨S16384x1, .f32⟩ : BufTy).Contents (Elt F)),
    binary main_v51 main_v53 main_v54 (addf : (⟨S16384x1, .f32⟩ : BufTy).Contents (Elt F) → (⟨S16384x1, .f32⟩ : BufTy).Contents (Elt F) → (⟨S16384x1, .f32⟩ : BufTy).Contents (Elt F)),
    reshape main_v54 main_v55 rfl shapeCasts_S16384x1_S16384 ]

-- the sequencing of the two windows and the four bodies re-associated into one chain, statement by statement
set_option maxRecDepth 4096 in
set_option maxHeartbeats 4000000 in
/-- @main is that straight line: the two windows and the four bodies unfolded, sequencing re-associated. -/
theorem main_eq (c : Dev nD) : main (F := F) c = seq ops := by
  simp only [main, main_part0, main_part1, fn_relu.body, fn_relu_0.body, fn_relu_1.body, fn_relu_2.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., nullary_bufs_sub .., nullary_bufs_sub .., nullary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    unary_bufs_sub .., binary_bufs_sub .., binary_bufs_sub .., unary_bufs_sub .., binary_bufs_sub .., binary_bufs_sub ..,
    nullary_bufs_sub .., unary_bufs_sub .., binary_bufs_sub .., ternary_bufs_sub .., nullary_bufs_sub .., unary_bufs_sub ..,
    binary_bufs_sub .., ternary_bufs_sub .., unary_bufs_sub .., unary_bufs_sub .., binary_bufs_sub .., binary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., reshape_bufs_sub ..⟩

set_option maxRecDepth 8192 in
set_option maxHeartbeats 4000000 in
/-- No operation writes this argument's buffer: the fold leaves it as it was. -/
theorem main_arg0_eq (V : Valuation τ sig (Elt F)) :
    after ops V (main_arg0 : DevRef τ sig) = V (main_arg0 : DevRef τ sig) := by
  after_results_simp

set_option maxRecDepth 8192 in
set_option maxHeartbeats 4000000 in
/-- No operation writes this argument's buffer: the fold leaves it as it was. -/
theorem main_arg1_eq (V : Valuation τ sig (Elt F)) :
    after ops V (main_arg1 : DevRef τ sig) = V (main_arg1 : DevRef τ sig) := by
  after_results_simp

set_option maxRecDepth 8192 in
set_option maxHeartbeats 4000000 in
/-- No operation writes this argument's buffer: the fold leaves it as it was. -/
theorem main_arg2_eq (V : Valuation τ sig (Elt F)) :
    after ops V (main_arg2 : DevRef τ sig) = V (main_arg2 : DevRef τ sig) := by
  after_results_simp

set_option maxRecDepth 8192 in
set_option maxHeartbeats 4000000 in
/-- No operation writes this argument's buffer: the fold leaves it as it was. -/
theorem main_arg3_eq (V : Valuation τ sig (Elt F)) :
    after ops V (main_arg3 : DevRef τ sig) = V (main_arg3 : DevRef τ sig) := by
  after_results_simp

set_option maxRecDepth 8192 in
set_option maxHeartbeats 4000000 in
/-- No operation writes this argument's buffer: the fold leaves it as it was. -/
theorem main_arg4_eq (V : Valuation τ sig (Elt F)) :
    after ops V (main_arg4 : DevRef τ sig) = V (main_arg4 : DevRef τ sig) := by
  after_results_simp

set_option maxRecDepth 8192 in
set_option maxHeartbeats 4000000 in
/-- No operation writes this argument's buffer: the fold leaves it as it was. -/
theorem main_arg5_eq (V : Valuation τ sig (Elt F)) :
    after ops V (main_arg5 : DevRef τ sig) = V (main_arg5 : DevRef τ sig) := by
  after_results_simp

set_option maxRecDepth 8192 in
set_option maxHeartbeats 4000000 in
/-- No operation writes this argument's buffer: the fold leaves it as it was. -/
theorem main_arg6_eq (V : Valuation τ sig (Elt F)) :
    after ops V (main_arg6 : DevRef τ sig) = V (main_arg6 : DevRef τ sig) := by
  after_results_simp

set_option maxRecDepth 8192 in
set_option maxHeartbeats 4000000 in
/-- No operation writes this argument's buffer: the fold leaves it as it was. -/
theorem main_arg7_eq (V : Valuation τ sig (Elt F)) :
    after ops V (main_arg7 : DevRef τ sig) = V (main_arg7 : DevRef τ sig) := by
  after_results_simp

set_option maxRecDepth 8192 in
set_option maxHeartbeats 4000000 in
/-- No operation writes this argument's buffer: the fold leaves it as it was. -/
theorem main_arg8_eq (V : Valuation τ sig (Elt F)) :
    after ops V (main_arg8 : DevRef τ sig) = V (main_arg8 : DevRef τ sig) := by
  after_results_simp

set_option maxRecDepth 8192 in
set_option maxHeartbeats 4000000 in
/-- No operation writes this argument's buffer: the fold leaves it as it was. -/
theorem main_arg9_eq (V : Valuation τ sig (Elt F)) :
    after ops V (main_arg9 : DevRef τ sig) = V (main_arg9 : DevRef τ sig) := by
  after_results_simp

set_option maxRecDepth 8192 in
set_option maxHeartbeats 4000000 in
/-- No operation writes this argument's buffer: the fold leaves it as it was. -/
theorem main_arg10_eq (V : Valuation τ sig (Elt F)) :
    after ops V (main_arg10 : DevRef τ sig) = V (main_arg10 : DevRef τ sig) := by
  after_results_simp

set_option maxRecDepth 8192 in
set_option maxHeartbeats 4000000 in
/-- No operation writes this argument's buffer: the fold leaves it as it was. -/
theorem main_arg11_eq (V : Valuation τ sig (Elt F)) :
    after ops V (main_arg11 : DevRef τ sig) = V (main_arg11 : DevRef τ sig) := by
  after_results_simp

set_option maxRecDepth 8192 in
set_option maxHeartbeats 4000000 in
/-- No operation writes this argument's buffer: the fold leaves it as it was. -/
theorem main_arg12_eq (V : Valuation τ sig (Elt F)) :
    after ops V (main_arg12 : DevRef τ sig) = V (main_arg12 : DevRef τ sig) := by
  after_results_simp

/-- On every device, for any float values, from any memory with zero counters: every weakly fair execution of
    @main terminates with the result buffer at the operations' fold over the launch contents, read at the
    result's reference, and the thirteen arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v55) = after ops (launchContents m c) (main_v55 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨h c main_v55,
      (h c main_arg0).trans (main_arg0_eq _),
      (h c main_arg1).trans (main_arg1_eq _),
      (h c main_arg2).trans (main_arg2_eq _),
      (h c main_arg3).trans (main_arg3_eq _),
      (h c main_arg4).trans (main_arg4_eq _),
      (h c main_arg5).trans (main_arg5_eq _),
      (h c main_arg6).trans (main_arg6_eq _),
      (h c main_arg7).trans (main_arg7_eq _),
      (h c main_arg8).trans (main_arg8_eq _),
      (h c main_arg9).trans (main_arg9_eq _),
      (h c main_arg10).trans (main_arg10_eq _),
      (h c main_arg11).trans (main_arg11_eq _),
      (h c main_arg12).trans (main_arg12_eq _)⟩)
    (run_seq scopedRefs_eq scopedSems_eq defs main (fun _ => ops) main_eq (fun _ => ops_sub) m ρ)

end Cert.ReferenceIdeal.RefRun

end
-- ==== Proof.PreRange.lean ====
/-
  The precondition's last two conjuncts, decoded: every word of the index table is, read as a signed
  integer, in [0, 131073), hence below 131073 read unsigned.
-/
import proofs.«407213_j20864951124667_1_alg».proof.Pre_finite_inputs
import Idealize.ShloMosaic.Lib.ReduceAll

noncomputable section

namespace Cert.PreRange

open Idealize.ShloMosaic
open Cert.Pre_finite_inputs

/-- A shape of rank 0 has one index. -/
instance : Subsingleton S_.Idx := ⟨fun a b => funext fun d => d.elim0⟩

/-- A 32-bit word in [0, 131073) as a signed integer is below 131073 as an unsigned one. -/
theorem toNat_lt_of_signed (w : BitVec 32) (h0 : 0 ≤ w.toInt) (h1 : w.toInt < 131073) : w.toNat < 131073 := by
  have h32 := w.isLt
  rw [BitVec.toInt_eq_toNat_cond] at h0 h1
  by_cases hc : 2 * w.toNat < 2 ^ 32
  · rw [if_pos hc] at h0 h1; omega
  · rw [if_neg hc] at h0 h1; omega

variable {F : FTy → Type} [FloatOps F] [Cert.Pre_finite_inputs.Facts]

/-- The precondition holds: each index word is in [0, 131073), signed. -/
theorem range_of_pre_toInt (a0 : FVec F S16384x13 .f32) (a1 : IVec S16384x26 32) (a2 : FVec F S26x131073x64 .f32)
    (a3 : FVec F S13x128 .f32) (a4 : FVec F S128 .f32) (a5 : FVec F S128x64 .f32) (a6 : FVec F S64 .f32)
    (a7 : FVec F S415x512 .f32) (a8 : FVec F S512 .f32) (a9 : FVec F S512x256 .f32) (a10 : FVec F S256 .f32)
    (a11 : FVec F S256x1 .f32) (a12 : FVec F S1 .f32)
    (h : fn (F := F) a0 a1 a2 a3 a4 a5 a6 a7 a8 a9 a10 a11 a12 = fun _ => 1#1) :
    ∀ i : S16384x26.Idx, 0 ≤ (a1 i).toInt ∧ (a1 i).toInt < 131073 := by
  intro i
  have e := congrFun h (fun d => d.elim0)
  dsimp only [fn, fn_part1, fn_part2, fn_part3] at e
  dsimp only [andi] at e
  obtain ⟨e1, hlt⟩ := IntOp.andi_eq_one.1 e
  obtain ⟨-, hge⟩ := IntOp.andi_eq_one.1 e1
  have hge' := Host.reduce_andi_all _ _ _ _ _ hge i
  have hlt' := Host.reduce_andi_all _ _ _ _ _ hlt i
  dsimp only [cmpi, broadcastInDim, constantI] at hge' hlt'
  rw [IntOp.cmpi_sge] at hge'
  rw [IntOp.cmpi_slt] at hlt'
  have z : (0#32 : BitVec 32).toInt = 0 := by decide
  have n : (131073#32 : BitVec 32).toInt = 131073 := by decide
  rw [z] at hge'
  rw [n] at hlt'
  exact ⟨hge', hlt'⟩

/-- The precondition holds: each index word is below 131073, unsigned. -/
theorem range_of_pre (a0 : FVec F S16384x13 .f32) (a1 : IVec S16384x26 32) (a2 : FVec F S26x131073x64 .f32)
    (a3 : FVec F S13x128 .f32) (a4 : FVec F S128 .f32) (a5 : FVec F S128x64 .f32) (a6 : FVec F S64 .f32)
    (a7 : FVec F S415x512 .f32) (a8 : FVec F S512 .f32) (a9 : FVec F S512x256 .f32) (a10 : FVec F S256 .f32)
    (a11 : FVec F S256x1 .f32) (a12 : FVec F S1 .f32)
    (h : fn (F := F) a0 a1 a2 a3 a4 a5 a6 a7 a8 a9 a10 a11 a12 = fun _ => 1#1) :
    ∀ i : S16384x26.Idx, (a1 i).toNat < 131073 := fun i =>
  toNat_lt_of_signed _ (range_of_pre_toInt a0 a1 a2 a3 a4 a5 a6 a7 a8 a9 a10 a11 a12 h i).1
    (range_of_pre_toInt a0 a1 a2 a3 a4 a5 a6 a7 a8 a9 a10 a11 a12 h i).2

end Cert.PreRange

end
-- ==== Proof.KerHost.lean ====
import proofs.«407213_j20864951124667_1_alg».proof.Proof.Gen.KernelIdeal.Regions
import Idealize.ShloMosaic.Lib.StableHlo.Run

/-! The host side of the program read back: what the operations outside the five kernel regions leave in the
    buffers the regions read and in the final result, as pure functions of the launch contents and of what the
    regions leave. Nothing here depends on the float instance. -/

noncomputable section

namespace Cert.KernelIdeal.KerHost

open Idealize.ShloMosaic Idealize.ShloMosaic.TcCoe
open Facts₀ Facts

variable {F : FTy → Type} [FloatOps F]

/-! ## The host operations as pure functions -/

/-- x ↦ x · w + b (b broadcast along the rows), 13 → 128 columns. -/
def lin1K (a0 : FVec F S16384x13 .f32) (a3 : FVec F S13x128 .f32) (a4 : FVec F S128 .f32) : FVec F S16384x128 .f32 :=
  addf (Host.dotGeneral dot_S16384x13_S13x128_S16384x128_1_0_0_1_n_n none a0 a3)
    (broadcastInDim S16384x128 ![0, 1] bcast_S1x128_S16384x128_0_1 (broadcastInDim S1x128 ![1] bcast_S128_S1x128_1 a4))
/-- The maximum with zero, 128 columns. -/
def relu128K (x : FVec F S16384x128 .f32) : FVec F S16384x128 .f32 :=
  maximumf x (broadcastInDim S16384x128 ![] bcast_S_S16384x128 (constant (F := F) S_ .f32 0x00000000#32))
/-- x ↦ x · w + b, 128 → 64 columns. -/
def lin2K (x : FVec F S16384x128 .f32) (a5 : FVec F S128x64 .f32) (a6 : FVec F S64 .f32) : FVec F S16384x64 .f32 :=
  addf (Host.dotGeneral dot_S16384x128_S128x64_S16384x64_1_0_0_1_n_n none x a5)
    (broadcastInDim S16384x64 ![0, 1] bcast_S1x64_S16384x64_0_1 (broadcastInDim S1x64 ![1] bcast_S64_S1x64_1 a6))
/-- The maximum with zero, 64 columns. -/
def relu64K (x : FVec F S16384x64 .f32) : FVec F S16384x64 .f32 :=
  maximumf x (broadcastInDim S16384x64 ![] bcast_S_S16384x64 (constant (F := F) S_ .f32 0x00000000#32))

/-- The dense head: two affine layers, each followed by the maximum with zero. -/
def headK (a0 : FVec F S16384x13 .f32) (a3 : FVec F S13x128 .f32) (a4 : FVec F S128 .f32)
    (a5 : FVec F S128x64 .f32) (a6 : FVec F S64 .f32) : FVec F S16384x64 .f32 :=
  relu64K (lin2K (relu128K (lin1K a0 a3 a4)) a5 a6)

/-- Rows 0 .. 4095 of the index table. -/
def sliceK0 (a1 : IVec S16384x26 32) : IVec S4096x26 32 := extractStridedSlice S4096x26 ![0, 0] a1 slices_S16384x26_S4096x26_0_0
/-- Rows 4096 .. 8191 of the index table. -/
def sliceK1 (a1 : IVec S16384x26 32) : IVec S4096x26 32 := extractStridedSlice S4096x26 ![4096, 0] a1 slices_S16384x26_S4096x26_4096_0
/-- Rows 8192 .. 12287 of the index table. -/
def sliceK2 (a1 : IVec S16384x26 32) : IVec S4096x26 32 := extractStridedSlice S4096x26 ![8192, 0] a1 slices_S16384x26_S4096x26_8192_0
/-- Rows 12288 .. 16383 of the index table. -/
def sliceK3 (a1 : IVec S16384x26 32) : IVec S4096x26 32 := extractStridedSlice S4096x26 ![12288, 0] a1 slices_S16384x26_S4096x26_12288_0

/-- The four row blocks stacked along axis 0. -/
def concat4K (u0 u1 u2 u3 : FVec F S4096x26x64 .f32) : FVec F S16384x26x64 .f32 :=
  concatenate S16384x26x64 0 [⟨S4096x26x64, u0⟩, ⟨S4096x26x64, u1⟩, ⟨S4096x26x64, u2⟩, ⟨S4096x26x64, u3⟩]
    concatenates_S4096x26x64_S4096x26x64_S4096x26x64_S4096x26x64_S16384x26x64_d0

/-- x ↦ x · w + b, 415 → 512 columns. -/
def lin3K (x : FVec F S16384x415 .f32) (a7 : FVec F S415x512 .f32) (a8 : FVec F S512 .f32) : FVec F S16384x512 .f32 :=
  addf (Host.dotGeneral dot_S16384x415_S415x512_S16384x512_1_0_0_1_n_n none x a7)
    (broadcastInDim S16384x512 ![0, 1] bcast_S1x512_S16384x512_0_1 (broadcastInDim S1x512 ![1] bcast_S512_S1x512_1 a8))
/-- The maximum with zero, 512 columns. -/
def relu512K (x : FVec F S16384x512 .f32) : FVec F S16384x512 .f32 :=
  maximumf x (broadcastInDim S16384x512 ![] bcast_S_S16384x512 (constant (F := F) S_ .f32 0x00000000#32))
/-- x ↦ x · w + b, 512 → 256 columns. -/
def lin4K (x : FVec F S16384x512 .f32) (a9 : FVec F S512x256 .f32) (a10 : FVec F S256 .f32) : FVec F S16384x256 .f32 :=
  addf (Host.dotGeneral dot_S16384x512_S512x256_S16384x256_1_0_0_1_n_n none x a9)
    (broadcastInDim S16384x256 ![0, 1] bcast_S1x256_S16384x256_0_1 (broadcastInDim S1x256 ![1] bcast_S256_S1x256_1 a10))
/-- The maximum with zero, 256 columns. -/
def relu256K (x : FVec F S16384x256 .f32) : FVec F S16384x256 .f32 :=
  maximumf x (broadcastInDim S16384x256 ![] bcast_S_S16384x256 (constant (F := F) S_ .f32 0x00000000#32))
/-- x ↦ x · w + b, 256 → 1 column, the column read as a vector. -/
def lin5K (x : FVec F S16384x256 .f32) (a11 : FVec F S256x1 .f32) (a12 : FVec F S1 .f32) : FVec F S16384 .f32 :=
  shapeCast S16384
    (addf (Host.dotGeneral dot_S16384x256_S256x1_S16384x1_1_0_0_1_n_n none x a11)
      (broadcastInDim S16384x1 ![0, 1] bcast_S1x1_S16384x1_0_1 (broadcastInDim S1x1 ![1] bcast_S1_S1x1_1 a12)))
    shapeCasts_S16384x1_S16384

/-- The tail: two affine layers with the maximum with zero, a last affine layer, the column read as a vector. -/
def tailK (x : FVec F S16384x415 .f32) (a7 : FVec F S415x512 .f32) (a8 : FVec F S512 .f32)
    (a9 : FVec F S512x256 .f32) (a10 : FVec F S256 .f32) (a11 : FVec F S256x1 .f32) (a12 : FVec F S1 .f32) : FVec F S16384 .f32 :=
  lin5K (relu256K (lin4K (relu512K (lin3K x a7 a8)) a9 a10)) a11 a12

/-! ## Each host stretch read at the reference it produces, over any contents -/

section Stretch
variable (W : Valuation τ sig (Elt F))

theorem ops0_v3 : StableHlo.after Gen.hostOps0 W (Proc.devRef .tc main_v3)
    = lin1K (W (Proc.devRef .tc main_arg0)) (W (Proc.devRef .tc main_arg3)) (W (Proc.devRef .tc main_arg4)) := by
  after_results; rfl
theorem ops0_1_v4 : StableHlo.after Gen.hostOps0_1 W (Proc.devRef .tc main_v4) = relu128K (W (Proc.devRef .tc main_v3)) := by
  after_results; rfl
theorem ops0_2_v8 : StableHlo.after Gen.hostOps0_2 W (Proc.devRef .tc main_v8)
    = lin2K (W (Proc.devRef .tc main_v4)) (W (Proc.devRef .tc main_arg5)) (W (Proc.devRef .tc main_arg6)) := by
  after_results; rfl
theorem ops0_3_v9 : StableHlo.after Gen.hostOps0_3 W (Proc.devRef .tc main_v9) = relu64K (W (Proc.devRef .tc main_v8)) := by
  after_results; rfl
theorem ops0_4_v10 : StableHlo.after Gen.hostOps0_4 W (Proc.devRef .tc main_v10) = sliceK0 (W (Proc.devRef .tc main_arg1)) := by
  after_results; rfl
theorem ops1_v12 : StableHlo.after Gen.hostOps1 W (Proc.devRef .tc main_v12) = sliceK1 (W (Proc.devRef .tc main_arg1)) := by
  after_results; rfl
theorem ops2_v14 : StableHlo.after Gen.hostOps2 W (Proc.devRef .tc main_v14) = sliceK2 (W (Proc.devRef .tc main_arg1)) := by
  after_results; rfl
theorem ops3_v16 : StableHlo.after Gen.hostOps3 W (Proc.devRef .tc main_v16) = sliceK3 (W (Proc.devRef .tc main_arg1)) := by
  after_results; rfl
theorem ops4_v18 : StableHlo.after Gen.hostOps4 W (Proc.devRef .tc main_v18)
    = concat4K (W (Proc.devRef .tc main_v11)) (W (Proc.devRef .tc main_v13)) (W (Proc.devRef .tc main_v15)) (W (Proc.devRef .tc main_v17)) := by
  after_results; rfl
theorem ops5_v23 : StableHlo.after Gen.hostOps5 W (Proc.devRef .tc main_v23)
    = lin3K (W (Proc.devRef .tc main_v19)) (W (Proc.devRef .tc main_arg7)) (W (Proc.devRef .tc main_arg8)) := by
  after_results; rfl
theorem ops5_1_v24 : StableHlo.after Gen.hostOps5_1 W (Proc.devRef .tc main_v24) = relu512K (W (Proc.devRef .tc main_v23)) := by
  after_results; rfl
theorem ops5_2_v28 : StableHlo.after Gen.hostOps5_2 W (Proc.devRef .tc main_v28)
    = lin4K (W (Proc.devRef .tc main_v24)) (W (Proc.devRef .tc main_arg9)) (W (Proc.devRef .tc main_arg10)) := by
  after_results; rfl
theorem ops5_3_v29 : StableHlo.after Gen.hostOps5_3 W (Proc.devRef .tc main_v29) = relu256K (W (Proc.devRef .tc main_v28)) := by
  after_results; rfl
theorem ops5_4_v34 : StableHlo.after Gen.hostOps5_4 W (Proc.devRef .tc main_v34)
    = lin5K (W (Proc.devRef .tc main_v29)) (W (Proc.devRef .tc main_arg11)) (W (Proc.devRef .tc main_arg12)) := by
  after_results; rfl

end Stretch

/-! ## The valuations at the references the regions and the result read -/

variable (m : (ℓ : Loc nD τ sig) → Buf (Elt F) ℓ) (outs : Gen.Outs (F := F))

/-! ### An argument keeps its launch contents -/

theorem V2_arg5 (c : Dev nD) : Gen.V2 m c main_arg5 = m ((c : Thread nD τ).loc main_arg5) :=
  (Gen.V2_of m c main_arg5 (by decide)).trans <| (Gen.V1_of m c main_arg5 (by decide)).trans rfl
theorem V2_arg6 (c : Dev nD) : Gen.V2 m c main_arg6 = m ((c : Thread nD τ).loc main_arg6) :=
  (Gen.V2_of m c main_arg6 (by decide)).trans <| (Gen.V1_of m c main_arg6 (by decide)).trans rfl

theorem V4_arg1 (c : Dev nD) : Gen.V4 m c main_arg1 = m ((c : Thread nD τ).loc main_arg1) :=
  (Gen.V4_of m c main_arg1 (by decide)).trans <| (Gen.V3_of m c main_arg1 (by decide)).trans <|
    (Gen.V2_of m c main_arg1 (by decide)).trans <| (Gen.V1_of m c main_arg1 (by decide)).trans rfl
theorem V5_arg1 (c : Dev nD) : Gen.V5 m c main_arg1 = m ((c : Thread nD τ).loc main_arg1) :=
  (Gen.V5_of m c main_arg1 (by decide)).trans (V4_arg1 m c)
theorem V6_arg1 (c : Dev nD) : Gen.V6 m outs c main_arg1 = m ((c : Thread nD τ).loc main_arg1) :=
  (Gen.V6_of m outs c main_arg1 (by decide)).trans (V5_arg1 m c)
theorem V8_arg1 (c : Dev nD) : Gen.V8 m outs c main_arg1 = m ((c : Thread nD τ).loc main_arg1) :=
  (Gen.V8_of m outs c main_arg1 (by decide)).trans <| (Gen.V7_of m outs c main_arg1 (by decide)).trans (V6_arg1 m outs c)
theorem V10_arg1 (c : Dev nD) : Gen.V10 m outs c main_arg1 = m ((c : Thread nD τ).loc main_arg1) :=
  (Gen.V10_of m outs c main_arg1 (by decide)).trans <| (Gen.V9_of m outs c main_arg1 (by decide)).trans (V8_arg1 m outs c)

theorem V4_arg2 (c : Dev nD) : Gen.V4 m c main_arg2 = m ((c : Thread nD τ).loc main_arg2) :=
  (Gen.V4_of m c main_arg2 (by decide)).trans <| (Gen.V3_of m c main_arg2 (by decide)).trans <|
    (Gen.V2_of m c main_arg2 (by decide)).trans <| (Gen.V1_of m c main_arg2 (by decide)).trans rfl
/-- The embedding tables, as region 0 finds them. -/
theorem V5_arg2 (c : Dev nD) : Gen.V5 m c main_arg2 = m ((c : Thread nD τ).loc main_arg2) :=
  (Gen.V5_of m c main_arg2 (by decide)).trans (V4_arg2 m c)
/-- The embedding tables, as region 1 finds them. -/
theorem V7_arg2 (c : Dev nD) : Gen.V7 m outs c main_arg2 = m ((c : Thread nD τ).loc main_arg2) :=
  (Gen.V7_of m outs c main_arg2 (by decide)).trans <| (Gen.V6_of m outs c main_arg2 (by decide)).trans (V5_arg2 m c)
/-- The embedding tables, as region 2 finds them. -/
theorem V9_arg2 (c : Dev nD) : Gen.V9 m outs c main_arg2 = m ((c : Thread nD τ).loc main_arg2) :=
  (Gen.V9_of m outs c main_arg2 (by decide)).trans <| (Gen.V8_of m outs c main_arg2 (by decide)).trans (V7_arg2 m outs c)
/-- The embedding tables, as region 3 finds them. -/
theorem V11_arg2 (c : Dev nD) : Gen.V11 m outs c main_arg2 = m ((c : Thread nD τ).loc main_arg2) :=
  (Gen.V11_of m outs c main_arg2 (by decide)).trans <| (Gen.V10_of m outs c main_arg2 (by decide)).trans (V9_arg2 m outs c)

theorem V18_arg11 (c : Dev nD) : Gen.V18 m outs c main_arg11 = m ((c : Thread nD τ).loc main_arg11) :=
  (Gen.V19_of m outs c main_arg11 (by decide)).symm.trans (Gen.V19_main_arg11 m outs c)
theorem V18_arg12 (c : Dev nD) : Gen.V18 m outs c main_arg12 = m ((c : Thread nD τ).loc main_arg12) :=
  (Gen.V19_of m outs c main_arg12 (by decide)).symm.trans (Gen.V19_main_arg12 m outs c)
theorem V16_arg9 (c : Dev nD) : Gen.V16 m outs c main_arg9 = m ((c : Thread nD τ).loc main_arg9) :=
  (Gen.V17_of m outs c main_arg9 (by decide)).symm.trans <| (Gen.V18_of m outs c main_arg9 (by decide)).symm.trans <|
    (Gen.V19_of m outs c main_arg9 (by decide)).symm.trans (Gen.V19_main_arg9 m outs c)
theorem V16_arg10 (c : Dev nD) : Gen.V16 m outs c main_arg10 = m ((c : Thread nD τ).loc main_arg10) :=
  (Gen.V17_of m outs c main_arg10 (by decide)).symm.trans <| (Gen.V18_of m outs c main_arg10 (by decide)).symm.trans <|
    (Gen.V19_of m outs c main_arg10 (by decide)).symm.trans (Gen.V19_main_arg10 m outs c)
theorem V14_arg7 (c : Dev nD) : Gen.V14 m outs c main_arg7 = m ((c : Thread nD τ).loc main_arg7) :=
  (Gen.V15_of m outs c main_arg7 (by decide)).symm.trans <| (Gen.V16_of m outs c main_arg7 (by decide)).symm.trans <|
    (Gen.V17_of m outs c main_arg7 (by decide)).symm.trans <| (Gen.V18_of m outs c main_arg7 (by decide)).symm.trans <|
    (Gen.V19_of m outs c main_arg7 (by decide)).symm.trans (Gen.V19_main_arg7 m outs c)
theorem V14_arg8 (c : Dev nD) : Gen.V14 m outs c main_arg8 = m ((c : Thread nD τ).loc main_arg8) :=
  (Gen.V15_of m outs c main_arg8 (by decide)).symm.trans <| (Gen.V16_of m outs c main_arg8 (by decide)).symm.trans <|
    (Gen.V17_of m outs c main_arg8 (by decide)).symm.trans <| (Gen.V18_of m outs c main_arg8 (by decide)).symm.trans <|
    (Gen.V19_of m outs c main_arg8 (by decide)).symm.trans (Gen.V19_main_arg8 m outs c)

/-! ### The dense head -/

theorem V1_v3 (c : Dev nD) : Gen.V1 m c main_v3
    = lin1K (m ((c : Thread nD τ).loc main_arg0)) (m ((c : Thread nD τ).loc main_arg3)) (m ((c : Thread nD τ).loc main_arg4)) :=
  ops0_v3 (Gen.V0 m c)
theorem V2_v4 (c : Dev nD) : Gen.V2 m c main_v4
    = relu128K (lin1K (m ((c : Thread nD τ).loc main_arg0)) (m ((c : Thread nD τ).loc main_arg3)) (m ((c : Thread nD τ).loc main_arg4))) :=
  (ops0_1_v4 (Gen.V1 m c)).trans (congrArg relu128K (V1_v3 m c))
theorem V3_v8 (c : Dev nD) : Gen.V3 m c main_v8
    = lin2K (relu128K (lin1K (m ((c : Thread nD τ).loc main_arg0)) (m ((c : Thread nD τ).loc main_arg3)) (m ((c : Thread nD τ).loc main_arg4))))
        (m ((c : Thread nD τ).loc main_arg5)) (m ((c : Thread nD τ).loc main_arg6)) :=
  (ops0_2_v8 (Gen.V2 m c)).trans (by rw [V2_v4 m c, V2_arg5 m c, V2_arg6 m c])
theorem V4_v9 (c : Dev nD) : Gen.V4 m c main_v9
    = headK (m ((c : Thread nD τ).loc main_arg0)) (m ((c : Thread nD τ).loc main_arg3)) (m ((c : Thread nD τ).loc main_arg4))
        (m ((c : Thread nD τ).loc main_arg5)) (m ((c : Thread nD τ).loc main_arg6)) :=
  (ops0_3_v9 (Gen.V3 m c)).trans (congrArg relu64K (V3_v8 m c))
/-- The dense head's result, as it stands when region 0 is entered. -/
theorem V5_v9 (c : Dev nD) : Gen.V5 m c main_v9
    = headK (m ((c : Thread nD τ).loc main_arg0)) (m ((c : Thread nD τ).loc main_arg3)) (m ((c : Thread nD τ).loc main_arg4))
        (m ((c : Thread nD τ).loc main_arg5)) (m ((c : Thread nD τ).loc main_arg6)) :=
  (Gen.V5_of m c main_v9 (by decide)).trans (V4_v9 m c)

/-! ### The four index tables -/

/-- Region 0's table: rows 0 .. 4095. -/
theorem V5_v10 (c : Dev nD) : Gen.V5 m c main_v10 = sliceK0 (m ((c : Thread nD τ).loc main_arg1)) :=
  (ops0_4_v10 (Gen.V4 m c)).trans (congrArg sliceK0 (V4_arg1 m c))
/-- Region 1's table: rows 4096 .. 8191. -/
theorem V7_v12 (c : Dev nD) : Gen.V7 m outs c main_v12 = sliceK1 (m ((c : Thread nD τ).loc main_arg1)) :=
  (ops1_v12 (Gen.V6 m outs c)).trans (congrArg sliceK1 (V6_arg1 m outs c))
/-- Region 2's table: rows 8192 .. 12287. -/
theorem V9_v14 (c : Dev nD) : Gen.V9 m outs c main_v14 = sliceK2 (m ((c : Thread nD τ).loc main_arg1)) :=
  (ops2_v14 (Gen.V8 m outs c)).trans (congrArg sliceK2 (V8_arg1 m outs c))
/-- Region 3's table: rows 12288 .. 16383. -/
theorem V11_v16 (c : Dev nD) : Gen.V11 m outs c main_v16 = sliceK3 (m ((c : Thread nD τ).loc main_arg1)) :=
  (ops3_v16 (Gen.V10 m outs c)).trans (congrArg sliceK3 (V10_arg1 m outs c))

/-! ### What region 4 reads -/

/-- Nothing between the head and region 4 writes the head's result. -/
theorem V13_v9 (c : Dev nD) : Gen.V13 m outs c main_v9 = Gen.V5 m c main_v9 :=
  (Gen.V13_of m outs c main_v9 (by decide)).trans <| (Gen.V12_of m outs c main_v9 (by decide)).trans <|
    (Gen.V11_of m outs c main_v9 (by decide)).trans <| (Gen.V10_of m outs c main_v9 (by decide)).trans <|
    (Gen.V9_of m outs c main_v9 (by decide)).trans <| (Gen.V8_of m outs c main_v9 (by decide)).trans <|
    (Gen.V7_of m outs c main_v9 (by decide)).trans (Gen.V6_of m outs c main_v9 (by decide))

theorem V12_v17 (c : Dev nD) : Gen.V12 m outs c main_v17 = outs 12 main_v17 c := Function.update_self _ _ _
theorem V12_v15 (c : Dev nD) : Gen.V12 m outs c main_v15 = outs 10 main_v15 c :=
  (Gen.V12_of m outs c main_v15 (by decide)).trans <| (Gen.V11_of m outs c main_v15 (by decide)).trans (Function.update_self _ _ _)
theorem V12_v13 (c : Dev nD) : Gen.V12 m outs c main_v13 = outs 8 main_v13 c :=
  (Gen.V12_of m outs c main_v13 (by decide)).trans <| (Gen.V11_of m outs c main_v13 (by decide)).trans <|
    (Gen.V10_of m outs c main_v13 (by decide)).trans <| (Gen.V9_of m outs c main_v13 (by decide)).trans (Function.update_self _ _ _)
theorem V12_v11 (c : Dev nD) : Gen.V12 m outs c main_v11 = outs 6 main_v11 c :=
  (Gen.V12_of m outs c main_v11 (by decide)).trans <| (Gen.V11_of m outs c main_v11 (by decide)).trans <|
    (Gen.V10_of m outs c main_v11 (by decide)).trans <| (Gen.V9_of m outs c main_v11 (by decide)).trans <|
    (Gen.V8_of m outs c main_v11 (by decide)).trans <| (Gen.V7_of m outs c main_v11 (by decide)).trans (Function.update_self _ _ _)
/-- The gathered rows region 4 reads: what the four gather regions leave, stacked. -/
theorem V13_v18 (c : Dev nD) : Gen.V13 m outs c main_v18
    = concat4K (outs 6 main_v11 c) (outs 8 main_v13 c) (outs 10 main_v15 c) (outs 12 main_v17 c) :=
  (ops4_v18 (Gen.V12 m outs c)).trans (by rw [V12_v11 m outs c, V12_v13 m outs c, V12_v15 m outs c, V12_v17 m outs c])

/-! ### The result -/

theorem V14_v19 (c : Dev nD) : Gen.V14 m outs c main_v19 = outs 14 main_v19 c := Function.update_self _ _ _
theorem V15_v23 (c : Dev nD) : Gen.V15 m outs c main_v23
    = lin3K (outs 14 main_v19 c) (m ((c : Thread nD τ).loc main_arg7)) (m ((c : Thread nD τ).loc main_arg8)) :=
  (ops5_v23 (Gen.V14 m outs c)).trans (by rw [V14_v19 m outs c, V14_arg7 m outs c, V14_arg8 m outs c])
theorem V16_v24 (c : Dev nD) : Gen.V16 m outs c main_v24
    = relu512K (lin3K (outs 14 main_v19 c) (m ((c : Thread nD τ).loc main_arg7)) (m ((c : Thread nD τ).loc main_arg8))) :=
  (ops5_1_v24 (Gen.V15 m outs c)).trans (congrArg relu512K (V15_v23 m outs c))
theorem V17_v28 (c : Dev nD) : Gen.V17 m outs c main_v28
    = lin4K (relu512K (lin3K (outs 14 main_v19 c) (m ((c : Thread nD τ).loc main_arg7)) (m ((c : Thread nD τ).loc main_arg8))))
        (m ((c : Thread nD τ).loc main_arg9)) (m ((c : Thread nD τ).loc main_arg10)) :=
  (ops5_2_v28 (Gen.V16 m outs c)).trans (by rw [V16_v24 m outs c, V16_arg9 m outs c, V16_arg10 m outs c])
theorem V18_v29 (c : Dev nD) : Gen.V18 m outs c main_v29
    = relu256K (lin4K (relu512K (lin3K (outs 14 main_v19 c) (m ((c : Thread nD τ).loc main_arg7)) (m ((c : Thread nD τ).loc main_arg8))))
        (m ((c : Thread nD τ).loc main_arg9)) (m ((c : Thread nD τ).loc main_arg10))) :=
  (ops5_3_v29 (Gen.V17 m outs c)).trans (congrArg relu256K (V17_v28 m outs c))
/-- The program's result: the tail applied to what region 4 leaves. -/
theorem V19_v34 (c : Dev nD) : Gen.V19 m outs c main_v34
    = tailK (outs 14 main_v19 c) (m ((c : Thread nD τ).loc main_arg7)) (m ((c : Thread nD τ).loc main_arg8))
        (m ((c : Thread nD τ).loc main_arg9)) (m ((c : Thread nD τ).loc main_arg10))
        (m ((c : Thread nD τ).loc main_arg11)) (m ((c : Thread nD τ).loc main_arg12)) :=
  (ops5_4_v34 (Gen.V18 m outs c)).trans (by rw [V18_v29 m outs c, V18_arg11 m outs c, V18_arg12 m outs c]; rfl)

end Cert.KernelIdeal.KerHost
-- ==== Proof.Rng.lean ====
/-
  The index tables the four gather regions read are slices of the index array: under the precondition every
  word of each is below 131073 read unsigned, and every word of the array is in [0, 131073) read signed.
-/
import proofs.«407213_j20864951124667_1_alg».proof.Defs
import proofs.«407213_j20864951124667_1_alg».proof.Proof.Gen.Pre_finite_inputs
import proofs.«407213_j20864951124667_1_alg».proof.Proof.PreRange
import proofs.«407213_j20864951124667_1_alg».proof.Proof.KerHost

noncomputable section

namespace Cert.KernelIdeal.Rng

open Cert.KernelIdeal Cert.KernelIdeal.Gen
open Idealize.ShloMosaic Idealize.ShloMosaic.TcCoe Idealize.SL.Sem

variable (m : (ℓ : Loc nD τ sig) → Buf (Elt (F := Ideal)) ℓ)

/-- Under the precondition every word of the index table is in [0, 131073), signed. -/
theorem ids_signed (hpre : Cert.Pre_KernelIdeal m) (c : Dev nD) :
    ∀ i : S16384x26.Idx, 0 ≤ (m ((c : Thread nD τ).loc main_arg1) i).toInt ∧ (m ((c : Thread nD τ).loc main_arg1) i).toInt < 131073 :=
  Cert.PreRange.range_of_pre_toInt _ _ _ _ _ _ _ _ _ _ _ _ _ (hpre c)

/-- Under the precondition every word of the index table is below 131073, unsigned. -/
theorem arg1_lt (hpre : Cert.Pre_KernelIdeal m) (c : Dev nD) :
    ∀ i : S16384x26.Idx, (m ((c : Thread nD τ).loc main_arg1) i).toNat < 131073 :=
  Cert.PreRange.range_of_pre _ _ _ _ _ _ _ _ _ _ _ _ _ (hpre c)

/-- A slice's word is a word of the table: a bound on every word of the table bounds every word of a slice. -/
theorem slice_lt (a1 : S16384x26.Idx → BitVec 32) (hr : ∀ i : S16384x26.Idx, (a1 i).toNat < 131073)
    (off : Fin S16384x26.rank → Nat) (h : S16384x26.Slices off S4096x26) (i : S4096x26.Idx) :
    (extractStridedSlice S4096x26 off a1 h i).toNat < 131073 := hr _

variable (outs : Gen.Outs (F := Ideal))

/-- The table region 0 reads: every word below 131073. -/
theorem rng0 (hpre : Cert.Pre_KernelIdeal m) (c : Dev nD) :
    ∀ i : S4096x26.Idx, (Gen.V5 (F := Ideal) m c main_v10 i).toNat < 131073 := by
  intro i
  rw [KerHost.V5_v10]
  exact slice_lt _ (arg1_lt m hpre c) _ _ i

/-- The table region 1 reads: every word below 131073. -/
theorem rng1 (hpre : Cert.Pre_KernelIdeal m) (c : Dev nD) :
    ∀ i : S4096x26.Idx, (Gen.V7 (F := Ideal) m outs c main_v12 i).toNat < 131073 := by
  intro i
  rw [KerHost.V7_v12]
  exact slice_lt _ (arg1_lt m hpre c) _ _ i

/-- The table region 2 reads: every word below 131073. -/
theorem rng2 (hpre : Cert.Pre_KernelIdeal m) (c : Dev nD) :
    ∀ i : S4096x26.Idx, (Gen.V9 (F := Ideal) m outs c main_v14 i).toNat < 131073 := by
  intro i
  rw [KerHost.V9_v14]
  exact slice_lt _ (arg1_lt m hpre c) _ _ i

/-- The table region 3 reads: every word below 131073. -/
theorem rng3 (hpre : Cert.Pre_KernelIdeal m) (c : Dev nD) :
    ∀ i : S4096x26.Idx, (Gen.V11 (F := Ideal) m outs c main_v16 i).toNat < 131073 := by
  intro i
  rw [KerHost.V11_v16]
  exact slice_lt _ (arg1_lt m hpre c) _ _ i

end Cert.KernelIdeal.Rng

end
-- ==== Proof.RefDefs.lean ====
/- The reference program's result as four pure functions of its argument arrays, each the composition of the
   host operations of one stretch of the program, in the program's own order and with the program's own shape
   facts: the dense head (two affine layers, each followed by the maximum with zero), the embedding lookup (the
   table index 0..25 beside the row index, a negative row index moved up by the table height, one gather), the
   pairwise interaction (the 27 tokens' Gram matrix, its strict upper triangle read through the two constant index
   tables, placed after the dense token), and the tail (three affine layers, the first two followed by the maximum
   with zero, the last column read as a vector). -/
import proofs.«407213_j20864951124667_1_alg».proof.ReferenceIdeal

noncomputable section

namespace Cert.ReferenceIdeal.RefTerm

open Cert.ReferenceIdeal Idealize.ShloMosaic Idealize.SL.Sem
open Facts₀ Facts

variable {F : FTy → Type} [FloatOps F] [Facts]

/-- The dense token: max(0, max(0, a0·a3 + a4)·a5 + a6), the biases broadcast along the rows. -/
def headR (a0 : FVec F S16384x13 .f32) (a3 : FVec F S13x128 .f32) (a4 : FVec F S128 .f32)
    (a5 : FVec F S128x64 .f32) (a6 : FVec F S64 .f32) : FVec F S16384x64 .f32 :=
  maximumf
    (addf
      (Host.dotGeneral dot_S16384x128_S128x64_S16384x64_1_0_0_1_n_n none
        (maximumf
          (addf (Host.dotGeneral dot_S16384x13_S13x128_S16384x128_1_0_0_1_n_n none a0 a3)
            (broadcastInDim S16384x128 ![0, 1] bcast_S1x128_S16384x128_0_1
              (broadcastInDim S1x128 ![1] bcast_S128_S1x128_1 a4)))
          (broadcastInDim S16384x128 ![] bcast_S_S16384x128 (constant S_ .f32 0x00000000#32)))
        a5)
      (broadcastInDim S16384x64 ![0, 1] bcast_S1x64_S16384x64_0_1
        (broadcastInDim S1x64 ![1] bcast_S64_S1x64_1 a6)))
    (broadcastInDim S16384x64 ![] bcast_S_S16384x64 (constant S_ .f32 0x00000000#32))

/-- The embedding rows: at (row, table) the start index is (table, a1 row table), the table index wrapped by 26
    and the row index by 131073 where negative; one gather of 64-wide rows of a2. -/
def embR (a1 : IVec S16384x26 32) (a2 : FVec F S26x131073x64 .f32) : FVec F S16384x26x64 .f32 :=
  Host.gather gather_S26x131073x64_S16384x26x2_S16384x26x64_2_01_n_n_01_2_1164 a2
    (concatenate S16384x26x2 2
      [⟨S16384x26x1,
          broadcastInDim S16384x26x1 ![0, 1] bcast_S16384x26_S16384x26x1_0_1
            (broadcastInDim S16384x26 ![0, 1] bcast_S1x26_S16384x26_0_1
              (select
                (cmpi .slt (broadcastInDim S1x26 ![1] bcast_S26_S1x26_1 (iotaInDim S26 32 0))
                  (broadcastInDim S1x26 ![] bcast_S_S1x26 (constantI S_ 32 0#32)))
                (addi (broadcastInDim S1x26 ![1] bcast_S26_S1x26_1 (iotaInDim S26 32 0))
                  (broadcastInDim S1x26 ![] bcast_S_S1x26 (constantI S_ 32 26#32)))
                (broadcastInDim S1x26 ![1] bcast_S26_S1x26_1 (iotaInDim S26 32 0))))⟩,
        ⟨S16384x26x1,
          broadcastInDim S16384x26x1 ![0, 1] bcast_S16384x26_S16384x26x1_0_1
            (select
              (cmpi .slt a1 (broadcastInDim S16384x26 ![] bcast_S_S16384x26 (constantI S_ 32 0#32)))
              (addi a1 (broadcastInDim S16384x26 ![] bcast_S_S16384x26 (constantI S_ 32 131073#32)))
              a1)⟩]
      concatenates_S16384x26x1_S16384x26x1_S16384x26x2_d2)

/-- The interaction features: the dense token followed by the 351 entries of the tokens' Gram matrix
    strictly above its diagonal, read through the two constant index tables (each wrapped by 27 under an
    all-false mask, so unchanged). -/
def interR (tok : FVec F S16384x64 .f32) (e : FVec F S16384x26x64 .f32) : FVec F S16384x415 .f32 :=
  concatenate S16384x415 1
    [⟨S16384x64, tok⟩,
      ⟨S16384x351,
        Host.gather gather_S16384x27x27_S351x2_S16384x351_0_12_n_n_12_1_1638411
          (Host.dotGeneral dot_S16384x27x64_S16384x27x64_S16384x27x27_2_2_1_1_0_0 none
            (concatenate S16384x27x64 1
              [⟨S16384x1x64, broadcastInDim S16384x1x64 ![0, 2] bcast_S16384x64_S16384x1x64_0_2 tok⟩,
                ⟨S16384x26x64, e⟩]
              concatenates_S16384x1x64_S16384x26x64_S16384x27x64_d1)
            (concatenate S16384x27x64 1
              [⟨S16384x1x64, broadcastInDim S16384x1x64 ![0, 2] bcast_S16384x64_S16384x1x64_0_2 tok⟩,
                ⟨S16384x26x64, e⟩]
              concatenates_S16384x1x64_S16384x26x64_S16384x27x64_d1))
          (concatenate S351x2 1
            [⟨S351x1,
                broadcastInDim S351x1 ![0] bcast_S351_S351x1_0
                  (select (constantI S351 1 0#1)
                    (addi (fun i => lit0 (S351.rowMajor i))
                      (broadcastInDim S351 ![] bcast_S_S351 (constantI S_ 32 27#32)))
                    (fun i => lit0 (S351.rowMajor i)))⟩,
              ⟨S351x1,
                broadcastInDim S351x1 ![0] bcast_S351_S351x1_0
                  (select (constantI S351 1 0#1)
                    (addi (fun i => lit1 (S351.rowMajor i))
                      (broadcastInDim S351 ![] bcast_S_S351 (constantI S_ 32 27#32)))
                    (fun i => lit1 (S351.rowMajor i)))⟩]
            concatenates_S351x1_S351x1_S351x2_d1)⟩]
    concatenates_S16384x64_S16384x351_S16384x415_d1

/-- The tail: max(0, max(0, x·a7 + a8)·a9 + a10)·a11 + a12, its one column read as a vector. -/
def tailR (x : FVec F S16384x415 .f32) (a7 : FVec F S415x512 .f32) (a8 : FVec F S512 .f32)
    (a9 : FVec F S512x256 .f32) (a10 : FVec F S256 .f32) (a11 : FVec F S256x1 .f32) (a12 : FVec F S1 .f32) :
    FVec F S16384 .f32 :=
  shapeCast S16384
    (addf
      (Host.dotGeneral dot_S16384x256_S256x1_S16384x1_1_0_0_1_n_n none
        (maximumf
          (addf
            (Host.dotGeneral dot_S16384x512_S512x256_S16384x256_1_0_0_1_n_n none
              (maximumf
                (addf (Host.dotGeneral dot_S16384x415_S415x512_S16384x512_1_0_0_1_n_n none x a7)
                  (broadcastInDim S16384x512 ![0, 1] bcast_S1x512_S16384x512_0_1
                    (broadcastInDim S1x512 ![1] bcast_S512_S1x512_1 a8)))
                (broadcastInDim S16384x512 ![] bcast_S_S16384x512 (constant S_ .f32 0x00000000#32)))
              a9)
            (broadcastInDim S16384x256 ![0, 1] bcast_S1x256_S16384x256_0_1
              (broadcastInDim S1x256 ![1] bcast_S256_S1x256_1 a10)))
          (broadcastInDim S16384x256 ![] bcast_S_S16384x256 (constant S_ .f32 0x00000000#32)))
        a11)
      (broadcastInDim S16384x1 ![0, 1] bcast_S1x1_S16384x1_0_1
        (broadcastInDim S1x1 ![1] bcast_S1_S1x1_1 a12)))
    shapeCasts_S16384x1_S16384

end Cert.ReferenceIdeal.RefTerm

end
-- ==== Proof.Spec.lean ====
import proofs.«407213_j20864951124667_1_alg».proof.KernelIdeal
import Idealize.ShloMosaic.PureOps.Ideal
import Idealize.ShloMosaic.Lib.ValueIdx

/-!
  The model's two kernel stages, the lookup and the interaction, as whole-array functions, index by index.

  * `embSpec`: the embedding lookup. Entry `[b, f, d]` of the looked-up tokens is entry `[f, s, d]` of the stacked tables,
    `s` the id the batch row `b` carries for table `f` (read as a natural number; ids are assumed in `[0, 131073)`).
  * `interSpec`: the pairwise-dot interaction. Row `b` has 27 tokens of width 64 — token 0 the dense token, token
    `1 + f` the looked-up one of table `f`. Column `j < 64` of the result is the dense token's entry `j`; column `64 + k`
    is the dot product of tokens `triRow k` and `triCol k`, the `k`-th pair `(p, q)`, `p < q`, of the strict upper triangle
    of a 27 × 27 matrix in row-major order (351 pairs).
-/

noncomputable section

namespace Cert.Spec

open Idealize.ShloMosaic Idealize.ShloMosaic.ValueIdx
open Cert.KernelIdeal (S16384x64 S16384x26x64 S16384x415 S26x131073x64 S16384x26 S4096x26 S4096x26x64 S256x64 S256x26x64 S256x415)

/-- The strict upper triangle of a 27 × 27 matrix, row by row: `(0,1), (0,2), …, (0,26), (1,2), …, (25,26)`. -/
def triPairs : List (Nat × Nat) :=
  (List.range 27).flatMap fun p => (List.range' (p + 1) (26 - p)).map fun q => (p, q)

theorem triPairs_length : triPairs.length = 351 := by decide

/-- The row of the `k`-th pair of the triangle. -/
def triRow (k : Fin 351) : Fin 27 := Fin.ofNat 27 (triPairs[k.val]'(by rw [triPairs_length]; exact k.isLt)).1
/-- The column of the `k`-th pair of the triangle. -/
def triCol (k : Fin 351) : Fin 27 := Fin.ofNat 27 (triPairs[k.val]'(by rw [triPairs_length]; exact k.isLt)).2

variable {F : FTy → Type} [FloatOps F]

/-- The embedding lookup, index by index: token `[b, f, :]` is row `ids[b, f]` of table `f`. -/
def embSpec (ids : IVec S16384x26 32) (tables : FVec F S26x131073x64 .f32) : FVec F S16384x26x64 .f32 :=
  fun y => tables (ix3 (n0 := 26) (n1 := 131073) (n2 := 64) (y 1)
    ⟨(ids (ix2 (n0 := 16384) (n1 := 26) (y 0) (y 1))).toNat % 131073, Nat.mod_lt _ (by decide)⟩ (y 2))

/-- Token `p` of batch row `b` at feature `d`: the dense token for `p = 0`, else the looked-up token of table `p - 1`. -/
def tokAt (dense : FVec F S16384x64 .f32) (emb : FVec F S16384x26x64 .f32) (b : Fin 16384) (p : Fin 27) (d : Fin 64) : Elt F .f32 :=
  if h : p.val = 0 then dense (ix2 (n0 := 16384) (n1 := 64) b d)
  else emb (ix3 (n0 := 16384) (n1 := 26) (n2 := 64) b ⟨p.val - 1, by omega⟩ d)

/-- The interaction at `Ideal`, index by index: the dense token, then the 351 pairwise dot products. -/
def interSpec (dense : FVec Ideal S16384x64 .f32) (emb : FVec Ideal S16384x26x64 .f32) : FVec Ideal S16384x415 .f32 :=
  fun y =>
    if h : (y 1).val < 64 then dense (ix2 (n0 := 16384) (n1 := 64) (y 0) ⟨(y 1).val, h⟩)
    else
      have hk : (y 1).val - 64 < 351 := by have := idx2_lt1 (n0 := 16384) (n1 := 415) y; omega
      ∑ d : Fin 64, tokAt dense emb (y 0) (triRow ⟨(y 1).val - 64, hk⟩) d * tokAt dense emb (y 0) (triCol ⟨(y 1).val - 64, hk⟩) d

/-- One chunk of 4096 batch rows of the lookup: token `[r, f, :]` is row `ids[r, f]` of table `f`. -/
def embChunk (ids : IVec S4096x26 32) (tables : FVec F S26x131073x64 .f32) : FVec F S4096x26x64 .f32 :=
  fun y => tables (ix3 (n0 := 26) (n1 := 131073) (n2 := 64) (y 1)
    ⟨(ids (ix2 (n0 := 4096) (n1 := 26) (y 0) (y 1))).toNat % 131073, Nat.mod_lt _ (by decide)⟩ (y 2))

/-- Token `p` of row `r` of a block of 256 batch rows. -/
def tokBlk (dense : Vec F S256x64 .f32) (emb : Vec F S256x26x64 .f32) (r : Fin 256) (p : Fin 27) (d : Fin 64) : Elt F .f32 :=
  if h : p.val = 0 then dense (ix2 (n0 := 256) (n1 := 64) r d)
  else emb (ix3 (n0 := 256) (n1 := 26) (n2 := 64) r ⟨p.val - 1, by omega⟩ d)

/-- The interaction of one block of 256 batch rows at `Ideal`, index by index. -/
def interBlkSpec (dense : Vec Ideal S256x64 .f32) (emb : Vec Ideal S256x26x64 .f32) : Vec Ideal S256x415 .f32 :=
  fun y =>
    if h : (y 1).val < 64 then dense (ix2 (n0 := 256) (n1 := 64) (y 0) ⟨(y 1).val, h⟩)
    else
      have hk : (y 1).val - 64 < 351 := by have := idx2_lt1 (n0 := 256) (n1 := 415) y; omega
      ∑ d : Fin 64, tokBlk dense emb (y 0) (triRow ⟨(y 1).val - 64, hk⟩) d * tokBlk dense emb (y 0) (triCol ⟨(y 1).val - 64, hk⟩) d

end Cert.Spec

end
-- ==== Proof.EmbEq.lean ====
import proofs.«407213_j20864951124667_1_alg».proof.Proof.Spec
import proofs.«407213_j20864951124667_1_alg».proof.Proof.RefDefs
import Idealize.ShloMosaic.Lib.Pipeline.Value
import Idealize.ShloMosaic.Lib.StableHlo.Predicate

/-!
  The embedding lookup of both programs is the index-by-index lookup `Cert.Spec.embSpec`.

  * The reference builds, for every (batch row, table), the pair (table, id) of start indices — each moved up by the
    extent of its axis where negative — and reads the stacked tables by ONE gather of 64-wide rows. Under the range
    assumption `0 ≤ id < 131073` neither move happens and the gather's clamp of the start indices is the identity,
    so entry `[b, f, d]` is `tables[f, ids[b, f], d]`.
  * The other program looks the ids up in four chunks of 4096 batch rows and lays the chunks end to end along the
    batch axis; chunk `c` reads rows `4096 c … 4096 c + 4095` of the ids, so entry `[b, f, d]` of the whole is entry
    `[b - 4096 c, f, d]` of chunk `c = b / 4096`, again `tables[f, ids[b, f], d]`.

  No float arithmetic happens: every step only moves entries, so the statements hold at every float instance.
-/

noncomputable section

namespace Cert.EmbEq

open Idealize.ShloMosaic Idealize.ShloMosaic.ValueIdx
open Cert.Spec (embSpec embChunk)

variable {F : FTy → Type} [FloatOps F]

/-! ## Words: the signed reading of an id in range -/

/-- A word whose signed reading is non-negative is not below zero in the signed order. -/
theorem cmpi_slt_zero_of_nonneg (x : BitVec 32) (hx : 0 ≤ x.toInt) : IntOp.cmpi .slt x 0#32 = 0#1 := by
  unfold IntOp.cmpi
  have h : x.slt 0#32 = false := by
    rw [BitVec.slt]
    simp only [BitVec.toInt_zero, decide_eq_false_iff_not, not_lt]
    exact hx
  show BitVec.ofBool (x.slt 0#32) = 0#1
  rw [h]; rfl

/-- A word whose signed reading lies in `[0, 131073)` reads the same signed and unsigned. -/
theorem toNat_of_range (x : BitVec 32) (h0 : 0 ≤ x.toInt) (h1 : x.toInt < 131073) :
    x.toInt.toNat = x.toNat ∧ x.toNat < 131073 := by
  have hc := BitVec.toInt_eq_toNat_cond x
  have hl := x.isLt
  split at hc <;> omega

/-- A table number read as a 32-bit word and back. -/
theorem toInt_table (f : Fin 26) : (BitVec.ofNat 32 f.val).toInt.toNat = f.val := by
  rw [StableHlo.Predicate.toInt_ofNat_small f.val (by have := f.isLt; omega)]
  exact Int.toNat_natCast _

/-! ## The reference's gather -/

section Ref
open Cert.ReferenceIdeal
open Cert.ReferenceIdeal.Facts₀ Cert.ReferenceIdeal.Facts
variable [Cert.ReferenceIdeal.Facts]

/-- The gather's dimension numbers: operand `[26, 131073, 64]`, start indices `[16384, 26, 2]` (the pair on the last
    axis), result `[16384, 26, 64]`; the first two operand axes are indexed and collapsed, the last is the offset axis. -/
abbrev G := gather_S26x131073x64_S16384x26x2_S16384x26x64_2_01_n_n_01_2_1164

/-- The operand index the gather reads for result index `[b, f, d]`: the two start indices at `[b, f, 0]` and
    `[b, f, 1]`, each read signed and clamped to its axis, and `d`. -/
theorem G_operandIdx {w : Nat} (idx : IVec (⟨3, ![16384, 26, 2]⟩ : Shape) w) (b : Fin 16384) (f : Fin 26) (d : Fin 64) :
    G.operandIdx (ix3 (n0 := 16384) (n1 := 26) (n2 := 64) b f d) idx
      = ix3 (n0 := 26) (n1 := 131073) (n2 := 64)
          ⟨min (idx (ix3 (n0 := 16384) (n1 := 26) (n2 := 2) b f 0)).toInt.toNat 25, by omega⟩
          ⟨min (idx (ix3 (n0 := 16384) (n1 := 26) (n2 := 2) b f 1)).toInt.toNat 131072, by omega⟩ d := by
  funext a
  refine Fin.ext ?_
  show G.start _ idx a + G.batchCoord _ a + G.offCoord _ a = _
  rw [GatherDims.batchCoord_eq_zero _ _ _ List.not_mem_nil]
  match a with
  | ⟨0, h0⟩ =>
    have hm : (⟨0, h0⟩ : Fin 3) ∈ G.startIndexMap := by show (⟨0, h0⟩ : Fin 3) ∈ [0, 1]; decide +revert
    rw [GatherDims.offCoord_eq_zero _ _ _ (fun h => ((GatherDims.mem_sKept _ _).mp h).1 hm)]
    simp only [Nat.add_zero]
    unfold GatherDims.start
    rw [dif_pos hm]
    have hsi : G.siIdx (ix3 (n0 := 16384) (n1 := 26) (n2 := 64) b f d) ⟨List.idxOf (⟨0, h0⟩ : Fin 3) G.startIndexMap,
        List.idxOf_lt_length_iff.2 hm⟩ = ix3 (n0 := 16384) (n1 := 26) (n2 := 2) b f 0 := by
      funext c; refine Fin.ext ?_
      match c with
      | ⟨0, _⟩ => rfl
      | ⟨1, _⟩ => rfl
      | ⟨2, _⟩ => rfl
    rw [hsi]
    rfl
  | ⟨1, h1⟩ =>
    have hm : (⟨1, h1⟩ : Fin 3) ∈ G.startIndexMap := by show (⟨1, h1⟩ : Fin 3) ∈ [0, 1]; decide +revert
    rw [GatherDims.offCoord_eq_zero _ _ _ (fun h => ((GatherDims.mem_sKept _ _).mp h).1 hm)]
    simp only [Nat.add_zero]
    unfold GatherDims.start
    rw [dif_pos hm]
    have hsi : G.siIdx (ix3 (n0 := 16384) (n1 := 26) (n2 := 64) b f d) ⟨List.idxOf (⟨1, h1⟩ : Fin 3) G.startIndexMap,
        List.idxOf_lt_length_iff.2 hm⟩ = ix3 (n0 := 16384) (n1 := 26) (n2 := 2) b f 1 := by
      funext c; refine Fin.ext ?_
      match c with
      | ⟨0, _⟩ => rfl
      | ⟨1, _⟩ => rfl
      | ⟨2, _⟩ => rfl
    rw [hsi]
    rfl
  | ⟨2, h2⟩ =>
    have hm : (⟨2, h2⟩ : Fin 3) ∉ G.startIndexMap := by show (⟨2, h2⟩ : Fin 3) ∉ [0, 1]; decide +revert
    unfold GatherDims.start
    rw [dif_neg hm]
    have hk : (⟨2, h2⟩ : Fin 3) ∈ G.sKept :=
      (GatherDims.mem_sKept _ _).mpr ⟨hm, List.not_mem_nil⟩
    unfold GatherDims.offCoord
    rw [dif_pos hk]
    simp only [Nat.zero_add]
    rfl

/-- The reference's start indices: at `[b, f, 0]` the table number `f`, at `[b, f, 1]` the id `ids[b, f]`, each moved
    up by the extent of its axis where negative. -/
def startIdx (a1 : IVec S16384x26 32) : IVec S16384x26x2 32 :=
  concatenate S16384x26x2 2
    [⟨S16384x26x1,
        broadcastInDim S16384x26x1 ![0, 1] bcast_S16384x26_S16384x26x1_0_1
          (broadcastInDim S16384x26 ![0, 1] bcast_S1x26_S16384x26_0_1
            (select
              (cmpi .slt (broadcastInDim S1x26 ![1] bcast_S26_S1x26_1 (iotaInDim S26 32 0))
                (broadcastInDim S1x26 ![] bcast_S_S1x26 (constantI S_ 32 0#32)))
              (addi (broadcastInDim S1x26 ![1] bcast_S26_S1x26_1 (iotaInDim S26 32 0))
                (broadcastInDim S1x26 ![] bcast_S_S1x26 (constantI S_ 32 26#32)))
              (broadcastInDim S1x26 ![1] bcast_S26_S1x26_1 (iotaInDim S26 32 0))))⟩,
      ⟨S16384x26x1,
        broadcastInDim S16384x26x1 ![0, 1] bcast_S16384x26_S16384x26x1_0_1
          (select
            (cmpi .slt a1 (broadcastInDim S16384x26 ![] bcast_S_S16384x26 (constantI S_ 32 0#32)))
            (addi a1 (broadcastInDim S16384x26 ![] bcast_S_S16384x26 (constantI S_ 32 131073#32)))
            a1)⟩]
    concatenates_S16384x26x1_S16384x26x1_S16384x26x2_d2

theorem embR_def (a1 : IVec S16384x26 32) (a2 : FVec F S26x131073x64 .f32) :
    RefTerm.embR (F := F) a1 a2 = Host.gather G a2 (startIdx a1) := rfl

/-- A `[16384, 26]` array spread along a new last axis of extent one, read at `[b, f, 0]`. -/
theorem bcast_last {α : Type} (x : S16384x26.Idx → α) (b : Fin 16384) (f : Fin 26) (z : Fin 1) :
    broadcastInDim S16384x26x1 ![0, 1] bcast_S16384x26_S16384x26x1_0_1 x
      (ix3 (n0 := 16384) (n1 := 26) (n2 := 1) b f z) = x (ix2 (n0 := 16384) (n1 := 26) b f) := by
  unfold broadcastInDim
  congr 1
  funext a
  match a with
  | ⟨0, _⟩ => rfl
  | ⟨1, _⟩ => rfl

/-- The first start index is the table number. -/
theorem startIdx_zero (a1 : IVec S16384x26 32) (b : Fin 16384) (f : Fin 26) :
    startIdx a1 (ix3 (n0 := 16384) (n1 := 26) (n2 := 2) b f 0) = BitVec.ofNat 32 f.val := by
  unfold startIdx
  rw [concatenate_pair_apply_left (t := S16384x26x2) (s₁ := S16384x26x1) (s₂ := S16384x26x1) (2 : Fin 3) _ _ _ (ix3 (n0 := 16384) (n1 := 26) (n2 := 2) b f 0) rfl
    (ix3 (n0 := 16384) (n1 := 26) (n2 := 1) b f 0)
    (fun c => by match c with | ⟨0, _⟩ => rfl | ⟨1, _⟩ => rfl | ⟨2, _⟩ => rfl)]
  show Scalar.select (IntOp.cmpi .slt (BitVec.ofNat 32 f.val) 0#32) (IntOp.addi (BitVec.ofNat 32 f.val) 26#32)
    (BitVec.ofNat 32 f.val) = BitVec.ofNat 32 f.val
  rw [cmpi_slt_zero_of_nonneg _ (by
    rw [StableHlo.Predicate.toInt_ofNat_small f.val (by have := f.isLt; omega)]; exact Int.natCast_nonneg _), select_zero]

/-- The second start index is the id, under the range assumption. -/
theorem startIdx_one (a1 : IVec S16384x26 32) (b : Fin 16384) (f : Fin 26)
    (h0 : 0 ≤ (a1 (ix2 (n0 := 16384) (n1 := 26) b f)).toInt) :
    startIdx a1 (ix3 (n0 := 16384) (n1 := 26) (n2 := 2) b f 1) = a1 (ix2 (n0 := 16384) (n1 := 26) b f) := by
  unfold startIdx
  rw [concatenate_pair_apply_right (t := S16384x26x2) (s₁ := S16384x26x1) (s₂ := S16384x26x1) (2 : Fin 3) _ _ _ (ix3 (n0 := 16384) (n1 := 26) (n2 := 2) b f 1) rfl rfl
    (ix3 (n0 := 16384) (n1 := 26) (n2 := 1) b f 0)
    (fun c hc => by
      match c with
      | ⟨0, _⟩ => rfl
      | ⟨1, _⟩ => rfl
      | ⟨2, _⟩ => exact absurd rfl hc)
    rfl]
  rw [bcast_last]
  show Scalar.select (IntOp.cmpi .slt (a1 (ix2 (n0 := 16384) (n1 := 26) b f)) 0#32)
    (IntOp.addi (a1 (ix2 (n0 := 16384) (n1 := 26) b f)) 131073#32) (a1 (ix2 (n0 := 16384) (n1 := 26) b f)) = _
  rw [cmpi_slt_zero_of_nonneg _ h0, select_zero]

/-- **The reference's lookup is the index-by-index lookup** when every id lies in `[0, 131073)`. -/
theorem embR_eq (a1 : IVec S16384x26 32) (a2 : FVec F S26x131073x64 .f32)
    (hr : ∀ i : S16384x26.Idx, 0 ≤ (a1 i).toInt ∧ (a1 i).toInt < 131073) :
    RefTerm.embR (F := F) a1 a2 = embSpec a1 a2 := by
  funext y
  obtain ⟨b, f, d, rfl⟩ : ∃ b f d, y = ix3 (n0 := 16384) (n1 := 26) (n2 := 64) b f d := ⟨y 0, y 1, y 2, eq_ix3 y⟩
  rw [embR_def]
  unfold Host.gather
  rw [G_operandIdx]
  unfold embSpec
  refine congrArg a2 ?_
  have hrange := hr (ix2 (n0 := 16384) (n1 := 26) b f)
  have hn := toNat_of_range _ hrange.1 hrange.2
  funext a
  refine Fin.ext ?_
  match a with
  | ⟨0, _⟩ =>
    show min (startIdx a1 (ix3 (n0 := 16384) (n1 := 26) (n2 := 2) b f 0)).toInt.toNat 25 = f.val
    rw [startIdx_zero, toInt_table]
    exact Nat.min_eq_left (by have := f.isLt; omega)
  | ⟨1, _⟩ =>
    show min (startIdx a1 (ix3 (n0 := 16384) (n1 := 26) (n2 := 2) b f 1)).toInt.toNat 131072
      = (a1 (ix2 (n0 := 16384) (n1 := 26) b f)).toNat % 131073
    rw [startIdx_one a1 b f hrange.1, hn.1, Nat.mod_eq_of_lt hn.2]
    exact Nat.min_eq_left (by omega)
  | ⟨2, _⟩ => rfl

end Ref

/-! ## The four chunks laid end to end -/

section Ker
open Cert.KernelIdeal (S16384x26 S4096x26 S26x131073x64 S4096x26x64 S16384x26x64)
open Cert.KernelIdeal.Facts₀
variable [Cert.KernelIdeal.Facts₀]

/-- Rows `off … off + 4095` of the ids, read at `[r, f]`: the ids at `[off + r, f]`. -/
theorem slice_rows (off : Nat) (h : S16384x26.Slices ![off, 0] S4096x26) (a1 : IVec S16384x26 32)
    (r : Fin 4096) (f : Fin 26) (b : Fin 16384) (hb : b.val = off + r.val) :
    extractStridedSlice S4096x26 ![off, 0] a1 h (ix2 (n0 := 4096) (n1 := 26) r f)
      = a1 (ix2 (n0 := 16384) (n1 := 26) b f) := by
  unfold extractStridedSlice
  congr 1
  funext a
  refine Fin.ext ?_
  match a with
  | ⟨0, _⟩ => exact hb.symm
  | ⟨1, _⟩ => exact Nat.zero_add _

/-- A chunk's lookup over rows `off … off + 4095` of the ids, read at `[r, f, d]`: the whole lookup at
    `[off + r, f, d]`. -/
theorem embChunk_slice (off : Nat) (h : S16384x26.Slices ![off, 0] S4096x26) (a1 : IVec S16384x26 32)
    (a2 : FVec F S26x131073x64 .f32) (r : Fin 4096) (f : Fin 26) (d : Fin 64) (b : Fin 16384) (hb : b.val = off + r.val) :
    embChunk (extractStridedSlice S4096x26 ![off, 0] a1 h) a2 (ix3 (n0 := 4096) (n1 := 26) (n2 := 64) r f d)
      = embSpec a1 a2 (ix3 (n0 := 16384) (n1 := 26) (n2 := 64) b f d) := by
  unfold embChunk embSpec
  refine congrArg a2 ?_
  funext a
  refine Fin.ext ?_
  match a with
  | ⟨0, _⟩ => rfl
  | ⟨1, _⟩ =>
    show (extractStridedSlice S4096x26 ![off, 0] a1 h (ix2 (n0 := 4096) (n1 := 26) r f)).toNat % 131073
      = (a1 (ix2 (n0 := 16384) (n1 := 26) b f)).toNat % 131073
    rw [slice_rows off h a1 r f b hb]
  | ⟨2, _⟩ => rfl

/-- **The four chunks' lookups laid end to end along the batch axis are the index-by-index lookup.** -/
theorem concat_chunks (a1 : IVec S16384x26 32) (a2 : FVec F S26x131073x64 .f32) :
    concatenate S16384x26x64 0
      [⟨S4096x26x64, embChunk (extractStridedSlice S4096x26 ![0, 0] a1 slices_S16384x26_S4096x26_0_0) a2⟩,
        ⟨S4096x26x64, embChunk (extractStridedSlice S4096x26 ![4096, 0] a1 slices_S16384x26_S4096x26_4096_0) a2⟩,
        ⟨S4096x26x64, embChunk (extractStridedSlice S4096x26 ![8192, 0] a1 slices_S16384x26_S4096x26_8192_0) a2⟩,
        ⟨S4096x26x64, embChunk (extractStridedSlice S4096x26 ![12288, 0] a1 slices_S16384x26_S4096x26_12288_0) a2⟩]
      concatenates_S4096x26x64_S4096x26x64_S4096x26x64_S4096x26x64_S16384x26x64_d0
    = embSpec a1 a2 := by
  funext y
  obtain ⟨b, f, d, rfl⟩ : ∃ b f d, y = ix3 (n0 := 16384) (n1 := 26) (n2 := 64) b f d := ⟨y 0, y 1, y 2, eq_ix3 y⟩
  have hb := b.isLt
  have hcases : b.val < 4096 ∨ (4096 ≤ b.val ∧ b.val < 8192) ∨ (8192 ≤ b.val ∧ b.val < 12288) ∨ 12288 ≤ b.val := by omega
  rcases hcases with h | h | h | h
  · rw [concatenate_apply_piece (0 : Fin 3) _ _ (ix3 (n0 := 16384) (n1 := 26) (n2 := 64) b f d) 0 (by show (0 : Nat) < 4; decide)
      S4096x26x64 _ rfl rfl 0 rfl (ix3 (n0 := 4096) (n1 := 26) (n2 := 64) ⟨b.val, h⟩ f d)
      (fun c hc => by
        match c with
        | ⟨0, _⟩ => exact absurd rfl hc
        | ⟨1, _⟩ => rfl
        | ⟨2, _⟩ => rfl)
      (Nat.zero_add _)]
    exact embChunk_slice 0 _ a1 a2 ⟨b.val, h⟩ f d b (Nat.zero_add _).symm
  · rw [concatenate_apply_piece (0 : Fin 3) _ _ (ix3 (n0 := 16384) (n1 := 26) (n2 := 64) b f d) 1 (by show (1 : Nat) < 4; decide)
      S4096x26x64 _ rfl rfl 4096 rfl (ix3 (n0 := 4096) (n1 := 26) (n2 := 64) ⟨b.val - 4096, by omega⟩ f d)
      (fun c hc => by
        match c with
        | ⟨0, _⟩ => exact absurd rfl hc
        | ⟨1, _⟩ => rfl
        | ⟨2, _⟩ => rfl)
      (by show 4096 + (b.val - 4096) = b.val; omega)]
    exact embChunk_slice 4096 _ a1 a2 ⟨b.val - 4096, by omega⟩ f d b (by show b.val = 4096 + (b.val - 4096); omega)
  · rw [concatenate_apply_piece (0 : Fin 3) _ _ (ix3 (n0 := 16384) (n1 := 26) (n2 := 64) b f d) 2 (by show (2 : Nat) < 4; decide)
      S4096x26x64 _ rfl rfl 8192 rfl (ix3 (n0 := 4096) (n1 := 26) (n2 := 64) ⟨b.val - 8192, by omega⟩ f d)
      (fun c hc => by
        match c with
        | ⟨0, _⟩ => exact absurd rfl hc
        | ⟨1, _⟩ => rfl
        | ⟨2, _⟩ => rfl)
      (by show 8192 + (b.val - 8192) = b.val; omega)]
    exact embChunk_slice 8192 _ a1 a2 ⟨b.val - 8192, by omega⟩ f d b (by show b.val = 8192 + (b.val - 8192); omega)
  · rw [concatenate_apply_piece (0 : Fin 3) _ _ (ix3 (n0 := 16384) (n1 := 26) (n2 := 64) b f d) 3 (by show (3 : Nat) < 4; decide)
      S4096x26x64 _ rfl rfl 12288 rfl (ix3 (n0 := 4096) (n1 := 26) (n2 := 64) ⟨b.val - 12288, by omega⟩ f d)
      (fun c hc => by
        match c with
        | ⟨0, _⟩ => exact absurd rfl hc
        | ⟨1, _⟩ => rfl
        | ⟨2, _⟩ => rfl)
      (by show 12288 + (b.val - 12288) = b.val; omega)]
    exact embChunk_slice 12288 _ a1 a2 ⟨b.val - 12288, by omega⟩ f d b (by show b.val = 12288 + (b.val - 12288); omega)

end Ker

end Cert.EmbEq

end
-- ==== Proof.InterR.lean ====
/- The reference's pairwise interaction, read index by index at the ideal values.

   The reference stacks the dense token on the 26 looked-up tokens of each batch row (27 tokens of width 64), forms
   each row's 27 × 27 Gram matrix by one batched product contracting the 64 features, reads the 351 entries strictly
   above the diagonal through two constant index tables (the rows and the columns of the triangle, row by row), and
   places them after the dense token. Here each stage is read at an index:

   * the two tables hold the triangle's rows and columns (all 351 entries compared);
   * the start indices are the tables themselves, the wrap by 27 sitting under an all-false mask;
   * token p of batch row b is the dense token for p = 0 and looked-up token p - 1 otherwise;
   * entry (b, p, q) of the batched product is the dot product of tokens p and q of row b;
   * the gather at (b, k) reads the Gram matrix at (b, row k, column k): the start indices lie in [0, 27), so clamping
     them into [0, 26] changes nothing;
   * column j < 64 of the result is the dense token's entry j, column 64 + k the k-th pair's dot product.

   Together: the reference's interaction is the specification's, entry by entry. -/
import proofs.«407213_j20864951124667_1_alg».proof.Proof.RefDefs
import proofs.«407213_j20864951124667_1_alg».proof.Proof.Spec
import Idealize.ShloMosaic.PureOps.Ideal.Laws
import Idealize.ShloMosaic.Lib.ValueIdx
import Idealize.ShloMosaic.Lib.Pipeline.Value

noncomputable section

namespace Cert.InterR

open Idealize.ShloMosaic Idealize.ShloMosaic.ValueIdx
open Cert.ReferenceIdeal Cert.ReferenceIdeal.RefTerm
open Facts₀ Facts
open scoped BigOperators

/-! ## The two constant index tables are the strict upper triangle's rows and columns -/

theorem lit0_tri : ∀ k : Fin 351, (lit0 k).toInt.toNat = (Cert.Spec.triRow k).val := by decide +kernel
theorem lit1_tri : ∀ k : Fin 351, (lit1 k).toInt.toNat = (Cert.Spec.triCol k).val := by decide +kernel

variable [Facts]

/-! ## The start indices -/

/-- One column of the start indices: a literal table under an all-false mask, as a 351 × 1 array. -/
def col (lit : Fin 351 → BitVec 32) : IVec S351x1 32 :=
  broadcastInDim S351x1 ![0] bcast_S351_S351x1_0
    (select (constantI S351 1 0#1)
      (addi (fun i => lit (S351.rowMajor i)) (broadcastInDim S351 ![] bcast_S_S351 (constantI S_ 32 27#32)))
      (fun i => lit (S351.rowMajor i)))

/-- The mask is false everywhere, so the column holds the table itself. -/
theorem col_apply (lit : Fin 351 → BitVec 32) (k : Fin 351) (c : Fin 1) :
    col lit (ix2 (n0 := 351) (n1 := 1) k c) = lit k := by
  unfold col
  rw [broadcastInDim_apply _ _ _ _ (ix1 (n := 351) k) (by intro a; match a with | ⟨0, _⟩ => rfl)]
  rw [select_apply]
  show Scalar.select 0#1 _ _ = _
  rw [select_zero]
  exact congrArg lit (Fin.ext (Shape.rowMajor_val_one _))

/-- The start indices: the two columns side by side, a 351 × 2 array. -/
def idxTab : IVec S351x2 32 :=
  concatenate S351x2 1 [⟨S351x1, col lit0⟩, ⟨S351x1, col lit1⟩] concatenates_S351x1_S351x1_S351x2_d1

theorem idxTab_zero (k : Fin 351) : idxTab (ix2 (n0 := 351) (n1 := 2) k 0) = lit0 k := by
  unfold idxTab
  rw [concatenate_pair_apply_left (t := S351x2) (s₁ := S351x1) (s₂ := S351x1) _ _ _ _ _ rfl
    (ix2 (n0 := 351) (n1 := 1) k 0) (by intro b; match b with | ⟨0, _⟩ => rfl | ⟨1, _⟩ => rfl)]
  exact col_apply lit0 k 0

theorem idxTab_one (k : Fin 351) : idxTab (ix2 (n0 := 351) (n1 := 2) k 1) = lit1 k := by
  unfold idxTab
  rw [concatenate_pair_apply_right (t := S351x2) (s₁ := S351x1) (s₂ := S351x1) _ _ _ _ _ rfl rfl
    (ix2 (n0 := 351) (n1 := 1) k 0)
    (by intro b hb; match b with | ⟨0, _⟩ => rfl | ⟨1, _⟩ => exact absurd rfl hb) rfl]
  exact col_apply lit1 k 0

/-! ## The 27 tokens of a batch row -/

/-- The tokens: the dense token as a row of its own, then the 26 looked-up ones. -/
def toks (tok : FVec Ideal S16384x64 .f32) (e : FVec Ideal S16384x26x64 .f32) : FVec Ideal S16384x27x64 .f32 :=
  concatenate S16384x27x64 1
    [⟨S16384x1x64, broadcastInDim S16384x1x64 ![0, 2] bcast_S16384x64_S16384x1x64_0_2 tok⟩, ⟨S16384x26x64, e⟩]
    concatenates_S16384x1x64_S16384x26x64_S16384x27x64_d1

theorem toks_apply (tok : FVec Ideal S16384x64 .f32) (e : FVec Ideal S16384x26x64 .f32)
    (b : Fin 16384) (p : Fin 27) (d : Fin 64) :
    toks tok e (ix3 (n0 := 16384) (n1 := 27) (n2 := 64) b p d) = Cert.Spec.tokAt tok e b p d := by
  unfold toks Cert.Spec.tokAt
  by_cases h : p.val = 0
  · rw [dif_pos h]
    rw [concatenate_pair_apply_left (t := S16384x27x64) (s₁ := S16384x1x64) (s₂ := S16384x26x64) _ _ _ _ _ rfl
      (ix3 (n0 := 16384) (n1 := 1) (n2 := 64) b 0 d)
      (by intro a; match a with | ⟨0, _⟩ => rfl | ⟨1, _⟩ => exact h.symm | ⟨2, _⟩ => rfl)]
    exact broadcastInDim_apply _ _ _ _ (ix2 (n0 := 16384) (n1 := 64) b d)
      (by intro a; match a with | ⟨0, _⟩ => rfl | ⟨1, _⟩ => rfl)
  · rw [dif_neg h]
    exact concatenate_pair_apply_right (t := S16384x27x64) (s₁ := S16384x1x64) (s₂ := S16384x26x64) _ _ _ _ _ rfl rfl
      (ix3 (n0 := 16384) (n1 := 26) (n2 := 64) b ⟨p.val - 1, by omega⟩ d)
      (by intro a ha; match a with | ⟨0, _⟩ => rfl | ⟨1, _⟩ => exact absurd rfl ha | ⟨2, _⟩ => rfl)
      (by show p.val - 1 + 1 = p.val; omega)

/-! ## The Gram matrix of a batch row's tokens -/

/-- The batched product's dimension numbers: batch axis 0, contraction over the 64 features. -/
abbrev D := dot_S16384x27x64_S16384x27x64_S16384x27x27_2_2_1_1_0_0

theorem D_rank : D.contr.rank = 1 := rfl
theorem D_size : D.contr.size ⟨0, by rw [D_rank]; exact Nat.one_pos⟩ = 64 := rfl

theorem lhs_0 (j : S16384x27x27.Idx) (k : D.contr.Idx) : (D.lhsIdx j k 0 : ℕ) = j 0 := by
  simp [DotDims.lhsIdx, D, dot_S16384x27x64_S16384x27x64_S16384x27x27_2_2_1_1_0_0]; rfl
theorem lhs_1 (j : S16384x27x27.Idx) (k : D.contr.Idx) : (D.lhsIdx j k 1 : ℕ) = j 1 := by
  simp [DotDims.lhsIdx, D, dot_S16384x27x64_S16384x27x64_S16384x27x27_2_2_1_1_0_0]; rfl
theorem lhs_2 (j : S16384x27x27.Idx) (k : D.contr.Idx) : (D.lhsIdx j k 2 : ℕ) = k ⟨0, by rw [D_rank]; exact Nat.one_pos⟩ := by
  simp [DotDims.lhsIdx, D, dot_S16384x27x64_S16384x27x64_S16384x27x27_2_2_1_1_0_0]; rfl
theorem rhs_0 (j : S16384x27x27.Idx) (k : D.contr.Idx) : (D.rhsIdx j k 0 : ℕ) = j 0 := by
  simp [DotDims.rhsIdx, D, dot_S16384x27x64_S16384x27x64_S16384x27x27_2_2_1_1_0_0]; rfl
theorem rhs_1 (j : S16384x27x27.Idx) (k : D.contr.Idx) : (D.rhsIdx j k 1 : ℕ) = j 2 := by
  simp [DotDims.rhsIdx, D, dot_S16384x27x64_S16384x27x64_S16384x27x27_2_2_1_1_0_0]; rfl
theorem rhs_2 (j : S16384x27x27.Idx) (k : D.contr.Idx) : (D.rhsIdx j k 2 : ℕ) = k ⟨0, by rw [D_rank]; exact Nat.one_pos⟩ := by
  simp [DotDims.rhsIdx, D, dot_S16384x27x64_S16384x27x64_S16384x27x27_2_2_1_1_0_0]; rfl

/-- Entry (b, p, q) of the batched product of an array with itself: the dot product of its rows p and q of batch b. -/
theorem gram_apply (x : FVec Ideal S16384x27x64 .f32) (b : Fin 16384) (p q : Fin 27) :
    Host.dotGeneral (F := Ideal) D none x x (ix3 (n0 := 16384) (n1 := 27) (n2 := 27) b p q)
      = ∑ d : Fin 64, x (ix3 (n0 := 16384) (n1 := 27) (n2 := 64) b p d) * x (ix3 (n0 := 16384) (n1 := 27) (n2 := 64) b q d) := by
  simp only [Host.dotGeneral]
  rw [Ideal.dotGeneral_apply, ← Equiv.sum_comp (contrEquiv1 D 64 D_rank D_size).symm]
  refine Finset.sum_congr rfl fun d _ => ?_
  have hl : D.lhsIdx (ix3 (n0 := 16384) (n1 := 27) (n2 := 27) b p q) ((contrEquiv1 D 64 D_rank D_size).symm d)
      = ix3 (n0 := 16384) (n1 := 27) (n2 := 64) b p d := by
    funext a; refine Fin.ext ?_
    match a with
    | ⟨0, _⟩ => exact lhs_0 _ _
    | ⟨1, _⟩ => exact lhs_1 _ _
    | ⟨2, _⟩ => exact (lhs_2 _ _).trans (contrEquiv1_symm_val D 64 D_rank D_size d)
  have hr : D.rhsIdx (ix3 (n0 := 16384) (n1 := 27) (n2 := 27) b p q) ((contrEquiv1 D 64 D_rank D_size).symm d)
      = ix3 (n0 := 16384) (n1 := 27) (n2 := 64) b q d := by
    funext a; refine Fin.ext ?_
    match a with
    | ⟨0, _⟩ => exact rhs_0 _ _
    | ⟨1, _⟩ => exact rhs_1 _ _
    | ⟨2, _⟩ => exact (rhs_2 _ _).trans (contrEquiv1_symm_val D 64 D_rank D_size d)
  rw [hl, hr]

/-! ## The gather through the two index columns -/

/-- The gather's dimension numbers: the batch axis kept whole, the two matrix axes each read at a start index. -/
abbrev G := gather_S16384x27x27_S351x2_S16384x351_0_12_n_n_12_1_1638411

/-- Result index (b, k) reads component c of its start index at (k, c) of the start indices. -/
theorem G_siIdx (b : Fin 16384) (k : Fin 351) (c : Fin G.startIndexMap.length) :
    G.siIdx (ix2 (n0 := 16384) (n1 := 351) b k) c = ix2 (n0 := 351) (n1 := 2) k ⟨c.val, c.isLt⟩ := by
  funext a; refine Fin.ext ?_
  match a with
  | ⟨0, _⟩ => rfl
  | ⟨1, _⟩ => rfl

/-- The start index names the two matrix axes and not the batch axis. -/
theorem G_not_mem0 : (0 : Fin S16384x27x27.rank) ∉ G.startIndexMap :=
  show (0 : Fin 3) ∉ ([1, 2] : List (Fin 3)) from by decide
theorem G_mem1 : (1 : Fin S16384x27x27.rank) ∈ G.startIndexMap :=
  show (1 : Fin 3) ∈ ([1, 2] : List (Fin 3)) from by decide
theorem G_mem2 : (2 : Fin S16384x27x27.rank) ∈ G.startIndexMap :=
  show (2 : Fin 3) ∈ ([1, 2] : List (Fin 3)) from by decide

theorem G_op0 (idx : IVec S351x2 32) (b : Fin 16384) (k : Fin 351) :
    (G.operandIdx (ix2 (n0 := 16384) (n1 := 351) b k) idx 0 : ℕ) = b.val := by
  show G.start _ idx 0 + G.batchCoord _ 0 + G.offCoord _ 0 = _
  rw [GatherDims.batchCoord_eq_zero _ _ _ List.not_mem_nil]
  unfold GatherDims.start
  rw [dif_neg G_not_mem0]
  show 0 + 0 + G.offCoord _ 0 = _
  rw [Nat.zero_add]
  rfl

theorem G_op1 (idx : IVec S351x2 32) (b : Fin 16384) (k : Fin 351) :
    (G.operandIdx (ix2 (n0 := 16384) (n1 := 351) b k) idx 1 : ℕ)
      = min (idx (ix2 (n0 := 351) (n1 := 2) k 0)).toInt.toNat 26 := by
  show G.start _ idx 1 + G.batchCoord _ 1 + G.offCoord _ 1 = _
  rw [GatherDims.batchCoord_eq_zero _ _ _ List.not_mem_nil,
    GatherDims.offCoord_eq_zero _ _ _ (fun h => ((GatherDims.mem_sKept _ _).mp h).1
      (show (1 : Fin 3) ∈ ([1, 2] : List (Fin 3)) from by decide))]
  unfold GatherDims.start
  rw [dif_pos G_mem1, G_siIdx]
  rfl

theorem G_op2 (idx : IVec S351x2 32) (b : Fin 16384) (k : Fin 351) :
    (G.operandIdx (ix2 (n0 := 16384) (n1 := 351) b k) idx 2 : ℕ)
      = min (idx (ix2 (n0 := 351) (n1 := 2) k 1)).toInt.toNat 26 := by
  show G.start _ idx 2 + G.batchCoord _ 2 + G.offCoord _ 2 = _
  rw [GatherDims.batchCoord_eq_zero _ _ _ List.not_mem_nil,
    GatherDims.offCoord_eq_zero _ _ _ (fun h => ((GatherDims.mem_sKept _ _).mp h).1
      (show (2 : Fin 3) ∈ ([1, 2] : List (Fin 3)) from by decide))]
  unfold GatherDims.start
  rw [dif_pos G_mem2, G_siIdx]
  rfl

/-- The gather at (b, k): the operand at batch b, row and column the k-th start index, each clamped into [0, 26]. -/
theorem gather_apply {α : Type} (x : S16384x27x27.Idx → α) (idx : IVec S351x2 32) (b : Fin 16384) (k : Fin 351) :
    Host.gather G x idx (ix2 (n0 := 16384) (n1 := 351) b k)
      = x (ix3 (n0 := 16384) (n1 := 27) (n2 := 27) b
            ⟨min (idx (ix2 (n0 := 351) (n1 := 2) k 0)).toInt.toNat 26, by omega⟩
            ⟨min (idx (ix2 (n0 := 351) (n1 := 2) k 1)).toInt.toNat 26, by omega⟩) := by
  unfold Host.gather
  congr 1
  funext a; refine Fin.ext ?_
  match a with
  | ⟨0, _⟩ => exact G_op0 idx b k
  | ⟨1, _⟩ => exact G_op1 idx b k
  | ⟨2, _⟩ => exact G_op2 idx b k

/-! ## The interaction, index by index -/

/-- The specification at a column below 64: the dense token's entry. -/
theorem interSpec_lt (tok : FVec Ideal S16384x64 .f32) (e : FVec Ideal S16384x26x64 .f32)
    (b : Fin 16384) (c : Fin 415) (h : c.val < 64) :
    Cert.Spec.interSpec tok e (ix2 (n0 := 16384) (n1 := 415) b c) = tok (ix2 (n0 := 16384) (n1 := 64) b ⟨c.val, h⟩) := by
  unfold Cert.Spec.interSpec
  exact dif_pos h

/-- The specification at column 64 + k: the dot product of the k-th pair of tokens. -/
theorem interSpec_ge (tok : FVec Ideal S16384x64 .f32) (e : FVec Ideal S16384x26x64 .f32)
    (b : Fin 16384) (c : Fin 415) (h : ¬ c.val < 64) (hk : c.val - 64 < 351) :
    Cert.Spec.interSpec tok e (ix2 (n0 := 16384) (n1 := 415) b c)
      = ∑ d : Fin 64, Cert.Spec.tokAt tok e b (Cert.Spec.triRow ⟨c.val - 64, hk⟩) d
          * Cert.Spec.tokAt tok e b (Cert.Spec.triCol ⟨c.val - 64, hk⟩) d := by
  unfold Cert.Spec.interSpec
  exact dif_neg h

theorem interR_eq (tok : FVec Ideal S16384x64 .f32) (e : FVec Ideal S16384x26x64 .f32) :
    interR (F := Ideal) tok e = Cert.Spec.interSpec tok e := by
  funext y
  obtain ⟨b, c, rfl⟩ : ∃ (b : Fin 16384) (c : Fin 415), y = ix2 (n0 := 16384) (n1 := 415) b c :=
    ⟨y 0, y 1, eq_ix2 y⟩
  show concatenate S16384x415 1
    [⟨S16384x64, tok⟩,
      ⟨S16384x351, Host.gather G (Host.dotGeneral (F := Ideal) D none (toks tok e) (toks tok e)) idxTab⟩]
    concatenates_S16384x64_S16384x351_S16384x415_d1 (ix2 (n0 := 16384) (n1 := 415) b c) = _
  have hc := c.isLt
  by_cases h : c.val < 64
  · rw [interSpec_lt tok e b c h]
    exact concatenate_pair_apply_left (t := S16384x415) (s₁ := S16384x64) (s₂ := S16384x351) _ _ _ _ _ rfl
      (ix2 (n0 := 16384) (n1 := 64) b ⟨c.val, h⟩)
      (by intro a; match a with | ⟨0, _⟩ => rfl | ⟨1, _⟩ => rfl)
  · have hk : c.val - 64 < 351 := by omega
    rw [interSpec_ge tok e b c h hk,
      concatenate_pair_apply_right (t := S16384x415) (s₁ := S16384x64) (s₂ := S16384x351) _ _ _ _ _ rfl rfl
        (ix2 (n0 := 16384) (n1 := 351) b ⟨c.val - 64, hk⟩)
        (by intro a ha; match a with | ⟨0, _⟩ => rfl | ⟨1, _⟩ => exact absurd rfl ha)
        (by show c.val - 64 + 64 = c.val; omega)]
    rw [gather_apply, gram_apply]
    have hp : (⟨min (idxTab (ix2 (n0 := 351) (n1 := 2) ⟨c.val - 64, hk⟩ 0)).toInt.toNat 26, by omega⟩ : Fin 27)
        = Cert.Spec.triRow ⟨c.val - 64, hk⟩ :=
      Fin.ext (by
        show min _ 26 = _
        rw [idxTab_zero, lit0_tri]
        exact min_eq_left (by have := (Cert.Spec.triRow ⟨c.val - 64, hk⟩).isLt; omega))
    have hq : (⟨min (idxTab (ix2 (n0 := 351) (n1 := 2) ⟨c.val - 64, hk⟩ 1)).toInt.toNat 26, by omega⟩ : Fin 27)
        = Cert.Spec.triCol ⟨c.val - 64, hk⟩ :=
      Fin.ext (by
        show min _ 26 = _
        rw [idxTab_one, lit1_tri]
        exact min_eq_left (by have := (Cert.Spec.triCol ⟨c.val - 64, hk⟩).isLt; omega))
    rw [hp, hq]
    exact Finset.sum_congr rfl fun d _ => by rw [toks_apply, toks_apply]

end Cert.InterR

end
-- ==== Proof.HostEq.lean ====
import proofs.«407213_j20864951124667_1_alg».proof.Proof.KerHost
import proofs.«407213_j20864951124667_1_alg».proof.Proof.RefDefs
import proofs.«407213_j20864951124667_1_alg».proof.Proof.Spec
import proofs.«407213_j20864951124667_1_alg».proof.Proof.EmbEq
import proofs.«407213_j20864951124667_1_alg».proof.Proof.InterR

/-! The two programs' host operations are the same functions. The kernel program's head and tail, read back as pure
    functions of the arguments, are the reference program's head and tail: the same operations in the same order, over
    shape records that are equal. The four stacked lookups of 4096 rows each are the whole lookup. And the two result
    terms agree once the reference's interaction and lookup are known to be their index-by-index specifications. -/

noncomputable section

namespace Cert.HostEq

open Idealize.ShloMosaic
open Cert.KernelIdeal (S16384x13 S13x128 S128 S128x64 S64 S16384x64 S16384x415 S415x512 S512 S512x256 S256 S256x1 S1 S16384 S16384x26 S26x131073x64 S16384x26x64)
open Cert.KernelIdeal.KerHost Cert.ReferenceIdeal.RefTerm

variable {F : FTy → Type} [FloatOps F] [Cert.ReferenceIdeal.Facts]

/-- The dense head is the same function in both programs. -/
theorem headK_eq_headR (a0 : FVec F S16384x13 .f32) (a3 : FVec F S13x128 .f32) (a4 : FVec F S128 .f32)
    (a5 : FVec F S128x64 .f32) (a6 : FVec F S64 .f32) : headK a0 a3 a4 a5 a6 = headR a0 a3 a4 a5 a6 := rfl

/-- The tail is the same function in both programs. -/
theorem tailK_eq_tailR (x : FVec F S16384x415 .f32) (a7 : FVec F S415x512 .f32) (a8 : FVec F S512 .f32)
    (a9 : FVec F S512x256 .f32) (a10 : FVec F S256 .f32) (a11 : FVec F S256x1 .f32) (a12 : FVec F S1 .f32) :
    tailK x a7 a8 a9 a10 a11 a12 = tailR x a7 a8 a9 a10 a11 a12 := rfl

section Chunks
open Cert.KernelIdeal.Facts₀

/-- The four lookups of 4096 rows, stacked, are the whole lookup: the stacking written with the slices spelled out
    is the stacking of the four named slices. -/
theorem chunks_eq_of (a1 : IVec S16384x26 32) (a2 : FVec F S26x131073x64 .f32)
    (h : concatenate S16384x26x64 0
        [⟨Cert.KernelIdeal.S4096x26x64, Cert.Spec.embChunk (extractStridedSlice Cert.KernelIdeal.S4096x26 ![0, 0] a1 slices_S16384x26_S4096x26_0_0) a2⟩,
         ⟨Cert.KernelIdeal.S4096x26x64, Cert.Spec.embChunk (extractStridedSlice Cert.KernelIdeal.S4096x26 ![4096, 0] a1 slices_S16384x26_S4096x26_4096_0) a2⟩,
         ⟨Cert.KernelIdeal.S4096x26x64, Cert.Spec.embChunk (extractStridedSlice Cert.KernelIdeal.S4096x26 ![8192, 0] a1 slices_S16384x26_S4096x26_8192_0) a2⟩,
         ⟨Cert.KernelIdeal.S4096x26x64, Cert.Spec.embChunk (extractStridedSlice Cert.KernelIdeal.S4096x26 ![12288, 0] a1 slices_S16384x26_S4096x26_12288_0) a2⟩]
        concatenates_S4096x26x64_S4096x26x64_S4096x26x64_S4096x26x64_S16384x26x64_d0 = Cert.Spec.embSpec a1 a2) :
    concat4K (Cert.Spec.embChunk (sliceK0 a1) a2) (Cert.Spec.embChunk (sliceK1 a1) a2)
      (Cert.Spec.embChunk (sliceK2 a1) a2) (Cert.Spec.embChunk (sliceK3 a1) a2) = Cert.Spec.embSpec a1 a2 := h

/-- The four lookups of 4096 rows, stacked, are the whole lookup. -/
theorem chunks_eq (a1 : IVec S16384x26 32) (a2 : FVec F S26x131073x64 .f32) :
    concat4K (Cert.Spec.embChunk (sliceK0 a1) a2) (Cert.Spec.embChunk (sliceK1 a1) a2)
      (Cert.Spec.embChunk (sliceK2 a1) a2) (Cert.Spec.embChunk (sliceK3 a1) a2) = Cert.Spec.embSpec a1 a2 :=
  chunks_eq_of a1 a2 (Cert.EmbEq.concat_chunks a1 a2)

end Chunks

/-- The two result terms agree, given that the reference's interaction is the index-by-index interaction and that its
    lookup at these indices is the index-by-index lookup. -/
theorem result_terms_eq_of
    (a0 : FVec Ideal S16384x13 .f32) (a1 : IVec S16384x26 32) (a2 : FVec Ideal S26x131073x64 .f32)
    (a3 : FVec Ideal S13x128 .f32) (a4 : FVec Ideal S128 .f32) (a5 : FVec Ideal S128x64 .f32) (a6 : FVec Ideal S64 .f32)
    (a7 : FVec Ideal S415x512 .f32) (a8 : FVec Ideal S512 .f32) (a9 : FVec Ideal S512x256 .f32) (a10 : FVec Ideal S256 .f32)
    (a11 : FVec Ideal S256x1 .f32) (a12 : FVec Ideal S1 .f32)
    (hI : ∀ (tok : FVec Ideal S16384x64 .f32) (e : FVec Ideal S16384x26x64 .f32), interR tok e = Cert.Spec.interSpec tok e)
    (hE : embR a1 a2 = Cert.Spec.embSpec a1 a2) :
    tailK (Cert.Spec.interSpec (headK a0 a3 a4 a5 a6) (Cert.Spec.embSpec a1 a2)) a7 a8 a9 a10 a11 a12
      = tailR (interR (headR a0 a3 a4 a5 a6) (embR a1 a2)) a7 a8 a9 a10 a11 a12 := by
  rw [hE, hI, ← headK_eq_headR, ← tailK_eq_tailR]

/-- The two result terms agree where every index of the table is in range, given that the reference's interaction is
    the index-by-index interaction. -/
theorem result_terms_eq_ofI
    (a0 : FVec Ideal S16384x13 .f32) (a1 : IVec S16384x26 32) (a2 : FVec Ideal S26x131073x64 .f32)
    (a3 : FVec Ideal S13x128 .f32) (a4 : FVec Ideal S128 .f32) (a5 : FVec Ideal S128x64 .f32) (a6 : FVec Ideal S64 .f32)
    (a7 : FVec Ideal S415x512 .f32) (a8 : FVec Ideal S512 .f32) (a9 : FVec Ideal S512x256 .f32) (a10 : FVec Ideal S256 .f32)
    (a11 : FVec Ideal S256x1 .f32) (a12 : FVec Ideal S1 .f32)
    (hr : ∀ i : S16384x26.Idx, 0 ≤ (a1 i).toInt ∧ (a1 i).toInt < 131073)
    (hI : ∀ (tok : FVec Ideal S16384x64 .f32) (e : FVec Ideal S16384x26x64 .f32), interR tok e = Cert.Spec.interSpec tok e) :
    tailK (Cert.Spec.interSpec (headK a0 a3 a4 a5 a6) (Cert.Spec.embSpec a1 a2)) a7 a8 a9 a10 a11 a12
      = tailR (interR (headR a0 a3 a4 a5 a6) (embR a1 a2)) a7 a8 a9 a10 a11 a12 :=
  result_terms_eq_of a0 a1 a2 a3 a4 a5 a6 a7 a8 a9 a10 a11 a12 hI (Cert.EmbEq.embR_eq a1 a2 hr)

/-- The two result terms agree where every index of the table is in range: the kernel program's tail of the
    index-by-index interaction of its head with the index-by-index lookup is the reference program's result term. -/
theorem result_terms_eq
    (a0 : FVec Ideal S16384x13 .f32) (a1 : IVec S16384x26 32) (a2 : FVec Ideal S26x131073x64 .f32)
    (a3 : FVec Ideal S13x128 .f32) (a4 : FVec Ideal S128 .f32) (a5 : FVec Ideal S128x64 .f32) (a6 : FVec Ideal S64 .f32)
    (a7 : FVec Ideal S415x512 .f32) (a8 : FVec Ideal S512 .f32) (a9 : FVec Ideal S512x256 .f32) (a10 : FVec Ideal S256 .f32)
    (a11 : FVec Ideal S256x1 .f32) (a12 : FVec Ideal S1 .f32)
    (hr : ∀ i : S16384x26.Idx, 0 ≤ (a1 i).toInt ∧ (a1 i).toInt < 131073) :
    tailK (Cert.Spec.interSpec (headK a0 a3 a4 a5 a6) (Cert.Spec.embSpec a1 a2)) a7 a8 a9 a10 a11 a12
      = tailR (interR (headR a0 a3 a4 a5 a6) (embR a1 a2)) a7 a8 a9 a10 a11 a12 :=
  result_terms_eq_ofI a0 a1 a2 a3 a4 a5 a6 a7 a8 a9 a10 a11 a12 hr (fun tok e => Cert.InterR.interR_eq tok e)

end Cert.HostEq
-- ==== Proof.RefTerm.lean ====
/- The reference program's result buffer, read back as the composition of the four pure functions of
   RefDefs: the list of operations is cut into four consecutive stretches (the constant tables and the dense head;
   the embedding lookup; the interaction; the tail), the fold over a concatenation is the fold over the second
   list from the fold over the first, each stretch's fold at its result buffer is its function of the buffers it
   reads, and a buffer a stretch does not write passes through it unchanged. -/
import proofs.«407213_j20864951124667_1_alg».proof.Proof.RefDefs
import proofs.«407213_j20864951124667_1_alg».proof.Proof.RefRun

noncomputable section

namespace Cert.ReferenceIdeal.RefTerm

open Cert.ReferenceIdeal Cert.ReferenceIdeal.RefRun Idealize.ShloMosaic Idealize.ShloMosaic.TcCoe Idealize.SL.Sem
  Idealize.ShloMosaic.StableHlo
open Facts₀ Facts

variable {F : FTy → Type} [FloatOps F] [Facts]

/-- The fold over two lists run one after the other is the second's fold from the first's. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons, ih]

/-- The four constant tables and the dense head: operations 1 … 18. -/
abbrev opsA : List (HloOp τ sig (Elt F)) :=
  [
    nullary main_c (fun i => lit0 (S351.rowMajor i)),
    nullary main_c_0 (constantI S351 1 0#1),
    nullary main_c_1 (fun i => lit1 (S351.rowMajor i)),
    nullary main_c_2 (constantI S351 1 0#1),
    binary main_arg0 main_arg3 main_v0 ((fun l r => Host.dotGeneral dot_S16384x13_S13x128_S16384x128_1_0_0_1_n_n none l r) : (⟨S16384x13, .f32⟩ : BufTy).Contents (Elt F) → (⟨S13x128, .f32⟩ : BufTy).Contents (Elt F) → (⟨S16384x128, .f32⟩ : BufTy).Contents (Elt F)),
    unary main_arg4 main_v1 (broadcastInDim S1x128 ![1] bcast_S128_S1x128_1 : (⟨S128, .f32⟩ : BufTy).Contents (Elt F) → (⟨S1x128, .f32⟩ : BufTy).Contents (Elt F)),
    unary main_v1 main_v2 (broadcastInDim S16384x128 ![0, 1] bcast_S1x128_S16384x128_0_1 : (⟨S1x128, .f32⟩ : BufTy).Contents (Elt F) → (⟨S16384x128, .f32⟩ : BufTy).Contents (Elt F)),
    binary main_v0 main_v2 main_v3 (addf : (⟨S16384x128, .f32⟩ : BufTy).Contents (Elt F) → (⟨S16384x128, .f32⟩ : BufTy).Contents (Elt F) → (⟨S16384x128, .f32⟩ : BufTy).Contents (Elt F)),
    TRef.nullary main_call0.cst (constant S_ .f32 0x00000000#32),
    TRef.unary main_call0.cst main_call0.v0 (broadcastInDim S16384x128 ![] bcast_S_S16384x128),
    TRef.binary (.of main_v3) main_call0.v0 main_call0.v1 maximumf,
    binary main_v4 main_arg5 main_v5 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    unary main_arg6 main_v6 (broadcastInDim S1x64 ![1] bcast_S64_S1x64_1 : (⟨S64, .f32⟩ : BufTy).Contents (Elt F) → (⟨S1x64, .f32⟩ : BufTy).Contents (Elt F)),
    unary main_v6 main_v7 (broadcastInDim S16384x64 ![0, 1] bcast_S1x64_S16384x64_0_1 : (⟨S1x64, .f32⟩ : BufTy).Contents (Elt F) → (⟨S16384x64, .f32⟩ : BufTy).Contents (Elt F)),
    binary main_v5 main_v7 main_v8 (addf : (⟨S16384x64, .f32⟩ : BufTy).Contents (Elt F) → (⟨S16384x64, .f32⟩ : BufTy).Contents (Elt F) → (⟨S16384x64, .f32⟩ : BufTy).Contents (Elt F)),
    TRef.nullary main_call1.cst (constant S_ .f32 0x00000000#32),
    TRef.unary main_call1.cst main_call1.v0 (broadcastInDim S16384x64 ![] bcast_S_S16384x64),
    TRef.binary (.of main_v8) main_call1.v0 main_call1.v1 maximumf ]

attribute [local irreducible] Host.gather concatenate broadcastInDim shapeCast in
set_option maxRecDepth 16384 in
set_option maxHeartbeats 8000000 in
theorem A_v9 (V : Valuation τ sig (Elt F)) :
    after opsA V (main_v9 : DevRef τ sig)
      = headR (V (main_arg0 : DevRef τ sig)) (V (main_arg3 : DevRef τ sig)) (V (main_arg4 : DevRef τ sig)) (V (main_arg5 : DevRef τ sig)) (V (main_arg6 : DevRef τ sig)) := by
  after_results
  rfl

theorem A_c (V : Valuation τ sig (Elt F)) :
    after opsA V (main_c : DevRef τ sig) = fun i => lit0 (S351.rowMajor i) := by
  after_results
  rfl
theorem A_c_0 (V : Valuation τ sig (Elt F)) :
    after opsA V (main_c_0 : DevRef τ sig) = constantI S351 1 0#1 := by
  after_results
theorem A_c_1 (V : Valuation τ sig (Elt F)) :
    after opsA V (main_c_1 : DevRef τ sig) = fun i => lit1 (S351.rowMajor i) := by
  after_results
  rfl
theorem A_c_2 (V : Valuation τ sig (Elt F)) :
    after opsA V (main_c_2 : DevRef τ sig) = constantI S351 1 0#1 := by
  after_results

set_option maxRecDepth 8192 in
set_option maxHeartbeats 4000000 in
theorem A_keep_main_arg1 (V : Valuation τ sig (Elt F)) :
    after opsA V (main_arg1 : DevRef τ sig) = V (main_arg1 : DevRef τ sig) := by
  after_results_simp

set_option maxRecDepth 8192 in
set_option maxHeartbeats 4000000 in
theorem A_keep_main_arg2 (V : Valuation τ sig (Elt F)) :
    after opsA V (main_arg2 : DevRef τ sig) = V (main_arg2 : DevRef τ sig) := by
  after_results_simp

set_option maxRecDepth 8192 in
set_option maxHeartbeats 4000000 in
theorem A_keep_main_arg7 (V : Valuation τ sig (Elt F)) :
    after opsA V (main_arg7 : DevRef τ sig) = V (main_arg7 : DevRef τ sig) := by
  after_results_simp

set_option maxRecDepth 8192 in
set_option maxHeartbeats 4000000 in
theorem A_keep_main_arg8 (V : Valuation τ sig (Elt F)) :
    after opsA V (main_arg8 : DevRef τ sig) = V (main_arg8 : DevRef τ sig) := by
  after_results_simp

set_option maxRecDepth 8192 in
set_option maxHeartbeats 4000000 in
theorem A_keep_main_arg9 (V : Valuation τ sig (Elt F)) :
    after opsA V (main_arg9 : DevRef τ sig) = V (main_arg9 : DevRef τ sig) := by
  after_results_simp

set_option maxRecDepth 8192 in
set_option maxHeartbeats 4000000 in
theorem A_keep_main_arg10 (V : Valuation τ sig (Elt F)) :
    after opsA V (main_arg10 : DevRef τ sig) = V (main_arg10 : DevRef τ sig) := by
  after_results_simp

set_option maxRecDepth 8192 in
set_option maxHeartbeats 4000000 in
theorem A_keep_main_arg11 (V : Valuation τ sig (Elt F)) :
    after opsA V (main_arg11 : DevRef τ sig) = V (main_arg11 : DevRef τ sig) := by
  after_results_simp

set_option maxRecDepth 8192 in
set_option maxHeartbeats 4000000 in
theorem A_keep_main_arg12 (V : Valuation τ sig (Elt F)) :
    after opsA V (main_arg12 : DevRef τ sig) = V (main_arg12 : DevRef τ sig) := by
  after_results_simp

/-- The embedding lookup: operations 19 … 39. -/
abbrev opsB : List (HloOp τ sig (Elt F)) :=
  [
    nullary main_v10 (iotaInDim S26 32 0),
    unary main_v10 main_v11 (broadcastInDim S1x26 ![1] bcast_S26_S1x26_1 : (⟨S26, .i32⟩ : BufTy).Contents (Elt F) → (⟨S1x26, .i32⟩ : BufTy).Contents (Elt F)),
    nullary main_c_3 (constantI S_ 32 0#32),
    unary main_c_3 main_v12 (broadcastInDim S1x26 ![] bcast_S_S1x26 : (⟨S_, .i32⟩ : BufTy).Contents (Elt F) → (⟨S1x26, .i32⟩ : BufTy).Contents (Elt F)),
    binary main_v11 main_v12 main_v13 (cmpi .slt : (⟨S1x26, .i32⟩ : BufTy).Contents (Elt F) → (⟨S1x26, .i32⟩ : BufTy).Contents (Elt F) → (⟨S1x26, .i1⟩ : BufTy).Contents (Elt F)),
    nullary main_c_4 (constantI S_ 32 26#32),
    unary main_c_4 main_v14 (broadcastInDim S1x26 ![] bcast_S_S1x26 : (⟨S_, .i32⟩ : BufTy).Contents (Elt F) → (⟨S1x26, .i32⟩ : BufTy).Contents (Elt F)),
    binary main_v11 main_v14 main_v15 (addi : (⟨S1x26, .i32⟩ : BufTy).Contents (Elt F) → (⟨S1x26, .i32⟩ : BufTy).Contents (Elt F) → (⟨S1x26, .i32⟩ : BufTy).Contents (Elt F)),
    ternary main_v13 main_v15 main_v11 main_v16 (select : (⟨S1x26, .i1⟩ : BufTy).Contents (Elt F) → (⟨S1x26, .i32⟩ : BufTy).Contents (Elt F) → (⟨S1x26, .i32⟩ : BufTy).Contents (Elt F) → (⟨S1x26, .i32⟩ : BufTy).Contents (Elt F)),
    nullary main_c_5 (constantI S_ 32 0#32),
    unary main_c_5 main_v17 (broadcastInDim S16384x26 ![] bcast_S_S16384x26 : (⟨S_, .i32⟩ : BufTy).Contents (Elt F) → (⟨S16384x26, .i32⟩ : BufTy).Contents (Elt F)),
    binary main_arg1 main_v17 main_v18 (cmpi .slt : (⟨S16384x26, .i32⟩ : BufTy).Contents (Elt F) → (⟨S16384x26, .i32⟩ : BufTy).Contents (Elt F) → (⟨S16384x26, .i1⟩ : BufTy).Contents (Elt F)),
    nullary main_c_6 (constantI S_ 32 131073#32),
    unary main_c_6 main_v19 (broadcastInDim S16384x26 ![] bcast_S_S16384x26 : (⟨S_, .i32⟩ : BufTy).Contents (Elt F) → (⟨S16384x26, .i32⟩ : BufTy).Contents (Elt F)),
    binary main_arg1 main_v19 main_v20 (addi : (⟨S16384x26, .i32⟩ : BufTy).Contents (Elt F) → (⟨S16384x26, .i32⟩ : BufTy).Contents (Elt F) → (⟨S16384x26, .i32⟩ : BufTy).Contents (Elt F)),
    ternary main_v18 main_v20 main_arg1 main_v21 (select : (⟨S16384x26, .i1⟩ : BufTy).Contents (Elt F) → (⟨S16384x26, .i32⟩ : BufTy).Contents (Elt F) → (⟨S16384x26, .i32⟩ : BufTy).Contents (Elt F) → (⟨S16384x26, .i32⟩ : BufTy).Contents (Elt F)),
    unary main_v16 main_v22 (broadcastInDim S16384x26 ![0, 1] bcast_S1x26_S16384x26_0_1 : (⟨S1x26, .i32⟩ : BufTy).Contents (Elt F) → (⟨S16384x26, .i32⟩ : BufTy).Contents (Elt F)),
    unary main_v22 main_v23 (broadcastInDim S16384x26x1 ![0, 1] bcast_S16384x26_S16384x26x1_0_1 : (⟨S16384x26, .i32⟩ : BufTy).Contents (Elt F) → (⟨S16384x26x1, .i32⟩ : BufTy).Contents (Elt F)),
    unary main_v21 main_v24 (broadcastInDim S16384x26x1 ![0, 1] bcast_S16384x26_S16384x26x1_0_1 : (⟨S16384x26, .i32⟩ : BufTy).Contents (Elt F) → (⟨S16384x26x1, .i32⟩ : BufTy).Contents (Elt F)),
    binary main_v23 main_v24 main_v25 ((fun a b => concatenate S16384x26x2 2 [⟨S16384x26x1, a⟩, ⟨S16384x26x1, b⟩] concatenates_S16384x26x1_S16384x26x1_S16384x26x2_d2) : (⟨S16384x26x1, .i32⟩ : BufTy).Contents (Elt F) → (⟨S16384x26x1, .i32⟩ : BufTy).Contents (Elt F) → (⟨S16384x26x2, .i32⟩ : BufTy).Contents (Elt F)),
    binary main_arg2 main_v25 main_v26 ((fun x i => Host.gather gather_S26x131073x64_S16384x26x2_S16384x26x64_2_01_n_n_01_2_1164 x i) : (⟨S26x131073x64, .f32⟩ : BufTy).Contents (Elt F) → (⟨S16384x26x2, .i32⟩ : BufTy).Contents (Elt F) → (⟨S16384x26x64, .f32⟩ : BufTy).Contents (Elt F)) ]

attribute [local irreducible] Host.gather concatenate broadcastInDim shapeCast in
set_option maxRecDepth 16384 in
set_option maxHeartbeats 8000000 in
theorem B_v26 (V : Valuation τ sig (Elt F)) :
    after opsB V (main_v26 : DevRef τ sig) = embR (V (main_arg1 : DevRef τ sig)) (V (main_arg2 : DevRef τ sig)) := by
  after_results
  rfl

set_option maxRecDepth 8192 in
set_option maxHeartbeats 4000000 in
theorem B_keep_main_v9 (V : Valuation τ sig (Elt F)) :
    after opsB V (main_v9 : DevRef τ sig) = V (main_v9 : DevRef τ sig) := by
  after_results_simp

set_option maxRecDepth 8192 in
set_option maxHeartbeats 4000000 in
theorem B_keep_main_c (V : Valuation τ sig (Elt F)) :
    after opsB V (main_c : DevRef τ sig) = V (main_c : DevRef τ sig) := by
  after_results_simp

set_option maxRecDepth 8192 in
set_option maxHeartbeats 4000000 in
theorem B_keep_main_c_0 (V : Valuation τ sig (Elt F)) :
    after opsB V (main_c_0 : DevRef τ sig) = V (main_c_0 : DevRef τ sig) := by
  after_results_simp

set_option maxRecDepth 8192 in
set_option maxHeartbeats 4000000 in
theorem B_keep_main_c_1 (V : Valuation τ sig (Elt F)) :
    after opsB V (main_c_1 : DevRef τ sig) = V (main_c_1 : DevRef τ sig) := by
  after_results_simp

set_option maxRecDepth 8192 in
set_option maxHeartbeats 4000000 in
theorem B_keep_main_c_2 (V : Valuation τ sig (Elt F)) :
    after opsB V (main_c_2 : DevRef τ sig) = V (main_c_2 : DevRef τ sig) := by
  after_results_simp

set_option maxRecDepth 8192 in
set_option maxHeartbeats 4000000 in
theorem B_keep_main_arg7 (V : Valuation τ sig (Elt F)) :
    after opsB V (main_arg7 : DevRef τ sig) = V (main_arg7 : DevRef τ sig) := by
  after_results_simp

set_option maxRecDepth 8192 in
set_option maxHeartbeats 4000000 in
theorem B_keep_main_arg8 (V : Valuation τ sig (Elt F)) :
    after opsB V (main_arg8 : DevRef τ sig) = V (main_arg8 : DevRef τ sig) := by
  after_results_simp

set_option maxRecDepth 8192 in
set_option maxHeartbeats 4000000 in
theorem B_keep_main_arg9 (V : Valuation τ sig (Elt F)) :
    after opsB V (main_arg9 : DevRef τ sig) = V (main_arg9 : DevRef τ sig) := by
  after_results_simp

set_option maxRecDepth 8192 in
set_option maxHeartbeats 4000000 in
theorem B_keep_main_arg10 (V : Valuation τ sig (Elt F)) :
    after opsB V (main_arg10 : DevRef τ sig) = V (main_arg10 : DevRef τ sig) := by
  after_results_simp

set_option maxRecDepth 8192 in
set_option maxHeartbeats 4000000 in
theorem B_keep_main_arg11 (V : Valuation τ sig (Elt F)) :
    after opsB V (main_arg11 : DevRef τ sig) = V (main_arg11 : DevRef τ sig) := by
  after_results_simp

set_option maxRecDepth 8192 in
set_option maxHeartbeats 4000000 in
theorem B_keep_main_arg12 (V : Valuation τ sig (Elt F)) :
    after opsB V (main_arg12 : DevRef τ sig) = V (main_arg12 : DevRef τ sig) := by
  after_results_simp

/-- The interaction: operations 40 … 55. -/
abbrev opsC : List (HloOp τ sig (Elt F)) :=
  [
    unary main_v9 main_v27 (broadcastInDim S16384x1x64 ![0, 2] bcast_S16384x64_S16384x1x64_0_2 : (⟨S16384x64, .f32⟩ : BufTy).Contents (Elt F) → (⟨S16384x1x64, .f32⟩ : BufTy).Contents (Elt F)),
    binary main_v27 main_v26 main_v28 ((fun a b => concatenate S16384x27x64 1 [⟨S16384x1x64, a⟩, ⟨S16384x26x64, b⟩] concatenates_S16384x1x64_S16384x26x64_S16384x27x64_d1) : (⟨S16384x1x64, .f32⟩ : BufTy).Contents (Elt F) → (⟨S16384x26x64, .f32⟩ : BufTy).Contents (Elt F) → (⟨S16384x27x64, .f32⟩ : BufTy).Contents (Elt F)),
    binary main_v28 main_v28 main_v29 ((fun l r => Host.dotGeneral dot_S16384x27x64_S16384x27x64_S16384x27x27_2_2_1_1_0_0 none l r) : (⟨S16384x27x64, .f32⟩ : BufTy).Contents (Elt F) → (⟨S16384x27x64, .f32⟩ : BufTy).Contents (Elt F) → (⟨S16384x27x27, .f32⟩ : BufTy).Contents (Elt F)),
    nullary main_c_7 (constantI S_ 32 27#32),
    unary main_c_7 main_v30 (broadcastInDim S351 ![] bcast_S_S351 : (⟨S_, .i32⟩ : BufTy).Contents (Elt F) → (⟨S351, .i32⟩ : BufTy).Contents (Elt F)),
    binary main_c main_v30 main_v31 (addi : (⟨S351, .i32⟩ : BufTy).Contents (Elt F) → (⟨S351, .i32⟩ : BufTy).Contents (Elt F) → (⟨S351, .i32⟩ : BufTy).Contents (Elt F)),
    ternary main_c_0 main_v31 main_c main_v32 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    nullary main_c_8 (constantI S_ 32 27#32),
    unary main_c_8 main_v33 (broadcastInDim S351 ![] bcast_S_S351 : (⟨S_, .i32⟩ : BufTy).Contents (Elt F) → (⟨S351, .i32⟩ : BufTy).Contents (Elt F)),
    binary main_c_1 main_v33 main_v34 (addi : (⟨S351, .i32⟩ : BufTy).Contents (Elt F) → (⟨S351, .i32⟩ : BufTy).Contents (Elt F) → (⟨S351, .i32⟩ : BufTy).Contents (Elt F)),
    ternary main_c_2 main_v34 main_c_1 main_v35 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    unary main_v32 main_v36 (broadcastInDim S351x1 ![0] bcast_S351_S351x1_0 : (⟨S351, .i32⟩ : BufTy).Contents (Elt F) → (⟨S351x1, .i32⟩ : BufTy).Contents (Elt F)),
    unary main_v35 main_v37 (broadcastInDim S351x1 ![0] bcast_S351_S351x1_0 : (⟨S351, .i32⟩ : BufTy).Contents (Elt F) → (⟨S351x1, .i32⟩ : BufTy).Contents (Elt F)),
    binary main_v36 main_v37 main_v38 ((fun a b => concatenate S351x2 1 [⟨S351x1, a⟩, ⟨S351x1, b⟩] concatenates_S351x1_S351x1_S351x2_d1) : (⟨S351x1, .i32⟩ : BufTy).Contents (Elt F) → (⟨S351x1, .i32⟩ : BufTy).Contents (Elt F) → (⟨S351x2, .i32⟩ : BufTy).Contents (Elt F)),
    binary main_v29 main_v38 main_v39 ((fun x i => Host.gather gather_S16384x27x27_S351x2_S16384x351_0_12_n_n_12_1_1638411 x i) : (⟨S16384x27x27, .f32⟩ : BufTy).Contents (Elt F) → (⟨S351x2, .i32⟩ : BufTy).Contents (Elt F) → (⟨S16384x351, .f32⟩ : BufTy).Contents (Elt F)),
    binary main_v9 main_v39 main_v40 ((fun a b => concatenate S16384x415 1 [⟨S16384x64, a⟩, ⟨S16384x351, b⟩] concatenates_S16384x64_S16384x351_S16384x415_d1) : (⟨S16384x64, .f32⟩ : BufTy).Contents (Elt F) → (⟨S16384x351, .f32⟩ : BufTy).Contents (Elt F) → (⟨S16384x415, .f32⟩ : BufTy).Contents (Elt F)) ]

attribute [local irreducible] Host.gather concatenate broadcastInDim shapeCast in
set_option maxRecDepth 16384 in
set_option maxHeartbeats 8000000 in
theorem C_v40 (V : Valuation τ sig (Elt F))
    (hc : V (main_c : DevRef τ sig) = fun i => lit0 (S351.rowMajor i))
    (hc0 : V (main_c_0 : DevRef τ sig) = constantI S351 1 0#1)
    (hc1 : V (main_c_1 : DevRef τ sig) = fun i => lit1 (S351.rowMajor i))
    (hc2 : V (main_c_2 : DevRef τ sig) = constantI S351 1 0#1) :
    after opsC V (main_v40 : DevRef τ sig) = interR (V (main_v9 : DevRef τ sig)) (V (main_v26 : DevRef τ sig)) := by
  after_results
  rw [hc, hc0, hc1, hc2]
  rfl

set_option maxRecDepth 8192 in
set_option maxHeartbeats 4000000 in
theorem C_keep_main_arg7 (V : Valuation τ sig (Elt F)) :
    after opsC V (main_arg7 : DevRef τ sig) = V (main_arg7 : DevRef τ sig) := by
  after_results_simp

set_option maxRecDepth 8192 in
set_option maxHeartbeats 4000000 in
theorem C_keep_main_arg8 (V : Valuation τ sig (Elt F)) :
    after opsC V (main_arg8 : DevRef τ sig) = V (main_arg8 : DevRef τ sig) := by
  after_results_simp

set_option maxRecDepth 8192 in
set_option maxHeartbeats 4000000 in
theorem C_keep_main_arg9 (V : Valuation τ sig (Elt F)) :
    after opsC V (main_arg9 : DevRef τ sig) = V (main_arg9 : DevRef τ sig) := by
  after_results_simp

set_option maxRecDepth 8192 in
set_option maxHeartbeats 4000000 in
theorem C_keep_main_arg10 (V : Valuation τ sig (Elt F)) :
    after opsC V (main_arg10 : DevRef τ sig) = V (main_arg10 : DevRef τ sig) := by
  after_results_simp

set_option maxRecDepth 8192 in
set_option maxHeartbeats 4000000 in
theorem C_keep_main_arg11 (V : Valuation τ sig (Elt F)) :
    after opsC V (main_arg11 : DevRef τ sig) = V (main_arg11 : DevRef τ sig) := by
  after_results_simp

set_option maxRecDepth 8192 in
set_option maxHeartbeats 4000000 in
theorem C_keep_main_arg12 (V : Valuation τ sig (Elt F)) :
    after opsC V (main_arg12 : DevRef τ sig) = V (main_arg12 : DevRef τ sig) := by
  after_results_simp

/-- The tail: operations 56 … 74. -/
abbrev opsD : List (HloOp τ sig (Elt F)) :=
  [
    binary main_v40 main_arg7 main_v41 ((fun l r => Host.dotGeneral dot_S16384x415_S415x512_S16384x512_1_0_0_1_n_n none l r) : (⟨S16384x415, .f32⟩ : BufTy).Contents (Elt F) → (⟨S415x512, .f32⟩ : BufTy).Contents (Elt F) → (⟨S16384x512, .f32⟩ : BufTy).Contents (Elt F)),
    unary main_arg8 main_v42 (broadcastInDim S1x512 ![1] bcast_S512_S1x512_1 : (⟨S512, .f32⟩ : BufTy).Contents (Elt F) → (⟨S1x512, .f32⟩ : BufTy).Contents (Elt F)),
    unary main_v42 main_v43 (broadcastInDim S16384x512 ![0, 1] bcast_S1x512_S16384x512_0_1 : (⟨S1x512, .f32⟩ : BufTy).Contents (Elt F) → (⟨S16384x512, .f32⟩ : BufTy).Contents (Elt F)),
    binary main_v41 main_v43 main_v44 (addf : (⟨S16384x512, .f32⟩ : BufTy).Contents (Elt F) → (⟨S16384x512, .f32⟩ : BufTy).Contents (Elt F) → (⟨S16384x512, .f32⟩ : BufTy).Contents (Elt F)),
    TRef.nullary main_call2.cst (constant S_ .f32 0x00000000#32),
    TRef.unary main_call2.cst main_call2.v0 (broadcastInDim S16384x512 ![] bcast_S_S16384x512),
    TRef.binary (.of main_v44) main_call2.v0 main_call2.v1 maximumf,
    binary main_v45 main_arg9 main_v46 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    unary main_arg10 main_v47 (broadcastInDim S1x256 ![1] bcast_S256_S1x256_1 : (⟨S256, .f32⟩ : BufTy).Contents (Elt F) → (⟨S1x256, .f32⟩ : BufTy).Contents (Elt F)),
    unary main_v47 main_v48 (broadcastInDim S16384x256 ![0, 1] bcast_S1x256_S16384x256_0_1 : (⟨S1x256, .f32⟩ : BufTy).Contents (Elt F) → (⟨S16384x256, .f32⟩ : BufTy).Contents (Elt F)),
    binary main_v46 main_v48 main_v49 (addf : (⟨S16384x256, .f32⟩ : BufTy).Contents (Elt F) → (⟨S16384x256, .f32⟩ : BufTy).Contents (Elt F) → (⟨S16384x256, .f32⟩ : BufTy).Contents (Elt F)),
    TRef.nullary main_call3.cst (constant S_ .f32 0x00000000#32),
    TRef.unary main_call3.cst main_call3.v0 (broadcastInDim S16384x256 ![] bcast_S_S16384x256),
    TRef.binary (.of main_v49) main_call3.v0 main_call3.v1 maximumf,
    binary main_v50 main_arg11 main_v51 ((fun l r => Host.dotGeneral dot_S16384x256_S256x1_S16384x1_1_0_0_1_n_n none l r) : (⟨S16384x256, .f32⟩ : BufTy).Contents (Elt F) → (⟨S256x1, .f32⟩ : BufTy).Contents (Elt F) → (⟨S16384x1, .f32⟩ : BufTy).Contents (Elt F)),
    unary main_arg12 main_v52 (broadcastInDim S1x1 ![1] bcast_S1_S1x1_1 : (⟨S1, .f32⟩ : BufTy).Contents (Elt F) → (⟨S1x1, .f32⟩ : BufTy).Contents (Elt F)),
    unary main_v52 main_v53 (broadcastInDim S16384x1 ![0, 1] bcast_S1x1_S16384x1_0_1 : (⟨S1x1, .f32⟩ : BufTy).Contents (Elt F) → (⟨S16384x1, .f32⟩ : BufTy).Contents (Elt F)),
    binary main_v51 main_v53 main_v54 (addf : (⟨S16384x1, .f32⟩ : BufTy).Contents (Elt F) → (⟨S16384x1, .f32⟩ : BufTy).Contents (Elt F) → (⟨S16384x1, .f32⟩ : BufTy).Contents (Elt F)),
    reshape main_v54 main_v55 rfl shapeCasts_S16384x1_S16384 ]

attribute [local irreducible] Host.gather concatenate broadcastInDim shapeCast in
set_option maxRecDepth 16384 in
set_option maxHeartbeats 8000000 in
theorem D_v55 (V : Valuation τ sig (Elt F)) :
    after opsD V (main_v55 : DevRef τ sig)
      = tailR (V (main_v40 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  after_results
  rfl

/-- The list of operations is the four stretches in order. -/
theorem ops_split : (ops : List (HloOp τ sig (Elt F))) = opsA ++ (opsB ++ (opsC ++ opsD)) := rfl

/-- From any contents, the fold at the result buffer is the composed function of the thirteen arguments. -/
theorem result_eq_val (V : Valuation τ sig (Elt F)) :
    after (ops (F := F)) V (main_v55 : DevRef τ sig)
      = tailR (interR (headR (V (main_arg0 : DevRef τ sig)) (V (main_arg3 : DevRef τ sig)) (V (main_arg4 : DevRef τ sig)) (V (main_arg5 : DevRef τ sig)) (V (main_arg6 : DevRef τ sig)))
          (embR (V (main_arg1 : DevRef τ sig)) (V (main_arg2 : DevRef τ sig))))
        (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [ops_split, after_append, after_append, after_append, D_v55,
    C_v40 _ (by rw [B_keep_main_c, A_c]) (by rw [B_keep_main_c_0, A_c_0]) (by rw [B_keep_main_c_1, A_c_1])
      (by rw [B_keep_main_c_2, A_c_2]),
    B_v26, B_keep_main_v9, A_v9, A_keep_main_arg1, A_keep_main_arg2,
    C_keep_main_arg7, B_keep_main_arg7, A_keep_main_arg7,
    C_keep_main_arg8, B_keep_main_arg8, A_keep_main_arg8,
    C_keep_main_arg9, B_keep_main_arg9, A_keep_main_arg9,
    C_keep_main_arg10, B_keep_main_arg10, A_keep_main_arg10,
    C_keep_main_arg11, B_keep_main_arg11, A_keep_main_arg11,
    C_keep_main_arg12, B_keep_main_arg12, A_keep_main_arg12]

/-- At the launch contents of device `c`: the result buffer's fold is the composed function of the arguments'
    launch contents. -/
theorem result_eq (m : (ℓ : Loc nD τ sig) → Buf (Elt F) ℓ) (c : Dev nD) :
    after (ops (F := F)) (launchContents m c) (main_v55 : DevRef τ sig)
      = tailR (interR (headR (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)))
          (embR (m ((c.tc : Thread nD τ).loc main_arg1)) (m ((c.tc : Thread nD τ).loc main_arg2))))
        (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  result_eq_val (launchContents m c)

end Cert.ReferenceIdeal.RefTerm

end
-- ==== Proof.Fr.Base.lean ====
/- What the regions' modules share: valuations read at the TensorCore's references, the level assignment, the rest state. -/
import proofs.«407213_j20864951124667_1_alg».proof.Proof.Gen.KernelIdeal.Regions
import Idealize.ShloMosaic.Lib.Pipeline.Frame

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # What every region's module shares: the valuations read at the TensorCore's references, the (empty) level
    assignment, and what rides beside the buffers from segment to segment. -/

/-- A valuation read at the TensorCore's references. -/
abbrev atRefs (E : Dev nD → Valuation τ sig (Elt F)) : (c : Dev nD) → (b : Ref sig .tc) → Buf (Elt F) ((c : Thread nD τ).loc b) :=
  fun c b => E c b

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev Rst (c : Dev nD) : sProp 𝕄 := iprop((∃ r, prngReg c r) ∗ ∃ W, owes (c : Thread nD τ) (0 : CellTallies nD τ sig Unit) W)

end Cert.KernelIdeal.Fr

end
-- ==== Proof.G0Defs.lean ====
/-
  The block one grid point of the first gather call leaves in its output window, as a function of the
  table of row numbers and the stacked tables of rows.
-/
import proofs.«407213_j20864951124667_1_alg».proof.KernelIdeal
import Idealize.ShloMosaic.Lib.ValueIdx

namespace Cert.KernelIdeal.Gather0

open Idealize.ShloMosaic

variable {F : FTy → Type} [FloatOps F]

/-- The row number the table holds for grid point `i` and sub-table `f`, reduced into the range of rows
    (the reduction changes nothing where the word is a row number: `rowOf_val`). -/
def rowOf (tbl : Vec F S4096x26 .i32) (i : grid0.Coords) (f : Fin 26) : Fin 131073 :=
  ⟨(tbl (ValueIdx.ix2 (⟨(i 0).val, (i 0).isLt⟩ : Fin 4096) f)).toNat % 131073, Nat.mod_lt _ (by decide)⟩

/-- Where the table's word is a row number, `rowOf` is that number. -/
theorem rowOf_val (tbl : Vec F S4096x26 .i32) (i : grid0.Coords) (f : Fin 26)
    (h : (tbl (ValueIdx.ix2 (⟨(i 0).val, (i 0).isLt⟩ : Fin 4096) f)).toNat < 131073) :
    (rowOf tbl i f).val = (tbl (ValueIdx.ix2 (⟨(i 0).val, (i 0).isLt⟩ : Fin 4096) f)).toNat :=
  Nat.mod_eq_of_lt h

/-- The gathered block at grid point `i`: its row `f` is row `tbl[i, f]` of sub-table `f`. -/
def gatherBlk (tbl : Vec F S4096x26 .i32) (emb : Vec F S26x131073x64 .f32) (i : grid0.Coords) :
    Vec F S1x26x64 .f32 :=
  fun y => emb (ValueIdx.ix3 (y 1 : Fin 26) (rowOf tbl i (y 1)) (y 2 : Fin 64))

/-- The call's own transfer semaphores, cell by cell: cell `k` of its scratch array of 26 is cell `2 + k` of
    the pool. -/
abbrev osem : Fin 26 → SemLoc sig := fun k =>
  (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27] : Fin 26 → SemLoc sig) k

end Cert.KernelIdeal.Gather0
-- ==== Proof.Fr.Dat0.lean ====
/- Region 0's proof data: what the gather body leaves in its output block, the region's invariant, the table's contents. -/
import proofs.«407213_j20864951124667_1_alg».proof.Proof.Fr.Base
import proofs.«407213_j20864951124667_1_alg».proof.Proof.G0Defs
import proofs.«407213_j20864951124667_1_alg».proof.Proof.Gen.KernelIdeal.Launch
import Idealize.ShloMosaic.Lib.Pipeline.Frame
import Idealize.ShloMosaic.Lib.Pipeline.Kit

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 0 (a gather call): its proof data, at entry contents `V` and admissible table contents `a` -/

section Region0

variable (V : (c : Dev nD) → (b : Ref sig .tc) → Buf (Elt F) ((c : Thread nD τ).loc b)) (a : (pcfg0 (F := F)).Adm)

/-- The operand the body reads by its own transfers: the stacked tables of rows, left in HBM. -/
def H0 : Finset (Ref sig .tc) := {main_arg2}
theorem H0_sub : H0 ⊆ Pipeline.restRefs sig spec0 := by decide

/-- The table of row numbers as the region finds it. -/
abbrev tbl0 (c : Dev nD) : Vec F S4096x26 .i32 := V c main_v10
/-- The stacked tables of rows as the region finds them. -/
abbrev emb0 (c : Dev nD) : Vec F S26x131073x64 .f32 := V c main_arg2

/-- The region's invariant: the scoped rest, the generator register, the body's 26 cells at zero, the stacked tables whole
    at their entry contents, and the table of row numbers whole at the contents the pipeline is pinned at. -/
def Phi0 (c : Dev nD) : sProp 𝕄 :=
  iprop(Pipeline.ΦD Gather0.osem spec0 H0 V c
    ∗ Pipeline.prefHeld (Ix := Unit) (Name := ℕ) (U := Pipeline.UD sig nD τ) (Lvl := ℕ) pre0 c (fun _ => fullShare) a.1)

/-- The proof data of the region's pipeline on core `c`: the output array as the region finds it; after the body at point `t` the
    output block holds the gathered rows; the invariant `Phi0` at every point; nothing owed; full shares. -/
def dat0 (c : Dev nD) : Dat τ (Elt F) Unit ℕ (Pipeline.UD sig nD τ) ℕ (cfg0 a) c where
  A w := V c (Pipeline.arrRef spec0 w)
  after w t := match w with
    | ⟨0, _⟩ => Gather0.gatherBlk (tbl0 V c) (emb0 V c) (grid0.coords t)
  Φ _ := Phi0 V a c
  q _ := fullShare
  owed _ := 0

theorem A_eq0 (c : Dev nD) (w : Fin (cfg0 a).W) : (dat0 V a c).A w = V c (Pipeline.arrRef spec0 w) := by
  dsimp only [dat0]
theorem after0_0 (c : Dev nD) (t : Fin (cfg0 a).N) :
    (dat0 V a c).after 0 t = Gather0.gatherBlk (tbl0 V c) (emb0 V c) (grid0.coords t) := by dsimp only [dat0]; rfl
/-- The stacked tables' points-to, as the body takes it. -/
theorem hbm0_eq (c : Dev nD) :
    (bigSep H0 (fun b => ((c : Thread nD τ).loc b) ↦{fullShare} V c b) : sProp 𝕄)
      = owns (c : Thread nD τ) (Memref.whole main_arg2) fullShare (emb0 V c) := by
  rw [BI.bigSep_eq_bigSepL_of_eq [main_arg2] (by decide) (by decide), owns_whole]; rfl
/-- The table of row numbers held whole, as the body takes it. -/
theorem pref0_eq (c : Dev nD) :
    (Pipeline.prefHeld (Ix := Unit) (Name := ℕ) (U := Pipeline.UD sig nD τ) (Lvl := ℕ) pre0 c (fun _ => fullShare) a.1 : sProp 𝕄)
      = owns (c : Thread nD τ) (Memref.whole main_v10) fullShare (a.1 0) := by
  unfold Pipeline.prefHeld; rw [bigSep_W0]
  exact (owns_whole (c : Thread nD τ) main_v10 fullShare (a.1 0)).symm
/-- The two unscoped buffers the region takes out of the rest: the table of row numbers and the stacked tables. -/
def HT0 : Finset (Ref sig .tc) := {main_v10, main_arg2}
theorem HT0_sub : HT0 ⊆ Pipeline.restRefs sig spec0 := by decide
/-- The unscoped rest, those two apart. -/
theorem rest0_split (c : Dev nD) (W : (b : Ref sig .tc) → Buf (Elt F) ((c : Thread nD τ).loc b)) :
    (Pipeline.unscopedRest (Ix := Unit) (Name := ℕ) (U := Pipeline.UD sig nD τ) (Lvl := ℕ) spec0 c W : sProp 𝕄)
      = iprop((owns (c : Thread nD τ) (Memref.whole main_v10) fullShare (W main_v10) ∗ owns (c : Thread nD τ) (Memref.whole main_arg2) fullShare (W main_arg2))
          ∗ bigSep (Pipeline.restRefs sig spec0 \ HT0) fun b => ((c : Thread nD τ).loc b) ↦{fullShare} W b) := by
  rw [Pipeline.unscopedRest_sdiff spec0 HT0 HT0_sub c W, BI.bigSep_eq_bigSepL_of_eq [main_v10, main_arg2] (by decide) (by decide), owns_whole, owns_whole]; rfl
theorem Phi_eq0 (c : Dev nD) (t) : (dat0 V a c).Φ t = Phi0 V a c := rfl
theorem owed_eq0 (c : Dev nD) (t) : (dat0 V a c).owed t = 0 := rfl

/-- The table's admissible contents: the table of row numbers as the region finds it on the one core (the side condition
    is trivial: no index map reads the table). -/
def adm0 (E : Dev nD → Valuation τ sig (Elt F)) : (pcfg0 (F := F)).Adm :=
  ⟨fun | 0 => E (0 : Dev nD) main_v10 | ⟨_ + 1, h⟩ => absurd h (Nat.not_lt.2 (Nat.le_add_left _ _)), trivial⟩

/-- The table the pipeline is pinned at is the one the region finds, on every core (there is one). -/
theorem adm0_pf (E : Dev nD → Valuation τ sig (Elt F)) (c : Dev nD) : (adm0 E).1 0 = atRefs E c main_v10 := by
  have hc : c = 0 := Subsingleton.elim _ _
  subst hc; rfl

end Region0

end Cert.KernelIdeal.Fr

end
-- ==== Proof.G1Defs.lean ====
/-
  The block one grid point of the second gather call leaves in its output window, as a function of the
  table of row numbers and the stacked tables of rows.
-/
import proofs.«407213_j20864951124667_1_alg».proof.KernelIdeal
import Idealize.ShloMosaic.Lib.ValueIdx

namespace Cert.KernelIdeal.Gather1

open Idealize.ShloMosaic

variable {F : FTy → Type} [FloatOps F]

/-- The row number the table holds for grid point `i` and sub-table `f`, reduced into the range of rows
    (the reduction changes nothing where the word is a row number: `rowOf_val`). -/
def rowOf (tbl : Vec F S4096x26 .i32) (i : grid1.Coords) (f : Fin 26) : Fin 131073 :=
  ⟨(tbl (ValueIdx.ix2 (⟨(i 0).val, (i 0).isLt⟩ : Fin 4096) f)).toNat % 131073, Nat.mod_lt _ (by decide)⟩

/-- Where the table's word is a row number, `rowOf` is that number. -/
theorem rowOf_val (tbl : Vec F S4096x26 .i32) (i : grid1.Coords) (f : Fin 26)
    (h : (tbl (ValueIdx.ix2 (⟨(i 0).val, (i 0).isLt⟩ : Fin 4096) f)).toNat < 131073) :
    (rowOf tbl i f).val = (tbl (ValueIdx.ix2 (⟨(i 0).val, (i 0).isLt⟩ : Fin 4096) f)).toNat :=
  Nat.mod_eq_of_lt h

/-- The gathered block at grid point `i`: its row `f` is row `tbl[i, f]` of sub-table `f`. -/
def gatherBlk (tbl : Vec F S4096x26 .i32) (emb : Vec F S26x131073x64 .f32) (i : grid1.Coords) :
    Vec F S1x26x64 .f32 :=
  fun y => emb (ValueIdx.ix3 (y 1 : Fin 26) (rowOf tbl i (y 1)) (y 2 : Fin 64))

/-- The call's own transfer semaphores, cell by cell: cell `k` of its scratch array of 26 is cell `30 + k` of
    the pool. -/
abbrev osem : Fin 26 → SemLoc sig := fun k =>
  (![SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53, SemLoc.dma 54, SemLoc.dma 55] : Fin 26 → SemLoc sig) k

end Cert.KernelIdeal.Gather1
-- ==== Proof.Fr.Dat1.lean ====
/- Region 1's proof data: what the gather body leaves in its output block, the region's invariant, the table's contents. -/
import proofs.«407213_j20864951124667_1_alg».proof.Proof.Fr.Base
import proofs.«407213_j20864951124667_1_alg».proof.Proof.G1Defs
import proofs.«407213_j20864951124667_1_alg».proof.Proof.Gen.KernelIdeal.Launch
import Idealize.ShloMosaic.Lib.Pipeline.Frame
import Idealize.ShloMosaic.Lib.Pipeline.Kit

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1 (a gather call): its proof data, at entry contents `V` and admissible table contents `a` -/

section Region1

variable (V : (c : Dev nD) → (b : Ref sig .tc) → Buf (Elt F) ((c : Thread nD τ).loc b)) (a : (pcfg1 (F := F)).Adm)

/-- The operand the body reads by its own transfers: the stacked tables of rows, left in HBM. -/
def H1 : Finset (Ref sig .tc) := {main_arg2}
theorem H1_sub : H1 ⊆ Pipeline.restRefs sig spec1 := by decide

/-- The table of row numbers as the region finds it. -/
abbrev tbl1 (c : Dev nD) : Vec F S4096x26 .i32 := V c main_v12
/-- The stacked tables of rows as the region finds them. -/
abbrev emb1 (c : Dev nD) : Vec F S26x131073x64 .f32 := V c main_arg2

/-- The region's invariant: the scoped rest, the generator register, the body's 26 cells at zero, the stacked tables whole
    at their entry contents, and the table of row numbers whole at the contents the pipeline is pinned at. -/
def Phi1 (c : Dev nD) : sProp 𝕄 :=
  iprop(Pipeline.ΦD Gather1.osem spec1 H1 V c
    ∗ Pipeline.prefHeld (Ix := Unit) (Name := ℕ) (U := Pipeline.UD sig nD τ) (Lvl := ℕ) pre1 c (fun _ => fullShare) a.1)

/-- The proof data of the region's pipeline on core `c`: the output array as the region finds it; after the body at point `t` the
    output block holds the gathered rows; the invariant `Phi1` at every point; nothing owed; full shares. -/
def dat1 (c : Dev nD) : Dat τ (Elt F) Unit ℕ (Pipeline.UD sig nD τ) ℕ (cfg1 a) c where
  A w := V c (Pipeline.arrRef spec1 w)
  after w t := match w with
    | ⟨0, _⟩ => Gather1.gatherBlk (tbl1 V c) (emb1 V c) (grid1.coords t)
  Φ _ := Phi1 V a c
  q _ := fullShare
  owed _ := 0

theorem A_eq1 (c : Dev nD) (w : Fin (cfg1 a).W) : (dat1 V a c).A w = V c (Pipeline.arrRef spec1 w) := by
  dsimp only [dat1]
theorem after1_0 (c : Dev nD) (t : Fin (cfg1 a).N) :
    (dat1 V a c).after 0 t = Gather1.gatherBlk (tbl1 V c) (emb1 V c) (grid1.coords t) := by dsimp only [dat1]; rfl
/-- The stacked tables' points-to, as the body takes it. -/
theorem hbm1_eq (c : Dev nD) :
    (bigSep H1 (fun b => ((c : Thread nD τ).loc b) ↦{fullShare} V c b) : sProp 𝕄)
      = owns (c : Thread nD τ) (Memref.whole main_arg2) fullShare (emb1 V c) := by
  rw [BI.bigSep_eq_bigSepL_of_eq [main_arg2] (by decide) (by decide), owns_whole]; rfl
/-- The table of row numbers held whole, as the body takes it. -/
theorem pref1_eq (c : Dev nD) :
    (Pipeline.prefHeld (Ix := Unit) (Name := ℕ) (U := Pipeline.UD sig nD τ) (Lvl := ℕ) pre1 c (fun _ => fullShare) a.1 : sProp 𝕄)
      = owns (c : Thread nD τ) (Memref.whole main_v12) fullShare (a.1 0) := by
  unfold Pipeline.prefHeld; rw [bigSep_W1]
  exact (owns_whole (c : Thread nD τ) main_v12 fullShare (a.1 0)).symm
/-- The two unscoped buffers the region takes out of the rest: the table of row numbers and the stacked tables. -/
def HT1 : Finset (Ref sig .tc) := {main_v12, main_arg2}
theorem HT1_sub : HT1 ⊆ Pipeline.restRefs sig spec1 := by decide
/-- The unscoped rest, those two apart. -/
theorem rest1_split (c : Dev nD) (W : (b : Ref sig .tc) → Buf (Elt F) ((c : Thread nD τ).loc b)) :
    (Pipeline.unscopedRest (Ix := Unit) (Name := ℕ) (U := Pipeline.UD sig nD τ) (Lvl := ℕ) spec1 c W : sProp 𝕄)
      = iprop((owns (c : Thread nD τ) (Memref.whole main_v12) fullShare (W main_v12) ∗ owns (c : Thread nD τ) (Memref.whole main_arg2) fullShare (W main_arg2))
          ∗ bigSep (Pipeline.restRefs sig spec1 \ HT1) fun b => ((c : Thread nD τ).loc b) ↦{fullShare} W b) := by
  rw [Pipeline.unscopedRest_sdiff spec1 HT1 HT1_sub c W, BI.bigSep_eq_bigSepL_of_eq [main_v12, main_arg2] (by decide) (by decide), owns_whole, owns_whole]; rfl
theorem Phi_eq1 (c : Dev nD) (t) : (dat1 V a c).Φ t = Phi1 V a c := rfl
theorem owed_eq1 (c : Dev nD) (t) : (dat1 V a c).owed t = 0 := rfl

/-- The table's admissible contents: the table of row numbers as the region finds it on the one core (the side condition
    is trivial: no index map reads the table). -/
def adm1 (E : Dev nD → Valuation τ sig (Elt F)) : (pcfg1 (F := F)).Adm :=
  ⟨fun | 0 => E (0 : Dev nD) main_v12 | ⟨_ + 1, h⟩ => absurd h (Nat.not_lt.2 (Nat.le_add_left _ _)), trivial⟩

/-- The table the pipeline is pinned at is the one the region finds, on every core (there is one). -/
theorem adm1_pf (E : Dev nD → Valuation τ sig (Elt F)) (c : Dev nD) : (adm1 E).1 0 = atRefs E c main_v12 := by
  have hc : c = 0 := Subsingleton.elim _ _
  subst hc; rfl

end Region1

end Cert.KernelIdeal.Fr

end
-- ==== Proof.G2Defs.lean ====
/-
  The block one grid point of the third gather call leaves in its output window, as a function of the
  table of row numbers and the stacked tables of rows.
-/
import proofs.«407213_j20864951124667_1_alg».proof.KernelIdeal
import Idealize.ShloMosaic.Lib.ValueIdx

namespace Cert.KernelIdeal.Gather2

open Idealize.ShloMosaic

variable {F : FTy → Type} [FloatOps F]

/-- The row number the table holds for grid point `i` and sub-table `f`, reduced into the range of rows
    (the reduction changes nothing where the word is a row number: `rowOf_val`). -/
def rowOf (tbl : Vec F S4096x26 .i32) (i : grid2.Coords) (f : Fin 26) : Fin 131073 :=
  ⟨(tbl (ValueIdx.ix2 (⟨(i 0).val, (i 0).isLt⟩ : Fin 4096) f)).toNat % 131073, Nat.mod_lt _ (by decide)⟩

/-- Where the table's word is a row number, `rowOf` is that number. -/
theorem rowOf_val (tbl : Vec F S4096x26 .i32) (i : grid2.Coords) (f : Fin 26)
    (h : (tbl (ValueIdx.ix2 (⟨(i 0).val, (i 0).isLt⟩ : Fin 4096) f)).toNat < 131073) :
    (rowOf tbl i f).val = (tbl (ValueIdx.ix2 (⟨(i 0).val, (i 0).isLt⟩ : Fin 4096) f)).toNat :=
  Nat.mod_eq_of_lt h

/-- The gathered block at grid point `i`: its row `f` is row `tbl[i, f]` of sub-table `f`. -/
def gatherBlk (tbl : Vec F S4096x26 .i32) (emb : Vec F S26x131073x64 .f32) (i : grid2.Coords) :
    Vec F S1x26x64 .f32 :=
  fun y => emb (ValueIdx.ix3 (y 1 : Fin 26) (rowOf tbl i (y 1)) (y 2 : Fin 64))

/-- The call's own transfer semaphores, cell by cell: cell `k` of its scratch array of 26 is cell `58 + k` of
    the pool. -/
abbrev osem : Fin 26 → SemLoc sig := fun k =>
  (![SemLoc.dma 58, SemLoc.dma 59, SemLoc.dma 60, SemLoc.dma 61, SemLoc.dma 62, SemLoc.dma 63, SemLoc.dma 64, SemLoc.dma 65, SemLoc.dma 66, SemLoc.dma 67, SemLoc.dma 68, SemLoc.dma 69, SemLoc.dma 70, SemLoc.dma 71, SemLoc.dma 72, SemLoc.dma 73, SemLoc.dma 74, SemLoc.dma 75, SemLoc.dma 76, SemLoc.dma 77, SemLoc.dma 78, SemLoc.dma 79, SemLoc.dma 80, SemLoc.dma 81, SemLoc.dma 82, SemLoc.dma 83] : Fin 26 → SemLoc sig) k

end Cert.KernelIdeal.Gather2
-- ==== Proof.Fr.Dat2.lean ====
/- Region 2's proof data: what the gather body leaves in its output block, the region's invariant, the table's contents. -/
import proofs.«407213_j20864951124667_1_alg».proof.Proof.Fr.Base
import proofs.«407213_j20864951124667_1_alg».proof.Proof.G2Defs
import proofs.«407213_j20864951124667_1_alg».proof.Proof.Gen.KernelIdeal.Launch
import Idealize.ShloMosaic.Lib.Pipeline.Frame
import Idealize.ShloMosaic.Lib.Pipeline.Kit

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 2 (a gather call): its proof data, at entry contents `V` and admissible table contents `a` -/

section Region2

variable (V : (c : Dev nD) → (b : Ref sig .tc) → Buf (Elt F) ((c : Thread nD τ).loc b)) (a : (pcfg2 (F := F)).Adm)

/-- The operand the body reads by its own transfers: the stacked tables of rows, left in HBM. -/
def H2 : Finset (Ref sig .tc) := {main_arg2}
theorem H2_sub : H2 ⊆ Pipeline.restRefs sig spec2 := by decide

/-- The table of row numbers as the region finds it. -/
abbrev tbl2 (c : Dev nD) : Vec F S4096x26 .i32 := V c main_v14
/-- The stacked tables of rows as the region finds them. -/
abbrev emb2 (c : Dev nD) : Vec F S26x131073x64 .f32 := V c main_arg2

/-- The region's invariant: the scoped rest, the generator register, the body's 26 cells at zero, the stacked tables whole
    at their entry contents, and the table of row numbers whole at the contents the pipeline is pinned at. -/
def Phi2 (c : Dev nD) : sProp 𝕄 :=
  iprop(Pipeline.ΦD Gather2.osem spec2 H2 V c
    ∗ Pipeline.prefHeld (Ix := Unit) (Name := ℕ) (U := Pipeline.UD sig nD τ) (Lvl := ℕ) pre2 c (fun _ => fullShare) a.1)

/-- The proof data of the region's pipeline on core `c`: the output array as the region finds it; after the body at point `t` the
    output block holds the gathered rows; the invariant `Phi2` at every point; nothing owed; full shares. -/
def dat2 (c : Dev nD) : Dat τ (Elt F) Unit ℕ (Pipeline.UD sig nD τ) ℕ (cfg2 a) c where
  A w := V c (Pipeline.arrRef spec2 w)
  after w t := match w with
    | ⟨0, _⟩ => Gather2.gatherBlk (tbl2 V c) (emb2 V c) (grid2.coords t)
  Φ _ := Phi2 V a c
  q _ := fullShare
  owed _ := 0

theorem A_eq2 (c : Dev nD) (w : Fin (cfg2 a).W) : (dat2 V a c).A w = V c (Pipeline.arrRef spec2 w) := by
  dsimp only [dat2]
theorem after2_0 (c : Dev nD) (t : Fin (cfg2 a).N) :
    (dat2 V a c).after 0 t = Gather2.gatherBlk (tbl2 V c) (emb2 V c) (grid2.coords t) := by dsimp only [dat2]; rfl
/-- The stacked tables' points-to, as the body takes it. -/
theorem hbm2_eq (c : Dev nD) :
    (bigSep H2 (fun b => ((c : Thread nD τ).loc b) ↦{fullShare} V c b) : sProp 𝕄)
      = owns (c : Thread nD τ) (Memref.whole main_arg2) fullShare (emb2 V c) := by
  rw [BI.bigSep_eq_bigSepL_of_eq [main_arg2] (by decide) (by decide), owns_whole]; rfl
/-- The table of row numbers held whole, as the body takes it. -/
theorem pref2_eq (c : Dev nD) :
    (Pipeline.prefHeld (Ix := Unit) (Name := ℕ) (U := Pipeline.UD sig nD τ) (Lvl := ℕ) pre2 c (fun _ => fullShare) a.1 : sProp 𝕄)
      = owns (c : Thread nD τ) (Memref.whole main_v14) fullShare (a.1 0) := by
  unfold Pipeline.prefHeld; rw [bigSep_W2]
  exact (owns_whole (c : Thread nD τ) main_v14 fullShare (a.1 0)).symm
/-- The two unscoped buffers the region takes out of the rest: the table of row numbers and the stacked tables. -/
def HT2 : Finset (Ref sig .tc) := {main_v14, main_arg2}
theorem HT2_sub : HT2 ⊆ Pipeline.restRefs sig spec2 := by decide
/-- The unscoped rest, those two apart. -/
theorem rest2_split (c : Dev nD) (W : (b : Ref sig .tc) → Buf (Elt F) ((c : Thread nD τ).loc b)) :
    (Pipeline.unscopedRest (Ix := Unit) (Name := ℕ) (U := Pipeline.UD sig nD τ) (Lvl := ℕ) spec2 c W : sProp 𝕄)
      = iprop((owns (c : Thread nD τ) (Memref.whole main_v14) fullShare (W main_v14) ∗ owns (c : Thread nD τ) (Memref.whole main_arg2) fullShare (W main_arg2))
          ∗ bigSep (Pipeline.restRefs sig spec2 \ HT2) fun b => ((c : Thread nD τ).loc b) ↦{fullShare} W b) := by
  rw [Pipeline.unscopedRest_sdiff spec2 HT2 HT2_sub c W, BI.bigSep_eq_bigSepL_of_eq [main_v14, main_arg2] (by decide) (by decide), owns_whole, owns_whole]; rfl
theorem Phi_eq2 (c : Dev nD) (t) : (dat2 V a c).Φ t = Phi2 V a c := rfl
theorem owed_eq2 (c : Dev nD) (t) : (dat2 V a c).owed t = 0 := rfl

/-- The table's admissible contents: the table of row numbers as the region finds it on the one core (the side condition
    is trivial: no index map reads the table). -/
def adm2 (E : Dev nD → Valuation τ sig (Elt F)) : (pcfg2 (F := F)).Adm :=
  ⟨fun | 0 => E (0 : Dev nD) main_v14 | ⟨_ + 1, h⟩ => absurd h (Nat.not_lt.2 (Nat.le_add_left _ _)), trivial⟩

/-- The table the pipeline is pinned at is the one the region finds, on every core (there is one). -/
theorem adm2_pf (E : Dev nD → Valuation τ sig (Elt F)) (c : Dev nD) : (adm2 E).1 0 = atRefs E c main_v14 := by
  have hc : c = 0 := Subsingleton.elim _ _
  subst hc; rfl

end Region2

end Cert.KernelIdeal.Fr

end
-- ==== Proof.G3Defs.lean ====
/-
  The block one grid point of the fourth gather call leaves in its output window, as a function of the
  table of row numbers and the stacked tables of rows.
-/
import proofs.«407213_j20864951124667_1_alg».proof.KernelIdeal
import Idealize.ShloMosaic.Lib.ValueIdx

namespace Cert.KernelIdeal.Gather3

open Idealize.ShloMosaic

variable {F : FTy → Type} [FloatOps F]

/-- The row number the table holds for grid point `i` and sub-table `f`, reduced into the range of rows
    (the reduction changes nothing where the word is a row number: `rowOf_val`). -/
def rowOf (tbl : Vec F S4096x26 .i32) (i : grid3.Coords) (f : Fin 26) : Fin 131073 :=
  ⟨(tbl (ValueIdx.ix2 (⟨(i 0).val, (i 0).isLt⟩ : Fin 4096) f)).toNat % 131073, Nat.mod_lt _ (by decide)⟩

/-- Where the table's word is a row number, `rowOf` is that number. -/
theorem rowOf_val (tbl : Vec F S4096x26 .i32) (i : grid3.Coords) (f : Fin 26)
    (h : (tbl (ValueIdx.ix2 (⟨(i 0).val, (i 0).isLt⟩ : Fin 4096) f)).toNat < 131073) :
    (rowOf tbl i f).val = (tbl (ValueIdx.ix2 (⟨(i 0).val, (i 0).isLt⟩ : Fin 4096) f)).toNat :=
  Nat.mod_eq_of_lt h

/-- The gathered block at grid point `i`: its row `f` is row `tbl[i, f]` of sub-table `f`. -/
def gatherBlk (tbl : Vec F S4096x26 .i32) (emb : Vec F S26x131073x64 .f32) (i : grid3.Coords) :
    Vec F S1x26x64 .f32 :=
  fun y => emb (ValueIdx.ix3 (y 1 : Fin 26) (rowOf tbl i (y 1)) (y 2 : Fin 64))

/-- The call's own transfer semaphores, cell by cell: cell `k` of its scratch array of 26 is cell `86 + k` of
    the pool. -/
abbrev osem : Fin 26 → SemLoc sig := fun k =>
  (![SemLoc.dma 86, SemLoc.dma 87, SemLoc.dma 88, SemLoc.dma 89, SemLoc.dma 90, SemLoc.dma 91, SemLoc.dma 92, SemLoc.dma 93, SemLoc.dma 94, SemLoc.dma 95, SemLoc.dma 96, SemLoc.dma 97, SemLoc.dma 98, SemLoc.dma 99, SemLoc.dma 100, SemLoc.dma 101, SemLoc.dma 102, SemLoc.dma 103, SemLoc.dma 104, SemLoc.dma 105, SemLoc.dma 106, SemLoc.dma 107, SemLoc.dma 108, SemLoc.dma 109, SemLoc.dma 110, SemLoc.dma 111] : Fin 26 → SemLoc sig) k

end Cert.KernelIdeal.Gather3
-- ==== Proof.Fr.Dat3.lean ====
/- Region 3's proof data: what the gather body leaves in its output block, the region's invariant, the table's contents. -/
import proofs.«407213_j20864951124667_1_alg».proof.Proof.Fr.Base
import proofs.«407213_j20864951124667_1_alg».proof.Proof.G3Defs
import proofs.«407213_j20864951124667_1_alg».proof.Proof.Gen.KernelIdeal.Launch
import Idealize.ShloMosaic.Lib.Pipeline.Frame
import Idealize.ShloMosaic.Lib.Pipeline.Kit

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 3 (a gather call): its proof data, at entry contents `V` and admissible table contents `a` -/

section Region3

variable (V : (c : Dev nD) → (b : Ref sig .tc) → Buf (Elt F) ((c : Thread nD τ).loc b)) (a : (pcfg3 (F := F)).Adm)

/-- The operand the body reads by its own transfers: the stacked tables of rows, left in HBM. -/
def H3 : Finset (Ref sig .tc) := {main_arg2}
theorem H3_sub : H3 ⊆ Pipeline.restRefs sig spec3 := by decide

/-- The table of row numbers as the region finds it. -/
abbrev tbl3 (c : Dev nD) : Vec F S4096x26 .i32 := V c main_v16
/-- The stacked tables of rows as the region finds them. -/
abbrev emb3 (c : Dev nD) : Vec F S26x131073x64 .f32 := V c main_arg2

/-- The region's invariant: the scoped rest, the generator register, the body's 26 cells at zero, the stacked tables whole
    at their entry contents, and the table of row numbers whole at the contents the pipeline is pinned at. -/
def Phi3 (c : Dev nD) : sProp 𝕄 :=
  iprop(Pipeline.ΦD Gather3.osem spec3 H3 V c
    ∗ Pipeline.prefHeld (Ix := Unit) (Name := ℕ) (U := Pipeline.UD sig nD τ) (Lvl := ℕ) pre3 c (fun _ => fullShare) a.1)

/-- The proof data of the region's pipeline on core `c`: the output array as the region finds it; after the body at point `t` the
    output block holds the gathered rows; the invariant `Phi3` at every point; nothing owed; full shares. -/
def dat3 (c : Dev nD) : Dat τ (Elt F) Unit ℕ (Pipeline.UD sig nD τ) ℕ (cfg3 a) c where
  A w := V c (Pipeline.arrRef spec3 w)
  after w t := match w with
    | ⟨0, _⟩ => Gather3.gatherBlk (tbl3 V c) (emb3 V c) (grid3.coords t)
  Φ _ := Phi3 V a c
  q _ := fullShare
  owed _ := 0

theorem A_eq3 (c : Dev nD) (w : Fin (cfg3 a).W) : (dat3 V a c).A w = V c (Pipeline.arrRef spec3 w) := by
  dsimp only [dat3]
theorem after3_0 (c : Dev nD) (t : Fin (cfg3 a).N) :
    (dat3 V a c).after 0 t = Gather3.gatherBlk (tbl3 V c) (emb3 V c) (grid3.coords t) := by dsimp only [dat3]; rfl
/-- The stacked tables' points-to, as the body takes it. -/
theorem hbm3_eq (c : Dev nD) :
    (bigSep H3 (fun b => ((c : Thread nD τ).loc b) ↦{fullShare} V c b) : sProp 𝕄)
      = owns (c : Thread nD τ) (Memref.whole main_arg2) fullShare (emb3 V c) := by
  rw [BI.bigSep_eq_bigSepL_of_eq [main_arg2] (by decide) (by decide), owns_whole]; rfl
/-- The table of row numbers held whole, as the body takes it. -/
theorem pref3_eq (c : Dev nD) :
    (Pipeline.prefHeld (Ix := Unit) (Name := ℕ) (U := Pipeline.UD sig nD τ) (Lvl := ℕ) pre3 c (fun _ => fullShare) a.1 : sProp 𝕄)
      = owns (c : Thread nD τ) (Memref.whole main_v16) fullShare (a.1 0) := by
  unfold Pipeline.prefHeld; rw [bigSep_W3]
  exact (owns_whole (c : Thread nD τ) main_v16 fullShare (a.1 0)).symm
/-- The two unscoped buffers the region takes out of the rest: the table of row numbers and the stacked tables. -/
def HT3 : Finset (Ref sig .tc) := {main_v16, main_arg2}
theorem HT3_sub : HT3 ⊆ Pipeline.restRefs sig spec3 := by decide
/-- The unscoped rest, those two apart. -/
theorem rest3_split (c : Dev nD) (W : (b : Ref sig .tc) → Buf (Elt F) ((c : Thread nD τ).loc b)) :
    (Pipeline.unscopedRest (Ix := Unit) (Name := ℕ) (U := Pipeline.UD sig nD τ) (Lvl := ℕ) spec3 c W : sProp 𝕄)
      = iprop((owns (c : Thread nD τ) (Memref.whole main_v16) fullShare (W main_v16) ∗ owns (c : Thread nD τ) (Memref.whole main_arg2) fullShare (W main_arg2))
          ∗ bigSep (Pipeline.restRefs sig spec3 \ HT3) fun b => ((c : Thread nD τ).loc b) ↦{fullShare} W b) := by
  rw [Pipeline.unscopedRest_sdiff spec3 HT3 HT3_sub c W, BI.bigSep_eq_bigSepL_of_eq [main_v16, main_arg2] (by decide) (by decide), owns_whole, owns_whole]; rfl
theorem Phi_eq3 (c : Dev nD) (t) : (dat3 V a c).Φ t = Phi3 V a c := rfl
theorem owed_eq3 (c : Dev nD) (t) : (dat3 V a c).owed t = 0 := rfl

/-- The table's admissible contents: the table of row numbers as the region finds it on the one core (the side condition
    is trivial: no index map reads the table). -/
def adm3 (E : Dev nD → Valuation τ sig (Elt F)) : (pcfg3 (F := F)).Adm :=
  ⟨fun | 0 => E (0 : Dev nD) main_v16 | ⟨_ + 1, h⟩ => absurd h (Nat.not_lt.2 (Nat.le_add_left _ _)), trivial⟩

/-- The table the pipeline is pinned at is the one the region finds, on every core (there is one). -/
theorem adm3_pf (E : Dev nD → Valuation τ sig (Elt F)) (c : Dev nD) : (adm3 E).1 0 = atRefs E c main_v16 := by
  have hc : c = 0 := Subsingleton.elim _ _
  subst hc; rfl

end Region3

end Cert.KernelIdeal.Fr

end
-- ==== Proof.IDefs.lean ====
/- The value the interaction kernel's body stores into its output block, as one pure function of
   the two blocks it loads: the payload terms of the body's skeleton composed in the order the
   skeleton threads them (its first part returns the tuple of payloads 3, 4, 5, …, 27 of the two
   loaded blocks; payload 1 is formed of components 2 to 25 of that tuple; the stored value is
   payload 2 of component 1 and payload 1). Read off the payloads' operations: payload 3 is a shape
   cast of x0 (256x64); payload 4 concatenates x0 as row 0 above the 26 rows of x1 (256x27x64),
   truncates to bf16 and takes the batched product of that block with itself (256x27x27);
   payloads 5 to 27 and the slices inside payload 1 are its slices at offsets (0, i, i+1) of widths
   26-i (i < 26), whose widths sum to 351; payload 2 concatenates x0 and those 351 columns
   (256x415). -/
import proofs.«407213_j20864951124667_1_alg».proof.Proof.Gen.KernelIdeal.Skeleton

noncomputable section

namespace Cert.KernelIdeal.Inter

open Idealize.ShloMosaic Idealize.SL.Sem
open Cert.KernelIdeal Cert.KernelIdeal.Gen

variable {F : FTy → Type} [FloatOps F]

/-- Payload 4 of the two loaded blocks (the 256x27x27 block every slice is taken from), named. -/
def interGram (x0 : Vec F S256x64 .f32) (x1 : Vec F S256x26x64 .f32) : FVec F S256x27x27 .f32 :=
  k4_pay4 x0 x1

/-- Payload 1 (the 256x351 concatenation of the slices) at the payloads of the two loaded blocks. -/
def interTri (x0 : Vec F S256x64 .f32) (x1 : Vec F S256x26x64 .f32) : FVec F S256x351 .f32 :=
  k4_pay1 (k4_pay4 x0 x1) (k4_pay5 x0 x1) (k4_pay6 x0 x1) (k4_pay7 x0 x1) (k4_pay8 x0 x1)
    (k4_pay9 x0 x1) (k4_pay10 x0 x1) (k4_pay11 x0 x1) (k4_pay12 x0 x1) (k4_pay13 x0 x1)
    (k4_pay14 x0 x1) (k4_pay15 x0 x1) (k4_pay16 x0 x1) (k4_pay17 x0 x1) (k4_pay18 x0 x1)
    (k4_pay19 x0 x1) (k4_pay20 x0 x1) (k4_pay21 x0 x1) (k4_pay22 x0 x1) (k4_pay23 x0 x1)
    (k4_pay24 x0 x1) (k4_pay25 x0 x1) (k4_pay26 x0 x1) (k4_pay27 x0 x1)

/-- Payload 2 (the 256x415 concatenation) at payload 3 of x0 and the 351 columns above. -/
def interBlk (x0 : Vec F S256x64 .f32) (x1 : Vec F S256x26x64 .f32) : Vec F S256x415 .f32 :=
  k4_pay2 (k4_pay3 x0) (interTri x0 x1)

theorem interBlk_def (x0 : Vec F S256x64 .f32) (x1 : Vec F S256x26x64 .f32) :
    interBlk x0 x1 = k4_pay2 (k4_pay3 x0) (k4_pay1 (k4_pay4 x0 x1) (k4_pay5 x0 x1) (k4_pay6 x0 x1)
      (k4_pay7 x0 x1) (k4_pay8 x0 x1) (k4_pay9 x0 x1) (k4_pay10 x0 x1) (k4_pay11 x0 x1)
      (k4_pay12 x0 x1) (k4_pay13 x0 x1) (k4_pay14 x0 x1) (k4_pay15 x0 x1) (k4_pay16 x0 x1)
      (k4_pay17 x0 x1) (k4_pay18 x0 x1) (k4_pay19 x0 x1) (k4_pay20 x0 x1) (k4_pay21 x0 x1)
      (k4_pay22 x0 x1) (k4_pay23 x0 x1) (k4_pay24 x0 x1) (k4_pay25 x0 x1) (k4_pay26 x0 x1)
      (k4_pay27 x0 x1)) := rfl

end Cert.KernelIdeal.Inter

end
-- ==== Proof.Fr.Dat4.lean ====
/- Region 4's proof data: the inputs' blocks and what the interaction body leaves in its output block. -/
import proofs.«407213_j20864951124667_1_alg».proof.Proof.Fr.Base
import proofs.«407213_j20864951124667_1_alg».proof.Proof.IDefs
import proofs.«407213_j20864951124667_1_alg».proof.Proof.Gen.KernelIdeal.Points
import Idealize.ShloMosaic.Lib.Pipeline.Frame
import Idealize.ShloMosaic.Lib.Pipeline.FrameBody

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 4 (the interaction call): its proof data, at entry contents `V` -/

section Region4

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The proof data of pipeline 4 on core `c`: the arrays as the region finds them; after the body at point `t` each input's
    buffer at its block and the output's at the interaction block of the two; the class invariant (the scoped rest and the
    generator register); nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => Inter.interBlk (iblk4 V c 0 t) (iblk4 V c 1 t)
  Φ _ := Pipeline.ΦA (U := Pipeline.UD sig nD τ) spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = Inter.interBlk (iblk4 V c 0 t) (iblk4 V c 1 t) := by dsimp only [dat4]

/-- Each input's current staging buffer holds its block at every point (both are fetched at every point). -/
theorem before4_0 (c : Dev nD) (t : Fin cfg4.N) (d) : (dat4 V c).before 0 t d = iblk4 V c 0 t := by
  rw [(dat4 V c).before_fetched 0 t (fetch4_0 t) d]
  unfold Dat.fetched Dat.blockOf iblk4; rw [A_eq4]; try rfl
theorem before4_1 (c : Dev nD) (t : Fin cfg4.N) (d) : (dat4 V c).before 1 t d = iblk4 V c 1 t := by
  rw [(dat4 V c).before_fetched 1 t (fetch4_1 t) d]
  unfold Dat.fetched Dat.blockOf iblk4; rw [A_eq4]; try rfl

end Region4

end Cert.KernelIdeal.Fr

end
-- ==== Proof.Fr.Family.lean ====
/- The proof data family over the regions' entry contents, and the hypothesis tying the regions' results to it. -/
import proofs.«407213_j20864951124667_1_alg».proof.Proof.Fr.Dat0
import proofs.«407213_j20864951124667_1_alg».proof.Proof.Fr.Dat1
import proofs.«407213_j20864951124667_1_alg».proof.Proof.Fr.Dat2
import proofs.«407213_j20864951124667_1_alg».proof.Proof.Fr.Dat3
import proofs.«407213_j20864951124667_1_alg».proof.Proof.Fr.Dat4

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The tables' contents and the proof data family, over the five regions' entry contents -/

section Family

variable (E0 E1 E2 E3 E4 : Dev nD → Valuation τ sig (Elt F))

/-- The prefetched tables' admissible contents, pipeline by pipeline (the interaction call has no table). -/
def adm : (p : Fin 5) → (pcfgs (F := F) p).Adm
  | ⟨0, _⟩ => adm0 E0
  | ⟨1, _⟩ => adm1 E1
  | ⟨2, _⟩ => adm2 E2
  | ⟨3, _⟩ => adm3 E3
  | ⟨4, _⟩ => cfg4.toPCfg_adm

/-- Every pipeline's proof data, each at its region's entry contents: a literal `match` on the pipeline. -/
def pdats : (p : Fin 5) → (c : Dev nD) → Dat τ (Elt F) Unit ℕ (Pipeline.UD sig nD τ) ℕ (Pipeline.pin (pcfgs (F := F)) (adm E0 E1 E2 E3) p) c
  | ⟨0, _⟩ => fun c => dat0 (atRefs E0) (adm0 E0) c
  | ⟨1, _⟩ => fun c => dat1 (atRefs E1) (adm1 E1) c
  | ⟨2, _⟩ => fun c => dat2 (atRefs E2) (adm2 E2) c
  | ⟨3, _⟩ => fun c => dat3 (atRefs E3) (adm3 E3) c
  | ⟨4, _⟩ => fun c => dat4 (atRefs E4) c

end Family

section AtRun

variable (m : (ℓ : Loc nD τ sig) → Buf (Elt F) ℓ) (outs : Outs (F := F))

/-- The tables' contents and the proof data along the run from `m` over the regions' results `outs`. -/
abbrev admM : (p : Fin 5) → (pcfgs (F := F) p).Adm := adm (V5 m) (V7 m outs) (V9 m outs) (V11 m outs)
abbrev pdatsM : (p : Fin 5) → (c : Dev nD) → Dat τ (Elt F) Unit ℕ (Pipeline.UD sig nD τ) ℕ (Pipeline.pin (pcfgs (F := F)) (admM m outs) p) c :=
  pdats (V5 m) (V7 m outs) (V9 m outs) (V11 m outs) (V13 m outs)

/-- The regions' results are what their pipelines leave in their output arrays. -/
structure OutsOk : Prop where
  o0 : ∀ c : Dev nD, outs 6 main_v11 c = (dat0 (atRefs (V5 m)) (adm0 (V5 m)) c).arrAt 0 (cfg0 (adm0 (V5 m))).N
  o1 : ∀ c : Dev nD, outs 8 main_v13 c = (dat1 (atRefs (V7 m outs)) (adm1 (V7 m outs)) c).arrAt 0 (cfg1 (adm1 (V7 m outs))).N
  o2 : ∀ c : Dev nD, outs 10 main_v15 c = (dat2 (atRefs (V9 m outs)) (adm2 (V9 m outs)) c).arrAt 0 (cfg2 (adm2 (V9 m outs))).N
  o3 : ∀ c : Dev nD, outs 12 main_v17 c = (dat3 (atRefs (V11 m outs)) (adm3 (V11 m outs)) c).arrAt 0 (cfg3 (adm3 (V11 m outs))).N
  o4 : ∀ c : Dev nD, outs 14 main_v19 c = (dat4 (atRefs (V13 m outs)) c).arrAt 2 cfg4.N

end AtRun

end Cert.KernelIdeal.Fr

end
-- ==== Proof.InterBlocks.lean ====
/- Blocks of rows against the whole arrays. The interaction of the whole batch (16384 rows), read
   at row 256 t + r, is the interaction of the block of 256 rows numbered t, read at row r: every
   entry of the interaction depends on its own batch row only. Conversely an array that agrees,
   block by block, with the block interactions is the whole interaction, because every row b is
   256 (b / 256) + b % 256. The same two facts for one chunk of 4096 rows of the lookup against
   its single-row blocks: row t of the chunk is the block the point t gathers. -/
import proofs.«407213_j20864951124667_1_alg».proof.Proof.Spec
import proofs.«407213_j20864951124667_1_alg».proof.Proof.G0Defs

noncomputable section

namespace Cert.InterBlocks

open Idealize.ShloMosaic Idealize.ShloMosaic.ValueIdx
open Cert.KernelIdeal (S16384x64 S16384x26x64 S16384x415 S26x131073x64 S4096x26 S4096x26x64 S256x64 S256x26x64 S256x415 S1x26x64 grid0)

/-- Row r of block t is a row of the batch. -/
theorem row_lt (t : Fin 64) (r : Fin 256) : 256 * t.val + r.val < 16384 := by
  have := t.isLt; have := r.isLt; omega

/-- Block t of the dense tokens: rows 256 t to 256 t + 255. -/
def blkD {F : FTy → Type} (dense : FVec F S16384x64 .f32) (t : Fin 64) : Vec F S256x64 .f32 :=
  fun z => dense (ix2 (n0 := 16384) (n1 := 64) ⟨256 * t.val + (z 0).val, row_lt t (z 0)⟩ (z 1))

/-- Block t of the looked-up tokens: rows 256 t to 256 t + 255. -/
def blkE {F : FTy → Type} (emb : FVec F S16384x26x64 .f32) (t : Fin 64) : Vec F S256x26x64 .f32 :=
  fun z => emb (ix3 (n0 := 16384) (n1 := 26) (n2 := 64) ⟨256 * t.val + (z 0).val, row_lt t (z 0)⟩ (z 1) (z 2))

/-- A token of batch row 256 t + r is the token of row r of block t. -/
theorem tokAt_block (dense : FVec Ideal S16384x64 .f32) (emb : FVec Ideal S16384x26x64 .f32) (t : Fin 64)
    (r : Fin 256) (p : Fin 27) (d : Fin 64) :
    Cert.Spec.tokAt dense emb ⟨256 * t.val + r.val, row_lt t r⟩ p d
      = Cert.Spec.tokBlk (blkD dense t) (blkE emb t) r p d := by
  unfold Cert.Spec.tokAt Cert.Spec.tokBlk
  by_cases hp : p.val = 0
  · rw [dif_pos hp, dif_pos hp]; rfl
  · rw [dif_neg hp, dif_neg hp]; rfl

/-- The whole interaction at row 256 t + r is the block interaction of block t at row r. -/
theorem interSpec_block (dense : FVec Ideal S16384x64 .f32) (emb : FVec Ideal S16384x26x64 .f32) (t : Fin 64)
    (y : S256x415.Idx) :
    Cert.Spec.interSpec dense emb (ix2 (n0 := 16384) (n1 := 415) ⟨256 * t.val + (y 0).val, row_lt t (y 0)⟩ (y 1))
      = Cert.Spec.interBlkSpec (blkD dense t) (blkE emb t) y := by
  by_cases h : (y 1).val < 64
  · refine (dif_pos h).trans (Eq.trans ?_ (dif_pos h).symm)
    rfl
  · refine (dif_neg h).trans (Eq.trans ?_ (dif_neg h).symm)
    refine Finset.sum_congr rfl fun d _ => ?_
    exact congrArg₂ (· * ·) (tokAt_block dense emb t (y 0) _ d) (tokAt_block dense emb t (y 0) _ d)

/-- Every batch row is row b % 256 of block b / 256. -/
theorem ix2_div_mod (j : S16384x415.Idx) :
    ix2 (n0 := 16384) (n1 := 415)
        ⟨256 * (⟨(j 0).val / 256, by have := idx2_lt0 (n0 := 16384) (n1 := 415) j; omega⟩ : Fin 64).val
          + (⟨(j 0).val % 256, Nat.mod_lt _ (by decide)⟩ : Fin 256).val,
          row_lt ⟨(j 0).val / 256, by have := idx2_lt0 (n0 := 16384) (n1 := 415) j; omega⟩ ⟨(j 0).val % 256, Nat.mod_lt _ (by decide)⟩⟩
        (j 1) = j := by
  funext a
  match a with
  | ⟨0, _⟩ => exact Fin.ext (Nat.div_add_mod _ _)
  | ⟨1, _⟩ => rfl

/-- An array that is, block by block, the block interaction is the whole interaction. -/
theorem interSpec_of_blocks (dense : FVec Ideal S16384x64 .f32) (emb : FVec Ideal S16384x26x64 .f32)
    (G : FVec Ideal S16384x415 .f32)
    (h : ∀ (t : Fin 64) (y : S256x415.Idx),
      G (ix2 (n0 := 16384) (n1 := 415) ⟨256 * t.val + (y 0).val, row_lt t (y 0)⟩ (y 1))
        = Cert.Spec.interBlkSpec (blkD dense t) (blkE emb t) y) :
    G = Cert.Spec.interSpec dense emb := by
  funext j
  have hb := idx2_lt0 (n0 := 16384) (n1 := 415) j
  have e := (h ⟨(j 0).val / 256, by omega⟩
      (ix2 (n0 := 256) (n1 := 415) ⟨(j 0).val % 256, Nat.mod_lt _ (by decide)⟩ (j 1))).trans
    (interSpec_block dense emb ⟨(j 0).val / 256, by omega⟩
      (ix2 (n0 := 256) (n1 := 415) ⟨(j 0).val % 256, Nat.mod_lt _ (by decide)⟩ (j 1))).symm
  have ej := ix2_div_mod j
  rw [← ej]
  exact e

section Lookup

variable {F : FTy → Type} [FloatOps F]

/-- Row t of a chunk of the lookup is the block the grid point with coordinate t gathers. -/
theorem embChunk_point (tbl : Vec F S4096x26 .i32) (emb : Vec F S26x131073x64 .f32) (t : Fin 4096)
    (i : grid0.Coords) (hi : (i 0).val = t.val) (y : S1x26x64.Idx) :
    Cert.Spec.embChunk tbl emb (ix3 (n0 := 4096) (n1 := 26) (n2 := 64) t (y 1) (y 2))
      = Cert.KernelIdeal.Gather0.gatherBlk tbl emb i y := by
  have ht : t = ⟨(i 0).val, (i 0).isLt⟩ := Fin.ext hi.symm
  subst ht
  rfl

/-- An array that is, row by row, the block its grid point gathers is the chunk of the lookup. -/
theorem embChunk_of_points (tbl : Vec F S4096x26 .i32) (emb : Vec F S26x131073x64 .f32)
    (G : FVec F S4096x26x64 .f32)
    (h : ∀ (t : Fin 4096) (i : grid0.Coords), (i 0).val = t.val → ∀ y : S1x26x64.Idx,
      G (ix3 (n0 := 4096) (n1 := 26) (n2 := 64) t (y 1) (y 2)) = Cert.KernelIdeal.Gather0.gatherBlk tbl emb i y) :
    G = Cert.Spec.embChunk tbl emb := by
  funext j
  have e := (h (j 0) (ix1 (n := 4096) (j 0)) rfl
      (ix3 (n0 := 1) (n1 := 26) (n2 := 64) ⟨0, by decide⟩ (j 1) (j 2))).trans
    (embChunk_point tbl emb (j 0) (ix1 (n := 4096) (j 0)) rfl
      (ix3 (n0 := 1) (n1 := 26) (n2 := 64) ⟨0, by decide⟩ (j 1) (j 2))).symm
  rw [eq_ix3 j]
  exact e

end Lookup

end Cert.InterBlocks

end
-- ==== Proof.InterArr.lean ====
/- From the blocks to the array, for the interaction call. Its grid has 64 points; at point t each
   of its three windows is on block t of the row axis (256 rows) and block 0 of every other axis.
   So the two input windows' blocks, read off any arrays, are rows 256 t to 256 t + 255 of those
   arrays, and the result window's block at point t is those rows of the result array. If the
   body leaves in the result window the block interaction of the two input blocks, each point
   writes back its block of the whole interaction (the whole interaction at row 256 t + r is the
   block interaction of block t at row r); every index of the result array lies in the block of
   the point numbered by its row divided by 256; hence the array ends as the whole interaction. -/
import proofs.«407213_j20864951124667_1_alg».proof.Proof.IDefs
import proofs.«407213_j20864951124667_1_alg».proof.Proof.InterBlocks
import proofs.«407213_j20864951124667_1_alg».proof.Proof.Spec
import proofs.«407213_j20864951124667_1_alg».proof.Proof.Gen.KernelIdeal.Launch
import proofs.«407213_j20864951124667_1_alg».proof.Proof.Gen.KernelIdeal.Points
import Idealize.ShloMosaic.Lib.Pipeline.Value
import Idealize.ShloMosaic.Lib.Pipeline.Frame

set_option maxRecDepth 16384

noncomputable section

namespace Cert.KernelIdeal.InterArr

open Idealize.ShloMosaic Idealize.ShloMosaic.TcCoe Idealize.ShloMosaic.ValueIdx
open Idealize.SL Idealize.SL.Sem
open Cert.KernelIdeal Cert.KernelIdeal.Gen Cert.InterBlocks

variable {F : FTy → Type} [FloatOps F]

/-- The interaction call's grid has 64 points. -/
theorem lt64 (t : Fin cfg4.N) : t.val < 64 := lt_of_lt_of_eq t.isLt N_4

/-- A point of the grid as a block number. -/
def pt64 (t : Fin cfg4.N) : Fin 64 := ⟨t.val, lt64 t⟩

/-- The three windows' block indices at point t: block t on the row axis, block 0 on every other axis. -/
theorem idx_facts : ∀ t : Fin cfg4.N,
    win4_0.index t (0 : Fin 2) = t.val ∧ win4_0.index t (1 : Fin 2) = 0
    ∧ win4_1.index t (0 : Fin 3) = t.val ∧ win4_1.index t (1 : Fin 3) = 0 ∧ win4_1.index t (2 : Fin 3) = 0
    ∧ win4_2.index t (0 : Fin 2) = t.val ∧ win4_2.index t (1 : Fin 2) = 0 :=
  (by decide +kernel : ∀ t : Fin grid4.N, _)

/-- Window 0's block at point t, read off the dense-token array, is block t of that array. -/
theorem rdD (dense0 : FVec F S16384x64 .f32) (t : Fin cfg4.N) :
    ((cfg4.win 0).blk t).view.read (Elt F) dense0 = blkD dense0 (pt64 t) := by
  obtain ⟨e0, e1, -, -, -, -, -⟩ := idx_facts t
  funext y
  show dense0 (((cfg4.win 0).blk t).view.emb y) = dense0 _
  congr 1
  funext a
  apply Fin.ext
  match a with
  | ⟨0, _⟩ =>
    show win4_0.index t (0 : Fin 2) * 256 + 1 * (y 0).val = 256 * t.val + (y 0).val
    omega
  | ⟨1, _⟩ =>
    show win4_0.index t (1 : Fin 2) * 64 + 1 * (y 1).val = (y 1).val
    omega

/-- Window 1's block at point t, read off the looked-up-token array, is block t of that array. -/
theorem rdE (emb0 : FVec F S16384x26x64 .f32) (t : Fin cfg4.N) :
    ((cfg4.win 1).blk t).view.read (Elt F) emb0 = blkE emb0 (pt64 t) := by
  obtain ⟨-, -, e0, e1, e2, -, -⟩ := idx_facts t
  funext y
  show emb0 (((cfg4.win 1).blk t).view.emb y) = emb0 _
  congr 1
  funext a
  apply Fin.ext
  match a with
  | ⟨0, _⟩ =>
    show win4_1.index t (0 : Fin 3) * 256 + 1 * (y 0).val = 256 * t.val + (y 0).val
    omega
  | ⟨1, _⟩ =>
    show win4_1.index t (1 : Fin 3) * 26 + 1 * (y 1).val = (y 1).val
    omega
  | ⟨2, _⟩ =>
    show win4_1.index t (2 : Fin 3) * 64 + 1 * (y 2).val = (y 2).val
    omega

/-- An index of the result array is in point t's block iff each coordinate is in the block's range. -/
theorem mem_blk (t : Fin cfg4.N) (i : S16384x415.Idx) :
    i ∈ ((cfg4.win 2).blk t).view.set ↔ ∀ a : Fin 2, win4_2.index t a * S256x415.size a ≤ (i a).val
      ∧ (i a).val < win4_2.index t a * S256x415.size a + S256x415.size a := by
  show i ∈ ((View.whole main_v19).slice (win4_2.rect t)).set ↔ _
  rw [View.set_slice_whole, Rect.mem_set_unit]
  exact Iff.rfl

/-- Every index of the result array is in the block of the point numbered by its row divided by 256. -/
theorem cover (i : S16384x415.Idx) :
    ∃ t : Fin cfg4.N, (cfg4.win 2).flush t = true ∧ i ∈ ((cfg4.win 2).blk t).view.set := by
  have hi0 : (i 0).val < 16384 := idx2_lt0 (n0 := 16384) (n1 := 415) i
  have hi1 : (i 1).val < 415 := idx2_lt1 (n0 := 16384) (n1 := 415) i
  have hN : (i 0).val / 256 < cfg4.N := lt_of_lt_of_eq (by omega : (i 0).val / 256 < 64) N_4.symm
  refine ⟨⟨(i 0).val / 256, hN⟩, flush4_2 _, ?_⟩
  obtain ⟨-, -, -, -, -, e0, e1⟩ := idx_facts ⟨(i 0).val / 256, hN⟩
  rw [mem_blk]
  intro a
  match a with
  | ⟨0, _⟩ =>
    show win4_2.index ⟨(i 0).val / 256, hN⟩ (0 : Fin 2) * 256 ≤ (i 0).val
      ∧ (i 0).val < win4_2.index ⟨(i 0).val / 256, hN⟩ (0 : Fin 2) * 256 + 256
    rw [e0]
    show (i 0).val / 256 * 256 ≤ (i 0).val ∧ (i 0).val < (i 0).val / 256 * 256 + 256
    omega
  | ⟨1, _⟩ =>
    show win4_2.index ⟨(i 0).val / 256, hN⟩ (1 : Fin 2) * 415 ≤ (i 1).val
      ∧ (i 1).val < win4_2.index ⟨(i 0).val / 256, hN⟩ (1 : Fin 2) * 415 + 415
    rw [e1]
    omega

section Ideal

local notation "𝔻" => Pipeline.Dat τ (Elt Ideal) Unit ℕ (Pipeline.UD sig nD τ) ℕ cfg4

/-- What point t writes back is block t of the whole interaction, when the body leaves the block
    interaction of the two input blocks. -/
theorem flushed_inter (c : Dev nD) (dat : 𝔻 c) (dense : FVec Ideal S16384x64 .f32) (emb : FVec Ideal S16384x26x64 .f32)
    (hK : ∀ (x0 : Vec Ideal S256x64 .f32) (x1 : Vec Ideal S256x26x64 .f32),
      Inter.interBlk (F := Ideal) x0 x1 = Cert.Spec.interBlkSpec x0 x1)
    (hafter : ∀ t : Fin cfg4.N, dat.after 2 t = Inter.interBlk (blkD dense (pt64 t)) (blkE emb (pt64 t)))
    (t : Fin cfg4.N) :
    dat.flushed 2 t = ((cfg4.win 2).blk t).view.read (Elt Ideal) (Cert.Spec.interSpec dense emb) := by
  show (cfg4.win 2).cut (grid4.coords t) (dat.after 2 t) = _
  rw [hafter t, hK]
  obtain ⟨-, -, -, -, -, e0, e1⟩ := idx_facts t
  funext y
  show Cert.Spec.interBlkSpec (blkD dense (pt64 t)) (blkE emb (pt64 t)) y
    = Cert.Spec.interSpec dense emb (((cfg4.win 2).blk t).view.emb y)
  rw [← interSpec_block dense emb (pt64 t) y]
  congr 1
  funext a
  apply Fin.ext
  match a with
  | ⟨0, _⟩ =>
    show 256 * t.val + (y 0).val = win4_2.index t (0 : Fin 2) * 256 + 1 * (y 0).val
    omega
  | ⟨1, _⟩ =>
    show (y 1).val = win4_2.index t (1 : Fin 2) * 415 + 1 * (y 1).val
    omega

/-- The result array after the region is the whole interaction of the two input arrays. -/
theorem arrAt_inter (c : Dev nD) (dat : 𝔻 c) (dense : FVec Ideal S16384x64 .f32) (emb : FVec Ideal S16384x26x64 .f32)
    (hK : ∀ (x0 : Vec Ideal S256x64 .f32) (x1 : Vec Ideal S256x26x64 .f32),
      Inter.interBlk (F := Ideal) x0 x1 = Cert.Spec.interBlkSpec x0 x1)
    (hafter : ∀ t : Fin cfg4.N, dat.after 2 t = Inter.interBlk (blkD dense (pt64 t)) (blkE emb (pt64 t))) :
    dat.arrAt 2 cfg4.N = Cert.Spec.interSpec dense emb :=
  dat.arrAt_eq_of_cover 2 (Cert.Spec.interSpec dense emb) (fun t _ => flushed_inter c dat dense emb hK hafter t) cover

end Ideal

end Cert.KernelIdeal.InterArr

end
-- ==== Proof.InterK.lean ====
/- The interaction kernel's stored block, index by index, at the ideal values.

   The stored block is the concatenation, along the columns, of the dense token (64 columns) and 351 further columns.
   Those 351 are themselves a concatenation of 26 pieces: piece p (0 ≤ p < 26) is the slice of row p of the 27 x 27
   block of pairwise dot products at columns p + 1 … 26, so it has 26 - p columns and starts at column
   triOff p = 26 + 25 + … + (27 - p) = p (53 - p) / 2. Column k of the 351 is therefore entry (p, q) of the 27 x 27
   block, (p, q) the k-th pair of the strict upper triangle in row-major order: k = triOff p + (q - p - 1).
   The 27 x 27 block is the batched product of the 27 x 64 block of tokens with itself, contracted over the 64
   features: entry (p, q) of row r is Σ_d tok[r, p, d] · tok[r, q, d]; the narrowing to 16 bits before the product is
   the identity at the ideal values. Token 0 is the dense token, token 1 + f the looked-up token of table f. -/
import proofs.«407213_j20864951124667_1_alg».proof.Proof.IDefs
import proofs.«407213_j20864951124667_1_alg».proof.Proof.Spec
import Idealize.ShloMosaic.Lib.Pipeline.Value
import Idealize.ShloMosaic.Lib.ValueIdx
import Idealize.ShloMosaic.PureOps.Ideal.Laws

noncomputable section

namespace Cert.InterK

open Idealize.ShloMosaic Idealize.ShloMosaic.ValueIdx
open Cert.KernelIdeal Cert.KernelIdeal.Gen Cert.KernelIdeal.Inter Cert.Spec

/-! ## The tokens and the 27 x 27 block of dot products -/

/-- The block the batched product is taken of, at an index: row 0 of the 27 is the dense token, row 1 + f the
    looked-up token of table f. -/
theorem tokCat_apply (x0 : Vec Ideal S256x64 .f32) (x1 : Vec Ideal S256x26x64 .f32)
    (h4 : S256x64.ShapeCasts S256x1x64) (h3 : S256x26x64.ShapeCasts S256x26x64)
    (hc : Shape.Concatenates [S256x1x64, S256x26x64] S256x27x64 1) (j : S256x27x64.Idx) :
    concatenate S256x27x64 1 [⟨S256x1x64, shapeCast S256x1x64 (k4_pay3 x0) h4⟩, ⟨S256x26x64, shapeCast S256x26x64 x1 h3⟩] hc j
      = tokBlk x0 x1 (j 0) (j 1) (j 2) := by
  have hk3 : k4_pay3 x0 = x0 := by unfold k4_pay3; exact shapeCast_self _ _
  have hj1 := (j 1).isLt
  unfold tokBlk
  by_cases h : (j 1).val = 0
  · rw [dif_pos h]
    refine (concatenate_pair_apply_left 1 _ _ hc j rfl (ix3 (n0 := 256) (n1 := 1) (n2 := 64) (j 0) ⟨0, by decide⟩ (j 2)) ?_).trans ?_
    · intro b
      match b with
      | ⟨0, _⟩ => rfl
      | ⟨1, _⟩ => exact h.symm
      | ⟨2, _⟩ => rfl
    · rw [hk3]
      refine shapeCast_apply x0 h4 _ (ix2 (n0 := 256) (n1 := 64) (j 0) (j 2)) ?_
      rw [Shape.rowMajor_val_two, Shape.rowMajor_val_three]
      show (j 0).val * 64 + (j 2).val = ((j 0).val * 1 + 0) * 64 + (j 2).val
      omega
  · rw [dif_neg h]
    have hlt : (j 1).val - 1 < 26 := by
      have : (j 1).val < 27 := hj1
      omega
    refine (concatenate_pair_apply_right 1 _ _ hc j rfl rfl (ix3 (n0 := 256) (n1 := 26) (n2 := 64) (j 0) ⟨(j 1).val - 1, hlt⟩ (j 2)) ?_ ?_).trans ?_
    · intro b hb
      match b, hb with
      | ⟨0, _⟩, _ => rfl
      | ⟨1, _⟩, hb => exact absurd rfl hb
      | ⟨2, _⟩, _ => rfl
    · show (j 1).val - 1 + 1 = (j 1).val
      omega
    · rw [shapeCast_self]

/-- An entry of the 27 x 27 block of row r: the dot product of tokens p and q. -/
theorem interGram_apply (x0 : Vec Ideal S256x64 .f32) (x1 : Vec Ideal S256x26x64 .f32) (r : Fin 256) (p q : Fin 27) :
    interGram (F := Ideal) x0 x1 (ix3 (n0 := 256) (n1 := 27) (n2 := 27) r p q)
      = ∑ d : Fin 64, tokBlk x0 x1 r p d * tokBlk x0 x1 r q d := by
  unfold interGram k4_pay4
  simp only [matmul]
  rw [Ideal.matmul_constant_zero_apply]
  rw [← Equiv.sum_comp (contrEquiv1 dot_S256x27x64_S256x27x64_S256x27x27_2_2_1_1_0_0 64 rfl rfl).symm]
  refine Finset.sum_congr rfl fun d _ => ?_
  rw [truncf_apply, truncf_apply, tokCat_apply, tokCat_apply]
  congr 1

/-! ## The strict upper triangle, piece by piece -/

/-- Where piece p of the 351 columns starts: the extents 26, 25, … of the pieces before it summed. -/
def triOff (p : Nat) : Nat := p * (53 - p) / 2

/-- The k-th pair (p, q) of the strict upper triangle: p < 26, p < q, and k is q - p - 1 past the start of p's run. -/
theorem tri_facts : ∀ k : Fin 351, (triRow k).val < 26 ∧ (triRow k).val < (triCol k).val ∧
    triOff (triRow k).val + ((triCol k).val - (triRow k).val - 1) = k.val := by
  decide +kernel

section Slice
variable {α : Type}

/-- A unit-row slice of the 27 x 27 block at offsets (0, p, q0), viewed without its unit axis, at (r, l):
    the block's entry (r, p, q0 + l). -/
theorem slice_cast_apply {n : Nat} (off : Fin 3 → Nat) (p q0 : Nat) (h0 : off 0 = 0) (h1 : off 1 = p) (h2 : off 2 = q0)
    (g : S256x27x27.Idx → α) (hs : S256x27x27.Slices off ⟨3, ![256, 1, n]⟩)
    (hc : (⟨3, ![256, 1, n]⟩ : Shape).ShapeCasts ⟨2, ![256, n]⟩) (r : Fin 256) (l : Fin n) (hp : p < 27) (hq : q0 + l.val < 27) :
    shapeCast ⟨2, ![256, n]⟩ (extractStridedSlice ⟨3, ![256, 1, n]⟩ off g hs) hc (ix2 (n0 := 256) (n1 := n) r l)
      = g (ix3 (n0 := 256) (n1 := 27) (n2 := 27) r ⟨p, hp⟩ ⟨q0 + l.val, hq⟩) := by
  refine (shapeCast_apply _ hc _ (ix3 (n0 := 256) (n1 := 1) (n2 := n) r ⟨0, by decide⟩ l) ?_).trans ?_
  · rw [Shape.rowMajor_val_three, Shape.rowMajor_val_two]
    show (r.val * 1 + 0) * n + l.val = r.val * n + l.val
    rw [Nat.mul_one, Nat.add_zero]
  · refine extractStridedSlice_apply off g hs _ _ ?_
    intro a
    match a with
    | ⟨0, _⟩ => show r.val = off 0 + r.val; rw [h0, Nat.zero_add]
    | ⟨1, _⟩ => show p = off 1 + 0; rw [h1, Nat.add_zero]
    | ⟨2, _⟩ => show q0 + l.val = off 2 + l.val; rw [h2]

end Slice

/-- The shapes of the 26 pieces of the 351 columns: 256 x 26, 256 x 25, …, 256 x 1. -/
def triShapes : List Shape := [⟨2, ![256, 26]⟩, ⟨2, ![256, 25]⟩, ⟨2, ![256, 24]⟩, ⟨2, ![256, 23]⟩, ⟨2, ![256, 22]⟩, ⟨2, ![256, 21]⟩, ⟨2, ![256, 20]⟩, ⟨2, ![256, 19]⟩, ⟨2, ![256, 18]⟩, ⟨2, ![256, 17]⟩, ⟨2, ![256, 16]⟩, ⟨2, ![256, 15]⟩, ⟨2, ![256, 14]⟩, ⟨2, ![256, 13]⟩, ⟨2, ![256, 12]⟩, ⟨2, ![256, 11]⟩, ⟨2, ![256, 10]⟩, ⟨2, ![256, 9]⟩, ⟨2, ![256, 8]⟩, ⟨2, ![256, 7]⟩, ⟨2, ![256, 6]⟩, ⟨2, ![256, 5]⟩, ⟨2, ![256, 4]⟩, ⟨2, ![256, 3]⟩, ⟨2, ![256, 2]⟩, ⟨2, ![256, 1]⟩]

/-- The extents of the pieces before piece pc sum to triOff pc. -/
theorem triShapes_pre : ∀ pc : Fin 26, ((triShapes.take pc.val).map fun s =>
    if h : s.rank = S256x351.rank then s.size ((1 : Fin S256x351.rank).cast h.symm) else 0).sum = triOff pc.val := by
  decide +kernel

section Piece
variable {α : Type}

/-- Piece pc of a concatenation along the columns of pieces of the shapes above, when that piece is the unit-row slice
    at offsets (0, pc, pc + 1) of the 27 x 27 block g viewed without its unit axis: column triOff pc + (q - pc - 1)
    reads g at (r, pc, q). -/
theorem concat_tri_piece (xs : List ((s : Shape) × (s.Idx → α))) (h : Shape.Concatenates (xs.map (·.1)) S256x351 1)
    (hsh : xs.map (·.1) = triShapes)
    (g : S256x27x27.Idx → α) (pc n : Nat) (off : Fin 3 → Nat)
    (hs : S256x27x27.Slices off ⟨3, ![256, 1, n]⟩) (hc : (⟨3, ![256, 1, n]⟩ : Shape).ShapeCasts ⟨2, ![256, n]⟩)
    (hpc : pc < 26) (hlen : pc < xs.length)
    (hxk : xs[pc] = ⟨⟨2, ![256, n]⟩, shapeCast ⟨2, ![256, n]⟩ (extractStridedSlice ⟨3, ![256, 1, n]⟩ off g hs) hc⟩)
    (h0 : off 0 = 0) (h1 : off 1 = pc) (h2 : off 2 = pc + 1)
    (r : Fin 256) (k : Fin 351) (q : Fin 27) (hq : pc < q.val) (hn : q.val - pc - 1 < n)
    (hkq : triOff pc + (q.val - pc - 1) = k.val) :
    concatenate S256x351 1 xs h (ix2 (n0 := 256) (n1 := 351) r k)
      = g (ix3 (n0 := 256) (n1 := 27) (n2 := 27) r ⟨pc, by omega⟩ q) := by
  have hq27 := q.isLt
  have hpre : (((xs.take pc).map (·.1)).map fun s =>
      if h : s.rank = S256x351.rank then s.size ((1 : Fin S256x351.rank).cast h.symm) else 0).sum = triOff pc := by
    rw [List.map_take, hsh]
    exact triShapes_pre ⟨pc, hpc⟩
  refine (concatenate_apply_piece 1 xs h _ pc hlen _ _ hxk rfl (triOff pc) hpre
    (ix2 (n0 := 256) (n1 := n) r ⟨q.val - pc - 1, hn⟩) ?_ ?_).trans ?_
  · intro b hb
    match b, hb with
    | ⟨0, _⟩, _ => rfl
    | ⟨1, _⟩, hb => exact absurd rfl hb
  · exact hkq
  · refine (slice_cast_apply off pc (pc + 1) h0 h1 h2 g hs hc r ⟨q.val - pc - 1, hn⟩ (by omega)
      (by show pc + 1 + (q.val - pc - 1) < 27; omega)).trans ?_
    exact congrArg (fun z => g (ix3 (n0 := 256) (n1 := 27) (n2 := 27) r ⟨pc, by omega⟩ z))
      (Fin.ext (by show pc + 1 + (q.val - pc - 1) = q.val; omega))

end Piece

variable {F : FTy → Type} [FloatOps F]

/-- Column k of the 351 is the entry of the 27 x 27 block at the k-th pair of the strict upper triangle. -/
theorem interTri_apply (x0 : Vec F S256x64 .f32) (x1 : Vec F S256x26x64 .f32) (r : Fin 256) (k : Fin 351) :
    interTri x0 x1 (ix2 (n0 := 256) (n1 := 351) r k)
      = interGram x0 x1 (ix3 (n0 := 256) (n1 := 27) (n2 := 27) r (triRow k) (triCol k)) := by
  obtain ⟨h1, h2, h3⟩ := tri_facts k
  generalize triRow k = p at h1 h2 h3 ⊢
  generalize triCol k = q at h2 h3 ⊢
  obtain ⟨p, hp⟩ := p
  have hq := q.isLt
  dsimp only at h1 h2 h3
  unfold interTri k4_pay1 k4_pay27 interGram
  interval_cases p
  · exact concat_tri_piece _ _ rfl (k4_pay4 x0 x1) 0 26 ![0, 0, 1] _ _ (by omega) (by simp) rfl rfl rfl rfl r k q h2 (by omega) h3
  · exact concat_tri_piece _ _ rfl (k4_pay4 x0 x1) 1 25 ![0, 1, 2] _ _ (by omega) (by simp) rfl rfl rfl rfl r k q h2 (by omega) h3
  · exact concat_tri_piece _ _ rfl (k4_pay4 x0 x1) 2 24 ![0, 2, 3] _ _ (by omega) (by simp) rfl rfl rfl rfl r k q h2 (by omega) h3
  · exact concat_tri_piece _ _ rfl (k4_pay4 x0 x1) 3 23 ![0, 3, 4] _ _ (by omega) (by simp) rfl rfl rfl rfl r k q h2 (by omega) h3
  · exact concat_tri_piece _ _ rfl (k4_pay4 x0 x1) 4 22 ![0, 4, 5] _ _ (by omega) (by simp) rfl rfl rfl rfl r k q h2 (by omega) h3
  · exact concat_tri_piece _ _ rfl (k4_pay4 x0 x1) 5 21 ![0, 5, 6] _ _ (by omega) (by simp) rfl rfl rfl rfl r k q h2 (by omega) h3
  · exact concat_tri_piece _ _ rfl (k4_pay4 x0 x1) 6 20 ![0, 6, 7] _ _ (by omega) (by simp) rfl rfl rfl rfl r k q h2 (by omega) h3
  · exact concat_tri_piece _ _ rfl (k4_pay4 x0 x1) 7 19 ![0, 7, 8] _ _ (by omega) (by simp) rfl rfl rfl rfl r k q h2 (by omega) h3
  · exact concat_tri_piece _ _ rfl (k4_pay4 x0 x1) 8 18 ![0, 8, 9] _ _ (by omega) (by simp) rfl rfl rfl rfl r k q h2 (by omega) h3
  · exact concat_tri_piece _ _ rfl (k4_pay4 x0 x1) 9 17 ![0, 9, 10] _ _ (by omega) (by simp) rfl rfl rfl rfl r k q h2 (by omega) h3
  · exact concat_tri_piece _ _ rfl (k4_pay4 x0 x1) 10 16 ![0, 10, 11] _ _ (by omega) (by simp) rfl rfl rfl rfl r k q h2 (by omega) h3
  · exact concat_tri_piece _ _ rfl (k4_pay4 x0 x1) 11 15 ![0, 11, 12] _ _ (by omega) (by simp) rfl rfl rfl rfl r k q h2 (by omega) h3
  · exact concat_tri_piece _ _ rfl (k4_pay4 x0 x1) 12 14 ![0, 12, 13] _ _ (by omega) (by simp) rfl rfl rfl rfl r k q h2 (by omega) h3
  · exact concat_tri_piece _ _ rfl (k4_pay4 x0 x1) 13 13 ![0, 13, 14] _ _ (by omega) (by simp) rfl rfl rfl rfl r k q h2 (by omega) h3
  · exact concat_tri_piece _ _ rfl (k4_pay4 x0 x1) 14 12 ![0, 14, 15] _ _ (by omega) (by simp) rfl rfl rfl rfl r k q h2 (by omega) h3
  · exact concat_tri_piece _ _ rfl (k4_pay4 x0 x1) 15 11 ![0, 15, 16] _ _ (by omega) (by simp) rfl rfl rfl rfl r k q h2 (by omega) h3
  · exact concat_tri_piece _ _ rfl (k4_pay4 x0 x1) 16 10 ![0, 16, 17] _ _ (by omega) (by simp) rfl rfl rfl rfl r k q h2 (by omega) h3
  · exact concat_tri_piece _ _ rfl (k4_pay4 x0 x1) 17 9 ![0, 17, 18] _ _ (by omega) (by simp) rfl rfl rfl rfl r k q h2 (by omega) h3
  · exact concat_tri_piece _ _ rfl (k4_pay4 x0 x1) 18 8 ![0, 18, 19] _ _ (by omega) (by simp) rfl rfl rfl rfl r k q h2 (by omega) h3
  · exact concat_tri_piece _ _ rfl (k4_pay4 x0 x1) 19 7 ![0, 19, 20] _ _ (by omega) (by simp) rfl rfl rfl rfl r k q h2 (by omega) h3
  · exact concat_tri_piece _ _ rfl (k4_pay4 x0 x1) 20 6 ![0, 20, 21] _ _ (by omega) (by simp) rfl rfl rfl rfl r k q h2 (by omega) h3
  · exact concat_tri_piece _ _ rfl (k4_pay4 x0 x1) 21 5 ![0, 21, 22] _ _ (by omega) (by simp) rfl rfl rfl rfl r k q h2 (by omega) h3
  · exact concat_tri_piece _ _ rfl (k4_pay4 x0 x1) 22 4 ![0, 22, 23] _ _ (by omega) (by simp) rfl rfl rfl rfl r k q h2 (by omega) h3
  · exact concat_tri_piece _ _ rfl (k4_pay4 x0 x1) 23 3 ![0, 23, 24] _ _ (by omega) (by simp) rfl rfl rfl rfl r k q h2 (by omega) h3
  · exact concat_tri_piece _ _ rfl (k4_pay4 x0 x1) 24 2 ![0, 24, 25] _ _ (by omega) (by simp) rfl rfl rfl rfl r k q h2 (by omega) h3
  · exact concat_tri_piece _ _ rfl (k4_pay4 x0 x1) 25 1 ![0, 25, 26] _ _ (by omega) (by simp) rfl rfl rfl rfl r k q h2 (by omega) h3

/-! ## The stored block -/

/-- The block the interaction kernel stores, at the ideal values, is the interaction of its 256 batch rows: the dense
    token, then the 351 pairwise dot products of the 27 tokens. -/
theorem interBlk_eq (x0 : Vec Ideal S256x64 .f32) (x1 : Vec Ideal S256x26x64 .f32) :
    Cert.KernelIdeal.Inter.interBlk (F := Ideal) x0 x1 = Cert.Spec.interBlkSpec x0 x1 := by
  funext y
  have hk3 : k4_pay3 x0 = x0 := by unfold k4_pay3; exact shapeCast_self _ _
  have hy1 := idx2_lt1 (n0 := 256) (n1 := 415) y
  unfold interBlk k4_pay2 interBlkSpec
  by_cases h : (y 1).val < 64
  · rw [dif_pos h]
    refine (concatenate_pair_apply_left (t := S256x415) (s₁ := S256x64) (s₂ := S256x351) 1 _ _ _ y rfl
      (ValueIdx.ix2 (n0 := 256) (n1 := 64) (y 0) ⟨(y 1).val, h⟩) ?_).trans ?_
    · intro b
      match b with
      | ⟨0, _⟩ => rfl
      | ⟨1, _⟩ => rfl
    · rw [hk3]
  · rw [dif_neg h]
    have hk : (y 1).val - 64 < 351 := by omega
    refine (concatenate_pair_apply_right (t := S256x415) (s₁ := S256x64) (s₂ := S256x351) 1 _ _ _ y rfl rfl
      (ValueIdx.ix2 (n0 := 256) (n1 := 351) (y 0) ⟨(y 1).val - 64, hk⟩) ?_ ?_).trans ?_
    · intro b hb
      match b, hb with
      | ⟨0, _⟩, _ => rfl
      | ⟨1, _⟩, hb => exact absurd rfl hb
    · show (y 1).val - 64 + 64 = (y 1).val
      omega
    · exact (interTri_apply x0 x1 (y 0) ⟨(y 1).val - 64, hk⟩).trans (interGram_apply x0 x1 (y 0) _ _)

end Cert.InterK

end
-- ==== Proof.GatherArr.lean ====
import proofs.«407213_j20864951124667_1_alg».proof.Proof.G0Defs
import proofs.«407213_j20864951124667_1_alg».proof.Proof.InterBlocks
import proofs.«407213_j20864951124667_1_alg».proof.Proof.Spec
import proofs.«407213_j20864951124667_1_alg».proof.Proof.Gen.KernelIdeal.Launch
import Idealize.ShloMosaic.Lib.Pipeline.Value

/-!
  From the blocks of the first lookup call to its result array.

  The call runs over a grid of 4096 points; point `t` leaves in the output window one block of shape `[1, 26, 64]` and
  writes it back at block index `(t, 0, 0)` of the `[4096, 26, 64]` result array. If, at every point, the block left
  is the gathered block of that point (row `f` of the block is row `ids[t, f]` of table `f`), then the array ends
  holding the chunk lookup `Cert.Spec.embChunk`: every point writes back (the block index changes from each point to
  the next), the block of point `t` is row `t` of the chunk lookup, and row `r` of the array is covered by point `r`.
  Stated over any proof data of the pipeline, so that it composes with whatever establishes the per-point fact.
-/

noncomputable section

namespace Cert.KernelIdeal.GatherArr

open Idealize.ShloMosaic Idealize.ShloMosaic.ValueIdx Idealize.ShloMosaic.TcCoe Idealize.SL.Sem
open Cert.KernelIdeal Cert.KernelIdeal.Gen

variable {F : FTy → Type} [FloatOps F]

/-- The grid of the call has 4096 points. -/
theorem N_cfg0 (a : (pcfg0 (F := F)).Adm) : (cfg0 a).N = 4096 := N_0

/-- The index of a point of the grid is below 4096. -/
theorem pt_lt (a : (pcfg0 (F := F)).Adm) (t : Fin (cfg0 a).N) : t.val < 4096 := by
  exact lt_of_lt_of_eq t.isLt (N_cfg0 a)

/-- The one coordinate of point `t` of the grid is `t`. -/
theorem coords_val (a : (pcfg0 (F := F)).Adm) (t : Fin (cfg0 a).N) :
    (((cfg0 a).grid.coords t : grid0.Coords) 0).val = t.val := by
  have hs : grid0.stride 0 = 1 := by decide
  show t.val / grid0.stride 0 % 4096 = t.val
  rw [hs, Nat.div_one, Nat.mod_eq_of_lt (pt_lt a t)]

/-- The block index of the output window at point `t`: `(t, 0, 0)`. -/
theorem index_facts (a : (pcfg0 (F := F)).Adm) (t : Fin (cfg0 a).N) :
    ((cfg0 a).win 0).index t (0 : Fin 3) = t.val ∧ ((cfg0 a).win 0).index t (1 : Fin 3) = 0
      ∧ ((cfg0 a).win 0).index t (2 : Fin 3) = 0 := by
  refine ⟨?_, rfl, rfl⟩
  show (BitVec.ofNat 32 (((cfg0 a).grid.coords t : grid0.Coords) 0).val).toNat = t.val
  rw [coords_val a t, BitVec.toNat_ofNat]
  exact Nat.mod_eq_of_lt (by have := pt_lt a t; omega)

/-- What point `t` writes back is block `t` of the chunk lookup. -/
theorem flushed_eq (a : (pcfg0 (F := F)).Adm) (c : Dev nD)
    (dat : Pipeline.Dat τ (Elt F) Unit ℕ (Pipeline.UD sig nD τ) ℕ (cfg0 a) c)
    (tbl : Vec F S4096x26 .i32) (emb : Vec F S26x131073x64 .f32)
    (hafter : ∀ t : Fin (cfg0 a).N, dat.after 0 t = Gather0.gatherBlk tbl emb ((cfg0 a).grid.coords t))
    (t : Fin (cfg0 a).N) :
    dat.flushed 0 t = (((cfg0 a).win 0).blk t).view.read (Elt F) (Cert.Spec.embChunk tbl emb) := by
  show ((cfg0 a).win 0).cut ((cfg0 a).grid.coords t) (dat.after 0 t) = _
  rw [hafter t]
  funext j
  revert j
  show ∀ j : S1x26x64.Idx, Gather0.gatherBlk tbl emb ((cfg0 a).grid.coords t) j
    = Cert.Spec.embChunk tbl emb ((((cfg0 a).win 0).blk t).view.emb j)
  intro j
  refine (Cert.InterBlocks.embChunk_point tbl emb ⟨t.val, pt_lt a t⟩ ((cfg0 a).grid.coords t) (coords_val a t) j).symm.trans ?_
  refine congrArg (Cert.Spec.embChunk tbl emb) ?_
  obtain ⟨e0, e1, e2⟩ := index_facts a t
  funext b
  apply Fin.ext
  match b with
  | ⟨0, _⟩ =>
    show t.val = ((cfg0 a).win 0).index t (0 : Fin 3) * 1 + 1 * (j 0).val
    have hj : (j 0).val < 1 := (j 0).isLt
    omega
  | ⟨1, _⟩ =>
    show (j 1).val = ((cfg0 a).win 0).index t (1 : Fin 3) * 26 + 1 * (j 1).val
    omega
  | ⟨2, _⟩ =>
    show (j 2).val = ((cfg0 a).win 0).index t (2 : Fin 3) * 64 + 1 * (j 2).val
    omega

/-- Every point of the grid writes its block back: the block index moves with the point. -/
theorem flush_all (a : (pcfg0 (F := F)).Adm) (t : Fin (cfg0 a).N) : ((cfg0 a).win 0).flush t = true := by
  unfold Pipeline.Window.flush
  rw [Bool.and_eq_true]
  refine ⟨rfl, ?_⟩
  rw [Bool.or_eq_true, decide_eq_true_eq, decide_eq_true_eq]
  by_cases h : t.val + 1 = (cfg0 a).grid.N
  · exact Or.inl h
  · have hlt : t.val + 1 < (cfg0 a).grid.N := by have ht : t.val < (cfg0 a).grid.N := t.isLt; omega
    refine Or.inr ⟨hlt, fun heq => ?_⟩
    have e := congrFun heq (0 : Fin 3)
    rw [(index_facts a ⟨t.val + 1, hlt⟩).1, (index_facts a t).1] at e
    exact absurd e (Nat.succ_ne_self _)

/-- Row `r` of the array lies in the block of point `r`. -/
theorem cover (a : (pcfg0 (F := F)).Adm) (i : S4096x26x64.Idx) :
    ∃ t : Fin (cfg0 a).N, ((cfg0 a).win 0).flush t = true ∧ i ∈ (((cfg0 a).win 0).blk t).view.set := by
  have hi0 : (i 0).val < 4096 := (i 0).isLt
  have hi1 : (i 1).val < 26 := (i 1).isLt
  have hi2 : (i 2).val < 64 := (i 2).isLt
  have hN : (i 0).val < (cfg0 a).N := lt_of_lt_of_eq hi0 (N_cfg0 a).symm
  refine ⟨⟨(i 0).val, hN⟩, flush_all a _, ?_⟩
  have hset := View.set_slice_whole main_v11 (((cfg0 a).win 0).rect ⟨(i 0).val, hN⟩)
  refine (Finset.ext_iff.mp hset i).mpr (Rect.mem_set_unit.mpr ?_)
  have e0 : ((cfg0 a).win 0).index ⟨(i 0).val, hN⟩ (0 : Fin 3) = (i 0).val := (index_facts a ⟨(i 0).val, hN⟩).1
  have e1 := (index_facts a ⟨(i 0).val, hN⟩).2.1
  have e2 := (index_facts a ⟨(i 0).val, hN⟩).2.2
  intro b
  match b with
  | ⟨0, _⟩ =>
    show ((cfg0 a).win 0).index ⟨(i 0).val, hN⟩ (0 : Fin 3) * 1 ≤ (i 0).val
      ∧ (i 0).val < ((cfg0 a).win 0).index ⟨(i 0).val, hN⟩ (0 : Fin 3) * 1 + 1
    rw [e0]; omega
  | ⟨1, _⟩ =>
    show ((cfg0 a).win 0).index ⟨(i 0).val, hN⟩ (1 : Fin 3) * 26 ≤ (i 1).val
      ∧ (i 1).val < ((cfg0 a).win 0).index ⟨(i 0).val, hN⟩ (1 : Fin 3) * 26 + 26
    rw [e1]; omega
  | ⟨2, _⟩ =>
    show ((cfg0 a).win 0).index ⟨(i 0).val, hN⟩ (2 : Fin 3) * 64 ≤ (i 2).val
      ∧ (i 2).val < ((cfg0 a).win 0).index ⟨(i 0).val, hN⟩ (2 : Fin 3) * 64 + 64
    rw [e2]; omega

/-- **The result array of the call is the chunk lookup**, given the gathered block at every point. -/
theorem arrAt_gather0 (a : (pcfg0 (F := F)).Adm) (c : Dev nD)
    (dat : Pipeline.Dat τ (Elt F) Unit ℕ (Pipeline.UD sig nD τ) ℕ (cfg0 a) c)
    (tbl : Vec F S4096x26 .i32) (emb : Vec F S26x131073x64 .f32)
    (hafter : ∀ t : Fin (cfg0 a).N, dat.after 0 t = Gather0.gatherBlk tbl emb ((cfg0 a).grid.coords t)) :
    dat.arrAt 0 (cfg0 a).N = Cert.Spec.embChunk tbl emb := by
  exact dat.arrAt_eq_of_cover 0 (Cert.Spec.embChunk tbl emb) (fun t _ => flushed_eq a c dat tbl emb hafter t) (cover a)

end Cert.KernelIdeal.GatherArr

end
-- ==== Proof.GatherArr1.lean ====
import proofs.«407213_j20864951124667_1_alg».proof.Proof.G0Defs
import proofs.«407213_j20864951124667_1_alg».proof.Proof.InterBlocks
import proofs.«407213_j20864951124667_1_alg».proof.Proof.Spec
import proofs.«407213_j20864951124667_1_alg».proof.Proof.Gen.KernelIdeal.Launch
import Idealize.ShloMosaic.Lib.Pipeline.Value

/-!
  From the blocks of the second lookup call to its result array.

  The call runs over a grid of 4096 points; point `t` leaves in the output window one block of shape `[1, 26, 64]` and
  writes it back at block index `(t, 0, 0)` of the `[4096, 26, 64]` result array. If, at every point, the block left
  is the gathered block of that point (row `f` of the block is row `ids[t, f]` of table `f`), then the array ends
  holding the chunk lookup `Cert.Spec.embChunk`: every point writes back (the block index changes from each point to
  the next), the block of point `t` is row `t` of the chunk lookup, and row `r` of the array is covered by point `r`.
  Stated over any proof data of the pipeline, so that it composes with whatever establishes the per-point fact.
-/

noncomputable section

namespace Cert.KernelIdeal.GatherArr1

open Idealize.ShloMosaic Idealize.ShloMosaic.ValueIdx Idealize.ShloMosaic.TcCoe Idealize.SL.Sem
open Cert.KernelIdeal Cert.KernelIdeal.Gen

variable {F : FTy → Type} [FloatOps F]

/-- The grid of the call has 4096 points. -/
theorem N_cfg1 (a : (pcfg1 (F := F)).Adm) : (cfg1 a).N = 4096 := N_1

/-- The index of a point of the grid is below 4096. -/
theorem pt_lt (a : (pcfg1 (F := F)).Adm) (t : Fin (cfg1 a).N) : t.val < 4096 := by
  exact lt_of_lt_of_eq t.isLt (N_cfg1 a)

/-- The one coordinate of point `t` of the grid is `t`. -/
theorem coords_val (a : (pcfg1 (F := F)).Adm) (t : Fin (cfg1 a).N) :
    (((cfg1 a).grid.coords t : grid1.Coords) 0).val = t.val := by
  have hs : grid1.stride 0 = 1 := by decide
  show t.val / grid1.stride 0 % 4096 = t.val
  rw [hs, Nat.div_one, Nat.mod_eq_of_lt (pt_lt a t)]

/-- The block index of the output window at point `t`: `(t, 0, 0)`. -/
theorem index_facts (a : (pcfg1 (F := F)).Adm) (t : Fin (cfg1 a).N) :
    ((cfg1 a).win 0).index t (0 : Fin 3) = t.val ∧ ((cfg1 a).win 0).index t (1 : Fin 3) = 0
      ∧ ((cfg1 a).win 0).index t (2 : Fin 3) = 0 := by
  refine ⟨?_, rfl, rfl⟩
  show (BitVec.ofNat 32 (((cfg1 a).grid.coords t : grid1.Coords) 0).val).toNat = t.val
  rw [coords_val a t, BitVec.toNat_ofNat]
  exact Nat.mod_eq_of_lt (by have := pt_lt a t; omega)

/-- What point `t` writes back is block `t` of the chunk lookup. -/
theorem flushed_eq (a : (pcfg1 (F := F)).Adm) (c : Dev nD)
    (dat : Pipeline.Dat τ (Elt F) Unit ℕ (Pipeline.UD sig nD τ) ℕ (cfg1 a) c)
    (tbl : Vec F S4096x26 .i32) (emb : Vec F S26x131073x64 .f32)
    (hafter : ∀ t : Fin (cfg1 a).N, dat.after 0 t = Gather0.gatherBlk tbl emb ((cfg1 a).grid.coords t))
    (t : Fin (cfg1 a).N) :
    dat.flushed 0 t = (((cfg1 a).win 0).blk t).view.read (Elt F) (Cert.Spec.embChunk tbl emb) := by
  show ((cfg1 a).win 0).cut ((cfg1 a).grid.coords t) (dat.after 0 t) = _
  rw [hafter t]
  funext j
  revert j
  show ∀ j : S1x26x64.Idx, Gather0.gatherBlk tbl emb ((cfg1 a).grid.coords t) j
    = Cert.Spec.embChunk tbl emb ((((cfg1 a).win 0).blk t).view.emb j)
  intro j
  refine (Cert.InterBlocks.embChunk_point tbl emb ⟨t.val, pt_lt a t⟩ ((cfg1 a).grid.coords t) (coords_val a t) j).symm.trans ?_
  refine congrArg (Cert.Spec.embChunk tbl emb) ?_
  obtain ⟨e0, e1, e2⟩ := index_facts a t
  funext b
  apply Fin.ext
  match b with
  | ⟨0, _⟩ =>
    show t.val = ((cfg1 a).win 0).index t (0 : Fin 3) * 1 + 1 * (j 0).val
    have hj : (j 0).val < 1 := (j 0).isLt
    omega
  | ⟨1, _⟩ =>
    show (j 1).val = ((cfg1 a).win 0).index t (1 : Fin 3) * 26 + 1 * (j 1).val
    omega
  | ⟨2, _⟩ =>
    show (j 2).val = ((cfg1 a).win 0).index t (2 : Fin 3) * 64 + 1 * (j 2).val
    omega

/-- Every point of the grid writes its block back: the block index moves with the point. -/
theorem flush_all (a : (pcfg1 (F := F)).Adm) (t : Fin (cfg1 a).N) : ((cfg1 a).win 0).flush t = true := by
  unfold Pipeline.Window.flush
  rw [Bool.and_eq_true]
  refine ⟨rfl, ?_⟩
  rw [Bool.or_eq_true, decide_eq_true_eq, decide_eq_true_eq]
  by_cases h : t.val + 1 = (cfg1 a).grid.N
  · exact Or.inl h
  · have hlt : t.val + 1 < (cfg1 a).grid.N := by have ht : t.val < (cfg1 a).grid.N := t.isLt; omega
    refine Or.inr ⟨hlt, fun heq => ?_⟩
    have e := congrFun heq (0 : Fin 3)
    rw [(index_facts a ⟨t.val + 1, hlt⟩).1, (index_facts a t).1] at e
    exact absurd e (Nat.succ_ne_self _)

/-- Row `r` of the array lies in the block of point `r`. -/
theorem cover (a : (pcfg1 (F := F)).Adm) (i : S4096x26x64.Idx) :
    ∃ t : Fin (cfg1 a).N, ((cfg1 a).win 0).flush t = true ∧ i ∈ (((cfg1 a).win 0).blk t).view.set := by
  have hi0 : (i 0).val < 4096 := (i 0).isLt
  have hi1 : (i 1).val < 26 := (i 1).isLt
  have hi2 : (i 2).val < 64 := (i 2).isLt
  have hN : (i 0).val < (cfg1 a).N := lt_of_lt_of_eq hi0 (N_cfg1 a).symm
  refine ⟨⟨(i 0).val, hN⟩, flush_all a _, ?_⟩
  have hset := View.set_slice_whole main_v13 (((cfg1 a).win 0).rect ⟨(i 0).val, hN⟩)
  refine (Finset.ext_iff.mp hset i).mpr (Rect.mem_set_unit.mpr ?_)
  have e0 : ((cfg1 a).win 0).index ⟨(i 0).val, hN⟩ (0 : Fin 3) = (i 0).val := (index_facts a ⟨(i 0).val, hN⟩).1
  have e1 := (index_facts a ⟨(i 0).val, hN⟩).2.1
  have e2 := (index_facts a ⟨(i 0).val, hN⟩).2.2
  intro b
  match b with
  | ⟨0, _⟩ =>
    show ((cfg1 a).win 0).index ⟨(i 0).val, hN⟩ (0 : Fin 3) * 1 ≤ (i 0).val
      ∧ (i 0).val < ((cfg1 a).win 0).index ⟨(i 0).val, hN⟩ (0 : Fin 3) * 1 + 1
    rw [e0]; omega
  | ⟨1, _⟩ =>
    show ((cfg1 a).win 0).index ⟨(i 0).val, hN⟩ (1 : Fin 3) * 26 ≤ (i 1).val
      ∧ (i 1).val < ((cfg1 a).win 0).index ⟨(i 0).val, hN⟩ (1 : Fin 3) * 26 + 26
    rw [e1]; omega
  | ⟨2, _⟩ =>
    show ((cfg1 a).win 0).index ⟨(i 0).val, hN⟩ (2 : Fin 3) * 64 ≤ (i 2).val
      ∧ (i 2).val < ((cfg1 a).win 0).index ⟨(i 0).val, hN⟩ (2 : Fin 3) * 64 + 64
    rw [e2]; omega

/-- **The result array of the call is the chunk lookup**, given the gathered block at every point. -/
theorem arrAt_gather1 (a : (pcfg1 (F := F)).Adm) (c : Dev nD)
    (dat : Pipeline.Dat τ (Elt F) Unit ℕ (Pipeline.UD sig nD τ) ℕ (cfg1 a) c)
    (tbl : Vec F S4096x26 .i32) (emb : Vec F S26x131073x64 .f32)
    (hafter : ∀ t : Fin (cfg1 a).N, dat.after 0 t = Gather0.gatherBlk tbl emb ((cfg1 a).grid.coords t)) :
    dat.arrAt 0 (cfg1 a).N = Cert.Spec.embChunk tbl emb := by
  exact dat.arrAt_eq_of_cover 0 (Cert.Spec.embChunk tbl emb) (fun t _ => flushed_eq a c dat tbl emb hafter t) (cover a)

end Cert.KernelIdeal.GatherArr1

end
-- ==== Proof.GatherArr2.lean ====
import proofs.«407213_j20864951124667_1_alg».proof.Proof.G0Defs
import proofs.«407213_j20864951124667_1_alg».proof.Proof.InterBlocks
import proofs.«407213_j20864951124667_1_alg».proof.Proof.Spec
import proofs.«407213_j20864951124667_1_alg».proof.Proof.Gen.KernelIdeal.Launch
import Idealize.ShloMosaic.Lib.Pipeline.Value

/-!
  From the blocks of the third lookup call to its result array.

  The call runs over a grid of 4096 points; point `t` leaves in the output window one block of shape `[1, 26, 64]` and
  writes it back at block index `(t, 0, 0)` of the `[4096, 26, 64]` result array. If, at every point, the block left
  is the gathered block of that point (row `f` of the block is row `ids[t, f]` of table `f`), then the array ends
  holding the chunk lookup `Cert.Spec.embChunk`: every point writes back (the block index changes from each point to
  the next), the block of point `t` is row `t` of the chunk lookup, and row `r` of the array is covered by point `r`.
  Stated over any proof data of the pipeline, so that it composes with whatever establishes the per-point fact.
-/

noncomputable section

namespace Cert.KernelIdeal.GatherArr2

open Idealize.ShloMosaic Idealize.ShloMosaic.ValueIdx Idealize.ShloMosaic.TcCoe Idealize.SL.Sem
open Cert.KernelIdeal Cert.KernelIdeal.Gen

variable {F : FTy → Type} [FloatOps F]

/-- The grid of the call has 4096 points. -/
theorem N_cfg2 (a : (pcfg2 (F := F)).Adm) : (cfg2 a).N = 4096 := N_2

/-- The index of a point of the grid is below 4096. -/
theorem pt_lt (a : (pcfg2 (F := F)).Adm) (t : Fin (cfg2 a).N) : t.val < 4096 := by
  exact lt_of_lt_of_eq t.isLt (N_cfg2 a)

/-- The one coordinate of point `t` of the grid is `t`. -/
theorem coords_val (a : (pcfg2 (F := F)).Adm) (t : Fin (cfg2 a).N) :
    (((cfg2 a).grid.coords t : grid2.Coords) 0).val = t.val := by
  have hs : grid2.stride 0 = 1 := by decide
  show t.val / grid2.stride 0 % 4096 = t.val
  rw [hs, Nat.div_one, Nat.mod_eq_of_lt (pt_lt a t)]

/-- The block index of the output window at point `t`: `(t, 0, 0)`. -/
theorem index_facts (a : (pcfg2 (F := F)).Adm) (t : Fin (cfg2 a).N) :
    ((cfg2 a).win 0).index t (0 : Fin 3) = t.val ∧ ((cfg2 a).win 0).index t (1 : Fin 3) = 0
      ∧ ((cfg2 a).win 0).index t (2 : Fin 3) = 0 := by
  refine ⟨?_, rfl, rfl⟩
  show (BitVec.ofNat 32 (((cfg2 a).grid.coords t : grid2.Coords) 0).val).toNat = t.val
  rw [coords_val a t, BitVec.toNat_ofNat]
  exact Nat.mod_eq_of_lt (by have := pt_lt a t; omega)

/-- What point `t` writes back is block `t` of the chunk lookup. -/
theorem flushed_eq (a : (pcfg2 (F := F)).Adm) (c : Dev nD)
    (dat : Pipeline.Dat τ (Elt F) Unit ℕ (Pipeline.UD sig nD τ) ℕ (cfg2 a) c)
    (tbl : Vec F S4096x26 .i32) (emb : Vec F S26x131073x64 .f32)
    (hafter : ∀ t : Fin (cfg2 a).N, dat.after 0 t = Gather0.gatherBlk tbl emb ((cfg2 a).grid.coords t))
    (t : Fin (cfg2 a).N) :
    dat.flushed 0 t = (((cfg2 a).win 0).blk t).view.read (Elt F) (Cert.Spec.embChunk tbl emb) := by
  show ((cfg2 a).win 0).cut ((cfg2 a).grid.coords t) (dat.after 0 t) = _
  rw [hafter t]
  funext j
  revert j
  show ∀ j : S1x26x64.Idx, Gather0.gatherBlk tbl emb ((cfg2 a).grid.coords t) j
    = Cert.Spec.embChunk tbl emb ((((cfg2 a).win 0).blk t).view.emb j)
  intro j
  refine (Cert.InterBlocks.embChunk_point tbl emb ⟨t.val, pt_lt a t⟩ ((cfg2 a).grid.coords t) (coords_val a t) j).symm.trans ?_
  refine congrArg (Cert.Spec.embChunk tbl emb) ?_
  obtain ⟨e0, e1, e2⟩ := index_facts a t
  funext b
  apply Fin.ext
  match b with
  | ⟨0, _⟩ =>
    show t.val = ((cfg2 a).win 0).index t (0 : Fin 3) * 1 + 1 * (j 0).val
    have hj : (j 0).val < 1 := (j 0).isLt
    omega
  | ⟨1, _⟩ =>
    show (j 1).val = ((cfg2 a).win 0).index t (1 : Fin 3) * 26 + 1 * (j 1).val
    omega
  | ⟨2, _⟩ =>
    show (j 2).val = ((cfg2 a).win 0).index t (2 : Fin 3) * 64 + 1 * (j 2).val
    omega

/-- Every point of the grid writes its block back: the block index moves with the point. -/
theorem flush_all (a : (pcfg2 (F := F)).Adm) (t : Fin (cfg2 a).N) : ((cfg2 a).win 0).flush t = true := by
  unfold Pipeline.Window.flush
  rw [Bool.and_eq_true]
  refine ⟨rfl, ?_⟩
  rw [Bool.or_eq_true, decide_eq_true_eq, decide_eq_true_eq]
  by_cases h : t.val + 1 = (cfg2 a).grid.N
  · exact Or.inl h
  · have hlt : t.val + 1 < (cfg2 a).grid.N := by have ht : t.val < (cfg2 a).grid.N := t.isLt; omega
    refine Or.inr ⟨hlt, fun heq => ?_⟩
    have e := congrFun heq (0 : Fin 3)
    rw [(index_facts a ⟨t.val + 1, hlt⟩).1, (index_facts a t).1] at e
    exact absurd e (Nat.succ_ne_self _)

/-- Row `r` of the array lies in the block of point `r`. -/
theorem cover (a : (pcfg2 (F := F)).Adm) (i : S4096x26x64.Idx) :
    ∃ t : Fin (cfg2 a).N, ((cfg2 a).win 0).flush t = true ∧ i ∈ (((cfg2 a).win 0).blk t).view.set := by
  have hi0 : (i 0).val < 4096 := (i 0).isLt
  have hi1 : (i 1).val < 26 := (i 1).isLt
  have hi2 : (i 2).val < 64 := (i 2).isLt
  have hN : (i 0).val < (cfg2 a).N := lt_of_lt_of_eq hi0 (N_cfg2 a).symm
  refine ⟨⟨(i 0).val, hN⟩, flush_all a _, ?_⟩
  have hset := View.set_slice_whole main_v15 (((cfg2 a).win 0).rect ⟨(i 0).val, hN⟩)
  refine (Finset.ext_iff.mp hset i).mpr (Rect.mem_set_unit.mpr ?_)
  have e0 : ((cfg2 a).win 0).index ⟨(i 0).val, hN⟩ (0 : Fin 3) = (i 0).val := (index_facts a ⟨(i 0).val, hN⟩).1
  have e1 := (index_facts a ⟨(i 0).val, hN⟩).2.1
  have e2 := (index_facts a ⟨(i 0).val, hN⟩).2.2
  intro b
  match b with
  | ⟨0, _⟩ =>
    show ((cfg2 a).win 0).index ⟨(i 0).val, hN⟩ (0 : Fin 3) * 1 ≤ (i 0).val
      ∧ (i 0).val < ((cfg2 a).win 0).index ⟨(i 0).val, hN⟩ (0 : Fin 3) * 1 + 1
    rw [e0]; omega
  | ⟨1, _⟩ =>
    show ((cfg2 a).win 0).index ⟨(i 0).val, hN⟩ (1 : Fin 3) * 26 ≤ (i 1).val
      ∧ (i 1).val < ((cfg2 a).win 0).index ⟨(i 0).val, hN⟩ (1 : Fin 3) * 26 + 26
    rw [e1]; omega
  | ⟨2, _⟩ =>
    show ((cfg2 a).win 0).index ⟨(i 0).val, hN⟩ (2 : Fin 3) * 64 ≤ (i 2).val
      ∧ (i 2).val < ((cfg2 a).win 0).index ⟨(i 0).val, hN⟩ (2 : Fin 3) * 64 + 64
    rw [e2]; omega

/-- **The result array of the call is the chunk lookup**, given the gathered block at every point. -/
theorem arrAt_gather2 (a : (pcfg2 (F := F)).Adm) (c : Dev nD)
    (dat : Pipeline.Dat τ (Elt F) Unit ℕ (Pipeline.UD sig nD τ) ℕ (cfg2 a) c)
    (tbl : Vec F S4096x26 .i32) (emb : Vec F S26x131073x64 .f32)
    (hafter : ∀ t : Fin (cfg2 a).N, dat.after 0 t = Gather0.gatherBlk tbl emb ((cfg2 a).grid.coords t)) :
    dat.arrAt 0 (cfg2 a).N = Cert.Spec.embChunk tbl emb := by
  exact dat.arrAt_eq_of_cover 0 (Cert.Spec.embChunk tbl emb) (fun t _ => flushed_eq a c dat tbl emb hafter t) (cover a)

end Cert.KernelIdeal.GatherArr2

end
-- ==== Proof.GatherArr3.lean ====
import proofs.«407213_j20864951124667_1_alg».proof.Proof.G0Defs
import proofs.«407213_j20864951124667_1_alg».proof.Proof.InterBlocks
import proofs.«407213_j20864951124667_1_alg».proof.Proof.Spec
import proofs.«407213_j20864951124667_1_alg».proof.Proof.Gen.KernelIdeal.Launch
import Idealize.ShloMosaic.Lib.Pipeline.Value

/-!
  From the blocks of the fourth lookup call to its result array.

  The call runs over a grid of 4096 points; point `t` leaves in the output window one block of shape `[1, 26, 64]` and
  writes it back at block index `(t, 0, 0)` of the `[4096, 26, 64]` result array. If, at every point, the block left
  is the gathered block of that point (row `f` of the block is row `ids[t, f]` of table `f`), then the array ends
  holding the chunk lookup `Cert.Spec.embChunk`: every point writes back (the block index changes from each point to
  the next), the block of point `t` is row `t` of the chunk lookup, and row `r` of the array is covered by point `r`.
  Stated over any proof data of the pipeline, so that it composes with whatever establishes the per-point fact.
-/

noncomputable section

namespace Cert.KernelIdeal.GatherArr3

open Idealize.ShloMosaic Idealize.ShloMosaic.ValueIdx Idealize.ShloMosaic.TcCoe Idealize.SL.Sem
open Cert.KernelIdeal Cert.KernelIdeal.Gen

variable {F : FTy → Type} [FloatOps F]

/-- The grid of the call has 4096 points. -/
theorem N_cfg3 (a : (pcfg3 (F := F)).Adm) : (cfg3 a).N = 4096 := N_3

/-- The index of a point of the grid is below 4096. -/
theorem pt_lt (a : (pcfg3 (F := F)).Adm) (t : Fin (cfg3 a).N) : t.val < 4096 := by
  exact lt_of_lt_of_eq t.isLt (N_cfg3 a)

/-- The one coordinate of point `t` of the grid is `t`. -/
theorem coords_val (a : (pcfg3 (F := F)).Adm) (t : Fin (cfg3 a).N) :
    (((cfg3 a).grid.coords t : grid3.Coords) 0).val = t.val := by
  have hs : grid3.stride 0 = 1 := by decide
  show t.val / grid3.stride 0 % 4096 = t.val
  rw [hs, Nat.div_one, Nat.mod_eq_of_lt (pt_lt a t)]

/-- The block index of the output window at point `t`: `(t, 0, 0)`. -/
theorem index_facts (a : (pcfg3 (F := F)).Adm) (t : Fin (cfg3 a).N) :
    ((cfg3 a).win 0).index t (0 : Fin 3) = t.val ∧ ((cfg3 a).win 0).index t (1 : Fin 3) = 0
      ∧ ((cfg3 a).win 0).index t (2 : Fin 3) = 0 := by
  refine ⟨?_, rfl, rfl⟩
  show (BitVec.ofNat 32 (((cfg3 a).grid.coords t : grid3.Coords) 0).val).toNat = t.val
  rw [coords_val a t, BitVec.toNat_ofNat]
  exact Nat.mod_eq_of_lt (by have := pt_lt a t; omega)

/-- What point `t` writes back is block `t` of the chunk lookup. -/
theorem flushed_eq (a : (pcfg3 (F := F)).Adm) (c : Dev nD)
    (dat : Pipeline.Dat τ (Elt F) Unit ℕ (Pipeline.UD sig nD τ) ℕ (cfg3 a) c)
    (tbl : Vec F S4096x26 .i32) (emb : Vec F S26x131073x64 .f32)
    (hafter : ∀ t : Fin (cfg3 a).N, dat.after 0 t = Gather0.gatherBlk tbl emb ((cfg3 a).grid.coords t))
    (t : Fin (cfg3 a).N) :
    dat.flushed 0 t = (((cfg3 a).win 0).blk t).view.read (Elt F) (Cert.Spec.embChunk tbl emb) := by
  show ((cfg3 a).win 0).cut ((cfg3 a).grid.coords t) (dat.after 0 t) = _
  rw [hafter t]
  funext j
  revert j
  show ∀ j : S1x26x64.Idx, Gather0.gatherBlk tbl emb ((cfg3 a).grid.coords t) j
    = Cert.Spec.embChunk tbl emb ((((cfg3 a).win 0).blk t).view.emb j)
  intro j
  refine (Cert.InterBlocks.embChunk_point tbl emb ⟨t.val, pt_lt a t⟩ ((cfg3 a).grid.coords t) (coords_val a t) j).symm.trans ?_
  refine congrArg (Cert.Spec.embChunk tbl emb) ?_
  obtain ⟨e0, e1, e2⟩ := index_facts a t
  funext b
  apply Fin.ext
  match b with
  | ⟨0, _⟩ =>
    show t.val = ((cfg3 a).win 0).index t (0 : Fin 3) * 1 + 1 * (j 0).val
    have hj : (j 0).val < 1 := (j 0).isLt
    omega
  | ⟨1, _⟩ =>
    show (j 1).val = ((cfg3 a).win 0).index t (1 : Fin 3) * 26 + 1 * (j 1).val
    omega
  | ⟨2, _⟩ =>
    show (j 2).val = ((cfg3 a).win 0).index t (2 : Fin 3) * 64 + 1 * (j 2).val
    omega

/-- Every point of the grid writes its block back: the block index moves with the point. -/
theorem flush_all (a : (pcfg3 (F := F)).Adm) (t : Fin (cfg3 a).N) : ((cfg3 a).win 0).flush t = true := by
  unfold Pipeline.Window.flush
  rw [Bool.and_eq_true]
  refine ⟨rfl, ?_⟩
  rw [Bool.or_eq_true, decide_eq_true_eq, decide_eq_true_eq]
  by_cases h : t.val + 1 = (cfg3 a).grid.N
  · exact Or.inl h
  · have hlt : t.val + 1 < (cfg3 a).grid.N := by have ht : t.val < (cfg3 a).grid.N := t.isLt; omega
    refine Or.inr ⟨hlt, fun heq => ?_⟩
    have e := congrFun heq (0 : Fin 3)
    rw [(index_facts a ⟨t.val + 1, hlt⟩).1, (index_facts a t).1] at e
    exact absurd e (Nat.succ_ne_self _)

/-- Row `r` of the array lies in the block of point `r`. -/
theorem cover (a : (pcfg3 (F := F)).Adm) (i : S4096x26x64.Idx) :
    ∃ t : Fin (cfg3 a).N, ((cfg3 a).win 0).flush t = true ∧ i ∈ (((cfg3 a).win 0).blk t).view.set := by
  have hi0 : (i 0).val < 4096 := (i 0).isLt
  have hi1 : (i 1).val < 26 := (i 1).isLt
  have hi2 : (i 2).val < 64 := (i 2).isLt
  have hN : (i 0).val < (cfg3 a).N := lt_of_lt_of_eq hi0 (N_cfg3 a).symm
  refine ⟨⟨(i 0).val, hN⟩, flush_all a _, ?_⟩
  have hset := View.set_slice_whole main_v17 (((cfg3 a).win 0).rect ⟨(i 0).val, hN⟩)
  refine (Finset.ext_iff.mp hset i).mpr (Rect.mem_set_unit.mpr ?_)
  have e0 : ((cfg3 a).win 0).index ⟨(i 0).val, hN⟩ (0 : Fin 3) = (i 0).val := (index_facts a ⟨(i 0).val, hN⟩).1
  have e1 := (index_facts a ⟨(i 0).val, hN⟩).2.1
  have e2 := (index_facts a ⟨(i 0).val, hN⟩).2.2
  intro b
  match b with
  | ⟨0, _⟩ =>
    show ((cfg3 a).win 0).index ⟨(i 0).val, hN⟩ (0 : Fin 3) * 1 ≤ (i 0).val
      ∧ (i 0).val < ((cfg3 a).win 0).index ⟨(i 0).val, hN⟩ (0 : Fin 3) * 1 + 1
    rw [e0]; omega
  | ⟨1, _⟩ =>
    show ((cfg3 a).win 0).index ⟨(i 0).val, hN⟩ (1 : Fin 3) * 26 ≤ (i 1).val
      ∧ (i 1).val < ((cfg3 a).win 0).index ⟨(i 0).val, hN⟩ (1 : Fin 3) * 26 + 26
    rw [e1]; omega
  | ⟨2, _⟩ =>
    show ((cfg3 a).win 0).index ⟨(i 0).val, hN⟩ (2 : Fin 3) * 64 ≤ (i 2).val
      ∧ (i 2).val < ((cfg3 a).win 0).index ⟨(i 0).val, hN⟩ (2 : Fin 3) * 64 + 64
    rw [e2]; omega

/-- **The result array of the call is the chunk lookup**, given the gathered block at every point. -/
theorem arrAt_gather3 (a : (pcfg3 (F := F)).Adm) (c : Dev nD)
    (dat : Pipeline.Dat τ (Elt F) Unit ℕ (Pipeline.UD sig nD τ) ℕ (cfg3 a) c)
    (tbl : Vec F S4096x26 .i32) (emb : Vec F S26x131073x64 .f32)
    (hafter : ∀ t : Fin (cfg3 a).N, dat.after 0 t = Gather0.gatherBlk tbl emb ((cfg3 a).grid.coords t)) :
    dat.arrAt 0 (cfg3 a).N = Cert.Spec.embChunk tbl emb := by
  exact dat.arrAt_eq_of_cover 0 (Cert.Spec.embChunk tbl emb) (fun t _ => flushed_eq a c dat tbl emb hafter t) (cover a)

end Cert.KernelIdeal.GatherArr3

end
-- ==== Proof.KerValue.lean ====
/-
  The program's result as a pure term of the launch contents, given what the five kernel regions leave: the four
  gather regions each a chunk of the lookup, the interaction region the interaction of the dense head's result and the
  stacked chunks. The chunks stacked are the whole lookup, so the result is the tail of the interaction of the head and
  the lookup.
-/
import proofs.«407213_j20864951124667_1_alg».proof.Proof.KerHost
import proofs.«407213_j20864951124667_1_alg».proof.Proof.HostEq
import proofs.«407213_j20864951124667_1_alg».proof.Proof.EmbEq
import proofs.«407213_j20864951124667_1_alg».proof.Proof.Spec
import proofs.«407213_j20864951124667_1_alg».proof.Proof.Gen.ReferenceIdeal

noncomputable section

namespace Cert.KernelIdeal.KerValue

open Cert.KernelIdeal Cert.KernelIdeal.Gen
open Idealize.ShloMosaic Idealize.ShloMosaic.TcCoe Idealize.SL.Sem

variable (m : (ℓ : Loc nD τ sig) → Buf (Elt (F := Ideal)) ℓ) (outs : Gen.Outs (F := Ideal))

/-- The result, when every region leaves what its specification says of what it read. -/
theorem kernel_value (c : Dev nD)
    (h6 : outs 6 main_v11 c = Cert.Spec.embChunk (F := Ideal) (Gen.V5 m c main_v10) (Gen.V5 m c main_arg2))
    (h8 : outs 8 main_v13 c = Cert.Spec.embChunk (F := Ideal) (Gen.V7 m outs c main_v12) (Gen.V7 m outs c main_arg2))
    (h10 : outs 10 main_v15 c = Cert.Spec.embChunk (F := Ideal) (Gen.V9 m outs c main_v14) (Gen.V9 m outs c main_arg2))
    (h12 : outs 12 main_v17 c = Cert.Spec.embChunk (F := Ideal) (Gen.V11 m outs c main_v16) (Gen.V11 m outs c main_arg2))
    (h14 : outs 14 main_v19 c = Cert.Spec.interSpec (Gen.V13 m outs c main_v9) (Gen.V13 m outs c main_v18)) :
    Gen.V19 m outs c main_v34
      = KerHost.tailK
          (Cert.Spec.interSpec (KerHost.headK (m ((c : Thread nD τ).loc main_arg0)) (m ((c : Thread nD τ).loc main_arg3)) (m ((c : Thread nD τ).loc main_arg4)) (m ((c : Thread nD τ).loc main_arg5)) (m ((c : Thread nD τ).loc main_arg6)))
            (Cert.Spec.embSpec (F := Ideal) (m ((c : Thread nD τ).loc main_arg1)) (m ((c : Thread nD τ).loc main_arg2))))
          (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [KerHost.V19_v34, h14, KerHost.V13_v9, KerHost.V5_v9, KerHost.V13_v18, h6, h8, h10, h12,
    KerHost.V5_v10, KerHost.V7_v12, KerHost.V9_v14, KerHost.V11_v16,
    KerHost.V5_arg2, KerHost.V7_arg2, KerHost.V9_arg2, KerHost.V11_arg2, Cert.HostEq.chunks_eq]

end Cert.KernelIdeal.KerValue

end
-- ==== Proof.RegVals.lean ====
/-
  What the five kernel regions leave, as the specification's arrays, at the ideal values. Each region's result is what
  its pipeline leaves in its output array. A gather region's pipeline leaves, at every point of its grid, the gathered
  block of that point, so its array ends as the chunk of the lookup over the table of row numbers and the stacked tables
  the region finds. The interaction region's pipeline leaves, at every point, the block interaction of the two input
  blocks of that point, which is the interaction of the block's 256 batch rows, so its array ends as the interaction of
  the dense tokens and the stacked chunks the region finds. With these five the program's result is the tail of the
  interaction of the head and the lookup.
-/
import proofs.«407213_j20864951124667_1_alg».proof.Proof.Fr.Family
import proofs.«407213_j20864951124667_1_alg».proof.Proof.InterArr
import proofs.«407213_j20864951124667_1_alg».proof.Proof.InterK
import proofs.«407213_j20864951124667_1_alg».proof.Proof.GatherArr
import proofs.«407213_j20864951124667_1_alg».proof.Proof.GatherArr1
import proofs.«407213_j20864951124667_1_alg».proof.Proof.GatherArr2
import proofs.«407213_j20864951124667_1_alg».proof.Proof.GatherArr3
import proofs.«407213_j20864951124667_1_alg».proof.Proof.KerValue

noncomputable section

namespace Cert.KernelIdeal.RegVals

open Cert.KernelIdeal Cert.KernelIdeal.Gen Cert.KernelIdeal.Fr
open Idealize.ShloMosaic Idealize.ShloMosaic.TcCoe Idealize.SL.Sem

variable (m : (ℓ : Loc nD τ sig) → Buf (Elt (F := Ideal)) ℓ) (outs : Gen.Outs (F := Ideal))

/-- Region 0 leaves the first chunk of the lookup. -/
theorem val6 (hok : Fr.OutsOk m outs) (c : Dev nD) :
    outs 6 main_v11 c = Cert.Spec.embChunk (F := Ideal) (Gen.V5 m c main_v10) (Gen.V5 m c main_arg2) := by
  rw [hok.o0 c]
  exact GatherArr.arrAt_gather0 (adm0 (V5 m)) c (dat0 (atRefs (V5 m)) (adm0 (V5 m)) c) (Gen.V5 m c main_v10) (Gen.V5 m c main_arg2)
    (fun t => after0_0 (atRefs (V5 m)) (adm0 (V5 m)) c t)

/-- Region 4 leaves the interaction of the dense tokens and the stacked chunks. -/
theorem val14 (hok : Fr.OutsOk m outs) (c : Dev nD) :
    outs 14 main_v19 c = Cert.Spec.interSpec (Gen.V13 m outs c main_v9) (Gen.V13 m outs c main_v18) := by
  rw [hok.o4 c]
  refine InterArr.arrAt_inter c (dat4 (atRefs (V13 m outs)) c) (Gen.V13 m outs c main_v9) (Gen.V13 m outs c main_v18)
    Cert.InterK.interBlk_eq (fun t => ?_)
  refine (after4_2 (atRefs (V13 m outs)) c t).trans ?_
  show Inter.interBlk (((cfg4.win 0).blk t).view.read (Elt Ideal) (Gen.V13 m outs c main_v9))
      (((cfg4.win 1).blk t).view.read (Elt Ideal) (Gen.V13 m outs c main_v18)) = _
  rw [InterArr.rdD, InterArr.rdE]

/-- Region 1 leaves the second chunk of the lookup. -/
theorem val8 (hok : Fr.OutsOk m outs) (c : Dev nD) :
    outs 8 main_v13 c = Cert.Spec.embChunk (F := Ideal) (Gen.V7 m outs c main_v12) (Gen.V7 m outs c main_arg2) := by
  rw [hok.o1 c]
  exact GatherArr1.arrAt_gather1 (adm1 (V7 m outs)) c (dat1 (atRefs (V7 m outs)) (adm1 (V7 m outs)) c) (Gen.V7 m outs c main_v12) (Gen.V7 m outs c main_arg2)
    (fun t => after1_0 (atRefs (V7 m outs)) (adm1 (V7 m outs)) c t)

/-- Region 2 leaves the third chunk of the lookup. -/
theorem val10 (hok : Fr.OutsOk m outs) (c : Dev nD) :
    outs 10 main_v15 c = Cert.Spec.embChunk (F := Ideal) (Gen.V9 m outs c main_v14) (Gen.V9 m outs c main_arg2) := by
  rw [hok.o2 c]
  exact GatherArr2.arrAt_gather2 (adm2 (V9 m outs)) c (dat2 (atRefs (V9 m outs)) (adm2 (V9 m outs)) c) (Gen.V9 m outs c main_v14) (Gen.V9 m outs c main_arg2)
    (fun t => after2_0 (atRefs (V9 m outs)) (adm2 (V9 m outs)) c t)

/-- Region 3 leaves the fourth chunk of the lookup. -/
theorem val12 (hok : Fr.OutsOk m outs) (c : Dev nD) :
    outs 12 main_v17 c = Cert.Spec.embChunk (F := Ideal) (Gen.V11 m outs c main_v16) (Gen.V11 m outs c main_arg2) := by
  rw [hok.o3 c]
  exact GatherArr3.arrAt_gather3 (adm3 (V11 m outs)) c (dat3 (atRefs (V11 m outs)) (adm3 (V11 m outs)) c) (Gen.V11 m outs c main_v16) (Gen.V11 m outs c main_arg2)
    (fun t => after3_0 (atRefs (V11 m outs)) (adm3 (V11 m outs)) c t)

/-- The program's result, as a pure term of the launch contents, when the regions' results are what their pipelines
    leave in their output arrays. -/
theorem result (hok : Fr.OutsOk m outs) (c : Dev nD) :
    Gen.V19 m outs c main_v34
      = KerHost.tailK
          (Cert.Spec.interSpec (KerHost.headK (m ((c : Thread nD τ).loc main_arg0)) (m ((c : Thread nD τ).loc main_arg3)) (m ((c : Thread nD τ).loc main_arg4)) (m ((c : Thread nD τ).loc main_arg5)) (m ((c : Thread nD τ).loc main_arg6)))
            (Cert.Spec.embSpec (F := Ideal) (m ((c : Thread nD τ).loc main_arg1)) (m ((c : Thread nD τ).loc main_arg2))))
          (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  KerValue.kernel_value m outs c (val6 m outs hok c) (val8 m outs hok c) (val10 m outs hok c) (val12 m outs hok c) (val14 m outs hok c)

end Cert.KernelIdeal.RegVals

end
-- ==== Proof.Fr.LaunchCommon.lean ====
/- The launch shared by the frame and the run: the launch element, the rest state every core carries between items, and
   what the launch's deal makes of it. -/
import proofs.«407213_j20864951124667_1_alg».proof.Proof.Fr.Base
import Idealize.ShloMosaic.Lib.Pipeline.Frame
import Idealize.ShloMosaic.Lib.Pipeline.Regions
import Idealize.ShloMosaic.Lib.Pipeline.Kit

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

/-! # The launch, shared by the frame and the run

The regions' records are stated over the product algebra (the staging cells' rounds beside the transfer counters), no
index, level `0` everywhere, no variants. Between two items every core holds its unscoped buffers beside the SAME rest:
its generator register at some value and a ledger owing nothing. This module makes that rest from what the launch deals
each core, and splits the launch element between the staging cells and the counters. Everything here is over an
arbitrary admissible family `a` of table contents. -/

/-- The rest a core carries between any two items: the same at every one of the six points. -/
abbrev ER : Fin 6 → Dev nD → sProp 𝕄 := fun _ c => Rst (F := F) c

/-- Nothing is owed at launch. -/
abbrev O₀ : Dev nD → CellTallies nD τ sig Unit := 0

/-- No ghost resource is dealt beside the staging cells'. -/
abbrev G₀ : Dev nD → sProp 𝕄 := fun _ => iprop(emp)

section Elem

variable (a : (p : Fin 5) → (pcfgs (F := F) p).Adm)

/-- The launch element: the staging cells' initial rounds beside the unit of the transfer counters. -/
abbrev u₀ : Pipeline.UD sig nD τ :=
  (initOf (Pipeline.cells (Pipeline.pin (pcfgs (F := F)) a) (cellOf_inj a)) (Pipeline.launchToks (Pipeline.pin (pcfgs (F := F)) a) (cellOf_inj a)), 1)

/-- Owning the launch element gives the staging cells' initial rounds through the left embedding; the counters' unit
    is dropped, and the ghost resources are empty on every core. -/
theorem hu₀ : (ownU (u₀ a) : sProp 𝕄)
    ⊢ |={Set.univ}=> iprop(BI.own ((embL : Emb (UR sig nD τ) 𝕄) (initOf (Pipeline.cells (Pipeline.pin (pcfgs (F := F)) a) (cellOf_inj a)) (Pipeline.launchToks (Pipeline.pin (pcfgs (F := F)) a) (cellOf_inj a))))
        ∗ bigSep Finset.univ (G₀ (F := F))) := by
  iintro Hu
  ihave H' := (ownU_pair _ _) $$ Hu
  icases H' with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

end Elem

/-- No index is live anywhere. -/
theorem hL : ∀ g : GSem nD τ sig, g.1.2 ≠ .tc → L g = ∅ := fun _ _ => rfl

/-- THE LAUNCH'S REST: of what each core is dealt (its semaphores at zero, an empty ledger owing nothing, the launch
    credit, its generator register, no ghost resource) it keeps the register, at the value it has, and the ledger;
    the semaphores, the credit and the level facts are dropped. Core by core. -/
theorem hE0 (ρ : Dev nD → PrngReg) :
    iprop((bigSep Finset.univ fun c : Dev nD => iprop(unscopedSems0 c ∗ owes (c : Thread nD τ) (O₀ c) ∅ ∗ Pipeline.launchCred O₀ c ∗ prngReg c (ρ c) ∗ G₀ (F := F) c)) ∗ levAts L lv)
      ⊢ (|={Set.univ}=> bigSep Finset.univ (ER (F := F) 0) : sProp 𝕄) := by
  refine Pipeline.initEach L lv fun c => ?_
  iintro ⟨⟨-, HO, -, Hp, -⟩, -⟩
  imodintro
  isplitl [Hp]; · iexists _; iexact Hp
  iexists ∅; iexact HO

/-- THE END'S REST owes nothing: drop the generator register. -/
theorem hE5 (c : Dev nD) : ER (F := F) 5 c ⊢ (iprop(∃ W, owes (c : Thread nD τ) (0 : CellTallies nD τ sig Unit) W) : sProp 𝕄) := by
  iintro ⟨-, HO⟩
  iexact HO

end Cert.KernelIdeal.Fr

end
-- ==== Proof.Fr.Obl0.lean ====
/- Region 0's body obligation, from the gather body's triple (a hypothesis here: `Triple0`). -/
import proofs.«407213_j20864951124667_1_alg».proof.Proof.Fr.Dat0

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 0: the body obligation -/

section Obl0

variable (V : (c : Dev nD) → (b : Ref sig .tc) → Buf (Elt F) ((c : Thread nD τ).loc b)) (a : (pcfg0 (F := F)).Adm)

/-- The output window's current staging memref at point `t`. -/
abbrev st0_0 (t : Fin (cfg0 a).N) := ((cfg0 a).win 0).stage ((cfg0 a).slots t 0)

/-- The kernel body at point `t`, on what the pipeline calls it with. -/
abbrev bodyAt0 (t : Fin (cfg0 a).N) : Prog (TpuEff nD τ sig (Elt F) Λ₀ .tc) PUnit :=
  cc0__gather_kernel (grid0.coords t) (Memref.whole main_v10) (Memref.isWhole_whole _) (Memref.whole main_arg2) (Memref.isWhole_whole _)
    (spec0_0.stage ((cfg0 a).slots t 0)) (hstage0_0 (((cfg0 a).slots t 0).cast nbuf0_0)) cc0_scratch0

/-- The gather body's triple in the form the region consumes it: on the table of row numbers and the stacked tables held whole
    (at contents `tbl`, `emb`, every row number the point reads in range), the output block at anything, the body's 26 cells at
    zero and the core owing nothing, the body runs to the continuation holding them as they were and the output block at the
    gathered rows. -/
def Triple0 : Prop :=
  ∀ (c : Dev nD) (i : grid0.Coords) (arg3 : Memref sig .tc .vmem S1x26x64 .f32) (harg3 : arg3.IsWhole)
    (tbl : Vec F S4096x26 .i32) (emb : Vec F S26x131073x64 .f32)
    (hrange : ∀ f : Fin 26, (tbl (ValueIdx.ix2 (⟨(i 0).val, (i 0).isLt⟩ : Fin 4096) f)).toNat < 131073)
    (W : Waits sig Unit) (K : PUnit → sProp 𝕄),
    iprop(owns (c : Thread nD τ) (Memref.whole main_v10) fullShare tbl ∗ owns (c : Thread nD τ) (Memref.whole main_arg2) fullShare emb
        ∗ (∃ d, owns (c : Thread nD τ) arg3 fullShare d)
        ∗ Pipeline.ownSems0 (Ix := Unit) (Name := ℕ) (U := Pipeline.UD sig nD τ) (Lvl := ℕ) (Val := Elt F) (τ := τ) Gather0.osem c
        ∗ owes (c : Thread nD τ) 0 W
        ∗ (iprop(owns (c : Thread nD τ) (Memref.whole main_v10) fullShare tbl ∗ owns (c : Thread nD τ) (Memref.whole main_arg2) fullShare emb
            ∗ owns (c : Thread nD τ) arg3 fullShare (Gather0.gatherBlk tbl emb i)
            ∗ Pipeline.ownSems0 (Ix := Unit) (Name := ℕ) (U := Pipeline.UD sig nD τ) (Lvl := ℕ) (Val := Elt F) (τ := τ) Gather0.osem c
            ∗ (∃ W', owes (c : Thread nD τ) 0 W')) -∗ K ⟨⟩))
      ⊢ wp frame (wpE (defs₀ (F := F)) Variants.none c none) Set.univ
          (cc0__gather_kernel i (Memref.whole main_v10) (Memref.isWhole_whole _) (Memref.whole main_arg2) (Memref.isWhole_whole _) arg3 harg3 cc0_scratch0) K

def bodyPre0 (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d)))

def bodyPost0 (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t))

theorem sound_body0 (hG : Triple0 (F := F)) (c : Dev nD) (hpf : a.1 0 = V c main_v10)
    (hrng : ∀ (r : Fin 4096) (f : Fin 26), (tbl0 V c (ValueIdx.ix2 r f)).toNat < 131073) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  rw [Phi_eq0, Phi_eq0, after0_0]
  unfold Phi0
  rw [Pipeline.ΦD_eq, hbm0_eq, pref0_eq, hpf]
  unfold Dat.owesAt Pipeline.owesWithin
  rw [owed_eq0, owed_eq0]
  iintro ⟨⟨⟨HS, Hg, Hq, Hh⟩, Ht⟩, ⟨%W, -, HW⟩, ⟨%d0, H0⟩⟩
  iapply (hG c (grid0.coords t) _ _ (tbl0 V c) (emb0 V c) (fun f => hrng _ f) W _)
  isplitl [Ht]; · iexact Ht
  isplitl [Hh]; · iexact Hh
  isplitl [H0]; · iexists _; iexact H0
  isplitl [Hq]; · iexact Hq
  isplitl [HW]; · iexact HW
  iintro ⟨Ht, Hh, H0, Hq, ⟨%W', HW'⟩⟩
  isplitl [HS Hg Hq Hh Ht]
  · isplitr [Ht]
    · isplitl [HS]; · iexact HS
      isplitl [Hg]; · iexact Hg
      isplitl [Hq]; · iexact Hq
      iexact Hh
    · iexact Ht
  isplitl [HW']
  · iexists W'; isplitr; · ipureintro; exact fun _ _ => Or.inl trivial
    iexact HW'
  iexact H0

theorem body_obligation0 (hG : Triple0 (F := F)) (c : Dev nD) (hpf : a.1 0 = V c main_v10)
    (hrng : ∀ (r : Fin 4096) (f : Fin 26), (tbl0 V c (ValueIdx.ix2 r f)).toNat < 131073) :
    BodyObligation (dat0 (F := F) V a c) (defs₀ (F := F)) Variants.none () Set.univ := fun t => by
  rw [bigSep_W0, bigSep_W0]
  exact sound_body0 V a hG c hpf hrng t

end Obl0

end Cert.KernelIdeal.Fr

end
-- ==== Proof.Fr.Reg0.lean ====
/- Region 0 as a segment of the run: entered from the contents before it, left at the contents after it. -/
import proofs.«407213_j20864951124667_1_alg».proof.Proof.Fr.Family
import proofs.«407213_j20864951124667_1_alg».proof.Proof.Fr.Obl0
import Idealize.ShloMosaic.Lib.Pipeline.RegionsLoop

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 0 as a segment -/

section Reg0

variable (m : (ℓ : Loc nD τ sig) → Buf (Elt F) ℓ) (outs : Outs (F := F))

theorem hF0 (hok : OutsOk m outs) (c : Dev nD) (w : Fin (cfg0 (admM m outs 0)).W) :
    (pdatsM m outs 0 c).arrAt w (cfg0 (admM m outs 0)).N = atRefs (V6 m outs) c (Pipeline.arrRef spec0 w) :=
  match w with
  | ⟨0, _⟩ => by
    show _ = V6 m outs c main_v11
    simp only [Function.update_self]
    exact (hok.o0 c).symm
theorem hrest0 (c : Dev nD) : ∀ b, b ∉ Finset.univ.image (Pipeline.arrRef spec0) → atRefs (V6 m outs) c b = atRefs (V5 m) c b :=
  fun b hb => V6_of m outs c b fun h => hb (Finset.mem_image.mpr ⟨0, Finset.mem_univ _, (List.mem_singleton.mp h).symm⟩)

/-- `rest0_split` and `pref0_eq` in the spelling the library's pinned configuration gives them. -/
theorem rest0_pin (c : Dev nD) (W : (b : Ref sig .tc) → Buf (Elt F) ((c : Thread nD τ).loc b)) :
    (Pipeline.unscopedRest (Ix := Unit) (Name := ℕ) (U := Pipeline.UD sig nD τ) (Lvl := ℕ) (Pipeline.pin (pcfgs (F := F)) (admM m outs) 0).spec c W : sProp 𝕄)
      = iprop((owns (c : Thread nD τ) (Memref.whole main_v10) fullShare (W main_v10) ∗ owns (c : Thread nD τ) (Memref.whole main_arg2) fullShare (W main_arg2))
          ∗ bigSep (Pipeline.restRefs sig spec0 \ HT0) fun b => ((c : Thread nD τ).loc b) ↦{fullShare} W b) :=
  rest0_split c W
theorem pref0_pin (c : Dev nD) :
    (Pipeline.prefHeld (Ix := Unit) (Name := ℕ) (U := Pipeline.UD sig nD τ) (Lvl := ℕ) (pcfgs (F := F) 0).pre c (fun _ => fullShare) (admM m outs 0).1 : sProp 𝕄)
      = owns (c : Thread nD τ) (Memref.whole main_v10) fullShare (tbl0 (atRefs (V5 m)) c) :=
  (pref0_eq (admM m outs 0) c).trans (congrArg (owns (c : Thread nD τ) (Memref.whole main_v10) fullShare) (adm0_pf (V5 m) c))

theorem ownSemFacts0 : Pipeline.OwnSemFacts spec0 Gather0.osem := by decide

set_option backward.isDefEq.respectTransparency.types false in
def reg0 (hG : Triple0 (F := F)) (hok : OutsOk m outs)
    (hrng : ∀ (c : Dev nD) (r : Fin 4096) (f : Fin 26), (tbl0 (atRefs (V5 m)) c (ValueIdx.ix2 r f)).toNat < 131073) :
    Pipeline.RegionSeg (pcfgs (F := F)) (admM m outs) (pdatsM m outs) () defs₀ 𝒱₀ L lv 0 where
  win := (launch0 (F := F)).win.to₀
  block_pos := (launch0 (F := F)).block_pos
  stage_whole := (launch0 (F := F)).stage_whole
  K := Fin 26
  osem := Gather0.osem
  ho := ownSemFacts0
  hbody c := (body_obligation0 (atRefs (V5 m)) (admM m outs 0) hG c (adm0_pf (V5 m) c) (hrng c)).loose
  hwaits := Pipeline.hwaits_of_owed_zero _ _ _ _ L lv 0 fun _ _ => rfl
  pre c := iprop(StableHlo.held (c : Thread nD τ) (Pipeline.ucRefs τ sig) (V5 m c) ∗ Rst c)
  post c := iprop(StableHlo.held (c : Thread nD τ) (Pipeline.ucRefs τ sig) (V6 m outs c) ∗ Rst c)
  X c := iprop((∃ r, prngReg c r) ∗ Pipeline.ownSems0 (Ix := Unit) (Name := ℕ) (U := Pipeline.UD sig nD τ) (Lvl := ℕ) (Val := Elt F) (τ := τ) Gather0.osem c
    ∗ owns (c : Thread nD τ) (Memref.whole main_arg2) fullShare (emb0 (atRefs (V5 m)) c))
  Y c := iprop((∃ r, prngReg c r) ∗ owns (c : Thread nD τ) (Memref.whole main_arg2) fullShare (emb0 (atRefs (V5 m)) c)
    ∗ owns (c : Thread nD τ) (Memref.whole main_v10) fullShare (tbl0 (atRefs (V5 m)) c))
  Z c := bigSep (Pipeline.restRefs sig spec0 \ HT0) fun b => ((c : Thread nD τ).loc b) ↦{fullShare} atRefs (V5 m) c b
  hentry c := by
    have hsplit := Pipeline.arrays_of_unscopedBufs (p := 0) (pcfgs (F := F)) (admM m outs) (pdatsM m outs) (launch0 (F := F)).win (launch0 (F := F)).arr_whole c
      ((pdatsM m outs 0 c).share_full fun _ => rfl) (atRefs (V5 m) c) fun _ => rfl
    rw [Pipeline.unscopedBufs_held, rest0_pin] at hsplit
    rw [pref0_pin]
    iintro ⟨⟨Hub, Hp, HO⟩, Hsem, -⟩
    ihave H := hsplit $$ Hub
    icases H with ⟨Ha, ⟨Ht, Hh⟩, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hsem Hh]
    · isplitl [Hp]; · iexact Hp
      isplitl [Hsem]; · iexact Hsem
      iexact Hh
    iexact Hrest
  hin c := by
    rw [show (pdatsM m outs 0 c).Φ 0 = Phi0 (atRefs (V5 m)) (admM m outs 0) c from rfl]
    unfold Phi0; rw [Pipeline.ΦD_eq, hbm0_eq]
    iintro ⟨⟨Hp, Hs, Hh⟩, Ht, Hr⟩
    isplitr [Ht]
    · isplitl [Hr]; · iexact Hr
      isplitl [Hp]; · iexact Hp
      isplitl [Hs]; · iexact Hs
      iexact Hh
    iexact Ht
  hout c := by
    rw [show (pdatsM m outs 0 c).Φ (Fin.last _) = Phi0 (atRefs (V5 m)) (admM m outs 0) c from rfl]
    unfold Phi0; rw [Pipeline.ΦD_eq, hbm0_eq, pref0_eq, show (admM m outs 0).1 0 = tbl0 (atRefs (V5 m)) c from adm0_pf (V5 m) c]
    iintro ⟨⟨Hr, Hp, Hs, Hh⟩, Ht⟩
    isplitl [Hp Hh Ht]
    · isplitl [Hp]; · iexact Hp
      isplitl [Hh]; · iexact Hh
      iexact Ht
    isplitl [Hs]; · iexact Hs
    iexact Hr
  hexit c := by
    have hjoin := Pipeline.unscopedBufs_of_arrays (p := 0) (pcfgs (F := F)) (admM m outs) (Ix := Unit) (Name := ℕ) (U := Pipeline.UD sig nD τ) (Lvl := ℕ)
      (launch0 (F := F)).win (launch0 (F := F)).arr_whole c (pdatsM m outs) ((pdatsM m outs 0 c).share_full fun _ => rfl)
      (atRefs (V5 m) c) (atRefs (V6 m outs) c) ((pdatsM m outs 0 c).arrAt · (cfg0 (admM m outs 0)).N) (hF0 m outs hok c) (hrest0 m outs c)
    rw [Pipeline.unscopedBufs_held, rest0_pin] at hjoin
    iintro ⟨Ha, HO, ⟨Hp, Hh, Ht⟩, Hrest⟩
    imodintro
    isplitl [Ha Hrest Hh Ht]
    · iapply hjoin
      isplitl [Ha]; · iexact Ha
      isplitl [Ht Hh]
      · isplitl [Ht]; · iexact Ht
        iexact Hh
      iexact Hrest
    isplitl [Hp]; · iexact Hp
    unfold Pipeline.Dat.owesAt Pipeline.owesWithin
    icases HO with ⟨%W, -, HO⟩; iexists W; iexact HO

end Reg0

end Cert.KernelIdeal.Fr

end
-- ==== Proof.Fr.Obl1.lean ====
/- Region 1's body obligation, from the gather body's triple (a hypothesis here: `Triple1`). -/
import proofs.«407213_j20864951124667_1_alg».proof.Proof.Fr.Dat1

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1: the body obligation -/

section Obl1

variable (V : (c : Dev nD) → (b : Ref sig .tc) → Buf (Elt F) ((c : Thread nD τ).loc b)) (a : (pcfg1 (F := F)).Adm)

/-- The output window's current staging memref at point `t`. -/
abbrev st1_0 (t : Fin (cfg1 a).N) := ((cfg1 a).win 0).stage ((cfg1 a).slots t 0)

/-- The kernel body at point `t`, on what the pipeline calls it with. -/
abbrev bodyAt1 (t : Fin (cfg1 a).N) : Prog (TpuEff nD τ sig (Elt F) Λ₀ .tc) PUnit :=
  cc1__gather_kernel (grid1.coords t) (Memref.whole main_v12) (Memref.isWhole_whole _) (Memref.whole main_arg2) (Memref.isWhole_whole _)
    (spec1_0.stage ((cfg1 a).slots t 0)) (hstage1_0 (((cfg1 a).slots t 0).cast nbuf1_0)) cc1_scratch0

/-- The gather body's triple in the form the region consumes it: on the table of row numbers and the stacked tables held whole
    (at contents `tbl`, `emb`, every row number the point reads in range), the output block at anything, the body's 26 cells at
    zero and the core owing nothing, the body runs to the continuation holding them as they were and the output block at the
    gathered rows. -/
def Triple1 : Prop :=
  ∀ (c : Dev nD) (i : grid1.Coords) (arg3 : Memref sig .tc .vmem S1x26x64 .f32) (harg3 : arg3.IsWhole)
    (tbl : Vec F S4096x26 .i32) (emb : Vec F S26x131073x64 .f32)
    (hrange : ∀ f : Fin 26, (tbl (ValueIdx.ix2 (⟨(i 0).val, (i 0).isLt⟩ : Fin 4096) f)).toNat < 131073)
    (W : Waits sig Unit) (K : PUnit → sProp 𝕄),
    iprop(owns (c : Thread nD τ) (Memref.whole main_v12) fullShare tbl ∗ owns (c : Thread nD τ) (Memref.whole main_arg2) fullShare emb
        ∗ (∃ d, owns (c : Thread nD τ) arg3 fullShare d)
        ∗ Pipeline.ownSems0 (Ix := Unit) (Name := ℕ) (U := Pipeline.UD sig nD τ) (Lvl := ℕ) (Val := Elt F) (τ := τ) Gather1.osem c
        ∗ owes (c : Thread nD τ) 0 W
        ∗ (iprop(owns (c : Thread nD τ) (Memref.whole main_v12) fullShare tbl ∗ owns (c : Thread nD τ) (Memref.whole main_arg2) fullShare emb
            ∗ owns (c : Thread nD τ) arg3 fullShare (Gather1.gatherBlk tbl emb i)
            ∗ Pipeline.ownSems0 (Ix := Unit) (Name := ℕ) (U := Pipeline.UD sig nD τ) (Lvl := ℕ) (Val := Elt F) (τ := τ) Gather1.osem c
            ∗ (∃ W', owes (c : Thread nD τ) 0 W')) -∗ K ⟨⟩))
      ⊢ wp frame (wpE (defs₀ (F := F)) Variants.none c none) Set.univ
          (cc1__gather_kernel i (Memref.whole main_v12) (Memref.isWhole_whole _) (Memref.whole main_arg2) (Memref.isWhole_whole _) arg3 harg3 cc1_scratch0) K

def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d)))

def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t))

theorem sound_body1 (hG : Triple1 (F := F)) (c : Dev nD) (hpf : a.1 0 = V c main_v12)
    (hrng : ∀ (r : Fin 4096) (f : Fin 26), (tbl1 V c (ValueIdx.ix2 r f)).toNat < 131073) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  rw [Phi_eq1, Phi_eq1, after1_0]
  unfold Phi1
  rw [Pipeline.ΦD_eq, hbm1_eq, pref1_eq, hpf]
  unfold Dat.owesAt Pipeline.owesWithin
  rw [owed_eq1, owed_eq1]
  iintro ⟨⟨⟨HS, Hg, Hq, Hh⟩, Ht⟩, ⟨%W, -, HW⟩, ⟨%d0, H1⟩⟩
  iapply (hG c (grid1.coords t) _ _ (tbl1 V c) (emb1 V c) (fun f => hrng _ f) W _)
  isplitl [Ht]; · iexact Ht
  isplitl [Hh]; · iexact Hh
  isplitl [H1]; · iexists _; iexact H1
  isplitl [Hq]; · iexact Hq
  isplitl [HW]; · iexact HW
  iintro ⟨Ht, Hh, H1, Hq, ⟨%W', HW'⟩⟩
  isplitl [HS Hg Hq Hh Ht]
  · isplitr [Ht]
    · isplitl [HS]; · iexact HS
      isplitl [Hg]; · iexact Hg
      isplitl [Hq]; · iexact Hq
      iexact Hh
    · iexact Ht
  isplitl [HW']
  · iexists W'; isplitr; · ipureintro; exact fun _ _ => Or.inl trivial
    iexact HW'
  iexact H1

theorem body_obligation1 (hG : Triple1 (F := F)) (c : Dev nD) (hpf : a.1 0 = V c main_v12)
    (hrng : ∀ (r : Fin 4096) (f : Fin 26), (tbl1 V c (ValueIdx.ix2 r f)).toNat < 131073) :
    BodyObligation (dat1 (F := F) V a c) (defs₀ (F := F)) Variants.none () Set.univ := fun t => by
  rw [bigSep_W1, bigSep_W1]
  exact sound_body1 V a hG c hpf hrng t

end Obl1

end Cert.KernelIdeal.Fr

end
-- ==== Proof.Fr.Reg1.lean ====
/- Region 1 as a segment of the run: entered from the contents before it, left at the contents after it. -/
import proofs.«407213_j20864951124667_1_alg».proof.Proof.Fr.Family
import proofs.«407213_j20864951124667_1_alg».proof.Proof.Fr.Obl1
import Idealize.ShloMosaic.Lib.Pipeline.RegionsLoop

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1 as a segment -/

section Reg1

variable (m : (ℓ : Loc nD τ sig) → Buf (Elt F) ℓ) (outs : Outs (F := F))

theorem hF1 (hok : OutsOk m outs) (c : Dev nD) (w : Fin (cfg1 (admM m outs 1)).W) :
    (pdatsM m outs 1 c).arrAt w (cfg1 (admM m outs 1)).N = atRefs (V8 m outs) c (Pipeline.arrRef spec1 w) :=
  match w with
  | ⟨0, _⟩ => by
    show _ = V8 m outs c main_v13
    simp only [Function.update_self]
    exact (hok.o1 c).symm
theorem hrest1 (c : Dev nD) : ∀ b, b ∉ Finset.univ.image (Pipeline.arrRef spec1) → atRefs (V8 m outs) c b = atRefs (V7 m outs) c b :=
  fun b hb => V8_of m outs c b fun h => hb (Finset.mem_image.mpr ⟨0, Finset.mem_univ _, (List.mem_singleton.mp h).symm⟩)

/-- `rest1_split` and `pref1_eq` in the spelling the library's pinned configuration gives them. -/
theorem rest1_pin (c : Dev nD) (W : (b : Ref sig .tc) → Buf (Elt F) ((c : Thread nD τ).loc b)) :
    (Pipeline.unscopedRest (Ix := Unit) (Name := ℕ) (U := Pipeline.UD sig nD τ) (Lvl := ℕ) (Pipeline.pin (pcfgs (F := F)) (admM m outs) 1).spec c W : sProp 𝕄)
      = iprop((owns (c : Thread nD τ) (Memref.whole main_v12) fullShare (W main_v12) ∗ owns (c : Thread nD τ) (Memref.whole main_arg2) fullShare (W main_arg2))
          ∗ bigSep (Pipeline.restRefs sig spec1 \ HT1) fun b => ((c : Thread nD τ).loc b) ↦{fullShare} W b) :=
  rest1_split c W
theorem pref1_pin (c : Dev nD) :
    (Pipeline.prefHeld (Ix := Unit) (Name := ℕ) (U := Pipeline.UD sig nD τ) (Lvl := ℕ) (pcfgs (F := F) 1).pre c (fun _ => fullShare) (admM m outs 1).1 : sProp 𝕄)
      = owns (c : Thread nD τ) (Memref.whole main_v12) fullShare (tbl1 (atRefs (V7 m outs)) c) :=
  (pref1_eq (admM m outs 1) c).trans (congrArg (owns (c : Thread nD τ) (Memref.whole main_v12) fullShare) (adm1_pf (V7 m outs) c))

theorem ownSemFacts1 : Pipeline.OwnSemFacts spec1 Gather1.osem := by decide

set_option backward.isDefEq.respectTransparency.types false in
def reg1 (hG : Triple1 (F := F)) (hok : OutsOk m outs)
    (hrng : ∀ (c : Dev nD) (r : Fin 4096) (f : Fin 26), (tbl1 (atRefs (V7 m outs)) c (ValueIdx.ix2 r f)).toNat < 131073) :
    Pipeline.RegionSeg (pcfgs (F := F)) (admM m outs) (pdatsM m outs) () defs₀ 𝒱₀ L lv 1 where
  win := (launch1 (F := F)).win.to₀
  block_pos := (launch1 (F := F)).block_pos
  stage_whole := (launch1 (F := F)).stage_whole
  K := Fin 26
  osem := Gather1.osem
  ho := ownSemFacts1
  hbody c := (body_obligation1 (atRefs (V7 m outs)) (admM m outs 1) hG c (adm1_pf (V7 m outs) c) (hrng c)).loose
  hwaits := Pipeline.hwaits_of_owed_zero _ _ _ _ L lv 1 fun _ _ => rfl
  pre c := iprop(StableHlo.held (c : Thread nD τ) (Pipeline.ucRefs τ sig) (V7 m outs c) ∗ Rst c)
  post c := iprop(StableHlo.held (c : Thread nD τ) (Pipeline.ucRefs τ sig) (V8 m outs c) ∗ Rst c)
  X c := iprop((∃ r, prngReg c r) ∗ Pipeline.ownSems0 (Ix := Unit) (Name := ℕ) (U := Pipeline.UD sig nD τ) (Lvl := ℕ) (Val := Elt F) (τ := τ) Gather1.osem c
    ∗ owns (c : Thread nD τ) (Memref.whole main_arg2) fullShare (emb1 (atRefs (V7 m outs)) c))
  Y c := iprop((∃ r, prngReg c r) ∗ owns (c : Thread nD τ) (Memref.whole main_arg2) fullShare (emb1 (atRefs (V7 m outs)) c)
    ∗ owns (c : Thread nD τ) (Memref.whole main_v12) fullShare (tbl1 (atRefs (V7 m outs)) c))
  Z c := bigSep (Pipeline.restRefs sig spec1 \ HT1) fun b => ((c : Thread nD τ).loc b) ↦{fullShare} atRefs (V7 m outs) c b
  hentry c := by
    have hsplit := Pipeline.arrays_of_unscopedBufs (p := 1) (pcfgs (F := F)) (admM m outs) (pdatsM m outs) (launch1 (F := F)).win (launch1 (F := F)).arr_whole c
      ((pdatsM m outs 1 c).share_full fun _ => rfl) (atRefs (V7 m outs) c) fun _ => rfl
    rw [Pipeline.unscopedBufs_held, rest1_pin] at hsplit
    rw [pref1_pin]
    iintro ⟨⟨Hub, Hp, HO⟩, Hsem, -⟩
    ihave H := hsplit $$ Hub
    icases H with ⟨Ha, ⟨Ht, Hh⟩, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hsem Hh]
    · isplitl [Hp]; · iexact Hp
      isplitl [Hsem]; · iexact Hsem
      iexact Hh
    iexact Hrest
  hin c := by
    rw [show (pdatsM m outs 1 c).Φ 0 = Phi1 (atRefs (V7 m outs)) (admM m outs 1) c from rfl]
    unfold Phi1; rw [Pipeline.ΦD_eq, hbm1_eq]
    iintro ⟨⟨Hp, Hs, Hh⟩, Ht, Hr⟩
    isplitr [Ht]
    · isplitl [Hr]; · iexact Hr
      isplitl [Hp]; · iexact Hp
      isplitl [Hs]; · iexact Hs
      iexact Hh
    iexact Ht
  hout c := by
    rw [show (pdatsM m outs 1 c).Φ (Fin.last _) = Phi1 (atRefs (V7 m outs)) (admM m outs 1) c from rfl]
    unfold Phi1; rw [Pipeline.ΦD_eq, hbm1_eq, pref1_eq, show (admM m outs 1).1 0 = tbl1 (atRefs (V7 m outs)) c from adm1_pf (V7 m outs) c]
    iintro ⟨⟨Hr, Hp, Hs, Hh⟩, Ht⟩
    isplitl [Hp Hh Ht]
    · isplitl [Hp]; · iexact Hp
      isplitl [Hh]; · iexact Hh
      iexact Ht
    isplitl [Hs]; · iexact Hs
    iexact Hr
  hexit c := by
    have hjoin := Pipeline.unscopedBufs_of_arrays (p := 1) (pcfgs (F := F)) (admM m outs) (Ix := Unit) (Name := ℕ) (U := Pipeline.UD sig nD τ) (Lvl := ℕ)
      (launch1 (F := F)).win (launch1 (F := F)).arr_whole c (pdatsM m outs) ((pdatsM m outs 1 c).share_full fun _ => rfl)
      (atRefs (V7 m outs) c) (atRefs (V8 m outs) c) ((pdatsM m outs 1 c).arrAt · (cfg1 (admM m outs 1)).N) (hF1 m outs hok c) (hrest1 m outs c)
    rw [Pipeline.unscopedBufs_held, rest1_pin] at hjoin
    iintro ⟨Ha, HO, ⟨Hp, Hh, Ht⟩, Hrest⟩
    imodintro
    isplitl [Ha Hrest Hh Ht]
    · iapply hjoin
      isplitl [Ha]; · iexact Ha
      isplitl [Ht Hh]
      · isplitl [Ht]; · iexact Ht
        iexact Hh
      iexact Hrest
    isplitl [Hp]; · iexact Hp
    unfold Pipeline.Dat.owesAt Pipeline.owesWithin
    icases HO with ⟨%W, -, HO⟩; iexists W; iexact HO

end Reg1

end Cert.KernelIdeal.Fr

end
-- ==== Proof.Fr.Obl2.lean ====
/- Region 2's body obligation, from the gather body's triple (a hypothesis here: `Triple2`). -/
import proofs.«407213_j20864951124667_1_alg».proof.Proof.Fr.Dat2

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 2: the body obligation -/

section Obl2

variable (V : (c : Dev nD) → (b : Ref sig .tc) → Buf (Elt F) ((c : Thread nD τ).loc b)) (a : (pcfg2 (F := F)).Adm)

/-- The output window's current staging memref at point `t`. -/
abbrev st2_0 (t : Fin (cfg2 a).N) := ((cfg2 a).win 0).stage ((cfg2 a).slots t 0)

/-- The kernel body at point `t`, on what the pipeline calls it with. -/
abbrev bodyAt2 (t : Fin (cfg2 a).N) : Prog (TpuEff nD τ sig (Elt F) Λ₀ .tc) PUnit :=
  cc2__gather_kernel (grid2.coords t) (Memref.whole main_v14) (Memref.isWhole_whole _) (Memref.whole main_arg2) (Memref.isWhole_whole _)
    (spec2_0.stage ((cfg2 a).slots t 0)) (hstage2_0 (((cfg2 a).slots t 0).cast nbuf2_0)) cc2_scratch0

/-- The gather body's triple in the form the region consumes it: on the table of row numbers and the stacked tables held whole
    (at contents `tbl`, `emb`, every row number the point reads in range), the output block at anything, the body's 26 cells at
    zero and the core owing nothing, the body runs to the continuation holding them as they were and the output block at the
    gathered rows. -/
def Triple2 : Prop :=
  ∀ (c : Dev nD) (i : grid2.Coords) (arg3 : Memref sig .tc .vmem S1x26x64 .f32) (harg3 : arg3.IsWhole)
    (tbl : Vec F S4096x26 .i32) (emb : Vec F S26x131073x64 .f32)
    (hrange : ∀ f : Fin 26, (tbl (ValueIdx.ix2 (⟨(i 0).val, (i 0).isLt⟩ : Fin 4096) f)).toNat < 131073)
    (W : Waits sig Unit) (K : PUnit → sProp 𝕄),
    iprop(owns (c : Thread nD τ) (Memref.whole main_v14) fullShare tbl ∗ owns (c : Thread nD τ) (Memref.whole main_arg2) fullShare emb
        ∗ (∃ d, owns (c : Thread nD τ) arg3 fullShare d)
        ∗ Pipeline.ownSems0 (Ix := Unit) (Name := ℕ) (U := Pipeline.UD sig nD τ) (Lvl := ℕ) (Val := Elt F) (τ := τ) Gather2.osem c
        ∗ owes (c : Thread nD τ) 0 W
        ∗ (iprop(owns (c : Thread nD τ) (Memref.whole main_v14) fullShare tbl ∗ owns (c : Thread nD τ) (Memref.whole main_arg2) fullShare emb
            ∗ owns (c : Thread nD τ) arg3 fullShare (Gather2.gatherBlk tbl emb i)
            ∗ Pipeline.ownSems0 (Ix := Unit) (Name := ℕ) (U := Pipeline.UD sig nD τ) (Lvl := ℕ) (Val := Elt F) (τ := τ) Gather2.osem c
            ∗ (∃ W', owes (c : Thread nD τ) 0 W')) -∗ K ⟨⟩))
      ⊢ wp frame (wpE (defs₀ (F := F)) Variants.none c none) Set.univ
          (cc2__gather_kernel i (Memref.whole main_v14) (Memref.isWhole_whole _) (Memref.whole main_arg2) (Memref.isWhole_whole _) arg3 harg3 cc2_scratch0) K

def bodyPre2 (c : Dev nD) (t : Fin (cfg2 a).N) : sProp 𝕄 :=
  iprop((dat2 V a c).Φ t.castSucc ∗ (dat2 V a c).owesAt () t.castSucc
    ∗ (∃ d, owns (c : Thread nD τ) (st2_0 a t) fullShare ((dat2 V a c).before 0 t d)))

def bodyPost2 (c : Dev nD) (t : Fin (cfg2 a).N) : sProp 𝕄 :=
  iprop((dat2 V a c).Φ t.succ ∗ (dat2 V a c).owesAt () t.succ
    ∗ owns (c : Thread nD τ) (st2_0 a t) fullShare ((dat2 V a c).after 0 t))

theorem sound_body2 (hG : Triple2 (F := F)) (c : Dev nD) (hpf : a.1 0 = V c main_v14)
    (hrng : ∀ (r : Fin 4096) (f : Fin 26), (tbl2 V c (ValueIdx.ix2 r f)).toNat < 131073) (t : Fin (cfg2 a).N) :
    bodyPre2 V a c t ⊢ wp frame (wpE (defs₀ (F := F)) Variants.none c none) Set.univ (bodyAt2 a t) (fun _ => bodyPost2 V a c t) := by
  unfold bodyPre2 bodyPost2 bodyAt2
  rw [Phi_eq2, Phi_eq2, after2_0]
  unfold Phi2
  rw [Pipeline.ΦD_eq, hbm2_eq, pref2_eq, hpf]
  unfold Dat.owesAt Pipeline.owesWithin
  rw [owed_eq2, owed_eq2]
  iintro ⟨⟨⟨HS, Hg, Hq, Hh⟩, Ht⟩, ⟨%W, -, HW⟩, ⟨%d0, H2⟩⟩
  iapply (hG c (grid2.coords t) _ _ (tbl2 V c) (emb2 V c) (fun f => hrng _ f) W _)
  isplitl [Ht]; · iexact Ht
  isplitl [Hh]; · iexact Hh
  isplitl [H2]; · iexists _; iexact H2
  isplitl [Hq]; · iexact Hq
  isplitl [HW]; · iexact HW
  iintro ⟨Ht, Hh, H2, Hq, ⟨%W', HW'⟩⟩
  isplitl [HS Hg Hq Hh Ht]
  · isplitr [Ht]
    · isplitl [HS]; · iexact HS
      isplitl [Hg]; · iexact Hg
      isplitl [Hq]; · iexact Hq
      iexact Hh
    · iexact Ht
  isplitl [HW']
  · iexists W'; isplitr; · ipureintro; exact fun _ _ => Or.inl trivial
    iexact HW'
  iexact H2

theorem body_obligation2 (hG : Triple2 (F := F)) (c : Dev nD) (hpf : a.1 0 = V c main_v14)
    (hrng : ∀ (r : Fin 4096) (f : Fin 26), (tbl2 V c (ValueIdx.ix2 r f)).toNat < 131073) :
    BodyObligation (dat2 (F := F) V a c) (defs₀ (F := F)) Variants.none () Set.univ := fun t => by
  rw [bigSep_W2, bigSep_W2]
  exact sound_body2 V a hG c hpf hrng t

end Obl2

end Cert.KernelIdeal.Fr

end
-- ==== Proof.Fr.Reg2.lean ====
/- Region 2 as a segment of the run: entered from the contents before it, left at the contents after it. -/
import proofs.«407213_j20864951124667_1_alg».proof.Proof.Fr.Family
import proofs.«407213_j20864951124667_1_alg».proof.Proof.Fr.Obl2
import Idealize.ShloMosaic.Lib.Pipeline.RegionsLoop

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 2 as a segment -/

section Reg2

variable (m : (ℓ : Loc nD τ sig) → Buf (Elt F) ℓ) (outs : Outs (F := F))

theorem hF2 (hok : OutsOk m outs) (c : Dev nD) (w : Fin (cfg2 (admM m outs 2)).W) :
    (pdatsM m outs 2 c).arrAt w (cfg2 (admM m outs 2)).N = atRefs (V10 m outs) c (Pipeline.arrRef spec2 w) :=
  match w with
  | ⟨0, _⟩ => by
    show _ = V10 m outs c main_v15
    simp only [Function.update_self]
    exact (hok.o2 c).symm
theorem hrest2 (c : Dev nD) : ∀ b, b ∉ Finset.univ.image (Pipeline.arrRef spec2) → atRefs (V10 m outs) c b = atRefs (V9 m outs) c b :=
  fun b hb => V10_of m outs c b fun h => hb (Finset.mem_image.mpr ⟨0, Finset.mem_univ _, (List.mem_singleton.mp h).symm⟩)

/-- `rest2_split` and `pref2_eq` in the spelling the library's pinned configuration gives them. -/
theorem rest2_pin (c : Dev nD) (W : (b : Ref sig .tc) → Buf (Elt F) ((c : Thread nD τ).loc b)) :
    (Pipeline.unscopedRest (Ix := Unit) (Name := ℕ) (U := Pipeline.UD sig nD τ) (Lvl := ℕ) (Pipeline.pin (pcfgs (F := F)) (admM m outs) 2).spec c W : sProp 𝕄)
      = iprop((owns (c : Thread nD τ) (Memref.whole main_v14) fullShare (W main_v14) ∗ owns (c : Thread nD τ) (Memref.whole main_arg2) fullShare (W main_arg2))
          ∗ bigSep (Pipeline.restRefs sig spec2 \ HT2) fun b => ((c : Thread nD τ).loc b) ↦{fullShare} W b) :=
  rest2_split c W
theorem pref2_pin (c : Dev nD) :
    (Pipeline.prefHeld (Ix := Unit) (Name := ℕ) (U := Pipeline.UD sig nD τ) (Lvl := ℕ) (pcfgs (F := F) 2).pre c (fun _ => fullShare) (admM m outs 2).1 : sProp 𝕄)
      = owns (c : Thread nD τ) (Memref.whole main_v14) fullShare (tbl2 (atRefs (V9 m outs)) c) :=
  (pref2_eq (admM m outs 2) c).trans (congrArg (owns (c : Thread nD τ) (Memref.whole main_v14) fullShare) (adm2_pf (V9 m outs) c))

theorem ownSemFacts2 : Pipeline.OwnSemFacts spec2 Gather2.osem := by decide

set_option backward.isDefEq.respectTransparency.types false in
def reg2 (hG : Triple2 (F := F)) (hok : OutsOk m outs)
    (hrng : ∀ (c : Dev nD) (r : Fin 4096) (f : Fin 26), (tbl2 (atRefs (V9 m outs)) c (ValueIdx.ix2 r f)).toNat < 131073) :
    Pipeline.RegionSeg (pcfgs (F := F)) (admM m outs) (pdatsM m outs) () defs₀ 𝒱₀ L lv 2 where
  win := (launch2 (F := F)).win.to₀
  block_pos := (launch2 (F := F)).block_pos
  stage_whole := (launch2 (F := F)).stage_whole
  K := Fin 26
  osem := Gather2.osem
  ho := ownSemFacts2
  hbody c := (body_obligation2 (atRefs (V9 m outs)) (admM m outs 2) hG c (adm2_pf (V9 m outs) c) (hrng c)).loose
  hwaits := Pipeline.hwaits_of_owed_zero _ _ _ _ L lv 2 fun _ _ => rfl
  pre c := iprop(StableHlo.held (c : Thread nD τ) (Pipeline.ucRefs τ sig) (V9 m outs c) ∗ Rst c)
  post c := iprop(StableHlo.held (c : Thread nD τ) (Pipeline.ucRefs τ sig) (V10 m outs c) ∗ Rst c)
  X c := iprop((∃ r, prngReg c r) ∗ Pipeline.ownSems0 (Ix := Unit) (Name := ℕ) (U := Pipeline.UD sig nD τ) (Lvl := ℕ) (Val := Elt F) (τ := τ) Gather2.osem c
    ∗ owns (c : Thread nD τ) (Memref.whole main_arg2) fullShare (emb2 (atRefs (V9 m outs)) c))
  Y c := iprop((∃ r, prngReg c r) ∗ owns (c : Thread nD τ) (Memref.whole main_arg2) fullShare (emb2 (atRefs (V9 m outs)) c)
    ∗ owns (c : Thread nD τ) (Memref.whole main_v14) fullShare (tbl2 (atRefs (V9 m outs)) c))
  Z c := bigSep (Pipeline.restRefs sig spec2 \ HT2) fun b => ((c : Thread nD τ).loc b) ↦{fullShare} atRefs (V9 m outs) c b
  hentry c := by
    have hsplit := Pipeline.arrays_of_unscopedBufs (p := 2) (pcfgs (F := F)) (admM m outs) (pdatsM m outs) (launch2 (F := F)).win (launch2 (F := F)).arr_whole c
      ((pdatsM m outs 2 c).share_full fun _ => rfl) (atRefs (V9 m outs) c) fun _ => rfl
    rw [Pipeline.unscopedBufs_held, rest2_pin] at hsplit
    rw [pref2_pin]
    iintro ⟨⟨Hub, Hp, HO⟩, Hsem, -⟩
    ihave H := hsplit $$ Hub
    icases H with ⟨Ha, ⟨Ht, Hh⟩, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hsem Hh]
    · isplitl [Hp]; · iexact Hp
      isplitl [Hsem]; · iexact Hsem
      iexact Hh
    iexact Hrest
  hin c := by
    rw [show (pdatsM m outs 2 c).Φ 0 = Phi2 (atRefs (V9 m outs)) (admM m outs 2) c from rfl]
    unfold Phi2; rw [Pipeline.ΦD_eq, hbm2_eq]
    iintro ⟨⟨Hp, Hs, Hh⟩, Ht, Hr⟩
    isplitr [Ht]
    · isplitl [Hr]; · iexact Hr
      isplitl [Hp]; · iexact Hp
      isplitl [Hs]; · iexact Hs
      iexact Hh
    iexact Ht
  hout c := by
    rw [show (pdatsM m outs 2 c).Φ (Fin.last _) = Phi2 (atRefs (V9 m outs)) (admM m outs 2) c from rfl]
    unfold Phi2; rw [Pipeline.ΦD_eq, hbm2_eq, pref2_eq, show (admM m outs 2).1 0 = tbl2 (atRefs (V9 m outs)) c from adm2_pf (V9 m outs) c]
    iintro ⟨⟨Hr, Hp, Hs, Hh⟩, Ht⟩
    isplitl [Hp Hh Ht]
    · isplitl [Hp]; · iexact Hp
      isplitl [Hh]; · iexact Hh
      iexact Ht
    isplitl [Hs]; · iexact Hs
    iexact Hr
  hexit c := by
    have hjoin := Pipeline.unscopedBufs_of_arrays (p := 2) (pcfgs (F := F)) (admM m outs) (Ix := Unit) (Name := ℕ) (U := Pipeline.UD sig nD τ) (Lvl := ℕ)
      (launch2 (F := F)).win (launch2 (F := F)).arr_whole c (pdatsM m outs) ((pdatsM m outs 2 c).share_full fun _ => rfl)
      (atRefs (V9 m outs) c) (atRefs (V10 m outs) c) ((pdatsM m outs 2 c).arrAt · (cfg2 (admM m outs 2)).N) (hF2 m outs hok c) (hrest2 m outs c)
    rw [Pipeline.unscopedBufs_held, rest2_pin] at hjoin
    iintro ⟨Ha, HO, ⟨Hp, Hh, Ht⟩, Hrest⟩
    imodintro
    isplitl [Ha Hrest Hh Ht]
    · iapply hjoin
      isplitl [Ha]; · iexact Ha
      isplitl [Ht Hh]
      · isplitl [Ht]; · iexact Ht
        iexact Hh
      iexact Hrest
    isplitl [Hp]; · iexact Hp
    unfold Pipeline.Dat.owesAt Pipeline.owesWithin
    icases HO with ⟨%W, -, HO⟩; iexists W; iexact HO

end Reg2

end Cert.KernelIdeal.Fr

end
-- ==== Proof.Fr.Obl3.lean ====
/- Region 3's body obligation, from the gather body's triple (a hypothesis here: `Triple3`). -/
import proofs.«407213_j20864951124667_1_alg».proof.Proof.Fr.Dat3

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 3: the body obligation -/

section Obl3

variable (V : (c : Dev nD) → (b : Ref sig .tc) → Buf (Elt F) ((c : Thread nD τ).loc b)) (a : (pcfg3 (F := F)).Adm)

/-- The output window's current staging memref at point `t`. -/
abbrev st3_0 (t : Fin (cfg3 a).N) := ((cfg3 a).win 0).stage ((cfg3 a).slots t 0)

/-- The kernel body at point `t`, on what the pipeline calls it with. -/
abbrev bodyAt3 (t : Fin (cfg3 a).N) : Prog (TpuEff nD τ sig (Elt F) Λ₀ .tc) PUnit :=
  cc3__gather_kernel (grid3.coords t) (Memref.whole main_v16) (Memref.isWhole_whole _) (Memref.whole main_arg2) (Memref.isWhole_whole _)
    (spec3_0.stage ((cfg3 a).slots t 0)) (hstage3_0 (((cfg3 a).slots t 0).cast nbuf3_0)) cc3_scratch0

/-- The gather body's triple in the form the region consumes it: on the table of row numbers and the stacked tables held whole
    (at contents `tbl`, `emb`, every row number the point reads in range), the output block at anything, the body's 26 cells at
    zero and the core owing nothing, the body runs to the continuation holding them as they were and the output block at the
    gathered rows. -/
def Triple3 : Prop :=
  ∀ (c : Dev nD) (i : grid3.Coords) (arg3 : Memref sig .tc .vmem S1x26x64 .f32) (harg3 : arg3.IsWhole)
    (tbl : Vec F S4096x26 .i32) (emb : Vec F S26x131073x64 .f32)
    (hrange : ∀ f : Fin 26, (tbl (ValueIdx.ix2 (⟨(i 0).val, (i 0).isLt⟩ : Fin 4096) f)).toNat < 131073)
    (W : Waits sig Unit) (K : PUnit → sProp 𝕄),
    iprop(owns (c : Thread nD τ) (Memref.whole main_v16) fullShare tbl ∗ owns (c : Thread nD τ) (Memref.whole main_arg2) fullShare emb
        ∗ (∃ d, owns (c : Thread nD τ) arg3 fullShare d)
        ∗ Pipeline.ownSems0 (Ix := Unit) (Name := ℕ) (U := Pipeline.UD sig nD τ) (Lvl := ℕ) (Val := Elt F) (τ := τ) Gather3.osem c
        ∗ owes (c : Thread nD τ) 0 W
        ∗ (iprop(owns (c : Thread nD τ) (Memref.whole main_v16) fullShare tbl ∗ owns (c : Thread nD τ) (Memref.whole main_arg2) fullShare emb
            ∗ owns (c : Thread nD τ) arg3 fullShare (Gather3.gatherBlk tbl emb i)
            ∗ Pipeline.ownSems0 (Ix := Unit) (Name := ℕ) (U := Pipeline.UD sig nD τ) (Lvl := ℕ) (Val := Elt F) (τ := τ) Gather3.osem c
            ∗ (∃ W', owes (c : Thread nD τ) 0 W')) -∗ K ⟨⟩))
      ⊢ wp frame (wpE (defs₀ (F := F)) Variants.none c none) Set.univ
          (cc3__gather_kernel i (Memref.whole main_v16) (Memref.isWhole_whole _) (Memref.whole main_arg2) (Memref.isWhole_whole _) arg3 harg3 cc3_scratch0) K

def bodyPre3 (c : Dev nD) (t : Fin (cfg3 a).N) : sProp 𝕄 :=
  iprop((dat3 V a c).Φ t.castSucc ∗ (dat3 V a c).owesAt () t.castSucc
    ∗ (∃ d, owns (c : Thread nD τ) (st3_0 a t) fullShare ((dat3 V a c).before 0 t d)))

def bodyPost3 (c : Dev nD) (t : Fin (cfg3 a).N) : sProp 𝕄 :=
  iprop((dat3 V a c).Φ t.succ ∗ (dat3 V a c).owesAt () t.succ
    ∗ owns (c : Thread nD τ) (st3_0 a t) fullShare ((dat3 V a c).after 0 t))

theorem sound_body3 (hG : Triple3 (F := F)) (c : Dev nD) (hpf : a.1 0 = V c main_v16)
    (hrng : ∀ (r : Fin 4096) (f : Fin 26), (tbl3 V c (ValueIdx.ix2 r f)).toNat < 131073) (t : Fin (cfg3 a).N) :
    bodyPre3 V a c t ⊢ wp frame (wpE (defs₀ (F := F)) Variants.none c none) Set.univ (bodyAt3 a t) (fun _ => bodyPost3 V a c t) := by
  unfold bodyPre3 bodyPost3 bodyAt3
  rw [Phi_eq3, Phi_eq3, after3_0]
  unfold Phi3
  rw [Pipeline.ΦD_eq, hbm3_eq, pref3_eq, hpf]
  unfold Dat.owesAt Pipeline.owesWithin
  rw [owed_eq3, owed_eq3]
  iintro ⟨⟨⟨HS, Hg, Hq, Hh⟩, Ht⟩, ⟨%W, -, HW⟩, ⟨%d0, H3⟩⟩
  iapply (hG c (grid3.coords t) _ _ (tbl3 V c) (emb3 V c) (fun f => hrng _ f) W _)
  isplitl [Ht]; · iexact Ht
  isplitl [Hh]; · iexact Hh
  isplitl [H3]; · iexists _; iexact H3
  isplitl [Hq]; · iexact Hq
  isplitl [HW]; · iexact HW
  iintro ⟨Ht, Hh, H3, Hq, ⟨%W', HW'⟩⟩
  isplitl [HS Hg Hq Hh Ht]
  · isplitr [Ht]
    · isplitl [HS]; · iexact HS
      isplitl [Hg]; · iexact Hg
      isplitl [Hq]; · iexact Hq
      iexact Hh
    · iexact Ht
  isplitl [HW']
  · iexists W'; isplitr; · ipureintro; exact fun _ _ => Or.inl trivial
    iexact HW'
  iexact H3

theorem body_obligation3 (hG : Triple3 (F := F)) (c : Dev nD) (hpf : a.1 0 = V c main_v16)
    (hrng : ∀ (r : Fin 4096) (f : Fin 26), (tbl3 V c (ValueIdx.ix2 r f)).toNat < 131073) :
    BodyObligation (dat3 (F := F) V a c) (defs₀ (F := F)) Variants.none () Set.univ := fun t => by
  rw [bigSep_W3, bigSep_W3]
  exact sound_body3 V a hG c hpf hrng t

end Obl3

end Cert.KernelIdeal.Fr

end
-- ==== Proof.Fr.Reg3.lean ====
/- Region 3 as a segment of the run: entered from the contents before it, left at the contents after it. -/
import proofs.«407213_j20864951124667_1_alg».proof.Proof.Fr.Family
import proofs.«407213_j20864951124667_1_alg».proof.Proof.Fr.Obl3
import Idealize.ShloMosaic.Lib.Pipeline.RegionsLoop

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 3 as a segment -/

section Reg3

variable (m : (ℓ : Loc nD τ sig) → Buf (Elt F) ℓ) (outs : Outs (F := F))

theorem hF3 (hok : OutsOk m outs) (c : Dev nD) (w : Fin (cfg3 (admM m outs 3)).W) :
    (pdatsM m outs 3 c).arrAt w (cfg3 (admM m outs 3)).N = atRefs (V12 m outs) c (Pipeline.arrRef spec3 w) :=
  match w with
  | ⟨0, _⟩ => by
    show _ = V12 m outs c main_v17
    simp only [Function.update_self]
    exact (hok.o3 c).symm
theorem hrest3 (c : Dev nD) : ∀ b, b ∉ Finset.univ.image (Pipeline.arrRef spec3) → atRefs (V12 m outs) c b = atRefs (V11 m outs) c b :=
  fun b hb => V12_of m outs c b fun h => hb (Finset.mem_image.mpr ⟨0, Finset.mem_univ _, (List.mem_singleton.mp h).symm⟩)

/-- `rest3_split` and `pref3_eq` in the spelling the library's pinned configuration gives them. -/
theorem rest3_pin (c : Dev nD) (W : (b : Ref sig .tc) → Buf (Elt F) ((c : Thread nD τ).loc b)) :
    (Pipeline.unscopedRest (Ix := Unit) (Name := ℕ) (U := Pipeline.UD sig nD τ) (Lvl := ℕ) (Pipeline.pin (pcfgs (F := F)) (admM m outs) 3).spec c W : sProp 𝕄)
      = iprop((owns (c : Thread nD τ) (Memref.whole main_v16) fullShare (W main_v16) ∗ owns (c : Thread nD τ) (Memref.whole main_arg2) fullShare (W main_arg2))
          ∗ bigSep (Pipeline.restRefs sig spec3 \ HT3) fun b => ((c : Thread nD τ).loc b) ↦{fullShare} W b) :=
  rest3_split c W
theorem pref3_pin (c : Dev nD) :
    (Pipeline.prefHeld (Ix := Unit) (Name := ℕ) (U := Pipeline.UD sig nD τ) (Lvl := ℕ) (pcfgs (F := F) 3).pre c (fun _ => fullShare) (admM m outs 3).1 : sProp 𝕄)
      = owns (c : Thread nD τ) (Memref.whole main_v16) fullShare (tbl3 (atRefs (V11 m outs)) c) :=
  (pref3_eq (admM m outs 3) c).trans (congrArg (owns (c : Thread nD τ) (Memref.whole main_v16) fullShare) (adm3_pf (V11 m outs) c))

theorem ownSemFacts3 : Pipeline.OwnSemFacts spec3 Gather3.osem := by decide

set_option backward.isDefEq.respectTransparency.types false in
def reg3 (hG : Triple3 (F := F)) (hok : OutsOk m outs)
    (hrng : ∀ (c : Dev nD) (r : Fin 4096) (f : Fin 26), (tbl3 (atRefs (V11 m outs)) c (ValueIdx.ix2 r f)).toNat < 131073) :
    Pipeline.RegionSeg (pcfgs (F := F)) (admM m outs) (pdatsM m outs) () defs₀ 𝒱₀ L lv 3 where
  win := (launch3 (F := F)).win.to₀
  block_pos := (launch3 (F := F)).block_pos
  stage_whole := (launch3 (F := F)).stage_whole
  K := Fin 26
  osem := Gather3.osem
  ho := ownSemFacts3
  hbody c := (body_obligation3 (atRefs (V11 m outs)) (admM m outs 3) hG c (adm3_pf (V11 m outs) c) (hrng c)).loose
  hwaits := Pipeline.hwaits_of_owed_zero _ _ _ _ L lv 3 fun _ _ => rfl
  pre c := iprop(StableHlo.held (c : Thread nD τ) (Pipeline.ucRefs τ sig) (V11 m outs c) ∗ Rst c)
  post c := iprop(StableHlo.held (c : Thread nD τ) (Pipeline.ucRefs τ sig) (V12 m outs c) ∗ Rst c)
  X c := iprop((∃ r, prngReg c r) ∗ Pipeline.ownSems0 (Ix := Unit) (Name := ℕ) (U := Pipeline.UD sig nD τ) (Lvl := ℕ) (Val := Elt F) (τ := τ) Gather3.osem c
    ∗ owns (c : Thread nD τ) (Memref.whole main_arg2) fullShare (emb3 (atRefs (V11 m outs)) c))
  Y c := iprop((∃ r, prngReg c r) ∗ owns (c : Thread nD τ) (Memref.whole main_arg2) fullShare (emb3 (atRefs (V11 m outs)) c)
    ∗ owns (c : Thread nD τ) (Memref.whole main_v16) fullShare (tbl3 (atRefs (V11 m outs)) c))
  Z c := bigSep (Pipeline.restRefs sig spec3 \ HT3) fun b => ((c : Thread nD τ).loc b) ↦{fullShare} atRefs (V11 m outs) c b
  hentry c := by
    have hsplit := Pipeline.arrays_of_unscopedBufs (p := 3) (pcfgs (F := F)) (admM m outs) (pdatsM m outs) (launch3 (F := F)).win (launch3 (F := F)).arr_whole c
      ((pdatsM m outs 3 c).share_full fun _ => rfl) (atRefs (V11 m outs) c) fun _ => rfl
    rw [Pipeline.unscopedBufs_held, rest3_pin] at hsplit
    rw [pref3_pin]
    iintro ⟨⟨Hub, Hp, HO⟩, Hsem, -⟩
    ihave H := hsplit $$ Hub
    icases H with ⟨Ha, ⟨Ht, Hh⟩, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hsem Hh]
    · isplitl [Hp]; · iexact Hp
      isplitl [Hsem]; · iexact Hsem
      iexact Hh
    iexact Hrest
  hin c := by
    rw [show (pdatsM m outs 3 c).Φ 0 = Phi3 (atRefs (V11 m outs)) (admM m outs 3) c from rfl]
    unfold Phi3; rw [Pipeline.ΦD_eq, hbm3_eq]
    iintro ⟨⟨Hp, Hs, Hh⟩, Ht, Hr⟩
    isplitr [Ht]
    · isplitl [Hr]; · iexact Hr
      isplitl [Hp]; · iexact Hp
      isplitl [Hs]; · iexact Hs
      iexact Hh
    iexact Ht
  hout c := by
    rw [show (pdatsM m outs 3 c).Φ (Fin.last _) = Phi3 (atRefs (V11 m outs)) (admM m outs 3) c from rfl]
    unfold Phi3; rw [Pipeline.ΦD_eq, hbm3_eq, pref3_eq, show (admM m outs 3).1 0 = tbl3 (atRefs (V11 m outs)) c from adm3_pf (V11 m outs) c]
    iintro ⟨⟨Hr, Hp, Hs, Hh⟩, Ht⟩
    isplitl [Hp Hh Ht]
    · isplitl [Hp]; · iexact Hp
      isplitl [Hh]; · iexact Hh
      iexact Ht
    isplitl [Hs]; · iexact Hs
    iexact Hr
  hexit c := by
    have hjoin := Pipeline.unscopedBufs_of_arrays (p := 3) (pcfgs (F := F)) (admM m outs) (Ix := Unit) (Name := ℕ) (U := Pipeline.UD sig nD τ) (Lvl := ℕ)
      (launch3 (F := F)).win (launch3 (F := F)).arr_whole c (pdatsM m outs) ((pdatsM m outs 3 c).share_full fun _ => rfl)
      (atRefs (V11 m outs) c) (atRefs (V12 m outs) c) ((pdatsM m outs 3 c).arrAt · (cfg3 (admM m outs 3)).N) (hF3 m outs hok c) (hrest3 m outs c)
    rw [Pipeline.unscopedBufs_held, rest3_pin] at hjoin
    iintro ⟨Ha, HO, ⟨Hp, Hh, Ht⟩, Hrest⟩
    imodintro
    isplitl [Ha Hrest Hh Ht]
    · iapply hjoin
      isplitl [Ha]; · iexact Ha
      isplitl [Ht Hh]
      · isplitl [Ht]; · iexact Ht
        iexact Hh
      iexact Hrest
    isplitl [Hp]; · iexact Hp
    unfold Pipeline.Dat.owesAt Pipeline.owesWithin
    icases HO with ⟨%W, -, HO⟩; iexists W; iexact HO

end Reg3

end Cert.KernelIdeal.Fr

end
-- ==== Proof.IBody.lean ====
/- The interaction kernel's body as a separation-logic triple. On whole staging memrefs, the two
   input blocks at contents x0 and x1 and the output block at any contents, the body runs to the
   continuation holding the inputs as they were and the output block at `interBlk x0 x1`.
   The body loads both input blocks whole, forms pure vector values of them, loads the output
   block (the value read is not used) and stores one value over the whole output block. The one
   store's rectangle is the whole block at zero offsets, so it covers every index and the block
   reads back as the stored value; a load through the whole-shape rectangle at zero offsets reads
   the contents, so the stored value is `interBlk` of the two contents. -/
import proofs.«407213_j20864951124667_1_alg».proof.Proof.IDefs
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.KernelIdeal.Inter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-- A pair of zero offsets is the zero function on two axes. -/
theorem off2_zero : (![0, 0] : Fin 2 → ℕ) = fun _ => 0 := by
  funext a; fin_cases a <;> rfl

/-- A triple of zero offsets is the zero function on three axes. -/
theorem off3_zero : (![0, 0, 0] : Fin 3 → ℕ) = fun _ => 0 := by
  funext a; fin_cases a <;> rfl

/-- A load through the whole-shape rectangle at zero offsets reads the view's contents. -/
theorem readAt_unit_zero {sig' : RefSig} {κ : Kind} {sp : Space} {S : Shape} {e : EltTy}
    (v : View sig' κ sp S e) (f : v.ty.Contents (Elt F)) {off : Fin S.rank → ℕ} (h : off = fun _ => 0)
    (inb : ∀ a, off a + S.size a ≤ S.size a) :
    v.readAt (Elt F) (Rect.unit off S.size inb).toLoadRect f = v.read (Elt F) f :=
  (View.readAt_eq_ld v f (Rect.unit off S.size inb)).trans (View.ld_unit_zero h inb _)

/-- The rectangle of the body's one store: the whole 256x415 block. -/
abbrev rOut : Rect S256x415 := Rect.unit (s := S256x415) ![0, 0] S256x415.size inb_S256x415_S256x415_0_0

/-- One piece on the whole block covers every index of the block. -/
theorem coverOut (p0 : Vec F S256x415 .f32) (y : S256x415.Idx) :
    ∃ pc ∈ ([⟨rOut, p0⟩] : List (View.Piece (Elt F) S256x415 .f32)), y ∈ pc.1.set :=
  ⟨_, List.mem_singleton_self _, View.mem_set_unit_zero off2_zero inb_S256x415_S256x415_0_0 y⟩

/-- The contents one store over the whole block leaves is the stored value. -/
theorem canonOut (p0 : Vec F S256x415 .f32) :
    View.canon ([⟨rOut, p0⟩] : List (View.Piece (Elt F) S256x415 .f32)) = p0 :=
  View.canon_unit_zero off2_zero inb_S256x415_S256x415_0_0 p0

set_option maxHeartbeats 4000000 in
/-- The body's triple: from the two input blocks at x0 and x1 and the output block at anything, to
    the same inputs and the output block at `interBlk x0 x1`. -/
theorem sound_inter (c : Dev nD) (E : Set ℕ) (i : grid4.Coords)
    (arg1 : Memref sig .tc .vmem S256x64 .f32) (harg1 : arg1.IsWhole)
    (arg2 : Memref sig .tc .vmem S256x26x64 .f32) (harg2 : arg2.IsWhole)
    (arg3 : Memref sig .tc .vmem S256x415 .f32) (harg3 : arg3.IsWhole)
    (x0 : Vec F S256x64 .f32) (x1 : Vec F S256x26x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (interBlk x0 x1)) -∗ K ⟨⟩))
      ⊢ wp frame (wpE (defs₀ (F := F)) Variants.none c none) E
          (cc4__interaction_kernel i arg1 harg1 arg2 harg2 arg3 harg3) K := by
  simp only [cc4__interaction_kernel_eq_skeleton]; unfold cc4__interaction_kernel_skel
  simp only [k4_part1_eq_skeleton]; unfold k4_part1_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the output block after the one covering store is the stored value; the two whole-block loads
  -- read the inputs' contents; what remains is the composition of the payloads, by unfolding
  refine (View.read_writes_eq_canon _ _ _ (coverOut _)).trans ((canonOut _).trans ?_)
  rw [readAt_unit_zero arg1.view f0 off2_zero inb_S256x64_S256x64_0_0,
    readAt_unit_zero arg2.view f1 off3_zero inb_S256x26x64_S256x26x64_0_0_0]
  rfl

end Cert.KernelIdeal.Inter

end
-- ==== Proof.Fr.Obl4.lean ====
/- Region 4's body obligation, from the interaction body's triple. -/
import proofs.«407213_j20864951124667_1_alg».proof.Proof.Fr.Dat4
import proofs.«407213_j20864951124667_1_alg».proof.Proof.IBody

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 4: the body obligation -/

section Obl4

variable (V : (c : Dev nD) → (b : Ref sig .tc) → Buf (Elt F) ((c : Thread nD τ).loc b))

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (Inter.sound_inter c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Obl4

end Cert.KernelIdeal.Fr

end
-- ==== Proof.Fr.Reg4.lean ====
/- Region 4 as a segment of the run: entered from the contents before it, left at the contents after it. -/
import proofs.«407213_j20864951124667_1_alg».proof.Proof.Fr.Family
import proofs.«407213_j20864951124667_1_alg».proof.Proof.Fr.Obl4
import Idealize.ShloMosaic.Lib.Pipeline.RegionsLoop

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 4 as a segment -/

section Reg4

variable (m : (ℓ : Loc nD τ sig) → Buf (Elt F) ℓ) (outs : Outs (F := F))

/-- At the region's exit each of its arrays holds what the pipeline leaves: the inputs as entered, the output its result. -/
theorem hF4 (hok : OutsOk m outs) (c : Dev nD) (w : Fin cfg4.W) :
    (pdatsM m outs 4 c).arrAt w cfg4.N = atRefs (V14 m outs) c (Pipeline.arrRef spec4 w) :=
  match w with
  | ⟨0, _⟩ => ((dat4 (atRefs (V13 m outs)) c).arrAt_in 0 rfl _).trans ((A_eq4 _ c 0).trans (V14_of m outs c main_v9 (by decide)).symm)
  | ⟨1, _⟩ => ((dat4 (atRefs (V13 m outs)) c).arrAt_in 1 rfl _).trans ((A_eq4 _ c 1).trans (V14_of m outs c main_v18 (by decide)).symm)
  | ⟨2, _⟩ => by
    show _ = V14 m outs c main_v19
    simp only [Function.update_self]
    exact (hok.o4 c).symm
/-- and every other buffer what it held at entry. -/
theorem hrest4 (c : Dev nD) : ∀ b, b ∉ Finset.univ.image (Pipeline.arrRef spec4) → atRefs (V14 m outs) c b = atRefs (V13 m outs) c b :=
  fun b hb => V14_of m outs c b fun h => hb (Finset.mem_image.mpr ⟨2, Finset.mem_univ _, (List.mem_singleton.mp h).symm⟩)

set_option backward.isDefEq.respectTransparency.types false in
/-- REGION 4 over the thread state: entered from every unscoped buffer at `V13`, left at `V14`; its arrays split out of the
    unscoped buffers and put back at the exit contents; the generator register into the class invariant and out; nothing
    owed; no semaphore of the kernel's own. -/
def reg4 (hok : OutsOk m outs) :
    Pipeline.RegionSeg (pcfgs (F := F)) (admM m outs) (pdatsM m outs) () defs₀ 𝒱₀ L lv 4 where
  win := (launch4 (F := F)).win.to₀
  block_pos := (launch4 (F := F)).block_pos
  stage_whole := (launch4 (F := F)).stage_whole
  K := PEmpty
  osem k := k.elim
  ho := Pipeline.OwnSemFacts.none _
  hbody c := (body_obligation4 (atRefs (V13 m outs)) c).loose
  hwaits := Pipeline.hwaits_of_owed_zero _ _ _ _ L lv 4 fun _ _ => rfl
  pre c := iprop(StableHlo.held (c : Thread nD τ) (Pipeline.ucRefs τ sig) (V13 m outs c) ∗ Rst c)
  post c := iprop(StableHlo.held (c : Thread nD τ) (Pipeline.ucRefs τ sig) (V14 m outs c) ∗ Rst c)
  X c := iprop(∃ r, prngReg c r)
  Y c := iprop(∃ r, prngReg c r)
  Z c := Pipeline.unscopedRest (Ix := Unit) (Name := ℕ) (U := Pipeline.UD sig nD τ) (Lvl := ℕ) spec4 c (atRefs (V13 m outs) c)
  hentry c := by
    rw [Pipeline.ownSems0_none]
    have hsplit := Pipeline.arrays_of_unscopedBufs (p := 4) (pcfgs (F := F)) (admM m outs) (pdatsM m outs) (launch4 (F := F)).win (launch4 (F := F)).arr_whole c
      ((pdatsM m outs 4 c).share_full fun _ => rfl) (atRefs (V13 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsM m outs 4 c).Φ 0 = Pipeline.ΦA (U := Pipeline.UD sig nD τ) spec4 c from rfl]; unfold Pipeline.ΦA
    iintro ⟨Hp, -, Hr⟩
    isplitl [Hr]; · iexact Hr
    iexact Hp
  hout c := by
    rw [Pipeline.ownSems0_none, show (pdatsM m outs 4 c).Φ (Fin.last _) = Pipeline.ΦA (U := Pipeline.UD sig nD τ) spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) (admM m outs) (Ix := Unit) (Name := ℕ) (U := Pipeline.UD sig nD τ) (Lvl := ℕ)
      (launch4 (F := F)).win (launch4 (F := F)).arr_whole c (pdatsM m outs) ((pdatsM m outs 4 c).share_full fun _ => rfl)
      (atRefs (V13 m outs) c) (atRefs (V14 m outs) c) ((pdatsM m outs 4 c).arrAt · cfg4.N) (hF4 m outs hok c) (hrest4 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Reg4

end Cert.KernelIdeal.Fr

end
-- ==== Proof.Fr.Outs.lean ====
/- The regions' results along the run, each what its pipeline leaves in its output array, and the run's valuations over them. -/
import proofs.«407213_j20864951124667_1_alg».proof.Proof.Fr.Family

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The regions' results along the run: each what its pipeline leaves in its output array, entered at the contents
    the run has reached; the run's valuations over these results, and that they satisfy the hypothesis tying results
    to proof data. -/

variable (m : (ℓ : Loc nD τ sig) → Buf (Elt F) ℓ)

/-- What region 0's pipeline leaves in its output array. -/
def X0 (c : Dev nD) : Buf (Elt F) ((c : Thread nD τ).loc main_v11) :=
  (dat0 (atRefs (V5 m)) (adm0 (V5 m)) c).arrAt 0 (cfg0 (adm0 (V5 m))).N
/-- The buffers after region 0. -/
def W6 (c : Dev nD) : Valuation τ sig (Elt F) := Function.update (V5 m c) main_v11 (X0 m c)
/-- The buffers after the host stretch that follows region 0. -/
def W7 (c : Dev nD) : Valuation τ sig (Elt F) := StableHlo.after hostOps1 (W6 m c)

/-- What region 1's pipeline leaves in its output array. -/
def X1 (c : Dev nD) : Buf (Elt F) ((c : Thread nD τ).loc main_v13) :=
  (dat1 (atRefs (W7 m)) (adm1 (W7 m)) c).arrAt 0 (cfg1 (adm1 (W7 m))).N
/-- The buffers after region 1. -/
def W8 (c : Dev nD) : Valuation τ sig (Elt F) := Function.update (W7 m c) main_v13 (X1 m c)
/-- The buffers after the host stretch that follows region 1. -/
def W9 (c : Dev nD) : Valuation τ sig (Elt F) := StableHlo.after hostOps2 (W8 m c)

/-- What region 2's pipeline leaves in its output array. -/
def X2 (c : Dev nD) : Buf (Elt F) ((c : Thread nD τ).loc main_v15) :=
  (dat2 (atRefs (W9 m)) (adm2 (W9 m)) c).arrAt 0 (cfg2 (adm2 (W9 m))).N
/-- The buffers after region 2. -/
def W10 (c : Dev nD) : Valuation τ sig (Elt F) := Function.update (W9 m c) main_v15 (X2 m c)
/-- The buffers after the host stretch that follows region 2. -/
def W11 (c : Dev nD) : Valuation τ sig (Elt F) := StableHlo.after hostOps3 (W10 m c)

/-- What region 3's pipeline leaves in its output array. -/
def X3 (c : Dev nD) : Buf (Elt F) ((c : Thread nD τ).loc main_v17) :=
  (dat3 (atRefs (W11 m)) (adm3 (W11 m)) c).arrAt 0 (cfg3 (adm3 (W11 m))).N
/-- The buffers after region 3. -/
def W12 (c : Dev nD) : Valuation τ sig (Elt F) := Function.update (W11 m c) main_v17 (X3 m c)
/-- The buffers after the host stretch that follows region 3. -/
def W13 (c : Dev nD) : Valuation τ sig (Elt F) := StableHlo.after hostOps4 (W12 m c)

/-- What region 4's pipeline leaves in its output array. -/
def X4 (c : Dev nD) : Buf (Elt F) ((c : Thread nD τ).loc main_v19) := (dat4 (atRefs (W13 m)) c).arrAt 2 cfg4.N
/-- The buffers after region 4. -/
def W14 (c : Dev nD) : Valuation τ sig (Elt F) := Function.update (W13 m c) main_v19 (X4 m c)

/-- The regions' results, read off the run's valuations. -/
def outsC : Outs (F := F) := fun J r c =>
  match J with
  | 6 => W6 m c r
  | 8 => W8 m c r
  | 10 => W10 m c r
  | 12 => W12 m c r
  | 14 => W14 m c r
  | _ => V5 m c r

/-! ## A region's result read back -/
theorem W6_self (c : Dev nD) : W6 m c main_v11 = X0 m c := Function.update_self _ _ _
theorem W8_self (c : Dev nD) : W8 m c main_v13 = X1 m c := Function.update_self _ _ _
theorem W10_self (c : Dev nD) : W10 m c main_v15 = X2 m c := Function.update_self _ _ _
theorem W12_self (c : Dev nD) : W12 m c main_v17 = X3 m c := Function.update_self _ _ _
theorem W14_self (c : Dev nD) : W14 m c main_v19 = X4 m c := Function.update_self _ _ _

/-! ## The run's valuations over these results -/

theorem V6_eq : V6 m (outsC m) = W6 m := by
  funext c
  show Function.update (V5 m c) main_v11 (W6 m c main_v11) = W6 m c
  rw [W6_self]; rfl
theorem V7_eq : V7 m (outsC m) = W7 m := by
  funext c
  show StableHlo.after hostOps1 (V6 m (outsC m) c) = W7 m c
  rw [V6_eq]; rfl

theorem V8_eq : V8 m (outsC m) = W8 m := by
  funext c
  show Function.update (V7 m (outsC m) c) main_v13 (W8 m c main_v13) = W8 m c
  rw [V7_eq, W8_self]; rfl
theorem V9_eq : V9 m (outsC m) = W9 m := by
  funext c
  show StableHlo.after hostOps2 (V8 m (outsC m) c) = W9 m c
  rw [V8_eq]; rfl

theorem V10_eq : V10 m (outsC m) = W10 m := by
  funext c
  show Function.update (V9 m (outsC m) c) main_v15 (W10 m c main_v15) = W10 m c
  rw [V9_eq, W10_self]; rfl
theorem V11_eq : V11 m (outsC m) = W11 m := by
  funext c
  show StableHlo.after hostOps3 (V10 m (outsC m) c) = W11 m c
  rw [V10_eq]; rfl

theorem V12_eq : V12 m (outsC m) = W12 m := by
  funext c
  show Function.update (V11 m (outsC m) c) main_v17 (W12 m c main_v17) = W12 m c
  rw [V11_eq, W12_self]; rfl
theorem V13_eq : V13 m (outsC m) = W13 m := by
  funext c
  show StableHlo.after hostOps4 (V12 m (outsC m) c) = W13 m c
  rw [V12_eq]; rfl

theorem V14_eq : V14 m (outsC m) = W14 m := by
  funext c
  show Function.update (V13 m (outsC m) c) main_v19 (W14 m c main_v19) = W14 m c
  rw [V13_eq, W14_self]; rfl

/-! ## The results are what the pipelines leave -/

theorem X1_of (E : Dev nD → Valuation τ sig (Elt F)) (h : E = W7 m) (c : Dev nD) :
    X1 m c = (dat1 (atRefs E) (adm1 E) c).arrAt 0 (cfg1 (adm1 E)).N := by subst h; rfl

theorem X2_of (E : Dev nD → Valuation τ sig (Elt F)) (h : E = W9 m) (c : Dev nD) :
    X2 m c = (dat2 (atRefs E) (adm2 E) c).arrAt 0 (cfg2 (adm2 E)).N := by subst h; rfl

theorem X3_of (E : Dev nD → Valuation τ sig (Elt F)) (h : E = W11 m) (c : Dev nD) :
    X3 m c = (dat3 (atRefs E) (adm3 E) c).arrAt 0 (cfg3 (adm3 E)).N := by subst h; rfl

theorem X4_of (E : Dev nD → Valuation τ sig (Elt F)) (h : E = W13 m) (c : Dev nD) :
    X4 m c = (dat4 (atRefs E) c).arrAt 2 cfg4.N := by subst h; rfl

theorem outsOk : OutsOk m (outsC m) where
  o0 c := W6_self m c
  o1 c := (W8_self m c).trans (X1_of m _ (V7_eq m) c)
  o2 c := (W10_self m c).trans (X2_of m _ (V9_eq m) c)
  o3 c := (W12_self m c).trans (X3_of m _ (V11_eq m) c)
  o4 c := (W14_self m c).trans (X4_of m _ (V13_eq m) c)

end Cert.KernelIdeal.Fr

end
-- ==== Proof.Fr.Frame.lean ====
/- The frame: every weakly fair execution of @main terminates and every argument array ends as launched, from the five
   regions' records and the launch. -/
import proofs.«407213_j20864951124667_1_alg».proof.Proof.Fr.LaunchCommon
import proofs.«407213_j20864951124667_1_alg».proof.Proof.Fr.Reg0
import proofs.«407213_j20864951124667_1_alg».proof.Proof.Fr.Reg1
import proofs.«407213_j20864951124667_1_alg».proof.Proof.Fr.Reg2
import proofs.«407213_j20864951124667_1_alg».proof.Proof.Fr.Reg3
import proofs.«407213_j20864951124667_1_alg».proof.Proof.Fr.Reg4
import proofs.«407213_j20864951124667_1_alg».proof.Proof.Fr.Outs

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

/-! # The frame

The conditional frame asks, per region, for a segment record entered from the thread state before it and left at the one
after it. The five records are entered and left at exactly those states, the rest being the same at all six points, so
each of the ten entailments is reflexivity; the launch is the shared one, at the tables' contents along the run. The four
gather regions' records are built from their bodies' triples, taken here as hypotheses. -/

/-- The frame over ANY contents `outs` the regions' results are (`hok`), given the four gather bodies' triples, the four
    tables' entries being in range at the contents each gather region is entered with. -/
theorem frame_of (m : (ℓ : Loc nD τ sig) → Buf (Elt F) ℓ) (ρ : Dev nD → PrngReg)
    (hG0 : Triple0 (F := F)) (hG1 : Triple1 (F := F)) (hG2 : Triple2 (F := F)) (hG3 : Triple3 (F := F))
    (outs : Outs (F := F)) (hok : OutsOk m outs)
    (hrng0 : ∀ (c : Dev nD) (r : Fin 4096) (f : Fin 26), (tbl0 (atRefs (V5 m)) c (ValueIdx.ix2 r f)).toNat < 131073)
    (hrng1 : ∀ (c : Dev nD) (r : Fin 4096) (f : Fin 26), (tbl1 (atRefs (V7 m outs)) c (ValueIdx.ix2 r f)).toNat < 131073)
    (hrng2 : ∀ (c : Dev nD) (r : Fin 4096) (f : Fin 26), (tbl2 (atRefs (V9 m outs)) c (ValueIdx.ix2 r f)).toNat < 131073)
    (hrng3 : ∀ (c : Dev nD) (r : Fin 4096) (f : Fin 26), (tbl3 (atRefs (V11 m outs)) c (ValueIdx.ix2 r f)).toNat < 131073) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Gen.frame_cond m embL () 𝒱₀ L lv hL ρ outs (admM m outs) (pdatsM m outs) O₀ G₀ (u₀ (admM m outs)) (hu₀ (admM m outs)) ER (hE0 ρ) hE5
    (reg0 m outs hG0 hok hrng0) (fun _ => .rfl) (fun _ => .rfl)
    (reg1 m outs hG1 hok hrng1) (fun _ => .rfl) (fun _ => .rfl)
    (reg2 m outs hG2 hok hrng2) (fun _ => .rfl) (fun _ => .rfl)
    (reg3 m outs hG3 hok hrng3) (fun _ => .rfl) (fun _ => .rfl)
    (reg4 m outs hok) (fun _ => .rfl) (fun _ => .rfl)

/-- THE FRAME, at the constructed contents: from any memory with zero counters every weakly fair execution of @main
    terminates, nothing faulting, and every final memory holds each argument array as launched, given the four gather
    bodies' triples, the four tables' entries being in range. -/
theorem frame (m : (ℓ : Loc nD τ sig) → Buf (Elt F) ℓ) (ρ : Dev nD → PrngReg)
    (hG0 : Triple0 (F := F)) (hG1 : Triple1 (F := F)) (hG2 : Triple2 (F := F)) (hG3 : Triple3 (F := F))
    (hrng0 : ∀ (c : Dev nD) (r : Fin 4096) (f : Fin 26), (tbl0 (atRefs (V5 m)) c (ValueIdx.ix2 r f)).toNat < 131073)
    (hrng1 : ∀ (c : Dev nD) (r : Fin 4096) (f : Fin 26), (tbl1 (atRefs (V7 m (outsC m))) c (ValueIdx.ix2 r f)).toNat < 131073)
    (hrng2 : ∀ (c : Dev nD) (r : Fin 4096) (f : Fin 26), (tbl2 (atRefs (V9 m (outsC m))) c (ValueIdx.ix2 r f)).toNat < 131073)
    (hrng3 : ∀ (c : Dev nD) (r : Fin 4096) (f : Fin 26), (tbl3 (atRefs (V11 m (outsC m))) c (ValueIdx.ix2 r f)).toNat < 131073) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ hG0 hG1 hG2 hG3 (outsC m) (outsOk m) hrng0 hrng1 hrng2 hrng3

end Cert.KernelIdeal.Fr

end
-- ==== Proof.Fr.Run.lean ====
/- The run: the frame's execution claim with the result array read off the last valuation as well. -/
import proofs.«407213_j20864951124667_1_alg».proof.Proof.Fr.LaunchCommon
import proofs.«407213_j20864951124667_1_alg».proof.Proof.Fr.Reg0
import proofs.«407213_j20864951124667_1_alg».proof.Proof.Fr.Reg1
import proofs.«407213_j20864951124667_1_alg».proof.Proof.Fr.Reg2
import proofs.«407213_j20864951124667_1_alg».proof.Proof.Fr.Reg3
import proofs.«407213_j20864951124667_1_alg».proof.Proof.Fr.Reg4
import proofs.«407213_j20864951124667_1_alg».proof.Proof.Fr.Outs
import proofs.«407213_j20864951124667_1_alg».proof.Proof.RunCond

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

/-! # The run

The same five records and the same launch, through the conditional claim whose post also reads the result array
`main_v34` off the last valuation. -/

/-- The run over ANY contents `outs` the regions' results are (`hok`), given the four gather bodies' triples. -/
theorem run_of (m : (ℓ : Loc nD τ sig) → Buf (Elt F) ℓ) (ρ : Dev nD → PrngReg)
    (hG0 : Triple0 (F := F)) (hG1 : Triple1 (F := F)) (hG2 : Triple2 (F := F)) (hG3 : Triple3 (F := F))
    (outs : Outs (F := F)) (hok : OutsOk m outs)
    (hrng0 : ∀ (c : Dev nD) (r : Fin 4096) (f : Fin 26), (tbl0 (atRefs (V5 m)) c (ValueIdx.ix2 r f)).toNat < 131073)
    (hrng1 : ∀ (c : Dev nD) (r : Fin 4096) (f : Fin 26), (tbl1 (atRefs (V7 m outs)) c (ValueIdx.ix2 r f)).toNat < 131073)
    (hrng2 : ∀ (c : Dev nD) (r : Fin 4096) (f : Fin 26), (tbl2 (atRefs (V9 m outs)) c (ValueIdx.ix2 r f)).toNat < 131073)
    (hrng3 : ∀ (c : Dev nD) (r : Fin 4096) (f : Fin 26), (tbl3 (atRefs (V11 m outs)) c (ValueIdx.ix2 r f)).toNat < 131073) :
    θ_run defs (onTc (τ := τ) (main (F := F))) ⟨m, fun _ => 0, ρ⟩ (fun r => ∀ c : Dev nD,
      r.2.mem ((c.tc : Thread nD τ).loc main_v34) = Gen.V19 m outs c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Cert.KernelIdeal.RunCond.run_cond m embL () 𝒱₀ L lv hL ρ outs (admM m outs) (pdatsM m outs) O₀ G₀ (u₀ (admM m outs)) (hu₀ (admM m outs)) ER (hE0 ρ) hE5
    (reg0 m outs hG0 hok hrng0) (fun _ => .rfl) (fun _ => .rfl)
    (reg1 m outs hG1 hok hrng1) (fun _ => .rfl) (fun _ => .rfl)
    (reg2 m outs hG2 hok hrng2) (fun _ => .rfl) (fun _ => .rfl)
    (reg3 m outs hG3 hok hrng3) (fun _ => .rfl) (fun _ => .rfl)
    (reg4 m outs hok) (fun _ => .rfl) (fun _ => .rfl)

/-- THE RUN, at the constructed contents: every weakly fair execution of @main from `m` with zero counters terminates and
    every final memory holds the result array at the last valuation's contents and each argument array as launched. -/
theorem run (m : (ℓ : Loc nD τ sig) → Buf (Elt F) ℓ) (ρ : Dev nD → PrngReg)
    (hG0 : Triple0 (F := F)) (hG1 : Triple1 (F := F)) (hG2 : Triple2 (F := F)) (hG3 : Triple3 (F := F))
    (hrng0 : ∀ (c : Dev nD) (r : Fin 4096) (f : Fin 26), (tbl0 (atRefs (V5 m)) c (ValueIdx.ix2 r f)).toNat < 131073)
    (hrng1 : ∀ (c : Dev nD) (r : Fin 4096) (f : Fin 26), (tbl1 (atRefs (V7 m (outsC m))) c (ValueIdx.ix2 r f)).toNat < 131073)
    (hrng2 : ∀ (c : Dev nD) (r : Fin 4096) (f : Fin 26), (tbl2 (atRefs (V9 m (outsC m))) c (ValueIdx.ix2 r f)).toNat < 131073)
    (hrng3 : ∀ (c : Dev nD) (r : Fin 4096) (f : Fin 26), (tbl3 (atRefs (V11 m (outsC m))) c (ValueIdx.ix2 r f)).toNat < 131073) :
    θ_run defs (onTc (τ := τ) (main (F := F))) ⟨m, fun _ => 0, ρ⟩ (fun r => ∀ c : Dev nD,
      r.2.mem ((c.tc : Thread nD τ).loc main_v34) = Gen.V19 m (outsC m) c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_of m ρ hG0 hG1 hG2 hG3 (outsC m) (outsOk m) hrng0 hrng1 hrng2 hrng3

end Cert.KernelIdeal.Fr

end
-- ==== Proof.Fr.TripG.lean ====
/- The gather body's triple stated once for all four gather calls: at any table memref, scratch array and cells, at any body table. -/
import proofs.«407213_j20864951124667_1_alg».proof.Proof.G0Defs
import proofs.«407213_j20864951124667_1_alg».proof.Proof.Gen.KernelIdeal
import Idealize.ShloMosaic.Lib.Pipeline.Frame

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The gather body's triple at any table memref, scratch array of cells (listed by `osem`) and body table: on the table of row
    numbers and the stacked tables held whole (every row number the point reads in range), the output block at anything, the
    26 cells at zero and the core owing nothing, the body runs to the continuation holding them as they were and the output
    block at the gathered rows. -/
def TripleG (arg1 : Memref sig .tc .smem S4096x26 .i32) (harg1 : arg1.IsWhole) (sems : DmaSems sig S26) (osem : Fin 26 → SemLoc sig)
    (D : Defs nD τ sig (Elt F) Λ₀) : Prop :=
  ∀ (c : Dev nD) (i : grid0.Coords) (arg3 : Memref sig .tc .vmem S1x26x64 .f32) (harg3 : arg3.IsWhole)
    (tbl : Vec F S4096x26 .i32) (emb : Vec F S26x131073x64 .f32)
    (hrange : ∀ f : Fin 26, (tbl (ValueIdx.ix2 (⟨(i 0).val, (i 0).isLt⟩ : Fin 4096) f)).toNat < 131073)
    (W : Waits sig Unit) (K : PUnit → sProp 𝕄),
    iprop(owns (c : Thread nD τ) arg1 fullShare tbl ∗ owns (c : Thread nD τ) (Memref.whole main_arg2) fullShare emb
        ∗ (∃ d, owns (c : Thread nD τ) arg3 fullShare d)
        ∗ Pipeline.ownSems0 (Ix := Unit) (Name := ℕ) (U := Pipeline.UD sig nD τ) (Lvl := ℕ) (Val := Elt F) (τ := τ) osem c
        ∗ owes (c : Thread nD τ) 0 W
        ∗ (iprop(owns (c : Thread nD τ) arg1 fullShare tbl ∗ owns (c : Thread nD τ) (Memref.whole main_arg2) fullShare emb
            ∗ owns (c : Thread nD τ) arg3 fullShare (Gather0.gatherBlk tbl emb i)
            ∗ Pipeline.ownSems0 (Ix := Unit) (Name := ℕ) (U := Pipeline.UD sig nD τ) (Lvl := ℕ) (Val := Elt F) (τ := τ) osem c
            ∗ (∃ W', owes (c : Thread nD τ) 0 W')) -∗ K ⟨⟩))
      ⊢ wp frame (wpE D Variants.none c none) Set.univ
          (cc0__gather_kernel i arg1 harg1 (Memref.whole main_arg2) (Memref.isWhole_whole _) arg3 harg3 sems) K

end Cert.KernelIdeal.Fr

end
-- ==== Proof.G0Run.lean ====
/-
  The gather call's body at one grid point: its run.

  At grid point `i` the body reads, for each of the 26 sub-tables `f`, the word `tbl[i, f]` from the table of row
  numbers (scalar memory), takes it for a row number in range (the side condition it assumes of the word: the one-row
  window at that row lies inside the stacked tables), and starts a copy of row `tbl[i, f]` of sub-table `f` into row
  `f` of the output window's buffer, each copy on a semaphore of its own; then it waits for the 26 copies in turn. No
  two copies share a semaphore, a source row or a destination row, every copy is waited for before the body ends, and
  nothing reads the window's buffer in between.

  This module proves what the assumed side conditions need — each word the body loads is the table's entry
  (`readAt_tbl`), which the range hypothesis puts in range (`chk1` … `chk26`) — and runs the body once
  (`gatherRun`): the window's buffer ends in eleven pieces — rows 0 to 9 each alone, and the rest — each at contents
  that hold on it what the buffer reading the gathered block holds: read at row `k`, the writes of the later rows
  miss it (`read_row_miss`), the write of row `k` gives the row the copy read (`read_row_hit`), and that row is
  `emb[k, tbl[i, k], ·]` (`read_src_row`). Putting the pieces together is the next module's.
-/
import proofs.«407213_j20864951124667_1_alg».proof.Proof.G0Defs
import proofs.«407213_j20864951124667_1_alg».proof.Proof.Gen.KernelIdeal.Skeleton
import Idealize.ShloMosaic.Lib.ValueIdx
import Idealize.ShloMosaic.Lib.Pipeline.FrameBody
import Idealize.ShloMosaic.Lib.Ring
import Idealize.ShloMosaic.Lib.WholeRead
import Idealize.ShloMosaic.Lib.Tactic

set_option maxRecDepth 16384

noncomputable section

namespace Cert.KernelIdeal.Gather0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts₀] [Facts]
open Facts₀ Facts

local notation "𝕄" => MT nD τ sig Unit (Elt F) ℕ (Pipeline.UD sig nD τ) ℕ

/-- The call's 26 own transfer-semaphore counters at zero: the cells of its scratch array, as cells of the pool. -/
abbrev sems0 (c : Dev nD) : sProp 𝕄 :=
  iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0)

/-- A unit load of a whole table held at the contents that read `tbl`, at offsets `(i, f)`, reads `tbl[i, f]`. -/
theorem readAt_tbl (i : grid0.Coords) (arg1 : Memref sig .tc .smem S4096x26 .i32) (harg1 : arg1.IsWhole)
    (tbl : Vec F S4096x26 .i32) (f : Fin 26) (off : Fin 2 → ℕ) (hoff : off = ![(i 0).val, f.val])
    (h : ∀ a, off a + S1x1.size a ≤ S4096x26.size a)
    (x : (Rect.unit (s := S4096x26) off S1x1.size h).toLoadRect.shape.Idx) :
    View.readAt (Elt F) arg1.view (Rect.unit (s := S4096x26) off S1x1.size h).toLoadRect (harg1.unread tbl) x
      = tbl (ValueIdx.ix2 (⟨(i 0).val, (i 0).isLt⟩ : Fin 4096) f) := by
  subst hoff
  rw [harg1.readAt_unread]
  congr 1
  funext a
  apply Fin.ext
  have hx : ∀ a, (x a).val = 0 := fun a => by
    have := (x a).isLt
    fin_cases a <;> simp_all [Rect.unit, Rect.toLoadRect, S1x1] <;> omega
  fin_cases a <;> simp [LoadRect.idx, Rect.unit, Rect.toLoadRect, ValueIdx.ix2, hx]

/-- The in-bounds condition of a one-row window of the stacked tables at sub-table `f` and a row below the count. -/
theorem chk_core (v : BitVec 32) (f : ℕ) (hf : f < 26) (hv : v.toNat < 131073) :
    ∀ a : Fin 3, (![f, v.toNat, 0] : Fin 3 → ℕ) a + S1x1x64.size a ≤ S26x131073x64.size a := by
  intro a
  fin_cases a <;> simp [S1x1x64, S26x131073x64] <;> omega

theorem off1_eq (i : grid0.Coords) : k0_off1 i = ![(i 0).val, 0] := by
  have h : (i 0).val < 4096 := (i 0).isLt
  unfold k0_off1
  simp only [Scalar.indexCast, BitVec.toNat_ofNat]
  congr 1
  omega

/-- The word the body loads for sub-table 0 satisfies the condition the body assumes of it. -/
theorem chk1 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk1 (View.readAt (Elt F) arg1.view (Rect.unit (s := S4096x26) (k0_off1 i) S1x1.size (Facts₀.k0_off1_inb i)).toLoadRect (harg1.unread tbl) x) := fun x => by
  rw [readAt_tbl i arg1 harg1 tbl (⟨0, by decide⟩ : Fin 26) _ (off1_eq i)]
  exact ⟨chk_core _ 0 (by decide) (hrange _), chk_core _ 0 (by decide) (hrange _)⟩

theorem off3_eq (i : grid0.Coords) : k0_off3 i = ![(i 0).val, 1] := by
  have h : (i 0).val < 4096 := (i 0).isLt
  unfold k0_off3
  simp only [Scalar.indexCast, BitVec.toNat_ofNat]
  congr 1
  omega

/-- The word the body loads for sub-table 1 satisfies the condition the body assumes of it. -/
theorem chk2 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk2 (View.readAt (Elt F) arg1.view (Rect.unit (s := S4096x26) (k0_off3 i) S1x1.size (Facts₀.k0_off3_inb i)).toLoadRect (harg1.unread tbl) x) := fun x => by
  rw [readAt_tbl i arg1 harg1 tbl (⟨1, by decide⟩ : Fin 26) _ (off3_eq i)]
  exact ⟨chk_core _ 1 (by decide) (hrange _), chk_core _ 1 (by decide) (hrange _)⟩

theorem off5_eq (i : grid0.Coords) : k0_off5 i = ![(i 0).val, 2] := by
  have h : (i 0).val < 4096 := (i 0).isLt
  unfold k0_off5
  simp only [Scalar.indexCast, BitVec.toNat_ofNat]
  congr 1
  omega

/-- The word the body loads for sub-table 2 satisfies the condition the body assumes of it. -/
theorem chk3 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk3 (View.readAt (Elt F) arg1.view (Rect.unit (s := S4096x26) (k0_off5 i) S1x1.size (Facts₀.k0_off5_inb i)).toLoadRect (harg1.unread tbl) x) := fun x => by
  rw [readAt_tbl i arg1 harg1 tbl (⟨2, by decide⟩ : Fin 26) _ (off5_eq i)]
  exact ⟨chk_core _ 2 (by decide) (hrange _), chk_core _ 2 (by decide) (hrange _)⟩

theorem off7_eq (i : grid0.Coords) : k0_off7 i = ![(i 0).val, 3] := by
  have h : (i 0).val < 4096 := (i 0).isLt
  unfold k0_off7
  simp only [Scalar.indexCast, BitVec.toNat_ofNat]
  congr 1
  omega

/-- The word the body loads for sub-table 3 satisfies the condition the body assumes of it. -/
theorem chk4 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk4 (View.readAt (Elt F) arg1.view (Rect.unit (s := S4096x26) (k0_off7 i) S1x1.size (Facts₀.k0_off7_inb i)).toLoadRect (harg1.unread tbl) x) := fun x => by
  rw [readAt_tbl i arg1 harg1 tbl (⟨3, by decide⟩ : Fin 26) _ (off7_eq i)]
  exact ⟨chk_core _ 3 (by decide) (hrange _), chk_core _ 3 (by decide) (hrange _)⟩

theorem off9_eq (i : grid0.Coords) : k0_off9 i = ![(i 0).val, 4] := by
  have h : (i 0).val < 4096 := (i 0).isLt
  unfold k0_off9
  simp only [Scalar.indexCast, BitVec.toNat_ofNat]
  congr 1
  omega

/-- The word the body loads for sub-table 4 satisfies the condition the body assumes of it. -/
theorem chk5 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk5 (View.readAt (Elt F) arg1.view (Rect.unit (s := S4096x26) (k0_off9 i) S1x1.size (Facts₀.k0_off9_inb i)).toLoadRect (harg1.unread tbl) x) := fun x => by
  rw [readAt_tbl i arg1 harg1 tbl (⟨4, by decide⟩ : Fin 26) _ (off9_eq i)]
  exact ⟨chk_core _ 4 (by decide) (hrange _), chk_core _ 4 (by decide) (hrange _)⟩

theorem off11_eq (i : grid0.Coords) : k0_off11 i = ![(i 0).val, 5] := by
  have h : (i 0).val < 4096 := (i 0).isLt
  unfold k0_off11
  simp only [Scalar.indexCast, BitVec.toNat_ofNat]
  congr 1
  omega

/-- The word the body loads for sub-table 5 satisfies the condition the body assumes of it. -/
theorem chk6 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk6 (View.readAt (Elt F) arg1.view (Rect.unit (s := S4096x26) (k0_off11 i) S1x1.size (Facts₀.k0_off11_inb i)).toLoadRect (harg1.unread tbl) x) := fun x => by
  rw [readAt_tbl i arg1 harg1 tbl (⟨5, by decide⟩ : Fin 26) _ (off11_eq i)]
  exact ⟨chk_core _ 5 (by decide) (hrange _), chk_core _ 5 (by decide) (hrange _)⟩

theorem off13_eq (i : grid0.Coords) : k0_off13 i = ![(i 0).val, 6] := by
  have h : (i 0).val < 4096 := (i 0).isLt
  unfold k0_off13
  simp only [Scalar.indexCast, BitVec.toNat_ofNat]
  congr 1
  omega

/-- The word the body loads for sub-table 6 satisfies the condition the body assumes of it. -/
theorem chk7 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk7 (View.readAt (Elt F) arg1.view (Rect.unit (s := S4096x26) (k0_off13 i) S1x1.size (Facts₀.k0_off13_inb i)).toLoadRect (harg1.unread tbl) x) := fun x => by
  rw [readAt_tbl i arg1 harg1 tbl (⟨6, by decide⟩ : Fin 26) _ (off13_eq i)]
  exact ⟨chk_core _ 6 (by decide) (hrange _), chk_core _ 6 (by decide) (hrange _)⟩

theorem off15_eq (i : grid0.Coords) : k0_off15 i = ![(i 0).val, 7] := by
  have h : (i 0).val < 4096 := (i 0).isLt
  unfold k0_off15
  simp only [Scalar.indexCast, BitVec.toNat_ofNat]
  congr 1
  omega

/-- The word the body loads for sub-table 7 satisfies the condition the body assumes of it. -/
theorem chk8 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk8 (View.readAt (Elt F) arg1.view (Rect.unit (s := S4096x26) (k0_off15 i) S1x1.size (Facts₀.k0_off15_inb i)).toLoadRect (harg1.unread tbl) x) := fun x => by
  rw [readAt_tbl i arg1 harg1 tbl (⟨7, by decide⟩ : Fin 26) _ (off15_eq i)]
  exact ⟨chk_core _ 7 (by decide) (hrange _), chk_core _ 7 (by decide) (hrange _)⟩

theorem off17_eq (i : grid0.Coords) : k0_off17 i = ![(i 0).val, 8] := by
  have h : (i 0).val < 4096 := (i 0).isLt
  unfold k0_off17
  simp only [Scalar.indexCast, BitVec.toNat_ofNat]
  congr 1
  omega

/-- The word the body loads for sub-table 8 satisfies the condition the body assumes of it. -/
theorem chk9 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk9 (View.readAt (Elt F) arg1.view (Rect.unit (s := S4096x26) (k0_off17 i) S1x1.size (Facts₀.k0_off17_inb i)).toLoadRect (harg1.unread tbl) x) := fun x => by
  rw [readAt_tbl i arg1 harg1 tbl (⟨8, by decide⟩ : Fin 26) _ (off17_eq i)]
  exact ⟨chk_core _ 8 (by decide) (hrange _), chk_core _ 8 (by decide) (hrange _)⟩

theorem off19_eq (i : grid0.Coords) : k0_off19 i = ![(i 0).val, 9] := by
  have h : (i 0).val < 4096 := (i 0).isLt
  unfold k0_off19
  simp only [Scalar.indexCast, BitVec.toNat_ofNat]
  congr 1
  omega

/-- The word the body loads for sub-table 9 satisfies the condition the body assumes of it. -/
theorem chk10 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk10 (View.readAt (Elt F) arg1.view (Rect.unit (s := S4096x26) (k0_off19 i) S1x1.size (Facts₀.k0_off19_inb i)).toLoadRect (harg1.unread tbl) x) := fun x => by
  rw [readAt_tbl i arg1 harg1 tbl (⟨9, by decide⟩ : Fin 26) _ (off19_eq i)]
  exact ⟨chk_core _ 9 (by decide) (hrange _), chk_core _ 9 (by decide) (hrange _)⟩

theorem off21_eq (i : grid0.Coords) : k0_off21 i = ![(i 0).val, 10] := by
  have h : (i 0).val < 4096 := (i 0).isLt
  unfold k0_off21
  simp only [Scalar.indexCast, BitVec.toNat_ofNat]
  congr 1
  omega

/-- The word the body loads for sub-table 10 satisfies the condition the body assumes of it. -/
theorem chk11 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk11 (View.readAt (Elt F) arg1.view (Rect.unit (s := S4096x26) (k0_off21 i) S1x1.size (Facts₀.k0_off21_inb i)).toLoadRect (harg1.unread tbl) x) := fun x => by
  rw [readAt_tbl i arg1 harg1 tbl (⟨10, by decide⟩ : Fin 26) _ (off21_eq i)]
  exact ⟨chk_core _ 10 (by decide) (hrange _), chk_core _ 10 (by decide) (hrange _)⟩

theorem off23_eq (i : grid0.Coords) : k0_off23 i = ![(i 0).val, 11] := by
  have h : (i 0).val < 4096 := (i 0).isLt
  unfold k0_off23
  simp only [Scalar.indexCast, BitVec.toNat_ofNat]
  congr 1
  omega

/-- The word the body loads for sub-table 11 satisfies the condition the body assumes of it. -/
theorem chk12 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk12 (View.readAt (Elt F) arg1.view (Rect.unit (s := S4096x26) (k0_off23 i) S1x1.size (Facts₀.k0_off23_inb i)).toLoadRect (harg1.unread tbl) x) := fun x => by
  rw [readAt_tbl i arg1 harg1 tbl (⟨11, by decide⟩ : Fin 26) _ (off23_eq i)]
  exact ⟨chk_core _ 11 (by decide) (hrange _), chk_core _ 11 (by decide) (hrange _)⟩

theorem off25_eq (i : grid0.Coords) : k0_off25 i = ![(i 0).val, 12] := by
  have h : (i 0).val < 4096 := (i 0).isLt
  unfold k0_off25
  simp only [Scalar.indexCast, BitVec.toNat_ofNat]
  congr 1
  omega

/-- The word the body loads for sub-table 12 satisfies the condition the body assumes of it. -/
theorem chk13 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk13 (View.readAt (Elt F) arg1.view (Rect.unit (s := S4096x26) (k0_off25 i) S1x1.size (Facts₀.k0_off25_inb i)).toLoadRect (harg1.unread tbl) x) := fun x => by
  rw [readAt_tbl i arg1 harg1 tbl (⟨12, by decide⟩ : Fin 26) _ (off25_eq i)]
  exact ⟨chk_core _ 12 (by decide) (hrange _), chk_core _ 12 (by decide) (hrange _)⟩

theorem off27_eq (i : grid0.Coords) : k0_off27 i = ![(i 0).val, 13] := by
  have h : (i 0).val < 4096 := (i 0).isLt
  unfold k0_off27
  simp only [Scalar.indexCast, BitVec.toNat_ofNat]
  congr 1
  omega

/-- The word the body loads for sub-table 13 satisfies the condition the body assumes of it. -/
theorem chk14 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk14 (View.readAt (Elt F) arg1.view (Rect.unit (s := S4096x26) (k0_off27 i) S1x1.size (Facts₀.k0_off27_inb i)).toLoadRect (harg1.unread tbl) x) := fun x => by
  rw [readAt_tbl i arg1 harg1 tbl (⟨13, by decide⟩ : Fin 26) _ (off27_eq i)]
  exact ⟨chk_core _ 13 (by decide) (hrange _), chk_core _ 13 (by decide) (hrange _)⟩

theorem off29_eq (i : grid0.Coords) : k0_off29 i = ![(i 0).val, 14] := by
  have h : (i 0).val < 4096 := (i 0).isLt
  unfold k0_off29
  simp only [Scalar.indexCast, BitVec.toNat_ofNat]
  congr 1
  omega

/-- The word the body loads for sub-table 14 satisfies the condition the body assumes of it. -/
theorem chk15 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk15 (View.readAt (Elt F) arg1.view (Rect.unit (s := S4096x26) (k0_off29 i) S1x1.size (Facts₀.k0_off29_inb i)).toLoadRect (harg1.unread tbl) x) := fun x => by
  rw [readAt_tbl i arg1 harg1 tbl (⟨14, by decide⟩ : Fin 26) _ (off29_eq i)]
  exact ⟨chk_core _ 14 (by decide) (hrange _), chk_core _ 14 (by decide) (hrange _)⟩

theorem off31_eq (i : grid0.Coords) : k0_off31 i = ![(i 0).val, 15] := by
  have h : (i 0).val < 4096 := (i 0).isLt
  unfold k0_off31
  simp only [Scalar.indexCast, BitVec.toNat_ofNat]
  congr 1
  omega

/-- The word the body loads for sub-table 15 satisfies the condition the body assumes of it. -/
theorem chk16 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk16 (View.readAt (Elt F) arg1.view (Rect.unit (s := S4096x26) (k0_off31 i) S1x1.size (Facts₀.k0_off31_inb i)).toLoadRect (harg1.unread tbl) x) := fun x => by
  rw [readAt_tbl i arg1 harg1 tbl (⟨15, by decide⟩ : Fin 26) _ (off31_eq i)]
  exact ⟨chk_core _ 15 (by decide) (hrange _), chk_core _ 15 (by decide) (hrange _)⟩

theorem off33_eq (i : grid0.Coords) : k0_off33 i = ![(i 0).val, 16] := by
  have h : (i 0).val < 4096 := (i 0).isLt
  unfold k0_off33
  simp only [Scalar.indexCast, BitVec.toNat_ofNat]
  congr 1
  omega

/-- The word the body loads for sub-table 16 satisfies the condition the body assumes of it. -/
theorem chk17 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk17 (View.readAt (Elt F) arg1.view (Rect.unit (s := S4096x26) (k0_off33 i) S1x1.size (Facts₀.k0_off33_inb i)).toLoadRect (harg1.unread tbl) x) := fun x => by
  rw [readAt_tbl i arg1 harg1 tbl (⟨16, by decide⟩ : Fin 26) _ (off33_eq i)]
  exact ⟨chk_core _ 16 (by decide) (hrange _), chk_core _ 16 (by decide) (hrange _)⟩

theorem off35_eq (i : grid0.Coords) : k0_off35 i = ![(i 0).val, 17] := by
  have h : (i 0).val < 4096 := (i 0).isLt
  unfold k0_off35
  simp only [Scalar.indexCast, BitVec.toNat_ofNat]
  congr 1
  omega

/-- The word the body loads for sub-table 17 satisfies the condition the body assumes of it. -/
theorem chk18 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk18 (View.readAt (Elt F) arg1.view (Rect.unit (s := S4096x26) (k0_off35 i) S1x1.size (Facts₀.k0_off35_inb i)).toLoadRect (harg1.unread tbl) x) := fun x => by
  rw [readAt_tbl i arg1 harg1 tbl (⟨17, by decide⟩ : Fin 26) _ (off35_eq i)]
  exact ⟨chk_core _ 17 (by decide) (hrange _), chk_core _ 17 (by decide) (hrange _)⟩

theorem off37_eq (i : grid0.Coords) : k0_off37 i = ![(i 0).val, 18] := by
  have h : (i 0).val < 4096 := (i 0).isLt
  unfold k0_off37
  simp only [Scalar.indexCast, BitVec.toNat_ofNat]
  congr 1
  omega

/-- The word the body loads for sub-table 18 satisfies the condition the body assumes of it. -/
theorem chk19 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk19 (View.readAt (Elt F) arg1.view (Rect.unit (s := S4096x26) (k0_off37 i) S1x1.size (Facts₀.k0_off37_inb i)).toLoadRect (harg1.unread tbl) x) := fun x => by
  rw [readAt_tbl i arg1 harg1 tbl (⟨18, by decide⟩ : Fin 26) _ (off37_eq i)]
  exact ⟨chk_core _ 18 (by decide) (hrange _), chk_core _ 18 (by decide) (hrange _)⟩

theorem off39_eq (i : grid0.Coords) : k0_off39 i = ![(i 0).val, 19] := by
  have h : (i 0).val < 4096 := (i 0).isLt
  unfold k0_off39
  simp only [Scalar.indexCast, BitVec.toNat_ofNat]
  congr 1
  omega

/-- The word the body loads for sub-table 19 satisfies the condition the body assumes of it. -/
theorem chk20 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk20 (View.readAt (Elt F) arg1.view (Rect.unit (s := S4096x26) (k0_off39 i) S1x1.size (Facts₀.k0_off39_inb i)).toLoadRect (harg1.unread tbl) x) := fun x => by
  rw [readAt_tbl i arg1 harg1 tbl (⟨19, by decide⟩ : Fin 26) _ (off39_eq i)]
  exact ⟨chk_core _ 19 (by decide) (hrange _), chk_core _ 19 (by decide) (hrange _)⟩

theorem off41_eq (i : grid0.Coords) : k0_off41 i = ![(i 0).val, 20] := by
  have h : (i 0).val < 4096 := (i 0).isLt
  unfold k0_off41
  simp only [Scalar.indexCast, BitVec.toNat_ofNat]
  congr 1
  omega

/-- The word the body loads for sub-table 20 satisfies the condition the body assumes of it. -/
theorem chk21 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk21 (View.readAt (Elt F) arg1.view (Rect.unit (s := S4096x26) (k0_off41 i) S1x1.size (Facts₀.k0_off41_inb i)).toLoadRect (harg1.unread tbl) x) := fun x => by
  rw [readAt_tbl i arg1 harg1 tbl (⟨20, by decide⟩ : Fin 26) _ (off41_eq i)]
  exact ⟨chk_core _ 20 (by decide) (hrange _), chk_core _ 20 (by decide) (hrange _)⟩

theorem off43_eq (i : grid0.Coords) : k0_off43 i = ![(i 0).val, 21] := by
  have h : (i 0).val < 4096 := (i 0).isLt
  unfold k0_off43
  simp only [Scalar.indexCast, BitVec.toNat_ofNat]
  congr 1
  omega

/-- The word the body loads for sub-table 21 satisfies the condition the body assumes of it. -/
theorem chk22 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk22 (View.readAt (Elt F) arg1.view (Rect.unit (s := S4096x26) (k0_off43 i) S1x1.size (Facts₀.k0_off43_inb i)).toLoadRect (harg1.unread tbl) x) := fun x => by
  rw [readAt_tbl i arg1 harg1 tbl (⟨21, by decide⟩ : Fin 26) _ (off43_eq i)]
  exact ⟨chk_core _ 21 (by decide) (hrange _), chk_core _ 21 (by decide) (hrange _)⟩

theorem off45_eq (i : grid0.Coords) : k0_off45 i = ![(i 0).val, 22] := by
  have h : (i 0).val < 4096 := (i 0).isLt
  unfold k0_off45
  simp only [Scalar.indexCast, BitVec.toNat_ofNat]
  congr 1
  omega

/-- The word the body loads for sub-table 22 satisfies the condition the body assumes of it. -/
theorem chk23 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk23 (View.readAt (Elt F) arg1.view (Rect.unit (s := S4096x26) (k0_off45 i) S1x1.size (Facts₀.k0_off45_inb i)).toLoadRect (harg1.unread tbl) x) := fun x => by
  rw [readAt_tbl i arg1 harg1 tbl (⟨22, by decide⟩ : Fin 26) _ (off45_eq i)]
  exact ⟨chk_core _ 22 (by decide) (hrange _), chk_core _ 22 (by decide) (hrange _)⟩

theorem off47_eq (i : grid0.Coords) : k0_off47 i = ![(i 0).val, 23] := by
  have h : (i 0).val < 4096 := (i 0).isLt
  unfold k0_off47
  simp only [Scalar.indexCast, BitVec.toNat_ofNat]
  congr 1
  omega

/-- The word the body loads for sub-table 23 satisfies the condition the body assumes of it. -/
theorem chk24 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk24 (View.readAt (Elt F) arg1.view (Rect.unit (s := S4096x26) (k0_off47 i) S1x1.size (Facts₀.k0_off47_inb i)).toLoadRect (harg1.unread tbl) x) := fun x => by
  rw [readAt_tbl i arg1 harg1 tbl (⟨23, by decide⟩ : Fin 26) _ (off47_eq i)]
  exact ⟨chk_core _ 23 (by decide) (hrange _), chk_core _ 23 (by decide) (hrange _)⟩

theorem off49_eq (i : grid0.Coords) : k0_off49 i = ![(i 0).val, 24] := by
  have h : (i 0).val < 4096 := (i 0).isLt
  unfold k0_off49
  simp only [Scalar.indexCast, BitVec.toNat_ofNat]
  congr 1
  omega

/-- The word the body loads for sub-table 24 satisfies the condition the body assumes of it. -/
theorem chk25 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk25 (View.readAt (Elt F) arg1.view (Rect.unit (s := S4096x26) (k0_off49 i) S1x1.size (Facts₀.k0_off49_inb i)).toLoadRect (harg1.unread tbl) x) := fun x => by
  rw [readAt_tbl i arg1 harg1 tbl (⟨24, by decide⟩ : Fin 26) _ (off49_eq i)]
  exact ⟨chk_core _ 24 (by decide) (hrange _), chk_core _ 24 (by decide) (hrange _)⟩

theorem off51_eq (i : grid0.Coords) : k0_off51 i = ![(i 0).val, 25] := by
  have h : (i 0).val < 4096 := (i 0).isLt
  unfold k0_off51
  simp only [Scalar.indexCast, BitVec.toNat_ofNat]
  congr 1
  omega

/-- The word the body loads for sub-table 25 satisfies the condition the body assumes of it. -/
theorem chk26 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk26 (View.readAt (Elt F) arg1.view (Rect.unit (s := S4096x26) (k0_off51 i) S1x1.size (Facts₀.k0_off51_inb i)).toLoadRect (harg1.unread tbl) x) := fun x => by
  rw [readAt_tbl i arg1 harg1 tbl (⟨25, by decide⟩ : Fin 26) _ (off51_eq i)]
  exact chk_core _ 25 (by decide) (hrange _)

/-- The one-row window at row `k` of the block lies inside it. -/
theorem row_inb (k : Fin 26) : ∀ a, (![0, k.val, 0] : Fin 3 → ℕ) a + S1x1x64.size a ≤ S1x26x64.size a := by
  intro a
  have := k.isLt
  fin_cases a <;> simp [S1x1x64, S1x26x64] <;> omega

/-- Row `k` of the block as the body names it: the block's window at `k`, its unit axes dropped. -/
abbrev rowM (arg3 : Memref sig .tc .vmem S1x26x64 .f32) (k : Fin 26) : Memref sig .tc .vmem S64 .f32 :=
  (arg3.slice (Rect.unit (s := S1x26x64) ![0, k.val, 0] S1x1x64.size (row_inb k)) (fun _ => rfl)).squeeze S64
    Facts₀.squeezes_S1x1x64_S64

section ViewLemmas

variable {sig' : RefSig} {Val : EltTy → Type} {κ : Kind} {sp : Space} {s : Shape} {e : EltTy}

/-- Read through a view after a whole write through one of its rectangles seen at another shape of as many
    elements: at the element the rectangle places index `x` of that shape, the payload at `x`; -/
theorem read_write_slice_reshape_emb (v : View sig' κ sp s e) (R : Rect s) {s3 : Shape} (hn : s3.numel = R.shape.numel)
    (f : v.ty.Contents Val) (w : s3.Idx → Val e) (x : s3.Idx) :
    v.read Val (((v.slice R).reshape s3 hn).write Val f w Finset.univ) (R.emb (Shape.reshapeEquiv hn x)) = w x := by
  rw [View.read_apply,
    show v.emb (R.emb (Shape.reshapeEquiv hn x)) = ((v.slice R).reshape s3 hn).emb x from rfl,
    View.write_emb_of_mem _ _ (Finset.mem_univ x), cast_cast, cast_eq]

/-- at an element the rectangle does not hold, the old contents. -/
theorem read_write_slice_reshape_of_not_mem (v : View sig' κ sp s e) (R : Rect s) {s3 : Shape} (hn : s3.numel = R.shape.numel)
    (f : v.ty.Contents Val) (w : s3.Idx → Val e) (y : s.Idx) (hy : ∀ x : s3.Idx, R.emb (Shape.reshapeEquiv hn x) ≠ y) :
    v.read Val (((v.slice R).reshape s3 hn).write Val f w Finset.univ) y = v.read Val f y := by
  rw [View.read_apply, View.read_apply, View.write_of_not_mem]
  intro hm
  obtain ⟨x, -, hx⟩ := Finset.mem_map.mp hm
  exact hy x (v.emb.injective (by exact hx))

end ViewLemmas

/-- An index of length `a` matched with shape `[1, 1, a]` sits behind two coordinates `0`. -/
theorem reshapeEquiv_ix1_11a {a : ℕ} (h : (⟨1, ![a]⟩ : Shape).numel = (⟨3, ![1, 1, a]⟩ : Shape).numel) (x : Fin a) :
    Shape.reshapeEquiv h (ValueIdx.ix1 x)
      = ValueIdx.ix3 (⟨0, Nat.one_pos⟩ : Fin 1) (⟨0, Nat.one_pos⟩ : Fin 1) x :=
  Shape.reshapeEquiv_eq_of_rowMajor h (by
    rw [Shape.rowMajor_val_three, Shape.rowMajor_val_one]
    show ((0 * 1 + 0) * a + x.val) = x.val
    simp only [Nat.zero_mul, Nat.zero_add])

/-- Where a rectangle of unit strides places an index: its offset further along each axis. -/
theorem emb_unit_val {s : Shape} (off size : Fin s.rank → ℕ) (inb : ∀ a, off a + size a ≤ s.size a)
    (z : (Rect.unit (s := s) off size inb).shape.Idx) (a : Fin s.rank) :
    ((Rect.unit (s := s) off size inb).emb z a).val = off a + (z a).val := by
  simp [Rect.unit, Rect.emb]

/-- Row `k` of the block after a whole write of a row through the squeezed one-row window at `k`: the row written. -/
theorem read_row_hit (arg3 : Memref sig .tc .vmem S1x26x64 .f32) (k : Fin 26) (off : Fin 3 → ℕ) (hoff : off = ![0, k.val, 0])
    (inb : ∀ a, off a + S1x1x64.size a ≤ S1x26x64.size a)
    (hs : ∀ a, (Rect.unit (s := S1x26x64) off S1x1x64.size inb).stride a = 1) (hq : S1x1x64.Squeezes S64)
    (g : arg3.view.ty.Contents (Elt F)) (P : S64.Idx → Elt F .f32) (j : Fin 64) :
    arg3.view.read (Elt F)
        ((((arg3.slice (Rect.unit (s := S1x26x64) off S1x1x64.size inb) hs).squeeze S64 hq).view).write (Elt F) g P Finset.univ)
        (ValueIdx.ix3 (⟨0, Nat.one_pos⟩ : Fin 1) k j)
      = P (ValueIdx.ix1 j) := by
  subst hoff
  simp only [Memref.view_squeeze, Memref.view_slice]
  have h := read_write_slice_reshape_emb (Val := Elt F) arg3.view
    (Rect.unit (s := S1x26x64) ![0, k.val, 0] S1x1x64.size inb) hq.numel_eq g P (ValueIdx.ix1 j)
  have hi : (Rect.unit (s := S1x26x64) ![0, k.val, 0] S1x1x64.size inb).emb (Shape.reshapeEquiv hq.numel_eq (ValueIdx.ix1 j))
      = ValueIdx.ix3 (⟨0, Nat.one_pos⟩ : Fin 1) k j := by
    funext a
    apply Fin.ext
    rw [emb_unit_val]
    have hz := congrFun (reshapeEquiv_ix1_11a (a := 64) hq.numel_eq j) a
    rw [hz]
    fin_cases a <;> simp [ValueIdx.ix3]
  rw [hi] at h
  exact h

/-- Any other row of the block after that write: as it was. -/
theorem read_row_miss (arg3 : Memref sig .tc .vmem S1x26x64 .f32) (k k' : Fin 26) (hk : k' ≠ k) (off : Fin 3 → ℕ) (hoff : off = ![0, k.val, 0])
    (inb : ∀ a, off a + S1x1x64.size a ≤ S1x26x64.size a)
    (hs : ∀ a, (Rect.unit (s := S1x26x64) off S1x1x64.size inb).stride a = 1) (hq : S1x1x64.Squeezes S64)
    (g : arg3.view.ty.Contents (Elt F)) (P : S64.Idx → Elt F .f32) (j : Fin 64) :
    arg3.view.read (Elt F)
        ((((arg3.slice (Rect.unit (s := S1x26x64) off S1x1x64.size inb) hs).squeeze S64 hq).view).write (Elt F) g P Finset.univ)
        (ValueIdx.ix3 (⟨0, Nat.one_pos⟩ : Fin 1) k' j)
      = arg3.view.read (Elt F) g (ValueIdx.ix3 (⟨0, Nat.one_pos⟩ : Fin 1) k' j) := by
  subst hoff
  simp only [Memref.view_squeeze, Memref.view_slice]
  refine read_write_slice_reshape_of_not_mem (Val := Elt F) arg3.view _ hq.numel_eq g P _ fun x hx => hk ?_
  have h1 := congrArg Fin.val (congrFun hx 1)
  rw [emb_unit_val] at h1
  have hz : ((Shape.reshapeEquiv hq.numel_eq x : (Rect.unit (s := S1x26x64) ![0, k.val, 0] S1x1x64.size inb).shape.Idx) 1).val < 1 :=
    (Shape.reshapeEquiv hq.numel_eq x 1).isLt
  apply Fin.ext
  simp [ValueIdx.ix3] at h1
  omega

/-- The row a transfer reads: through the squeezed one-row window at `(k, r)` of the stacked tables held at the
    contents that read `emb`, entry `j` is `emb[k, r, j]`. -/
theorem read_src_row (arg2 : Memref sig .tc .hbm S26x131073x64 .f32) (harg2 : arg2.IsWhole) (emb : Vec F S26x131073x64 .f32)
    (k : Fin 26) (r : Fin 131073) (off : Fin 3 → ℕ) (hoff : off = ![k.val, r.val, 0])
    (inb : ∀ a, off a + S1x1x64.size a ≤ S26x131073x64.size a)
    (hs : ∀ a, (Rect.unit (s := S26x131073x64) off S1x1x64.size inb).stride a = 1) (hq : S1x1x64.Squeezes S64) (j : Fin 64) :
    ((arg2.slice (Rect.unit (s := S26x131073x64) off S1x1x64.size inb) hs).squeeze S64 hq).view.read (Elt F)
        (harg2.unread emb) (ValueIdx.ix1 j)
      = emb (ValueIdx.ix3 k r j) := by
  subst hoff
  simp only [Memref.view_squeeze, Memref.view_slice]
  have hi : (Rect.unit (s := S26x131073x64) ![k.val, r.val, 0] S1x1x64.size inb).emb (Shape.reshapeEquiv hq.numel_eq (ValueIdx.ix1 j))
      = ValueIdx.ix3 k r j := by
    funext a
    apply Fin.ext
    rw [emb_unit_val]
    have hz := congrFun (reshapeEquiv_ix1_11a (a := 64) hq.numel_eq j) a
    rw [hz]
    fin_cases a <;> simp [ValueIdx.ix3]
  exact (congrFun (harg2.read_unread emb) _).trans (congrArg emb hi)

/-- The offsets of the row the transfer for sub-table 0 reads, in closed form. -/
theorem srcoff0 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off2 (View.readAt (Elt F) arg1.view (Rect.unit (s := S4096x26) (k0_off1 i) S1x1.size (Facts₀.k0_off1_inb i)).toLoadRect (harg1.unread tbl) x)
      = ![0, (rowOf tbl i (⟨0, by decide⟩ : Fin 26)).val, 0] := by
  rw [readAt_tbl i arg1 harg1 tbl (⟨0, by decide⟩ : Fin 26) _ (off1_eq i), rowOf_val tbl i _ (hrange _)]
  rfl

/-- The offsets of the row the transfer for sub-table 1 reads, in closed form. -/
theorem srcoff1 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off4 (View.readAt (Elt F) arg1.view (Rect.unit (s := S4096x26) (k0_off3 i) S1x1.size (Facts₀.k0_off3_inb i)).toLoadRect (harg1.unread tbl) x)
      = ![1, (rowOf tbl i (⟨1, by decide⟩ : Fin 26)).val, 0] := by
  rw [readAt_tbl i arg1 harg1 tbl (⟨1, by decide⟩ : Fin 26) _ (off3_eq i), rowOf_val tbl i _ (hrange _)]
  rfl

/-- The offsets of the row the transfer for sub-table 2 reads, in closed form. -/
theorem srcoff2 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off6 (View.readAt (Elt F) arg1.view (Rect.unit (s := S4096x26) (k0_off5 i) S1x1.size (Facts₀.k0_off5_inb i)).toLoadRect (harg1.unread tbl) x)
      = ![2, (rowOf tbl i (⟨2, by decide⟩ : Fin 26)).val, 0] := by
  rw [readAt_tbl i arg1 harg1 tbl (⟨2, by decide⟩ : Fin 26) _ (off5_eq i), rowOf_val tbl i _ (hrange _)]
  rfl

/-- The offsets of the row the transfer for sub-table 3 reads, in closed form. -/
theorem srcoff3 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off8 (View.readAt (Elt F) arg1.view (Rect.unit (s := S4096x26) (k0_off7 i) S1x1.size (Facts₀.k0_off7_inb i)).toLoadRect (harg1.unread tbl) x)
      = ![3, (rowOf tbl i (⟨3, by decide⟩ : Fin 26)).val, 0] := by
  rw [readAt_tbl i arg1 harg1 tbl (⟨3, by decide⟩ : Fin 26) _ (off7_eq i), rowOf_val tbl i _ (hrange _)]
  rfl

/-- The offsets of the row the transfer for sub-table 4 reads, in closed form. -/
theorem srcoff4 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off10 (View.readAt (Elt F) arg1.view (Rect.unit (s := S4096x26) (k0_off9 i) S1x1.size (Facts₀.k0_off9_inb i)).toLoadRect (harg1.unread tbl) x)
      = ![4, (rowOf tbl i (⟨4, by decide⟩ : Fin 26)).val, 0] := by
  rw [readAt_tbl i arg1 harg1 tbl (⟨4, by decide⟩ : Fin 26) _ (off9_eq i), rowOf_val tbl i _ (hrange _)]
  rfl

/-- The offsets of the row the transfer for sub-table 5 reads, in closed form. -/
theorem srcoff5 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off12 (View.readAt (Elt F) arg1.view (Rect.unit (s := S4096x26) (k0_off11 i) S1x1.size (Facts₀.k0_off11_inb i)).toLoadRect (harg1.unread tbl) x)
      = ![5, (rowOf tbl i (⟨5, by decide⟩ : Fin 26)).val, 0] := by
  rw [readAt_tbl i arg1 harg1 tbl (⟨5, by decide⟩ : Fin 26) _ (off11_eq i), rowOf_val tbl i _ (hrange _)]
  rfl

/-- The offsets of the row the transfer for sub-table 6 reads, in closed form. -/
theorem srcoff6 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off14 (View.readAt (Elt F) arg1.view (Rect.unit (s := S4096x26) (k0_off13 i) S1x1.size (Facts₀.k0_off13_inb i)).toLoadRect (harg1.unread tbl) x)
      = ![6, (rowOf tbl i (⟨6, by decide⟩ : Fin 26)).val, 0] := by
  rw [readAt_tbl i arg1 harg1 tbl (⟨6, by decide⟩ : Fin 26) _ (off13_eq i), rowOf_val tbl i _ (hrange _)]
  rfl

/-- The offsets of the row the transfer for sub-table 7 reads, in closed form. -/
theorem srcoff7 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off16 (View.readAt (Elt F) arg1.view (Rect.unit (s := S4096x26) (k0_off15 i) S1x1.size (Facts₀.k0_off15_inb i)).toLoadRect (harg1.unread tbl) x)
      = ![7, (rowOf tbl i (⟨7, by decide⟩ : Fin 26)).val, 0] := by
  rw [readAt_tbl i arg1 harg1 tbl (⟨7, by decide⟩ : Fin 26) _ (off15_eq i), rowOf_val tbl i _ (hrange _)]
  rfl

/-- The offsets of the row the transfer for sub-table 8 reads, in closed form. -/
theorem srcoff8 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off18 (View.readAt (Elt F) arg1.view (Rect.unit (s := S4096x26) (k0_off17 i) S1x1.size (Facts₀.k0_off17_inb i)).toLoadRect (harg1.unread tbl) x)
      = ![8, (rowOf tbl i (⟨8, by decide⟩ : Fin 26)).val, 0] := by
  rw [readAt_tbl i arg1 harg1 tbl (⟨8, by decide⟩ : Fin 26) _ (off17_eq i), rowOf_val tbl i _ (hrange _)]
  rfl

/-- The offsets of the row the transfer for sub-table 9 reads, in closed form. -/
theorem srcoff9 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off20 (View.readAt (Elt F) arg1.view (Rect.unit (s := S4096x26) (k0_off19 i) S1x1.size (Facts₀.k0_off19_inb i)).toLoadRect (harg1.unread tbl) x)
      = ![9, (rowOf tbl i (⟨9, by decide⟩ : Fin 26)).val, 0] := by
  rw [readAt_tbl i arg1 harg1 tbl (⟨9, by decide⟩ : Fin 26) _ (off19_eq i), rowOf_val tbl i _ (hrange _)]
  rfl

/-- The offsets of the row the transfer for sub-table 10 reads, in closed form. -/
theorem srcoff10 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off22 (View.readAt (Elt F) arg1.view (Rect.unit (s := S4096x26) (k0_off21 i) S1x1.size (Facts₀.k0_off21_inb i)).toLoadRect (harg1.unread tbl) x)
      = ![10, (rowOf tbl i (⟨10, by decide⟩ : Fin 26)).val, 0] := by
  rw [readAt_tbl i arg1 harg1 tbl (⟨10, by decide⟩ : Fin 26) _ (off21_eq i), rowOf_val tbl i _ (hrange _)]
  rfl

/-- The offsets of the row the transfer for sub-table 11 reads, in closed form. -/
theorem srcoff11 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off24 (View.readAt (Elt F) arg1.view (Rect.unit (s := S4096x26) (k0_off23 i) S1x1.size (Facts₀.k0_off23_inb i)).toLoadRect (harg1.unread tbl) x)
      = ![11, (rowOf tbl i (⟨11, by decide⟩ : Fin 26)).val, 0] := by
  rw [readAt_tbl i arg1 harg1 tbl (⟨11, by decide⟩ : Fin 26) _ (off23_eq i), rowOf_val tbl i _ (hrange _)]
  rfl

/-- The offsets of the row the transfer for sub-table 12 reads, in closed form. -/
theorem srcoff12 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off26 (View.readAt (Elt F) arg1.view (Rect.unit (s := S4096x26) (k0_off25 i) S1x1.size (Facts₀.k0_off25_inb i)).toLoadRect (harg1.unread tbl) x)
      = ![12, (rowOf tbl i (⟨12, by decide⟩ : Fin 26)).val, 0] := by
  rw [readAt_tbl i arg1 harg1 tbl (⟨12, by decide⟩ : Fin 26) _ (off25_eq i), rowOf_val tbl i _ (hrange _)]
  rfl

/-- The offsets of the row the transfer for sub-table 13 reads, in closed form. -/
theorem srcoff13 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off28 (View.readAt (Elt F) arg1.view (Rect.unit (s := S4096x26) (k0_off27 i) S1x1.size (Facts₀.k0_off27_inb i)).toLoadRect (harg1.unread tbl) x)
      = ![13, (rowOf tbl i (⟨13, by decide⟩ : Fin 26)).val, 0] := by
  rw [readAt_tbl i arg1 harg1 tbl (⟨13, by decide⟩ : Fin 26) _ (off27_eq i), rowOf_val tbl i _ (hrange _)]
  rfl

/-- The offsets of the row the transfer for sub-table 14 reads, in closed form. -/
theorem srcoff14 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off30 (View.readAt (Elt F) arg1.view (Rect.unit (s := S4096x26) (k0_off29 i) S1x1.size (Facts₀.k0_off29_inb i)).toLoadRect (harg1.unread tbl) x)
      = ![14, (rowOf tbl i (⟨14, by decide⟩ : Fin 26)).val, 0] := by
  rw [readAt_tbl i arg1 harg1 tbl (⟨14, by decide⟩ : Fin 26) _ (off29_eq i), rowOf_val tbl i _ (hrange _)]
  rfl

/-- The offsets of the row the transfer for sub-table 15 reads, in closed form. -/
theorem srcoff15 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off32 (View.readAt (Elt F) arg1.view (Rect.unit (s := S4096x26) (k0_off31 i) S1x1.size (Facts₀.k0_off31_inb i)).toLoadRect (harg1.unread tbl) x)
      = ![15, (rowOf tbl i (⟨15, by decide⟩ : Fin 26)).val, 0] := by
  rw [readAt_tbl i arg1 harg1 tbl (⟨15, by decide⟩ : Fin 26) _ (off31_eq i), rowOf_val tbl i _ (hrange _)]
  rfl

/-- The offsets of the row the transfer for sub-table 16 reads, in closed form. -/
theorem srcoff16 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off34 (View.readAt (Elt F) arg1.view (Rect.unit (s := S4096x26) (k0_off33 i) S1x1.size (Facts₀.k0_off33_inb i)).toLoadRect (harg1.unread tbl) x)
      = ![16, (rowOf tbl i (⟨16, by decide⟩ : Fin 26)).val, 0] := by
  rw [readAt_tbl i arg1 harg1 tbl (⟨16, by decide⟩ : Fin 26) _ (off33_eq i), rowOf_val tbl i _ (hrange _)]
  rfl

/-- The offsets of the row the transfer for sub-table 17 reads, in closed form. -/
theorem srcoff17 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off36 (View.readAt (Elt F) arg1.view (Rect.unit (s := S4096x26) (k0_off35 i) S1x1.size (Facts₀.k0_off35_inb i)).toLoadRect (harg1.unread tbl) x)
      = ![17, (rowOf tbl i (⟨17, by decide⟩ : Fin 26)).val, 0] := by
  rw [readAt_tbl i arg1 harg1 tbl (⟨17, by decide⟩ : Fin 26) _ (off35_eq i), rowOf_val tbl i _ (hrange _)]
  rfl

/-- The offsets of the row the transfer for sub-table 18 reads, in closed form. -/
theorem srcoff18 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off38 (View.readAt (Elt F) arg1.view (Rect.unit (s := S4096x26) (k0_off37 i) S1x1.size (Facts₀.k0_off37_inb i)).toLoadRect (harg1.unread tbl) x)
      = ![18, (rowOf tbl i (⟨18, by decide⟩ : Fin 26)).val, 0] := by
  rw [readAt_tbl i arg1 harg1 tbl (⟨18, by decide⟩ : Fin 26) _ (off37_eq i), rowOf_val tbl i _ (hrange _)]
  rfl

/-- The offsets of the row the transfer for sub-table 19 reads, in closed form. -/
theorem srcoff19 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off40 (View.readAt (Elt F) arg1.view (Rect.unit (s := S4096x26) (k0_off39 i) S1x1.size (Facts₀.k0_off39_inb i)).toLoadRect (harg1.unread tbl) x)
      = ![19, (rowOf tbl i (⟨19, by decide⟩ : Fin 26)).val, 0] := by
  rw [readAt_tbl i arg1 harg1 tbl (⟨19, by decide⟩ : Fin 26) _ (off39_eq i), rowOf_val tbl i _ (hrange _)]
  rfl

/-- The offsets of the row the transfer for sub-table 20 reads, in closed form. -/
theorem srcoff20 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off42 (View.readAt (Elt F) arg1.view (Rect.unit (s := S4096x26) (k0_off41 i) S1x1.size (Facts₀.k0_off41_inb i)).toLoadRect (harg1.unread tbl) x)
      = ![20, (rowOf tbl i (⟨20, by decide⟩ : Fin 26)).val, 0] := by
  rw [readAt_tbl i arg1 harg1 tbl (⟨20, by decide⟩ : Fin 26) _ (off41_eq i), rowOf_val tbl i _ (hrange _)]
  rfl

/-- The offsets of the row the transfer for sub-table 21 reads, in closed form. -/
theorem srcoff21 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off44 (View.readAt (Elt F) arg1.view (Rect.unit (s := S4096x26) (k0_off43 i) S1x1.size (Facts₀.k0_off43_inb i)).toLoadRect (harg1.unread tbl) x)
      = ![21, (rowOf tbl i (⟨21, by decide⟩ : Fin 26)).val, 0] := by
  rw [readAt_tbl i arg1 harg1 tbl (⟨21, by decide⟩ : Fin 26) _ (off43_eq i), rowOf_val tbl i _ (hrange _)]
  rfl

/-- The offsets of the row the transfer for sub-table 22 reads, in closed form. -/
theorem srcoff22 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off46 (View.readAt (Elt F) arg1.view (Rect.unit (s := S4096x26) (k0_off45 i) S1x1.size (Facts₀.k0_off45_inb i)).toLoadRect (harg1.unread tbl) x)
      = ![22, (rowOf tbl i (⟨22, by decide⟩ : Fin 26)).val, 0] := by
  rw [readAt_tbl i arg1 harg1 tbl (⟨22, by decide⟩ : Fin 26) _ (off45_eq i), rowOf_val tbl i _ (hrange _)]
  rfl

/-- The offsets of the row the transfer for sub-table 23 reads, in closed form. -/
theorem srcoff23 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off48 (View.readAt (Elt F) arg1.view (Rect.unit (s := S4096x26) (k0_off47 i) S1x1.size (Facts₀.k0_off47_inb i)).toLoadRect (harg1.unread tbl) x)
      = ![23, (rowOf tbl i (⟨23, by decide⟩ : Fin 26)).val, 0] := by
  rw [readAt_tbl i arg1 harg1 tbl (⟨23, by decide⟩ : Fin 26) _ (off47_eq i), rowOf_val tbl i _ (hrange _)]
  rfl

/-- The offsets of the row the transfer for sub-table 24 reads, in closed form. -/
theorem srcoff24 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off50 (View.readAt (Elt F) arg1.view (Rect.unit (s := S4096x26) (k0_off49 i) S1x1.size (Facts₀.k0_off49_inb i)).toLoadRect (harg1.unread tbl) x)
      = ![24, (rowOf tbl i (⟨24, by decide⟩ : Fin 26)).val, 0] := by
  rw [readAt_tbl i arg1 harg1 tbl (⟨24, by decide⟩ : Fin 26) _ (off49_eq i), rowOf_val tbl i _ (hrange _)]
  rfl

/-- The offsets of the row the transfer for sub-table 25 reads, in closed form. -/
theorem srcoff25 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off52 (View.readAt (Elt F) arg1.view (Rect.unit (s := S4096x26) (k0_off51 i) S1x1.size (Facts₀.k0_off51_inb i)).toLoadRect (harg1.unread tbl) x)
      = ![25, (rowOf tbl i (⟨25, by decide⟩ : Fin 26)).val, 0] := by
  rw [readAt_tbl i arg1 harg1 tbl (⟨25, by decide⟩ : Fin 26) _ (off51_eq i), rowOf_val tbl i _ (hrange _)]
  rfl

/-- Two blocks of one leading row are equal when they agree entry by entry of each of the 26 rows. -/
theorem blk_ext (A B : Vec F S1x26x64 .f32)
    (h : ∀ (k : Fin 26) (d : Fin 64), A (ValueIdx.ix3 (⟨0, Nat.one_pos⟩ : Fin 1) k d) = B (ValueIdx.ix3 (⟨0, Nat.one_pos⟩ : Fin 1) k d)) :
    A = B := by
  funext y
  have h0 : (y 0).val = 0 := Nat.lt_one_iff.mp (y 0).isLt
  have hy : y = ValueIdx.ix3 (⟨0, Nat.one_pos⟩ : Fin 1) (y 1) (y 2) := by
    funext a
    fin_cases a
    · exact Fin.ext h0
    · rfl
    · rfl
  rw [hy]
  exact h (y 1) (y 2)

section Pieces

/-- Contents that read alike at an index hold the same value at the element the view places it at. -/
theorem eq_of_read_eq {sig' : RefSig} {Val : EltTy → Type} {κ : Kind} {sp : Space} {s : Shape} {e : EltTy}
    (v : View sig' κ sp s e) (f g : v.ty.Contents Val) (x : s.Idx) (h : v.read Val f x = v.read Val g x) :
    f (v.emb x) = g (v.emb x) := by
  rw [View.read_apply, View.read_apply] at h
  exact (cast_inj _).mp h

theorem sub_sdiff {α : Type*} [DecidableEq α] {s t u : Finset α} (h1 : s ⊆ t) (h2 : Disjoint s u) : s ⊆ t \ u :=
  Finset.subset_sdiff.mpr ⟨h1, h2⟩

variable (c : Dev nD) (arg3 : Memref sig .tc .vmem S1x26x64 .f32)

/-- The elements of row `k` of the block's buffer. -/
abbrev rowSet (k : Fin 26) : Finset (Idx (arg3.view.loc (c : Thread nD τ))) := (rowM arg3 k).view.set

/-- Where the row window at `k` places entry `d`: the block's element `(0, k, d)`. -/
theorem row_place (k : Fin 26) (d : Fin 64) :
    (Rect.unit (s := S1x26x64) ![0, k.val, 0] S1x1x64.size (row_inb k)).emb
        (Shape.reshapeEquiv (Facts₀.squeezes_S1x1x64_S64).numel_eq (ValueIdx.ix1 d))
      = ValueIdx.ix3 (⟨0, Nat.one_pos⟩ : Fin 1) k d := by
  funext a
  apply Fin.ext
  rw [emb_unit_val]
  have hz := congrFun (reshapeEquiv_ix1_11a (a := 64) (Facts₀.squeezes_S1x1x64_S64).numel_eq d) a
  rw [hz]
  fin_cases a <;> simp [ValueIdx.ix3]

/-- An element of row `k` is the block's element `(0, k, d)` for some `d`. -/
theorem mem_rowSet {k : Fin 26} {idx : Idx (arg3.view.loc (c : Thread nD τ))} (h : idx ∈ rowSet c arg3 k) :
    ∃ d : Fin 64, idx = arg3.view.emb (ValueIdx.ix3 (⟨0, Nat.one_pos⟩ : Fin 1) k d) := by
  obtain ⟨x, -, rfl⟩ := Finset.mem_map.mp h
  obtain ⟨d, rfl⟩ : ∃ d : Fin 64, x = ValueIdx.ix1 d := ⟨x 0, ValueIdx.eq_ix1 x⟩
  exact ⟨d, congrArg arg3.view.emb (row_place k d)⟩

theorem rowSet_subset (k : Fin 26) : rowSet c arg3 k ⊆ arg3.view.set := by
  intro idx h
  obtain ⟨d, rfl⟩ := mem_rowSet c arg3 h
  exact arg3.view.emb_mem_set _

theorem rowSet_disjoint (k k' : Fin 26) (h : k ≠ k') : Disjoint (rowSet c arg3 k) (rowSet c arg3 k') := by
  rw [Finset.disjoint_left]
  intro idx h1 h2
  obtain ⟨d, rfl⟩ := mem_rowSet c arg3 h1
  obtain ⟨d', h'⟩ := mem_rowSet c arg3 h2
  have h3 := congrFun (arg3.view.emb.injective h') 1
  exact h h3

variable (harg3 : arg3.IsWhole) (B : Vec F S1x26x64 .f32)

/-- Row `k` after a whole write of the row `B` has there holds what the whole buffer reading `B` holds. -/
theorem win_contents (k : Fin 26) (g : arg3.view.ty.Contents (Elt F)) (P : S64.Idx → Elt F .f32)
    (hP : ∀ d : Fin 64, P (ValueIdx.ix1 d) = B (ValueIdx.ix3 (⟨0, Nat.one_pos⟩ : Fin 1) k d)) :
    ∀ idx ∈ rowSet c arg3 k, ((rowM arg3 k).view.write (Elt F) g P Finset.univ) idx = (harg3.unread B) idx := by
  intro idx h
  obtain ⟨d, rfl⟩ := mem_rowSet c arg3 h
  refine eq_of_read_eq arg3.view _ _ _ ?_
  rw [congrFun (harg3.read_unread B) _, ← hP d]
  exact read_row_hit arg3 k _ rfl _ _ _ g P d

/-- Contents that read `B` hold, on the block's elements, what the whole buffer reading `B` holds. -/
theorem rest_contents (g : arg3.view.ty.Contents (Elt F)) (hg : arg3.view.read (Elt F) g = B) :
    ∀ idx ∈ arg3.view.set, g idx = (harg3.unread B) idx := by
  intro idx h
  obtain ⟨y, -, rfl⟩ := Finset.mem_map.mp h
  refine eq_of_read_eq arg3.view _ _ y ?_
  rw [congrFun (harg3.read_unread B) y, hg]

end Pieces

set_option sl_exec.dmaWindow true in
set_option sl_exec.dmaWindowSet true in
set_option sl_exec.rejoinHeartbeats 4000000 in
set_option sl_exec.stepHeartbeats 2000000 in
set_option maxHeartbeats 0 in
/-- The gather body's run, under any table `D` of bodies (the body makes no call): from the table and the stacked
    tables at any shares, the output window's buffer whole at `f3`, the call's 26 cells at zero and the core's record
    of waits, the body runs to the continuation holding the table, the stacked tables and the cells as they were, and
    the buffer IN ELEVEN PIECES, as the 26 copies leave it: rows 0 to 9 each by itself and the rest of the buffer, each
    piece at contents that hold on it what the buffer reading the gathered block holds. (Row `k` alone is at the
    contents it had when its copy landed, whose last write is the row the copy read; the rest is at the last
    contents, 26 whole writes of a row one inside the other, which read the gathered block row by row.) -/
theorem gatherRun (D : Defs nD τ sig (Elt F) Λ₀) (c : Dev nD) (i : grid0.Coords)
    (arg1 : Memref sig .tc .smem S4096x26 .i32) (harg1 : arg1.IsWhole)
    (arg2 : Memref sig .tc .hbm S26x131073x64 .f32) (harg2 : arg2.IsWhole)
    (arg3 : Memref sig .tc .vmem S1x26x64 .f32) (harg3 : arg3.IsWhole)
    (tbl : Vec F S4096x26 .i32) (emb : Vec F S26x131073x64 .f32) (q1 q2 : PosShare TreeShare)
    (hrange : ∀ f : Fin 26, (tbl (ValueIdx.ix2 (⟨(i 0).val, (i 0).isLt⟩ : Fin 4096) f)).toNat < 131073)
    (f3 : Buf (Elt F) (arg3.view.loc (c : Thread nD τ))) (W : Waits sig Unit) (K : PUnit → sProp 𝕄) :
    iprop(owns (c : Thread nD τ) arg1 q1 tbl ∗ owns (c : Thread nD τ) arg2 q2 emb
        ∗ (arg3.view.loc (c : Thread nD τ) ↦[arg3.view.set]{fullShare} f3) ∗ sems0 c ∗ owes (c : Thread nD τ) 0 W
        ∗ (iprop(owns (c : Thread nD τ) arg1 q1 tbl ∗ owns (c : Thread nD τ) arg2 q2 emb
              ∗ (∃ d : Buf (Elt F) (arg3.view.loc (c : Thread nD τ)), ⌜∀ idx ∈ rowSet c arg3 (⟨0, of_decide_eq_true rfl⟩ : Fin 26), d idx = (harg3.unread (gatherBlk tbl emb i)) idx⌝ ∗ (arg3.view.loc (c : Thread nD τ) ↦[(rowM arg3 (⟨0, of_decide_eq_true rfl⟩ : Fin 26)).view.set]{fullShare} d))
                  ∗ (∃ d : Buf (Elt F) (arg3.view.loc (c : Thread nD τ)), ⌜∀ idx ∈ rowSet c arg3 (⟨1, of_decide_eq_true rfl⟩ : Fin 26), d idx = (harg3.unread (gatherBlk tbl emb i)) idx⌝ ∗ (arg3.view.loc (c : Thread nD τ) ↦[(rowM arg3 (⟨1, of_decide_eq_true rfl⟩ : Fin 26)).view.set]{fullShare} d))
                  ∗ (∃ d : Buf (Elt F) (arg3.view.loc (c : Thread nD τ)), ⌜∀ idx ∈ rowSet c arg3 (⟨2, of_decide_eq_true rfl⟩ : Fin 26), d idx = (harg3.unread (gatherBlk tbl emb i)) idx⌝ ∗ (arg3.view.loc (c : Thread nD τ) ↦[(rowM arg3 (⟨2, of_decide_eq_true rfl⟩ : Fin 26)).view.set]{fullShare} d))
                  ∗ (∃ d : Buf (Elt F) (arg3.view.loc (c : Thread nD τ)), ⌜∀ idx ∈ rowSet c arg3 (⟨3, of_decide_eq_true rfl⟩ : Fin 26), d idx = (harg3.unread (gatherBlk tbl emb i)) idx⌝ ∗ (arg3.view.loc (c : Thread nD τ) ↦[(rowM arg3 (⟨3, of_decide_eq_true rfl⟩ : Fin 26)).view.set]{fullShare} d))
                  ∗ (∃ d : Buf (Elt F) (arg3.view.loc (c : Thread nD τ)), ⌜∀ idx ∈ rowSet c arg3 (⟨4, of_decide_eq_true rfl⟩ : Fin 26), d idx = (harg3.unread (gatherBlk tbl emb i)) idx⌝ ∗ (arg3.view.loc (c : Thread nD τ) ↦[(rowM arg3 (⟨4, of_decide_eq_true rfl⟩ : Fin 26)).view.set]{fullShare} d))
                  ∗ (∃ d : Buf (Elt F) (arg3.view.loc (c : Thread nD τ)), ⌜∀ idx ∈ rowSet c arg3 (⟨5, of_decide_eq_true rfl⟩ : Fin 26), d idx = (harg3.unread (gatherBlk tbl emb i)) idx⌝ ∗ (arg3.view.loc (c : Thread nD τ) ↦[(rowM arg3 (⟨5, of_decide_eq_true rfl⟩ : Fin 26)).view.set]{fullShare} d))
                  ∗ (∃ d : Buf (Elt F) (arg3.view.loc (c : Thread nD τ)), ⌜∀ idx ∈ rowSet c arg3 (⟨6, of_decide_eq_true rfl⟩ : Fin 26), d idx = (harg3.unread (gatherBlk tbl emb i)) idx⌝ ∗ (arg3.view.loc (c : Thread nD τ) ↦[(rowM arg3 (⟨6, of_decide_eq_true rfl⟩ : Fin 26)).view.set]{fullShare} d))
                  ∗ (∃ d : Buf (Elt F) (arg3.view.loc (c : Thread nD τ)), ⌜∀ idx ∈ rowSet c arg3 (⟨7, of_decide_eq_true rfl⟩ : Fin 26), d idx = (harg3.unread (gatherBlk tbl emb i)) idx⌝ ∗ (arg3.view.loc (c : Thread nD τ) ↦[(rowM arg3 (⟨7, of_decide_eq_true rfl⟩ : Fin 26)).view.set]{fullShare} d))
                  ∗ (∃ d : Buf (Elt F) (arg3.view.loc (c : Thread nD τ)), ⌜∀ idx ∈ rowSet c arg3 (⟨8, of_decide_eq_true rfl⟩ : Fin 26), d idx = (harg3.unread (gatherBlk tbl emb i)) idx⌝ ∗ (arg3.view.loc (c : Thread nD τ) ↦[(rowM arg3 (⟨8, of_decide_eq_true rfl⟩ : Fin 26)).view.set]{fullShare} d))
                  ∗ (∃ d : Buf (Elt F) (arg3.view.loc (c : Thread nD τ)), ⌜∀ idx ∈ rowSet c arg3 (⟨9, of_decide_eq_true rfl⟩ : Fin 26), d idx = (harg3.unread (gatherBlk tbl emb i)) idx⌝ ∗ (arg3.view.loc (c : Thread nD τ) ↦[(rowM arg3 (⟨9, of_decide_eq_true rfl⟩ : Fin 26)).view.set]{fullShare} d))
                  ∗ (∃ d : Buf (Elt F) (arg3.view.loc (c : Thread nD τ)), ⌜∀ idx ∈ arg3.view.set, d idx = (harg3.unread (gatherBlk tbl emb i)) idx⌝ ∗ (arg3.view.loc (c : Thread nD τ) ↦[((((((((((arg3.view.set \ (rowM arg3 (⟨0, of_decide_eq_true rfl⟩ : Fin 26)).view.set) \ (rowM arg3 (⟨1, of_decide_eq_true rfl⟩ : Fin 26)).view.set) \ (rowM arg3 (⟨2, of_decide_eq_true rfl⟩ : Fin 26)).view.set) \ (rowM arg3 (⟨3, of_decide_eq_true rfl⟩ : Fin 26)).view.set) \ (rowM arg3 (⟨4, of_decide_eq_true rfl⟩ : Fin 26)).view.set) \ (rowM arg3 (⟨5, of_decide_eq_true rfl⟩ : Fin 26)).view.set) \ (rowM arg3 (⟨6, of_decide_eq_true rfl⟩ : Fin 26)).view.set) \ (rowM arg3 (⟨7, of_decide_eq_true rfl⟩ : Fin 26)).view.set) \ (rowM arg3 (⟨8, of_decide_eq_true rfl⟩ : Fin 26)).view.set) \ (rowM arg3 (⟨9, of_decide_eq_true rfl⟩ : Fin 26)).view.set)]{fullShare} d))
              ∗ sems0 c ∗ (∃ W', owes (c : Thread nD τ) 0 W')) -∗ K ⟨⟩))
      ⊢ wp frame (wpE D Variants.none c none) Set.univ
          (cc0__gather_kernel i arg1 harg1 arg2 harg2 arg3 harg3 cc0_scratch0) K := by
  simp only [cc0__gather_kernel_eq_skeleton]; unfold cc0__gather_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f1, %hf1, H1⟩, ⟨%f2, %hf2, H2⟩, H3, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25⟩, HW, Hk⟩
  obtain rfl := harg1.eq_unread hf1
  obtain rfl := harg2.eq_unread hf2
  have hc1 := chk1 i arg1 harg1 tbl hrange
  have hc2 := chk2 i arg1 harg1 tbl hrange
  have hc3 := chk3 i arg1 harg1 tbl hrange
  have hc4 := chk4 i arg1 harg1 tbl hrange
  have hc5 := chk5 i arg1 harg1 tbl hrange
  have hc6 := chk6 i arg1 harg1 tbl hrange
  have hc7 := chk7 i arg1 harg1 tbl hrange
  have hc8 := chk8 i arg1 harg1 tbl hrange
  have hc9 := chk9 i arg1 harg1 tbl hrange
  have hc10 := chk10 i arg1 harg1 tbl hrange
  have hc11 := chk11 i arg1 harg1 tbl hrange
  have hc12 := chk12 i arg1 harg1 tbl hrange
  have hc13 := chk13 i arg1 harg1 tbl hrange
  have hc14 := chk14 i arg1 harg1 tbl hrange
  have hc15 := chk15 i arg1 harg1 tbl hrange
  have hc16 := chk16 i arg1 harg1 tbl hrange
  have hc17 := chk17 i arg1 harg1 tbl hrange
  have hc18 := chk18 i arg1 harg1 tbl hrange
  have hc19 := chk19 i arg1 harg1 tbl hrange
  have hc20 := chk20 i arg1 harg1 tbl hrange
  have hc21 := chk21 i arg1 harg1 tbl hrange
  have hc22 := chk22 i arg1 harg1 tbl hrange
  have hc23 := chk23 i arg1 harg1 tbl hrange
  have hc24 := chk24 i arg1 harg1 tbl hrange
  have hc25 := chk25 i arg1 harg1 tbl hrange
  have hc26 := chk26 i arg1 harg1 tbl hrange
  sl_exec_parts (disch := first | (guard_target = k0_chk1 _; exact hc1 _) | (guard_target = k0_chk2 _; exact hc2 _) | (guard_target = k0_chk3 _; exact hc3 _) | (guard_target = k0_chk4 _; exact hc4 _) | (guard_target = k0_chk5 _; exact hc5 _) | (guard_target = k0_chk6 _; exact hc6 _) | (guard_target = k0_chk7 _; exact hc7 _) | (guard_target = k0_chk8 _; exact hc8 _) | (guard_target = k0_chk9 _; exact hc9 _) | (guard_target = k0_chk10 _; exact hc10 _) | (guard_target = k0_chk11 _; exact hc11 _) | (guard_target = k0_chk12 _; exact hc12 _) | (guard_target = k0_chk13 _; exact hc13 _) | (guard_target = k0_chk14 _; exact hc14 _) | (guard_target = k0_chk15 _; exact hc15 _) | (guard_target = k0_chk16 _; exact hc16 _) | (guard_target = k0_chk17 _; exact hc17 _) | (guard_target = k0_chk18 _; exact hc18 _) | (guard_target = k0_chk19 _; exact hc19 _) | (guard_target = k0_chk20 _; exact hc20 _) | (guard_target = k0_chk21 _; exact hc21 _) | (guard_target = k0_chk22 _; exact hc22 _) | (guard_target = k0_chk23 _; exact hc23 _) | (guard_target = k0_chk24 _; exact hc24 _) | (guard_target = k0_chk25 _; exact hc25 _) | (guard_target = k0_chk26 _; exact hc26 _))
  sl_step
  iapply Hk
  isplitl [H1]
  · iexists _; isplitr; · ipureintro; exact harg1.read_unread _
    iexact H1
  isplitl [H2]
  · iexists _; isplitr; · ipureintro; exact harg2.read_unread _
    iexact H2
  isplitl [H3_2]
  · -- row 0 alone: its last write is the row its copy read
    iexists _; isplitr; swap; · iexact H3_2
    ipureintro
    refine win_contents c arg3 harg3 (gatherBlk tbl emb i) (⟨0, of_decide_eq_true rfl⟩ : Fin 26) _ _ fun d => ?_
    exact read_src_row arg2 harg2 emb (⟨0, of_decide_eq_true rfl⟩ : Fin 26) (rowOf tbl i (⟨0, of_decide_eq_true rfl⟩ : Fin 26)) _ (srcoff0 i arg1 harg1 tbl hrange _) _ _ _ d
  isplitl [H3_3]
  · -- row 1 alone: its last write is the row its copy read
    iexists _; isplitr; swap; · iexact H3_3
    ipureintro
    refine win_contents c arg3 harg3 (gatherBlk tbl emb i) (⟨1, of_decide_eq_true rfl⟩ : Fin 26) _ _ fun d => ?_
    exact read_src_row arg2 harg2 emb (⟨1, of_decide_eq_true rfl⟩ : Fin 26) (rowOf tbl i (⟨1, of_decide_eq_true rfl⟩ : Fin 26)) _ (srcoff1 i arg1 harg1 tbl hrange _) _ _ _ d
  isplitl [H3_4]
  · -- row 2 alone: its last write is the row its copy read
    iexists _; isplitr; swap; · iexact H3_4
    ipureintro
    refine win_contents c arg3 harg3 (gatherBlk tbl emb i) (⟨2, of_decide_eq_true rfl⟩ : Fin 26) _ _ fun d => ?_
    exact read_src_row arg2 harg2 emb (⟨2, of_decide_eq_true rfl⟩ : Fin 26) (rowOf tbl i (⟨2, of_decide_eq_true rfl⟩ : Fin 26)) _ (srcoff2 i arg1 harg1 tbl hrange _) _ _ _ d
  isplitl [H3_5]
  · -- row 3 alone: its last write is the row its copy read
    iexists _; isplitr; swap; · iexact H3_5
    ipureintro
    refine win_contents c arg3 harg3 (gatherBlk tbl emb i) (⟨3, of_decide_eq_true rfl⟩ : Fin 26) _ _ fun d => ?_
    exact read_src_row arg2 harg2 emb (⟨3, of_decide_eq_true rfl⟩ : Fin 26) (rowOf tbl i (⟨3, of_decide_eq_true rfl⟩ : Fin 26)) _ (srcoff3 i arg1 harg1 tbl hrange _) _ _ _ d
  isplitl [H3_6]
  · -- row 4 alone: its last write is the row its copy read
    iexists _; isplitr; swap; · iexact H3_6
    ipureintro
    refine win_contents c arg3 harg3 (gatherBlk tbl emb i) (⟨4, of_decide_eq_true rfl⟩ : Fin 26) _ _ fun d => ?_
    exact read_src_row arg2 harg2 emb (⟨4, of_decide_eq_true rfl⟩ : Fin 26) (rowOf tbl i (⟨4, of_decide_eq_true rfl⟩ : Fin 26)) _ (srcoff4 i arg1 harg1 tbl hrange _) _ _ _ d
  isplitl [H3_7]
  · -- row 5 alone: its last write is the row its copy read
    iexists _; isplitr; swap; · iexact H3_7
    ipureintro
    refine win_contents c arg3 harg3 (gatherBlk tbl emb i) (⟨5, of_decide_eq_true rfl⟩ : Fin 26) _ _ fun d => ?_
    exact read_src_row arg2 harg2 emb (⟨5, of_decide_eq_true rfl⟩ : Fin 26) (rowOf tbl i (⟨5, of_decide_eq_true rfl⟩ : Fin 26)) _ (srcoff5 i arg1 harg1 tbl hrange _) _ _ _ d
  isplitl [H3_8]
  · -- row 6 alone: its last write is the row its copy read
    iexists _; isplitr; swap; · iexact H3_8
    ipureintro
    refine win_contents c arg3 harg3 (gatherBlk tbl emb i) (⟨6, of_decide_eq_true rfl⟩ : Fin 26) _ _ fun d => ?_
    exact read_src_row arg2 harg2 emb (⟨6, of_decide_eq_true rfl⟩ : Fin 26) (rowOf tbl i (⟨6, of_decide_eq_true rfl⟩ : Fin 26)) _ (srcoff6 i arg1 harg1 tbl hrange _) _ _ _ d
  isplitl [H3_9]
  · -- row 7 alone: its last write is the row its copy read
    iexists _; isplitr; swap; · iexact H3_9
    ipureintro
    refine win_contents c arg3 harg3 (gatherBlk tbl emb i) (⟨7, of_decide_eq_true rfl⟩ : Fin 26) _ _ fun d => ?_
    exact read_src_row arg2 harg2 emb (⟨7, of_decide_eq_true rfl⟩ : Fin 26) (rowOf tbl i (⟨7, of_decide_eq_true rfl⟩ : Fin 26)) _ (srcoff7 i arg1 harg1 tbl hrange _) _ _ _ d
  isplitl [H3_10]
  · -- row 8 alone: its last write is the row its copy read
    iexists _; isplitr; swap; · iexact H3_10
    ipureintro
    refine win_contents c arg3 harg3 (gatherBlk tbl emb i) (⟨8, of_decide_eq_true rfl⟩ : Fin 26) _ _ fun d => ?_
    exact read_src_row arg2 harg2 emb (⟨8, of_decide_eq_true rfl⟩ : Fin 26) (rowOf tbl i (⟨8, of_decide_eq_true rfl⟩ : Fin 26)) _ (srcoff8 i arg1 harg1 tbl hrange _) _ _ _ d
  isplitl [H3_11]
  · -- row 9 alone: its last write is the row its copy read
    iexists _; isplitr; swap; · iexact H3_11
    ipureintro
    refine win_contents c arg3 harg3 (gatherBlk tbl emb i) (⟨9, of_decide_eq_true rfl⟩ : Fin 26) _ _ fun d => ?_
    exact read_src_row arg2 harg2 emb (⟨9, of_decide_eq_true rfl⟩ : Fin 26) (rowOf tbl i (⟨9, of_decide_eq_true rfl⟩ : Fin 26)) _ (srcoff9 i arg1 harg1 tbl hrange _) _ _ _ d
  isplitl [H3]
  · -- the rest, at the last contents: they read the gathered block, row by row
    iexists _; isplitr; swap; · iexact H3
    ipureintro
    refine rest_contents arg3 harg3 (gatherBlk tbl emb i) _ (blk_ext _ _ fun k d => ?_)
    fin_cases k
    · -- row 0: the later rows' writes miss it; its own write lands the row read from sub-table 0
      refine (read_row_miss arg3 (⟨25, by decide⟩ : Fin 26) (⟨0, by decide⟩ : Fin 26) (by decide) _ rfl _ _ _ _ _ d).trans ?_
      refine (read_row_miss arg3 (⟨24, by decide⟩ : Fin 26) (⟨0, by decide⟩ : Fin 26) (by decide) _ rfl _ _ _ _ _ d).trans ?_
      refine (read_row_miss arg3 (⟨23, by decide⟩ : Fin 26) (⟨0, by decide⟩ : Fin 26) (by decide) _ rfl _ _ _ _ _ d).trans ?_
      refine (read_row_miss arg3 (⟨22, by decide⟩ : Fin 26) (⟨0, by decide⟩ : Fin 26) (by decide) _ rfl _ _ _ _ _ d).trans ?_
      refine (read_row_miss arg3 (⟨21, by decide⟩ : Fin 26) (⟨0, by decide⟩ : Fin 26) (by decide) _ rfl _ _ _ _ _ d).trans ?_
      refine (read_row_miss arg3 (⟨20, by decide⟩ : Fin 26) (⟨0, by decide⟩ : Fin 26) (by decide) _ rfl _ _ _ _ _ d).trans ?_
      refine (read_row_miss arg3 (⟨19, by decide⟩ : Fin 26) (⟨0, by decide⟩ : Fin 26) (by decide) _ rfl _ _ _ _ _ d).trans ?_
      refine (read_row_miss arg3 (⟨18, by decide⟩ : Fin 26) (⟨0, by decide⟩ : Fin 26) (by decide) _ rfl _ _ _ _ _ d).trans ?_
      refine (read_row_miss arg3 (⟨17, by decide⟩ : Fin 26) (⟨0, by decide⟩ : Fin 26) (by decide) _ rfl _ _ _ _ _ d).trans ?_
      refine (read_row_miss arg3 (⟨16, by decide⟩ : Fin 26) (⟨0, by decide⟩ : Fin 26) (by decide) _ rfl _ _ _ _ _ d).trans ?_
      refine (read_row_miss arg3 (⟨15, by decide⟩ : Fin 26) (⟨0, by decide⟩ : Fin 26) (by decide) _ rfl _ _ _ _ _ d).trans ?_
      refine (read_row_miss arg3 (⟨14, by decide⟩ : Fin 26) (⟨0, by decide⟩ : Fin 26) (by decide) _ rfl _ _ _ _ _ d).trans ?_
      refine (read_row_miss arg3 (⟨13, by decide⟩ : Fin 26) (⟨0, by decide⟩ : Fin 26) (by decide) _ rfl _ _ _ _ _ d).trans ?_
      refine (read_row_miss arg3 (⟨12, by decide⟩ : Fin 26) (⟨0, by decide⟩ : Fin 26) (by decide) _ rfl _ _ _ _ _ d).trans ?_
      refine (read_row_miss arg3 (⟨11, by decide⟩ : Fin 26) (⟨0, by decide⟩ : Fin 26) (by decide) _ rfl _ _ _ _ _ d).trans ?_
      refine (read_row_miss arg3 (⟨10, by decide⟩ : Fin 26) (⟨0, by decide⟩ : Fin 26) (by decide) _ rfl _ _ _ _ _ d).trans ?_
      refine (read_row_miss arg3 (⟨9, by decide⟩ : Fin 26) (⟨0, by decide⟩ : Fin 26) (by decide) _ rfl _ _ _ _ _ d).trans ?_
      refine (read_row_miss arg3 (⟨8, by decide⟩ : Fin 26) (⟨0, by decide⟩ : Fin 26) (by decide) _ rfl _ _ _ _ _ d).trans ?_
      refine (read_row_miss arg3 (⟨7, by decide⟩ : Fin 26) (⟨0, by decide⟩ : Fin 26) (by decide) _ rfl _ _ _ _ _ d).trans ?_
      refine (read_row_miss arg3 (⟨6, by decide⟩ : Fin 26) (⟨0, by decide⟩ : Fin 26) (by decide) _ rfl _ _ _ _ _ d).trans ?_
      refine (read_row_miss arg3 (⟨5, by decide⟩ : Fin 26) (⟨0, by decide⟩ : Fin 26) (by decide) _ rfl _ _ _ _ _ d).trans ?_
      refine (read_row_miss arg3 (⟨4, by decide⟩ : Fin 26) (⟨0, by decide⟩ : Fin 26) (by decide) _ rfl _ _ _ _ _ d).trans ?_
      refine (read_row_miss arg3 (⟨3, by decide⟩ : Fin 26) (⟨0, by decide⟩ : Fin 26) (by decide) _ rfl _ _ _ _ _ d).trans ?_
      refine (read_row_miss arg3 (⟨2, by decide⟩ : Fin 26) (⟨0, by decide⟩ : Fin 26) (by decide) _ rfl _ _ _ _ _ d).trans ?_
      refine (read_row_miss arg3 (⟨1, by decide⟩ : Fin 26) (⟨0, by decide⟩ : Fin 26) (by decide) _ rfl _ _ _ _ _ d).trans ?_
      refine (read_row_hit arg3 (⟨0, by decide⟩ : Fin 26) _ rfl _ _ _ _ _ d).trans ?_
      exact read_src_row arg2 harg2 emb (⟨0, by decide⟩ : Fin 26) (rowOf tbl i (⟨0, by decide⟩ : Fin 26)) _ (srcoff0 i arg1 harg1 tbl hrange _) _ _ _ d
    · -- row 1: the later rows' writes miss it; its own write lands the row read from sub-table 1
      refine (read_row_miss arg3 (⟨25, by decide⟩ : Fin 26) (⟨1, by decide⟩ : Fin 26) (by decide) _ rfl _ _ _ _ _ d).trans ?_
      refine (read_row_miss arg3 (⟨24, by decide⟩ : Fin 26) (⟨1, by decide⟩ : Fin 26) (by decide) _ rfl _ _ _ _ _ d).trans ?_
      refine (read_row_miss arg3 (⟨23, by decide⟩ : Fin 26) (⟨1, by decide⟩ : Fin 26) (by decide) _ rfl _ _ _ _ _ d).trans ?_
      refine (read_row_miss arg3 (⟨22, by decide⟩ : Fin 26) (⟨1, by decide⟩ : Fin 26) (by decide) _ rfl _ _ _ _ _ d).trans ?_
      refine (read_row_miss arg3 (⟨21, by decide⟩ : Fin 26) (⟨1, by decide⟩ : Fin 26) (by decide) _ rfl _ _ _ _ _ d).trans ?_
      refine (read_row_miss arg3 (⟨20, by decide⟩ : Fin 26) (⟨1, by decide⟩ : Fin 26) (by decide) _ rfl _ _ _ _ _ d).trans ?_
      refine (read_row_miss arg3 (⟨19, by decide⟩ : Fin 26) (⟨1, by decide⟩ : Fin 26) (by decide) _ rfl _ _ _ _ _ d).trans ?_
      refine (read_row_miss arg3 (⟨18, by decide⟩ : Fin 26) (⟨1, by decide⟩ : Fin 26) (by decide) _ rfl _ _ _ _ _ d).trans ?_
      refine (read_row_miss arg3 (⟨17, by decide⟩ : Fin 26) (⟨1, by decide⟩ : Fin 26) (by decide) _ rfl _ _ _ _ _ d).trans ?_
      refine (read_row_miss arg3 (⟨16, by decide⟩ : Fin 26) (⟨1, by decide⟩ : Fin 26) (by decide) _ rfl _ _ _ _ _ d).trans ?_
      refine (read_row_miss arg3 (⟨15, by decide⟩ : Fin 26) (⟨1, by decide⟩ : Fin 26) (by decide) _ rfl _ _ _ _ _ d).trans ?_
      refine (read_row_miss arg3 (⟨14, by decide⟩ : Fin 26) (⟨1, by decide⟩ : Fin 26) (by decide) _ rfl _ _ _ _ _ d).trans ?_
      refine (read_row_miss arg3 (⟨13, by decide⟩ : Fin 26) (⟨1, by decide⟩ : Fin 26) (by decide) _ rfl _ _ _ _ _ d).trans ?_
      refine (read_row_miss arg3 (⟨12, by decide⟩ : Fin 26) (⟨1, by decide⟩ : Fin 26) (by decide) _ rfl _ _ _ _ _ d).trans ?_
      refine (read_row_miss arg3 (⟨11, by decide⟩ : Fin 26) (⟨1, by decide⟩ : Fin 26) (by decide) _ rfl _ _ _ _ _ d).trans ?_
      refine (read_row_miss arg3 (⟨10, by decide⟩ : Fin 26) (⟨1, by decide⟩ : Fin 26) (by decide) _ rfl _ _ _ _ _ d).trans ?_
      refine (read_row_miss arg3 (⟨9, by decide⟩ : Fin 26) (⟨1, by decide⟩ : Fin 26) (by decide) _ rfl _ _ _ _ _ d).trans ?_
      refine (read_row_miss arg3 (⟨8, by decide⟩ : Fin 26) (⟨1, by decide⟩ : Fin 26) (by decide) _ rfl _ _ _ _ _ d).trans ?_
      refine (read_row_miss arg3 (⟨7, by decide⟩ : Fin 26) (⟨1, by decide⟩ : Fin 26) (by decide) _ rfl _ _ _ _ _ d).trans ?_
      refine (read_row_miss arg3 (⟨6, by decide⟩ : Fin 26) (⟨1, by decide⟩ : Fin 26) (by decide) _ rfl _ _ _ _ _ d).trans ?_
      refine (read_row_miss arg3 (⟨5, by decide⟩ : Fin 26) (⟨1, by decide⟩ : Fin 26) (by decide) _ rfl _ _ _ _ _ d).trans ?_
      refine (read_row_miss arg3 (⟨4, by decide⟩ : Fin 26) (⟨1, by decide⟩ : Fin 26) (by decide) _ rfl _ _ _ _ _ d).trans ?_
      refine (read_row_miss arg3 (⟨3, by decide⟩ : Fin 26) (⟨1, by decide⟩ : Fin 26) (by decide) _ rfl _ _ _ _ _ d).trans ?_
      refine (read_row_miss arg3 (⟨2, by decide⟩ : Fin 26) (⟨1, by decide⟩ : Fin 26) (by decide) _ rfl _ _ _ _ _ d).trans ?_
      refine (read_row_hit arg3 (⟨1, by decide⟩ : Fin 26) _ rfl _ _ _ _ _ d).trans ?_
      exact read_src_row arg2 harg2 emb (⟨1, by decide⟩ : Fin 26) (rowOf tbl i (⟨1, by decide⟩ : Fin 26)) _ (srcoff1 i arg1 harg1 tbl hrange _) _ _ _ d
    · -- row 2: the later rows' writes miss it; its own write lands the row read from sub-table 2
      refine (read_row_miss arg3 (⟨25, by decide⟩ : Fin 26) (⟨2, by decide⟩ : Fin 26) (by decide) _ rfl _ _ _ _ _ d).trans ?_
      refine (read_row_miss arg3 (⟨24, by decide⟩ : Fin 26) (⟨2, by decide⟩ : Fin 26) (by decide) _ rfl _ _ _ _ _ d).trans ?_
      refine (read_row_miss arg3 (⟨23, by decide⟩ : Fin 26) (⟨2, by decide⟩ : Fin 26) (by decide) _ rfl _ _ _ _ _ d).trans ?_
      refine (read_row_miss arg3 (⟨22, by decide⟩ : Fin 26) (⟨2, by decide⟩ : Fin 26) (by decide) _ rfl _ _ _ _ _ d).trans ?_
      refine (read_row_miss arg3 (⟨21, by decide⟩ : Fin 26) (⟨2, by decide⟩ : Fin 26) (by decide) _ rfl _ _ _ _ _ d).trans ?_
      refine (read_row_miss arg3 (⟨20, by decide⟩ : Fin 26) (⟨2, by decide⟩ : Fin 26) (by decide) _ rfl _ _ _ _ _ d).trans ?_
      refine (read_row_miss arg3 (⟨19, by decide⟩ : Fin 26) (⟨2, by decide⟩ : Fin 26) (by decide) _ rfl _ _ _ _ _ d).trans ?_
      refine (read_row_miss arg3 (⟨18, by decide⟩ : Fin 26) (⟨2, by decide⟩ : Fin 26) (by decide) _ rfl _ _ _ _ _ d).trans ?_
      refine (read_row_miss arg3 (⟨17, by decide⟩ : Fin 26) (⟨2, by decide⟩ : Fin 26) (by decide) _ rfl _ _ _ _ _ d).trans ?_
      refine (read_row_miss arg3 (⟨16, by decide⟩ : Fin 26) (⟨2, by decide⟩ : Fin 26) (by decide) _ rfl _ _ _ _ _ d).trans ?_
      refine (read_row_miss arg3 (⟨15, by decide⟩ : Fin 26) (⟨2, by decide⟩ : Fin 26) (by decide) _ rfl _ _ _ _ _ d).trans ?_
      refine (read_row_miss arg3 (⟨14, by decide⟩ : Fin 26) (⟨2, by decide⟩ : Fin 26) (by decide) _ rfl _ _ _ _ _ d).trans ?_
      refine (read_row_miss arg3 (⟨13, by decide⟩ : Fin 26) (⟨2, by decide⟩ : Fin 26) (by decide) _ rfl _ _ _ _ _ d).trans ?_
      refine (read_row_miss arg3 (⟨12, by decide⟩ : Fin 26) (⟨2, by decide⟩ : Fin 26) (by decide) _ rfl _ _ _ _ _ d).trans ?_
      refine (read_row_miss arg3 (⟨11, by decide⟩ : Fin 26) (⟨2, by decide⟩ : Fin 26) (by decide) _ rfl _ _ _ _ _ d).trans ?_
      refine (read_row_miss arg3 (⟨10, by decide⟩ : Fin 26) (⟨2, by decide⟩ : Fin 26) (by decide) _ rfl _ _ _ _ _ d).trans ?_
      refine (read_row_miss arg3 (⟨9, by decide⟩ : Fin 26) (⟨2, by decide⟩ : Fin 26) (by decide) _ rfl _ _ _ _ _ d).trans ?_
      refine (read_row_miss arg3 (⟨8, by decide⟩ : Fin 26) (⟨2, by decide⟩ : Fin 26) (by decide) _ rfl _ _ _ _ _ d).trans ?_
      refine (read_row_miss arg3 (⟨7, by decide⟩ : Fin 26) (⟨2, by decide⟩ : Fin 26) (by decide) _ rfl _ _ _ _ _ d).trans ?_
      refine (read_row_miss arg3 (⟨6, by decide⟩ : Fin 26) (⟨2, by decide⟩ : Fin 26) (by decide) _ rfl _ _ _ _ _ d).trans ?_
      refine (read_row_miss arg3 (⟨5, by decide⟩ : Fin 26) (⟨2, by decide⟩ : Fin 26) (by decide) _ rfl _ _ _ _ _ d).trans ?_
      refine (read_row_miss arg3 (⟨4, by decide⟩ : Fin 26) (⟨2, by decide⟩ : Fin 26) (by decide) _ rfl _ _ _ _ _ d).trans ?_
      refine (read_row_miss arg3 (⟨3, by decide⟩ : Fin 26) (⟨2, by decide⟩ : Fin 26) (by decide) _ rfl _ _ _ _ _ d).trans ?_
      refine (read_row_hit arg3 (⟨2, by decide⟩ : Fin 26) _ rfl _ _ _ _ _ d).trans ?_
      exact read_src_row arg2 harg2 emb (⟨2, by decide⟩ : Fin 26) (rowOf tbl i (⟨2, by decide⟩ : Fin 26)) _ (srcoff2 i arg1 harg1 tbl hrange _) _ _ _ d
    · -- row 3: the later rows' writes miss it; its own write lands the row read from sub-table 3
      refine (read_row_miss arg3 (⟨25, by decide⟩ : Fin 26) (⟨3, by decide⟩ : Fin 26) (by decide) _ rfl _ _ _ _ _ d).trans ?_
      refine (read_row_miss arg3 (⟨24, by decide⟩ : Fin 26) (⟨3, by decide⟩ : Fin 26) (by decide) _ rfl _ _ _ _ _ d).trans ?_
      refine (read_row_miss arg3 (⟨23, by decide⟩ : Fin 26) (⟨3, by decide⟩ : Fin 26) (by decide) _ rfl _ _ _ _ _ d).trans ?_
      refine (read_row_miss arg3 (⟨22, by decide⟩ : Fin 26) (⟨3, by decide⟩ : Fin 26) (by decide) _ rfl _ _ _ _ _ d).trans ?_
      refine (read_row_miss arg3 (⟨21, by decide⟩ : Fin 26) (⟨3, by decide⟩ : Fin 26) (by decide) _ rfl _ _ _ _ _ d).trans ?_
      refine (read_row_miss arg3 (⟨20, by decide⟩ : Fin 26) (⟨3, by decide⟩ : Fin 26) (by decide) _ rfl _ _ _ _ _ d).trans ?_
      refine (read_row_miss arg3 (⟨19, by decide⟩ : Fin 26) (⟨3, by decide⟩ : Fin 26) (by decide) _ rfl _ _ _ _ _ d).trans ?_
      refine (read_row_miss arg3 (⟨18, by decide⟩ : Fin 26) (⟨3, by decide⟩ : Fin 26) (by decide) _ rfl _ _ _ _ _ d).trans ?_
      refine (read_row_miss arg3 (⟨17, by decide⟩ : Fin 26) (⟨3, by decide⟩ : Fin 26) (by decide) _ rfl _ _ _ _ _ d).trans ?_
      refine (read_row_miss arg3 (⟨16, by decide⟩ : Fin 26) (⟨3, by decide⟩ : Fin 26) (by decide) _ rfl _ _ _ _ _ d).trans ?_
      refine (read_row_miss arg3 (⟨15, by decide⟩ : Fin 26) (⟨3, by decide⟩ : Fin 26) (by decide) _ rfl _ _ _ _ _ d).trans ?_
      refine (read_row_miss arg3 (⟨14, by decide⟩ : Fin 26) (⟨3, by decide⟩ : Fin 26) (by decide) _ rfl _ _ _ _ _ d).trans ?_
      refine (read_row_miss arg3 (⟨13, by decide⟩ : Fin 26) (⟨3, by decide⟩ : Fin 26) (by decide) _ rfl _ _ _ _ _ d).trans ?_
      refine (read_row_miss arg3 (⟨12, by decide⟩ : Fin 26) (⟨3, by decide⟩ : Fin 26) (by decide) _ rfl _ _ _ _ _ d).trans ?_
      refine (read_row_miss arg3 (⟨11, by decide⟩ : Fin 26) (⟨3, by decide⟩ : Fin 26) (by decide) _ rfl _ _ _ _ _ d).trans ?_
      refine (read_row_miss arg3 (⟨10, by decide⟩ : Fin 26) (⟨3, by decide⟩ : Fin 26) (by decide) _ rfl _ _ _ _ _ d).trans ?_
      refine (read_row_miss arg3 (⟨9, by decide⟩ : Fin 26) (⟨3, by decide⟩ : Fin 26) (by decide) _ rfl _ _ _ _ _ d).trans ?_
      refine (read_row_miss arg3 (⟨8, by decide⟩ : Fin 26) (⟨3, by decide⟩ : Fin 26) (by decide) _ rfl _ _ _ _ _ d).trans ?_
      refine (read_row_miss arg3 (⟨7, by decide⟩ : Fin 26) (⟨3, by decide⟩ : Fin 26) (by decide) _ rfl _ _ _ _ _ d).trans ?_
      refine (read_row_miss arg3 (⟨6, by decide⟩ : Fin 26) (⟨3, by decide⟩ : Fin 26) (by decide) _ rfl _ _ _ _ _ d).trans ?_
      refine (read_row_miss arg3 (⟨5, by decide⟩ : Fin 26) (⟨3, by decide⟩ : Fin 26) (by decide) _ rfl _ _ _ _ _ d).trans ?_
      refine (read_row_miss arg3 (⟨4, by decide⟩ : Fin 26) (⟨3, by decide⟩ : Fin 26) (by decide) _ rfl _ _ _ _ _ d).trans ?_
      refine (read_row_hit arg3 (⟨3, by decide⟩ : Fin 26) _ rfl _ _ _ _ _ d).trans ?_
      exact read_src_row arg2 harg2 emb (⟨3, by decide⟩ : Fin 26) (rowOf tbl i (⟨3, by decide⟩ : Fin 26)) _ (srcoff3 i arg1 harg1 tbl hrange _) _ _ _ d
    · -- row 4: the later rows' writes miss it; its own write lands the row read from sub-table 4
      refine (read_row_miss arg3 (⟨25, by decide⟩ : Fin 26) (⟨4, by decide⟩ : Fin 26) (by decide) _ rfl _ _ _ _ _ d).trans ?_
      refine (read_row_miss arg3 (⟨24, by decide⟩ : Fin 26) (⟨4, by decide⟩ : Fin 26) (by decide) _ rfl _ _ _ _ _ d).trans ?_
      refine (read_row_miss arg3 (⟨23, by decide⟩ : Fin 26) (⟨4, by decide⟩ : Fin 26) (by decide) _ rfl _ _ _ _ _ d).trans ?_
      refine (read_row_miss arg3 (⟨22, by decide⟩ : Fin 26) (⟨4, by decide⟩ : Fin 26) (by decide) _ rfl _ _ _ _ _ d).trans ?_
      refine (read_row_miss arg3 (⟨21, by decide⟩ : Fin 26) (⟨4, by decide⟩ : Fin 26) (by decide) _ rfl _ _ _ _ _ d).trans ?_
      refine (read_row_miss arg3 (⟨20, by decide⟩ : Fin 26) (⟨4, by decide⟩ : Fin 26) (by decide) _ rfl _ _ _ _ _ d).trans ?_
      refine (read_row_miss arg3 (⟨19, by decide⟩ : Fin 26) (⟨4, by decide⟩ : Fin 26) (by decide) _ rfl _ _ _ _ _ d).trans ?_
      refine (read_row_miss arg3 (⟨18, by decide⟩ : Fin 26) (⟨4, by decide⟩ : Fin 26) (by decide) _ rfl _ _ _ _ _ d).trans ?_
      refine (read_row_miss arg3 (⟨17, by decide⟩ : Fin 26) (⟨4, by decide⟩ : Fin 26) (by decide) _ rfl _ _ _ _ _ d).trans ?_
      refine (read_row_miss arg3 (⟨16, by decide⟩ : Fin 26) (⟨4, by decide⟩ : Fin 26) (by decide) _ rfl _ _ _ _ _ d).trans ?_
      refine (read_row_miss arg3 (⟨15, by decide⟩ : Fin 26) (⟨4, by decide⟩ : Fin 26) (by decide) _ rfl _ _ _ _ _ d).trans ?_
      refine (read_row_miss arg3 (⟨14, by decide⟩ : Fin 26) (⟨4, by decide⟩ : Fin 26) (by decide) _ rfl _ _ _ _ _ d).trans ?_
      refine (read_row_miss arg3 (⟨13, by decide⟩ : Fin 26) (⟨4, by decide⟩ : Fin 26) (by decide) _ rfl _ _ _ _ _ d).trans ?_
      refine (read_row_miss arg3 (⟨12, by decide⟩ : Fin 26) (⟨4, by decide⟩ : Fin 26) (by decide) _ rfl _ _ _ _ _ d).trans ?_
      refine (read_row_miss arg3 (⟨11, by decide⟩ : Fin 26) (⟨4, by decide⟩ : Fin 26) (by decide) _ rfl _ _ _ _ _ d).trans ?_
      refine (read_row_miss arg3 (⟨10, by decide⟩ : Fin 26) (⟨4, by decide⟩ : Fin 26) (by decide) _ rfl _ _ _ _ _ d).trans ?_
      refine (read_row_miss arg3 (⟨9, by decide⟩ : Fin 26) (⟨4, by decide⟩ : Fin 26) (by decide) _ rfl _ _ _ _ _ d).trans ?_
      refine (read_row_miss arg3 (⟨8, by decide⟩ : Fin 26) (⟨4, by decide⟩ : Fin 26) (by decide) _ rfl _ _ _ _ _ d).trans ?_
      refine (read_row_miss arg3 (⟨7, by decide⟩ : Fin 26) (⟨4, by decide⟩ : Fin 26) (by decide) _ rfl _ _ _ _ _ d).trans ?_
      refine (read_row_miss arg3 (⟨6, by decide⟩ : Fin 26) (⟨4, by decide⟩ : Fin 26) (by decide) _ rfl _ _ _ _ _ d).trans ?_
      refine (read_row_miss arg3 (⟨5, by decide⟩ : Fin 26) (⟨4, by decide⟩ : Fin 26) (by decide) _ rfl _ _ _ _ _ d).trans ?_
      refine (read_row_hit arg3 (⟨4, by decide⟩ : Fin 26) _ rfl _ _ _ _ _ d).trans ?_
      exact read_src_row arg2 harg2 emb (⟨4, by decide⟩ : Fin 26) (rowOf tbl i (⟨4, by decide⟩ : Fin 26)) _ (srcoff4 i arg1 harg1 tbl hrange _) _ _ _ d
    · -- row 5: the later rows' writes miss it; its own write lands the row read from sub-table 5
      refine (read_row_miss arg3 (⟨25, by decide⟩ : Fin 26) (⟨5, by decide⟩ : Fin 26) (by decide) _ rfl _ _ _ _ _ d).trans ?_
      refine (read_row_miss arg3 (⟨24, by decide⟩ : Fin 26) (⟨5, by decide⟩ : Fin 26) (by decide) _ rfl _ _ _ _ _ d).trans ?_
      refine (read_row_miss arg3 (⟨23, by decide⟩ : Fin 26) (⟨5, by decide⟩ : Fin 26) (by decide) _ rfl _ _ _ _ _ d).trans ?_
      refine (read_row_miss arg3 (⟨22, by decide⟩ : Fin 26) (⟨5, by decide⟩ : Fin 26) (by decide) _ rfl _ _ _ _ _ d).trans ?_
      refine (read_row_miss arg3 (⟨21, by decide⟩ : Fin 26) (⟨5, by decide⟩ : Fin 26) (by decide) _ rfl _ _ _ _ _ d).trans ?_
      refine (read_row_miss arg3 (⟨20, by decide⟩ : Fin 26) (⟨5, by decide⟩ : Fin 26) (by decide) _ rfl _ _ _ _ _ d).trans ?_
      refine (read_row_miss arg3 (⟨19, by decide⟩ : Fin 26) (⟨5, by decide⟩ : Fin 26) (by decide) _ rfl _ _ _ _ _ d).trans ?_
      refine (read_row_miss arg3 (⟨18, by decide⟩ : Fin 26) (⟨5, by decide⟩ : Fin 26) (by decide) _ rfl _ _ _ _ _ d).trans ?_
      refine (read_row_miss arg3 (⟨17, by decide⟩ : Fin 26) (⟨5, by decide⟩ : Fin 26) (by decide) _ rfl _ _ _ _ _ d).trans ?_
      refine (read_row_miss arg3 (⟨16, by decide⟩ : Fin 26) (⟨5, by decide⟩ : Fin 26) (by decide) _ rfl _ _ _ _ _ d).trans ?_
      refine (read_row_miss arg3 (⟨15, by decide⟩ : Fin 26) (⟨5, by decide⟩ : Fin 26) (by decide) _ rfl _ _ _ _ _ d).trans ?_
      refine (read_row_miss arg3 (⟨14, by decide⟩ : Fin 26) (⟨5, by decide⟩ : Fin 26) (by decide) _ rfl _ _ _ _ _ d).trans ?_
      refine (read_row_miss arg3 (⟨13, by decide⟩ : Fin 26) (⟨5, by decide⟩ : Fin 26) (by decide) _ rfl _ _ _ _ _ d).trans ?_
      refine (read_row_miss arg3 (⟨12, by decide⟩ : Fin 26) (⟨5, by decide⟩ : Fin 26) (by decide) _ rfl _ _ _ _ _ d).trans ?_
      refine (read_row_miss arg3 (⟨11, by decide⟩ : Fin 26) (⟨5, by decide⟩ : Fin 26) (by decide) _ rfl _ _ _ _ _ d).trans ?_
      refine (read_row_miss arg3 (⟨10, by decide⟩ : Fin 26) (⟨5, by decide⟩ : Fin 26) (by decide) _ rfl _ _ _ _ _ d).trans ?_
      refine (read_row_miss arg3 (⟨9, by decide⟩ : Fin 26) (⟨5, by decide⟩ : Fin 26) (by decide) _ rfl _ _ _ _ _ d).trans ?_
      refine (read_row_miss arg3 (⟨8, by decide⟩ : Fin 26) (⟨5, by decide⟩ : Fin 26) (by decide) _ rfl _ _ _ _ _ d).trans ?_
      refine (read_row_miss arg3 (⟨7, by decide⟩ : Fin 26) (⟨5, by decide⟩ : Fin 26) (by decide) _ rfl _ _ _ _ _ d).trans ?_
      refine (read_row_miss arg3 (⟨6, by decide⟩ : Fin 26) (⟨5, by decide⟩ : Fin 26) (by decide) _ rfl _ _ _ _ _ d).trans ?_
      refine (read_row_hit arg3 (⟨5, by decide⟩ : Fin 26) _ rfl _ _ _ _ _ d).trans ?_
      exact read_src_row arg2 harg2 emb (⟨5, by decide⟩ : Fin 26) (rowOf tbl i (⟨5, by decide⟩ : Fin 26)) _ (srcoff5 i arg1 harg1 tbl hrange _) _ _ _ d
    · -- row 6: the later rows' writes miss it; its own write lands the row read from sub-table 6
      refine (read_row_miss arg3 (⟨25, by decide⟩ : Fin 26) (⟨6, by decide⟩ : Fin 26) (by decide) _ rfl _ _ _ _ _ d).trans ?_
      refine (read_row_miss arg3 (⟨24, by decide⟩ : Fin 26) (⟨6, by decide⟩ : Fin 26) (by decide) _ rfl _ _ _ _ _ d).trans ?_
      refine (read_row_miss arg3 (⟨23, by decide⟩ : Fin 26) (⟨6, by decide⟩ : Fin 26) (by decide) _ rfl _ _ _ _ _ d).trans ?_
      refine (read_row_miss arg3 (⟨22, by decide⟩ : Fin 26) (⟨6, by decide⟩ : Fin 26) (by decide) _ rfl _ _ _ _ _ d).trans ?_
      refine (read_row_miss arg3 (⟨21, by decide⟩ : Fin 26) (⟨6, by decide⟩ : Fin 26) (by decide) _ rfl _ _ _ _ _ d).trans ?_
      refine (read_row_miss arg3 (⟨20, by decide⟩ : Fin 26) (⟨6, by decide⟩ : Fin 26) (by decide) _ rfl _ _ _ _ _ d).trans ?_
      refine (read_row_miss arg3 (⟨19, by decide⟩ : Fin 26) (⟨6, by decide⟩ : Fin 26) (by decide) _ rfl _ _ _ _ _ d).trans ?_
      refine (read_row_miss arg3 (⟨18, by decide⟩ : Fin 26) (⟨6, by decide⟩ : Fin 26) (by decide) _ rfl _ _ _ _ _ d).trans ?_
      refine (read_row_miss arg3 (⟨17, by decide⟩ : Fin 26) (⟨6, by decide⟩ : Fin 26) (by decide) _ rfl _ _ _ _ _ d).trans ?_
      refine (read_row_miss arg3 (⟨16, by decide⟩ : Fin 26) (⟨6, by decide⟩ : Fin 26) (by decide) _ rfl _ _ _ _ _ d).trans ?_
      refine (read_row_miss arg3 (⟨15, by decide⟩ : Fin 26) (⟨6, by decide⟩ : Fin 26) (by decide) _ rfl _ _ _ _ _ d).trans ?_
      refine (read_row_miss arg3 (⟨14, by decide⟩ : Fin 26) (⟨6, by decide⟩ : Fin 26) (by decide) _ rfl _ _ _ _ _ d).trans ?_
      refine (read_row_miss arg3 (⟨13, by decide⟩ : Fin 26) (⟨6, by decide⟩ : Fin 26) (by decide) _ rfl _ _ _ _ _ d).trans ?_
      refine (read_row_miss arg3 (⟨12, by decide⟩ : Fin 26) (⟨6, by decide⟩ : Fin 26) (by decide) _ rfl _ _ _ _ _ d).trans ?_
      refine (read_row_miss arg3 (⟨11, by decide⟩ : Fin 26) (⟨6, by decide⟩ : Fin 26) (by decide) _ rfl _ _ _ _ _ d).trans ?_
      refine (read_row_miss arg3 (⟨10, by decide⟩ : Fin 26) (⟨6, by decide⟩ : Fin 26) (by decide) _ rfl _ _ _ _ _ d).trans ?_
      refine (read_row_miss arg3 (⟨9, by decide⟩ : Fin 26) (⟨6, by decide⟩ : Fin 26) (by decide) _ rfl _ _ _ _ _ d).trans ?_
      refine (read_row_miss arg3 (⟨8, by decide⟩ : Fin 26) (⟨6, by decide⟩ : Fin 26) (by decide) _ rfl _ _ _ _ _ d).trans ?_
      refine (read_row_miss arg3 (⟨7, by decide⟩ : Fin 26) (⟨6, by decide⟩ : Fin 26) (by decide) _ rfl _ _ _ _ _ d).trans ?_
      refine (read_row_hit arg3 (⟨6, by decide⟩ : Fin 26) _ rfl _ _ _ _ _ d).trans ?_
      exact read_src_row arg2 harg2 emb (⟨6, by decide⟩ : Fin 26) (rowOf tbl i (⟨6, by decide⟩ : Fin 26)) _ (srcoff6 i arg1 harg1 tbl hrange _) _ _ _ d
    · -- row 7: the later rows' writes miss it; its own write lands the row read from sub-table 7
      refine (read_row_miss arg3 (⟨25, by decide⟩ : Fin 26) (⟨7, by decide⟩ : Fin 26) (by decide) _ rfl _ _ _ _ _ d).trans ?_
      refine (read_row_miss arg3 (⟨24, by decide⟩ : Fin 26) (⟨7, by decide⟩ : Fin 26) (by decide) _ rfl _ _ _ _ _ d).trans ?_
      refine (read_row_miss arg3 (⟨23, by decide⟩ : Fin 26) (⟨7, by decide⟩ : Fin 26) (by decide) _ rfl _ _ _ _ _ d).trans ?_
      refine (read_row_miss arg3 (⟨22, by decide⟩ : Fin 26) (⟨7, by decide⟩ : Fin 26) (by decide) _ rfl _ _ _ _ _ d).trans ?_
      refine (read_row_miss arg3 (⟨21, by decide⟩ : Fin 26) (⟨7, by decide⟩ : Fin 26) (by decide) _ rfl _ _ _ _ _ d).trans ?_
      refine (read_row_miss arg3 (⟨20, by decide⟩ : Fin 26) (⟨7, by decide⟩ : Fin 26) (by decide) _ rfl _ _ _ _ _ d).trans ?_
      refine (read_row_miss arg3 (⟨19, by decide⟩ : Fin 26) (⟨7, by decide⟩ : Fin 26) (by decide) _ rfl _ _ _ _ _ d).trans ?_
      refine (read_row_miss arg3 (⟨18, by decide⟩ : Fin 26) (⟨7, by decide⟩ : Fin 26) (by decide) _ rfl _ _ _ _ _ d).trans ?_
      refine (read_row_miss arg3 (⟨17, by decide⟩ : Fin 26) (⟨7, by decide⟩ : Fin 26) (by decide) _ rfl _ _ _ _ _ d).trans ?_
      refine (read_row_miss arg3 (⟨16, by decide⟩ : Fin 26) (⟨7, by decide⟩ : Fin 26) (by decide) _ rfl _ _ _ _ _ d).trans ?_
      refine (read_row_miss arg3 (⟨15, by decide⟩ : Fin 26) (⟨7, by decide⟩ : Fin 26) (by decide) _ rfl _ _ _ _ _ d).trans ?_
      refine (read_row_miss arg3 (⟨14, by decide⟩ : Fin 26) (⟨7, by decide⟩ : Fin 26) (by decide) _ rfl _ _ _ _ _ d).trans ?_
      refine (read_row_miss arg3 (⟨13, by decide⟩ : Fin 26) (⟨7, by decide⟩ : Fin 26) (by decide) _ rfl _ _ _ _ _ d).trans ?_
      refine (read_row_miss arg3 (⟨12, by decide⟩ : Fin 26) (⟨7, by decide⟩ : Fin 26) (by decide) _ rfl _ _ _ _ _ d).trans ?_
      refine (read_row_miss arg3 (⟨11, by decide⟩ : Fin 26) (⟨7, by decide⟩ : Fin 26) (by decide) _ rfl _ _ _ _ _ d).trans ?_
      refine (read_row_miss arg3 (⟨10, by decide⟩ : Fin 26) (⟨7, by decide⟩ : Fin 26) (by decide) _ rfl _ _ _ _ _ d).trans ?_
      refine (read_row_miss arg3 (⟨9, by decide⟩ : Fin 26) (⟨7, by decide⟩ : Fin 26) (by decide) _ rfl _ _ _ _ _ d).trans ?_
      refine (read_row_miss arg3 (⟨8, by decide⟩ : Fin 26) (⟨7, by decide⟩ : Fin 26) (by decide) _ rfl _ _ _ _ _ d).trans ?_
      refine (read_row_hit arg3 (⟨7, by decide⟩ : Fin 26) _ rfl _ _ _ _ _ d).trans ?_
      exact read_src_row arg2 harg2 emb (⟨7, by decide⟩ : Fin 26) (rowOf tbl i (⟨7, by decide⟩ : Fin 26)) _ (srcoff7 i arg1 harg1 tbl hrange _) _ _ _ d
    · -- row 8: the later rows' writes miss it; its own write lands the row read from sub-table 8
      refine (read_row_miss arg3 (⟨25, by decide⟩ : Fin 26) (⟨8, by decide⟩ : Fin 26) (by decide) _ rfl _ _ _ _ _ d).trans ?_
      refine (read_row_miss arg3 (⟨24, by decide⟩ : Fin 26) (⟨8, by decide⟩ : Fin 26) (by decide) _ rfl _ _ _ _ _ d).trans ?_
      refine (read_row_miss arg3 (⟨23, by decide⟩ : Fin 26) (⟨8, by decide⟩ : Fin 26) (by decide) _ rfl _ _ _ _ _ d).trans ?_
      refine (read_row_miss arg3 (⟨22, by decide⟩ : Fin 26) (⟨8, by decide⟩ : Fin 26) (by decide) _ rfl _ _ _ _ _ d).trans ?_
      refine (read_row_miss arg3 (⟨21, by decide⟩ : Fin 26) (⟨8, by decide⟩ : Fin 26) (by decide) _ rfl _ _ _ _ _ d).trans ?_
      refine (read_row_miss arg3 (⟨20, by decide⟩ : Fin 26) (⟨8, by decide⟩ : Fin 26) (by decide) _ rfl _ _ _ _ _ d).trans ?_
      refine (read_row_miss arg3 (⟨19, by decide⟩ : Fin 26) (⟨8, by decide⟩ : Fin 26) (by decide) _ rfl _ _ _ _ _ d).trans ?_
      refine (read_row_miss arg3 (⟨18, by decide⟩ : Fin 26) (⟨8, by decide⟩ : Fin 26) (by decide) _ rfl _ _ _ _ _ d).trans ?_
      refine (read_row_miss arg3 (⟨17, by decide⟩ : Fin 26) (⟨8, by decide⟩ : Fin 26) (by decide) _ rfl _ _ _ _ _ d).trans ?_
      refine (read_row_miss arg3 (⟨16, by decide⟩ : Fin 26) (⟨8, by decide⟩ : Fin 26) (by decide) _ rfl _ _ _ _ _ d).trans ?_
      refine (read_row_miss arg3 (⟨15, by decide⟩ : Fin 26) (⟨8, by decide⟩ : Fin 26) (by decide) _ rfl _ _ _ _ _ d).trans ?_
      refine (read_row_miss arg3 (⟨14, by decide⟩ : Fin 26) (⟨8, by decide⟩ : Fin 26) (by decide) _ rfl _ _ _ _ _ d).trans ?_
      refine (read_row_miss arg3 (⟨13, by decide⟩ : Fin 26) (⟨8, by decide⟩ : Fin 26) (by decide) _ rfl _ _ _ _ _ d).trans ?_
      refine (read_row_miss arg3 (⟨12, by decide⟩ : Fin 26) (⟨8, by decide⟩ : Fin 26) (by decide) _ rfl _ _ _ _ _ d).trans ?_
      refine (read_row_miss arg3 (⟨11, by decide⟩ : Fin 26) (⟨8, by decide⟩ : Fin 26) (by decide) _ rfl _ _ _ _ _ d).trans ?_
      refine (read_row_miss arg3 (⟨10, by decide⟩ : Fin 26) (⟨8, by decide⟩ : Fin 26) (by decide) _ rfl _ _ _ _ _ d).trans ?_
      refine (read_row_miss arg3 (⟨9, by decide⟩ : Fin 26) (⟨8, by decide⟩ : Fin 26) (by decide) _ rfl _ _ _ _ _ d).trans ?_
      refine (read_row_hit arg3 (⟨8, by decide⟩ : Fin 26) _ rfl _ _ _ _ _ d).trans ?_
      exact read_src_row arg2 harg2 emb (⟨8, by decide⟩ : Fin 26) (rowOf tbl i (⟨8, by decide⟩ : Fin 26)) _ (srcoff8 i arg1 harg1 tbl hrange _) _ _ _ d
    · -- row 9: the later rows' writes miss it; its own write lands the row read from sub-table 9
      refine (read_row_miss arg3 (⟨25, by decide⟩ : Fin 26) (⟨9, by decide⟩ : Fin 26) (by decide) _ rfl _ _ _ _ _ d).trans ?_
      refine (read_row_miss arg3 (⟨24, by decide⟩ : Fin 26) (⟨9, by decide⟩ : Fin 26) (by decide) _ rfl _ _ _ _ _ d).trans ?_
      refine (read_row_miss arg3 (⟨23, by decide⟩ : Fin 26) (⟨9, by decide⟩ : Fin 26) (by decide) _ rfl _ _ _ _ _ d).trans ?_
      refine (read_row_miss arg3 (⟨22, by decide⟩ : Fin 26) (⟨9, by decide⟩ : Fin 26) (by decide) _ rfl _ _ _ _ _ d).trans ?_
      refine (read_row_miss arg3 (⟨21, by decide⟩ : Fin 26) (⟨9, by decide⟩ : Fin 26) (by decide) _ rfl _ _ _ _ _ d).trans ?_
      refine (read_row_miss arg3 (⟨20, by decide⟩ : Fin 26) (⟨9, by decide⟩ : Fin 26) (by decide) _ rfl _ _ _ _ _ d).trans ?_
      refine (read_row_miss arg3 (⟨19, by decide⟩ : Fin 26) (⟨9, by decide⟩ : Fin 26) (by decide) _ rfl _ _ _ _ _ d).trans ?_
      refine (read_row_miss arg3 (⟨18, by decide⟩ : Fin 26) (⟨9, by decide⟩ : Fin 26) (by decide) _ rfl _ _ _ _ _ d).trans ?_
      refine (read_row_miss arg3 (⟨17, by decide⟩ : Fin 26) (⟨9, by decide⟩ : Fin 26) (by decide) _ rfl _ _ _ _ _ d).trans ?_
      refine (read_row_miss arg3 (⟨16, by decide⟩ : Fin 26) (⟨9, by decide⟩ : Fin 26) (by decide) _ rfl _ _ _ _ _ d).trans ?_
      refine (read_row_miss arg3 (⟨15, by decide⟩ : Fin 26) (⟨9, by decide⟩ : Fin 26) (by decide) _ rfl _ _ _ _ _ d).trans ?_
      refine (read_row_miss arg3 (⟨14, by decide⟩ : Fin 26) (⟨9, by decide⟩ : Fin 26) (by decide) _ rfl _ _ _ _ _ d).trans ?_
      refine (read_row_miss arg3 (⟨13, by decide⟩ : Fin 26) (⟨9, by decide⟩ : Fin 26) (by decide) _ rfl _ _ _ _ _ d).trans ?_
      refine (read_row_miss arg3 (⟨12, by decide⟩ : Fin 26) (⟨9, by decide⟩ : Fin 26) (by decide) _ rfl _ _ _ _ _ d).trans ?_
      refine (read_row_miss arg3 (⟨11, by decide⟩ : Fin 26) (⟨9, by decide⟩ : Fin 26) (by decide) _ rfl _ _ _ _ _ d).trans ?_
      refine (read_row_miss arg3 (⟨10, by decide⟩ : Fin 26) (⟨9, by decide⟩ : Fin 26) (by decide) _ rfl _ _ _ _ _ d).trans ?_
      refine (read_row_hit arg3 (⟨9, by decide⟩ : Fin 26) _ rfl _ _ _ _ _ d).trans ?_
      exact read_src_row arg2 harg2 emb (⟨9, by decide⟩ : Fin 26) (rowOf tbl i (⟨9, by decide⟩ : Fin 26)) _ (srcoff9 i arg1 harg1 tbl hrange _) _ _ _ d
    · -- row 10: the later rows' writes miss it; its own write lands the row read from sub-table 10
      refine (read_row_miss arg3 (⟨25, by decide⟩ : Fin 26) (⟨10, by decide⟩ : Fin 26) (by decide) _ rfl _ _ _ _ _ d).trans ?_
      refine (read_row_miss arg3 (⟨24, by decide⟩ : Fin 26) (⟨10, by decide⟩ : Fin 26) (by decide) _ rfl _ _ _ _ _ d).trans ?_
      refine (read_row_miss arg3 (⟨23, by decide⟩ : Fin 26) (⟨10, by decide⟩ : Fin 26) (by decide) _ rfl _ _ _ _ _ d).trans ?_
      refine (read_row_miss arg3 (⟨22, by decide⟩ : Fin 26) (⟨10, by decide⟩ : Fin 26) (by decide) _ rfl _ _ _ _ _ d).trans ?_
      refine (read_row_miss arg3 (⟨21, by decide⟩ : Fin 26) (⟨10, by decide⟩ : Fin 26) (by decide) _ rfl _ _ _ _ _ d).trans ?_
      refine (read_row_miss arg3 (⟨20, by decide⟩ : Fin 26) (⟨10, by decide⟩ : Fin 26) (by decide) _ rfl _ _ _ _ _ d).trans ?_
      refine (read_row_miss arg3 (⟨19, by decide⟩ : Fin 26) (⟨10, by decide⟩ : Fin 26) (by decide) _ rfl _ _ _ _ _ d).trans ?_
      refine (read_row_miss arg3 (⟨18, by decide⟩ : Fin 26) (⟨10, by decide⟩ : Fin 26) (by decide) _ rfl _ _ _ _ _ d).trans ?_
      refine (read_row_miss arg3 (⟨17, by decide⟩ : Fin 26) (⟨10, by decide⟩ : Fin 26) (by decide) _ rfl _ _ _ _ _ d).trans ?_
      refine (read_row_miss arg3 (⟨16, by decide⟩ : Fin 26) (⟨10, by decide⟩ : Fin 26) (by decide) _ rfl _ _ _ _ _ d).trans ?_
      refine (read_row_miss arg3 (⟨15, by decide⟩ : Fin 26) (⟨10, by decide⟩ : Fin 26) (by decide) _ rfl _ _ _ _ _ d).trans ?_
      refine (read_row_miss arg3 (⟨14, by decide⟩ : Fin 26) (⟨10, by decide⟩ : Fin 26) (by decide) _ rfl _ _ _ _ _ d).trans ?_
      refine (read_row_miss arg3 (⟨13, by decide⟩ : Fin 26) (⟨10, by decide⟩ : Fin 26) (by decide) _ rfl _ _ _ _ _ d).trans ?_
      refine (read_row_miss arg3 (⟨12, by decide⟩ : Fin 26) (⟨10, by decide⟩ : Fin 26) (by decide) _ rfl _ _ _ _ _ d).trans ?_
      refine (read_row_miss arg3 (⟨11, by decide⟩ : Fin 26) (⟨10, by decide⟩ : Fin 26) (by decide) _ rfl _ _ _ _ _ d).trans ?_
      refine (read_row_hit arg3 (⟨10, by decide⟩ : Fin 26) _ rfl _ _ _ _ _ d).trans ?_
      exact read_src_row arg2 harg2 emb (⟨10, by decide⟩ : Fin 26) (rowOf tbl i (⟨10, by decide⟩ : Fin 26)) _ (srcoff10 i arg1 harg1 tbl hrange _) _ _ _ d
    · -- row 11: the later rows' writes miss it; its own write lands the row read from sub-table 11
      refine (read_row_miss arg3 (⟨25, by decide⟩ : Fin 26) (⟨11, by decide⟩ : Fin 26) (by decide) _ rfl _ _ _ _ _ d).trans ?_
      refine (read_row_miss arg3 (⟨24, by decide⟩ : Fin 26) (⟨11, by decide⟩ : Fin 26) (by decide) _ rfl _ _ _ _ _ d).trans ?_
      refine (read_row_miss arg3 (⟨23, by decide⟩ : Fin 26) (⟨11, by decide⟩ : Fin 26) (by decide) _ rfl _ _ _ _ _ d).trans ?_
      refine (read_row_miss arg3 (⟨22, by decide⟩ : Fin 26) (⟨11, by decide⟩ : Fin 26) (by decide) _ rfl _ _ _ _ _ d).trans ?_
      refine (read_row_miss arg3 (⟨21, by decide⟩ : Fin 26) (⟨11, by decide⟩ : Fin 26) (by decide) _ rfl _ _ _ _ _ d).trans ?_
      refine (read_row_miss arg3 (⟨20, by decide⟩ : Fin 26) (⟨11, by decide⟩ : Fin 26) (by decide) _ rfl _ _ _ _ _ d).trans ?_
      refine (read_row_miss arg3 (⟨19, by decide⟩ : Fin 26) (⟨11, by decide⟩ : Fin 26) (by decide) _ rfl _ _ _ _ _ d).trans ?_
      refine (read_row_miss arg3 (⟨18, by decide⟩ : Fin 26) (⟨11, by decide⟩ : Fin 26) (by decide) _ rfl _ _ _ _ _ d).trans ?_
      refine (read_row_miss arg3 (⟨17, by decide⟩ : Fin 26) (⟨11, by decide⟩ : Fin 26) (by decide) _ rfl _ _ _ _ _ d).trans ?_
      refine (read_row_miss arg3 (⟨16, by decide⟩ : Fin 26) (⟨11, by decide⟩ : Fin 26) (by decide) _ rfl _ _ _ _ _ d).trans ?_
      refine (read_row_miss arg3 (⟨15, by decide⟩ : Fin 26) (⟨11, by decide⟩ : Fin 26) (by decide) _ rfl _ _ _ _ _ d).trans ?_
      refine (read_row_miss arg3 (⟨14, by decide⟩ : Fin 26) (⟨11, by decide⟩ : Fin 26) (by decide) _ rfl _ _ _ _ _ d).trans ?_
      refine (read_row_miss arg3 (⟨13, by decide⟩ : Fin 26) (⟨11, by decide⟩ : Fin 26) (by decide) _ rfl _ _ _ _ _ d).trans ?_
      refine (read_row_miss arg3 (⟨12, by decide⟩ : Fin 26) (⟨11, by decide⟩ : Fin 26) (by decide) _ rfl _ _ _ _ _ d).trans ?_
      refine (read_row_hit arg3 (⟨11, by decide⟩ : Fin 26) _ rfl _ _ _ _ _ d).trans ?_
      exact read_src_row arg2 harg2 emb (⟨11, by decide⟩ : Fin 26) (rowOf tbl i (⟨11, by decide⟩ : Fin 26)) _ (srcoff11 i arg1 harg1 tbl hrange _) _ _ _ d
    · -- row 12: the later rows' writes miss it; its own write lands the row read from sub-table 12
      refine (read_row_miss arg3 (⟨25, by decide⟩ : Fin 26) (⟨12, by decide⟩ : Fin 26) (by decide) _ rfl _ _ _ _ _ d).trans ?_
      refine (read_row_miss arg3 (⟨24, by decide⟩ : Fin 26) (⟨12, by decide⟩ : Fin 26) (by decide) _ rfl _ _ _ _ _ d).trans ?_
      refine (read_row_miss arg3 (⟨23, by decide⟩ : Fin 26) (⟨12, by decide⟩ : Fin 26) (by decide) _ rfl _ _ _ _ _ d).trans ?_
      refine (read_row_miss arg3 (⟨22, by decide⟩ : Fin 26) (⟨12, by decide⟩ : Fin 26) (by decide) _ rfl _ _ _ _ _ d).trans ?_
      refine (read_row_miss arg3 (⟨21, by decide⟩ : Fin 26) (⟨12, by decide⟩ : Fin 26) (by decide) _ rfl _ _ _ _ _ d).trans ?_
      refine (read_row_miss arg3 (⟨20, by decide⟩ : Fin 26) (⟨12, by decide⟩ : Fin 26) (by decide) _ rfl _ _ _ _ _ d).trans ?_
      refine (read_row_miss arg3 (⟨19, by decide⟩ : Fin 26) (⟨12, by decide⟩ : Fin 26) (by decide) _ rfl _ _ _ _ _ d).trans ?_
      refine (read_row_miss arg3 (⟨18, by decide⟩ : Fin 26) (⟨12, by decide⟩ : Fin 26) (by decide) _ rfl _ _ _ _ _ d).trans ?_
      refine (read_row_miss arg3 (⟨17, by decide⟩ : Fin 26) (⟨12, by decide⟩ : Fin 26) (by decide) _ rfl _ _ _ _ _ d).trans ?_
      refine (read_row_miss arg3 (⟨16, by decide⟩ : Fin 26) (⟨12, by decide⟩ : Fin 26) (by decide) _ rfl _ _ _ _ _ d).trans ?_
      refine (read_row_miss arg3 (⟨15, by decide⟩ : Fin 26) (⟨12, by decide⟩ : Fin 26) (by decide) _ rfl _ _ _ _ _ d).trans ?_
      refine (read_row_miss arg3 (⟨14, by decide⟩ : Fin 26) (⟨12, by decide⟩ : Fin 26) (by decide) _ rfl _ _ _ _ _ d).trans ?_
      refine (read_row_miss arg3 (⟨13, by decide⟩ : Fin 26) (⟨12, by decide⟩ : Fin 26) (by decide) _ rfl _ _ _ _ _ d).trans ?_
      refine (read_row_hit arg3 (⟨12, by decide⟩ : Fin 26) _ rfl _ _ _ _ _ d).trans ?_
      exact read_src_row arg2 harg2 emb (⟨12, by decide⟩ : Fin 26) (rowOf tbl i (⟨12, by decide⟩ : Fin 26)) _ (srcoff12 i arg1 harg1 tbl hrange _) _ _ _ d
    · -- row 13: the later rows' writes miss it; its own write lands the row read from sub-table 13
      refine (read_row_miss arg3 (⟨25, by decide⟩ : Fin 26) (⟨13, by decide⟩ : Fin 26) (by decide) _ rfl _ _ _ _ _ d).trans ?_
      refine (read_row_miss arg3 (⟨24, by decide⟩ : Fin 26) (⟨13, by decide⟩ : Fin 26) (by decide) _ rfl _ _ _ _ _ d).trans ?_
      refine (read_row_miss arg3 (⟨23, by decide⟩ : Fin 26) (⟨13, by decide⟩ : Fin 26) (by decide) _ rfl _ _ _ _ _ d).trans ?_
      refine (read_row_miss arg3 (⟨22, by decide⟩ : Fin 26) (⟨13, by decide⟩ : Fin 26) (by decide) _ rfl _ _ _ _ _ d).trans ?_
      refine (read_row_miss arg3 (⟨21, by decide⟩ : Fin 26) (⟨13, by decide⟩ : Fin 26) (by decide) _ rfl _ _ _ _ _ d).trans ?_
      refine (read_row_miss arg3 (⟨20, by decide⟩ : Fin 26) (⟨13, by decide⟩ : Fin 26) (by decide) _ rfl _ _ _ _ _ d).trans ?_
      refine (read_row_miss arg3 (⟨19, by decide⟩ : Fin 26) (⟨13, by decide⟩ : Fin 26) (by decide) _ rfl _ _ _ _ _ d).trans ?_
      refine (read_row_miss arg3 (⟨18, by decide⟩ : Fin 26) (⟨13, by decide⟩ : Fin 26) (by decide) _ rfl _ _ _ _ _ d).trans ?_
      refine (read_row_miss arg3 (⟨17, by decide⟩ : Fin 26) (⟨13, by decide⟩ : Fin 26) (by decide) _ rfl _ _ _ _ _ d).trans ?_
      refine (read_row_miss arg3 (⟨16, by decide⟩ : Fin 26) (⟨13, by decide⟩ : Fin 26) (by decide) _ rfl _ _ _ _ _ d).trans ?_
      refine (read_row_miss arg3 (⟨15, by decide⟩ : Fin 26) (⟨13, by decide⟩ : Fin 26) (by decide) _ rfl _ _ _ _ _ d).trans ?_
      refine (read_row_miss arg3 (⟨14, by decide⟩ : Fin 26) (⟨13, by decide⟩ : Fin 26) (by decide) _ rfl _ _ _ _ _ d).trans ?_
      refine (read_row_hit arg3 (⟨13, by decide⟩ : Fin 26) _ rfl _ _ _ _ _ d).trans ?_
      exact read_src_row arg2 harg2 emb (⟨13, by decide⟩ : Fin 26) (rowOf tbl i (⟨13, by decide⟩ : Fin 26)) _ (srcoff13 i arg1 harg1 tbl hrange _) _ _ _ d
    · -- row 14: the later rows' writes miss it; its own write lands the row read from sub-table 14
      refine (read_row_miss arg3 (⟨25, by decide⟩ : Fin 26) (⟨14, by decide⟩ : Fin 26) (by decide) _ rfl _ _ _ _ _ d).trans ?_
      refine (read_row_miss arg3 (⟨24, by decide⟩ : Fin 26) (⟨14, by decide⟩ : Fin 26) (by decide) _ rfl _ _ _ _ _ d).trans ?_
      refine (read_row_miss arg3 (⟨23, by decide⟩ : Fin 26) (⟨14, by decide⟩ : Fin 26) (by decide) _ rfl _ _ _ _ _ d).trans ?_
      refine (read_row_miss arg3 (⟨22, by decide⟩ : Fin 26) (⟨14, by decide⟩ : Fin 26) (by decide) _ rfl _ _ _ _ _ d).trans ?_
      refine (read_row_miss arg3 (⟨21, by decide⟩ : Fin 26) (⟨14, by decide⟩ : Fin 26) (by decide) _ rfl _ _ _ _ _ d).trans ?_
      refine (read_row_miss arg3 (⟨20, by decide⟩ : Fin 26) (⟨14, by decide⟩ : Fin 26) (by decide) _ rfl _ _ _ _ _ d).trans ?_
      refine (read_row_miss arg3 (⟨19, by decide⟩ : Fin 26) (⟨14, by decide⟩ : Fin 26) (by decide) _ rfl _ _ _ _ _ d).trans ?_
      refine (read_row_miss arg3 (⟨18, by decide⟩ : Fin 26) (⟨14, by decide⟩ : Fin 26) (by decide) _ rfl _ _ _ _ _ d).trans ?_
      refine (read_row_miss arg3 (⟨17, by decide⟩ : Fin 26) (⟨14, by decide⟩ : Fin 26) (by decide) _ rfl _ _ _ _ _ d).trans ?_
      refine (read_row_miss arg3 (⟨16, by decide⟩ : Fin 26) (⟨14, by decide⟩ : Fin 26) (by decide) _ rfl _ _ _ _ _ d).trans ?_
      refine (read_row_miss arg3 (⟨15, by decide⟩ : Fin 26) (⟨14, by decide⟩ : Fin 26) (by decide) _ rfl _ _ _ _ _ d).trans ?_
      refine (read_row_hit arg3 (⟨14, by decide⟩ : Fin 26) _ rfl _ _ _ _ _ d).trans ?_
      exact read_src_row arg2 harg2 emb (⟨14, by decide⟩ : Fin 26) (rowOf tbl i (⟨14, by decide⟩ : Fin 26)) _ (srcoff14 i arg1 harg1 tbl hrange _) _ _ _ d
    · -- row 15: the later rows' writes miss it; its own write lands the row read from sub-table 15
      refine (read_row_miss arg3 (⟨25, by decide⟩ : Fin 26) (⟨15, by decide⟩ : Fin 26) (by decide) _ rfl _ _ _ _ _ d).trans ?_
      refine (read_row_miss arg3 (⟨24, by decide⟩ : Fin 26) (⟨15, by decide⟩ : Fin 26) (by decide) _ rfl _ _ _ _ _ d).trans ?_
      refine (read_row_miss arg3 (⟨23, by decide⟩ : Fin 26) (⟨15, by decide⟩ : Fin 26) (by decide) _ rfl _ _ _ _ _ d).trans ?_
      refine (read_row_miss arg3 (⟨22, by decide⟩ : Fin 26) (⟨15, by decide⟩ : Fin 26) (by decide) _ rfl _ _ _ _ _ d).trans ?_
      refine (read_row_miss arg3 (⟨21, by decide⟩ : Fin 26) (⟨15, by decide⟩ : Fin 26) (by decide) _ rfl _ _ _ _ _ d).trans ?_
      refine (read_row_miss arg3 (⟨20, by decide⟩ : Fin 26) (⟨15, by decide⟩ : Fin 26) (by decide) _ rfl _ _ _ _ _ d).trans ?_
      refine (read_row_miss arg3 (⟨19, by decide⟩ : Fin 26) (⟨15, by decide⟩ : Fin 26) (by decide) _ rfl _ _ _ _ _ d).trans ?_
      refine (read_row_miss arg3 (⟨18, by decide⟩ : Fin 26) (⟨15, by decide⟩ : Fin 26) (by decide) _ rfl _ _ _ _ _ d).trans ?_
      refine (read_row_miss arg3 (⟨17, by decide⟩ : Fin 26) (⟨15, by decide⟩ : Fin 26) (by decide) _ rfl _ _ _ _ _ d).trans ?_
      refine (read_row_miss arg3 (⟨16, by decide⟩ : Fin 26) (⟨15, by decide⟩ : Fin 26) (by decide) _ rfl _ _ _ _ _ d).trans ?_
      refine (read_row_hit arg3 (⟨15, by decide⟩ : Fin 26) _ rfl _ _ _ _ _ d).trans ?_
      exact read_src_row arg2 harg2 emb (⟨15, by decide⟩ : Fin 26) (rowOf tbl i (⟨15, by decide⟩ : Fin 26)) _ (srcoff15 i arg1 harg1 tbl hrange _) _ _ _ d
    · -- row 16: the later rows' writes miss it; its own write lands the row read from sub-table 16
      refine (read_row_miss arg3 (⟨25, by decide⟩ : Fin 26) (⟨16, by decide⟩ : Fin 26) (by decide) _ rfl _ _ _ _ _ d).trans ?_
      refine (read_row_miss arg3 (⟨24, by decide⟩ : Fin 26) (⟨16, by decide⟩ : Fin 26) (by decide) _ rfl _ _ _ _ _ d).trans ?_
      refine (read_row_miss arg3 (⟨23, by decide⟩ : Fin 26) (⟨16, by decide⟩ : Fin 26) (by decide) _ rfl _ _ _ _ _ d).trans ?_
      refine (read_row_miss arg3 (⟨22, by decide⟩ : Fin 26) (⟨16, by decide⟩ : Fin 26) (by decide) _ rfl _ _ _ _ _ d).trans ?_
      refine (read_row_miss arg3 (⟨21, by decide⟩ : Fin 26) (⟨16, by decide⟩ : Fin 26) (by decide) _ rfl _ _ _ _ _ d).trans ?_
      refine (read_row_miss arg3 (⟨20, by decide⟩ : Fin 26) (⟨16, by decide⟩ : Fin 26) (by decide) _ rfl _ _ _ _ _ d).trans ?_
      refine (read_row_miss arg3 (⟨19, by decide⟩ : Fin 26) (⟨16, by decide⟩ : Fin 26) (by decide) _ rfl _ _ _ _ _ d).trans ?_
      refine (read_row_miss arg3 (⟨18, by decide⟩ : Fin 26) (⟨16, by decide⟩ : Fin 26) (by decide) _ rfl _ _ _ _ _ d).trans ?_
      refine (read_row_miss arg3 (⟨17, by decide⟩ : Fin 26) (⟨16, by decide⟩ : Fin 26) (by decide) _ rfl _ _ _ _ _ d).trans ?_
      refine (read_row_hit arg3 (⟨16, by decide⟩ : Fin 26) _ rfl _ _ _ _ _ d).trans ?_
      exact read_src_row arg2 harg2 emb (⟨16, by decide⟩ : Fin 26) (rowOf tbl i (⟨16, by decide⟩ : Fin 26)) _ (srcoff16 i arg1 harg1 tbl hrange _) _ _ _ d
    · -- row 17: the later rows' writes miss it; its own write lands the row read from sub-table 17
      refine (read_row_miss arg3 (⟨25, by decide⟩ : Fin 26) (⟨17, by decide⟩ : Fin 26) (by decide) _ rfl _ _ _ _ _ d).trans ?_
      refine (read_row_miss arg3 (⟨24, by decide⟩ : Fin 26) (⟨17, by decide⟩ : Fin 26) (by decide) _ rfl _ _ _ _ _ d).trans ?_
      refine (read_row_miss arg3 (⟨23, by decide⟩ : Fin 26) (⟨17, by decide⟩ : Fin 26) (by decide) _ rfl _ _ _ _ _ d).trans ?_
      refine (read_row_miss arg3 (⟨22, by decide⟩ : Fin 26) (⟨17, by decide⟩ : Fin 26) (by decide) _ rfl _ _ _ _ _ d).trans ?_
      refine (read_row_miss arg3 (⟨21, by decide⟩ : Fin 26) (⟨17, by decide⟩ : Fin 26) (by decide) _ rfl _ _ _ _ _ d).trans ?_
      refine (read_row_miss arg3 (⟨20, by decide⟩ : Fin 26) (⟨17, by decide⟩ : Fin 26) (by decide) _ rfl _ _ _ _ _ d).trans ?_
      refine (read_row_miss arg3 (⟨19, by decide⟩ : Fin 26) (⟨17, by decide⟩ : Fin 26) (by decide) _ rfl _ _ _ _ _ d).trans ?_
      refine (read_row_miss arg3 (⟨18, by decide⟩ : Fin 26) (⟨17, by decide⟩ : Fin 26) (by decide) _ rfl _ _ _ _ _ d).trans ?_
      refine (read_row_hit arg3 (⟨17, by decide⟩ : Fin 26) _ rfl _ _ _ _ _ d).trans ?_
      exact read_src_row arg2 harg2 emb (⟨17, by decide⟩ : Fin 26) (rowOf tbl i (⟨17, by decide⟩ : Fin 26)) _ (srcoff17 i arg1 harg1 tbl hrange _) _ _ _ d
    · -- row 18: the later rows' writes miss it; its own write lands the row read from sub-table 18
      refine (read_row_miss arg3 (⟨25, by decide⟩ : Fin 26) (⟨18, by decide⟩ : Fin 26) (by decide) _ rfl _ _ _ _ _ d).trans ?_
      refine (read_row_miss arg3 (⟨24, by decide⟩ : Fin 26) (⟨18, by decide⟩ : Fin 26) (by decide) _ rfl _ _ _ _ _ d).trans ?_
      refine (read_row_miss arg3 (⟨23, by decide⟩ : Fin 26) (⟨18, by decide⟩ : Fin 26) (by decide) _ rfl _ _ _ _ _ d).trans ?_
      refine (read_row_miss arg3 (⟨22, by decide⟩ : Fin 26) (⟨18, by decide⟩ : Fin 26) (by decide) _ rfl _ _ _ _ _ d).trans ?_
      refine (read_row_miss arg3 (⟨21, by decide⟩ : Fin 26) (⟨18, by decide⟩ : Fin 26) (by decide) _ rfl _ _ _ _ _ d).trans ?_
      refine (read_row_miss arg3 (⟨20, by decide⟩ : Fin 26) (⟨18, by decide⟩ : Fin 26) (by decide) _ rfl _ _ _ _ _ d).trans ?_
      refine (read_row_miss arg3 (⟨19, by decide⟩ : Fin 26) (⟨18, by decide⟩ : Fin 26) (by decide) _ rfl _ _ _ _ _ d).trans ?_
      refine (read_row_hit arg3 (⟨18, by decide⟩ : Fin 26) _ rfl _ _ _ _ _ d).trans ?_
      exact read_src_row arg2 harg2 emb (⟨18, by decide⟩ : Fin 26) (rowOf tbl i (⟨18, by decide⟩ : Fin 26)) _ (srcoff18 i arg1 harg1 tbl hrange _) _ _ _ d
    · -- row 19: the later rows' writes miss it; its own write lands the row read from sub-table 19
      refine (read_row_miss arg3 (⟨25, by decide⟩ : Fin 26) (⟨19, by decide⟩ : Fin 26) (by decide) _ rfl _ _ _ _ _ d).trans ?_
      refine (read_row_miss arg3 (⟨24, by decide⟩ : Fin 26) (⟨19, by decide⟩ : Fin 26) (by decide) _ rfl _ _ _ _ _ d).trans ?_
      refine (read_row_miss arg3 (⟨23, by decide⟩ : Fin 26) (⟨19, by decide⟩ : Fin 26) (by decide) _ rfl _ _ _ _ _ d).trans ?_
      refine (read_row_miss arg3 (⟨22, by decide⟩ : Fin 26) (⟨19, by decide⟩ : Fin 26) (by decide) _ rfl _ _ _ _ _ d).trans ?_
      refine (read_row_miss arg3 (⟨21, by decide⟩ : Fin 26) (⟨19, by decide⟩ : Fin 26) (by decide) _ rfl _ _ _ _ _ d).trans ?_
      refine (read_row_miss arg3 (⟨20, by decide⟩ : Fin 26) (⟨19, by decide⟩ : Fin 26) (by decide) _ rfl _ _ _ _ _ d).trans ?_
      refine (read_row_hit arg3 (⟨19, by decide⟩ : Fin 26) _ rfl _ _ _ _ _ d).trans ?_
      exact read_src_row arg2 harg2 emb (⟨19, by decide⟩ : Fin 26) (rowOf tbl i (⟨19, by decide⟩ : Fin 26)) _ (srcoff19 i arg1 harg1 tbl hrange _) _ _ _ d
    · -- row 20: the later rows' writes miss it; its own write lands the row read from sub-table 20
      refine (read_row_miss arg3 (⟨25, by decide⟩ : Fin 26) (⟨20, by decide⟩ : Fin 26) (by decide) _ rfl _ _ _ _ _ d).trans ?_
      refine (read_row_miss arg3 (⟨24, by decide⟩ : Fin 26) (⟨20, by decide⟩ : Fin 26) (by decide) _ rfl _ _ _ _ _ d).trans ?_
      refine (read_row_miss arg3 (⟨23, by decide⟩ : Fin 26) (⟨20, by decide⟩ : Fin 26) (by decide) _ rfl _ _ _ _ _ d).trans ?_
      refine (read_row_miss arg3 (⟨22, by decide⟩ : Fin 26) (⟨20, by decide⟩ : Fin 26) (by decide) _ rfl _ _ _ _ _ d).trans ?_
      refine (read_row_miss arg3 (⟨21, by decide⟩ : Fin 26) (⟨20, by decide⟩ : Fin 26) (by decide) _ rfl _ _ _ _ _ d).trans ?_
      refine (read_row_hit arg3 (⟨20, by decide⟩ : Fin 26) _ rfl _ _ _ _ _ d).trans ?_
      exact read_src_row arg2 harg2 emb (⟨20, by decide⟩ : Fin 26) (rowOf tbl i (⟨20, by decide⟩ : Fin 26)) _ (srcoff20 i arg1 harg1 tbl hrange _) _ _ _ d
    · -- row 21: the later rows' writes miss it; its own write lands the row read from sub-table 21
      refine (read_row_miss arg3 (⟨25, by decide⟩ : Fin 26) (⟨21, by decide⟩ : Fin 26) (by decide) _ rfl _ _ _ _ _ d).trans ?_
      refine (read_row_miss arg3 (⟨24, by decide⟩ : Fin 26) (⟨21, by decide⟩ : Fin 26) (by decide) _ rfl _ _ _ _ _ d).trans ?_
      refine (read_row_miss arg3 (⟨23, by decide⟩ : Fin 26) (⟨21, by decide⟩ : Fin 26) (by decide) _ rfl _ _ _ _ _ d).trans ?_
      refine (read_row_miss arg3 (⟨22, by decide⟩ : Fin 26) (⟨21, by decide⟩ : Fin 26) (by decide) _ rfl _ _ _ _ _ d).trans ?_
      refine (read_row_hit arg3 (⟨21, by decide⟩ : Fin 26) _ rfl _ _ _ _ _ d).trans ?_
      exact read_src_row arg2 harg2 emb (⟨21, by decide⟩ : Fin 26) (rowOf tbl i (⟨21, by decide⟩ : Fin 26)) _ (srcoff21 i arg1 harg1 tbl hrange _) _ _ _ d
    · -- row 22: the later rows' writes miss it; its own write lands the row read from sub-table 22
      refine (read_row_miss arg3 (⟨25, by decide⟩ : Fin 26) (⟨22, by decide⟩ : Fin 26) (by decide) _ rfl _ _ _ _ _ d).trans ?_
      refine (read_row_miss arg3 (⟨24, by decide⟩ : Fin 26) (⟨22, by decide⟩ : Fin 26) (by decide) _ rfl _ _ _ _ _ d).trans ?_
      refine (read_row_miss arg3 (⟨23, by decide⟩ : Fin 26) (⟨22, by decide⟩ : Fin 26) (by decide) _ rfl _ _ _ _ _ d).trans ?_
      refine (read_row_hit arg3 (⟨22, by decide⟩ : Fin 26) _ rfl _ _ _ _ _ d).trans ?_
      exact read_src_row arg2 harg2 emb (⟨22, by decide⟩ : Fin 26) (rowOf tbl i (⟨22, by decide⟩ : Fin 26)) _ (srcoff22 i arg1 harg1 tbl hrange _) _ _ _ d
    · -- row 23: the later rows' writes miss it; its own write lands the row read from sub-table 23
      refine (read_row_miss arg3 (⟨25, by decide⟩ : Fin 26) (⟨23, by decide⟩ : Fin 26) (by decide) _ rfl _ _ _ _ _ d).trans ?_
      refine (read_row_miss arg3 (⟨24, by decide⟩ : Fin 26) (⟨23, by decide⟩ : Fin 26) (by decide) _ rfl _ _ _ _ _ d).trans ?_
      refine (read_row_hit arg3 (⟨23, by decide⟩ : Fin 26) _ rfl _ _ _ _ _ d).trans ?_
      exact read_src_row arg2 harg2 emb (⟨23, by decide⟩ : Fin 26) (rowOf tbl i (⟨23, by decide⟩ : Fin 26)) _ (srcoff23 i arg1 harg1 tbl hrange _) _ _ _ d
    · -- row 24: the later rows' writes miss it; its own write lands the row read from sub-table 24
      refine (read_row_miss arg3 (⟨25, by decide⟩ : Fin 26) (⟨24, by decide⟩ : Fin 26) (by decide) _ rfl _ _ _ _ _ d).trans ?_
      refine (read_row_hit arg3 (⟨24, by decide⟩ : Fin 26) _ rfl _ _ _ _ _ d).trans ?_
      exact read_src_row arg2 harg2 emb (⟨24, by decide⟩ : Fin 26) (rowOf tbl i (⟨24, by decide⟩ : Fin 26)) _ (srcoff24 i arg1 harg1 tbl hrange _) _ _ _ d
    · -- row 25: the later rows' writes miss it; its own write lands the row read from sub-table 25
      refine (read_row_hit arg3 (⟨25, by decide⟩ : Fin 26) _ rfl _ _ _ _ _ d).trans ?_
      exact read_src_row arg2 harg2 emb (⟨25, by decide⟩ : Fin 26) (rowOf tbl i (⟨25, by decide⟩ : Fin 26)) _ (srcoff25 i arg1 harg1 tbl hrange _) _ _ _ d
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    iexact Hq25
  iexists _; iexact HW

end Cert.KernelIdeal.Gather0

end
-- ==== Proof.G0Body.lean ====
/-
  The gather call's body at one grid point: its triple.

  The body's run (`gatherRun`) leaves the output window's buffer in eleven pieces — rows 0 to 9 each alone, and the
  rest — each at contents that hold on it what the buffer reading `gatherBlk tbl emb i` holds. Pieces at contents
  that agree with one function on them are pieces at that function, and the eleven are the whole buffer
  (`pieces_join`: row `j` lies in the buffer less the rows before it, the rows being pairwise apart). So the body's
  triple follows (`sound_gather0`): from the table and the stacked tables at any shares, the window's buffer whole and
  the call's 26 counters at zero, the body returns all of them with the buffer holding the gathered block and the
  counters back at zero.
-/
import proofs.«407213_j20864951124667_1_alg».proof.Proof.G0Run

set_option maxRecDepth 16384

noncomputable section

namespace Cert.KernelIdeal.Gather0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts₀] [Facts]
open Facts₀ Facts

local notation "𝕄" => MT nD τ sig Unit (Elt F) ℕ (Pipeline.UD sig nD τ) ℕ

section Join

variable (c : Dev nD) (arg3 : Memref sig .tc .vmem S1x26x64 .f32) (harg3 : arg3.IsWhole) (B : Vec F S1x26x64 .f32)

set_option maxHeartbeats 1000000 in
/-- The eleven pieces the run leaves the buffer in, each at contents that agree on it with the buffer reading `B`,
    are the whole buffer reading `B`. -/
theorem pieces_join (d0 d1 d2 d3 d4 d5 d6 d7 d8 d9 dR : Buf (Elt F) (arg3.view.loc (c : Thread nD τ)))
    (h0 : ∀ idx ∈ rowSet c arg3 (⟨0, of_decide_eq_true rfl⟩ : Fin 26), d0 idx = (harg3.unread B) idx)
    (h1 : ∀ idx ∈ rowSet c arg3 (⟨1, of_decide_eq_true rfl⟩ : Fin 26), d1 idx = (harg3.unread B) idx)
    (h2 : ∀ idx ∈ rowSet c arg3 (⟨2, of_decide_eq_true rfl⟩ : Fin 26), d2 idx = (harg3.unread B) idx)
    (h3 : ∀ idx ∈ rowSet c arg3 (⟨3, of_decide_eq_true rfl⟩ : Fin 26), d3 idx = (harg3.unread B) idx)
    (h4 : ∀ idx ∈ rowSet c arg3 (⟨4, of_decide_eq_true rfl⟩ : Fin 26), d4 idx = (harg3.unread B) idx)
    (h5 : ∀ idx ∈ rowSet c arg3 (⟨5, of_decide_eq_true rfl⟩ : Fin 26), d5 idx = (harg3.unread B) idx)
    (h6 : ∀ idx ∈ rowSet c arg3 (⟨6, of_decide_eq_true rfl⟩ : Fin 26), d6 idx = (harg3.unread B) idx)
    (h7 : ∀ idx ∈ rowSet c arg3 (⟨7, of_decide_eq_true rfl⟩ : Fin 26), d7 idx = (harg3.unread B) idx)
    (h8 : ∀ idx ∈ rowSet c arg3 (⟨8, of_decide_eq_true rfl⟩ : Fin 26), d8 idx = (harg3.unread B) idx)
    (h9 : ∀ idx ∈ rowSet c arg3 (⟨9, of_decide_eq_true rfl⟩ : Fin 26), d9 idx = (harg3.unread B) idx)
    (hR : ∀ idx ∈ arg3.view.set, dR idx = (harg3.unread B) idx) :
    (iprop((arg3.view.loc (c : Thread nD τ) ↦[(rowM arg3 (⟨0, of_decide_eq_true rfl⟩ : Fin 26)).view.set]{fullShare} d0)
        ∗ (arg3.view.loc (c : Thread nD τ) ↦[(rowM arg3 (⟨1, of_decide_eq_true rfl⟩ : Fin 26)).view.set]{fullShare} d1)
        ∗ (arg3.view.loc (c : Thread nD τ) ↦[(rowM arg3 (⟨2, of_decide_eq_true rfl⟩ : Fin 26)).view.set]{fullShare} d2)
        ∗ (arg3.view.loc (c : Thread nD τ) ↦[(rowM arg3 (⟨3, of_decide_eq_true rfl⟩ : Fin 26)).view.set]{fullShare} d3)
        ∗ (arg3.view.loc (c : Thread nD τ) ↦[(rowM arg3 (⟨4, of_decide_eq_true rfl⟩ : Fin 26)).view.set]{fullShare} d4)
        ∗ (arg3.view.loc (c : Thread nD τ) ↦[(rowM arg3 (⟨5, of_decide_eq_true rfl⟩ : Fin 26)).view.set]{fullShare} d5)
        ∗ (arg3.view.loc (c : Thread nD τ) ↦[(rowM arg3 (⟨6, of_decide_eq_true rfl⟩ : Fin 26)).view.set]{fullShare} d6)
        ∗ (arg3.view.loc (c : Thread nD τ) ↦[(rowM arg3 (⟨7, of_decide_eq_true rfl⟩ : Fin 26)).view.set]{fullShare} d7)
        ∗ (arg3.view.loc (c : Thread nD τ) ↦[(rowM arg3 (⟨8, of_decide_eq_true rfl⟩ : Fin 26)).view.set]{fullShare} d8)
        ∗ (arg3.view.loc (c : Thread nD τ) ↦[(rowM arg3 (⟨9, of_decide_eq_true rfl⟩ : Fin 26)).view.set]{fullShare} d9)
        ∗ (arg3.view.loc (c : Thread nD τ) ↦[((((((((((arg3.view.set \ (rowM arg3 (⟨0, of_decide_eq_true rfl⟩ : Fin 26)).view.set) \ (rowM arg3 (⟨1, of_decide_eq_true rfl⟩ : Fin 26)).view.set) \ (rowM arg3 (⟨2, of_decide_eq_true rfl⟩ : Fin 26)).view.set) \ (rowM arg3 (⟨3, of_decide_eq_true rfl⟩ : Fin 26)).view.set) \ (rowM arg3 (⟨4, of_decide_eq_true rfl⟩ : Fin 26)).view.set) \ (rowM arg3 (⟨5, of_decide_eq_true rfl⟩ : Fin 26)).view.set) \ (rowM arg3 (⟨6, of_decide_eq_true rfl⟩ : Fin 26)).view.set) \ (rowM arg3 (⟨7, of_decide_eq_true rfl⟩ : Fin 26)).view.set) \ (rowM arg3 (⟨8, of_decide_eq_true rfl⟩ : Fin 26)).view.set) \ (rowM arg3 (⟨9, of_decide_eq_true rfl⟩ : Fin 26)).view.set)]{fullShare} dR)) : sProp 𝕄)
      ⊢ arg3.view.loc (c : Thread nD τ) ↦[arg3.view.set]{fullShare} (harg3.unread B) := by
  have e0 : (arg3.view.loc (c : Thread nD τ) ↦[(rowM arg3 (⟨0, of_decide_eq_true rfl⟩ : Fin 26)).view.set]{fullShare} d0 : sProp 𝕄)
      = arg3.view.loc (c : Thread nD τ) ↦[(rowM arg3 (⟨0, of_decide_eq_true rfl⟩ : Fin 26)).view.set]{fullShare} (harg3.unread B) := pointsTo_congr h0
  have e1 : (arg3.view.loc (c : Thread nD τ) ↦[(rowM arg3 (⟨1, of_decide_eq_true rfl⟩ : Fin 26)).view.set]{fullShare} d1 : sProp 𝕄)
      = arg3.view.loc (c : Thread nD τ) ↦[(rowM arg3 (⟨1, of_decide_eq_true rfl⟩ : Fin 26)).view.set]{fullShare} (harg3.unread B) := pointsTo_congr h1
  have e2 : (arg3.view.loc (c : Thread nD τ) ↦[(rowM arg3 (⟨2, of_decide_eq_true rfl⟩ : Fin 26)).view.set]{fullShare} d2 : sProp 𝕄)
      = arg3.view.loc (c : Thread nD τ) ↦[(rowM arg3 (⟨2, of_decide_eq_true rfl⟩ : Fin 26)).view.set]{fullShare} (harg3.unread B) := pointsTo_congr h2
  have e3 : (arg3.view.loc (c : Thread nD τ) ↦[(rowM arg3 (⟨3, of_decide_eq_true rfl⟩ : Fin 26)).view.set]{fullShare} d3 : sProp 𝕄)
      = arg3.view.loc (c : Thread nD τ) ↦[(rowM arg3 (⟨3, of_decide_eq_true rfl⟩ : Fin 26)).view.set]{fullShare} (harg3.unread B) := pointsTo_congr h3
  have e4 : (arg3.view.loc (c : Thread nD τ) ↦[(rowM arg3 (⟨4, of_decide_eq_true rfl⟩ : Fin 26)).view.set]{fullShare} d4 : sProp 𝕄)
      = arg3.view.loc (c : Thread nD τ) ↦[(rowM arg3 (⟨4, of_decide_eq_true rfl⟩ : Fin 26)).view.set]{fullShare} (harg3.unread B) := pointsTo_congr h4
  have e5 : (arg3.view.loc (c : Thread nD τ) ↦[(rowM arg3 (⟨5, of_decide_eq_true rfl⟩ : Fin 26)).view.set]{fullShare} d5 : sProp 𝕄)
      = arg3.view.loc (c : Thread nD τ) ↦[(rowM arg3 (⟨5, of_decide_eq_true rfl⟩ : Fin 26)).view.set]{fullShare} (harg3.unread B) := pointsTo_congr h5
  have e6 : (arg3.view.loc (c : Thread nD τ) ↦[(rowM arg3 (⟨6, of_decide_eq_true rfl⟩ : Fin 26)).view.set]{fullShare} d6 : sProp 𝕄)
      = arg3.view.loc (c : Thread nD τ) ↦[(rowM arg3 (⟨6, of_decide_eq_true rfl⟩ : Fin 26)).view.set]{fullShare} (harg3.unread B) := pointsTo_congr h6
  have e7 : (arg3.view.loc (c : Thread nD τ) ↦[(rowM arg3 (⟨7, of_decide_eq_true rfl⟩ : Fin 26)).view.set]{fullShare} d7 : sProp 𝕄)
      = arg3.view.loc (c : Thread nD τ) ↦[(rowM arg3 (⟨7, of_decide_eq_true rfl⟩ : Fin 26)).view.set]{fullShare} (harg3.unread B) := pointsTo_congr h7
  have e8 : (arg3.view.loc (c : Thread nD τ) ↦[(rowM arg3 (⟨8, of_decide_eq_true rfl⟩ : Fin 26)).view.set]{fullShare} d8 : sProp 𝕄)
      = arg3.view.loc (c : Thread nD τ) ↦[(rowM arg3 (⟨8, of_decide_eq_true rfl⟩ : Fin 26)).view.set]{fullShare} (harg3.unread B) := pointsTo_congr h8
  have e9 : (arg3.view.loc (c : Thread nD τ) ↦[(rowM arg3 (⟨9, of_decide_eq_true rfl⟩ : Fin 26)).view.set]{fullShare} d9 : sProp 𝕄)
      = arg3.view.loc (c : Thread nD τ) ↦[(rowM arg3 (⟨9, of_decide_eq_true rfl⟩ : Fin 26)).view.set]{fullShare} (harg3.unread B) := pointsTo_congr h9
  have eR : (arg3.view.loc (c : Thread nD τ) ↦[((((((((((arg3.view.set \ (rowM arg3 (⟨0, of_decide_eq_true rfl⟩ : Fin 26)).view.set) \ (rowM arg3 (⟨1, of_decide_eq_true rfl⟩ : Fin 26)).view.set) \ (rowM arg3 (⟨2, of_decide_eq_true rfl⟩ : Fin 26)).view.set) \ (rowM arg3 (⟨3, of_decide_eq_true rfl⟩ : Fin 26)).view.set) \ (rowM arg3 (⟨4, of_decide_eq_true rfl⟩ : Fin 26)).view.set) \ (rowM arg3 (⟨5, of_decide_eq_true rfl⟩ : Fin 26)).view.set) \ (rowM arg3 (⟨6, of_decide_eq_true rfl⟩ : Fin 26)).view.set) \ (rowM arg3 (⟨7, of_decide_eq_true rfl⟩ : Fin 26)).view.set) \ (rowM arg3 (⟨8, of_decide_eq_true rfl⟩ : Fin 26)).view.set) \ (rowM arg3 (⟨9, of_decide_eq_true rfl⟩ : Fin 26)).view.set)]{fullShare} dR : sProp 𝕄)
      = arg3.view.loc (c : Thread nD τ) ↦[((((((((((arg3.view.set \ (rowM arg3 (⟨0, of_decide_eq_true rfl⟩ : Fin 26)).view.set) \ (rowM arg3 (⟨1, of_decide_eq_true rfl⟩ : Fin 26)).view.set) \ (rowM arg3 (⟨2, of_decide_eq_true rfl⟩ : Fin 26)).view.set) \ (rowM arg3 (⟨3, of_decide_eq_true rfl⟩ : Fin 26)).view.set) \ (rowM arg3 (⟨4, of_decide_eq_true rfl⟩ : Fin 26)).view.set) \ (rowM arg3 (⟨5, of_decide_eq_true rfl⟩ : Fin 26)).view.set) \ (rowM arg3 (⟨6, of_decide_eq_true rfl⟩ : Fin 26)).view.set) \ (rowM arg3 (⟨7, of_decide_eq_true rfl⟩ : Fin 26)).view.set) \ (rowM arg3 (⟨8, of_decide_eq_true rfl⟩ : Fin 26)).view.set) \ (rowM arg3 (⟨9, of_decide_eq_true rfl⟩ : Fin 26)).view.set)]{fullShare} (harg3.unread B) :=
    pointsTo_congr fun idx hi => hR idx
      ((Finset.sdiff_subset.trans (Finset.sdiff_subset.trans (Finset.sdiff_subset.trans (Finset.sdiff_subset.trans (Finset.sdiff_subset.trans (Finset.sdiff_subset.trans (Finset.sdiff_subset.trans (Finset.sdiff_subset.trans (Finset.sdiff_subset.trans (Finset.sdiff_subset)))))))))) hi)
  rw [e0, e1, e2, e3, e4, e5, e6, e7, e8, e9, eR]
  iintro ⟨P0, P1, P2, P3, P4, P5, P6, P7, P8, P9, PR⟩
  ihave PR := (pointsTo_split_subset (sub_sdiff (sub_sdiff (sub_sdiff (sub_sdiff (sub_sdiff (sub_sdiff (sub_sdiff (sub_sdiff (sub_sdiff (rowSet_subset c arg3 (⟨9, of_decide_eq_true rfl⟩ : Fin 26)) (rowSet_disjoint c arg3 (⟨9, of_decide_eq_true rfl⟩ : Fin 26) (⟨0, of_decide_eq_true rfl⟩ : Fin 26) (by decide))) (rowSet_disjoint c arg3 (⟨9, of_decide_eq_true rfl⟩ : Fin 26) (⟨1, of_decide_eq_true rfl⟩ : Fin 26) (by decide))) (rowSet_disjoint c arg3 (⟨9, of_decide_eq_true rfl⟩ : Fin 26) (⟨2, of_decide_eq_true rfl⟩ : Fin 26) (by decide))) (rowSet_disjoint c arg3 (⟨9, of_decide_eq_true rfl⟩ : Fin 26) (⟨3, of_decide_eq_true rfl⟩ : Fin 26) (by decide))) (rowSet_disjoint c arg3 (⟨9, of_decide_eq_true rfl⟩ : Fin 26) (⟨4, of_decide_eq_true rfl⟩ : Fin 26) (by decide))) (rowSet_disjoint c arg3 (⟨9, of_decide_eq_true rfl⟩ : Fin 26) (⟨5, of_decide_eq_true rfl⟩ : Fin 26) (by decide))) (rowSet_disjoint c arg3 (⟨9, of_decide_eq_true rfl⟩ : Fin 26) (⟨6, of_decide_eq_true rfl⟩ : Fin 26) (by decide))) (rowSet_disjoint c arg3 (⟨9, of_decide_eq_true rfl⟩ : Fin 26) (⟨7, of_decide_eq_true rfl⟩ : Fin 26) (by decide))) (rowSet_disjoint c arg3 (⟨9, of_decide_eq_true rfl⟩ : Fin 26) (⟨8, of_decide_eq_true rfl⟩ : Fin 26) (by decide)))).2 $$ [P9 PR]
  · isplitl [P9]; · iexact P9
    iexact PR
  ihave PR := (pointsTo_split_subset (sub_sdiff (sub_sdiff (sub_sdiff (sub_sdiff (sub_sdiff (sub_sdiff (sub_sdiff (sub_sdiff (rowSet_subset c arg3 (⟨8, of_decide_eq_true rfl⟩ : Fin 26)) (rowSet_disjoint c arg3 (⟨8, of_decide_eq_true rfl⟩ : Fin 26) (⟨0, of_decide_eq_true rfl⟩ : Fin 26) (by decide))) (rowSet_disjoint c arg3 (⟨8, of_decide_eq_true rfl⟩ : Fin 26) (⟨1, of_decide_eq_true rfl⟩ : Fin 26) (by decide))) (rowSet_disjoint c arg3 (⟨8, of_decide_eq_true rfl⟩ : Fin 26) (⟨2, of_decide_eq_true rfl⟩ : Fin 26) (by decide))) (rowSet_disjoint c arg3 (⟨8, of_decide_eq_true rfl⟩ : Fin 26) (⟨3, of_decide_eq_true rfl⟩ : Fin 26) (by decide))) (rowSet_disjoint c arg3 (⟨8, of_decide_eq_true rfl⟩ : Fin 26) (⟨4, of_decide_eq_true rfl⟩ : Fin 26) (by decide))) (rowSet_disjoint c arg3 (⟨8, of_decide_eq_true rfl⟩ : Fin 26) (⟨5, of_decide_eq_true rfl⟩ : Fin 26) (by decide))) (rowSet_disjoint c arg3 (⟨8, of_decide_eq_true rfl⟩ : Fin 26) (⟨6, of_decide_eq_true rfl⟩ : Fin 26) (by decide))) (rowSet_disjoint c arg3 (⟨8, of_decide_eq_true rfl⟩ : Fin 26) (⟨7, of_decide_eq_true rfl⟩ : Fin 26) (by decide)))).2 $$ [P8 PR]
  · isplitl [P8]; · iexact P8
    iexact PR
  ihave PR := (pointsTo_split_subset (sub_sdiff (sub_sdiff (sub_sdiff (sub_sdiff (sub_sdiff (sub_sdiff (sub_sdiff (rowSet_subset c arg3 (⟨7, of_decide_eq_true rfl⟩ : Fin 26)) (rowSet_disjoint c arg3 (⟨7, of_decide_eq_true rfl⟩ : Fin 26) (⟨0, of_decide_eq_true rfl⟩ : Fin 26) (by decide))) (rowSet_disjoint c arg3 (⟨7, of_decide_eq_true rfl⟩ : Fin 26) (⟨1, of_decide_eq_true rfl⟩ : Fin 26) (by decide))) (rowSet_disjoint c arg3 (⟨7, of_decide_eq_true rfl⟩ : Fin 26) (⟨2, of_decide_eq_true rfl⟩ : Fin 26) (by decide))) (rowSet_disjoint c arg3 (⟨7, of_decide_eq_true rfl⟩ : Fin 26) (⟨3, of_decide_eq_true rfl⟩ : Fin 26) (by decide))) (rowSet_disjoint c arg3 (⟨7, of_decide_eq_true rfl⟩ : Fin 26) (⟨4, of_decide_eq_true rfl⟩ : Fin 26) (by decide))) (rowSet_disjoint c arg3 (⟨7, of_decide_eq_true rfl⟩ : Fin 26) (⟨5, of_decide_eq_true rfl⟩ : Fin 26) (by decide))) (rowSet_disjoint c arg3 (⟨7, of_decide_eq_true rfl⟩ : Fin 26) (⟨6, of_decide_eq_true rfl⟩ : Fin 26) (by decide)))).2 $$ [P7 PR]
  · isplitl [P7]; · iexact P7
    iexact PR
  ihave PR := (pointsTo_split_subset (sub_sdiff (sub_sdiff (sub_sdiff (sub_sdiff (sub_sdiff (sub_sdiff (rowSet_subset c arg3 (⟨6, of_decide_eq_true rfl⟩ : Fin 26)) (rowSet_disjoint c arg3 (⟨6, of_decide_eq_true rfl⟩ : Fin 26) (⟨0, of_decide_eq_true rfl⟩ : Fin 26) (by decide))) (rowSet_disjoint c arg3 (⟨6, of_decide_eq_true rfl⟩ : Fin 26) (⟨1, of_decide_eq_true rfl⟩ : Fin 26) (by decide))) (rowSet_disjoint c arg3 (⟨6, of_decide_eq_true rfl⟩ : Fin 26) (⟨2, of_decide_eq_true rfl⟩ : Fin 26) (by decide))) (rowSet_disjoint c arg3 (⟨6, of_decide_eq_true rfl⟩ : Fin 26) (⟨3, of_decide_eq_true rfl⟩ : Fin 26) (by decide))) (rowSet_disjoint c arg3 (⟨6, of_decide_eq_true rfl⟩ : Fin 26) (⟨4, of_decide_eq_true rfl⟩ : Fin 26) (by decide))) (rowSet_disjoint c arg3 (⟨6, of_decide_eq_true rfl⟩ : Fin 26) (⟨5, of_decide_eq_true rfl⟩ : Fin 26) (by decide)))).2 $$ [P6 PR]
  · isplitl [P6]; · iexact P6
    iexact PR
  ihave PR := (pointsTo_split_subset (sub_sdiff (sub_sdiff (sub_sdiff (sub_sdiff (sub_sdiff (rowSet_subset c arg3 (⟨5, of_decide_eq_true rfl⟩ : Fin 26)) (rowSet_disjoint c arg3 (⟨5, of_decide_eq_true rfl⟩ : Fin 26) (⟨0, of_decide_eq_true rfl⟩ : Fin 26) (by decide))) (rowSet_disjoint c arg3 (⟨5, of_decide_eq_true rfl⟩ : Fin 26) (⟨1, of_decide_eq_true rfl⟩ : Fin 26) (by decide))) (rowSet_disjoint c arg3 (⟨5, of_decide_eq_true rfl⟩ : Fin 26) (⟨2, of_decide_eq_true rfl⟩ : Fin 26) (by decide))) (rowSet_disjoint c arg3 (⟨5, of_decide_eq_true rfl⟩ : Fin 26) (⟨3, of_decide_eq_true rfl⟩ : Fin 26) (by decide))) (rowSet_disjoint c arg3 (⟨5, of_decide_eq_true rfl⟩ : Fin 26) (⟨4, of_decide_eq_true rfl⟩ : Fin 26) (by decide)))).2 $$ [P5 PR]
  · isplitl [P5]; · iexact P5
    iexact PR
  ihave PR := (pointsTo_split_subset (sub_sdiff (sub_sdiff (sub_sdiff (sub_sdiff (rowSet_subset c arg3 (⟨4, of_decide_eq_true rfl⟩ : Fin 26)) (rowSet_disjoint c arg3 (⟨4, of_decide_eq_true rfl⟩ : Fin 26) (⟨0, of_decide_eq_true rfl⟩ : Fin 26) (by decide))) (rowSet_disjoint c arg3 (⟨4, of_decide_eq_true rfl⟩ : Fin 26) (⟨1, of_decide_eq_true rfl⟩ : Fin 26) (by decide))) (rowSet_disjoint c arg3 (⟨4, of_decide_eq_true rfl⟩ : Fin 26) (⟨2, of_decide_eq_true rfl⟩ : Fin 26) (by decide))) (rowSet_disjoint c arg3 (⟨4, of_decide_eq_true rfl⟩ : Fin 26) (⟨3, of_decide_eq_true rfl⟩ : Fin 26) (by decide)))).2 $$ [P4 PR]
  · isplitl [P4]; · iexact P4
    iexact PR
  ihave PR := (pointsTo_split_subset (sub_sdiff (sub_sdiff (sub_sdiff (rowSet_subset c arg3 (⟨3, of_decide_eq_true rfl⟩ : Fin 26)) (rowSet_disjoint c arg3 (⟨3, of_decide_eq_true rfl⟩ : Fin 26) (⟨0, of_decide_eq_true rfl⟩ : Fin 26) (by decide))) (rowSet_disjoint c arg3 (⟨3, of_decide_eq_true rfl⟩ : Fin 26) (⟨1, of_decide_eq_true rfl⟩ : Fin 26) (by decide))) (rowSet_disjoint c arg3 (⟨3, of_decide_eq_true rfl⟩ : Fin 26) (⟨2, of_decide_eq_true rfl⟩ : Fin 26) (by decide)))).2 $$ [P3 PR]
  · isplitl [P3]; · iexact P3
    iexact PR
  ihave PR := (pointsTo_split_subset (sub_sdiff (sub_sdiff (rowSet_subset c arg3 (⟨2, of_decide_eq_true rfl⟩ : Fin 26)) (rowSet_disjoint c arg3 (⟨2, of_decide_eq_true rfl⟩ : Fin 26) (⟨0, of_decide_eq_true rfl⟩ : Fin 26) (by decide))) (rowSet_disjoint c arg3 (⟨2, of_decide_eq_true rfl⟩ : Fin 26) (⟨1, of_decide_eq_true rfl⟩ : Fin 26) (by decide)))).2 $$ [P2 PR]
  · isplitl [P2]; · iexact P2
    iexact PR
  ihave PR := (pointsTo_split_subset (sub_sdiff (rowSet_subset c arg3 (⟨1, of_decide_eq_true rfl⟩ : Fin 26)) (rowSet_disjoint c arg3 (⟨1, of_decide_eq_true rfl⟩ : Fin 26) (⟨0, of_decide_eq_true rfl⟩ : Fin 26) (by decide)))).2 $$ [P1 PR]
  · isplitl [P1]; · iexact P1
    iexact PR
  ihave PR := (pointsTo_split_subset (rowSet_subset c arg3 (⟨0, of_decide_eq_true rfl⟩ : Fin 26))).2 $$ [P0 PR]
  · isplitl [P0]; · iexact P0
    iexact PR
  iexact PR

end Join

/-- A whole memref's buffer at the contents that read `X` is owned at `X`. -/
theorem owns_unread (c : Dev nD) {sp : Space} {sh : Shape} {e : EltTy} (m : Memref sig .tc sp sh e) (hm : m.IsWhole)
    (q : PosShare TreeShare) (X : sh.Idx → Elt F e) :
    (m.view.loc (c : Thread nD τ) ↦[m.view.set]{q} hm.unread X : sProp 𝕄) ⊢ owns (c : Thread nD τ) m q X := by
  unfold owns
  iintro H
  iexists _
  isplitr; · ipureintro; exact hm.read_unread X
  iexact H

/-- The gather call's body at grid point `i`, under any table `D` of bodies (it makes no call): from the table and
    the stacked tables at any shares, the output window's buffer whole, the call's cells at zero and the core's record
    of waits, it returns them with the window holding the gathered block. -/
theorem sound_gather0 (D : Defs nD τ sig (Elt F) Λ₀) (c : Dev nD) (i : grid0.Coords)
    (arg1 : Memref sig .tc .smem S4096x26 .i32) (harg1 : arg1.IsWhole)
    (arg2 : Memref sig .tc .hbm S26x131073x64 .f32) (harg2 : arg2.IsWhole)
    (arg3 : Memref sig .tc .vmem S1x26x64 .f32) (harg3 : arg3.IsWhole)
    (tbl : Vec F S4096x26 .i32) (emb : Vec F S26x131073x64 .f32) (q1 q2 : PosShare TreeShare)
    (hrange : ∀ f : Fin 26, (tbl (ValueIdx.ix2 (⟨(i 0).val, (i 0).isLt⟩ : Fin 4096) f)).toNat < 131073)
    (W : Waits sig Unit) (K : PUnit → sProp 𝕄) :
    iprop(owns (c : Thread nD τ) arg1 q1 tbl ∗ owns (c : Thread nD τ) arg2 q2 emb ∗ (∃ d, owns (c : Thread nD τ) arg3 fullShare d)
        ∗ sems0 c ∗ owes (c : Thread nD τ) 0 W
        ∗ (iprop(owns (c : Thread nD τ) arg1 q1 tbl ∗ owns (c : Thread nD τ) arg2 q2 emb
              ∗ owns (c : Thread nD τ) arg3 fullShare (gatherBlk tbl emb i) ∗ sems0 c ∗ (∃ W', owes (c : Thread nD τ) 0 W')) -∗ K ⟨⟩))
      ⊢ wp frame (wpE D Variants.none c none) Set.univ
          (cc0__gather_kernel i arg1 harg1 arg2 harg2 arg3 harg3 cc0_scratch0) K := by
  have hopen : (iprop(∃ d, owns (c : Thread nD τ) arg3 fullShare d) : sProp 𝕄)
      ⊢ iprop(∃ f3, arg3.view.loc (c : Thread nD τ) ↦[arg3.view.set]{fullShare} f3) := by
    unfold owns
    iintro ⟨%d, %f, -, H⟩
    iexists f; iexact H
  iintro ⟨H1, H2, H3, Hs, HW, Hk⟩
  ihave H3' := hopen $$ H3
  icases H3' with ⟨%f3, H3⟩
  iapply (gatherRun D c i arg1 harg1 arg2 harg2 arg3 harg3 tbl emb q1 q2 hrange f3 W K)
  isplitl [H1]; · iexact H1
  isplitl [H2]; · iexact H2
  isplitl [H3]; · iexact H3
  isplitl [Hs]; · iexact Hs
  isplitl [HW]; · iexact HW
  iintro ⟨H1, H2, ⟨%d0, %h0, P0⟩, ⟨%d1, %h1, P1⟩, ⟨%d2, %h2, P2⟩, ⟨%d3, %h3, P3⟩, ⟨%d4, %h4, P4⟩, ⟨%d5, %h5, P5⟩, ⟨%d6, %h6, P6⟩, ⟨%d7, %h7, P7⟩, ⟨%d8, %h8, P8⟩, ⟨%d9, %h9, P9⟩, ⟨%dR, %hR, PR⟩, Hs, HW⟩
  iapply Hk
  isplitl [H1]; · iexact H1
  isplitl [H2]; · iexact H2
  isplitl [P0 P1 P2 P3 P4 P5 P6 P7 P8 P9 PR]
  · iapply (owns_unread c arg3 harg3 fullShare (gatherBlk tbl emb i))
    iapply (pieces_join c arg3 harg3 (gatherBlk tbl emb i) d0 d1 d2 d3 d4 d5 d6 d7 d8 d9 dR h0 h1 h2 h3 h4 h5 h6 h7 h8 h9 hR)
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    iexact PR
  isplitl [Hs]; · iexact Hs
  iexact HW

/-- The region invariant's statement of the call's own cells at zero is the chain the body's run holds them in. -/
theorem sems0_eq (c : Dev nD) :
    (Pipeline.ownSems0 (Ix := Unit) (Name := ℕ) (U := Pipeline.UD sig nD τ) (Lvl := ℕ) (Val := Elt F) (τ := τ) osem c : sProp 𝕄)
      = sems0 c := by
  rw [Pipeline.ownSems0_eq_of_list c osem [0, 1, 2, 3, 4, 5, 6, 7, 8, 9, 10, 11, 12, 13, 14, 15, 16, 17, 18, 19, 20, 21, 22, 23, 24, 25] (by decide) (by decide)]; rfl

end Cert.KernelIdeal.Gather0

end
-- ==== Proof.Fr.Trip0.lean ====
/- The hypothesis `Triple0` of the region's modules, discharged by the gather body's triple. -/
import proofs.«407213_j20864951124667_1_alg».proof.Proof.Fr.Obl0
import proofs.«407213_j20864951124667_1_alg».proof.Proof.Fr.TripG
import proofs.«407213_j20864951124667_1_alg».proof.Proof.G0Body

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The gather body's triple, in the form region 0 consumes it -/

/-- The generic triple at this call's table and cells, at any body table: from the body's triple, the table of row numbers and
    the stacked tables as whole memrefs at the full share, the 26 cells listed. -/
theorem tripleG0 (D : Defs nD τ sig (Elt F) Λ₀) :
    TripleG (F := F) (Memref.whole main_v10) (Memref.isWhole_whole _) cc0_scratch0 Gather0.osem D := fun c i arg3 harg3 tbl emb hr W K => by
  rw [Gather0.sems0_eq]
  exact Gather0.sound_gather0 D c i (Memref.whole main_v10) (Memref.isWhole_whole _) (Memref.whole main_arg2) (Memref.isWhole_whole _)
    arg3 harg3 tbl emb fullShare fullShare hr W K

/-- `Triple0`: the generic triple at this program's body table. -/
theorem triple0 : Triple0 (F := F) := fun c i arg3 harg3 tbl emb hr W K => tripleG0 defs₀ c i arg3 harg3 tbl emb hr W K

end Cert.KernelIdeal.Fr

end
-- ==== Proof.G1Run.lean ====
/-
  The gather call's body at one grid point: its run.

  At grid point `i` the body reads, for each of the 26 sub-tables `f`, the word `tbl[i, f]` from the table of row
  numbers (scalar memory), takes it for a row number in range (the side condition it assumes of the word: the one-row
  window at that row lies inside the stacked tables), and starts a copy of row `tbl[i, f]` of sub-table `f` into row
  `f` of the output window's buffer, each copy on a semaphore of its own; then it waits for the 26 copies in turn. No
  two copies share a semaphore, a source row or a destination row, every copy is waited for before the body ends, and
  nothing reads the window's buffer in between.

  This module proves what the assumed side conditions need — each word the body loads is the table's entry
  (`readAt_tbl`), which the range hypothesis puts in range (`chk1` … `chk26`) — and runs the body once
  (`gatherRun`): the window's buffer ends in eleven pieces — rows 0 to 9 each alone, and the rest — each at contents
  that hold on it what the buffer reading the gathered block holds: read at row `k`, the writes of the later rows
  miss it (`read_row_miss`), the write of row `k` gives the row the copy read (`read_row_hit`), and that row is
  `emb[k, tbl[i, k], ·]` (`read_src_row`). Putting the pieces together is the next module's.
-/
import proofs.«407213_j20864951124667_1_alg».proof.Proof.G1Defs
import proofs.«407213_j20864951124667_1_alg».proof.Proof.Gen.KernelIdeal.Skeleton
import Idealize.ShloMosaic.Lib.ValueIdx
import Idealize.ShloMosaic.Lib.Pipeline.FrameBody
import Idealize.ShloMosaic.Lib.Ring
import Idealize.ShloMosaic.Lib.WholeRead
import Idealize.ShloMosaic.Lib.Tactic

set_option maxRecDepth 16384

noncomputable section

namespace Cert.KernelIdeal.Gather1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts₀] [Facts]
open Facts₀ Facts

local notation "𝕄" => MT nD τ sig Unit (Elt F) ℕ (Pipeline.UD sig nD τ) ℕ

/-- The call's 26 own transfer-semaphore counters at zero: the cells of its scratch array, as cells of the pool. -/
abbrev sems0 (c : Dev nD) : sProp 𝕄 :=
  iprop(semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0)

/-- A unit load of a whole table held at the contents that read `tbl`, at offsets `(i, f)`, reads `tbl[i, f]`. -/
theorem readAt_tbl (i : grid0.Coords) (arg1 : Memref sig .tc .smem S4096x26 .i32) (harg1 : arg1.IsWhole)
    (tbl : Vec F S4096x26 .i32) (f : Fin 26) (off : Fin 2 → ℕ) (hoff : off = ![(i 0).val, f.val])
    (h : ∀ a, off a + S1x1.size a ≤ S4096x26.size a)
    (x : (Rect.unit (s := S4096x26) off S1x1.size h).toLoadRect.shape.Idx) :
    View.readAt (Elt F) arg1.view (Rect.unit (s := S4096x26) off S1x1.size h).toLoadRect (harg1.unread tbl) x
      = tbl (ValueIdx.ix2 (⟨(i 0).val, (i 0).isLt⟩ : Fin 4096) f) := by
  subst hoff
  rw [harg1.readAt_unread]
  congr 1
  funext a
  apply Fin.ext
  have hx : ∀ a, (x a).val = 0 := fun a => by
    have := (x a).isLt
    fin_cases a <;> simp_all [Rect.unit, Rect.toLoadRect, S1x1] <;> omega
  fin_cases a <;> simp [LoadRect.idx, Rect.unit, Rect.toLoadRect, ValueIdx.ix2, hx]

/-- The in-bounds condition of a one-row window of the stacked tables at sub-table `f` and a row below the count. -/
theorem chk_core (v : BitVec 32) (f : ℕ) (hf : f < 26) (hv : v.toNat < 131073) :
    ∀ a : Fin 3, (![f, v.toNat, 0] : Fin 3 → ℕ) a + S1x1x64.size a ≤ S26x131073x64.size a := by
  intro a
  fin_cases a <;> simp [S1x1x64, S26x131073x64] <;> omega

theorem off1_eq (i : grid0.Coords) : k0_off1 i = ![(i 0).val, 0] := by
  have h : (i 0).val < 4096 := (i 0).isLt
  unfold k0_off1
  simp only [Scalar.indexCast, BitVec.toNat_ofNat]
  congr 1
  omega

/-- The word the body loads for sub-table 0 satisfies the condition the body assumes of it. -/
theorem chk1 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk1 (View.readAt (Elt F) arg1.view (Rect.unit (s := S4096x26) (k0_off1 i) S1x1.size (Facts₀.k0_off1_inb i)).toLoadRect (harg1.unread tbl) x) := fun x => by
  rw [readAt_tbl i arg1 harg1 tbl (⟨0, by decide⟩ : Fin 26) _ (off1_eq i)]
  exact ⟨chk_core _ 0 (by decide) (hrange _), chk_core _ 0 (by decide) (hrange _)⟩

theorem off3_eq (i : grid0.Coords) : k0_off3 i = ![(i 0).val, 1] := by
  have h : (i 0).val < 4096 := (i 0).isLt
  unfold k0_off3
  simp only [Scalar.indexCast, BitVec.toNat_ofNat]
  congr 1
  omega

/-- The word the body loads for sub-table 1 satisfies the condition the body assumes of it. -/
theorem chk2 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk2 (View.readAt (Elt F) arg1.view (Rect.unit (s := S4096x26) (k0_off3 i) S1x1.size (Facts₀.k0_off3_inb i)).toLoadRect (harg1.unread tbl) x) := fun x => by
  rw [readAt_tbl i arg1 harg1 tbl (⟨1, by decide⟩ : Fin 26) _ (off3_eq i)]
  exact ⟨chk_core _ 1 (by decide) (hrange _), chk_core _ 1 (by decide) (hrange _)⟩

theorem off5_eq (i : grid0.Coords) : k0_off5 i = ![(i 0).val, 2] := by
  have h : (i 0).val < 4096 := (i 0).isLt
  unfold k0_off5
  simp only [Scalar.indexCast, BitVec.toNat_ofNat]
  congr 1
  omega

/-- The word the body loads for sub-table 2 satisfies the condition the body assumes of it. -/
theorem chk3 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk3 (View.readAt (Elt F) arg1.view (Rect.unit (s := S4096x26) (k0_off5 i) S1x1.size (Facts₀.k0_off5_inb i)).toLoadRect (harg1.unread tbl) x) := fun x => by
  rw [readAt_tbl i arg1 harg1 tbl (⟨2, by decide⟩ : Fin 26) _ (off5_eq i)]
  exact ⟨chk_core _ 2 (by decide) (hrange _), chk_core _ 2 (by decide) (hrange _)⟩

theorem off7_eq (i : grid0.Coords) : k0_off7 i = ![(i 0).val, 3] := by
  have h : (i 0).val < 4096 := (i 0).isLt
  unfold k0_off7
  simp only [Scalar.indexCast, BitVec.toNat_ofNat]
  congr 1
  omega

/-- The word the body loads for sub-table 3 satisfies the condition the body assumes of it. -/
theorem chk4 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk4 (View.readAt (Elt F) arg1.view (Rect.unit (s := S4096x26) (k0_off7 i) S1x1.size (Facts₀.k0_off7_inb i)).toLoadRect (harg1.unread tbl) x) := fun x => by
  rw [readAt_tbl i arg1 harg1 tbl (⟨3, by decide⟩ : Fin 26) _ (off7_eq i)]
  exact ⟨chk_core _ 3 (by decide) (hrange _), chk_core _ 3 (by decide) (hrange _)⟩

theorem off9_eq (i : grid0.Coords) : k0_off9 i = ![(i 0).val, 4] := by
  have h : (i 0).val < 4096 := (i 0).isLt
  unfold k0_off9
  simp only [Scalar.indexCast, BitVec.toNat_ofNat]
  congr 1
  omega

/-- The word the body loads for sub-table 4 satisfies the condition the body assumes of it. -/
theorem chk5 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk5 (View.readAt (Elt F) arg1.view (Rect.unit (s := S4096x26) (k0_off9 i) S1x1.size (Facts₀.k0_off9_inb i)).toLoadRect (harg1.unread tbl) x) := fun x => by
  rw [readAt_tbl i arg1 harg1 tbl (⟨4, by decide⟩ : Fin 26) _ (off9_eq i)]
  exact ⟨chk_core _ 4 (by decide) (hrange _), chk_core _ 4 (by decide) (hrange _)⟩

theorem off11_eq (i : grid0.Coords) : k0_off11 i = ![(i 0).val, 5] := by
  have h : (i 0).val < 4096 := (i 0).isLt
  unfold k0_off11
  simp only [Scalar.indexCast, BitVec.toNat_ofNat]
  congr 1
  omega

/-- The word the body loads for sub-table 5 satisfies the condition the body assumes of it. -/
theorem chk6 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk6 (View.readAt (Elt F) arg1.view (Rect.unit (s := S4096x26) (k0_off11 i) S1x1.size (Facts₀.k0_off11_inb i)).toLoadRect (harg1.unread tbl) x) := fun x => by
  rw [readAt_tbl i arg1 harg1 tbl (⟨5, by decide⟩ : Fin 26) _ (off11_eq i)]
  exact ⟨chk_core _ 5 (by decide) (hrange _), chk_core _ 5 (by decide) (hrange _)⟩

theorem off13_eq (i : grid0.Coords) : k0_off13 i = ![(i 0).val, 6] := by
  have h : (i 0).val < 4096 := (i 0).isLt
  unfold k0_off13
  simp only [Scalar.indexCast, BitVec.toNat_ofNat]
  congr 1
  omega

/-- The word the body loads for sub-table 6 satisfies the condition the body assumes of it. -/
theorem chk7 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk7 (View.readAt (Elt F) arg1.view (Rect.unit (s := S4096x26) (k0_off13 i) S1x1.size (Facts₀.k0_off13_inb i)).toLoadRect (harg1.unread tbl) x) := fun x => by
  rw [readAt_tbl i arg1 harg1 tbl (⟨6, by decide⟩ : Fin 26) _ (off13_eq i)]
  exact ⟨chk_core _ 6 (by decide) (hrange _), chk_core _ 6 (by decide) (hrange _)⟩

theorem off15_eq (i : grid0.Coords) : k0_off15 i = ![(i 0).val, 7] := by
  have h : (i 0).val < 4096 := (i 0).isLt
  unfold k0_off15
  simp only [Scalar.indexCast, BitVec.toNat_ofNat]
  congr 1
  omega

/-- The word the body loads for sub-table 7 satisfies the condition the body assumes of it. -/
theorem chk8 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk8 (View.readAt (Elt F) arg1.view (Rect.unit (s := S4096x26) (k0_off15 i) S1x1.size (Facts₀.k0_off15_inb i)).toLoadRect (harg1.unread tbl) x) := fun x => by
  rw [readAt_tbl i arg1 harg1 tbl (⟨7, by decide⟩ : Fin 26) _ (off15_eq i)]
  exact ⟨chk_core _ 7 (by decide) (hrange _), chk_core _ 7 (by decide) (hrange _)⟩

theorem off17_eq (i : grid0.Coords) : k0_off17 i = ![(i 0).val, 8] := by
  have h : (i 0).val < 4096 := (i 0).isLt
  unfold k0_off17
  simp only [Scalar.indexCast, BitVec.toNat_ofNat]
  congr 1
  omega

/-- The word the body loads for sub-table 8 satisfies the condition the body assumes of it. -/
theorem chk9 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk9 (View.readAt (Elt F) arg1.view (Rect.unit (s := S4096x26) (k0_off17 i) S1x1.size (Facts₀.k0_off17_inb i)).toLoadRect (harg1.unread tbl) x) := fun x => by
  rw [readAt_tbl i arg1 harg1 tbl (⟨8, by decide⟩ : Fin 26) _ (off17_eq i)]
  exact ⟨chk_core _ 8 (by decide) (hrange _), chk_core _ 8 (by decide) (hrange _)⟩

theorem off19_eq (i : grid0.Coords) : k0_off19 i = ![(i 0).val, 9] := by
  have h : (i 0).val < 4096 := (i 0).isLt
  unfold k0_off19
  simp only [Scalar.indexCast, BitVec.toNat_ofNat]
  congr 1
  omega

/-- The word the body loads for sub-table 9 satisfies the condition the body assumes of it. -/
theorem chk10 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk10 (View.readAt (Elt F) arg1.view (Rect.unit (s := S4096x26) (k0_off19 i) S1x1.size (Facts₀.k0_off19_inb i)).toLoadRect (harg1.unread tbl) x) := fun x => by
  rw [readAt_tbl i arg1 harg1 tbl (⟨9, by decide⟩ : Fin 26) _ (off19_eq i)]
  exact ⟨chk_core _ 9 (by decide) (hrange _), chk_core _ 9 (by decide) (hrange _)⟩

theorem off21_eq (i : grid0.Coords) : k0_off21 i = ![(i 0).val, 10] := by
  have h : (i 0).val < 4096 := (i 0).isLt
  unfold k0_off21
  simp only [Scalar.indexCast, BitVec.toNat_ofNat]
  congr 1
  omega

/-- The word the body loads for sub-table 10 satisfies the condition the body assumes of it. -/
theorem chk11 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk11 (View.readAt (Elt F) arg1.view (Rect.unit (s := S4096x26) (k0_off21 i) S1x1.size (Facts₀.k0_off21_inb i)).toLoadRect (harg1.unread tbl) x) := fun x => by
  rw [readAt_tbl i arg1 harg1 tbl (⟨10, by decide⟩ : Fin 26) _ (off21_eq i)]
  exact ⟨chk_core _ 10 (by decide) (hrange _), chk_core _ 10 (by decide) (hrange _)⟩

theorem off23_eq (i : grid0.Coords) : k0_off23 i = ![(i 0).val, 11] := by
  have h : (i 0).val < 4096 := (i 0).isLt
  unfold k0_off23
  simp only [Scalar.indexCast, BitVec.toNat_ofNat]
  congr 1
  omega

/-- The word the body loads for sub-table 11 satisfies the condition the body assumes of it. -/
theorem chk12 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk12 (View.readAt (Elt F) arg1.view (Rect.unit (s := S4096x26) (k0_off23 i) S1x1.size (Facts₀.k0_off23_inb i)).toLoadRect (harg1.unread tbl) x) := fun x => by
  rw [readAt_tbl i arg1 harg1 tbl (⟨11, by decide⟩ : Fin 26) _ (off23_eq i)]
  exact ⟨chk_core _ 11 (by decide) (hrange _), chk_core _ 11 (by decide) (hrange _)⟩

theorem off25_eq (i : grid0.Coords) : k0_off25 i = ![(i 0).val, 12] := by
  have h : (i 0).val < 4096 := (i 0).isLt
  unfold k0_off25
  simp only [Scalar.indexCast, BitVec.toNat_ofNat]
  congr 1
  omega

/-- The word the body loads for sub-table 12 satisfies the condition the body assumes of it. -/
theorem chk13 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk13 (View.readAt (Elt F) arg1.view (Rect.unit (s := S4096x26) (k0_off25 i) S1x1.size (Facts₀.k0_off25_inb i)).toLoadRect (harg1.unread tbl) x) := fun x => by
  rw [readAt_tbl i arg1 harg1 tbl (⟨12, by decide⟩ : Fin 26) _ (off25_eq i)]
  exact ⟨chk_core _ 12 (by decide) (hrange _), chk_core _ 12 (by decide) (hrange _)⟩

theorem off27_eq (i : grid0.Coords) : k0_off27 i = ![(i 0).val, 13] := by
  have h : (i 0).val < 4096 := (i 0).isLt
  unfold k0_off27
  simp only [Scalar.indexCast, BitVec.toNat_ofNat]
  congr 1
  omega

/-- The word the body loads for sub-table 13 satisfies the condition the body assumes of it. -/
theorem chk14 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk14 (View.readAt (Elt F) arg1.view (Rect.unit (s := S4096x26) (k0_off27 i) S1x1.size (Facts₀.k0_off27_inb i)).toLoadRect (harg1.unread tbl) x) := fun x => by
  rw [readAt_tbl i arg1 harg1 tbl (⟨13, by decide⟩ : Fin 26) _ (off27_eq i)]
  exact ⟨chk_core _ 13 (by decide) (hrange _), chk_core _ 13 (by decide) (hrange _)⟩

theorem off29_eq (i : grid0.Coords) : k0_off29 i = ![(i 0).val, 14] := by
  have h : (i 0).val < 4096 := (i 0).isLt
  unfold k0_off29
  simp only [Scalar.indexCast, BitVec.toNat_ofNat]
  congr 1
  omega

/-- The word the body loads for sub-table 14 satisfies the condition the body assumes of it. -/
theorem chk15 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk15 (View.readAt (Elt F) arg1.view (Rect.unit (s := S4096x26) (k0_off29 i) S1x1.size (Facts₀.k0_off29_inb i)).toLoadRect (harg1.unread tbl) x) := fun x => by
  rw [readAt_tbl i arg1 harg1 tbl (⟨14, by decide⟩ : Fin 26) _ (off29_eq i)]
  exact ⟨chk_core _ 14 (by decide) (hrange _), chk_core _ 14 (by decide) (hrange _)⟩

theorem off31_eq (i : grid0.Coords) : k0_off31 i = ![(i 0).val, 15] := by
  have h : (i 0).val < 4096 := (i 0).isLt
  unfold k0_off31
  simp only [Scalar.indexCast, BitVec.toNat_ofNat]
  congr 1
  omega

/-- The word the body loads for sub-table 15 satisfies the condition the body assumes of it. -/
theorem chk16 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk16 (View.readAt (Elt F) arg1.view (Rect.unit (s := S4096x26) (k0_off31 i) S1x1.size (Facts₀.k0_off31_inb i)).toLoadRect (harg1.unread tbl) x) := fun x => by
  rw [readAt_tbl i arg1 harg1 tbl (⟨15, by decide⟩ : Fin 26) _ (off31_eq i)]
  exact ⟨chk_core _ 15 (by decide) (hrange _), chk_core _ 15 (by decide) (hrange _)⟩

theorem off33_eq (i : grid0.Coords) : k0_off33 i = ![(i 0).val, 16] := by
  have h : (i 0).val < 4096 := (i 0).isLt
  unfold k0_off33
  simp only [Scalar.indexCast, BitVec.toNat_ofNat]
  congr 1
  omega

/-- The word the body loads for sub-table 16 satisfies the condition the body assumes of it. -/
theorem chk17 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk17 (View.readAt (Elt F) arg1.view (Rect.unit (s := S4096x26) (k0_off33 i) S1x1.size (Facts₀.k0_off33_inb i)).toLoadRect (harg1.unread tbl) x) := fun x => by
  rw [readAt_tbl i arg1 harg1 tbl (⟨16, by decide⟩ : Fin 26) _ (off33_eq i)]
  exact ⟨chk_core _ 16 (by decide) (hrange _), chk_core _ 16 (by decide) (hrange _)⟩

theorem off35_eq (i : grid0.Coords) : k0_off35 i = ![(i 0).val, 17] := by
  have h : (i 0).val < 4096 := (i 0).isLt
  unfold k0_off35
  simp only [Scalar.indexCast, BitVec.toNat_ofNat]
  congr 1
  omega

/-- The word the body loads for sub-table 17 satisfies the condition the body assumes of it. -/
theorem chk18 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk18 (View.readAt (Elt F) arg1.view (Rect.unit (s := S4096x26) (k0_off35 i) S1x1.size (Facts₀.k0_off35_inb i)).toLoadRect (harg1.unread tbl) x) := fun x => by
  rw [readAt_tbl i arg1 harg1 tbl (⟨17, by decide⟩ : Fin 26) _ (off35_eq i)]
  exact ⟨chk_core _ 17 (by decide) (hrange _), chk_core _ 17 (by decide) (hrange _)⟩

theorem off37_eq (i : grid0.Coords) : k0_off37 i = ![(i 0).val, 18] := by
  have h : (i 0).val < 4096 := (i 0).isLt
  unfold k0_off37
  simp only [Scalar.indexCast, BitVec.toNat_ofNat]
  congr 1
  omega

/-- The word the body loads for sub-table 18 satisfies the condition the body assumes of it. -/
theorem chk19 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk19 (View.readAt (Elt F) arg1.view (Rect.unit (s := S4096x26) (k0_off37 i) S1x1.size (Facts₀.k0_off37_inb i)).toLoadRect (harg1.unread tbl) x) := fun x => by
  rw [readAt_tbl i arg1 harg1 tbl (⟨18, by decide⟩ : Fin 26) _ (off37_eq i)]
  exact ⟨chk_core _ 18 (by decide) (hrange _), chk_core _ 18 (by decide) (hrange _)⟩

theorem off39_eq (i : grid0.Coords) : k0_off39 i = ![(i 0).val, 19] := by
  have h : (i 0).val < 4096 := (i 0).isLt
  unfold k0_off39
  simp only [Scalar.indexCast, BitVec.toNat_ofNat]
  congr 1
  omega

/-- The word the body loads for sub-table 19 satisfies the condition the body assumes of it. -/
theorem chk20 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk20 (View.readAt (Elt F) arg1.view (Rect.unit (s := S4096x26) (k0_off39 i) S1x1.size (Facts₀.k0_off39_inb i)).toLoadRect (harg1.unread tbl) x) := fun x => by
  rw [readAt_tbl i arg1 harg1 tbl (⟨19, by decide⟩ : Fin 26) _ (off39_eq i)]
  exact ⟨chk_core _ 19 (by decide) (hrange _), chk_core _ 19 (by decide) (hrange _)⟩

theorem off41_eq (i : grid0.Coords) : k0_off41 i = ![(i 0).val, 20] := by
  have h : (i 0).val < 4096 := (i 0).isLt
  unfold k0_off41
  simp only [Scalar.indexCast, BitVec.toNat_ofNat]
  congr 1
  omega

/-- The word the body loads for sub-table 20 satisfies the condition the body assumes of it. -/
theorem chk21 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk21 (View.readAt (Elt F) arg1.view (Rect.unit (s := S4096x26) (k0_off41 i) S1x1.size (Facts₀.k0_off41_inb i)).toLoadRect (harg1.unread tbl) x) := fun x => by
  rw [readAt_tbl i arg1 harg1 tbl (⟨20, by decide⟩ : Fin 26) _ (off41_eq i)]
  exact ⟨chk_core _ 20 (by decide) (hrange _), chk_core _ 20 (by decide) (hrange _)⟩

theorem off43_eq (i : grid0.Coords) : k0_off43 i = ![(i 0).val, 21] := by
  have h : (i 0).val < 4096 := (i 0).isLt
  unfold k0_off43
  simp only [Scalar.indexCast, BitVec.toNat_ofNat]
  congr 1
  omega

/-- The word the body loads for sub-table 21 satisfies the condition the body assumes of it. -/
theorem chk22 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk22 (View.readAt (Elt F) arg1.view (Rect.unit (s := S4096x26) (k0_off43 i) S1x1.size (Facts₀.k0_off43_inb i)).toLoadRect (harg1.unread tbl) x) := fun x => by
  rw [readAt_tbl i arg1 harg1 tbl (⟨21, by decide⟩ : Fin 26) _ (off43_eq i)]
  exact ⟨chk_core _ 21 (by decide) (hrange _), chk_core _ 21 (by decide) (hrange _)⟩

theorem off45_eq (i : grid0.Coords) : k0_off45 i = ![(i 0).val, 22] := by
  have h : (i 0).val < 4096 := (i 0).isLt
  unfold k0_off45
  simp only [Scalar.indexCast, BitVec.toNat_ofNat]
  congr 1
  omega

/-- The word the body loads for sub-table 22 satisfies the condition the body assumes of it. -/
theorem chk23 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk23 (View.readAt (Elt F) arg1.view (Rect.unit (s := S4096x26) (k0_off45 i) S1x1.size (Facts₀.k0_off45_inb i)).toLoadRect (harg1.unread tbl) x) := fun x => by
  rw [readAt_tbl i arg1 harg1 tbl (⟨22, by decide⟩ : Fin 26) _ (off45_eq i)]
  exact ⟨chk_core _ 22 (by decide) (hrange _), chk_core _ 22 (by decide) (hrange _)⟩

theorem off47_eq (i : grid0.Coords) : k0_off47 i = ![(i 0).val, 23] := by
  have h : (i 0).val < 4096 := (i 0).isLt
  unfold k0_off47
  simp only [Scalar.indexCast, BitVec.toNat_ofNat]
  congr 1
  omega

/-- The word the body loads for sub-table 23 satisfies the condition the body assumes of it. -/
theorem chk24 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk24 (View.readAt (Elt F) arg1.view (Rect.unit (s := S4096x26) (k0_off47 i) S1x1.size (Facts₀.k0_off47_inb i)).toLoadRect (harg1.unread tbl) x) := fun x => by
  rw [readAt_tbl i arg1 harg1 tbl (⟨23, by decide⟩ : Fin 26) _ (off47_eq i)]
  exact ⟨chk_core _ 23 (by decide) (hrange _), chk_core _ 23 (by decide) (hrange _)⟩

theorem off49_eq (i : grid0.Coords) : k0_off49 i = ![(i 0).val, 24] := by
  have h : (i 0).val < 4096 := (i 0).isLt
  unfold k0_off49
  simp only [Scalar.indexCast, BitVec.toNat_ofNat]
  congr 1
  omega

/-- The word the body loads for sub-table 24 satisfies the condition the body assumes of it. -/
theorem chk25 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk25 (View.readAt (Elt F) arg1.view (Rect.unit (s := S4096x26) (k0_off49 i) S1x1.size (Facts₀.k0_off49_inb i)).toLoadRect (harg1.unread tbl) x) := fun x => by
  rw [readAt_tbl i arg1 harg1 tbl (⟨24, by decide⟩ : Fin 26) _ (off49_eq i)]
  exact ⟨chk_core _ 24 (by decide) (hrange _), chk_core _ 24 (by decide) (hrange _)⟩

theorem off51_eq (i : grid0.Coords) : k0_off51 i = ![(i 0).val, 25] := by
  have h : (i 0).val < 4096 := (i 0).isLt
  unfold k0_off51
  simp only [Scalar.indexCast, BitVec.toNat_ofNat]
  congr 1
  omega

/-- The word the body loads for sub-table 25 satisfies the condition the body assumes of it. -/
theorem chk26 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk26 (View.readAt (Elt F) arg1.view (Rect.unit (s := S4096x26) (k0_off51 i) S1x1.size (Facts₀.k0_off51_inb i)).toLoadRect (harg1.unread tbl) x) := fun x => by
  rw [readAt_tbl i arg1 harg1 tbl (⟨25, by decide⟩ : Fin 26) _ (off51_eq i)]
  exact chk_core _ 25 (by decide) (hrange _)

/-- The one-row window at row `k` of the block lies inside it. -/
theorem row_inb (k : Fin 26) : ∀ a, (![0, k.val, 0] : Fin 3 → ℕ) a + S1x1x64.size a ≤ S1x26x64.size a := by
  intro a
  have := k.isLt
  fin_cases a <;> simp [S1x1x64, S1x26x64] <;> omega

/-- Row `k` of the block as the body names it: the block's window at `k`, its unit axes dropped. -/
abbrev rowM (arg3 : Memref sig .tc .vmem S1x26x64 .f32) (k : Fin 26) : Memref sig .tc .vmem S64 .f32 :=
  (arg3.slice (Rect.unit (s := S1x26x64) ![0, k.val, 0] S1x1x64.size (row_inb k)) (fun _ => rfl)).squeeze S64
    Facts₀.squeezes_S1x1x64_S64

section ViewLemmas

variable {sig' : RefSig} {Val : EltTy → Type} {κ : Kind} {sp : Space} {s : Shape} {e : EltTy}

/-- Read through a view after a whole write through one of its rectangles seen at another shape of as many
    elements: at the element the rectangle places index `x` of that shape, the payload at `x`; -/
theorem read_write_slice_reshape_emb (v : View sig' κ sp s e) (R : Rect s) {s3 : Shape} (hn : s3.numel = R.shape.numel)
    (f : v.ty.Contents Val) (w : s3.Idx → Val e) (x : s3.Idx) :
    v.read Val (((v.slice R).reshape s3 hn).write Val f w Finset.univ) (R.emb (Shape.reshapeEquiv hn x)) = w x := by
  rw [View.read_apply,
    show v.emb (R.emb (Shape.reshapeEquiv hn x)) = ((v.slice R).reshape s3 hn).emb x from rfl,
    View.write_emb_of_mem _ _ (Finset.mem_univ x), cast_cast, cast_eq]

/-- at an element the rectangle does not hold, the old contents. -/
theorem read_write_slice_reshape_of_not_mem (v : View sig' κ sp s e) (R : Rect s) {s3 : Shape} (hn : s3.numel = R.shape.numel)
    (f : v.ty.Contents Val) (w : s3.Idx → Val e) (y : s.Idx) (hy : ∀ x : s3.Idx, R.emb (Shape.reshapeEquiv hn x) ≠ y) :
    v.read Val (((v.slice R).reshape s3 hn).write Val f w Finset.univ) y = v.read Val f y := by
  rw [View.read_apply, View.read_apply, View.write_of_not_mem]
  intro hm
  obtain ⟨x, -, hx⟩ := Finset.mem_map.mp hm
  exact hy x (v.emb.injective (by exact hx))

end ViewLemmas

/-- An index of length `a` matched with shape `[1, 1, a]` sits behind two coordinates `0`. -/
theorem reshapeEquiv_ix1_11a {a : ℕ} (h : (⟨1, ![a]⟩ : Shape).numel = (⟨3, ![1, 1, a]⟩ : Shape).numel) (x : Fin a) :
    Shape.reshapeEquiv h (ValueIdx.ix1 x)
      = ValueIdx.ix3 (⟨0, Nat.one_pos⟩ : Fin 1) (⟨0, Nat.one_pos⟩ : Fin 1) x :=
  Shape.reshapeEquiv_eq_of_rowMajor h (by
    rw [Shape.rowMajor_val_three, Shape.rowMajor_val_one]
    show ((0 * 1 + 0) * a + x.val) = x.val
    simp only [Nat.zero_mul, Nat.zero_add])

/-- Where a rectangle of unit strides places an index: its offset further along each axis. -/
theorem emb_unit_val {s : Shape} (off size : Fin s.rank → ℕ) (inb : ∀ a, off a + size a ≤ s.size a)
    (z : (Rect.unit (s := s) off size inb).shape.Idx) (a : Fin s.rank) :
    ((Rect.unit (s := s) off size inb).emb z a).val = off a + (z a).val := by
  simp [Rect.unit, Rect.emb]

/-- Row `k` of the block after a whole write of a row through the squeezed one-row window at `k`: the row written. -/
theorem read_row_hit (arg3 : Memref sig .tc .vmem S1x26x64 .f32) (k : Fin 26) (off : Fin 3 → ℕ) (hoff : off = ![0, k.val, 0])
    (inb : ∀ a, off a + S1x1x64.size a ≤ S1x26x64.size a)
    (hs : ∀ a, (Rect.unit (s := S1x26x64) off S1x1x64.size inb).stride a = 1) (hq : S1x1x64.Squeezes S64)
    (g : arg3.view.ty.Contents (Elt F)) (P : S64.Idx → Elt F .f32) (j : Fin 64) :
    arg3.view.read (Elt F)
        ((((arg3.slice (Rect.unit (s := S1x26x64) off S1x1x64.size inb) hs).squeeze S64 hq).view).write (Elt F) g P Finset.univ)
        (ValueIdx.ix3 (⟨0, Nat.one_pos⟩ : Fin 1) k j)
      = P (ValueIdx.ix1 j) := by
  subst hoff
  simp only [Memref.view_squeeze, Memref.view_slice]
  have h := read_write_slice_reshape_emb (Val := Elt F) arg3.view
    (Rect.unit (s := S1x26x64) ![0, k.val, 0] S1x1x64.size inb) hq.numel_eq g P (ValueIdx.ix1 j)
  have hi : (Rect.unit (s := S1x26x64) ![0, k.val, 0] S1x1x64.size inb).emb (Shape.reshapeEquiv hq.numel_eq (ValueIdx.ix1 j))
      = ValueIdx.ix3 (⟨0, Nat.one_pos⟩ : Fin 1) k j := by
    funext a
    apply Fin.ext
    rw [emb_unit_val]
    have hz := congrFun (reshapeEquiv_ix1_11a (a := 64) hq.numel_eq j) a
    rw [hz]
    fin_cases a <;> simp [ValueIdx.ix3]
  rw [hi] at h
  exact h

/-- Any other row of the block after that write: as it was. -/
theorem read_row_miss (arg3 : Memref sig .tc .vmem S1x26x64 .f32) (k k' : Fin 26) (hk : k' ≠ k) (off : Fin 3 → ℕ) (hoff : off = ![0, k.val, 0])
    (inb : ∀ a, off a + S1x1x64.size a ≤ S1x26x64.size a)
    (hs : ∀ a, (Rect.unit (s := S1x26x64) off S1x1x64.size inb).stride a = 1) (hq : S1x1x64.Squeezes S64)
    (g : arg3.view.ty.Contents (Elt F)) (P : S64.Idx → Elt F .f32) (j : Fin 64) :
    arg3.view.read (Elt F)
        ((((arg3.slice (Rect.unit (s := S1x26x64) off S1x1x64.size inb) hs).squeeze S64 hq).view).write (Elt F) g P Finset.univ)
        (ValueIdx.ix3 (⟨0, Nat.one_pos⟩ : Fin 1) k' j)
      = arg3.view.read (Elt F) g (ValueIdx.ix3 (⟨0, Nat.one_pos⟩ : Fin 1) k' j) := by
  subst hoff
  simp only [Memref.view_squeeze, Memref.view_slice]
  refine read_write_slice_reshape_of_not_mem (Val := Elt F) arg3.view _ hq.numel_eq g P _ fun x hx => hk ?_
  have h1 := congrArg Fin.val (congrFun hx 1)
  rw [emb_unit_val] at h1
  have hz : ((Shape.reshapeEquiv hq.numel_eq x : (Rect.unit (s := S1x26x64) ![0, k.val, 0] S1x1x64.size inb).shape.Idx) 1).val < 1 :=
    (Shape.reshapeEquiv hq.numel_eq x 1).isLt
  apply Fin.ext
  simp [ValueIdx.ix3] at h1
  omega

/-- The row a transfer reads: through the squeezed one-row window at `(k, r)` of the stacked tables held at the
    contents that read `emb`, entry `j` is `emb[k, r, j]`. -/
theorem read_src_row (arg2 : Memref sig .tc .hbm S26x131073x64 .f32) (harg2 : arg2.IsWhole) (emb : Vec F S26x131073x64 .f32)
    (k : Fin 26) (r : Fin 131073) (off : Fin 3 → ℕ) (hoff : off = ![k.val, r.val, 0])
    (inb : ∀ a, off a + S1x1x64.size a ≤ S26x131073x64.size a)
    (hs : ∀ a, (Rect.unit (s := S26x131073x64) off S1x1x64.size inb).stride a = 1) (hq : S1x1x64.Squeezes S64) (j : Fin 64) :
    ((arg2.slice (Rect.unit (s := S26x131073x64) off S1x1x64.size inb) hs).squeeze S64 hq).view.read (Elt F)
        (harg2.unread emb) (ValueIdx.ix1 j)
      = emb (ValueIdx.ix3 k r j) := by
  subst hoff
  simp only [Memref.view_squeeze, Memref.view_slice]
  have hi : (Rect.unit (s := S26x131073x64) ![k.val, r.val, 0] S1x1x64.size inb).emb (Shape.reshapeEquiv hq.numel_eq (ValueIdx.ix1 j))
      = ValueIdx.ix3 k r j := by
    funext a
    apply Fin.ext
    rw [emb_unit_val]
    have hz := congrFun (reshapeEquiv_ix1_11a (a := 64) hq.numel_eq j) a
    rw [hz]
    fin_cases a <;> simp [ValueIdx.ix3]
  exact (congrFun (harg2.read_unread emb) _).trans (congrArg emb hi)

/-- The offsets of the row the transfer for sub-table 0 reads, in closed form. -/
theorem srcoff0 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off2 (View.readAt (Elt F) arg1.view (Rect.unit (s := S4096x26) (k0_off1 i) S1x1.size (Facts₀.k0_off1_inb i)).toLoadRect (harg1.unread tbl) x)
      = ![0, (rowOf tbl i (⟨0, by decide⟩ : Fin 26)).val, 0] := by
  rw [readAt_tbl i arg1 harg1 tbl (⟨0, by decide⟩ : Fin 26) _ (off1_eq i), rowOf_val tbl i _ (hrange _)]
  rfl

/-- The offsets of the row the transfer for sub-table 1 reads, in closed form. -/
theorem srcoff1 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off4 (View.readAt (Elt F) arg1.view (Rect.unit (s := S4096x26) (k0_off3 i) S1x1.size (Facts₀.k0_off3_inb i)).toLoadRect (harg1.unread tbl) x)
      = ![1, (rowOf tbl i (⟨1, by decide⟩ : Fin 26)).val, 0] := by
  rw [readAt_tbl i arg1 harg1 tbl (⟨1, by decide⟩ : Fin 26) _ (off3_eq i), rowOf_val tbl i _ (hrange _)]
  rfl

/-- The offsets of the row the transfer for sub-table 2 reads, in closed form. -/
theorem srcoff2 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off6 (View.readAt (Elt F) arg1.view (Rect.unit (s := S4096x26) (k0_off5 i) S1x1.size (Facts₀.k0_off5_inb i)).toLoadRect (harg1.unread tbl) x)
      = ![2, (rowOf tbl i (⟨2, by decide⟩ : Fin 26)).val, 0] := by
  rw [readAt_tbl i arg1 harg1 tbl (⟨2, by decide⟩ : Fin 26) _ (off5_eq i), rowOf_val tbl i _ (hrange _)]
  rfl

/-- The offsets of the row the transfer for sub-table 3 reads, in closed form. -/
theorem srcoff3 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off8 (View.readAt (Elt F) arg1.view (Rect.unit (s := S4096x26) (k0_off7 i) S1x1.size (Facts₀.k0_off7_inb i)).toLoadRect (harg1.unread tbl) x)
      = ![3, (rowOf tbl i (⟨3, by decide⟩ : Fin 26)).val, 0] := by
  rw [readAt_tbl i arg1 harg1 tbl (⟨3, by decide⟩ : Fin 26) _ (off7_eq i), rowOf_val tbl i _ (hrange _)]
  rfl

/-- The offsets of the row the transfer for sub-table 4 reads, in closed form. -/
theorem srcoff4 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off10 (View.readAt (Elt F) arg1.view (Rect.unit (s := S4096x26) (k0_off9 i) S1x1.size (Facts₀.k0_off9_inb i)).toLoadRect (harg1.unread tbl) x)
      = ![4, (rowOf tbl i (⟨4, by decide⟩ : Fin 26)).val, 0] := by
  rw [readAt_tbl i arg1 harg1 tbl (⟨4, by decide⟩ : Fin 26) _ (off9_eq i), rowOf_val tbl i _ (hrange _)]
  rfl

/-- The offsets of the row the transfer for sub-table 5 reads, in closed form. -/
theorem srcoff5 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off12 (View.readAt (Elt F) arg1.view (Rect.unit (s := S4096x26) (k0_off11 i) S1x1.size (Facts₀.k0_off11_inb i)).toLoadRect (harg1.unread tbl) x)
      = ![5, (rowOf tbl i (⟨5, by decide⟩ : Fin 26)).val, 0] := by
  rw [readAt_tbl i arg1 harg1 tbl (⟨5, by decide⟩ : Fin 26) _ (off11_eq i), rowOf_val tbl i _ (hrange _)]
  rfl

/-- The offsets of the row the transfer for sub-table 6 reads, in closed form. -/
theorem srcoff6 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off14 (View.readAt (Elt F) arg1.view (Rect.unit (s := S4096x26) (k0_off13 i) S1x1.size (Facts₀.k0_off13_inb i)).toLoadRect (harg1.unread tbl) x)
      = ![6, (rowOf tbl i (⟨6, by decide⟩ : Fin 26)).val, 0] := by
  rw [readAt_tbl i arg1 harg1 tbl (⟨6, by decide⟩ : Fin 26) _ (off13_eq i), rowOf_val tbl i _ (hrange _)]
  rfl

/-- The offsets of the row the transfer for sub-table 7 reads, in closed form. -/
theorem srcoff7 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off16 (View.readAt (Elt F) arg1.view (Rect.unit (s := S4096x26) (k0_off15 i) S1x1.size (Facts₀.k0_off15_inb i)).toLoadRect (harg1.unread tbl) x)
      = ![7, (rowOf tbl i (⟨7, by decide⟩ : Fin 26)).val, 0] := by
  rw [readAt_tbl i arg1 harg1 tbl (⟨7, by decide⟩ : Fin 26) _ (off15_eq i), rowOf_val tbl i _ (hrange _)]
  rfl

/-- The offsets of the row the transfer for sub-table 8 reads, in closed form. -/
theorem srcoff8 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off18 (View.readAt (Elt F) arg1.view (Rect.unit (s := S4096x26) (k0_off17 i) S1x1.size (Facts₀.k0_off17_inb i)).toLoadRect (harg1.unread tbl) x)
      = ![8, (rowOf tbl i (⟨8, by decide⟩ : Fin 26)).val, 0] := by
  rw [readAt_tbl i arg1 harg1 tbl (⟨8, by decide⟩ : Fin 26) _ (off17_eq i), rowOf_val tbl i _ (hrange _)]
  rfl

/-- The offsets of the row the transfer for sub-table 9 reads, in closed form. -/
theorem srcoff9 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off20 (View.readAt (Elt F) arg1.view (Rect.unit (s := S4096x26) (k0_off19 i) S1x1.size (Facts₀.k0_off19_inb i)).toLoadRect (harg1.unread tbl) x)
      = ![9, (rowOf tbl i (⟨9, by decide⟩ : Fin 26)).val, 0] := by
  rw [readAt_tbl i arg1 harg1 tbl (⟨9, by decide⟩ : Fin 26) _ (off19_eq i), rowOf_val tbl i _ (hrange _)]
  rfl

/-- The offsets of the row the transfer for sub-table 10 reads, in closed form. -/
theorem srcoff10 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off22 (View.readAt (Elt F) arg1.view (Rect.unit (s := S4096x26) (k0_off21 i) S1x1.size (Facts₀.k0_off21_inb i)).toLoadRect (harg1.unread tbl) x)
      = ![10, (rowOf tbl i (⟨10, by decide⟩ : Fin 26)).val, 0] := by
  rw [readAt_tbl i arg1 harg1 tbl (⟨10, by decide⟩ : Fin 26) _ (off21_eq i), rowOf_val tbl i _ (hrange _)]
  rfl

/-- The offsets of the row the transfer for sub-table 11 reads, in closed form. -/
theorem srcoff11 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off24 (View.readAt (Elt F) arg1.view (Rect.unit (s := S4096x26) (k0_off23 i) S1x1.size (Facts₀.k0_off23_inb i)).toLoadRect (harg1.unread tbl) x)
      = ![11, (rowOf tbl i (⟨11, by decide⟩ : Fin 26)).val, 0] := by
  rw [readAt_tbl i arg1 harg1 tbl (⟨11, by decide⟩ : Fin 26) _ (off23_eq i), rowOf_val tbl i _ (hrange _)]
  rfl

/-- The offsets of the row the transfer for sub-table 12 reads, in closed form. -/
theorem srcoff12 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off26 (View.readAt (Elt F) arg1.view (Rect.unit (s := S4096x26) (k0_off25 i) S1x1.size (Facts₀.k0_off25_inb i)).toLoadRect (harg1.unread tbl) x)
      = ![12, (rowOf tbl i (⟨12, by decide⟩ : Fin 26)).val, 0] := by
  rw [readAt_tbl i arg1 harg1 tbl (⟨12, by decide⟩ : Fin 26) _ (off25_eq i), rowOf_val tbl i _ (hrange _)]
  rfl

/-- The offsets of the row the transfer for sub-table 13 reads, in closed form. -/
theorem srcoff13 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off28 (View.readAt (Elt F) arg1.view (Rect.unit (s := S4096x26) (k0_off27 i) S1x1.size (Facts₀.k0_off27_inb i)).toLoadRect (harg1.unread tbl) x)
      = ![13, (rowOf tbl i (⟨13, by decide⟩ : Fin 26)).val, 0] := by
  rw [readAt_tbl i arg1 harg1 tbl (⟨13, by decide⟩ : Fin 26) _ (off27_eq i), rowOf_val tbl i _ (hrange _)]
  rfl

/-- The offsets of the row the transfer for sub-table 14 reads, in closed form. -/
theorem srcoff14 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off30 (View.readAt (Elt F) arg1.view (Rect.unit (s := S4096x26) (k0_off29 i) S1x1.size (Facts₀.k0_off29_inb i)).toLoadRect (harg1.unread tbl) x)
      = ![14, (rowOf tbl i (⟨14, by decide⟩ : Fin 26)).val, 0] := by
  rw [readAt_tbl i arg1 harg1 tbl (⟨14, by decide⟩ : Fin 26) _ (off29_eq i), rowOf_val tbl i _ (hrange _)]
  rfl

/-- The offsets of the row the transfer for sub-table 15 reads, in closed form. -/
theorem srcoff15 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off32 (View.readAt (Elt F) arg1.view (Rect.unit (s := S4096x26) (k0_off31 i) S1x1.size (Facts₀.k0_off31_inb i)).toLoadRect (harg1.unread tbl) x)
      = ![15, (rowOf tbl i (⟨15, by decide⟩ : Fin 26)).val, 0] := by
  rw [readAt_tbl i arg1 harg1 tbl (⟨15, by decide⟩ : Fin 26) _ (off31_eq i), rowOf_val tbl i _ (hrange _)]
  rfl

/-- The offsets of the row the transfer for sub-table 16 reads, in closed form. -/
theorem srcoff16 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off34 (View.readAt (Elt F) arg1.view (Rect.unit (s := S4096x26) (k0_off33 i) S1x1.size (Facts₀.k0_off33_inb i)).toLoadRect (harg1.unread tbl) x)
      = ![16, (rowOf tbl i (⟨16, by decide⟩ : Fin 26)).val, 0] := by
  rw [readAt_tbl i arg1 harg1 tbl (⟨16, by decide⟩ : Fin 26) _ (off33_eq i), rowOf_val tbl i _ (hrange _)]
  rfl

/-- The offsets of the row the transfer for sub-table 17 reads, in closed form. -/
theorem srcoff17 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off36 (View.readAt (Elt F) arg1.view (Rect.unit (s := S4096x26) (k0_off35 i) S1x1.size (Facts₀.k0_off35_inb i)).toLoadRect (harg1.unread tbl) x)
      = ![17, (rowOf tbl i (⟨17, by decide⟩ : Fin 26)).val, 0] := by
  rw [readAt_tbl i arg1 harg1 tbl (⟨17, by decide⟩ : Fin 26) _ (off35_eq i), rowOf_val tbl i _ (hrange _)]
  rfl

/-- The offsets of the row the transfer for sub-table 18 reads, in closed form. -/
theorem srcoff18 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off38 (View.readAt (Elt F) arg1.view (Rect.unit (s := S4096x26) (k0_off37 i) S1x1.size (Facts₀.k0_off37_inb i)).toLoadRect (harg1.unread tbl) x)
      = ![18, (rowOf tbl i (⟨18, by decide⟩ : Fin 26)).val, 0] := by
  rw [readAt_tbl i arg1 harg1 tbl (⟨18, by decide⟩ : Fin 26) _ (off37_eq i), rowOf_val tbl i _ (hrange _)]
  rfl

/-- The offsets of the row the transfer for sub-table 19 reads, in closed form. -/
theorem srcoff19 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off40 (View.readAt (Elt F) arg1.view (Rect.unit (s := S4096x26) (k0_off39 i) S1x1.size (Facts₀.k0_off39_inb i)).toLoadRect (harg1.unread tbl) x)
      = ![19, (rowOf tbl i (⟨19, by decide⟩ : Fin 26)).val, 0] := by
  rw [readAt_tbl i arg1 harg1 tbl (⟨19, by decide⟩ : Fin 26) _ (off39_eq i), rowOf_val tbl i _ (hrange _)]
  rfl

/-- The offsets of the row the transfer for sub-table 20 reads, in closed form. -/
theorem srcoff20 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off42 (View.readAt (Elt F) arg1.view (Rect.unit (s := S4096x26) (k0_off41 i) S1x1.size (Facts₀.k0_off41_inb i)).toLoadRect (harg1.unread tbl) x)
      = ![20, (rowOf tbl i (⟨20, by decide⟩ : Fin 26)).val, 0] := by
  rw [readAt_tbl i arg1 harg1 tbl (⟨20, by decide⟩ : Fin 26) _ (off41_eq i), rowOf_val tbl i _ (hrange _)]
  rfl

/-- The offsets of the row the transfer for sub-table 21 reads, in closed form. -/
theorem srcoff21 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off44 (View.readAt (Elt F) arg1.view (Rect.unit (s := S4096x26) (k0_off43 i) S1x1.size (Facts₀.k0_off43_inb i)).toLoadRect (harg1.unread tbl) x)
      = ![21, (rowOf tbl i (⟨21, by decide⟩ : Fin 26)).val, 0] := by
  rw [readAt_tbl i arg1 harg1 tbl (⟨21, by decide⟩ : Fin 26) _ (off43_eq i), rowOf_val tbl i _ (hrange _)]
  rfl

/-- The offsets of the row the transfer for sub-table 22 reads, in closed form. -/
theorem srcoff22 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off46 (View.readAt (Elt F) arg1.view (Rect.unit (s := S4096x26) (k0_off45 i) S1x1.size (Facts₀.k0_off45_inb i)).toLoadRect (harg1.unread tbl) x)
      = ![22, (rowOf tbl i (⟨22, by decide⟩ : Fin 26)).val, 0] := by
  rw [readAt_tbl i arg1 harg1 tbl (⟨22, by decide⟩ : Fin 26) _ (off45_eq i), rowOf_val tbl i _ (hrange _)]
  rfl

/-- The offsets of the row the transfer for sub-table 23 reads, in closed form. -/
theorem srcoff23 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off48 (View.readAt (Elt F) arg1.view (Rect.unit (s := S4096x26) (k0_off47 i) S1x1.size (Facts₀.k0_off47_inb i)).toLoadRect (harg1.unread tbl) x)
      = ![23, (rowOf tbl i (⟨23, by decide⟩ : Fin 26)).val, 0] := by
  rw [readAt_tbl i arg1 harg1 tbl (⟨23, by decide⟩ : Fin 26) _ (off47_eq i), rowOf_val tbl i _ (hrange _)]
  rfl

/-- The offsets of the row the transfer for sub-table 24 reads, in closed form. -/
theorem srcoff24 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off50 (View.readAt (Elt F) arg1.view (Rect.unit (s := S4096x26) (k0_off49 i) S1x1.size (Facts₀.k0_off49_inb i)).toLoadRect (harg1.unread tbl) x)
      = ![24, (rowOf tbl i (⟨24, by decide⟩ : Fin 26)).val, 0] := by
  rw [readAt_tbl i arg1 harg1 tbl (⟨24, by decide⟩ : Fin 26) _ (off49_eq i), rowOf_val tbl i _ (hrange _)]
  rfl

/-- The offsets of the row the transfer for sub-table 25 reads, in closed form. -/
theorem srcoff25 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off52 (View.readAt (Elt F) arg1.view (Rect.unit (s := S4096x26) (k0_off51 i) S1x1.size (Facts₀.k0_off51_inb i)).toLoadRect (harg1.unread tbl) x)
      = ![25, (rowOf tbl i (⟨25, by decide⟩ : Fin 26)).val, 0] := by
  rw [readAt_tbl i arg1 harg1 tbl (⟨25, by decide⟩ : Fin 26) _ (off51_eq i), rowOf_val tbl i _ (hrange _)]
  rfl

/-- Two blocks of one leading row are equal when they agree entry by entry of each of the 26 rows. -/
theorem blk_ext (A B : Vec F S1x26x64 .f32)
    (h : ∀ (k : Fin 26) (d : Fin 64), A (ValueIdx.ix3 (⟨0, Nat.one_pos⟩ : Fin 1) k d) = B (ValueIdx.ix3 (⟨0, Nat.one_pos⟩ : Fin 1) k d)) :
    A = B := by
  funext y
  have h0 : (y 0).val = 0 := Nat.lt_one_iff.mp (y 0).isLt
  have hy : y = ValueIdx.ix3 (⟨0, Nat.one_pos⟩ : Fin 1) (y 1) (y 2) := by
    funext a
    fin_cases a
    · exact Fin.ext h0
    · rfl
    · rfl
  rw [hy]
  exact h (y 1) (y 2)

section Pieces

/-- Contents that read alike at an index hold the same value at the element the view places it at. -/
theorem eq_of_read_eq {sig' : RefSig} {Val : EltTy → Type} {κ : Kind} {sp : Space} {s : Shape} {e : EltTy}
    (v : View sig' κ sp s e) (f g : v.ty.Contents Val) (x : s.Idx) (h : v.read Val f x = v.read Val g x) :
    f (v.emb x) = g (v.emb x) := by
  rw [View.read_apply, View.read_apply] at h
  exact (cast_inj _).mp h

theorem sub_sdiff {α : Type*} [DecidableEq α] {s t u : Finset α} (h1 : s ⊆ t) (h2 : Disjoint s u) : s ⊆ t \ u :=
  Finset.subset_sdiff.mpr ⟨h1, h2⟩

variable (c : Dev nD) (arg3 : Memref sig .tc .vmem S1x26x64 .f32)

/-- The elements of row `k` of the block's buffer. -/
abbrev rowSet (k : Fin 26) : Finset (Idx (arg3.view.loc (c : Thread nD τ))) := (rowM arg3 k).view.set

/-- Where the row window at `k` places entry `d`: the block's element `(0, k, d)`. -/
theorem row_place (k : Fin 26) (d : Fin 64) :
    (Rect.unit (s := S1x26x64) ![0, k.val, 0] S1x1x64.size (row_inb k)).emb
        (Shape.reshapeEquiv (Facts₀.squeezes_S1x1x64_S64).numel_eq (ValueIdx.ix1 d))
      = ValueIdx.ix3 (⟨0, Nat.one_pos⟩ : Fin 1) k d := by
  funext a
  apply Fin.ext
  rw [emb_unit_val]
  have hz := congrFun (reshapeEquiv_ix1_11a (a := 64) (Facts₀.squeezes_S1x1x64_S64).numel_eq d) a
  rw [hz]
  fin_cases a <;> simp [ValueIdx.ix3]

/-- An element of row `k` is the block's element `(0, k, d)` for some `d`. -/
theorem mem_rowSet {k : Fin 26} {idx : Idx (arg3.view.loc (c : Thread nD τ))} (h : idx ∈ rowSet c arg3 k) :
    ∃ d : Fin 64, idx = arg3.view.emb (ValueIdx.ix3 (⟨0, Nat.one_pos⟩ : Fin 1) k d) := by
  obtain ⟨x, -, rfl⟩ := Finset.mem_map.mp h
  obtain ⟨d, rfl⟩ : ∃ d : Fin 64, x = ValueIdx.ix1 d := ⟨x 0, ValueIdx.eq_ix1 x⟩
  exact ⟨d, congrArg arg3.view.emb (row_place k d)⟩

theorem rowSet_subset (k : Fin 26) : rowSet c arg3 k ⊆ arg3.view.set := by
  intro idx h
  obtain ⟨d, rfl⟩ := mem_rowSet c arg3 h
  exact arg3.view.emb_mem_set _

theorem rowSet_disjoint (k k' : Fin 26) (h : k ≠ k') : Disjoint (rowSet c arg3 k) (rowSet c arg3 k') := by
  rw [Finset.disjoint_left]
  intro idx h1 h2
  obtain ⟨d, rfl⟩ := mem_rowSet c arg3 h1
  obtain ⟨d', h'⟩ := mem_rowSet c arg3 h2
  have h3 := congrFun (arg3.view.emb.injective h') 1
  exact h h3

variable (harg3 : arg3.IsWhole) (B : Vec F S1x26x64 .f32)

/-- Row `k` after a whole write of the row `B` has there holds what the whole buffer reading `B` holds. -/
theorem win_contents (k : Fin 26) (g : arg3.view.ty.Contents (Elt F)) (P : S64.Idx → Elt F .f32)
    (hP : ∀ d : Fin 64, P (ValueIdx.ix1 d) = B (ValueIdx.ix3 (⟨0, Nat.one_pos⟩ : Fin 1) k d)) :
    ∀ idx ∈ rowSet c arg3 k, ((rowM arg3 k).view.write (Elt F) g P Finset.univ) idx = (harg3.unread B) idx := by
  intro idx h
  obtain ⟨d, rfl⟩ := mem_rowSet c arg3 h
  refine eq_of_read_eq arg3.view _ _ _ ?_
  rw [congrFun (harg3.read_unread B) _, ← hP d]
  exact read_row_hit arg3 k _ rfl _ _ _ g P d

/-- Contents that read `B` hold, on the block's elements, what the whole buffer reading `B` holds. -/
theorem rest_contents (g : arg3.view.ty.Contents (Elt F)) (hg : arg3.view.read (Elt F) g = B) :
    ∀ idx ∈ arg3.view.set, g idx = (harg3.unread B) idx := by
  intro idx h
  obtain ⟨y, -, rfl⟩ := Finset.mem_map.mp h
  refine eq_of_read_eq arg3.view _ _ y ?_
  rw [congrFun (harg3.read_unread B) y, hg]

end Pieces

set_option sl_exec.dmaWindow true in
set_option sl_exec.dmaWindowSet true in
set_option sl_exec.rejoinHeartbeats 4000000 in
set_option sl_exec.stepHeartbeats 2000000 in
set_option maxHeartbeats 0 in
/-- The gather body's run, under any table `D` of bodies (the body makes no call): from the table and the stacked
    tables at any shares, the output window's buffer whole at `f3`, the call's 26 cells at zero and the core's record
    of waits, the body runs to the continuation holding the table, the stacked tables and the cells as they were, and
    the buffer IN ELEVEN PIECES, as the 26 copies leave it: rows 0 to 9 each by itself and the rest of the buffer, each
    piece at contents that hold on it what the buffer reading the gathered block holds. (Row `k` alone is at the
    contents it had when its copy landed, whose last write is the row the copy read; the rest is at the last
    contents, 26 whole writes of a row one inside the other, which read the gathered block row by row.) -/
theorem gatherRun (D : Defs nD τ sig (Elt F) Λ₀) (c : Dev nD) (i : grid0.Coords)
    (arg1 : Memref sig .tc .smem S4096x26 .i32) (harg1 : arg1.IsWhole)
    (arg2 : Memref sig .tc .hbm S26x131073x64 .f32) (harg2 : arg2.IsWhole)
    (arg3 : Memref sig .tc .vmem S1x26x64 .f32) (harg3 : arg3.IsWhole)
    (tbl : Vec F S4096x26 .i32) (emb : Vec F S26x131073x64 .f32) (q1 q2 : PosShare TreeShare)
    (hrange : ∀ f : Fin 26, (tbl (ValueIdx.ix2 (⟨(i 0).val, (i 0).isLt⟩ : Fin 4096) f)).toNat < 131073)
    (f3 : Buf (Elt F) (arg3.view.loc (c : Thread nD τ))) (W : Waits sig Unit) (K : PUnit → sProp 𝕄) :
    iprop(owns (c : Thread nD τ) arg1 q1 tbl ∗ owns (c : Thread nD τ) arg2 q2 emb
        ∗ (arg3.view.loc (c : Thread nD τ) ↦[arg3.view.set]{fullShare} f3) ∗ sems0 c ∗ owes (c : Thread nD τ) 0 W
        ∗ (iprop(owns (c : Thread nD τ) arg1 q1 tbl ∗ owns (c : Thread nD τ) arg2 q2 emb
              ∗ (∃ d : Buf (Elt F) (arg3.view.loc (c : Thread nD τ)), ⌜∀ idx ∈ rowSet c arg3 (⟨0, of_decide_eq_true rfl⟩ : Fin 26), d idx = (harg3.unread (gatherBlk tbl emb i)) idx⌝ ∗ (arg3.view.loc (c : Thread nD τ) ↦[(rowM arg3 (⟨0, of_decide_eq_true rfl⟩ : Fin 26)).view.set]{fullShare} d))
                  ∗ (∃ d : Buf (Elt F) (arg3.view.loc (c : Thread nD τ)), ⌜∀ idx ∈ rowSet c arg3 (⟨1, of_decide_eq_true rfl⟩ : Fin 26), d idx = (harg3.unread (gatherBlk tbl emb i)) idx⌝ ∗ (arg3.view.loc (c : Thread nD τ) ↦[(rowM arg3 (⟨1, of_decide_eq_true rfl⟩ : Fin 26)).view.set]{fullShare} d))
                  ∗ (∃ d : Buf (Elt F) (arg3.view.loc (c : Thread nD τ)), ⌜∀ idx ∈ rowSet c arg3 (⟨2, of_decide_eq_true rfl⟩ : Fin 26), d idx = (harg3.unread (gatherBlk tbl emb i)) idx⌝ ∗ (arg3.view.loc (c : Thread nD τ) ↦[(rowM arg3 (⟨2, of_decide_eq_true rfl⟩ : Fin 26)).view.set]{fullShare} d))
                  ∗ (∃ d : Buf (Elt F) (arg3.view.loc (c : Thread nD τ)), ⌜∀ idx ∈ rowSet c arg3 (⟨3, of_decide_eq_true rfl⟩ : Fin 26), d idx = (harg3.unread (gatherBlk tbl emb i)) idx⌝ ∗ (arg3.view.loc (c : Thread nD τ) ↦[(rowM arg3 (⟨3, of_decide_eq_true rfl⟩ : Fin 26)).view.set]{fullShare} d))
                  ∗ (∃ d : Buf (Elt F) (arg3.view.loc (c : Thread nD τ)), ⌜∀ idx ∈ rowSet c arg3 (⟨4, of_decide_eq_true rfl⟩ : Fin 26), d idx = (harg3.unread (gatherBlk tbl emb i)) idx⌝ ∗ (arg3.view.loc (c : Thread nD τ) ↦[(rowM arg3 (⟨4, of_decide_eq_true rfl⟩ : Fin 26)).view.set]{fullShare} d))
                  ∗ (∃ d : Buf (Elt F) (arg3.view.loc (c : Thread nD τ)), ⌜∀ idx ∈ rowSet c arg3 (⟨5, of_decide_eq_true rfl⟩ : Fin 26), d idx = (harg3.unread (gatherBlk tbl emb i)) idx⌝ ∗ (arg3.view.loc (c : Thread nD τ) ↦[(rowM arg3 (⟨5, of_decide_eq_true rfl⟩ : Fin 26)).view.set]{fullShare} d))
                  ∗ (∃ d : Buf (Elt F) (arg3.view.loc (c : Thread nD τ)), ⌜∀ idx ∈ rowSet c arg3 (⟨6, of_decide_eq_true rfl⟩ : Fin 26), d idx = (harg3.unread (gatherBlk tbl emb i)) idx⌝ ∗ (arg3.view.loc (c : Thread nD τ) ↦[(rowM arg3 (⟨6, of_decide_eq_true rfl⟩ : Fin 26)).view.set]{fullShare} d))
                  ∗ (∃ d : Buf (Elt F) (arg3.view.loc (c : Thread nD τ)), ⌜∀ idx ∈ rowSet c arg3 (⟨7, of_decide_eq_true rfl⟩ : Fin 26), d idx = (harg3.unread (gatherBlk tbl emb i)) idx⌝ ∗ (arg3.view.loc (c : Thread nD τ) ↦[(rowM arg3 (⟨7, of_decide_eq_true rfl⟩ : Fin 26)).view.set]{fullShare} d))
                  ∗ (∃ d : Buf (Elt F) (arg3.view.loc (c : Thread nD τ)), ⌜∀ idx ∈ rowSet c arg3 (⟨8, of_decide_eq_true rfl⟩ : Fin 26), d idx = (harg3.unread (gatherBlk tbl emb i)) idx⌝ ∗ (arg3.view.loc (c : Thread nD τ) ↦[(rowM arg3 (⟨8, of_decide_eq_true rfl⟩ : Fin 26)).view.set]{fullShare} d))
                  ∗ (∃ d : Buf (Elt F) (arg3.view.loc (c : Thread nD τ)), ⌜∀ idx ∈ rowSet c arg3 (⟨9, of_decide_eq_true rfl⟩ : Fin 26), d idx = (harg3.unread (gatherBlk tbl emb i)) idx⌝ ∗ (arg3.view.loc (c : Thread nD τ) ↦[(rowM arg3 (⟨9, of_decide_eq_true rfl⟩ : Fin 26)).view.set]{fullShare} d))
                  ∗ (∃ d : Buf (Elt F) (arg3.view.loc (c : Thread nD τ)), ⌜∀ idx ∈ arg3.view.set, d idx = (harg3.unread (gatherBlk tbl emb i)) idx⌝ ∗ (arg3.view.loc (c : Thread nD τ) ↦[((((((((((arg3.view.set \ (rowM arg3 (⟨0, of_decide_eq_true rfl⟩ : Fin 26)).view.set) \ (rowM arg3 (⟨1, of_decide_eq_true rfl⟩ : Fin 26)).view.set) \ (rowM arg3 (⟨2, of_decide_eq_true rfl⟩ : Fin 26)).view.set) \ (rowM arg3 (⟨3, of_decide_eq_true rfl⟩ : Fin 26)).view.set) \ (rowM arg3 (⟨4, of_decide_eq_true rfl⟩ : Fin 26)).view.set) \ (rowM arg3 (⟨5, of_decide_eq_true rfl⟩ : Fin 26)).view.set) \ (rowM arg3 (⟨6, of_decide_eq_true rfl⟩ : Fin 26)).view.set) \ (rowM arg3 (⟨7, of_decide_eq_true rfl⟩ : Fin 26)).view.set) \ (rowM arg3 (⟨8, of_decide_eq_true rfl⟩ : Fin 26)).view.set) \ (rowM arg3 (⟨9, of_decide_eq_true rfl⟩ : Fin 26)).view.set)]{fullShare} d))
              ∗ sems0 c ∗ (∃ W', owes (c : Thread nD τ) 0 W')) -∗ K ⟨⟩))
      ⊢ wp frame (wpE D Variants.none c none) Set.univ
          (cc0__gather_kernel i arg1 harg1 arg2 harg2 arg3 harg3 cc1_scratch0) K := by
  simp only [cc0__gather_kernel_eq_skeleton]; unfold cc0__gather_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f1, %hf1, H1⟩, ⟨%f2, %hf2, H2⟩, H3, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25⟩, HW, Hk⟩
  obtain rfl := harg1.eq_unread hf1
  obtain rfl := harg2.eq_unread hf2
  have hc1 := chk1 i arg1 harg1 tbl hrange
  have hc2 := chk2 i arg1 harg1 tbl hrange
  have hc3 := chk3 i arg1 harg1 tbl hrange
  have hc4 := chk4 i arg1 harg1 tbl hrange
  have hc5 := chk5 i arg1 harg1 tbl hrange
  have hc6 := chk6 i arg1 harg1 tbl hrange
  have hc7 := chk7 i arg1 harg1 tbl hrange
  have hc8 := chk8 i arg1 harg1 tbl hrange
  have hc9 := chk9 i arg1 harg1 tbl hrange
  have hc10 := chk10 i arg1 harg1 tbl hrange
  have hc11 := chk11 i arg1 harg1 tbl hrange
  have hc12 := chk12 i arg1 harg1 tbl hrange
  have hc13 := chk13 i arg1 harg1 tbl hrange
  have hc14 := chk14 i arg1 harg1 tbl hrange
  have hc15 := chk15 i arg1 harg1 tbl hrange
  have hc16 := chk16 i arg1 harg1 tbl hrange
  have hc17 := chk17 i arg1 harg1 tbl hrange
  have hc18 := chk18 i arg1 harg1 tbl hrange
  have hc19 := chk19 i arg1 harg1 tbl hrange
  have hc20 := chk20 i arg1 harg1 tbl hrange
  have hc21 := chk21 i arg1 harg1 tbl hrange
  have hc22 := chk22 i arg1 harg1 tbl hrange
  have hc23 := chk23 i arg1 harg1 tbl hrange
  have hc24 := chk24 i arg1 harg1 tbl hrange
  have hc25 := chk25 i arg1 harg1 tbl hrange
  have hc26 := chk26 i arg1 harg1 tbl hrange
  sl_exec_parts (disch := first | (guard_target = k0_chk1 _; exact hc1 _) | (guard_target = k0_chk2 _; exact hc2 _) | (guard_target = k0_chk3 _; exact hc3 _) | (guard_target = k0_chk4 _; exact hc4 _) | (guard_target = k0_chk5 _; exact hc5 _) | (guard_target = k0_chk6 _; exact hc6 _) | (guard_target = k0_chk7 _; exact hc7 _) | (guard_target = k0_chk8 _; exact hc8 _) | (guard_target = k0_chk9 _; exact hc9 _) | (guard_target = k0_chk10 _; exact hc10 _) | (guard_target = k0_chk11 _; exact hc11 _) | (guard_target = k0_chk12 _; exact hc12 _) | (guard_target = k0_chk13 _; exact hc13 _) | (guard_target = k0_chk14 _; exact hc14 _) | (guard_target = k0_chk15 _; exact hc15 _) | (guard_target = k0_chk16 _; exact hc16 _) | (guard_target = k0_chk17 _; exact hc17 _) | (guard_target = k0_chk18 _; exact hc18 _) | (guard_target = k0_chk19 _; exact hc19 _) | (guard_target = k0_chk20 _; exact hc20 _) | (guard_target = k0_chk21 _; exact hc21 _) | (guard_target = k0_chk22 _; exact hc22 _) | (guard_target = k0_chk23 _; exact hc23 _) | (guard_target = k0_chk24 _; exact hc24 _) | (guard_target = k0_chk25 _; exact hc25 _) | (guard_target = k0_chk26 _; exact hc26 _))
  sl_step
  iapply Hk
  isplitl [H1]
  · iexists _; isplitr; · ipureintro; exact harg1.read_unread _
    iexact H1
  isplitl [H2]
  · iexists _; isplitr; · ipureintro; exact harg2.read_unread _
    iexact H2
  isplitl [H3_2]
  · -- row 0 alone: its last write is the row its copy read
    iexists _; isplitr; swap; · iexact H3_2
    ipureintro
    refine win_contents c arg3 harg3 (gatherBlk tbl emb i) (⟨0, of_decide_eq_true rfl⟩ : Fin 26) _ _ fun d => ?_
    exact read_src_row arg2 harg2 emb (⟨0, of_decide_eq_true rfl⟩ : Fin 26) (rowOf tbl i (⟨0, of_decide_eq_true rfl⟩ : Fin 26)) _ (srcoff0 i arg1 harg1 tbl hrange _) _ _ _ d
  isplitl [H3_3]
  · -- row 1 alone: its last write is the row its copy read
    iexists _; isplitr; swap; · iexact H3_3
    ipureintro
    refine win_contents c arg3 harg3 (gatherBlk tbl emb i) (⟨1, of_decide_eq_true rfl⟩ : Fin 26) _ _ fun d => ?_
    exact read_src_row arg2 harg2 emb (⟨1, of_decide_eq_true rfl⟩ : Fin 26) (rowOf tbl i (⟨1, of_decide_eq_true rfl⟩ : Fin 26)) _ (srcoff1 i arg1 harg1 tbl hrange _) _ _ _ d
  isplitl [H3_4]
  · -- row 2 alone: its last write is the row its copy read
    iexists _; isplitr; swap; · iexact H3_4
    ipureintro
    refine win_contents c arg3 harg3 (gatherBlk tbl emb i) (⟨2, of_decide_eq_true rfl⟩ : Fin 26) _ _ fun d => ?_
    exact read_src_row arg2 harg2 emb (⟨2, of_decide_eq_true rfl⟩ : Fin 26) (rowOf tbl i (⟨2, of_decide_eq_true rfl⟩ : Fin 26)) _ (srcoff2 i arg1 harg1 tbl hrange _) _ _ _ d
  isplitl [H3_5]
  · -- row 3 alone: its last write is the row its copy read
    iexists _; isplitr; swap; · iexact H3_5
    ipureintro
    refine win_contents c arg3 harg3 (gatherBlk tbl emb i) (⟨3, of_decide_eq_true rfl⟩ : Fin 26) _ _ fun d => ?_
    exact read_src_row arg2 harg2 emb (⟨3, of_decide_eq_true rfl⟩ : Fin 26) (rowOf tbl i (⟨3, of_decide_eq_true rfl⟩ : Fin 26)) _ (srcoff3 i arg1 harg1 tbl hrange _) _ _ _ d
  isplitl [H3_6]
  · -- row 4 alone: its last write is the row its copy read
    iexists _; isplitr; swap; · iexact H3_6
    ipureintro
    refine win_contents c arg3 harg3 (gatherBlk tbl emb i) (⟨4, of_decide_eq_true rfl⟩ : Fin 26) _ _ fun d => ?_
    exact read_src_row arg2 harg2 emb (⟨4, of_decide_eq_true rfl⟩ : Fin 26) (rowOf tbl i (⟨4, of_decide_eq_true rfl⟩ : Fin 26)) _ (srcoff4 i arg1 harg1 tbl hrange _) _ _ _ d
  isplitl [H3_7]
  · -- row 5 alone: its last write is the row its copy read
    iexists _; isplitr; swap; · iexact H3_7
    ipureintro
    refine win_contents c arg3 harg3 (gatherBlk tbl emb i) (⟨5, of_decide_eq_true rfl⟩ : Fin 26) _ _ fun d => ?_
    exact read_src_row arg2 harg2 emb (⟨5, of_decide_eq_true rfl⟩ : Fin 26) (rowOf tbl i (⟨5, of_decide_eq_true rfl⟩ : Fin 26)) _ (srcoff5 i arg1 harg1 tbl hrange _) _ _ _ d
  isplitl [H3_8]
  · -- row 6 alone: its last write is the row its copy read
    iexists _; isplitr; swap; · iexact H3_8
    ipureintro
    refine win_contents c arg3 harg3 (gatherBlk tbl emb i) (⟨6, of_decide_eq_true rfl⟩ : Fin 26) _ _ fun d => ?_
    exact read_src_row arg2 harg2 emb (⟨6, of_decide_eq_true rfl⟩ : Fin 26) (rowOf tbl i (⟨6, of_decide_eq_true rfl⟩ : Fin 26)) _ (srcoff6 i arg1 harg1 tbl hrange _) _ _ _ d
  isplitl [H3_9]
  · -- row 7 alone: its last write is the row its copy read
    iexists _; isplitr; swap; · iexact H3_9
    ipureintro
    refine win_contents c arg3 harg3 (gatherBlk tbl emb i) (⟨7, of_decide_eq_true rfl⟩ : Fin 26) _ _ fun d => ?_
    exact read_src_row arg2 harg2 emb (⟨7, of_decide_eq_true rfl⟩ : Fin 26) (rowOf tbl i (⟨7, of_decide_eq_true rfl⟩ : Fin 26)) _ (srcoff7 i arg1 harg1 tbl hrange _) _ _ _ d
  isplitl [H3_10]
  · -- row 8 alone: its last write is the row its copy read
    iexists _; isplitr; swap; · iexact H3_10
    ipureintro
    refine win_contents c arg3 harg3 (gatherBlk tbl emb i) (⟨8, of_decide_eq_true rfl⟩ : Fin 26) _ _ fun d => ?_
    exact read_src_row arg2 harg2 emb (⟨8, of_decide_eq_true rfl⟩ : Fin 26) (rowOf tbl i (⟨8, of_decide_eq_true rfl⟩ : Fin 26)) _ (srcoff8 i arg1 harg1 tbl hrange _) _ _ _ d
  isplitl [H3_11]
  · -- row 9 alone: its last write is the row its copy read
    iexists _; isplitr; swap; · iexact H3_11
    ipureintro
    refine win_contents c arg3 harg3 (gatherBlk tbl emb i) (⟨9, of_decide_eq_true rfl⟩ : Fin 26) _ _ fun d => ?_
    exact read_src_row arg2 harg2 emb (⟨9, of_decide_eq_true rfl⟩ : Fin 26) (rowOf tbl i (⟨9, of_decide_eq_true rfl⟩ : Fin 26)) _ (srcoff9 i arg1 harg1 tbl hrange _) _ _ _ d
  isplitl [H3]
  · -- the rest, at the last contents: they read the gathered block, row by row
    iexists _; isplitr; swap; · iexact H3
    ipureintro
    refine rest_contents arg3 harg3 (gatherBlk tbl emb i) _ (blk_ext _ _ fun k d => ?_)
    fin_cases k
    · -- row 0: the later rows' writes miss it; its own write lands the row read from sub-table 0
      refine (read_row_miss arg3 (⟨25, by decide⟩ : Fin 26) (⟨0, by decide⟩ : Fin 26) (by decide) _ rfl _ _ _ _ _ d).trans ?_
      refine (read_row_miss arg3 (⟨24, by decide⟩ : Fin 26) (⟨0, by decide⟩ : Fin 26) (by decide) _ rfl _ _ _ _ _ d).trans ?_
      refine (read_row_miss arg3 (⟨23, by decide⟩ : Fin 26) (⟨0, by decide⟩ : Fin 26) (by decide) _ rfl _ _ _ _ _ d).trans ?_
      refine (read_row_miss arg3 (⟨22, by decide⟩ : Fin 26) (⟨0, by decide⟩ : Fin 26) (by decide) _ rfl _ _ _ _ _ d).trans ?_
      refine (read_row_miss arg3 (⟨21, by decide⟩ : Fin 26) (⟨0, by decide⟩ : Fin 26) (by decide) _ rfl _ _ _ _ _ d).trans ?_
      refine (read_row_miss arg3 (⟨20, by decide⟩ : Fin 26) (⟨0, by decide⟩ : Fin 26) (by decide) _ rfl _ _ _ _ _ d).trans ?_
      refine (read_row_miss arg3 (⟨19, by decide⟩ : Fin 26) (⟨0, by decide⟩ : Fin 26) (by decide) _ rfl _ _ _ _ _ d).trans ?_
      refine (read_row_miss arg3 (⟨18, by decide⟩ : Fin 26) (⟨0, by decide⟩ : Fin 26) (by decide) _ rfl _ _ _ _ _ d).trans ?_
      refine (read_row_miss arg3 (⟨17, by decide⟩ : Fin 26) (⟨0, by decide⟩ : Fin 26) (by decide) _ rfl _ _ _ _ _ d).trans ?_
      refine (read_row_miss arg3 (⟨16, by decide⟩ : Fin 26) (⟨0, by decide⟩ : Fin 26) (by decide) _ rfl _ _ _ _ _ d).trans ?_
      refine (read_row_miss arg3 (⟨15, by decide⟩ : Fin 26) (⟨0, by decide⟩ : Fin 26) (by decide) _ rfl _ _ _ _ _ d).trans ?_
      refine (read_row_miss arg3 (⟨14, by decide⟩ : Fin 26) (⟨0, by decide⟩ : Fin 26) (by decide) _ rfl _ _ _ _ _ d).trans ?_
      refine (read_row_miss arg3 (⟨13, by decide⟩ : Fin 26) (⟨0, by decide⟩ : Fin 26) (by decide) _ rfl _ _ _ _ _ d).trans ?_
      refine (read_row_miss arg3 (⟨12, by decide⟩ : Fin 26) (⟨0, by decide⟩ : Fin 26) (by decide) _ rfl _ _ _ _ _ d).trans ?_
      refine (read_row_miss arg3 (⟨11, by decide⟩ : Fin 26) (⟨0, by decide⟩ : Fin 26) (by decide) _ rfl _ _ _ _ _ d).trans ?_
      refine (read_row_miss arg3 (⟨10, by decide⟩ : Fin 26) (⟨0, by decide⟩ : Fin 26) (by decide) _ rfl _ _ _ _ _ d).trans ?_
      refine (read_row_miss arg3 (⟨9, by decide⟩ : Fin 26) (⟨0, by decide⟩ : Fin 26) (by decide) _ rfl _ _ _ _ _ d).trans ?_
      refine (read_row_miss arg3 (⟨8, by decide⟩ : Fin 26) (⟨0, by decide⟩ : Fin 26) (by decide) _ rfl _ _ _ _ _ d).trans ?_
      refine (read_row_miss arg3 (⟨7, by decide⟩ : Fin 26) (⟨0, by decide⟩ : Fin 26) (by decide) _ rfl _ _ _ _ _ d).trans ?_
      refine (read_row_miss arg3 (⟨6, by decide⟩ : Fin 26) (⟨0, by decide⟩ : Fin 26) (by decide) _ rfl _ _ _ _ _ d).trans ?_
      refine (read_row_miss arg3 (⟨5, by decide⟩ : Fin 26) (⟨0, by decide⟩ : Fin 26) (by decide) _ rfl _ _ _ _ _ d).trans ?_
      refine (read_row_miss arg3 (⟨4, by decide⟩ : Fin 26) (⟨0, by decide⟩ : Fin 26) (by decide) _ rfl _ _ _ _ _ d).trans ?_
      refine (read_row_miss arg3 (⟨3, by decide⟩ : Fin 26) (⟨0, by decide⟩ : Fin 26) (by decide) _ rfl _ _ _ _ _ d).trans ?_
      refine (read_row_miss arg3 (⟨2, by decide⟩ : Fin 26) (⟨0, by decide⟩ : Fin 26) (by decide) _ rfl _ _ _ _ _ d).trans ?_
      refine (read_row_miss arg3 (⟨1, by decide⟩ : Fin 26) (⟨0, by decide⟩ : Fin 26) (by decide) _ rfl _ _ _ _ _ d).trans ?_
      refine (read_row_hit arg3 (⟨0, by decide⟩ : Fin 26) _ rfl _ _ _ _ _ d).trans ?_
      exact read_src_row arg2 harg2 emb (⟨0, by decide⟩ : Fin 26) (rowOf tbl i (⟨0, by decide⟩ : Fin 26)) _ (srcoff0 i arg1 harg1 tbl hrange _) _ _ _ d
    · -- row 1: the later rows' writes miss it; its own write lands the row read from sub-table 1
      refine (read_row_miss arg3 (⟨25, by decide⟩ : Fin 26) (⟨1, by decide⟩ : Fin 26) (by decide) _ rfl _ _ _ _ _ d).trans ?_
      refine (read_row_miss arg3 (⟨24, by decide⟩ : Fin 26) (⟨1, by decide⟩ : Fin 26) (by decide) _ rfl _ _ _ _ _ d).trans ?_
      refine (read_row_miss arg3 (⟨23, by decide⟩ : Fin 26) (⟨1, by decide⟩ : Fin 26) (by decide) _ rfl _ _ _ _ _ d).trans ?_
      refine (read_row_miss arg3 (⟨22, by decide⟩ : Fin 26) (⟨1, by decide⟩ : Fin 26) (by decide) _ rfl _ _ _ _ _ d).trans ?_
      refine (read_row_miss arg3 (⟨21, by decide⟩ : Fin 26) (⟨1, by decide⟩ : Fin 26) (by decide) _ rfl _ _ _ _ _ d).trans ?_
      refine (read_row_miss arg3 (⟨20, by decide⟩ : Fin 26) (⟨1, by decide⟩ : Fin 26) (by decide) _ rfl _ _ _ _ _ d).trans ?_
      refine (read_row_miss arg3 (⟨19, by decide⟩ : Fin 26) (⟨1, by decide⟩ : Fin 26) (by decide) _ rfl _ _ _ _ _ d).trans ?_
      refine (read_row_miss arg3 (⟨18, by decide⟩ : Fin 26) (⟨1, by decide⟩ : Fin 26) (by decide) _ rfl _ _ _ _ _ d).trans ?_
      refine (read_row_miss arg3 (⟨17, by decide⟩ : Fin 26) (⟨1, by decide⟩ : Fin 26) (by decide) _ rfl _ _ _ _ _ d).trans ?_
      refine (read_row_miss arg3 (⟨16, by decide⟩ : Fin 26) (⟨1, by decide⟩ : Fin 26) (by decide) _ rfl _ _ _ _ _ d).trans ?_
      refine (read_row_miss arg3 (⟨15, by decide⟩ : Fin 26) (⟨1, by decide⟩ : Fin 26) (by decide) _ rfl _ _ _ _ _ d).trans ?_
      refine (read_row_miss arg3 (⟨14, by decide⟩ : Fin 26) (⟨1, by decide⟩ : Fin 26) (by decide) _ rfl _ _ _ _ _ d).trans ?_
      refine (read_row_miss arg3 (⟨13, by decide⟩ : Fin 26) (⟨1, by decide⟩ : Fin 26) (by decide) _ rfl _ _ _ _ _ d).trans ?_
      refine (read_row_miss arg3 (⟨12, by decide⟩ : Fin 26) (⟨1, by decide⟩ : Fin 26) (by decide) _ rfl _ _ _ _ _ d).trans ?_
      refine (read_row_miss arg3 (⟨11, by decide⟩ : Fin 26) (⟨1, by decide⟩ : Fin 26) (by decide) _ rfl _ _ _ _ _ d).trans ?_
      refine (read_row_miss arg3 (⟨10, by decide⟩ : Fin 26) (⟨1, by decide⟩ : Fin 26) (by decide) _ rfl _ _ _ _ _ d).trans ?_
      refine (read_row_miss arg3 (⟨9, by decide⟩ : Fin 26) (⟨1, by decide⟩ : Fin 26) (by decide) _ rfl _ _ _ _ _ d).trans ?_
      refine (read_row_miss arg3 (⟨8, by decide⟩ : Fin 26) (⟨1, by decide⟩ : Fin 26) (by decide) _ rfl _ _ _ _ _ d).trans ?_
      refine (read_row_miss arg3 (⟨7, by decide⟩ : Fin 26) (⟨1, by decide⟩ : Fin 26) (by decide) _ rfl _ _ _ _ _ d).trans ?_
      refine (read_row_miss arg3 (⟨6, by decide⟩ : Fin 26) (⟨1, by decide⟩ : Fin 26) (by decide) _ rfl _ _ _ _ _ d).trans ?_
      refine (read_row_miss arg3 (⟨5, by decide⟩ : Fin 26) (⟨1, by decide⟩ : Fin 26) (by decide) _ rfl _ _ _ _ _ d).trans ?_
      refine (read_row_miss arg3 (⟨4, by decide⟩ : Fin 26) (⟨1, by decide⟩ : Fin 26) (by decide) _ rfl _ _ _ _ _ d).trans ?_
      refine (read_row_miss arg3 (⟨3, by decide⟩ : Fin 26) (⟨1, by decide⟩ : Fin 26) (by decide) _ rfl _ _ _ _ _ d).trans ?_
      refine (read_row_miss arg3 (⟨2, by decide⟩ : Fin 26) (⟨1, by decide⟩ : Fin 26) (by decide) _ rfl _ _ _ _ _ d).trans ?_
      refine (read_row_hit arg3 (⟨1, by decide⟩ : Fin 26) _ rfl _ _ _ _ _ d).trans ?_
      exact read_src_row arg2 harg2 emb (⟨1, by decide⟩ : Fin 26) (rowOf tbl i (⟨1, by decide⟩ : Fin 26)) _ (srcoff1 i arg1 harg1 tbl hrange _) _ _ _ d
    · -- row 2: the later rows' writes miss it; its own write lands the row read from sub-table 2
      refine (read_row_miss arg3 (⟨25, by decide⟩ : Fin 26) (⟨2, by decide⟩ : Fin 26) (by decide) _ rfl _ _ _ _ _ d).trans ?_
      refine (read_row_miss arg3 (⟨24, by decide⟩ : Fin 26) (⟨2, by decide⟩ : Fin 26) (by decide) _ rfl _ _ _ _ _ d).trans ?_
      refine (read_row_miss arg3 (⟨23, by decide⟩ : Fin 26) (⟨2, by decide⟩ : Fin 26) (by decide) _ rfl _ _ _ _ _ d).trans ?_
      refine (read_row_miss arg3 (⟨22, by decide⟩ : Fin 26) (⟨2, by decide⟩ : Fin 26) (by decide) _ rfl _ _ _ _ _ d).trans ?_
      refine (read_row_miss arg3 (⟨21, by decide⟩ : Fin 26) (⟨2, by decide⟩ : Fin 26) (by decide) _ rfl _ _ _ _ _ d).trans ?_
      refine (read_row_miss arg3 (⟨20, by decide⟩ : Fin 26) (⟨2, by decide⟩ : Fin 26) (by decide) _ rfl _ _ _ _ _ d).trans ?_
      refine (read_row_miss arg3 (⟨19, by decide⟩ : Fin 26) (⟨2, by decide⟩ : Fin 26) (by decide) _ rfl _ _ _ _ _ d).trans ?_
      refine (read_row_miss arg3 (⟨18, by decide⟩ : Fin 26) (⟨2, by decide⟩ : Fin 26) (by decide) _ rfl _ _ _ _ _ d).trans ?_
      refine (read_row_miss arg3 (⟨17, by decide⟩ : Fin 26) (⟨2, by decide⟩ : Fin 26) (by decide) _ rfl _ _ _ _ _ d).trans ?_
      refine (read_row_miss arg3 (⟨16, by decide⟩ : Fin 26) (⟨2, by decide⟩ : Fin 26) (by decide) _ rfl _ _ _ _ _ d).trans ?_
      refine (read_row_miss arg3 (⟨15, by decide⟩ : Fin 26) (⟨2, by decide⟩ : Fin 26) (by decide) _ rfl _ _ _ _ _ d).trans ?_
      refine (read_row_miss arg3 (⟨14, by decide⟩ : Fin 26) (⟨2, by decide⟩ : Fin 26) (by decide) _ rfl _ _ _ _ _ d).trans ?_
      refine (read_row_miss arg3 (⟨13, by decide⟩ : Fin 26) (⟨2, by decide⟩ : Fin 26) (by decide) _ rfl _ _ _ _ _ d).trans ?_
      refine (read_row_miss arg3 (⟨12, by decide⟩ : Fin 26) (⟨2, by decide⟩ : Fin 26) (by decide) _ rfl _ _ _ _ _ d).trans ?_
      refine (read_row_miss arg3 (⟨11, by decide⟩ : Fin 26) (⟨2, by decide⟩ : Fin 26) (by decide) _ rfl _ _ _ _ _ d).trans ?_
      refine (read_row_miss arg3 (⟨10, by decide⟩ : Fin 26) (⟨2, by decide⟩ : Fin 26) (by decide) _ rfl _ _ _ _ _ d).trans ?_
      refine (read_row_miss arg3 (⟨9, by decide⟩ : Fin 26) (⟨2, by decide⟩ : Fin 26) (by decide) _ rfl _ _ _ _ _ d).trans ?_
      refine (read_row_miss arg3 (⟨8, by decide⟩ : Fin 26) (⟨2, by decide⟩ : Fin 26) (by decide) _ rfl _ _ _ _ _ d).trans ?_
      refine (read_row_miss arg3 (⟨7, by decide⟩ : Fin 26) (⟨2, by decide⟩ : Fin 26) (by decide) _ rfl _ _ _ _ _ d).trans ?_
      refine (read_row_miss arg3 (⟨6, by decide⟩ : Fin 26) (⟨2, by decide⟩ : Fin 26) (by decide) _ rfl _ _ _ _ _ d).trans ?_
      refine (read_row_miss arg3 (⟨5, by decide⟩ : Fin 26) (⟨2, by decide⟩ : Fin 26) (by decide) _ rfl _ _ _ _ _ d).trans ?_
      refine (read_row_miss arg3 (⟨4, by decide⟩ : Fin 26) (⟨2, by decide⟩ : Fin 26) (by decide) _ rfl _ _ _ _ _ d).trans ?_
      refine (read_row_miss arg3 (⟨3, by decide⟩ : Fin 26) (⟨2, by decide⟩ : Fin 26) (by decide) _ rfl _ _ _ _ _ d).trans ?_
      refine (read_row_hit arg3 (⟨2, by decide⟩ : Fin 26) _ rfl _ _ _ _ _ d).trans ?_
      exact read_src_row arg2 harg2 emb (⟨2, by decide⟩ : Fin 26) (rowOf tbl i (⟨2, by decide⟩ : Fin 26)) _ (srcoff2 i arg1 harg1 tbl hrange _) _ _ _ d
    · -- row 3: the later rows' writes miss it; its own write lands the row read from sub-table 3
      refine (read_row_miss arg3 (⟨25, by decide⟩ : Fin 26) (⟨3, by decide⟩ : Fin 26) (by decide) _ rfl _ _ _ _ _ d).trans ?_
      refine (read_row_miss arg3 (⟨24, by decide⟩ : Fin 26) (⟨3, by decide⟩ : Fin 26) (by decide) _ rfl _ _ _ _ _ d).trans ?_
      refine (read_row_miss arg3 (⟨23, by decide⟩ : Fin 26) (⟨3, by decide⟩ : Fin 26) (by decide) _ rfl _ _ _ _ _ d).trans ?_
      refine (read_row_miss arg3 (⟨22, by decide⟩ : Fin 26) (⟨3, by decide⟩ : Fin 26) (by decide) _ rfl _ _ _ _ _ d).trans ?_
      refine (read_row_miss arg3 (⟨21, by decide⟩ : Fin 26) (⟨3, by decide⟩ : Fin 26) (by decide) _ rfl _ _ _ _ _ d).trans ?_
      refine (read_row_miss arg3 (⟨20, by decide⟩ : Fin 26) (⟨3, by decide⟩ : Fin 26) (by decide) _ rfl _ _ _ _ _ d).trans ?_
      refine (read_row_miss arg3 (⟨19, by decide⟩ : Fin 26) (⟨3, by decide⟩ : Fin 26) (by decide) _ rfl _ _ _ _ _ d).trans ?_
      refine (read_row_miss arg3 (⟨18, by decide⟩ : Fin 26) (⟨3, by decide⟩ : Fin 26) (by decide) _ rfl _ _ _ _ _ d).trans ?_
      refine (read_row_miss arg3 (⟨17, by decide⟩ : Fin 26) (⟨3, by decide⟩ : Fin 26) (by decide) _ rfl _ _ _ _ _ d).trans ?_
      refine (read_row_miss arg3 (⟨16, by decide⟩ : Fin 26) (⟨3, by decide⟩ : Fin 26) (by decide) _ rfl _ _ _ _ _ d).trans ?_
      refine (read_row_miss arg3 (⟨15, by decide⟩ : Fin 26) (⟨3, by decide⟩ : Fin 26) (by decide) _ rfl _ _ _ _ _ d).trans ?_
      refine (read_row_miss arg3 (⟨14, by decide⟩ : Fin 26) (⟨3, by decide⟩ : Fin 26) (by decide) _ rfl _ _ _ _ _ d).trans ?_
      refine (read_row_miss arg3 (⟨13, by decide⟩ : Fin 26) (⟨3, by decide⟩ : Fin 26) (by decide) _ rfl _ _ _ _ _ d).trans ?_
      refine (read_row_miss arg3 (⟨12, by decide⟩ : Fin 26) (⟨3, by decide⟩ : Fin 26) (by decide) _ rfl _ _ _ _ _ d).trans ?_
      refine (read_row_miss arg3 (⟨11, by decide⟩ : Fin 26) (⟨3, by decide⟩ : Fin 26) (by decide) _ rfl _ _ _ _ _ d).trans ?_
      refine (read_row_miss arg3 (⟨10, by decide⟩ : Fin 26) (⟨3, by decide⟩ : Fin 26) (by decide) _ rfl _ _ _ _ _ d).trans ?_
      refine (read_row_miss arg3 (⟨9, by decide⟩ : Fin 26) (⟨3, by decide⟩ : Fin 26) (by decide) _ rfl _ _ _ _ _ d).trans ?_
      refine (read_row_miss arg3 (⟨8, by decide⟩ : Fin 26) (⟨3, by decide⟩ : Fin 26) (by decide) _ rfl _ _ _ _ _ d).trans ?_
      refine (read_row_miss arg3 (⟨7, by decide⟩ : Fin 26) (⟨3, by decide⟩ : Fin 26) (by decide) _ rfl _ _ _ _ _ d).trans ?_
      refine (read_row_miss arg3 (⟨6, by decide⟩ : Fin 26) (⟨3, by decide⟩ : Fin 26) (by decide) _ rfl _ _ _ _ _ d).trans ?_
      refine (read_row_miss arg3 (⟨5, by decide⟩ : Fin 26) (⟨3, by decide⟩ : Fin 26) (by decide) _ rfl _ _ _ _ _ d).trans ?_
      refine (read_row_miss arg3 (⟨4, by decide⟩ : Fin 26) (⟨3, by decide⟩ : Fin 26) (by decide) _ rfl _ _ _ _ _ d).trans ?_
      refine (read_row_hit arg3 (⟨3, by decide⟩ : Fin 26) _ rfl _ _ _ _ _ d).trans ?_
      exact read_src_row arg2 harg2 emb (⟨3, by decide⟩ : Fin 26) (rowOf tbl i (⟨3, by decide⟩ : Fin 26)) _ (srcoff3 i arg1 harg1 tbl hrange _) _ _ _ d
    · -- row 4: the later rows' writes miss it; its own write lands the row read from sub-table 4
      refine (read_row_miss arg3 (⟨25, by decide⟩ : Fin 26) (⟨4, by decide⟩ : Fin 26) (by decide) _ rfl _ _ _ _ _ d).trans ?_
      refine (read_row_miss arg3 (⟨24, by decide⟩ : Fin 26) (⟨4, by decide⟩ : Fin 26) (by decide) _ rfl _ _ _ _ _ d).trans ?_
      refine (read_row_miss arg3 (⟨23, by decide⟩ : Fin 26) (⟨4, by decide⟩ : Fin 26) (by decide) _ rfl _ _ _ _ _ d).trans ?_
      refine (read_row_miss arg3 (⟨22, by decide⟩ : Fin 26) (⟨4, by decide⟩ : Fin 26) (by decide) _ rfl _ _ _ _ _ d).trans ?_
      refine (read_row_miss arg3 (⟨21, by decide⟩ : Fin 26) (⟨4, by decide⟩ : Fin 26) (by decide) _ rfl _ _ _ _ _ d).trans ?_
      refine (read_row_miss arg3 (⟨20, by decide⟩ : Fin 26) (⟨4, by decide⟩ : Fin 26) (by decide) _ rfl _ _ _ _ _ d).trans ?_
      refine (read_row_miss arg3 (⟨19, by decide⟩ : Fin 26) (⟨4, by decide⟩ : Fin 26) (by decide) _ rfl _ _ _ _ _ d).trans ?_
      refine (read_row_miss arg3 (⟨18, by decide⟩ : Fin 26) (⟨4, by decide⟩ : Fin 26) (by decide) _ rfl _ _ _ _ _ d).trans ?_
      refine (read_row_miss arg3 (⟨17, by decide⟩ : Fin 26) (⟨4, by decide⟩ : Fin 26) (by decide) _ rfl _ _ _ _ _ d).trans ?_
      refine (read_row_miss arg3 (⟨16, by decide⟩ : Fin 26) (⟨4, by decide⟩ : Fin 26) (by decide) _ rfl _ _ _ _ _ d).trans ?_
      refine (read_row_miss arg3 (⟨15, by decide⟩ : Fin 26) (⟨4, by decide⟩ : Fin 26) (by decide) _ rfl _ _ _ _ _ d).trans ?_
      refine (read_row_miss arg3 (⟨14, by decide⟩ : Fin 26) (⟨4, by decide⟩ : Fin 26) (by decide) _ rfl _ _ _ _ _ d).trans ?_
      refine (read_row_miss arg3 (⟨13, by decide⟩ : Fin 26) (⟨4, by decide⟩ : Fin 26) (by decide) _ rfl _ _ _ _ _ d).trans ?_
      refine (read_row_miss arg3 (⟨12, by decide⟩ : Fin 26) (⟨4, by decide⟩ : Fin 26) (by decide) _ rfl _ _ _ _ _ d).trans ?_
      refine (read_row_miss arg3 (⟨11, by decide⟩ : Fin 26) (⟨4, by decide⟩ : Fin 26) (by decide) _ rfl _ _ _ _ _ d).trans ?_
      refine (read_row_miss arg3 (⟨10, by decide⟩ : Fin 26) (⟨4, by decide⟩ : Fin 26) (by decide) _ rfl _ _ _ _ _ d).trans ?_
      refine (read_row_miss arg3 (⟨9, by decide⟩ : Fin 26) (⟨4, by decide⟩ : Fin 26) (by decide) _ rfl _ _ _ _ _ d).trans ?_
      refine (read_row_miss arg3 (⟨8, by decide⟩ : Fin 26) (⟨4, by decide⟩ : Fin 26) (by decide) _ rfl _ _ _ _ _ d).trans ?_
      refine (read_row_miss arg3 (⟨7, by decide⟩ : Fin 26) (⟨4, by decide⟩ : Fin 26) (by decide) _ rfl _ _ _ _ _ d).trans ?_
      refine (read_row_miss arg3 (⟨6, by decide⟩ : Fin 26) (⟨4, by decide⟩ : Fin 26) (by decide) _ rfl _ _ _ _ _ d).trans ?_
      refine (read_row_miss arg3 (⟨5, by decide⟩ : Fin 26) (⟨4, by decide⟩ : Fin 26) (by decide) _ rfl _ _ _ _ _ d).trans ?_
      refine (read_row_hit arg3 (⟨4, by decide⟩ : Fin 26) _ rfl _ _ _ _ _ d).trans ?_
      exact read_src_row arg2 harg2 emb (⟨4, by decide⟩ : Fin 26) (rowOf tbl i (⟨4, by decide⟩ : Fin 26)) _ (srcoff4 i arg1 harg1 tbl hrange _) _ _ _ d
    · -- row 5: the later rows' writes miss it; its own write lands the row read from sub-table 5
      refine (read_row_miss arg3 (⟨25, by decide⟩ : Fin 26) (⟨5, by decide⟩ : Fin 26) (by decide) _ rfl _ _ _ _ _ d).trans ?_
      refine (read_row_miss arg3 (⟨24, by decide⟩ : Fin 26) (⟨5, by decide⟩ : Fin 26) (by decide) _ rfl _ _ _ _ _ d).trans ?_
      refine (read_row_miss arg3 (⟨23, by decide⟩ : Fin 26) (⟨5, by decide⟩ : Fin 26) (by decide) _ rfl _ _ _ _ _ d).trans ?_
      refine (read_row_miss arg3 (⟨22, by decide⟩ : Fin 26) (⟨5, by decide⟩ : Fin 26) (by decide) _ rfl _ _ _ _ _ d).trans ?_
      refine (read_row_miss arg3 (⟨21, by decide⟩ : Fin 26) (⟨5, by decide⟩ : Fin 26) (by decide) _ rfl _ _ _ _ _ d).trans ?_
      refine (read_row_miss arg3 (⟨20, by decide⟩ : Fin 26) (⟨5, by decide⟩ : Fin 26) (by decide) _ rfl _ _ _ _ _ d).trans ?_
      refine (read_row_miss arg3 (⟨19, by decide⟩ : Fin 26) (⟨5, by decide⟩ : Fin 26) (by decide) _ rfl _ _ _ _ _ d).trans ?_
      refine (read_row_miss arg3 (⟨18, by decide⟩ : Fin 26) (⟨5, by decide⟩ : Fin 26) (by decide) _ rfl _ _ _ _ _ d).trans ?_
      refine (read_row_miss arg3 (⟨17, by decide⟩ : Fin 26) (⟨5, by decide⟩ : Fin 26) (by decide) _ rfl _ _ _ _ _ d).trans ?_
      refine (read_row_miss arg3 (⟨16, by decide⟩ : Fin 26) (⟨5, by decide⟩ : Fin 26) (by decide) _ rfl _ _ _ _ _ d).trans ?_
      refine (read_row_miss arg3 (⟨15, by decide⟩ : Fin 26) (⟨5, by decide⟩ : Fin 26) (by decide) _ rfl _ _ _ _ _ d).trans ?_
      refine (read_row_miss arg3 (⟨14, by decide⟩ : Fin 26) (⟨5, by decide⟩ : Fin 26) (by decide) _ rfl _ _ _ _ _ d).trans ?_
      refine (read_row_miss arg3 (⟨13, by decide⟩ : Fin 26) (⟨5, by decide⟩ : Fin 26) (by decide) _ rfl _ _ _ _ _ d).trans ?_
      refine (read_row_miss arg3 (⟨12, by decide⟩ : Fin 26) (⟨5, by decide⟩ : Fin 26) (by decide) _ rfl _ _ _ _ _ d).trans ?_
      refine (read_row_miss arg3 (⟨11, by decide⟩ : Fin 26) (⟨5, by decide⟩ : Fin 26) (by decide) _ rfl _ _ _ _ _ d).trans ?_
      refine (read_row_miss arg3 (⟨10, by decide⟩ : Fin 26) (⟨5, by decide⟩ : Fin 26) (by decide) _ rfl _ _ _ _ _ d).trans ?_
      refine (read_row_miss arg3 (⟨9, by decide⟩ : Fin 26) (⟨5, by decide⟩ : Fin 26) (by decide) _ rfl _ _ _ _ _ d).trans ?_
      refine (read_row_miss arg3 (⟨8, by decide⟩ : Fin 26) (⟨5, by decide⟩ : Fin 26) (by decide) _ rfl _ _ _ _ _ d).trans ?_
      refine (read_row_miss arg3 (⟨7, by decide⟩ : Fin 26) (⟨5, by decide⟩ : Fin 26) (by decide) _ rfl _ _ _ _ _ d).trans ?_
      refine (read_row_miss arg3 (⟨6, by decide⟩ : Fin 26) (⟨5, by decide⟩ : Fin 26) (by decide) _ rfl _ _ _ _ _ d).trans ?_
      refine (read_row_hit arg3 (⟨5, by decide⟩ : Fin 26) _ rfl _ _ _ _ _ d).trans ?_
      exact read_src_row arg2 harg2 emb (⟨5, by decide⟩ : Fin 26) (rowOf tbl i (⟨5, by decide⟩ : Fin 26)) _ (srcoff5 i arg1 harg1 tbl hrange _) _ _ _ d
    · -- row 6: the later rows' writes miss it; its own write lands the row read from sub-table 6
      refine (read_row_miss arg3 (⟨25, by decide⟩ : Fin 26) (⟨6, by decide⟩ : Fin 26) (by decide) _ rfl _ _ _ _ _ d).trans ?_
      refine (read_row_miss arg3 (⟨24, by decide⟩ : Fin 26) (⟨6, by decide⟩ : Fin 26) (by decide) _ rfl _ _ _ _ _ d).trans ?_
      refine (read_row_miss arg3 (⟨23, by decide⟩ : Fin 26) (⟨6, by decide⟩ : Fin 26) (by decide) _ rfl _ _ _ _ _ d).trans ?_
      refine (read_row_miss arg3 (⟨22, by decide⟩ : Fin 26) (⟨6, by decide⟩ : Fin 26) (by decide) _ rfl _ _ _ _ _ d).trans ?_
      refine (read_row_miss arg3 (⟨21, by decide⟩ : Fin 26) (⟨6, by decide⟩ : Fin 26) (by decide) _ rfl _ _ _ _ _ d).trans ?_
      refine (read_row_miss arg3 (⟨20, by decide⟩ : Fin 26) (⟨6, by decide⟩ : Fin 26) (by decide) _ rfl _ _ _ _ _ d).trans ?_
      refine (read_row_miss arg3 (⟨19, by decide⟩ : Fin 26) (⟨6, by decide⟩ : Fin 26) (by decide) _ rfl _ _ _ _ _ d).trans ?_
      refine (read_row_miss arg3 (⟨18, by decide⟩ : Fin 26) (⟨6, by decide⟩ : Fin 26) (by decide) _ rfl _ _ _ _ _ d).trans ?_
      refine (read_row_miss arg3 (⟨17, by decide⟩ : Fin 26) (⟨6, by decide⟩ : Fin 26) (by decide) _ rfl _ _ _ _ _ d).trans ?_
      refine (read_row_miss arg3 (⟨16, by decide⟩ : Fin 26) (⟨6, by decide⟩ : Fin 26) (by decide) _ rfl _ _ _ _ _ d).trans ?_
      refine (read_row_miss arg3 (⟨15, by decide⟩ : Fin 26) (⟨6, by decide⟩ : Fin 26) (by decide) _ rfl _ _ _ _ _ d).trans ?_
      refine (read_row_miss arg3 (⟨14, by decide⟩ : Fin 26) (⟨6, by decide⟩ : Fin 26) (by decide) _ rfl _ _ _ _ _ d).trans ?_
      refine (read_row_miss arg3 (⟨13, by decide⟩ : Fin 26) (⟨6, by decide⟩ : Fin 26) (by decide) _ rfl _ _ _ _ _ d).trans ?_
      refine (read_row_miss arg3 (⟨12, by decide⟩ : Fin 26) (⟨6, by decide⟩ : Fin 26) (by decide) _ rfl _ _ _ _ _ d).trans ?_
      refine (read_row_miss arg3 (⟨11, by decide⟩ : Fin 26) (⟨6, by decide⟩ : Fin 26) (by decide) _ rfl _ _ _ _ _ d).trans ?_
      refine (read_row_miss arg3 (⟨10, by decide⟩ : Fin 26) (⟨6, by decide⟩ : Fin 26) (by decide) _ rfl _ _ _ _ _ d).trans ?_
      refine (read_row_miss arg3 (⟨9, by decide⟩ : Fin 26) (⟨6, by decide⟩ : Fin 26) (by decide) _ rfl _ _ _ _ _ d).trans ?_
      refine (read_row_miss arg3 (⟨8, by decide⟩ : Fin 26) (⟨6, by decide⟩ : Fin 26) (by decide) _ rfl _ _ _ _ _ d).trans ?_
      refine (read_row_miss arg3 (⟨7, by decide⟩ : Fin 26) (⟨6, by decide⟩ : Fin 26) (by decide) _ rfl _ _ _ _ _ d).trans ?_
      refine (read_row_hit arg3 (⟨6, by decide⟩ : Fin 26) _ rfl _ _ _ _ _ d).trans ?_
      exact read_src_row arg2 harg2 emb (⟨6, by decide⟩ : Fin 26) (rowOf tbl i (⟨6, by decide⟩ : Fin 26)) _ (srcoff6 i arg1 harg1 tbl hrange _) _ _ _ d
    · -- row 7: the later rows' writes miss it; its own write lands the row read from sub-table 7
      refine (read_row_miss arg3 (⟨25, by decide⟩ : Fin 26) (⟨7, by decide⟩ : Fin 26) (by decide) _ rfl _ _ _ _ _ d).trans ?_
      refine (read_row_miss arg3 (⟨24, by decide⟩ : Fin 26) (⟨7, by decide⟩ : Fin 26) (by decide) _ rfl _ _ _ _ _ d).trans ?_
      refine (read_row_miss arg3 (⟨23, by decide⟩ : Fin 26) (⟨7, by decide⟩ : Fin 26) (by decide) _ rfl _ _ _ _ _ d).trans ?_
      refine (read_row_miss arg3 (⟨22, by decide⟩ : Fin 26) (⟨7, by decide⟩ : Fin 26) (by decide) _ rfl _ _ _ _ _ d).trans ?_
      refine (read_row_miss arg3 (⟨21, by decide⟩ : Fin 26) (⟨7, by decide⟩ : Fin 26) (by decide) _ rfl _ _ _ _ _ d).trans ?_
      refine (read_row_miss arg3 (⟨20, by decide⟩ : Fin 26) (⟨7, by decide⟩ : Fin 26) (by decide) _ rfl _ _ _ _ _ d).trans ?_
      refine (read_row_miss arg3 (⟨19, by decide⟩ : Fin 26) (⟨7, by decide⟩ : Fin 26) (by decide) _ rfl _ _ _ _ _ d).trans ?_
      refine (read_row_miss arg3 (⟨18, by decide⟩ : Fin 26) (⟨7, by decide⟩ : Fin 26) (by decide) _ rfl _ _ _ _ _ d).trans ?_
      refine (read_row_miss arg3 (⟨17, by decide⟩ : Fin 26) (⟨7, by decide⟩ : Fin 26) (by decide) _ rfl _ _ _ _ _ d).trans ?_
      refine (read_row_miss arg3 (⟨16, by decide⟩ : Fin 26) (⟨7, by decide⟩ : Fin 26) (by decide) _ rfl _ _ _ _ _ d).trans ?_
      refine (read_row_miss arg3 (⟨15, by decide⟩ : Fin 26) (⟨7, by decide⟩ : Fin 26) (by decide) _ rfl _ _ _ _ _ d).trans ?_
      refine (read_row_miss arg3 (⟨14, by decide⟩ : Fin 26) (⟨7, by decide⟩ : Fin 26) (by decide) _ rfl _ _ _ _ _ d).trans ?_
      refine (read_row_miss arg3 (⟨13, by decide⟩ : Fin 26) (⟨7, by decide⟩ : Fin 26) (by decide) _ rfl _ _ _ _ _ d).trans ?_
      refine (read_row_miss arg3 (⟨12, by decide⟩ : Fin 26) (⟨7, by decide⟩ : Fin 26) (by decide) _ rfl _ _ _ _ _ d).trans ?_
      refine (read_row_miss arg3 (⟨11, by decide⟩ : Fin 26) (⟨7, by decide⟩ : Fin 26) (by decide) _ rfl _ _ _ _ _ d).trans ?_
      refine (read_row_miss arg3 (⟨10, by decide⟩ : Fin 26) (⟨7, by decide⟩ : Fin 26) (by decide) _ rfl _ _ _ _ _ d).trans ?_
      refine (read_row_miss arg3 (⟨9, by decide⟩ : Fin 26) (⟨7, by decide⟩ : Fin 26) (by decide) _ rfl _ _ _ _ _ d).trans ?_
      refine (read_row_miss arg3 (⟨8, by decide⟩ : Fin 26) (⟨7, by decide⟩ : Fin 26) (by decide) _ rfl _ _ _ _ _ d).trans ?_
      refine (read_row_hit arg3 (⟨7, by decide⟩ : Fin 26) _ rfl _ _ _ _ _ d).trans ?_
      exact read_src_row arg2 harg2 emb (⟨7, by decide⟩ : Fin 26) (rowOf tbl i (⟨7, by decide⟩ : Fin 26)) _ (srcoff7 i arg1 harg1 tbl hrange _) _ _ _ d
    · -- row 8: the later rows' writes miss it; its own write lands the row read from sub-table 8
      refine (read_row_miss arg3 (⟨25, by decide⟩ : Fin 26) (⟨8, by decide⟩ : Fin 26) (by decide) _ rfl _ _ _ _ _ d).trans ?_
      refine (read_row_miss arg3 (⟨24, by decide⟩ : Fin 26) (⟨8, by decide⟩ : Fin 26) (by decide) _ rfl _ _ _ _ _ d).trans ?_
      refine (read_row_miss arg3 (⟨23, by decide⟩ : Fin 26) (⟨8, by decide⟩ : Fin 26) (by decide) _ rfl _ _ _ _ _ d).trans ?_
      refine (read_row_miss arg3 (⟨22, by decide⟩ : Fin 26) (⟨8, by decide⟩ : Fin 26) (by decide) _ rfl _ _ _ _ _ d).trans ?_
      refine (read_row_miss arg3 (⟨21, by decide⟩ : Fin 26) (⟨8, by decide⟩ : Fin 26) (by decide) _ rfl _ _ _ _ _ d).trans ?_
      refine (read_row_miss arg3 (⟨20, by decide⟩ : Fin 26) (⟨8, by decide⟩ : Fin 26) (by decide) _ rfl _ _ _ _ _ d).trans ?_
      refine (read_row_miss arg3 (⟨19, by decide⟩ : Fin 26) (⟨8, by decide⟩ : Fin 26) (by decide) _ rfl _ _ _ _ _ d).trans ?_
      refine (read_row_miss arg3 (⟨18, by decide⟩ : Fin 26) (⟨8, by decide⟩ : Fin 26) (by decide) _ rfl _ _ _ _ _ d).trans ?_
      refine (read_row_miss arg3 (⟨17, by decide⟩ : Fin 26) (⟨8, by decide⟩ : Fin 26) (by decide) _ rfl _ _ _ _ _ d).trans ?_
      refine (read_row_miss arg3 (⟨16, by decide⟩ : Fin 26) (⟨8, by decide⟩ : Fin 26) (by decide) _ rfl _ _ _ _ _ d).trans ?_
      refine (read_row_miss arg3 (⟨15, by decide⟩ : Fin 26) (⟨8, by decide⟩ : Fin 26) (by decide) _ rfl _ _ _ _ _ d).trans ?_
      refine (read_row_miss arg3 (⟨14, by decide⟩ : Fin 26) (⟨8, by decide⟩ : Fin 26) (by decide) _ rfl _ _ _ _ _ d).trans ?_
      refine (read_row_miss arg3 (⟨13, by decide⟩ : Fin 26) (⟨8, by decide⟩ : Fin 26) (by decide) _ rfl _ _ _ _ _ d).trans ?_
      refine (read_row_miss arg3 (⟨12, by decide⟩ : Fin 26) (⟨8, by decide⟩ : Fin 26) (by decide) _ rfl _ _ _ _ _ d).trans ?_
      refine (read_row_miss arg3 (⟨11, by decide⟩ : Fin 26) (⟨8, by decide⟩ : Fin 26) (by decide) _ rfl _ _ _ _ _ d).trans ?_
      refine (read_row_miss arg3 (⟨10, by decide⟩ : Fin 26) (⟨8, by decide⟩ : Fin 26) (by decide) _ rfl _ _ _ _ _ d).trans ?_
      refine (read_row_miss arg3 (⟨9, by decide⟩ : Fin 26) (⟨8, by decide⟩ : Fin 26) (by decide) _ rfl _ _ _ _ _ d).trans ?_
      refine (read_row_hit arg3 (⟨8, by decide⟩ : Fin 26) _ rfl _ _ _ _ _ d).trans ?_
      exact read_src_row arg2 harg2 emb (⟨8, by decide⟩ : Fin 26) (rowOf tbl i (⟨8, by decide⟩ : Fin 26)) _ (srcoff8 i arg1 harg1 tbl hrange _) _ _ _ d
    · -- row 9: the later rows' writes miss it; its own write lands the row read from sub-table 9
      refine (read_row_miss arg3 (⟨25, by decide⟩ : Fin 26) (⟨9, by decide⟩ : Fin 26) (by decide) _ rfl _ _ _ _ _ d).trans ?_
      refine (read_row_miss arg3 (⟨24, by decide⟩ : Fin 26) (⟨9, by decide⟩ : Fin 26) (by decide) _ rfl _ _ _ _ _ d).trans ?_
      refine (read_row_miss arg3 (⟨23, by decide⟩ : Fin 26) (⟨9, by decide⟩ : Fin 26) (by decide) _ rfl _ _ _ _ _ d).trans ?_
      refine (read_row_miss arg3 (⟨22, by decide⟩ : Fin 26) (⟨9, by decide⟩ : Fin 26) (by decide) _ rfl _ _ _ _ _ d).trans ?_
      refine (read_row_miss arg3 (⟨21, by decide⟩ : Fin 26) (⟨9, by decide⟩ : Fin 26) (by decide) _ rfl _ _ _ _ _ d).trans ?_
      refine (read_row_miss arg3 (⟨20, by decide⟩ : Fin 26) (⟨9, by decide⟩ : Fin 26) (by decide) _ rfl _ _ _ _ _ d).trans ?_
      refine (read_row_miss arg3 (⟨19, by decide⟩ : Fin 26) (⟨9, by decide⟩ : Fin 26) (by decide) _ rfl _ _ _ _ _ d).trans ?_
      refine (read_row_miss arg3 (⟨18, by decide⟩ : Fin 26) (⟨9, by decide⟩ : Fin 26) (by decide) _ rfl _ _ _ _ _ d).trans ?_
      refine (read_row_miss arg3 (⟨17, by decide⟩ : Fin 26) (⟨9, by decide⟩ : Fin 26) (by decide) _ rfl _ _ _ _ _ d).trans ?_
      refine (read_row_miss arg3 (⟨16, by decide⟩ : Fin 26) (⟨9, by decide⟩ : Fin 26) (by decide) _ rfl _ _ _ _ _ d).trans ?_
      refine (read_row_miss arg3 (⟨15, by decide⟩ : Fin 26) (⟨9, by decide⟩ : Fin 26) (by decide) _ rfl _ _ _ _ _ d).trans ?_
      refine (read_row_miss arg3 (⟨14, by decide⟩ : Fin 26) (⟨9, by decide⟩ : Fin 26) (by decide) _ rfl _ _ _ _ _ d).trans ?_
      refine (read_row_miss arg3 (⟨13, by decide⟩ : Fin 26) (⟨9, by decide⟩ : Fin 26) (by decide) _ rfl _ _ _ _ _ d).trans ?_
      refine (read_row_miss arg3 (⟨12, by decide⟩ : Fin 26) (⟨9, by decide⟩ : Fin 26) (by decide) _ rfl _ _ _ _ _ d).trans ?_
      refine (read_row_miss arg3 (⟨11, by decide⟩ : Fin 26) (⟨9, by decide⟩ : Fin 26) (by decide) _ rfl _ _ _ _ _ d).trans ?_
      refine (read_row_miss arg3 (⟨10, by decide⟩ : Fin 26) (⟨9, by decide⟩ : Fin 26) (by decide) _ rfl _ _ _ _ _ d).trans ?_
      refine (read_row_hit arg3 (⟨9, by decide⟩ : Fin 26) _ rfl _ _ _ _ _ d).trans ?_
      exact read_src_row arg2 harg2 emb (⟨9, by decide⟩ : Fin 26) (rowOf tbl i (⟨9, by decide⟩ : Fin 26)) _ (srcoff9 i arg1 harg1 tbl hrange _) _ _ _ d
    · -- row 10: the later rows' writes miss it; its own write lands the row read from sub-table 10
      refine (read_row_miss arg3 (⟨25, by decide⟩ : Fin 26) (⟨10, by decide⟩ : Fin 26) (by decide) _ rfl _ _ _ _ _ d).trans ?_
      refine (read_row_miss arg3 (⟨24, by decide⟩ : Fin 26) (⟨10, by decide⟩ : Fin 26) (by decide) _ rfl _ _ _ _ _ d).trans ?_
      refine (read_row_miss arg3 (⟨23, by decide⟩ : Fin 26) (⟨10, by decide⟩ : Fin 26) (by decide) _ rfl _ _ _ _ _ d).trans ?_
      refine (read_row_miss arg3 (⟨22, by decide⟩ : Fin 26) (⟨10, by decide⟩ : Fin 26) (by decide) _ rfl _ _ _ _ _ d).trans ?_
      refine (read_row_miss arg3 (⟨21, by decide⟩ : Fin 26) (⟨10, by decide⟩ : Fin 26) (by decide) _ rfl _ _ _ _ _ d).trans ?_
      refine (read_row_miss arg3 (⟨20, by decide⟩ : Fin 26) (⟨10, by decide⟩ : Fin 26) (by decide) _ rfl _ _ _ _ _ d).trans ?_
      refine (read_row_miss arg3 (⟨19, by decide⟩ : Fin 26) (⟨10, by decide⟩ : Fin 26) (by decide) _ rfl _ _ _ _ _ d).trans ?_
      refine (read_row_miss arg3 (⟨18, by decide⟩ : Fin 26) (⟨10, by decide⟩ : Fin 26) (by decide) _ rfl _ _ _ _ _ d).trans ?_
      refine (read_row_miss arg3 (⟨17, by decide⟩ : Fin 26) (⟨10, by decide⟩ : Fin 26) (by decide) _ rfl _ _ _ _ _ d).trans ?_
      refine (read_row_miss arg3 (⟨16, by decide⟩ : Fin 26) (⟨10, by decide⟩ : Fin 26) (by decide) _ rfl _ _ _ _ _ d).trans ?_
      refine (read_row_miss arg3 (⟨15, by decide⟩ : Fin 26) (⟨10, by decide⟩ : Fin 26) (by decide) _ rfl _ _ _ _ _ d).trans ?_
      refine (read_row_miss arg3 (⟨14, by decide⟩ : Fin 26) (⟨10, by decide⟩ : Fin 26) (by decide) _ rfl _ _ _ _ _ d).trans ?_
      refine (read_row_miss arg3 (⟨13, by decide⟩ : Fin 26) (⟨10, by decide⟩ : Fin 26) (by decide) _ rfl _ _ _ _ _ d).trans ?_
      refine (read_row_miss arg3 (⟨12, by decide⟩ : Fin 26) (⟨10, by decide⟩ : Fin 26) (by decide) _ rfl _ _ _ _ _ d).trans ?_
      refine (read_row_miss arg3 (⟨11, by decide⟩ : Fin 26) (⟨10, by decide⟩ : Fin 26) (by decide) _ rfl _ _ _ _ _ d).trans ?_
      refine (read_row_hit arg3 (⟨10, by decide⟩ : Fin 26) _ rfl _ _ _ _ _ d).trans ?_
      exact read_src_row arg2 harg2 emb (⟨10, by decide⟩ : Fin 26) (rowOf tbl i (⟨10, by decide⟩ : Fin 26)) _ (srcoff10 i arg1 harg1 tbl hrange _) _ _ _ d
    · -- row 11: the later rows' writes miss it; its own write lands the row read from sub-table 11
      refine (read_row_miss arg3 (⟨25, by decide⟩ : Fin 26) (⟨11, by decide⟩ : Fin 26) (by decide) _ rfl _ _ _ _ _ d).trans ?_
      refine (read_row_miss arg3 (⟨24, by decide⟩ : Fin 26) (⟨11, by decide⟩ : Fin 26) (by decide) _ rfl _ _ _ _ _ d).trans ?_
      refine (read_row_miss arg3 (⟨23, by decide⟩ : Fin 26) (⟨11, by decide⟩ : Fin 26) (by decide) _ rfl _ _ _ _ _ d).trans ?_
      refine (read_row_miss arg3 (⟨22, by decide⟩ : Fin 26) (⟨11, by decide⟩ : Fin 26) (by decide) _ rfl _ _ _ _ _ d).trans ?_
      refine (read_row_miss arg3 (⟨21, by decide⟩ : Fin 26) (⟨11, by decide⟩ : Fin 26) (by decide) _ rfl _ _ _ _ _ d).trans ?_
      refine (read_row_miss arg3 (⟨20, by decide⟩ : Fin 26) (⟨11, by decide⟩ : Fin 26) (by decide) _ rfl _ _ _ _ _ d).trans ?_
      refine (read_row_miss arg3 (⟨19, by decide⟩ : Fin 26) (⟨11, by decide⟩ : Fin 26) (by decide) _ rfl _ _ _ _ _ d).trans ?_
      refine (read_row_miss arg3 (⟨18, by decide⟩ : Fin 26) (⟨11, by decide⟩ : Fin 26) (by decide) _ rfl _ _ _ _ _ d).trans ?_
      refine (read_row_miss arg3 (⟨17, by decide⟩ : Fin 26) (⟨11, by decide⟩ : Fin 26) (by decide) _ rfl _ _ _ _ _ d).trans ?_
      refine (read_row_miss arg3 (⟨16, by decide⟩ : Fin 26) (⟨11, by decide⟩ : Fin 26) (by decide) _ rfl _ _ _ _ _ d).trans ?_
      refine (read_row_miss arg3 (⟨15, by decide⟩ : Fin 26) (⟨11, by decide⟩ : Fin 26) (by decide) _ rfl _ _ _ _ _ d).trans ?_
      refine (read_row_miss arg3 (⟨14, by decide⟩ : Fin 26) (⟨11, by decide⟩ : Fin 26) (by decide) _ rfl _ _ _ _ _ d).trans ?_
      refine (read_row_miss arg3 (⟨13, by decide⟩ : Fin 26) (⟨11, by decide⟩ : Fin 26) (by decide) _ rfl _ _ _ _ _ d).trans ?_
      refine (read_row_miss arg3 (⟨12, by decide⟩ : Fin 26) (⟨11, by decide⟩ : Fin 26) (by decide) _ rfl _ _ _ _ _ d).trans ?_
      refine (read_row_hit arg3 (⟨11, by decide⟩ : Fin 26) _ rfl _ _ _ _ _ d).trans ?_
      exact read_src_row arg2 harg2 emb (⟨11, by decide⟩ : Fin 26) (rowOf tbl i (⟨11, by decide⟩ : Fin 26)) _ (srcoff11 i arg1 harg1 tbl hrange _) _ _ _ d
    · -- row 12: the later rows' writes miss it; its own write lands the row read from sub-table 12
      refine (read_row_miss arg3 (⟨25, by decide⟩ : Fin 26) (⟨12, by decide⟩ : Fin 26) (by decide) _ rfl _ _ _ _ _ d).trans ?_
      refine (read_row_miss arg3 (⟨24, by decide⟩ : Fin 26) (⟨12, by decide⟩ : Fin 26) (by decide) _ rfl _ _ _ _ _ d).trans ?_
      refine (read_row_miss arg3 (⟨23, by decide⟩ : Fin 26) (⟨12, by decide⟩ : Fin 26) (by decide) _ rfl _ _ _ _ _ d).trans ?_
      refine (read_row_miss arg3 (⟨22, by decide⟩ : Fin 26) (⟨12, by decide⟩ : Fin 26) (by decide) _ rfl _ _ _ _ _ d).trans ?_
      refine (read_row_miss arg3 (⟨21, by decide⟩ : Fin 26) (⟨12, by decide⟩ : Fin 26) (by decide) _ rfl _ _ _ _ _ d).trans ?_
      refine (read_row_miss arg3 (⟨20, by decide⟩ : Fin 26) (⟨12, by decide⟩ : Fin 26) (by decide) _ rfl _ _ _ _ _ d).trans ?_
      refine (read_row_miss arg3 (⟨19, by decide⟩ : Fin 26) (⟨12, by decide⟩ : Fin 26) (by decide) _ rfl _ _ _ _ _ d).trans ?_
      refine (read_row_miss arg3 (⟨18, by decide⟩ : Fin 26) (⟨12, by decide⟩ : Fin 26) (by decide) _ rfl _ _ _ _ _ d).trans ?_
      refine (read_row_miss arg3 (⟨17, by decide⟩ : Fin 26) (⟨12, by decide⟩ : Fin 26) (by decide) _ rfl _ _ _ _ _ d).trans ?_
      refine (read_row_miss arg3 (⟨16, by decide⟩ : Fin 26) (⟨12, by decide⟩ : Fin 26) (by decide) _ rfl _ _ _ _ _ d).trans ?_
      refine (read_row_miss arg3 (⟨15, by decide⟩ : Fin 26) (⟨12, by decide⟩ : Fin 26) (by decide) _ rfl _ _ _ _ _ d).trans ?_
      refine (read_row_miss arg3 (⟨14, by decide⟩ : Fin 26) (⟨12, by decide⟩ : Fin 26) (by decide) _ rfl _ _ _ _ _ d).trans ?_
      refine (read_row_miss arg3 (⟨13, by decide⟩ : Fin 26) (⟨12, by decide⟩ : Fin 26) (by decide) _ rfl _ _ _ _ _ d).trans ?_
      refine (read_row_hit arg3 (⟨12, by decide⟩ : Fin 26) _ rfl _ _ _ _ _ d).trans ?_
      exact read_src_row arg2 harg2 emb (⟨12, by decide⟩ : Fin 26) (rowOf tbl i (⟨12, by decide⟩ : Fin 26)) _ (srcoff12 i arg1 harg1 tbl hrange _) _ _ _ d
    · -- row 13: the later rows' writes miss it; its own write lands the row read from sub-table 13
      refine (read_row_miss arg3 (⟨25, by decide⟩ : Fin 26) (⟨13, by decide⟩ : Fin 26) (by decide) _ rfl _ _ _ _ _ d).trans ?_
      refine (read_row_miss arg3 (⟨24, by decide⟩ : Fin 26) (⟨13, by decide⟩ : Fin 26) (by decide) _ rfl _ _ _ _ _ d).trans ?_
      refine (read_row_miss arg3 (⟨23, by decide⟩ : Fin 26) (⟨13, by decide⟩ : Fin 26) (by decide) _ rfl _ _ _ _ _ d).trans ?_
      refine (read_row_miss arg3 (⟨22, by decide⟩ : Fin 26) (⟨13, by decide⟩ : Fin 26) (by decide) _ rfl _ _ _ _ _ d).trans ?_
      refine (read_row_miss arg3 (⟨21, by decide⟩ : Fin 26) (⟨13, by decide⟩ : Fin 26) (by decide) _ rfl _ _ _ _ _ d).trans ?_
      refine (read_row_miss arg3 (⟨20, by decide⟩ : Fin 26) (⟨13, by decide⟩ : Fin 26) (by decide) _ rfl _ _ _ _ _ d).trans ?_
      refine (read_row_miss arg3 (⟨19, by decide⟩ : Fin 26) (⟨13, by decide⟩ : Fin 26) (by decide) _ rfl _ _ _ _ _ d).trans ?_
      refine (read_row_miss arg3 (⟨18, by decide⟩ : Fin 26) (⟨13, by decide⟩ : Fin 26) (by decide) _ rfl _ _ _ _ _ d).trans ?_
      refine (read_row_miss arg3 (⟨17, by decide⟩ : Fin 26) (⟨13, by decide⟩ : Fin 26) (by decide) _ rfl _ _ _ _ _ d).trans ?_
      refine (read_row_miss arg3 (⟨16, by decide⟩ : Fin 26) (⟨13, by decide⟩ : Fin 26) (by decide) _ rfl _ _ _ _ _ d).trans ?_
      refine (read_row_miss arg3 (⟨15, by decide⟩ : Fin 26) (⟨13, by decide⟩ : Fin 26) (by decide) _ rfl _ _ _ _ _ d).trans ?_
      refine (read_row_miss arg3 (⟨14, by decide⟩ : Fin 26) (⟨13, by decide⟩ : Fin 26) (by decide) _ rfl _ _ _ _ _ d).trans ?_
      refine (read_row_hit arg3 (⟨13, by decide⟩ : Fin 26) _ rfl _ _ _ _ _ d).trans ?_
      exact read_src_row arg2 harg2 emb (⟨13, by decide⟩ : Fin 26) (rowOf tbl i (⟨13, by decide⟩ : Fin 26)) _ (srcoff13 i arg1 harg1 tbl hrange _) _ _ _ d
    · -- row 14: the later rows' writes miss it; its own write lands the row read from sub-table 14
      refine (read_row_miss arg3 (⟨25, by decide⟩ : Fin 26) (⟨14, by decide⟩ : Fin 26) (by decide) _ rfl _ _ _ _ _ d).trans ?_
      refine (read_row_miss arg3 (⟨24, by decide⟩ : Fin 26) (⟨14, by decide⟩ : Fin 26) (by decide) _ rfl _ _ _ _ _ d).trans ?_
      refine (read_row_miss arg3 (⟨23, by decide⟩ : Fin 26) (⟨14, by decide⟩ : Fin 26) (by decide) _ rfl _ _ _ _ _ d).trans ?_
      refine (read_row_miss arg3 (⟨22, by decide⟩ : Fin 26) (⟨14, by decide⟩ : Fin 26) (by decide) _ rfl _ _ _ _ _ d).trans ?_
      refine (read_row_miss arg3 (⟨21, by decide⟩ : Fin 26) (⟨14, by decide⟩ : Fin 26) (by decide) _ rfl _ _ _ _ _ d).trans ?_
      refine (read_row_miss arg3 (⟨20, by decide⟩ : Fin 26) (⟨14, by decide⟩ : Fin 26) (by decide) _ rfl _ _ _ _ _ d).trans ?_
      refine (read_row_miss arg3 (⟨19, by decide⟩ : Fin 26) (⟨14, by decide⟩ : Fin 26) (by decide) _ rfl _ _ _ _ _ d).trans ?_
      refine (read_row_miss arg3 (⟨18, by decide⟩ : Fin 26) (⟨14, by decide⟩ : Fin 26) (by decide) _ rfl _ _ _ _ _ d).trans ?_
      refine (read_row_miss arg3 (⟨17, by decide⟩ : Fin 26) (⟨14, by decide⟩ : Fin 26) (by decide) _ rfl _ _ _ _ _ d).trans ?_
      refine (read_row_miss arg3 (⟨16, by decide⟩ : Fin 26) (⟨14, by decide⟩ : Fin 26) (by decide) _ rfl _ _ _ _ _ d).trans ?_
      refine (read_row_miss arg3 (⟨15, by decide⟩ : Fin 26) (⟨14, by decide⟩ : Fin 26) (by decide) _ rfl _ _ _ _ _ d).trans ?_
      refine (read_row_hit arg3 (⟨14, by decide⟩ : Fin 26) _ rfl _ _ _ _ _ d).trans ?_
      exact read_src_row arg2 harg2 emb (⟨14, by decide⟩ : Fin 26) (rowOf tbl i (⟨14, by decide⟩ : Fin 26)) _ (srcoff14 i arg1 harg1 tbl hrange _) _ _ _ d
    · -- row 15: the later rows' writes miss it; its own write lands the row read from sub-table 15
      refine (read_row_miss arg3 (⟨25, by decide⟩ : Fin 26) (⟨15, by decide⟩ : Fin 26) (by decide) _ rfl _ _ _ _ _ d).trans ?_
      refine (read_row_miss arg3 (⟨24, by decide⟩ : Fin 26) (⟨15, by decide⟩ : Fin 26) (by decide) _ rfl _ _ _ _ _ d).trans ?_
      refine (read_row_miss arg3 (⟨23, by decide⟩ : Fin 26) (⟨15, by decide⟩ : Fin 26) (by decide) _ rfl _ _ _ _ _ d).trans ?_
      refine (read_row_miss arg3 (⟨22, by decide⟩ : Fin 26) (⟨15, by decide⟩ : Fin 26) (by decide) _ rfl _ _ _ _ _ d).trans ?_
      refine (read_row_miss arg3 (⟨21, by decide⟩ : Fin 26) (⟨15, by decide⟩ : Fin 26) (by decide) _ rfl _ _ _ _ _ d).trans ?_
      refine (read_row_miss arg3 (⟨20, by decide⟩ : Fin 26) (⟨15, by decide⟩ : Fin 26) (by decide) _ rfl _ _ _ _ _ d).trans ?_
      refine (read_row_miss arg3 (⟨19, by decide⟩ : Fin 26) (⟨15, by decide⟩ : Fin 26) (by decide) _ rfl _ _ _ _ _ d).trans ?_
      refine (read_row_miss arg3 (⟨18, by decide⟩ : Fin 26) (⟨15, by decide⟩ : Fin 26) (by decide) _ rfl _ _ _ _ _ d).trans ?_
      refine (read_row_miss arg3 (⟨17, by decide⟩ : Fin 26) (⟨15, by decide⟩ : Fin 26) (by decide) _ rfl _ _ _ _ _ d).trans ?_
      refine (read_row_miss arg3 (⟨16, by decide⟩ : Fin 26) (⟨15, by decide⟩ : Fin 26) (by decide) _ rfl _ _ _ _ _ d).trans ?_
      refine (read_row_hit arg3 (⟨15, by decide⟩ : Fin 26) _ rfl _ _ _ _ _ d).trans ?_
      exact read_src_row arg2 harg2 emb (⟨15, by decide⟩ : Fin 26) (rowOf tbl i (⟨15, by decide⟩ : Fin 26)) _ (srcoff15 i arg1 harg1 tbl hrange _) _ _ _ d
    · -- row 16: the later rows' writes miss it; its own write lands the row read from sub-table 16
      refine (read_row_miss arg3 (⟨25, by decide⟩ : Fin 26) (⟨16, by decide⟩ : Fin 26) (by decide) _ rfl _ _ _ _ _ d).trans ?_
      refine (read_row_miss arg3 (⟨24, by decide⟩ : Fin 26) (⟨16, by decide⟩ : Fin 26) (by decide) _ rfl _ _ _ _ _ d).trans ?_
      refine (read_row_miss arg3 (⟨23, by decide⟩ : Fin 26) (⟨16, by decide⟩ : Fin 26) (by decide) _ rfl _ _ _ _ _ d).trans ?_
      refine (read_row_miss arg3 (⟨22, by decide⟩ : Fin 26) (⟨16, by decide⟩ : Fin 26) (by decide) _ rfl _ _ _ _ _ d).trans ?_
      refine (read_row_miss arg3 (⟨21, by decide⟩ : Fin 26) (⟨16, by decide⟩ : Fin 26) (by decide) _ rfl _ _ _ _ _ d).trans ?_
      refine (read_row_miss arg3 (⟨20, by decide⟩ : Fin 26) (⟨16, by decide⟩ : Fin 26) (by decide) _ rfl _ _ _ _ _ d).trans ?_
      refine (read_row_miss arg3 (⟨19, by decide⟩ : Fin 26) (⟨16, by decide⟩ : Fin 26) (by decide) _ rfl _ _ _ _ _ d).trans ?_
      refine (read_row_miss arg3 (⟨18, by decide⟩ : Fin 26) (⟨16, by decide⟩ : Fin 26) (by decide) _ rfl _ _ _ _ _ d).trans ?_
      refine (read_row_miss arg3 (⟨17, by decide⟩ : Fin 26) (⟨16, by decide⟩ : Fin 26) (by decide) _ rfl _ _ _ _ _ d).trans ?_
      refine (read_row_hit arg3 (⟨16, by decide⟩ : Fin 26) _ rfl _ _ _ _ _ d).trans ?_
      exact read_src_row arg2 harg2 emb (⟨16, by decide⟩ : Fin 26) (rowOf tbl i (⟨16, by decide⟩ : Fin 26)) _ (srcoff16 i arg1 harg1 tbl hrange _) _ _ _ d
    · -- row 17: the later rows' writes miss it; its own write lands the row read from sub-table 17
      refine (read_row_miss arg3 (⟨25, by decide⟩ : Fin 26) (⟨17, by decide⟩ : Fin 26) (by decide) _ rfl _ _ _ _ _ d).trans ?_
      refine (read_row_miss arg3 (⟨24, by decide⟩ : Fin 26) (⟨17, by decide⟩ : Fin 26) (by decide) _ rfl _ _ _ _ _ d).trans ?_
      refine (read_row_miss arg3 (⟨23, by decide⟩ : Fin 26) (⟨17, by decide⟩ : Fin 26) (by decide) _ rfl _ _ _ _ _ d).trans ?_
      refine (read_row_miss arg3 (⟨22, by decide⟩ : Fin 26) (⟨17, by decide⟩ : Fin 26) (by decide) _ rfl _ _ _ _ _ d).trans ?_
      refine (read_row_miss arg3 (⟨21, by decide⟩ : Fin 26) (⟨17, by decide⟩ : Fin 26) (by decide) _ rfl _ _ _ _ _ d).trans ?_
      refine (read_row_miss arg3 (⟨20, by decide⟩ : Fin 26) (⟨17, by decide⟩ : Fin 26) (by decide) _ rfl _ _ _ _ _ d).trans ?_
      refine (read_row_miss arg3 (⟨19, by decide⟩ : Fin 26) (⟨17, by decide⟩ : Fin 26) (by decide) _ rfl _ _ _ _ _ d).trans ?_
      refine (read_row_miss arg3 (⟨18, by decide⟩ : Fin 26) (⟨17, by decide⟩ : Fin 26) (by decide) _ rfl _ _ _ _ _ d).trans ?_
      refine (read_row_hit arg3 (⟨17, by decide⟩ : Fin 26) _ rfl _ _ _ _ _ d).trans ?_
      exact read_src_row arg2 harg2 emb (⟨17, by decide⟩ : Fin 26) (rowOf tbl i (⟨17, by decide⟩ : Fin 26)) _ (srcoff17 i arg1 harg1 tbl hrange _) _ _ _ d
    · -- row 18: the later rows' writes miss it; its own write lands the row read from sub-table 18
      refine (read_row_miss arg3 (⟨25, by decide⟩ : Fin 26) (⟨18, by decide⟩ : Fin 26) (by decide) _ rfl _ _ _ _ _ d).trans ?_
      refine (read_row_miss arg3 (⟨24, by decide⟩ : Fin 26) (⟨18, by decide⟩ : Fin 26) (by decide) _ rfl _ _ _ _ _ d).trans ?_
      refine (read_row_miss arg3 (⟨23, by decide⟩ : Fin 26) (⟨18, by decide⟩ : Fin 26) (by decide) _ rfl _ _ _ _ _ d).trans ?_
      refine (read_row_miss arg3 (⟨22, by decide⟩ : Fin 26) (⟨18, by decide⟩ : Fin 26) (by decide) _ rfl _ _ _ _ _ d).trans ?_
      refine (read_row_miss arg3 (⟨21, by decide⟩ : Fin 26) (⟨18, by decide⟩ : Fin 26) (by decide) _ rfl _ _ _ _ _ d).trans ?_
      refine (read_row_miss arg3 (⟨20, by decide⟩ : Fin 26) (⟨18, by decide⟩ : Fin 26) (by decide) _ rfl _ _ _ _ _ d).trans ?_
      refine (read_row_miss arg3 (⟨19, by decide⟩ : Fin 26) (⟨18, by decide⟩ : Fin 26) (by decide) _ rfl _ _ _ _ _ d).trans ?_
      refine (read_row_hit arg3 (⟨18, by decide⟩ : Fin 26) _ rfl _ _ _ _ _ d).trans ?_
      exact read_src_row arg2 harg2 emb (⟨18, by decide⟩ : Fin 26) (rowOf tbl i (⟨18, by decide⟩ : Fin 26)) _ (srcoff18 i arg1 harg1 tbl hrange _) _ _ _ d
    · -- row 19: the later rows' writes miss it; its own write lands the row read from sub-table 19
      refine (read_row_miss arg3 (⟨25, by decide⟩ : Fin 26) (⟨19, by decide⟩ : Fin 26) (by decide) _ rfl _ _ _ _ _ d).trans ?_
      refine (read_row_miss arg3 (⟨24, by decide⟩ : Fin 26) (⟨19, by decide⟩ : Fin 26) (by decide) _ rfl _ _ _ _ _ d).trans ?_
      refine (read_row_miss arg3 (⟨23, by decide⟩ : Fin 26) (⟨19, by decide⟩ : Fin 26) (by decide) _ rfl _ _ _ _ _ d).trans ?_
      refine (read_row_miss arg3 (⟨22, by decide⟩ : Fin 26) (⟨19, by decide⟩ : Fin 26) (by decide) _ rfl _ _ _ _ _ d).trans ?_
      refine (read_row_miss arg3 (⟨21, by decide⟩ : Fin 26) (⟨19, by decide⟩ : Fin 26) (by decide) _ rfl _ _ _ _ _ d).trans ?_
      refine (read_row_miss arg3 (⟨20, by decide⟩ : Fin 26) (⟨19, by decide⟩ : Fin 26) (by decide) _ rfl _ _ _ _ _ d).trans ?_
      refine (read_row_hit arg3 (⟨19, by decide⟩ : Fin 26) _ rfl _ _ _ _ _ d).trans ?_
      exact read_src_row arg2 harg2 emb (⟨19, by decide⟩ : Fin 26) (rowOf tbl i (⟨19, by decide⟩ : Fin 26)) _ (srcoff19 i arg1 harg1 tbl hrange _) _ _ _ d
    · -- row 20: the later rows' writes miss it; its own write lands the row read from sub-table 20
      refine (read_row_miss arg3 (⟨25, by decide⟩ : Fin 26) (⟨20, by decide⟩ : Fin 26) (by decide) _ rfl _ _ _ _ _ d).trans ?_
      refine (read_row_miss arg3 (⟨24, by decide⟩ : Fin 26) (⟨20, by decide⟩ : Fin 26) (by decide) _ rfl _ _ _ _ _ d).trans ?_
      refine (read_row_miss arg3 (⟨23, by decide⟩ : Fin 26) (⟨20, by decide⟩ : Fin 26) (by decide) _ rfl _ _ _ _ _ d).trans ?_
      refine (read_row_miss arg3 (⟨22, by decide⟩ : Fin 26) (⟨20, by decide⟩ : Fin 26) (by decide) _ rfl _ _ _ _ _ d).trans ?_
      refine (read_row_miss arg3 (⟨21, by decide⟩ : Fin 26) (⟨20, by decide⟩ : Fin 26) (by decide) _ rfl _ _ _ _ _ d).trans ?_
      refine (read_row_hit arg3 (⟨20, by decide⟩ : Fin 26) _ rfl _ _ _ _ _ d).trans ?_
      exact read_src_row arg2 harg2 emb (⟨20, by decide⟩ : Fin 26) (rowOf tbl i (⟨20, by decide⟩ : Fin 26)) _ (srcoff20 i arg1 harg1 tbl hrange _) _ _ _ d
    · -- row 21: the later rows' writes miss it; its own write lands the row read from sub-table 21
      refine (read_row_miss arg3 (⟨25, by decide⟩ : Fin 26) (⟨21, by decide⟩ : Fin 26) (by decide) _ rfl _ _ _ _ _ d).trans ?_
      refine (read_row_miss arg3 (⟨24, by decide⟩ : Fin 26) (⟨21, by decide⟩ : Fin 26) (by decide) _ rfl _ _ _ _ _ d).trans ?_
      refine (read_row_miss arg3 (⟨23, by decide⟩ : Fin 26) (⟨21, by decide⟩ : Fin 26) (by decide) _ rfl _ _ _ _ _ d).trans ?_
      refine (read_row_miss arg3 (⟨22, by decide⟩ : Fin 26) (⟨21, by decide⟩ : Fin 26) (by decide) _ rfl _ _ _ _ _ d).trans ?_
      refine (read_row_hit arg3 (⟨21, by decide⟩ : Fin 26) _ rfl _ _ _ _ _ d).trans ?_
      exact read_src_row arg2 harg2 emb (⟨21, by decide⟩ : Fin 26) (rowOf tbl i (⟨21, by decide⟩ : Fin 26)) _ (srcoff21 i arg1 harg1 tbl hrange _) _ _ _ d
    · -- row 22: the later rows' writes miss it; its own write lands the row read from sub-table 22
      refine (read_row_miss arg3 (⟨25, by decide⟩ : Fin 26) (⟨22, by decide⟩ : Fin 26) (by decide) _ rfl _ _ _ _ _ d).trans ?_
      refine (read_row_miss arg3 (⟨24, by decide⟩ : Fin 26) (⟨22, by decide⟩ : Fin 26) (by decide) _ rfl _ _ _ _ _ d).trans ?_
      refine (read_row_miss arg3 (⟨23, by decide⟩ : Fin 26) (⟨22, by decide⟩ : Fin 26) (by decide) _ rfl _ _ _ _ _ d).trans ?_
      refine (read_row_hit arg3 (⟨22, by decide⟩ : Fin 26) _ rfl _ _ _ _ _ d).trans ?_
      exact read_src_row arg2 harg2 emb (⟨22, by decide⟩ : Fin 26) (rowOf tbl i (⟨22, by decide⟩ : Fin 26)) _ (srcoff22 i arg1 harg1 tbl hrange _) _ _ _ d
    · -- row 23: the later rows' writes miss it; its own write lands the row read from sub-table 23
      refine (read_row_miss arg3 (⟨25, by decide⟩ : Fin 26) (⟨23, by decide⟩ : Fin 26) (by decide) _ rfl _ _ _ _ _ d).trans ?_
      refine (read_row_miss arg3 (⟨24, by decide⟩ : Fin 26) (⟨23, by decide⟩ : Fin 26) (by decide) _ rfl _ _ _ _ _ d).trans ?_
      refine (read_row_hit arg3 (⟨23, by decide⟩ : Fin 26) _ rfl _ _ _ _ _ d).trans ?_
      exact read_src_row arg2 harg2 emb (⟨23, by decide⟩ : Fin 26) (rowOf tbl i (⟨23, by decide⟩ : Fin 26)) _ (srcoff23 i arg1 harg1 tbl hrange _) _ _ _ d
    · -- row 24: the later rows' writes miss it; its own write lands the row read from sub-table 24
      refine (read_row_miss arg3 (⟨25, by decide⟩ : Fin 26) (⟨24, by decide⟩ : Fin 26) (by decide) _ rfl _ _ _ _ _ d).trans ?_
      refine (read_row_hit arg3 (⟨24, by decide⟩ : Fin 26) _ rfl _ _ _ _ _ d).trans ?_
      exact read_src_row arg2 harg2 emb (⟨24, by decide⟩ : Fin 26) (rowOf tbl i (⟨24, by decide⟩ : Fin 26)) _ (srcoff24 i arg1 harg1 tbl hrange _) _ _ _ d
    · -- row 25: the later rows' writes miss it; its own write lands the row read from sub-table 25
      refine (read_row_hit arg3 (⟨25, by decide⟩ : Fin 26) _ rfl _ _ _ _ _ d).trans ?_
      exact read_src_row arg2 harg2 emb (⟨25, by decide⟩ : Fin 26) (rowOf tbl i (⟨25, by decide⟩ : Fin 26)) _ (srcoff25 i arg1 harg1 tbl hrange _) _ _ _ d
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    iexact Hq25
  iexists _; iexact HW

end Cert.KernelIdeal.Gather1

end
-- ==== Proof.G1Body.lean ====
/-
  The gather call's body at one grid point: its triple.

  The body's run (`gatherRun`) leaves the output window's buffer in eleven pieces — rows 0 to 9 each alone, and the
  rest — each at contents that hold on it what the buffer reading `gatherBlk tbl emb i` holds. Pieces at contents
  that agree with one function on them are pieces at that function, and the eleven are the whole buffer
  (`pieces_join`: row `j` lies in the buffer less the rows before it, the rows being pairwise apart). So the body's
  triple follows (`sound_gather1`): from the table and the stacked tables at any shares, the window's buffer whole and
  the call's 26 counters at zero, the body returns all of them with the buffer holding the gathered block and the
  counters back at zero.
-/
import proofs.«407213_j20864951124667_1_alg».proof.Proof.G1Run

set_option maxRecDepth 16384

noncomputable section

namespace Cert.KernelIdeal.Gather1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts₀] [Facts]
open Facts₀ Facts

local notation "𝕄" => MT nD τ sig Unit (Elt F) ℕ (Pipeline.UD sig nD τ) ℕ

section Join

variable (c : Dev nD) (arg3 : Memref sig .tc .vmem S1x26x64 .f32) (harg3 : arg3.IsWhole) (B : Vec F S1x26x64 .f32)

set_option maxHeartbeats 1000000 in
/-- The eleven pieces the run leaves the buffer in, each at contents that agree on it with the buffer reading `B`,
    are the whole buffer reading `B`. -/
theorem pieces_join (d0 d1 d2 d3 d4 d5 d6 d7 d8 d9 dR : Buf (Elt F) (arg3.view.loc (c : Thread nD τ)))
    (h0 : ∀ idx ∈ rowSet c arg3 (⟨0, of_decide_eq_true rfl⟩ : Fin 26), d0 idx = (harg3.unread B) idx)
    (h1 : ∀ idx ∈ rowSet c arg3 (⟨1, of_decide_eq_true rfl⟩ : Fin 26), d1 idx = (harg3.unread B) idx)
    (h2 : ∀ idx ∈ rowSet c arg3 (⟨2, of_decide_eq_true rfl⟩ : Fin 26), d2 idx = (harg3.unread B) idx)
    (h3 : ∀ idx ∈ rowSet c arg3 (⟨3, of_decide_eq_true rfl⟩ : Fin 26), d3 idx = (harg3.unread B) idx)
    (h4 : ∀ idx ∈ rowSet c arg3 (⟨4, of_decide_eq_true rfl⟩ : Fin 26), d4 idx = (harg3.unread B) idx)
    (h5 : ∀ idx ∈ rowSet c arg3 (⟨5, of_decide_eq_true rfl⟩ : Fin 26), d5 idx = (harg3.unread B) idx)
    (h6 : ∀ idx ∈ rowSet c arg3 (⟨6, of_decide_eq_true rfl⟩ : Fin 26), d6 idx = (harg3.unread B) idx)
    (h7 : ∀ idx ∈ rowSet c arg3 (⟨7, of_decide_eq_true rfl⟩ : Fin 26), d7 idx = (harg3.unread B) idx)
    (h8 : ∀ idx ∈ rowSet c arg3 (⟨8, of_decide_eq_true rfl⟩ : Fin 26), d8 idx = (harg3.unread B) idx)
    (h9 : ∀ idx ∈ rowSet c arg3 (⟨9, of_decide_eq_true rfl⟩ : Fin 26), d9 idx = (harg3.unread B) idx)
    (hR : ∀ idx ∈ arg3.view.set, dR idx = (harg3.unread B) idx) :
    (iprop((arg3.view.loc (c : Thread nD τ) ↦[(rowM arg3 (⟨0, of_decide_eq_true rfl⟩ : Fin 26)).view.set]{fullShare} d0)
        ∗ (arg3.view.loc (c : Thread nD τ) ↦[(rowM arg3 (⟨1, of_decide_eq_true rfl⟩ : Fin 26)).view.set]{fullShare} d1)
        ∗ (arg3.view.loc (c : Thread nD τ) ↦[(rowM arg3 (⟨2, of_decide_eq_true rfl⟩ : Fin 26)).view.set]{fullShare} d2)
        ∗ (arg3.view.loc (c : Thread nD τ) ↦[(rowM arg3 (⟨3, of_decide_eq_true rfl⟩ : Fin 26)).view.set]{fullShare} d3)
        ∗ (arg3.view.loc (c : Thread nD τ) ↦[(rowM arg3 (⟨4, of_decide_eq_true rfl⟩ : Fin 26)).view.set]{fullShare} d4)
        ∗ (arg3.view.loc (c : Thread nD τ) ↦[(rowM arg3 (⟨5, of_decide_eq_true rfl⟩ : Fin 26)).view.set]{fullShare} d5)
        ∗ (arg3.view.loc (c : Thread nD τ) ↦[(rowM arg3 (⟨6, of_decide_eq_true rfl⟩ : Fin 26)).view.set]{fullShare} d6)
        ∗ (arg3.view.loc (c : Thread nD τ) ↦[(rowM arg3 (⟨7, of_decide_eq_true rfl⟩ : Fin 26)).view.set]{fullShare} d7)
        ∗ (arg3.view.loc (c : Thread nD τ) ↦[(rowM arg3 (⟨8, of_decide_eq_true rfl⟩ : Fin 26)).view.set]{fullShare} d8)
        ∗ (arg3.view.loc (c : Thread nD τ) ↦[(rowM arg3 (⟨9, of_decide_eq_true rfl⟩ : Fin 26)).view.set]{fullShare} d9)
        ∗ (arg3.view.loc (c : Thread nD τ) ↦[((((((((((arg3.view.set \ (rowM arg3 (⟨0, of_decide_eq_true rfl⟩ : Fin 26)).view.set) \ (rowM arg3 (⟨1, of_decide_eq_true rfl⟩ : Fin 26)).view.set) \ (rowM arg3 (⟨2, of_decide_eq_true rfl⟩ : Fin 26)).view.set) \ (rowM arg3 (⟨3, of_decide_eq_true rfl⟩ : Fin 26)).view.set) \ (rowM arg3 (⟨4, of_decide_eq_true rfl⟩ : Fin 26)).view.set) \ (rowM arg3 (⟨5, of_decide_eq_true rfl⟩ : Fin 26)).view.set) \ (rowM arg3 (⟨6, of_decide_eq_true rfl⟩ : Fin 26)).view.set) \ (rowM arg3 (⟨7, of_decide_eq_true rfl⟩ : Fin 26)).view.set) \ (rowM arg3 (⟨8, of_decide_eq_true rfl⟩ : Fin 26)).view.set) \ (rowM arg3 (⟨9, of_decide_eq_true rfl⟩ : Fin 26)).view.set)]{fullShare} dR)) : sProp 𝕄)
      ⊢ arg3.view.loc (c : Thread nD τ) ↦[arg3.view.set]{fullShare} (harg3.unread B) := by
  have e0 : (arg3.view.loc (c : Thread nD τ) ↦[(rowM arg3 (⟨0, of_decide_eq_true rfl⟩ : Fin 26)).view.set]{fullShare} d0 : sProp 𝕄)
      = arg3.view.loc (c : Thread nD τ) ↦[(rowM arg3 (⟨0, of_decide_eq_true rfl⟩ : Fin 26)).view.set]{fullShare} (harg3.unread B) := pointsTo_congr h0
  have e1 : (arg3.view.loc (c : Thread nD τ) ↦[(rowM arg3 (⟨1, of_decide_eq_true rfl⟩ : Fin 26)).view.set]{fullShare} d1 : sProp 𝕄)
      = arg3.view.loc (c : Thread nD τ) ↦[(rowM arg3 (⟨1, of_decide_eq_true rfl⟩ : Fin 26)).view.set]{fullShare} (harg3.unread B) := pointsTo_congr h1
  have e2 : (arg3.view.loc (c : Thread nD τ) ↦[(rowM arg3 (⟨2, of_decide_eq_true rfl⟩ : Fin 26)).view.set]{fullShare} d2 : sProp 𝕄)
      = arg3.view.loc (c : Thread nD τ) ↦[(rowM arg3 (⟨2, of_decide_eq_true rfl⟩ : Fin 26)).view.set]{fullShare} (harg3.unread B) := pointsTo_congr h2
  have e3 : (arg3.view.loc (c : Thread nD τ) ↦[(rowM arg3 (⟨3, of_decide_eq_true rfl⟩ : Fin 26)).view.set]{fullShare} d3 : sProp 𝕄)
      = arg3.view.loc (c : Thread nD τ) ↦[(rowM arg3 (⟨3, of_decide_eq_true rfl⟩ : Fin 26)).view.set]{fullShare} (harg3.unread B) := pointsTo_congr h3
  have e4 : (arg3.view.loc (c : Thread nD τ) ↦[(rowM arg3 (⟨4, of_decide_eq_true rfl⟩ : Fin 26)).view.set]{fullShare} d4 : sProp 𝕄)
      = arg3.view.loc (c : Thread nD τ) ↦[(rowM arg3 (⟨4, of_decide_eq_true rfl⟩ : Fin 26)).view.set]{fullShare} (harg3.unread B) := pointsTo_congr h4
  have e5 : (arg3.view.loc (c : Thread nD τ) ↦[(rowM arg3 (⟨5, of_decide_eq_true rfl⟩ : Fin 26)).view.set]{fullShare} d5 : sProp 𝕄)
      = arg3.view.loc (c : Thread nD τ) ↦[(rowM arg3 (⟨5, of_decide_eq_true rfl⟩ : Fin 26)).view.set]{fullShare} (harg3.unread B) := pointsTo_congr h5
  have e6 : (arg3.view.loc (c : Thread nD τ) ↦[(rowM arg3 (⟨6, of_decide_eq_true rfl⟩ : Fin 26)).view.set]{fullShare} d6 : sProp 𝕄)
      = arg3.view.loc (c : Thread nD τ) ↦[(rowM arg3 (⟨6, of_decide_eq_true rfl⟩ : Fin 26)).view.set]{fullShare} (harg3.unread B) := pointsTo_congr h6
  have e7 : (arg3.view.loc (c : Thread nD τ) ↦[(rowM arg3 (⟨7, of_decide_eq_true rfl⟩ : Fin 26)).view.set]{fullShare} d7 : sProp 𝕄)
      = arg3.view.loc (c : Thread nD τ) ↦[(rowM arg3 (⟨7, of_decide_eq_true rfl⟩ : Fin 26)).view.set]{fullShare} (harg3.unread B) := pointsTo_congr h7
  have e8 : (arg3.view.loc (c : Thread nD τ) ↦[(rowM arg3 (⟨8, of_decide_eq_true rfl⟩ : Fin 26)).view.set]{fullShare} d8 : sProp 𝕄)
      = arg3.view.loc (c : Thread nD τ) ↦[(rowM arg3 (⟨8, of_decide_eq_true rfl⟩ : Fin 26)).view.set]{fullShare} (harg3.unread B) := pointsTo_congr h8
  have e9 : (arg3.view.loc (c : Thread nD τ) ↦[(rowM arg3 (⟨9, of_decide_eq_true rfl⟩ : Fin 26)).view.set]{fullShare} d9 : sProp 𝕄)
      = arg3.view.loc (c : Thread nD τ) ↦[(rowM arg3 (⟨9, of_decide_eq_true rfl⟩ : Fin 26)).view.set]{fullShare} (harg3.unread B) := pointsTo_congr h9
  have eR : (arg3.view.loc (c : Thread nD τ) ↦[((((((((((arg3.view.set \ (rowM arg3 (⟨0, of_decide_eq_true rfl⟩ : Fin 26)).view.set) \ (rowM arg3 (⟨1, of_decide_eq_true rfl⟩ : Fin 26)).view.set) \ (rowM arg3 (⟨2, of_decide_eq_true rfl⟩ : Fin 26)).view.set) \ (rowM arg3 (⟨3, of_decide_eq_true rfl⟩ : Fin 26)).view.set) \ (rowM arg3 (⟨4, of_decide_eq_true rfl⟩ : Fin 26)).view.set) \ (rowM arg3 (⟨5, of_decide_eq_true rfl⟩ : Fin 26)).view.set) \ (rowM arg3 (⟨6, of_decide_eq_true rfl⟩ : Fin 26)).view.set) \ (rowM arg3 (⟨7, of_decide_eq_true rfl⟩ : Fin 26)).view.set) \ (rowM arg3 (⟨8, of_decide_eq_true rfl⟩ : Fin 26)).view.set) \ (rowM arg3 (⟨9, of_decide_eq_true rfl⟩ : Fin 26)).view.set)]{fullShare} dR : sProp 𝕄)
      = arg3.view.loc (c : Thread nD τ) ↦[((((((((((arg3.view.set \ (rowM arg3 (⟨0, of_decide_eq_true rfl⟩ : Fin 26)).view.set) \ (rowM arg3 (⟨1, of_decide_eq_true rfl⟩ : Fin 26)).view.set) \ (rowM arg3 (⟨2, of_decide_eq_true rfl⟩ : Fin 26)).view.set) \ (rowM arg3 (⟨3, of_decide_eq_true rfl⟩ : Fin 26)).view.set) \ (rowM arg3 (⟨4, of_decide_eq_true rfl⟩ : Fin 26)).view.set) \ (rowM arg3 (⟨5, of_decide_eq_true rfl⟩ : Fin 26)).view.set) \ (rowM arg3 (⟨6, of_decide_eq_true rfl⟩ : Fin 26)).view.set) \ (rowM arg3 (⟨7, of_decide_eq_true rfl⟩ : Fin 26)).view.set) \ (rowM arg3 (⟨8, of_decide_eq_true rfl⟩ : Fin 26)).view.set) \ (rowM arg3 (⟨9, of_decide_eq_true rfl⟩ : Fin 26)).view.set)]{fullShare} (harg3.unread B) :=
    pointsTo_congr fun idx hi => hR idx
      ((Finset.sdiff_subset.trans (Finset.sdiff_subset.trans (Finset.sdiff_subset.trans (Finset.sdiff_subset.trans (Finset.sdiff_subset.trans (Finset.sdiff_subset.trans (Finset.sdiff_subset.trans (Finset.sdiff_subset.trans (Finset.sdiff_subset.trans (Finset.sdiff_subset)))))))))) hi)
  rw [e0, e1, e2, e3, e4, e5, e6, e7, e8, e9, eR]
  iintro ⟨P0, P1, P2, P3, P4, P5, P6, P7, P8, P9, PR⟩
  ihave PR := (pointsTo_split_subset (sub_sdiff (sub_sdiff (sub_sdiff (sub_sdiff (sub_sdiff (sub_sdiff (sub_sdiff (sub_sdiff (sub_sdiff (rowSet_subset c arg3 (⟨9, of_decide_eq_true rfl⟩ : Fin 26)) (rowSet_disjoint c arg3 (⟨9, of_decide_eq_true rfl⟩ : Fin 26) (⟨0, of_decide_eq_true rfl⟩ : Fin 26) (by decide))) (rowSet_disjoint c arg3 (⟨9, of_decide_eq_true rfl⟩ : Fin 26) (⟨1, of_decide_eq_true rfl⟩ : Fin 26) (by decide))) (rowSet_disjoint c arg3 (⟨9, of_decide_eq_true rfl⟩ : Fin 26) (⟨2, of_decide_eq_true rfl⟩ : Fin 26) (by decide))) (rowSet_disjoint c arg3 (⟨9, of_decide_eq_true rfl⟩ : Fin 26) (⟨3, of_decide_eq_true rfl⟩ : Fin 26) (by decide))) (rowSet_disjoint c arg3 (⟨9, of_decide_eq_true rfl⟩ : Fin 26) (⟨4, of_decide_eq_true rfl⟩ : Fin 26) (by decide))) (rowSet_disjoint c arg3 (⟨9, of_decide_eq_true rfl⟩ : Fin 26) (⟨5, of_decide_eq_true rfl⟩ : Fin 26) (by decide))) (rowSet_disjoint c arg3 (⟨9, of_decide_eq_true rfl⟩ : Fin 26) (⟨6, of_decide_eq_true rfl⟩ : Fin 26) (by decide))) (rowSet_disjoint c arg3 (⟨9, of_decide_eq_true rfl⟩ : Fin 26) (⟨7, of_decide_eq_true rfl⟩ : Fin 26) (by decide))) (rowSet_disjoint c arg3 (⟨9, of_decide_eq_true rfl⟩ : Fin 26) (⟨8, of_decide_eq_true rfl⟩ : Fin 26) (by decide)))).2 $$ [P9 PR]
  · isplitl [P9]; · iexact P9
    iexact PR
  ihave PR := (pointsTo_split_subset (sub_sdiff (sub_sdiff (sub_sdiff (sub_sdiff (sub_sdiff (sub_sdiff (sub_sdiff (sub_sdiff (rowSet_subset c arg3 (⟨8, of_decide_eq_true rfl⟩ : Fin 26)) (rowSet_disjoint c arg3 (⟨8, of_decide_eq_true rfl⟩ : Fin 26) (⟨0, of_decide_eq_true rfl⟩ : Fin 26) (by decide))) (rowSet_disjoint c arg3 (⟨8, of_decide_eq_true rfl⟩ : Fin 26) (⟨1, of_decide_eq_true rfl⟩ : Fin 26) (by decide))) (rowSet_disjoint c arg3 (⟨8, of_decide_eq_true rfl⟩ : Fin 26) (⟨2, of_decide_eq_true rfl⟩ : Fin 26) (by decide))) (rowSet_disjoint c arg3 (⟨8, of_decide_eq_true rfl⟩ : Fin 26) (⟨3, of_decide_eq_true rfl⟩ : Fin 26) (by decide))) (rowSet_disjoint c arg3 (⟨8, of_decide_eq_true rfl⟩ : Fin 26) (⟨4, of_decide_eq_true rfl⟩ : Fin 26) (by decide))) (rowSet_disjoint c arg3 (⟨8, of_decide_eq_true rfl⟩ : Fin 26) (⟨5, of_decide_eq_true rfl⟩ : Fin 26) (by decide))) (rowSet_disjoint c arg3 (⟨8, of_decide_eq_true rfl⟩ : Fin 26) (⟨6, of_decide_eq_true rfl⟩ : Fin 26) (by decide))) (rowSet_disjoint c arg3 (⟨8, of_decide_eq_true rfl⟩ : Fin 26) (⟨7, of_decide_eq_true rfl⟩ : Fin 26) (by decide)))).2 $$ [P8 PR]
  · isplitl [P8]; · iexact P8
    iexact PR
  ihave PR := (pointsTo_split_subset (sub_sdiff (sub_sdiff (sub_sdiff (sub_sdiff (sub_sdiff (sub_sdiff (sub_sdiff (rowSet_subset c arg3 (⟨7, of_decide_eq_true rfl⟩ : Fin 26)) (rowSet_disjoint c arg3 (⟨7, of_decide_eq_true rfl⟩ : Fin 26) (⟨0, of_decide_eq_true rfl⟩ : Fin 26) (by decide))) (rowSet_disjoint c arg3 (⟨7, of_decide_eq_true rfl⟩ : Fin 26) (⟨1, of_decide_eq_true rfl⟩ : Fin 26) (by decide))) (rowSet_disjoint c arg3 (⟨7, of_decide_eq_true rfl⟩ : Fin 26) (⟨2, of_decide_eq_true rfl⟩ : Fin 26) (by decide))) (rowSet_disjoint c arg3 (⟨7, of_decide_eq_true rfl⟩ : Fin 26) (⟨3, of_decide_eq_true rfl⟩ : Fin 26) (by decide))) (rowSet_disjoint c arg3 (⟨7, of_decide_eq_true rfl⟩ : Fin 26) (⟨4, of_decide_eq_true rfl⟩ : Fin 26) (by decide))) (rowSet_disjoint c arg3 (⟨7, of_decide_eq_true rfl⟩ : Fin 26) (⟨5, of_decide_eq_true rfl⟩ : Fin 26) (by decide))) (rowSet_disjoint c arg3 (⟨7, of_decide_eq_true rfl⟩ : Fin 26) (⟨6, of_decide_eq_true rfl⟩ : Fin 26) (by decide)))).2 $$ [P7 PR]
  · isplitl [P7]; · iexact P7
    iexact PR
  ihave PR := (pointsTo_split_subset (sub_sdiff (sub_sdiff (sub_sdiff (sub_sdiff (sub_sdiff (sub_sdiff (rowSet_subset c arg3 (⟨6, of_decide_eq_true rfl⟩ : Fin 26)) (rowSet_disjoint c arg3 (⟨6, of_decide_eq_true rfl⟩ : Fin 26) (⟨0, of_decide_eq_true rfl⟩ : Fin 26) (by decide))) (rowSet_disjoint c arg3 (⟨6, of_decide_eq_true rfl⟩ : Fin 26) (⟨1, of_decide_eq_true rfl⟩ : Fin 26) (by decide))) (rowSet_disjoint c arg3 (⟨6, of_decide_eq_true rfl⟩ : Fin 26) (⟨2, of_decide_eq_true rfl⟩ : Fin 26) (by decide))) (rowSet_disjoint c arg3 (⟨6, of_decide_eq_true rfl⟩ : Fin 26) (⟨3, of_decide_eq_true rfl⟩ : Fin 26) (by decide))) (rowSet_disjoint c arg3 (⟨6, of_decide_eq_true rfl⟩ : Fin 26) (⟨4, of_decide_eq_true rfl⟩ : Fin 26) (by decide))) (rowSet_disjoint c arg3 (⟨6, of_decide_eq_true rfl⟩ : Fin 26) (⟨5, of_decide_eq_true rfl⟩ : Fin 26) (by decide)))).2 $$ [P6 PR]
  · isplitl [P6]; · iexact P6
    iexact PR
  ihave PR := (pointsTo_split_subset (sub_sdiff (sub_sdiff (sub_sdiff (sub_sdiff (sub_sdiff (rowSet_subset c arg3 (⟨5, of_decide_eq_true rfl⟩ : Fin 26)) (rowSet_disjoint c arg3 (⟨5, of_decide_eq_true rfl⟩ : Fin 26) (⟨0, of_decide_eq_true rfl⟩ : Fin 26) (by decide))) (rowSet_disjoint c arg3 (⟨5, of_decide_eq_true rfl⟩ : Fin 26) (⟨1, of_decide_eq_true rfl⟩ : Fin 26) (by decide))) (rowSet_disjoint c arg3 (⟨5, of_decide_eq_true rfl⟩ : Fin 26) (⟨2, of_decide_eq_true rfl⟩ : Fin 26) (by decide))) (rowSet_disjoint c arg3 (⟨5, of_decide_eq_true rfl⟩ : Fin 26) (⟨3, of_decide_eq_true rfl⟩ : Fin 26) (by decide))) (rowSet_disjoint c arg3 (⟨5, of_decide_eq_true rfl⟩ : Fin 26) (⟨4, of_decide_eq_true rfl⟩ : Fin 26) (by decide)))).2 $$ [P5 PR]
  · isplitl [P5]; · iexact P5
    iexact PR
  ihave PR := (pointsTo_split_subset (sub_sdiff (sub_sdiff (sub_sdiff (sub_sdiff (rowSet_subset c arg3 (⟨4, of_decide_eq_true rfl⟩ : Fin 26)) (rowSet_disjoint c arg3 (⟨4, of_decide_eq_true rfl⟩ : Fin 26) (⟨0, of_decide_eq_true rfl⟩ : Fin 26) (by decide))) (rowSet_disjoint c arg3 (⟨4, of_decide_eq_true rfl⟩ : Fin 26) (⟨1, of_decide_eq_true rfl⟩ : Fin 26) (by decide))) (rowSet_disjoint c arg3 (⟨4, of_decide_eq_true rfl⟩ : Fin 26) (⟨2, of_decide_eq_true rfl⟩ : Fin 26) (by decide))) (rowSet_disjoint c arg3 (⟨4, of_decide_eq_true rfl⟩ : Fin 26) (⟨3, of_decide_eq_true rfl⟩ : Fin 26) (by decide)))).2 $$ [P4 PR]
  · isplitl [P4]; · iexact P4
    iexact PR
  ihave PR := (pointsTo_split_subset (sub_sdiff (sub_sdiff (sub_sdiff (rowSet_subset c arg3 (⟨3, of_decide_eq_true rfl⟩ : Fin 26)) (rowSet_disjoint c arg3 (⟨3, of_decide_eq_true rfl⟩ : Fin 26) (⟨0, of_decide_eq_true rfl⟩ : Fin 26) (by decide))) (rowSet_disjoint c arg3 (⟨3, of_decide_eq_true rfl⟩ : Fin 26) (⟨1, of_decide_eq_true rfl⟩ : Fin 26) (by decide))) (rowSet_disjoint c arg3 (⟨3, of_decide_eq_true rfl⟩ : Fin 26) (⟨2, of_decide_eq_true rfl⟩ : Fin 26) (by decide)))).2 $$ [P3 PR]
  · isplitl [P3]; · iexact P3
    iexact PR
  ihave PR := (pointsTo_split_subset (sub_sdiff (sub_sdiff (rowSet_subset c arg3 (⟨2, of_decide_eq_true rfl⟩ : Fin 26)) (rowSet_disjoint c arg3 (⟨2, of_decide_eq_true rfl⟩ : Fin 26) (⟨0, of_decide_eq_true rfl⟩ : Fin 26) (by decide))) (rowSet_disjoint c arg3 (⟨2, of_decide_eq_true rfl⟩ : Fin 26) (⟨1, of_decide_eq_true rfl⟩ : Fin 26) (by decide)))).2 $$ [P2 PR]
  · isplitl [P2]; · iexact P2
    iexact PR
  ihave PR := (pointsTo_split_subset (sub_sdiff (rowSet_subset c arg3 (⟨1, of_decide_eq_true rfl⟩ : Fin 26)) (rowSet_disjoint c arg3 (⟨1, of_decide_eq_true rfl⟩ : Fin 26) (⟨0, of_decide_eq_true rfl⟩ : Fin 26) (by decide)))).2 $$ [P1 PR]
  · isplitl [P1]; · iexact P1
    iexact PR
  ihave PR := (pointsTo_split_subset (rowSet_subset c arg3 (⟨0, of_decide_eq_true rfl⟩ : Fin 26))).2 $$ [P0 PR]
  · isplitl [P0]; · iexact P0
    iexact PR
  iexact PR

end Join

/-- A whole memref's buffer at the contents that read `X` is owned at `X`. -/
theorem owns_unread (c : Dev nD) {sp : Space} {sh : Shape} {e : EltTy} (m : Memref sig .tc sp sh e) (hm : m.IsWhole)
    (q : PosShare TreeShare) (X : sh.Idx → Elt F e) :
    (m.view.loc (c : Thread nD τ) ↦[m.view.set]{q} hm.unread X : sProp 𝕄) ⊢ owns (c : Thread nD τ) m q X := by
  unfold owns
  iintro H
  iexists _
  isplitr; · ipureintro; exact hm.read_unread X
  iexact H

/-- The gather call's body at grid point `i`, under any table `D` of bodies (it makes no call): from the table and
    the stacked tables at any shares, the output window's buffer whole, the call's cells at zero and the core's record
    of waits, it returns them with the window holding the gathered block. -/
theorem sound_gather1 (D : Defs nD τ sig (Elt F) Λ₀) (c : Dev nD) (i : grid0.Coords)
    (arg1 : Memref sig .tc .smem S4096x26 .i32) (harg1 : arg1.IsWhole)
    (arg2 : Memref sig .tc .hbm S26x131073x64 .f32) (harg2 : arg2.IsWhole)
    (arg3 : Memref sig .tc .vmem S1x26x64 .f32) (harg3 : arg3.IsWhole)
    (tbl : Vec F S4096x26 .i32) (emb : Vec F S26x131073x64 .f32) (q1 q2 : PosShare TreeShare)
    (hrange : ∀ f : Fin 26, (tbl (ValueIdx.ix2 (⟨(i 0).val, (i 0).isLt⟩ : Fin 4096) f)).toNat < 131073)
    (W : Waits sig Unit) (K : PUnit → sProp 𝕄) :
    iprop(owns (c : Thread nD τ) arg1 q1 tbl ∗ owns (c : Thread nD τ) arg2 q2 emb ∗ (∃ d, owns (c : Thread nD τ) arg3 fullShare d)
        ∗ sems0 c ∗ owes (c : Thread nD τ) 0 W
        ∗ (iprop(owns (c : Thread nD τ) arg1 q1 tbl ∗ owns (c : Thread nD τ) arg2 q2 emb
              ∗ owns (c : Thread nD τ) arg3 fullShare (gatherBlk tbl emb i) ∗ sems0 c ∗ (∃ W', owes (c : Thread nD τ) 0 W')) -∗ K ⟨⟩))
      ⊢ wp frame (wpE D Variants.none c none) Set.univ
          (cc0__gather_kernel i arg1 harg1 arg2 harg2 arg3 harg3 cc1_scratch0) K := by
  have hopen : (iprop(∃ d, owns (c : Thread nD τ) arg3 fullShare d) : sProp 𝕄)
      ⊢ iprop(∃ f3, arg3.view.loc (c : Thread nD τ) ↦[arg3.view.set]{fullShare} f3) := by
    unfold owns
    iintro ⟨%d, %f, -, H⟩
    iexists f; iexact H
  iintro ⟨H1, H2, H3, Hs, HW, Hk⟩
  ihave H3' := hopen $$ H3
  icases H3' with ⟨%f3, H3⟩
  iapply (gatherRun D c i arg1 harg1 arg2 harg2 arg3 harg3 tbl emb q1 q2 hrange f3 W K)
  isplitl [H1]; · iexact H1
  isplitl [H2]; · iexact H2
  isplitl [H3]; · iexact H3
  isplitl [Hs]; · iexact Hs
  isplitl [HW]; · iexact HW
  iintro ⟨H1, H2, ⟨%d0, %h0, P0⟩, ⟨%d1, %h1, P1⟩, ⟨%d2, %h2, P2⟩, ⟨%d3, %h3, P3⟩, ⟨%d4, %h4, P4⟩, ⟨%d5, %h5, P5⟩, ⟨%d6, %h6, P6⟩, ⟨%d7, %h7, P7⟩, ⟨%d8, %h8, P8⟩, ⟨%d9, %h9, P9⟩, ⟨%dR, %hR, PR⟩, Hs, HW⟩
  iapply Hk
  isplitl [H1]; · iexact H1
  isplitl [H2]; · iexact H2
  isplitl [P0 P1 P2 P3 P4 P5 P6 P7 P8 P9 PR]
  · iapply (owns_unread c arg3 harg3 fullShare (gatherBlk tbl emb i))
    iapply (pieces_join c arg3 harg3 (gatherBlk tbl emb i) d0 d1 d2 d3 d4 d5 d6 d7 d8 d9 dR h0 h1 h2 h3 h4 h5 h6 h7 h8 h9 hR)
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    iexact PR
  isplitl [Hs]; · iexact Hs
  iexact HW

/-- The region invariant's statement of the call's own cells at zero is the chain the body's run holds them in. -/
theorem sems0_eq (c : Dev nD) :
    (Pipeline.ownSems0 (Ix := Unit) (Name := ℕ) (U := Pipeline.UD sig nD τ) (Lvl := ℕ) (Val := Elt F) (τ := τ) osem c : sProp 𝕄)
      = sems0 c := by
  rw [Pipeline.ownSems0_eq_of_list c osem [0, 1, 2, 3, 4, 5, 6, 7, 8, 9, 10, 11, 12, 13, 14, 15, 16, 17, 18, 19, 20, 21, 22, 23, 24, 25] (by decide) (by decide)]; rfl

end Cert.KernelIdeal.Gather1

end
-- ==== Proof.Fr.Trip1.lean ====
/- The hypothesis `Triple1` of the region's modules, discharged by the gather body's triple (the gather calls run one function). -/
import proofs.«407213_j20864951124667_1_alg».proof.Proof.Fr.Obl1
import proofs.«407213_j20864951124667_1_alg».proof.Proof.Fr.TripG
import proofs.«407213_j20864951124667_1_alg».proof.Proof.G1Body

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
set_option maxRecDepth 16384

/-! # The gather body's triple, in the form region 1 consumes it -/

/-- The gather calls run one function: this call's body is the first call's. -/
theorem cc1_eq_cc0 (i : grid0.Coords) (arg1 : Memref sig .tc .smem S4096x26 .i32) (harg1 : arg1.IsWhole) (arg2 : Memref sig .tc .hbm S26x131073x64 .f32) (harg2 : arg2.IsWhole) (arg3 : Memref sig .tc .vmem S1x26x64 .f32) (harg3 : arg3.IsWhole) (arg4 : DmaSems sig S26) :
    cc1__gather_kernel (F := F) i arg1 harg1 arg2 harg2 arg3 harg3 arg4 = cc0__gather_kernel (F := F) i arg1 harg1 arg2 harg2 arg3 harg3 arg4 := rfl

/-- The generic triple at this call's table and cells, at any body table: from the body's triple, the table of row numbers and
    the stacked tables as whole memrefs at the full share, the 26 cells listed. -/
theorem tripleG1 (D : Defs nD τ sig (Elt F) Λ₀) :
    TripleG (F := F) (Memref.whole main_v12) (Memref.isWhole_whole _) cc1_scratch0 Gather1.osem D := fun c i arg3 harg3 tbl emb hr W K => by
  rw [Gather1.sems0_eq]
  exact Gather1.sound_gather1 D c i (Memref.whole main_v12) (Memref.isWhole_whole _) (Memref.whole main_arg2) (Memref.isWhole_whole _)
    arg3 harg3 tbl emb fullShare fullShare hr W K

/-- `Triple1`: this call runs the first call's body, and the generic triple at this program's body table. -/
theorem triple1 : Triple1 (F := F) := fun c i arg3 harg3 tbl emb hr W K => by
  rw [cc1_eq_cc0]
  exact tripleG1 defs₀ c i arg3 harg3 tbl emb hr W K

end Cert.KernelIdeal.Fr

end
-- ==== Proof.G2Run.lean ====
/-
  The gather call's body at one grid point: its run.

  At grid point `i` the body reads, for each of the 26 sub-tables `f`, the word `tbl[i, f]` from the table of row
  numbers (scalar memory), takes it for a row number in range (the side condition it assumes of the word: the one-row
  window at that row lies inside the stacked tables), and starts a copy of row `tbl[i, f]` of sub-table `f` into row
  `f` of the output window's buffer, each copy on a semaphore of its own; then it waits for the 26 copies in turn. No
  two copies share a semaphore, a source row or a destination row, every copy is waited for before the body ends, and
  nothing reads the window's buffer in between.

  This module proves what the assumed side conditions need — each word the body loads is the table's entry
  (`readAt_tbl`), which the range hypothesis puts in range (`chk1` … `chk26`) — and runs the body once
  (`gatherRun`): the window's buffer ends in eleven pieces — rows 0 to 9 each alone, and the rest — each at contents
  that hold on it what the buffer reading the gathered block holds: read at row `k`, the writes of the later rows
  miss it (`read_row_miss`), the write of row `k` gives the row the copy read (`read_row_hit`), and that row is
  `emb[k, tbl[i, k], ·]` (`read_src_row`). Putting the pieces together is the next module's.
-/
import proofs.«407213_j20864951124667_1_alg».proof.Proof.G2Defs
import proofs.«407213_j20864951124667_1_alg».proof.Proof.Gen.KernelIdeal.Skeleton
import Idealize.ShloMosaic.Lib.ValueIdx
import Idealize.ShloMosaic.Lib.Pipeline.FrameBody
import Idealize.ShloMosaic.Lib.Ring
import Idealize.ShloMosaic.Lib.WholeRead
import Idealize.ShloMosaic.Lib.Tactic

set_option maxRecDepth 16384

noncomputable section

namespace Cert.KernelIdeal.Gather2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts₀] [Facts]
open Facts₀ Facts

local notation "𝕄" => MT nD τ sig Unit (Elt F) ℕ (Pipeline.UD sig nD τ) ℕ

/-- The call's 26 own transfer-semaphore counters at zero: the cells of its scratch array, as cells of the pool. -/
abbrev sems0 (c : Dev nD) : sProp 𝕄 :=
  iprop(semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0)

/-- A unit load of a whole table held at the contents that read `tbl`, at offsets `(i, f)`, reads `tbl[i, f]`. -/
theorem readAt_tbl (i : grid0.Coords) (arg1 : Memref sig .tc .smem S4096x26 .i32) (harg1 : arg1.IsWhole)
    (tbl : Vec F S4096x26 .i32) (f : Fin 26) (off : Fin 2 → ℕ) (hoff : off = ![(i 0).val, f.val])
    (h : ∀ a, off a + S1x1.size a ≤ S4096x26.size a)
    (x : (Rect.unit (s := S4096x26) off S1x1.size h).toLoadRect.shape.Idx) :
    View.readAt (Elt F) arg1.view (Rect.unit (s := S4096x26) off S1x1.size h).toLoadRect (harg1.unread tbl) x
      = tbl (ValueIdx.ix2 (⟨(i 0).val, (i 0).isLt⟩ : Fin 4096) f) := by
  subst hoff
  rw [harg1.readAt_unread]
  congr 1
  funext a
  apply Fin.ext
  have hx : ∀ a, (x a).val = 0 := fun a => by
    have := (x a).isLt
    fin_cases a <;> simp_all [Rect.unit, Rect.toLoadRect, S1x1] <;> omega
  fin_cases a <;> simp [LoadRect.idx, Rect.unit, Rect.toLoadRect, ValueIdx.ix2, hx]

/-- The in-bounds condition of a one-row window of the stacked tables at sub-table `f` and a row below the count. -/
theorem chk_core (v : BitVec 32) (f : ℕ) (hf : f < 26) (hv : v.toNat < 131073) :
    ∀ a : Fin 3, (![f, v.toNat, 0] : Fin 3 → ℕ) a + S1x1x64.size a ≤ S26x131073x64.size a := by
  intro a
  fin_cases a <;> simp [S1x1x64, S26x131073x64] <;> omega

theorem off1_eq (i : grid0.Coords) : k0_off1 i = ![(i 0).val, 0] := by
  have h : (i 0).val < 4096 := (i 0).isLt
  unfold k0_off1
  simp only [Scalar.indexCast, BitVec.toNat_ofNat]
  congr 1
  omega

/-- The word the body loads for sub-table 0 satisfies the condition the body assumes of it. -/
theorem chk1 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk1 (View.readAt (Elt F) arg1.view (Rect.unit (s := S4096x26) (k0_off1 i) S1x1.size (Facts₀.k0_off1_inb i)).toLoadRect (harg1.unread tbl) x) := fun x => by
  rw [readAt_tbl i arg1 harg1 tbl (⟨0, by decide⟩ : Fin 26) _ (off1_eq i)]
  exact ⟨chk_core _ 0 (by decide) (hrange _), chk_core _ 0 (by decide) (hrange _)⟩

theorem off3_eq (i : grid0.Coords) : k0_off3 i = ![(i 0).val, 1] := by
  have h : (i 0).val < 4096 := (i 0).isLt
  unfold k0_off3
  simp only [Scalar.indexCast, BitVec.toNat_ofNat]
  congr 1
  omega

/-- The word the body loads for sub-table 1 satisfies the condition the body assumes of it. -/
theorem chk2 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk2 (View.readAt (Elt F) arg1.view (Rect.unit (s := S4096x26) (k0_off3 i) S1x1.size (Facts₀.k0_off3_inb i)).toLoadRect (harg1.unread tbl) x) := fun x => by
  rw [readAt_tbl i arg1 harg1 tbl (⟨1, by decide⟩ : Fin 26) _ (off3_eq i)]
  exact ⟨chk_core _ 1 (by decide) (hrange _), chk_core _ 1 (by decide) (hrange _)⟩

theorem off5_eq (i : grid0.Coords) : k0_off5 i = ![(i 0).val, 2] := by
  have h : (i 0).val < 4096 := (i 0).isLt
  unfold k0_off5
  simp only [Scalar.indexCast, BitVec.toNat_ofNat]
  congr 1
  omega

/-- The word the body loads for sub-table 2 satisfies the condition the body assumes of it. -/
theorem chk3 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk3 (View.readAt (Elt F) arg1.view (Rect.unit (s := S4096x26) (k0_off5 i) S1x1.size (Facts₀.k0_off5_inb i)).toLoadRect (harg1.unread tbl) x) := fun x => by
  rw [readAt_tbl i arg1 harg1 tbl (⟨2, by decide⟩ : Fin 26) _ (off5_eq i)]
  exact ⟨chk_core _ 2 (by decide) (hrange _), chk_core _ 2 (by decide) (hrange _)⟩

theorem off7_eq (i : grid0.Coords) : k0_off7 i = ![(i 0).val, 3] := by
  have h : (i 0).val < 4096 := (i 0).isLt
  unfold k0_off7
  simp only [Scalar.indexCast, BitVec.toNat_ofNat]
  congr 1
  omega

/-- The word the body loads for sub-table 3 satisfies the condition the body assumes of it. -/
theorem chk4 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk4 (View.readAt (Elt F) arg1.view (Rect.unit (s := S4096x26) (k0_off7 i) S1x1.size (Facts₀.k0_off7_inb i)).toLoadRect (harg1.unread tbl) x) := fun x => by
  rw [readAt_tbl i arg1 harg1 tbl (⟨3, by decide⟩ : Fin 26) _ (off7_eq i)]
  exact ⟨chk_core _ 3 (by decide) (hrange _), chk_core _ 3 (by decide) (hrange _)⟩

theorem off9_eq (i : grid0.Coords) : k0_off9 i = ![(i 0).val, 4] := by
  have h : (i 0).val < 4096 := (i 0).isLt
  unfold k0_off9
  simp only [Scalar.indexCast, BitVec.toNat_ofNat]
  congr 1
  omega

/-- The word the body loads for sub-table 4 satisfies the condition the body assumes of it. -/
theorem chk5 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk5 (View.readAt (Elt F) arg1.view (Rect.unit (s := S4096x26) (k0_off9 i) S1x1.size (Facts₀.k0_off9_inb i)).toLoadRect (harg1.unread tbl) x) := fun x => by
  rw [readAt_tbl i arg1 harg1 tbl (⟨4, by decide⟩ : Fin 26) _ (off9_eq i)]
  exact ⟨chk_core _ 4 (by decide) (hrange _), chk_core _ 4 (by decide) (hrange _)⟩

theorem off11_eq (i : grid0.Coords) : k0_off11 i = ![(i 0).val, 5] := by
  have h : (i 0).val < 4096 := (i 0).isLt
  unfold k0_off11
  simp only [Scalar.indexCast, BitVec.toNat_ofNat]
  congr 1
  omega

/-- The word the body loads for sub-table 5 satisfies the condition the body assumes of it. -/
theorem chk6 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk6 (View.readAt (Elt F) arg1.view (Rect.unit (s := S4096x26) (k0_off11 i) S1x1.size (Facts₀.k0_off11_inb i)).toLoadRect (harg1.unread tbl) x) := fun x => by
  rw [readAt_tbl i arg1 harg1 tbl (⟨5, by decide⟩ : Fin 26) _ (off11_eq i)]
  exact ⟨chk_core _ 5 (by decide) (hrange _), chk_core _ 5 (by decide) (hrange _)⟩

theorem off13_eq (i : grid0.Coords) : k0_off13 i = ![(i 0).val, 6] := by
  have h : (i 0).val < 4096 := (i 0).isLt
  unfold k0_off13
  simp only [Scalar.indexCast, BitVec.toNat_ofNat]
  congr 1
  omega

/-- The word the body loads for sub-table 6 satisfies the condition the body assumes of it. -/
theorem chk7 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk7 (View.readAt (Elt F) arg1.view (Rect.unit (s := S4096x26) (k0_off13 i) S1x1.size (Facts₀.k0_off13_inb i)).toLoadRect (harg1.unread tbl) x) := fun x => by
  rw [readAt_tbl i arg1 harg1 tbl (⟨6, by decide⟩ : Fin 26) _ (off13_eq i)]
  exact ⟨chk_core _ 6 (by decide) (hrange _), chk_core _ 6 (by decide) (hrange _)⟩

theorem off15_eq (i : grid0.Coords) : k0_off15 i = ![(i 0).val, 7] := by
  have h : (i 0).val < 4096 := (i 0).isLt
  unfold k0_off15
  simp only [Scalar.indexCast, BitVec.toNat_ofNat]
  congr 1
  omega

/-- The word the body loads for sub-table 7 satisfies the condition the body assumes of it. -/
theorem chk8 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk8 (View.readAt (Elt F) arg1.view (Rect.unit (s := S4096x26) (k0_off15 i) S1x1.size (Facts₀.k0_off15_inb i)).toLoadRect (harg1.unread tbl) x) := fun x => by
  rw [readAt_tbl i arg1 harg1 tbl (⟨7, by decide⟩ : Fin 26) _ (off15_eq i)]
  exact ⟨chk_core _ 7 (by decide) (hrange _), chk_core _ 7 (by decide) (hrange _)⟩

theorem off17_eq (i : grid0.Coords) : k0_off17 i = ![(i 0).val, 8] := by
  have h : (i 0).val < 4096 := (i 0).isLt
  unfold k0_off17
  simp only [Scalar.indexCast, BitVec.toNat_ofNat]
  congr 1
  omega

/-- The word the body loads for sub-table 8 satisfies the condition the body assumes of it. -/
theorem chk9 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk9 (View.readAt (Elt F) arg1.view (Rect.unit (s := S4096x26) (k0_off17 i) S1x1.size (Facts₀.k0_off17_inb i)).toLoadRect (harg1.unread tbl) x) := fun x => by
  rw [readAt_tbl i arg1 harg1 tbl (⟨8, by decide⟩ : Fin 26) _ (off17_eq i)]
  exact ⟨chk_core _ 8 (by decide) (hrange _), chk_core _ 8 (by decide) (hrange _)⟩

theorem off19_eq (i : grid0.Coords) : k0_off19 i = ![(i 0).val, 9] := by
  have h : (i 0).val < 4096 := (i 0).isLt
  unfold k0_off19
  simp only [Scalar.indexCast, BitVec.toNat_ofNat]
  congr 1
  omega

/-- The word the body loads for sub-table 9 satisfies the condition the body assumes of it. -/
theorem chk10 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk10 (View.readAt (Elt F) arg1.view (Rect.unit (s := S4096x26) (k0_off19 i) S1x1.size (Facts₀.k0_off19_inb i)).toLoadRect (harg1.unread tbl) x) := fun x => by
  rw [readAt_tbl i arg1 harg1 tbl (⟨9, by decide⟩ : Fin 26) _ (off19_eq i)]
  exact ⟨chk_core _ 9 (by decide) (hrange _), chk_core _ 9 (by decide) (hrange _)⟩

theorem off21_eq (i : grid0.Coords) : k0_off21 i = ![(i 0).val, 10] := by
  have h : (i 0).val < 4096 := (i 0).isLt
  unfold k0_off21
  simp only [Scalar.indexCast, BitVec.toNat_ofNat]
  congr 1
  omega

/-- The word the body loads for sub-table 10 satisfies the condition the body assumes of it. -/
theorem chk11 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk11 (View.readAt (Elt F) arg1.view (Rect.unit (s := S4096x26) (k0_off21 i) S1x1.size (Facts₀.k0_off21_inb i)).toLoadRect (harg1.unread tbl) x) := fun x => by
  rw [readAt_tbl i arg1 harg1 tbl (⟨10, by decide⟩ : Fin 26) _ (off21_eq i)]
  exact ⟨chk_core _ 10 (by decide) (hrange _), chk_core _ 10 (by decide) (hrange _)⟩

theorem off23_eq (i : grid0.Coords) : k0_off23 i = ![(i 0).val, 11] := by
  have h : (i 0).val < 4096 := (i 0).isLt
  unfold k0_off23
  simp only [Scalar.indexCast, BitVec.toNat_ofNat]
  congr 1
  omega

/-- The word the body loads for sub-table 11 satisfies the condition the body assumes of it. -/
theorem chk12 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk12 (View.readAt (Elt F) arg1.view (Rect.unit (s := S4096x26) (k0_off23 i) S1x1.size (Facts₀.k0_off23_inb i)).toLoadRect (harg1.unread tbl) x) := fun x => by
  rw [readAt_tbl i arg1 harg1 tbl (⟨11, by decide⟩ : Fin 26) _ (off23_eq i)]
  exact ⟨chk_core _ 11 (by decide) (hrange _), chk_core _ 11 (by decide) (hrange _)⟩

theorem off25_eq (i : grid0.Coords) : k0_off25 i = ![(i 0).val, 12] := by
  have h : (i 0).val < 4096 := (i 0).isLt
  unfold k0_off25
  simp only [Scalar.indexCast, BitVec.toNat_ofNat]
  congr 1
  omega

/-- The word the body loads for sub-table 12 satisfies the condition the body assumes of it. -/
theorem chk13 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk13 (View.readAt (Elt F) arg1.view (Rect.unit (s := S4096x26) (k0_off25 i) S1x1.size (Facts₀.k0_off25_inb i)).toLoadRect (harg1.unread tbl) x) := fun x => by
  rw [readAt_tbl i arg1 harg1 tbl (⟨12, by decide⟩ : Fin 26) _ (off25_eq i)]
  exact ⟨chk_core _ 12 (by decide) (hrange _), chk_core _ 12 (by decide) (hrange _)⟩

theorem off27_eq (i : grid0.Coords) : k0_off27 i = ![(i 0).val, 13] := by
  have h : (i 0).val < 4096 := (i 0).isLt
  unfold k0_off27
  simp only [Scalar.indexCast, BitVec.toNat_ofNat]
  congr 1
  omega

/-- The word the body loads for sub-table 13 satisfies the condition the body assumes of it. -/
theorem chk14 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk14 (View.readAt (Elt F) arg1.view (Rect.unit (s := S4096x26) (k0_off27 i) S1x1.size (Facts₀.k0_off27_inb i)).toLoadRect (harg1.unread tbl) x) := fun x => by
  rw [readAt_tbl i arg1 harg1 tbl (⟨13, by decide⟩ : Fin 26) _ (off27_eq i)]
  exact ⟨chk_core _ 13 (by decide) (hrange _), chk_core _ 13 (by decide) (hrange _)⟩

theorem off29_eq (i : grid0.Coords) : k0_off29 i = ![(i 0).val, 14] := by
  have h : (i 0).val < 4096 := (i 0).isLt
  unfold k0_off29
  simp only [Scalar.indexCast, BitVec.toNat_ofNat]
  congr 1
  omega

/-- The word the body loads for sub-table 14 satisfies the condition the body assumes of it. -/
theorem chk15 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk15 (View.readAt (Elt F) arg1.view (Rect.unit (s := S4096x26) (k0_off29 i) S1x1.size (Facts₀.k0_off29_inb i)).toLoadRect (harg1.unread tbl) x) := fun x => by
  rw [readAt_tbl i arg1 harg1 tbl (⟨14, by decide⟩ : Fin 26) _ (off29_eq i)]
  exact ⟨chk_core _ 14 (by decide) (hrange _), chk_core _ 14 (by decide) (hrange _)⟩

theorem off31_eq (i : grid0.Coords) : k0_off31 i = ![(i 0).val, 15] := by
  have h : (i 0).val < 4096 := (i 0).isLt
  unfold k0_off31
  simp only [Scalar.indexCast, BitVec.toNat_ofNat]
  congr 1
  omega

/-- The word the body loads for sub-table 15 satisfies the condition the body assumes of it. -/
theorem chk16 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk16 (View.readAt (Elt F) arg1.view (Rect.unit (s := S4096x26) (k0_off31 i) S1x1.size (Facts₀.k0_off31_inb i)).toLoadRect (harg1.unread tbl) x) := fun x => by
  rw [readAt_tbl i arg1 harg1 tbl (⟨15, by decide⟩ : Fin 26) _ (off31_eq i)]
  exact ⟨chk_core _ 15 (by decide) (hrange _), chk_core _ 15 (by decide) (hrange _)⟩

theorem off33_eq (i : grid0.Coords) : k0_off33 i = ![(i 0).val, 16] := by
  have h : (i 0).val < 4096 := (i 0).isLt
  unfold k0_off33
  simp only [Scalar.indexCast, BitVec.toNat_ofNat]
  congr 1
  omega

/-- The word the body loads for sub-table 16 satisfies the condition the body assumes of it. -/
theorem chk17 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk17 (View.readAt (Elt F) arg1.view (Rect.unit (s := S4096x26) (k0_off33 i) S1x1.size (Facts₀.k0_off33_inb i)).toLoadRect (harg1.unread tbl) x) := fun x => by
  rw [readAt_tbl i arg1 harg1 tbl (⟨16, by decide⟩ : Fin 26) _ (off33_eq i)]
  exact ⟨chk_core _ 16 (by decide) (hrange _), chk_core _ 16 (by decide) (hrange _)⟩

theorem off35_eq (i : grid0.Coords) : k0_off35 i = ![(i 0).val, 17] := by
  have h : (i 0).val < 4096 := (i 0).isLt
  unfold k0_off35
  simp only [Scalar.indexCast, BitVec.toNat_ofNat]
  congr 1
  omega

/-- The word the body loads for sub-table 17 satisfies the condition the body assumes of it. -/
theorem chk18 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk18 (View.readAt (Elt F) arg1.view (Rect.unit (s := S4096x26) (k0_off35 i) S1x1.size (Facts₀.k0_off35_inb i)).toLoadRect (harg1.unread tbl) x) := fun x => by
  rw [readAt_tbl i arg1 harg1 tbl (⟨17, by decide⟩ : Fin 26) _ (off35_eq i)]
  exact ⟨chk_core _ 17 (by decide) (hrange _), chk_core _ 17 (by decide) (hrange _)⟩

theorem off37_eq (i : grid0.Coords) : k0_off37 i = ![(i 0).val, 18] := by
  have h : (i 0).val < 4096 := (i 0).isLt
  unfold k0_off37
  simp only [Scalar.indexCast, BitVec.toNat_ofNat]
  congr 1
  omega

/-- The word the body loads for sub-table 18 satisfies the condition the body assumes of it. -/
theorem chk19 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk19 (View.readAt (Elt F) arg1.view (Rect.unit (s := S4096x26) (k0_off37 i) S1x1.size (Facts₀.k0_off37_inb i)).toLoadRect (harg1.unread tbl) x) := fun x => by
  rw [readAt_tbl i arg1 harg1 tbl (⟨18, by decide⟩ : Fin 26) _ (off37_eq i)]
  exact ⟨chk_core _ 18 (by decide) (hrange _), chk_core _ 18 (by decide) (hrange _)⟩

theorem off39_eq (i : grid0.Coords) : k0_off39 i = ![(i 0).val, 19] := by
  have h : (i 0).val < 4096 := (i 0).isLt
  unfold k0_off39
  simp only [Scalar.indexCast, BitVec.toNat_ofNat]
  congr 1
  omega

/-- The word the body loads for sub-table 19 satisfies the condition the body assumes of it. -/
theorem chk20 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk20 (View.readAt (Elt F) arg1.view (Rect.unit (s := S4096x26) (k0_off39 i) S1x1.size (Facts₀.k0_off39_inb i)).toLoadRect (harg1.unread tbl) x) := fun x => by
  rw [readAt_tbl i arg1 harg1 tbl (⟨19, by decide⟩ : Fin 26) _ (off39_eq i)]
  exact ⟨chk_core _ 19 (by decide) (hrange _), chk_core _ 19 (by decide) (hrange _)⟩

theorem off41_eq (i : grid0.Coords) : k0_off41 i = ![(i 0).val, 20] := by
  have h : (i 0).val < 4096 := (i 0).isLt
  unfold k0_off41
  simp only [Scalar.indexCast, BitVec.toNat_ofNat]
  congr 1
  omega

/-- The word the body loads for sub-table 20 satisfies the condition the body assumes of it. -/
theorem chk21 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk21 (View.readAt (Elt F) arg1.view (Rect.unit (s := S4096x26) (k0_off41 i) S1x1.size (Facts₀.k0_off41_inb i)).toLoadRect (harg1.unread tbl) x) := fun x => by
  rw [readAt_tbl i arg1 harg1 tbl (⟨20, by decide⟩ : Fin 26) _ (off41_eq i)]
  exact ⟨chk_core _ 20 (by decide) (hrange _), chk_core _ 20 (by decide) (hrange _)⟩

theorem off43_eq (i : grid0.Coords) : k0_off43 i = ![(i 0).val, 21] := by
  have h : (i 0).val < 4096 := (i 0).isLt
  unfold k0_off43
  simp only [Scalar.indexCast, BitVec.toNat_ofNat]
  congr 1
  omega

/-- The word the body loads for sub-table 21 satisfies the condition the body assumes of it. -/
theorem chk22 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk22 (View.readAt (Elt F) arg1.view (Rect.unit (s := S4096x26) (k0_off43 i) S1x1.size (Facts₀.k0_off43_inb i)).toLoadRect (harg1.unread tbl) x) := fun x => by
  rw [readAt_tbl i arg1 harg1 tbl (⟨21, by decide⟩ : Fin 26) _ (off43_eq i)]
  exact ⟨chk_core _ 21 (by decide) (hrange _), chk_core _ 21 (by decide) (hrange _)⟩

theorem off45_eq (i : grid0.Coords) : k0_off45 i = ![(i 0).val, 22] := by
  have h : (i 0).val < 4096 := (i 0).isLt
  unfold k0_off45
  simp only [Scalar.indexCast, BitVec.toNat_ofNat]
  congr 1
  omega

/-- The word the body loads for sub-table 22 satisfies the condition the body assumes of it. -/
theorem chk23 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk23 (View.readAt (Elt F) arg1.view (Rect.unit (s := S4096x26) (k0_off45 i) S1x1.size (Facts₀.k0_off45_inb i)).toLoadRect (harg1.unread tbl) x) := fun x => by
  rw [readAt_tbl i arg1 harg1 tbl (⟨22, by decide⟩ : Fin 26) _ (off45_eq i)]
  exact ⟨chk_core _ 22 (by decide) (hrange _), chk_core _ 22 (by decide) (hrange _)⟩

theorem off47_eq (i : grid0.Coords) : k0_off47 i = ![(i 0).val, 23] := by
  have h : (i 0).val < 4096 := (i 0).isLt
  unfold k0_off47
  simp only [Scalar.indexCast, BitVec.toNat_ofNat]
  congr 1
  omega

/-- The word the body loads for sub-table 23 satisfies the condition the body assumes of it. -/
theorem chk24 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk24 (View.readAt (Elt F) arg1.view (Rect.unit (s := S4096x26) (k0_off47 i) S1x1.size (Facts₀.k0_off47_inb i)).toLoadRect (harg1.unread tbl) x) := fun x => by
  rw [readAt_tbl i arg1 harg1 tbl (⟨23, by decide⟩ : Fin 26) _ (off47_eq i)]
  exact ⟨chk_core _ 23 (by decide) (hrange _), chk_core _ 23 (by decide) (hrange _)⟩

theorem off49_eq (i : grid0.Coords) : k0_off49 i = ![(i 0).val, 24] := by
  have h : (i 0).val < 4096 := (i 0).isLt
  unfold k0_off49
  simp only [Scalar.indexCast, BitVec.toNat_ofNat]
  congr 1
  omega

/-- The word the body loads for sub-table 24 satisfies the condition the body assumes of it. -/
theorem chk25 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk25 (View.readAt (Elt F) arg1.view (Rect.unit (s := S4096x26) (k0_off49 i) S1x1.size (Facts₀.k0_off49_inb i)).toLoadRect (harg1.unread tbl) x) := fun x => by
  rw [readAt_tbl i arg1 harg1 tbl (⟨24, by decide⟩ : Fin 26) _ (off49_eq i)]
  exact ⟨chk_core _ 24 (by decide) (hrange _), chk_core _ 24 (by decide) (hrange _)⟩

theorem off51_eq (i : grid0.Coords) : k0_off51 i = ![(i 0).val, 25] := by
  have h : (i 0).val < 4096 := (i 0).isLt
  unfold k0_off51
  simp only [Scalar.indexCast, BitVec.toNat_ofNat]
  congr 1
  omega

/-- The word the body loads for sub-table 25 satisfies the condition the body assumes of it. -/
theorem chk26 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk26 (View.readAt (Elt F) arg1.view (Rect.unit (s := S4096x26) (k0_off51 i) S1x1.size (Facts₀.k0_off51_inb i)).toLoadRect (harg1.unread tbl) x) := fun x => by
  rw [readAt_tbl i arg1 harg1 tbl (⟨25, by decide⟩ : Fin 26) _ (off51_eq i)]
  exact chk_core _ 25 (by decide) (hrange _)

/-- The one-row window at row `k` of the block lies inside it. -/
theorem row_inb (k : Fin 26) : ∀ a, (![0, k.val, 0] : Fin 3 → ℕ) a + S1x1x64.size a ≤ S1x26x64.size a := by
  intro a
  have := k.isLt
  fin_cases a <;> simp [S1x1x64, S1x26x64] <;> omega

/-- Row `k` of the block as the body names it: the block's window at `k`, its unit axes dropped. -/
abbrev rowM (arg3 : Memref sig .tc .vmem S1x26x64 .f32) (k : Fin 26) : Memref sig .tc .vmem S64 .f32 :=
  (arg3.slice (Rect.unit (s := S1x26x64) ![0, k.val, 0] S1x1x64.size (row_inb k)) (fun _ => rfl)).squeeze S64
    Facts₀.squeezes_S1x1x64_S64

section ViewLemmas

variable {sig' : RefSig} {Val : EltTy → Type} {κ : Kind} {sp : Space} {s : Shape} {e : EltTy}

/-- Read through a view after a whole write through one of its rectangles seen at another shape of as many
    elements: at the element the rectangle places index `x` of that shape, the payload at `x`; -/
theorem read_write_slice_reshape_emb (v : View sig' κ sp s e) (R : Rect s) {s3 : Shape} (hn : s3.numel = R.shape.numel)
    (f : v.ty.Contents Val) (w : s3.Idx → Val e) (x : s3.Idx) :
    v.read Val (((v.slice R).reshape s3 hn).write Val f w Finset.univ) (R.emb (Shape.reshapeEquiv hn x)) = w x := by
  rw [View.read_apply,
    show v.emb (R.emb (Shape.reshapeEquiv hn x)) = ((v.slice R).reshape s3 hn).emb x from rfl,
    View.write_emb_of_mem _ _ (Finset.mem_univ x), cast_cast, cast_eq]

/-- at an element the rectangle does not hold, the old contents. -/
theorem read_write_slice_reshape_of_not_mem (v : View sig' κ sp s e) (R : Rect s) {s3 : Shape} (hn : s3.numel = R.shape.numel)
    (f : v.ty.Contents Val) (w : s3.Idx → Val e) (y : s.Idx) (hy : ∀ x : s3.Idx, R.emb (Shape.reshapeEquiv hn x) ≠ y) :
    v.read Val (((v.slice R).reshape s3 hn).write Val f w Finset.univ) y = v.read Val f y := by
  rw [View.read_apply, View.read_apply, View.write_of_not_mem]
  intro hm
  obtain ⟨x, -, hx⟩ := Finset.mem_map.mp hm
  exact hy x (v.emb.injective (by exact hx))

end ViewLemmas

/-- An index of length `a` matched with shape `[1, 1, a]` sits behind two coordinates `0`. -/
theorem reshapeEquiv_ix1_11a {a : ℕ} (h : (⟨1, ![a]⟩ : Shape).numel = (⟨3, ![1, 1, a]⟩ : Shape).numel) (x : Fin a) :
    Shape.reshapeEquiv h (ValueIdx.ix1 x)
      = ValueIdx.ix3 (⟨0, Nat.one_pos⟩ : Fin 1) (⟨0, Nat.one_pos⟩ : Fin 1) x :=
  Shape.reshapeEquiv_eq_of_rowMajor h (by
    rw [Shape.rowMajor_val_three, Shape.rowMajor_val_one]
    show ((0 * 1 + 0) * a + x.val) = x.val
    simp only [Nat.zero_mul, Nat.zero_add])

/-- Where a rectangle of unit strides places an index: its offset further along each axis. -/
theorem emb_unit_val {s : Shape} (off size : Fin s.rank → ℕ) (inb : ∀ a, off a + size a ≤ s.size a)
    (z : (Rect.unit (s := s) off size inb).shape.Idx) (a : Fin s.rank) :
    ((Rect.unit (s := s) off size inb).emb z a).val = off a + (z a).val := by
  simp [Rect.unit, Rect.emb]

/-- Row `k` of the block after a whole write of a row through the squeezed one-row window at `k`: the row written. -/
theorem read_row_hit (arg3 : Memref sig .tc .vmem S1x26x64 .f32) (k : Fin 26) (off : Fin 3 → ℕ) (hoff : off = ![0, k.val, 0])
    (inb : ∀ a, off a + S1x1x64.size a ≤ S1x26x64.size a)
    (hs : ∀ a, (Rect.unit (s := S1x26x64) off S1x1x64.size inb).stride a = 1) (hq : S1x1x64.Squeezes S64)
    (g : arg3.view.ty.Contents (Elt F)) (P : S64.Idx → Elt F .f32) (j : Fin 64) :
    arg3.view.read (Elt F)
        ((((arg3.slice (Rect.unit (s := S1x26x64) off S1x1x64.size inb) hs).squeeze S64 hq).view).write (Elt F) g P Finset.univ)
        (ValueIdx.ix3 (⟨0, Nat.one_pos⟩ : Fin 1) k j)
      = P (ValueIdx.ix1 j) := by
  subst hoff
  simp only [Memref.view_squeeze, Memref.view_slice]
  have h := read_write_slice_reshape_emb (Val := Elt F) arg3.view
    (Rect.unit (s := S1x26x64) ![0, k.val, 0] S1x1x64.size inb) hq.numel_eq g P (ValueIdx.ix1 j)
  have hi : (Rect.unit (s := S1x26x64) ![0, k.val, 0] S1x1x64.size inb).emb (Shape.reshapeEquiv hq.numel_eq (ValueIdx.ix1 j))
      = ValueIdx.ix3 (⟨0, Nat.one_pos⟩ : Fin 1) k j := by
    funext a
    apply Fin.ext
    rw [emb_unit_val]
    have hz := congrFun (reshapeEquiv_ix1_11a (a := 64) hq.numel_eq j) a
    rw [hz]
    fin_cases a <;> simp [ValueIdx.ix3]
  rw [hi] at h
  exact h

/-- Any other row of the block after that write: as it was. -/
theorem read_row_miss (arg3 : Memref sig .tc .vmem S1x26x64 .f32) (k k' : Fin 26) (hk : k' ≠ k) (off : Fin 3 → ℕ) (hoff : off = ![0, k.val, 0])
    (inb : ∀ a, off a + S1x1x64.size a ≤ S1x26x64.size a)
    (hs : ∀ a, (Rect.unit (s := S1x26x64) off S1x1x64.size inb).stride a = 1) (hq : S1x1x64.Squeezes S64)
    (g : arg3.view.ty.Contents (Elt F)) (P : S64.Idx → Elt F .f32) (j : Fin 64) :
    arg3.view.read (Elt F)
        ((((arg3.slice (Rect.unit (s := S1x26x64) off S1x1x64.size inb) hs).squeeze S64 hq).view).write (Elt F) g P Finset.univ)
        (ValueIdx.ix3 (⟨0, Nat.one_pos⟩ : Fin 1) k' j)
      = arg3.view.read (Elt F) g (ValueIdx.ix3 (⟨0, Nat.one_pos⟩ : Fin 1) k' j) := by
  subst hoff
  simp only [Memref.view_squeeze, Memref.view_slice]
  refine read_write_slice_reshape_of_not_mem (Val := Elt F) arg3.view _ hq.numel_eq g P _ fun x hx => hk ?_
  have h1 := congrArg Fin.val (congrFun hx 1)
  rw [emb_unit_val] at h1
  have hz : ((Shape.reshapeEquiv hq.numel_eq x : (Rect.unit (s := S1x26x64) ![0, k.val, 0] S1x1x64.size inb).shape.Idx) 1).val < 1 :=
    (Shape.reshapeEquiv hq.numel_eq x 1).isLt
  apply Fin.ext
  simp [ValueIdx.ix3] at h1
  omega

/-- The row a transfer reads: through the squeezed one-row window at `(k, r)` of the stacked tables held at the
    contents that read `emb`, entry `j` is `emb[k, r, j]`. -/
theorem read_src_row (arg2 : Memref sig .tc .hbm S26x131073x64 .f32) (harg2 : arg2.IsWhole) (emb : Vec F S26x131073x64 .f32)
    (k : Fin 26) (r : Fin 131073) (off : Fin 3 → ℕ) (hoff : off = ![k.val, r.val, 0])
    (inb : ∀ a, off a + S1x1x64.size a ≤ S26x131073x64.size a)
    (hs : ∀ a, (Rect.unit (s := S26x131073x64) off S1x1x64.size inb).stride a = 1) (hq : S1x1x64.Squeezes S64) (j : Fin 64) :
    ((arg2.slice (Rect.unit (s := S26x131073x64) off S1x1x64.size inb) hs).squeeze S64 hq).view.read (Elt F)
        (harg2.unread emb) (ValueIdx.ix1 j)
      = emb (ValueIdx.ix3 k r j) := by
  subst hoff
  simp only [Memref.view_squeeze, Memref.view_slice]
  have hi : (Rect.unit (s := S26x131073x64) ![k.val, r.val, 0] S1x1x64.size inb).emb (Shape.reshapeEquiv hq.numel_eq (ValueIdx.ix1 j))
      = ValueIdx.ix3 k r j := by
    funext a
    apply Fin.ext
    rw [emb_unit_val]
    have hz := congrFun (reshapeEquiv_ix1_11a (a := 64) hq.numel_eq j) a
    rw [hz]
    fin_cases a <;> simp [ValueIdx.ix3]
  exact (congrFun (harg2.read_unread emb) _).trans (congrArg emb hi)

/-- The offsets of the row the transfer for sub-table 0 reads, in closed form. -/
theorem srcoff0 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off2 (View.readAt (Elt F) arg1.view (Rect.unit (s := S4096x26) (k0_off1 i) S1x1.size (Facts₀.k0_off1_inb i)).toLoadRect (harg1.unread tbl) x)
      = ![0, (rowOf tbl i (⟨0, by decide⟩ : Fin 26)).val, 0] := by
  rw [readAt_tbl i arg1 harg1 tbl (⟨0, by decide⟩ : Fin 26) _ (off1_eq i), rowOf_val tbl i _ (hrange _)]
  rfl

/-- The offsets of the row the transfer for sub-table 1 reads, in closed form. -/
theorem srcoff1 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off4 (View.readAt (Elt F) arg1.view (Rect.unit (s := S4096x26) (k0_off3 i) S1x1.size (Facts₀.k0_off3_inb i)).toLoadRect (harg1.unread tbl) x)
      = ![1, (rowOf tbl i (⟨1, by decide⟩ : Fin 26)).val, 0] := by
  rw [readAt_tbl i arg1 harg1 tbl (⟨1, by decide⟩ : Fin 26) _ (off3_eq i), rowOf_val tbl i _ (hrange _)]
  rfl

/-- The offsets of the row the transfer for sub-table 2 reads, in closed form. -/
theorem srcoff2 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off6 (View.readAt (Elt F) arg1.view (Rect.unit (s := S4096x26) (k0_off5 i) S1x1.size (Facts₀.k0_off5_inb i)).toLoadRect (harg1.unread tbl) x)
      = ![2, (rowOf tbl i (⟨2, by decide⟩ : Fin 26)).val, 0] := by
  rw [readAt_tbl i arg1 harg1 tbl (⟨2, by decide⟩ : Fin 26) _ (off5_eq i), rowOf_val tbl i _ (hrange _)]
  rfl

/-- The offsets of the row the transfer for sub-table 3 reads, in closed form. -/
theorem srcoff3 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off8 (View.readAt (Elt F) arg1.view (Rect.unit (s := S4096x26) (k0_off7 i) S1x1.size (Facts₀.k0_off7_inb i)).toLoadRect (harg1.unread tbl) x)
      = ![3, (rowOf tbl i (⟨3, by decide⟩ : Fin 26)).val, 0] := by
  rw [readAt_tbl i arg1 harg1 tbl (⟨3, by decide⟩ : Fin 26) _ (off7_eq i), rowOf_val tbl i _ (hrange _)]
  rfl

/-- The offsets of the row the transfer for sub-table 4 reads, in closed form. -/
theorem srcoff4 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off10 (View.readAt (Elt F) arg1.view (Rect.unit (s := S4096x26) (k0_off9 i) S1x1.size (Facts₀.k0_off9_inb i)).toLoadRect (harg1.unread tbl) x)
      = ![4, (rowOf tbl i (⟨4, by decide⟩ : Fin 26)).val, 0] := by
  rw [readAt_tbl i arg1 harg1 tbl (⟨4, by decide⟩ : Fin 26) _ (off9_eq i), rowOf_val tbl i _ (hrange _)]
  rfl

/-- The offsets of the row the transfer for sub-table 5 reads, in closed form. -/
theorem srcoff5 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off12 (View.readAt (Elt F) arg1.view (Rect.unit (s := S4096x26) (k0_off11 i) S1x1.size (Facts₀.k0_off11_inb i)).toLoadRect (harg1.unread tbl) x)
      = ![5, (rowOf tbl i (⟨5, by decide⟩ : Fin 26)).val, 0] := by
  rw [readAt_tbl i arg1 harg1 tbl (⟨5, by decide⟩ : Fin 26) _ (off11_eq i), rowOf_val tbl i _ (hrange _)]
  rfl

/-- The offsets of the row the transfer for sub-table 6 reads, in closed form. -/
theorem srcoff6 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off14 (View.readAt (Elt F) arg1.view (Rect.unit (s := S4096x26) (k0_off13 i) S1x1.size (Facts₀.k0_off13_inb i)).toLoadRect (harg1.unread tbl) x)
      = ![6, (rowOf tbl i (⟨6, by decide⟩ : Fin 26)).val, 0] := by
  rw [readAt_tbl i arg1 harg1 tbl (⟨6, by decide⟩ : Fin 26) _ (off13_eq i), rowOf_val tbl i _ (hrange _)]
  rfl

/-- The offsets of the row the transfer for sub-table 7 reads, in closed form. -/
theorem srcoff7 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off16 (View.readAt (Elt F) arg1.view (Rect.unit (s := S4096x26) (k0_off15 i) S1x1.size (Facts₀.k0_off15_inb i)).toLoadRect (harg1.unread tbl) x)
      = ![7, (rowOf tbl i (⟨7, by decide⟩ : Fin 26)).val, 0] := by
  rw [readAt_tbl i arg1 harg1 tbl (⟨7, by decide⟩ : Fin 26) _ (off15_eq i), rowOf_val tbl i _ (hrange _)]
  rfl

/-- The offsets of the row the transfer for sub-table 8 reads, in closed form. -/
theorem srcoff8 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off18 (View.readAt (Elt F) arg1.view (Rect.unit (s := S4096x26) (k0_off17 i) S1x1.size (Facts₀.k0_off17_inb i)).toLoadRect (harg1.unread tbl) x)
      = ![8, (rowOf tbl i (⟨8, by decide⟩ : Fin 26)).val, 0] := by
  rw [readAt_tbl i arg1 harg1 tbl (⟨8, by decide⟩ : Fin 26) _ (off17_eq i), rowOf_val tbl i _ (hrange _)]
  rfl

/-- The offsets of the row the transfer for sub-table 9 reads, in closed form. -/
theorem srcoff9 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off20 (View.readAt (Elt F) arg1.view (Rect.unit (s := S4096x26) (k0_off19 i) S1x1.size (Facts₀.k0_off19_inb i)).toLoadRect (harg1.unread tbl) x)
      = ![9, (rowOf tbl i (⟨9, by decide⟩ : Fin 26)).val, 0] := by
  rw [readAt_tbl i arg1 harg1 tbl (⟨9, by decide⟩ : Fin 26) _ (off19_eq i), rowOf_val tbl i _ (hrange _)]
  rfl

/-- The offsets of the row the transfer for sub-table 10 reads, in closed form. -/
theorem srcoff10 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off22 (View.readAt (Elt F) arg1.view (Rect.unit (s := S4096x26) (k0_off21 i) S1x1.size (Facts₀.k0_off21_inb i)).toLoadRect (harg1.unread tbl) x)
      = ![10, (rowOf tbl i (⟨10, by decide⟩ : Fin 26)).val, 0] := by
  rw [readAt_tbl i arg1 harg1 tbl (⟨10, by decide⟩ : Fin 26) _ (off21_eq i), rowOf_val tbl i _ (hrange _)]
  rfl

/-- The offsets of the row the transfer for sub-table 11 reads, in closed form. -/
theorem srcoff11 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off24 (View.readAt (Elt F) arg1.view (Rect.unit (s := S4096x26) (k0_off23 i) S1x1.size (Facts₀.k0_off23_inb i)).toLoadRect (harg1.unread tbl) x)
      = ![11, (rowOf tbl i (⟨11, by decide⟩ : Fin 26)).val, 0] := by
  rw [readAt_tbl i arg1 harg1 tbl (⟨11, by decide⟩ : Fin 26) _ (off23_eq i), rowOf_val tbl i _ (hrange _)]
  rfl

/-- The offsets of the row the transfer for sub-table 12 reads, in closed form. -/
theorem srcoff12 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off26 (View.readAt (Elt F) arg1.view (Rect.unit (s := S4096x26) (k0_off25 i) S1x1.size (Facts₀.k0_off25_inb i)).toLoadRect (harg1.unread tbl) x)
      = ![12, (rowOf tbl i (⟨12, by decide⟩ : Fin 26)).val, 0] := by
  rw [readAt_tbl i arg1 harg1 tbl (⟨12, by decide⟩ : Fin 26) _ (off25_eq i), rowOf_val tbl i _ (hrange _)]
  rfl

/-- The offsets of the row the transfer for sub-table 13 reads, in closed form. -/
theorem srcoff13 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off28 (View.readAt (Elt F) arg1.view (Rect.unit (s := S4096x26) (k0_off27 i) S1x1.size (Facts₀.k0_off27_inb i)).toLoadRect (harg1.unread tbl) x)
      = ![13, (rowOf tbl i (⟨13, by decide⟩ : Fin 26)).val, 0] := by
  rw [readAt_tbl i arg1 harg1 tbl (⟨13, by decide⟩ : Fin 26) _ (off27_eq i), rowOf_val tbl i _ (hrange _)]
  rfl

/-- The offsets of the row the transfer for sub-table 14 reads, in closed form. -/
theorem srcoff14 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off30 (View.readAt (Elt F) arg1.view (Rect.unit (s := S4096x26) (k0_off29 i) S1x1.size (Facts₀.k0_off29_inb i)).toLoadRect (harg1.unread tbl) x)
      = ![14, (rowOf tbl i (⟨14, by decide⟩ : Fin 26)).val, 0] := by
  rw [readAt_tbl i arg1 harg1 tbl (⟨14, by decide⟩ : Fin 26) _ (off29_eq i), rowOf_val tbl i _ (hrange _)]
  rfl

/-- The offsets of the row the transfer for sub-table 15 reads, in closed form. -/
theorem srcoff15 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off32 (View.readAt (Elt F) arg1.view (Rect.unit (s := S4096x26) (k0_off31 i) S1x1.size (Facts₀.k0_off31_inb i)).toLoadRect (harg1.unread tbl) x)
      = ![15, (rowOf tbl i (⟨15, by decide⟩ : Fin 26)).val, 0] := by
  rw [readAt_tbl i arg1 harg1 tbl (⟨15, by decide⟩ : Fin 26) _ (off31_eq i), rowOf_val tbl i _ (hrange _)]
  rfl

/-- The offsets of the row the transfer for sub-table 16 reads, in closed form. -/
theorem srcoff16 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off34 (View.readAt (Elt F) arg1.view (Rect.unit (s := S4096x26) (k0_off33 i) S1x1.size (Facts₀.k0_off33_inb i)).toLoadRect (harg1.unread tbl) x)
      = ![16, (rowOf tbl i (⟨16, by decide⟩ : Fin 26)).val, 0] := by
  rw [readAt_tbl i arg1 harg1 tbl (⟨16, by decide⟩ : Fin 26) _ (off33_eq i), rowOf_val tbl i _ (hrange _)]
  rfl

/-- The offsets of the row the transfer for sub-table 17 reads, in closed form. -/
theorem srcoff17 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off36 (View.readAt (Elt F) arg1.view (Rect.unit (s := S4096x26) (k0_off35 i) S1x1.size (Facts₀.k0_off35_inb i)).toLoadRect (harg1.unread tbl) x)
      = ![17, (rowOf tbl i (⟨17, by decide⟩ : Fin 26)).val, 0] := by
  rw [readAt_tbl i arg1 harg1 tbl (⟨17, by decide⟩ : Fin 26) _ (off35_eq i), rowOf_val tbl i _ (hrange _)]
  rfl

/-- The offsets of the row the transfer for sub-table 18 reads, in closed form. -/
theorem srcoff18 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off38 (View.readAt (Elt F) arg1.view (Rect.unit (s := S4096x26) (k0_off37 i) S1x1.size (Facts₀.k0_off37_inb i)).toLoadRect (harg1.unread tbl) x)
      = ![18, (rowOf tbl i (⟨18, by decide⟩ : Fin 26)).val, 0] := by
  rw [readAt_tbl i arg1 harg1 tbl (⟨18, by decide⟩ : Fin 26) _ (off37_eq i), rowOf_val tbl i _ (hrange _)]
  rfl

/-- The offsets of the row the transfer for sub-table 19 reads, in closed form. -/
theorem srcoff19 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off40 (View.readAt (Elt F) arg1.view (Rect.unit (s := S4096x26) (k0_off39 i) S1x1.size (Facts₀.k0_off39_inb i)).toLoadRect (harg1.unread tbl) x)
      = ![19, (rowOf tbl i (⟨19, by decide⟩ : Fin 26)).val, 0] := by
  rw [readAt_tbl i arg1 harg1 tbl (⟨19, by decide⟩ : Fin 26) _ (off39_eq i), rowOf_val tbl i _ (hrange _)]
  rfl

/-- The offsets of the row the transfer for sub-table 20 reads, in closed form. -/
theorem srcoff20 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off42 (View.readAt (Elt F) arg1.view (Rect.unit (s := S4096x26) (k0_off41 i) S1x1.size (Facts₀.k0_off41_inb i)).toLoadRect (harg1.unread tbl) x)
      = ![20, (rowOf tbl i (⟨20, by decide⟩ : Fin 26)).val, 0] := by
  rw [readAt_tbl i arg1 harg1 tbl (⟨20, by decide⟩ : Fin 26) _ (off41_eq i), rowOf_val tbl i _ (hrange _)]
  rfl

/-- The offsets of the row the transfer for sub-table 21 reads, in closed form. -/
theorem srcoff21 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off44 (View.readAt (Elt F) arg1.view (Rect.unit (s := S4096x26) (k0_off43 i) S1x1.size (Facts₀.k0_off43_inb i)).toLoadRect (harg1.unread tbl) x)
      = ![21, (rowOf tbl i (⟨21, by decide⟩ : Fin 26)).val, 0] := by
  rw [readAt_tbl i arg1 harg1 tbl (⟨21, by decide⟩ : Fin 26) _ (off43_eq i), rowOf_val tbl i _ (hrange _)]
  rfl

/-- The offsets of the row the transfer for sub-table 22 reads, in closed form. -/
theorem srcoff22 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off46 (View.readAt (Elt F) arg1.view (Rect.unit (s := S4096x26) (k0_off45 i) S1x1.size (Facts₀.k0_off45_inb i)).toLoadRect (harg1.unread tbl) x)
      = ![22, (rowOf tbl i (⟨22, by decide⟩ : Fin 26)).val, 0] := by
  rw [readAt_tbl i arg1 harg1 tbl (⟨22, by decide⟩ : Fin 26) _ (off45_eq i), rowOf_val tbl i _ (hrange _)]
  rfl

/-- The offsets of the row the transfer for sub-table 23 reads, in closed form. -/
theorem srcoff23 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off48 (View.readAt (Elt F) arg1.view (Rect.unit (s := S4096x26) (k0_off47 i) S1x1.size (Facts₀.k0_off47_inb i)).toLoadRect (harg1.unread tbl) x)
      = ![23, (rowOf tbl i (⟨23, by decide⟩ : Fin 26)).val, 0] := by
  rw [readAt_tbl i arg1 harg1 tbl (⟨23, by decide⟩ : Fin 26) _ (off47_eq i), rowOf_val tbl i _ (hrange _)]
  rfl

/-- The offsets of the row the transfer for sub-table 24 reads, in closed form. -/
theorem srcoff24 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off50 (View.readAt (Elt F) arg1.view (Rect.unit (s := S4096x26) (k0_off49 i) S1x1.size (Facts₀.k0_off49_inb i)).toLoadRect (harg1.unread tbl) x)
      = ![24, (rowOf tbl i (⟨24, by decide⟩ : Fin 26)).val, 0] := by
  rw [readAt_tbl i arg1 harg1 tbl (⟨24, by decide⟩ : Fin 26) _ (off49_eq i), rowOf_val tbl i _ (hrange _)]
  rfl

/-- The offsets of the row the transfer for sub-table 25 reads, in closed form. -/
theorem srcoff25 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off52 (View.readAt (Elt F) arg1.view (Rect.unit (s := S4096x26) (k0_off51 i) S1x1.size (Facts₀.k0_off51_inb i)).toLoadRect (harg1.unread tbl) x)
      = ![25, (rowOf tbl i (⟨25, by decide⟩ : Fin 26)).val, 0] := by
  rw [readAt_tbl i arg1 harg1 tbl (⟨25, by decide⟩ : Fin 26) _ (off51_eq i), rowOf_val tbl i _ (hrange _)]
  rfl

/-- Two blocks of one leading row are equal when they agree entry by entry of each of the 26 rows. -/
theorem blk_ext (A B : Vec F S1x26x64 .f32)
    (h : ∀ (k : Fin 26) (d : Fin 64), A (ValueIdx.ix3 (⟨0, Nat.one_pos⟩ : Fin 1) k d) = B (ValueIdx.ix3 (⟨0, Nat.one_pos⟩ : Fin 1) k d)) :
    A = B := by
  funext y
  have h0 : (y 0).val = 0 := Nat.lt_one_iff.mp (y 0).isLt
  have hy : y = ValueIdx.ix3 (⟨0, Nat.one_pos⟩ : Fin 1) (y 1) (y 2) := by
    funext a
    fin_cases a
    · exact Fin.ext h0
    · rfl
    · rfl
  rw [hy]
  exact h (y 1) (y 2)

section Pieces

/-- Contents that read alike at an index hold the same value at the element the view places it at. -/
theorem eq_of_read_eq {sig' : RefSig} {Val : EltTy → Type} {κ : Kind} {sp : Space} {s : Shape} {e : EltTy}
    (v : View sig' κ sp s e) (f g : v.ty.Contents Val) (x : s.Idx) (h : v.read Val f x = v.read Val g x) :
    f (v.emb x) = g (v.emb x) := by
  rw [View.read_apply, View.read_apply] at h
  exact (cast_inj _).mp h

theorem sub_sdiff {α : Type*} [DecidableEq α] {s t u : Finset α} (h1 : s ⊆ t) (h2 : Disjoint s u) : s ⊆ t \ u :=
  Finset.subset_sdiff.mpr ⟨h1, h2⟩

variable (c : Dev nD) (arg3 : Memref sig .tc .vmem S1x26x64 .f32)

/-- The elements of row `k` of the block's buffer. -/
abbrev rowSet (k : Fin 26) : Finset (Idx (arg3.view.loc (c : Thread nD τ))) := (rowM arg3 k).view.set

/-- Where the row window at `k` places entry `d`: the block's element `(0, k, d)`. -/
theorem row_place (k : Fin 26) (d : Fin 64) :
    (Rect.unit (s := S1x26x64) ![0, k.val, 0] S1x1x64.size (row_inb k)).emb
        (Shape.reshapeEquiv (Facts₀.squeezes_S1x1x64_S64).numel_eq (ValueIdx.ix1 d))
      = ValueIdx.ix3 (⟨0, Nat.one_pos⟩ : Fin 1) k d := by
  funext a
  apply Fin.ext
  rw [emb_unit_val]
  have hz := congrFun (reshapeEquiv_ix1_11a (a := 64) (Facts₀.squeezes_S1x1x64_S64).numel_eq d) a
  rw [hz]
  fin_cases a <;> simp [ValueIdx.ix3]

/-- An element of row `k` is the block's element `(0, k, d)` for some `d`. -/
theorem mem_rowSet {k : Fin 26} {idx : Idx (arg3.view.loc (c : Thread nD τ))} (h : idx ∈ rowSet c arg3 k) :
    ∃ d : Fin 64, idx = arg3.view.emb (ValueIdx.ix3 (⟨0, Nat.one_pos⟩ : Fin 1) k d) := by
  obtain ⟨x, -, rfl⟩ := Finset.mem_map.mp h
  obtain ⟨d, rfl⟩ : ∃ d : Fin 64, x = ValueIdx.ix1 d := ⟨x 0, ValueIdx.eq_ix1 x⟩
  exact ⟨d, congrArg arg3.view.emb (row_place k d)⟩

theorem rowSet_subset (k : Fin 26) : rowSet c arg3 k ⊆ arg3.view.set := by
  intro idx h
  obtain ⟨d, rfl⟩ := mem_rowSet c arg3 h
  exact arg3.view.emb_mem_set _

theorem rowSet_disjoint (k k' : Fin 26) (h : k ≠ k') : Disjoint (rowSet c arg3 k) (rowSet c arg3 k') := by
  rw [Finset.disjoint_left]
  intro idx h1 h2
  obtain ⟨d, rfl⟩ := mem_rowSet c arg3 h1
  obtain ⟨d', h'⟩ := mem_rowSet c arg3 h2
  have h3 := congrFun (arg3.view.emb.injective h') 1
  exact h h3

variable (harg3 : arg3.IsWhole) (B : Vec F S1x26x64 .f32)

/-- Row `k` after a whole write of the row `B` has there holds what the whole buffer reading `B` holds. -/
theorem win_contents (k : Fin 26) (g : arg3.view.ty.Contents (Elt F)) (P : S64.Idx → Elt F .f32)
    (hP : ∀ d : Fin 64, P (ValueIdx.ix1 d) = B (ValueIdx.ix3 (⟨0, Nat.one_pos⟩ : Fin 1) k d)) :
    ∀ idx ∈ rowSet c arg3 k, ((rowM arg3 k).view.write (Elt F) g P Finset.univ) idx = (harg3.unread B) idx := by
  intro idx h
  obtain ⟨d, rfl⟩ := mem_rowSet c arg3 h
  refine eq_of_read_eq arg3.view _ _ _ ?_
  rw [congrFun (harg3.read_unread B) _, ← hP d]
  exact read_row_hit arg3 k _ rfl _ _ _ g P d

/-- Contents that read `B` hold, on the block's elements, what the whole buffer reading `B` holds. -/
theorem rest_contents (g : arg3.view.ty.Contents (Elt F)) (hg : arg3.view.read (Elt F) g = B) :
    ∀ idx ∈ arg3.view.set, g idx = (harg3.unread B) idx := by
  intro idx h
  obtain ⟨y, -, rfl⟩ := Finset.mem_map.mp h
  refine eq_of_read_eq arg3.view _ _ y ?_
  rw [congrFun (harg3.read_unread B) y, hg]

end Pieces

set_option sl_exec.dmaWindow true in
set_option sl_exec.dmaWindowSet true in
set_option sl_exec.rejoinHeartbeats 4000000 in
set_option sl_exec.stepHeartbeats 2000000 in
set_option maxHeartbeats 0 in
/-- The gather body's run, under any table `D` of bodies (the body makes no call): from the table and the stacked
    tables at any shares, the output window's buffer whole at `f3`, the call's 26 cells at zero and the core's record
    of waits, the body runs to the continuation holding the table, the stacked tables and the cells as they were, and
    the buffer IN ELEVEN PIECES, as the 26 copies leave it: rows 0 to 9 each by itself and the rest of the buffer, each
    piece at contents that hold on it what the buffer reading the gathered block holds. (Row `k` alone is at the
    contents it had when its copy landed, whose last write is the row the copy read; the rest is at the last
    contents, 26 whole writes of a row one inside the other, which read the gathered block row by row.) -/
theorem gatherRun (D : Defs nD τ sig (Elt F) Λ₀) (c : Dev nD) (i : grid0.Coords)
    (arg1 : Memref sig .tc .smem S4096x26 .i32) (harg1 : arg1.IsWhole)
    (arg2 : Memref sig .tc .hbm S26x131073x64 .f32) (harg2 : arg2.IsWhole)
    (arg3 : Memref sig .tc .vmem S1x26x64 .f32) (harg3 : arg3.IsWhole)
    (tbl : Vec F S4096x26 .i32) (emb : Vec F S26x131073x64 .f32) (q1 q2 : PosShare TreeShare)
    (hrange : ∀ f : Fin 26, (tbl (ValueIdx.ix2 (⟨(i 0).val, (i 0).isLt⟩ : Fin 4096) f)).toNat < 131073)
    (f3 : Buf (Elt F) (arg3.view.loc (c : Thread nD τ))) (W : Waits sig Unit) (K : PUnit → sProp 𝕄) :
    iprop(owns (c : Thread nD τ) arg1 q1 tbl ∗ owns (c : Thread nD τ) arg2 q2 emb
        ∗ (arg3.view.loc (c : Thread nD τ) ↦[arg3.view.set]{fullShare} f3) ∗ sems0 c ∗ owes (c : Thread nD τ) 0 W
        ∗ (iprop(owns (c : Thread nD τ) arg1 q1 tbl ∗ owns (c : Thread nD τ) arg2 q2 emb
              ∗ (∃ d : Buf (Elt F) (arg3.view.loc (c : Thread nD τ)), ⌜∀ idx ∈ rowSet c arg3 (⟨0, of_decide_eq_true rfl⟩ : Fin 26), d idx = (harg3.unread (gatherBlk tbl emb i)) idx⌝ ∗ (arg3.view.loc (c : Thread nD τ) ↦[(rowM arg3 (⟨0, of_decide_eq_true rfl⟩ : Fin 26)).view.set]{fullShare} d))
                  ∗ (∃ d : Buf (Elt F) (arg3.view.loc (c : Thread nD τ)), ⌜∀ idx ∈ rowSet c arg3 (⟨1, of_decide_eq_true rfl⟩ : Fin 26), d idx = (harg3.unread (gatherBlk tbl emb i)) idx⌝ ∗ (arg3.view.loc (c : Thread nD τ) ↦[(rowM arg3 (⟨1, of_decide_eq_true rfl⟩ : Fin 26)).view.set]{fullShare} d))
                  ∗ (∃ d : Buf (Elt F) (arg3.view.loc (c : Thread nD τ)), ⌜∀ idx ∈ rowSet c arg3 (⟨2, of_decide_eq_true rfl⟩ : Fin 26), d idx = (harg3.unread (gatherBlk tbl emb i)) idx⌝ ∗ (arg3.view.loc (c : Thread nD τ) ↦[(rowM arg3 (⟨2, of_decide_eq_true rfl⟩ : Fin 26)).view.set]{fullShare} d))
                  ∗ (∃ d : Buf (Elt F) (arg3.view.loc (c : Thread nD τ)), ⌜∀ idx ∈ rowSet c arg3 (⟨3, of_decide_eq_true rfl⟩ : Fin 26), d idx = (harg3.unread (gatherBlk tbl emb i)) idx⌝ ∗ (arg3.view.loc (c : Thread nD τ) ↦[(rowM arg3 (⟨3, of_decide_eq_true rfl⟩ : Fin 26)).view.set]{fullShare} d))
                  ∗ (∃ d : Buf (Elt F) (arg3.view.loc (c : Thread nD τ)), ⌜∀ idx ∈ rowSet c arg3 (⟨4, of_decide_eq_true rfl⟩ : Fin 26), d idx = (harg3.unread (gatherBlk tbl emb i)) idx⌝ ∗ (arg3.view.loc (c : Thread nD τ) ↦[(rowM arg3 (⟨4, of_decide_eq_true rfl⟩ : Fin 26)).view.set]{fullShare} d))
                  ∗ (∃ d : Buf (Elt F) (arg3.view.loc (c : Thread nD τ)), ⌜∀ idx ∈ rowSet c arg3 (⟨5, of_decide_eq_true rfl⟩ : Fin 26), d idx = (harg3.unread (gatherBlk tbl emb i)) idx⌝ ∗ (arg3.view.loc (c : Thread nD τ) ↦[(rowM arg3 (⟨5, of_decide_eq_true rfl⟩ : Fin 26)).view.set]{fullShare} d))
                  ∗ (∃ d : Buf (Elt F) (arg3.view.loc (c : Thread nD τ)), ⌜∀ idx ∈ rowSet c arg3 (⟨6, of_decide_eq_true rfl⟩ : Fin 26), d idx = (harg3.unread (gatherBlk tbl emb i)) idx⌝ ∗ (arg3.view.loc (c : Thread nD τ) ↦[(rowM arg3 (⟨6, of_decide_eq_true rfl⟩ : Fin 26)).view.set]{fullShare} d))
                  ∗ (∃ d : Buf (Elt F) (arg3.view.loc (c : Thread nD τ)), ⌜∀ idx ∈ rowSet c arg3 (⟨7, of_decide_eq_true rfl⟩ : Fin 26), d idx = (harg3.unread (gatherBlk tbl emb i)) idx⌝ ∗ (arg3.view.loc (c : Thread nD τ) ↦[(rowM arg3 (⟨7, of_decide_eq_true rfl⟩ : Fin 26)).view.set]{fullShare} d))
                  ∗ (∃ d : Buf (Elt F) (arg3.view.loc (c : Thread nD τ)), ⌜∀ idx ∈ rowSet c arg3 (⟨8, of_decide_eq_true rfl⟩ : Fin 26), d idx = (harg3.unread (gatherBlk tbl emb i)) idx⌝ ∗ (arg3.view.loc (c : Thread nD τ) ↦[(rowM arg3 (⟨8, of_decide_eq_true rfl⟩ : Fin 26)).view.set]{fullShare} d))
                  ∗ (∃ d : Buf (Elt F) (arg3.view.loc (c : Thread nD τ)), ⌜∀ idx ∈ rowSet c arg3 (⟨9, of_decide_eq_true rfl⟩ : Fin 26), d idx = (harg3.unread (gatherBlk tbl emb i)) idx⌝ ∗ (arg3.view.loc (c : Thread nD τ) ↦[(rowM arg3 (⟨9, of_decide_eq_true rfl⟩ : Fin 26)).view.set]{fullShare} d))
                  ∗ (∃ d : Buf (Elt F) (arg3.view.loc (c : Thread nD τ)), ⌜∀ idx ∈ arg3.view.set, d idx = (harg3.unread (gatherBlk tbl emb i)) idx⌝ ∗ (arg3.view.loc (c : Thread nD τ) ↦[((((((((((arg3.view.set \ (rowM arg3 (⟨0, of_decide_eq_true rfl⟩ : Fin 26)).view.set) \ (rowM arg3 (⟨1, of_decide_eq_true rfl⟩ : Fin 26)).view.set) \ (rowM arg3 (⟨2, of_decide_eq_true rfl⟩ : Fin 26)).view.set) \ (rowM arg3 (⟨3, of_decide_eq_true rfl⟩ : Fin 26)).view.set) \ (rowM arg3 (⟨4, of_decide_eq_true rfl⟩ : Fin 26)).view.set) \ (rowM arg3 (⟨5, of_decide_eq_true rfl⟩ : Fin 26)).view.set) \ (rowM arg3 (⟨6, of_decide_eq_true rfl⟩ : Fin 26)).view.set) \ (rowM arg3 (⟨7, of_decide_eq_true rfl⟩ : Fin 26)).view.set) \ (rowM arg3 (⟨8, of_decide_eq_true rfl⟩ : Fin 26)).view.set) \ (rowM arg3 (⟨9, of_decide_eq_true rfl⟩ : Fin 26)).view.set)]{fullShare} d))
              ∗ sems0 c ∗ (∃ W', owes (c : Thread nD τ) 0 W')) -∗ K ⟨⟩))
      ⊢ wp frame (wpE D Variants.none c none) Set.univ
          (cc0__gather_kernel i arg1 harg1 arg2 harg2 arg3 harg3 cc2_scratch0) K := by
  simp only [cc0__gather_kernel_eq_skeleton]; unfold cc0__gather_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f1, %hf1, H1⟩, ⟨%f2, %hf2, H2⟩, H3, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25⟩, HW, Hk⟩
  obtain rfl := harg1.eq_unread hf1
  obtain rfl := harg2.eq_unread hf2
  have hc1 := chk1 i arg1 harg1 tbl hrange
  have hc2 := chk2 i arg1 harg1 tbl hrange
  have hc3 := chk3 i arg1 harg1 tbl hrange
  have hc4 := chk4 i arg1 harg1 tbl hrange
  have hc5 := chk5 i arg1 harg1 tbl hrange
  have hc6 := chk6 i arg1 harg1 tbl hrange
  have hc7 := chk7 i arg1 harg1 tbl hrange
  have hc8 := chk8 i arg1 harg1 tbl hrange
  have hc9 := chk9 i arg1 harg1 tbl hrange
  have hc10 := chk10 i arg1 harg1 tbl hrange
  have hc11 := chk11 i arg1 harg1 tbl hrange
  have hc12 := chk12 i arg1 harg1 tbl hrange
  have hc13 := chk13 i arg1 harg1 tbl hrange
  have hc14 := chk14 i arg1 harg1 tbl hrange
  have hc15 := chk15 i arg1 harg1 tbl hrange
  have hc16 := chk16 i arg1 harg1 tbl hrange
  have hc17 := chk17 i arg1 harg1 tbl hrange
  have hc18 := chk18 i arg1 harg1 tbl hrange
  have hc19 := chk19 i arg1 harg1 tbl hrange
  have hc20 := chk20 i arg1 harg1 tbl hrange
  have hc21 := chk21 i arg1 harg1 tbl hrange
  have hc22 := chk22 i arg1 harg1 tbl hrange
  have hc23 := chk23 i arg1 harg1 tbl hrange
  have hc24 := chk24 i arg1 harg1 tbl hrange
  have hc25 := chk25 i arg1 harg1 tbl hrange
  have hc26 := chk26 i arg1 harg1 tbl hrange
  sl_exec_parts (disch := first | (guard_target = k0_chk1 _; exact hc1 _) | (guard_target = k0_chk2 _; exact hc2 _) | (guard_target = k0_chk3 _; exact hc3 _) | (guard_target = k0_chk4 _; exact hc4 _) | (guard_target = k0_chk5 _; exact hc5 _) | (guard_target = k0_chk6 _; exact hc6 _) | (guard_target = k0_chk7 _; exact hc7 _) | (guard_target = k0_chk8 _; exact hc8 _) | (guard_target = k0_chk9 _; exact hc9 _) | (guard_target = k0_chk10 _; exact hc10 _) | (guard_target = k0_chk11 _; exact hc11 _) | (guard_target = k0_chk12 _; exact hc12 _) | (guard_target = k0_chk13 _; exact hc13 _) | (guard_target = k0_chk14 _; exact hc14 _) | (guard_target = k0_chk15 _; exact hc15 _) | (guard_target = k0_chk16 _; exact hc16 _) | (guard_target = k0_chk17 _; exact hc17 _) | (guard_target = k0_chk18 _; exact hc18 _) | (guard_target = k0_chk19 _; exact hc19 _) | (guard_target = k0_chk20 _; exact hc20 _) | (guard_target = k0_chk21 _; exact hc21 _) | (guard_target = k0_chk22 _; exact hc22 _) | (guard_target = k0_chk23 _; exact hc23 _) | (guard_target = k0_chk24 _; exact hc24 _) | (guard_target = k0_chk25 _; exact hc25 _) | (guard_target = k0_chk26 _; exact hc26 _))
  sl_step
  iapply Hk
  isplitl [H1]
  · iexists _; isplitr; · ipureintro; exact harg1.read_unread _
    iexact H1
  isplitl [H2]
  · iexists _; isplitr; · ipureintro; exact harg2.read_unread _
    iexact H2
  isplitl [H3_2]
  · -- row 0 alone: its last write is the row its copy read
    iexists _; isplitr; swap; · iexact H3_2
    ipureintro
    refine win_contents c arg3 harg3 (gatherBlk tbl emb i) (⟨0, of_decide_eq_true rfl⟩ : Fin 26) _ _ fun d => ?_
    exact read_src_row arg2 harg2 emb (⟨0, of_decide_eq_true rfl⟩ : Fin 26) (rowOf tbl i (⟨0, of_decide_eq_true rfl⟩ : Fin 26)) _ (srcoff0 i arg1 harg1 tbl hrange _) _ _ _ d
  isplitl [H3_3]
  · -- row 1 alone: its last write is the row its copy read
    iexists _; isplitr; swap; · iexact H3_3
    ipureintro
    refine win_contents c arg3 harg3 (gatherBlk tbl emb i) (⟨1, of_decide_eq_true rfl⟩ : Fin 26) _ _ fun d => ?_
    exact read_src_row arg2 harg2 emb (⟨1, of_decide_eq_true rfl⟩ : Fin 26) (rowOf tbl i (⟨1, of_decide_eq_true rfl⟩ : Fin 26)) _ (srcoff1 i arg1 harg1 tbl hrange _) _ _ _ d
  isplitl [H3_4]
  · -- row 2 alone: its last write is the row its copy read
    iexists _; isplitr; swap; · iexact H3_4
    ipureintro
    refine win_contents c arg3 harg3 (gatherBlk tbl emb i) (⟨2, of_decide_eq_true rfl⟩ : Fin 26) _ _ fun d => ?_
    exact read_src_row arg2 harg2 emb (⟨2, of_decide_eq_true rfl⟩ : Fin 26) (rowOf tbl i (⟨2, of_decide_eq_true rfl⟩ : Fin 26)) _ (srcoff2 i arg1 harg1 tbl hrange _) _ _ _ d
  isplitl [H3_5]
  · -- row 3 alone: its last write is the row its copy read
    iexists _; isplitr; swap; · iexact H3_5
    ipureintro
    refine win_contents c arg3 harg3 (gatherBlk tbl emb i) (⟨3, of_decide_eq_true rfl⟩ : Fin 26) _ _ fun d => ?_
    exact read_src_row arg2 harg2 emb (⟨3, of_decide_eq_true rfl⟩ : Fin 26) (rowOf tbl i (⟨3, of_decide_eq_true rfl⟩ : Fin 26)) _ (srcoff3 i arg1 harg1 tbl hrange _) _ _ _ d
  isplitl [H3_6]
  · -- row 4 alone: its last write is the row its copy read
    iexists _; isplitr; swap; · iexact H3_6
    ipureintro
    refine win_contents c arg3 harg3 (gatherBlk tbl emb i) (⟨4, of_decide_eq_true rfl⟩ : Fin 26) _ _ fun d => ?_
    exact read_src_row arg2 harg2 emb (⟨4, of_decide_eq_true rfl⟩ : Fin 26) (rowOf tbl i (⟨4, of_decide_eq_true rfl⟩ : Fin 26)) _ (srcoff4 i arg1 harg1 tbl hrange _) _ _ _ d
  isplitl [H3_7]
  · -- row 5 alone: its last write is the row its copy read
    iexists _; isplitr; swap; · iexact H3_7
    ipureintro
    refine win_contents c arg3 harg3 (gatherBlk tbl emb i) (⟨5, of_decide_eq_true rfl⟩ : Fin 26) _ _ fun d => ?_
    exact read_src_row arg2 harg2 emb (⟨5, of_decide_eq_true rfl⟩ : Fin 26) (rowOf tbl i (⟨5, of_decide_eq_true rfl⟩ : Fin 26)) _ (srcoff5 i arg1 harg1 tbl hrange _) _ _ _ d
  isplitl [H3_8]
  · -- row 6 alone: its last write is the row its copy read
    iexists _; isplitr; swap; · iexact H3_8
    ipureintro
    refine win_contents c arg3 harg3 (gatherBlk tbl emb i) (⟨6, of_decide_eq_true rfl⟩ : Fin 26) _ _ fun d => ?_
    exact read_src_row arg2 harg2 emb (⟨6, of_decide_eq_true rfl⟩ : Fin 26) (rowOf tbl i (⟨6, of_decide_eq_true rfl⟩ : Fin 26)) _ (srcoff6 i arg1 harg1 tbl hrange _) _ _ _ d
  isplitl [H3_9]
  · -- row 7 alone: its last write is the row its copy read
    iexists _; isplitr; swap; · iexact H3_9
    ipureintro
    refine win_contents c arg3 harg3 (gatherBlk tbl emb i) (⟨7, of_decide_eq_true rfl⟩ : Fin 26) _ _ fun d => ?_
    exact read_src_row arg2 harg2 emb (⟨7, of_decide_eq_true rfl⟩ : Fin 26) (rowOf tbl i (⟨7, of_decide_eq_true rfl⟩ : Fin 26)) _ (srcoff7 i arg1 harg1 tbl hrange _) _ _ _ d
  isplitl [H3_10]
  · -- row 8 alone: its last write is the row its copy read
    iexists _; isplitr; swap; · iexact H3_10
    ipureintro
    refine win_contents c arg3 harg3 (gatherBlk tbl emb i) (⟨8, of_decide_eq_true rfl⟩ : Fin 26) _ _ fun d => ?_
    exact read_src_row arg2 harg2 emb (⟨8, of_decide_eq_true rfl⟩ : Fin 26) (rowOf tbl i (⟨8, of_decide_eq_true rfl⟩ : Fin 26)) _ (srcoff8 i arg1 harg1 tbl hrange _) _ _ _ d
  isplitl [H3_11]
  · -- row 9 alone: its last write is the row its copy read
    iexists _; isplitr; swap; · iexact H3_11
    ipureintro
    refine win_contents c arg3 harg3 (gatherBlk tbl emb i) (⟨9, of_decide_eq_true rfl⟩ : Fin 26) _ _ fun d => ?_
    exact read_src_row arg2 harg2 emb (⟨9, of_decide_eq_true rfl⟩ : Fin 26) (rowOf tbl i (⟨9, of_decide_eq_true rfl⟩ : Fin 26)) _ (srcoff9 i arg1 harg1 tbl hrange _) _ _ _ d
  isplitl [H3]
  · -- the rest, at the last contents: they read the gathered block, row by row
    iexists _; isplitr; swap; · iexact H3
    ipureintro
    refine rest_contents arg3 harg3 (gatherBlk tbl emb i) _ (blk_ext _ _ fun k d => ?_)
    fin_cases k
    · -- row 0: the later rows' writes miss it; its own write lands the row read from sub-table 0
      refine (read_row_miss arg3 (⟨25, by decide⟩ : Fin 26) (⟨0, by decide⟩ : Fin 26) (by decide) _ rfl _ _ _ _ _ d).trans ?_
      refine (read_row_miss arg3 (⟨24, by decide⟩ : Fin 26) (⟨0, by decide⟩ : Fin 26) (by decide) _ rfl _ _ _ _ _ d).trans ?_
      refine (read_row_miss arg3 (⟨23, by decide⟩ : Fin 26) (⟨0, by decide⟩ : Fin 26) (by decide) _ rfl _ _ _ _ _ d).trans ?_
      refine (read_row_miss arg3 (⟨22, by decide⟩ : Fin 26) (⟨0, by decide⟩ : Fin 26) (by decide) _ rfl _ _ _ _ _ d).trans ?_
      refine (read_row_miss arg3 (⟨21, by decide⟩ : Fin 26) (⟨0, by decide⟩ : Fin 26) (by decide) _ rfl _ _ _ _ _ d).trans ?_
      refine (read_row_miss arg3 (⟨20, by decide⟩ : Fin 26) (⟨0, by decide⟩ : Fin 26) (by decide) _ rfl _ _ _ _ _ d).trans ?_
      refine (read_row_miss arg3 (⟨19, by decide⟩ : Fin 26) (⟨0, by decide⟩ : Fin 26) (by decide) _ rfl _ _ _ _ _ d).trans ?_
      refine (read_row_miss arg3 (⟨18, by decide⟩ : Fin 26) (⟨0, by decide⟩ : Fin 26) (by decide) _ rfl _ _ _ _ _ d).trans ?_
      refine (read_row_miss arg3 (⟨17, by decide⟩ : Fin 26) (⟨0, by decide⟩ : Fin 26) (by decide) _ rfl _ _ _ _ _ d).trans ?_
      refine (read_row_miss arg3 (⟨16, by decide⟩ : Fin 26) (⟨0, by decide⟩ : Fin 26) (by decide) _ rfl _ _ _ _ _ d).trans ?_
      refine (read_row_miss arg3 (⟨15, by decide⟩ : Fin 26) (⟨0, by decide⟩ : Fin 26) (by decide) _ rfl _ _ _ _ _ d).trans ?_
      refine (read_row_miss arg3 (⟨14, by decide⟩ : Fin 26) (⟨0, by decide⟩ : Fin 26) (by decide) _ rfl _ _ _ _ _ d).trans ?_
      refine (read_row_miss arg3 (⟨13, by decide⟩ : Fin 26) (⟨0, by decide⟩ : Fin 26) (by decide) _ rfl _ _ _ _ _ d).trans ?_
      refine (read_row_miss arg3 (⟨12, by decide⟩ : Fin 26) (⟨0, by decide⟩ : Fin 26) (by decide) _ rfl _ _ _ _ _ d).trans ?_
      refine (read_row_miss arg3 (⟨11, by decide⟩ : Fin 26) (⟨0, by decide⟩ : Fin 26) (by decide) _ rfl _ _ _ _ _ d).trans ?_
      refine (read_row_miss arg3 (⟨10, by decide⟩ : Fin 26) (⟨0, by decide⟩ : Fin 26) (by decide) _ rfl _ _ _ _ _ d).trans ?_
      refine (read_row_miss arg3 (⟨9, by decide⟩ : Fin 26) (⟨0, by decide⟩ : Fin 26) (by decide) _ rfl _ _ _ _ _ d).trans ?_
      refine (read_row_miss arg3 (⟨8, by decide⟩ : Fin 26) (⟨0, by decide⟩ : Fin 26) (by decide) _ rfl _ _ _ _ _ d).trans ?_
      refine (read_row_miss arg3 (⟨7, by decide⟩ : Fin 26) (⟨0, by decide⟩ : Fin 26) (by decide) _ rfl _ _ _ _ _ d).trans ?_
      refine (read_row_miss arg3 (⟨6, by decide⟩ : Fin 26) (⟨0, by decide⟩ : Fin 26) (by decide) _ rfl _ _ _ _ _ d).trans ?_
      refine (read_row_miss arg3 (⟨5, by decide⟩ : Fin 26) (⟨0, by decide⟩ : Fin 26) (by decide) _ rfl _ _ _ _ _ d).trans ?_
      refine (read_row_miss arg3 (⟨4, by decide⟩ : Fin 26) (⟨0, by decide⟩ : Fin 26) (by decide) _ rfl _ _ _ _ _ d).trans ?_
      refine (read_row_miss arg3 (⟨3, by decide⟩ : Fin 26) (⟨0, by decide⟩ : Fin 26) (by decide) _ rfl _ _ _ _ _ d).trans ?_
      refine (read_row_miss arg3 (⟨2, by decide⟩ : Fin 26) (⟨0, by decide⟩ : Fin 26) (by decide) _ rfl _ _ _ _ _ d).trans ?_
      refine (read_row_miss arg3 (⟨1, by decide⟩ : Fin 26) (⟨0, by decide⟩ : Fin 26) (by decide) _ rfl _ _ _ _ _ d).trans ?_
      refine (read_row_hit arg3 (⟨0, by decide⟩ : Fin 26) _ rfl _ _ _ _ _ d).trans ?_
      exact read_src_row arg2 harg2 emb (⟨0, by decide⟩ : Fin 26) (rowOf tbl i (⟨0, by decide⟩ : Fin 26)) _ (srcoff0 i arg1 harg1 tbl hrange _) _ _ _ d
    · -- row 1: the later rows' writes miss it; its own write lands the row read from sub-table 1
      refine (read_row_miss arg3 (⟨25, by decide⟩ : Fin 26) (⟨1, by decide⟩ : Fin 26) (by decide) _ rfl _ _ _ _ _ d).trans ?_
      refine (read_row_miss arg3 (⟨24, by decide⟩ : Fin 26) (⟨1, by decide⟩ : Fin 26) (by decide) _ rfl _ _ _ _ _ d).trans ?_
      refine (read_row_miss arg3 (⟨23, by decide⟩ : Fin 26) (⟨1, by decide⟩ : Fin 26) (by decide) _ rfl _ _ _ _ _ d).trans ?_
      refine (read_row_miss arg3 (⟨22, by decide⟩ : Fin 26) (⟨1, by decide⟩ : Fin 26) (by decide) _ rfl _ _ _ _ _ d).trans ?_
      refine (read_row_miss arg3 (⟨21, by decide⟩ : Fin 26) (⟨1, by decide⟩ : Fin 26) (by decide) _ rfl _ _ _ _ _ d).trans ?_
      refine (read_row_miss arg3 (⟨20, by decide⟩ : Fin 26) (⟨1, by decide⟩ : Fin 26) (by decide) _ rfl _ _ _ _ _ d).trans ?_
      refine (read_row_miss arg3 (⟨19, by decide⟩ : Fin 26) (⟨1, by decide⟩ : Fin 26) (by decide) _ rfl _ _ _ _ _ d).trans ?_
      refine (read_row_miss arg3 (⟨18, by decide⟩ : Fin 26) (⟨1, by decide⟩ : Fin 26) (by decide) _ rfl _ _ _ _ _ d).trans ?_
      refine (read_row_miss arg3 (⟨17, by decide⟩ : Fin 26) (⟨1, by decide⟩ : Fin 26) (by decide) _ rfl _ _ _ _ _ d).trans ?_
      refine (read_row_miss arg3 (⟨16, by decide⟩ : Fin 26) (⟨1, by decide⟩ : Fin 26) (by decide) _ rfl _ _ _ _ _ d).trans ?_
      refine (read_row_miss arg3 (⟨15, by decide⟩ : Fin 26) (⟨1, by decide⟩ : Fin 26) (by decide) _ rfl _ _ _ _ _ d).trans ?_
      refine (read_row_miss arg3 (⟨14, by decide⟩ : Fin 26) (⟨1, by decide⟩ : Fin 26) (by decide) _ rfl _ _ _ _ _ d).trans ?_
      refine (read_row_miss arg3 (⟨13, by decide⟩ : Fin 26) (⟨1, by decide⟩ : Fin 26) (by decide) _ rfl _ _ _ _ _ d).trans ?_
      refine (read_row_miss arg3 (⟨12, by decide⟩ : Fin 26) (⟨1, by decide⟩ : Fin 26) (by decide) _ rfl _ _ _ _ _ d).trans ?_
      refine (read_row_miss arg3 (⟨11, by decide⟩ : Fin 26) (⟨1, by decide⟩ : Fin 26) (by decide) _ rfl _ _ _ _ _ d).trans ?_
      refine (read_row_miss arg3 (⟨10, by decide⟩ : Fin 26) (⟨1, by decide⟩ : Fin 26) (by decide) _ rfl _ _ _ _ _ d).trans ?_
      refine (read_row_miss arg3 (⟨9, by decide⟩ : Fin 26) (⟨1, by decide⟩ : Fin 26) (by decide) _ rfl _ _ _ _ _ d).trans ?_
      refine (read_row_miss arg3 (⟨8, by decide⟩ : Fin 26) (⟨1, by decide⟩ : Fin 26) (by decide) _ rfl _ _ _ _ _ d).trans ?_
      refine (read_row_miss arg3 (⟨7, by decide⟩ : Fin 26) (⟨1, by decide⟩ : Fin 26) (by decide) _ rfl _ _ _ _ _ d).trans ?_
      refine (read_row_miss arg3 (⟨6, by decide⟩ : Fin 26) (⟨1, by decide⟩ : Fin 26) (by decide) _ rfl _ _ _ _ _ d).trans ?_
      refine (read_row_miss arg3 (⟨5, by decide⟩ : Fin 26) (⟨1, by decide⟩ : Fin 26) (by decide) _ rfl _ _ _ _ _ d).trans ?_
      refine (read_row_miss arg3 (⟨4, by decide⟩ : Fin 26) (⟨1, by decide⟩ : Fin 26) (by decide) _ rfl _ _ _ _ _ d).trans ?_
      refine (read_row_miss arg3 (⟨3, by decide⟩ : Fin 26) (⟨1, by decide⟩ : Fin 26) (by decide) _ rfl _ _ _ _ _ d).trans ?_
      refine (read_row_miss arg3 (⟨2, by decide⟩ : Fin 26) (⟨1, by decide⟩ : Fin 26) (by decide) _ rfl _ _ _ _ _ d).trans ?_
      refine (read_row_hit arg3 (⟨1, by decide⟩ : Fin 26) _ rfl _ _ _ _ _ d).trans ?_
      exact read_src_row arg2 harg2 emb (⟨1, by decide⟩ : Fin 26) (rowOf tbl i (⟨1, by decide⟩ : Fin 26)) _ (srcoff1 i arg1 harg1 tbl hrange _) _ _ _ d
    · -- row 2: the later rows' writes miss it; its own write lands the row read from sub-table 2
      refine (read_row_miss arg3 (⟨25, by decide⟩ : Fin 26) (⟨2, by decide⟩ : Fin 26) (by decide) _ rfl _ _ _ _ _ d).trans ?_
      refine (read_row_miss arg3 (⟨24, by decide⟩ : Fin 26) (⟨2, by decide⟩ : Fin 26) (by decide) _ rfl _ _ _ _ _ d).trans ?_
      refine (read_row_miss arg3 (⟨23, by decide⟩ : Fin 26) (⟨2, by decide⟩ : Fin 26) (by decide) _ rfl _ _ _ _ _ d).trans ?_
      refine (read_row_miss arg3 (⟨22, by decide⟩ : Fin 26) (⟨2, by decide⟩ : Fin 26) (by decide) _ rfl _ _ _ _ _ d).trans ?_
      refine (read_row_miss arg3 (⟨21, by decide⟩ : Fin 26) (⟨2, by decide⟩ : Fin 26) (by decide) _ rfl _ _ _ _ _ d).trans ?_
      refine (read_row_miss arg3 (⟨20, by decide⟩ : Fin 26) (⟨2, by decide⟩ : Fin 26) (by decide) _ rfl _ _ _ _ _ d).trans ?_
      refine (read_row_miss arg3 (⟨19, by decide⟩ : Fin 26) (⟨2, by decide⟩ : Fin 26) (by decide) _ rfl _ _ _ _ _ d).trans ?_
      refine (read_row_miss arg3 (⟨18, by decide⟩ : Fin 26) (⟨2, by decide⟩ : Fin 26) (by decide) _ rfl _ _ _ _ _ d).trans ?_
      refine (read_row_miss arg3 (⟨17, by decide⟩ : Fin 26) (⟨2, by decide⟩ : Fin 26) (by decide) _ rfl _ _ _ _ _ d).trans ?_
      refine (read_row_miss arg3 (⟨16, by decide⟩ : Fin 26) (⟨2, by decide⟩ : Fin 26) (by decide) _ rfl _ _ _ _ _ d).trans ?_
      refine (read_row_miss arg3 (⟨15, by decide⟩ : Fin 26) (⟨2, by decide⟩ : Fin 26) (by decide) _ rfl _ _ _ _ _ d).trans ?_
      refine (read_row_miss arg3 (⟨14, by decide⟩ : Fin 26) (⟨2, by decide⟩ : Fin 26) (by decide) _ rfl _ _ _ _ _ d).trans ?_
      refine (read_row_miss arg3 (⟨13, by decide⟩ : Fin 26) (⟨2, by decide⟩ : Fin 26) (by decide) _ rfl _ _ _ _ _ d).trans ?_
      refine (read_row_miss arg3 (⟨12, by decide⟩ : Fin 26) (⟨2, by decide⟩ : Fin 26) (by decide) _ rfl _ _ _ _ _ d).trans ?_
      refine (read_row_miss arg3 (⟨11, by decide⟩ : Fin 26) (⟨2, by decide⟩ : Fin 26) (by decide) _ rfl _ _ _ _ _ d).trans ?_
      refine (read_row_miss arg3 (⟨10, by decide⟩ : Fin 26) (⟨2, by decide⟩ : Fin 26) (by decide) _ rfl _ _ _ _ _ d).trans ?_
      refine (read_row_miss arg3 (⟨9, by decide⟩ : Fin 26) (⟨2, by decide⟩ : Fin 26) (by decide) _ rfl _ _ _ _ _ d).trans ?_
      refine (read_row_miss arg3 (⟨8, by decide⟩ : Fin 26) (⟨2, by decide⟩ : Fin 26) (by decide) _ rfl _ _ _ _ _ d).trans ?_
      refine (read_row_miss arg3 (⟨7, by decide⟩ : Fin 26) (⟨2, by decide⟩ : Fin 26) (by decide) _ rfl _ _ _ _ _ d).trans ?_
      refine (read_row_miss arg3 (⟨6, by decide⟩ : Fin 26) (⟨2, by decide⟩ : Fin 26) (by decide) _ rfl _ _ _ _ _ d).trans ?_
      refine (read_row_miss arg3 (⟨5, by decide⟩ : Fin 26) (⟨2, by decide⟩ : Fin 26) (by decide) _ rfl _ _ _ _ _ d).trans ?_
      refine (read_row_miss arg3 (⟨4, by decide⟩ : Fin 26) (⟨2, by decide⟩ : Fin 26) (by decide) _ rfl _ _ _ _ _ d).trans ?_
      refine (read_row_miss arg3 (⟨3, by decide⟩ : Fin 26) (⟨2, by decide⟩ : Fin 26) (by decide) _ rfl _ _ _ _ _ d).trans ?_
      refine (read_row_hit arg3 (⟨2, by decide⟩ : Fin 26) _ rfl _ _ _ _ _ d).trans ?_
      exact read_src_row arg2 harg2 emb (⟨2, by decide⟩ : Fin 26) (rowOf tbl i (⟨2, by decide⟩ : Fin 26)) _ (srcoff2 i arg1 harg1 tbl hrange _) _ _ _ d
    · -- row 3: the later rows' writes miss it; its own write lands the row read from sub-table 3
      refine (read_row_miss arg3 (⟨25, by decide⟩ : Fin 26) (⟨3, by decide⟩ : Fin 26) (by decide) _ rfl _ _ _ _ _ d).trans ?_
      refine (read_row_miss arg3 (⟨24, by decide⟩ : Fin 26) (⟨3, by decide⟩ : Fin 26) (by decide) _ rfl _ _ _ _ _ d).trans ?_
      refine (read_row_miss arg3 (⟨23, by decide⟩ : Fin 26) (⟨3, by decide⟩ : Fin 26) (by decide) _ rfl _ _ _ _ _ d).trans ?_
      refine (read_row_miss arg3 (⟨22, by decide⟩ : Fin 26) (⟨3, by decide⟩ : Fin 26) (by decide) _ rfl _ _ _ _ _ d).trans ?_
      refine (read_row_miss arg3 (⟨21, by decide⟩ : Fin 26) (⟨3, by decide⟩ : Fin 26) (by decide) _ rfl _ _ _ _ _ d).trans ?_
      refine (read_row_miss arg3 (⟨20, by decide⟩ : Fin 26) (⟨3, by decide⟩ : Fin 26) (by decide) _ rfl _ _ _ _ _ d).trans ?_
      refine (read_row_miss arg3 (⟨19, by decide⟩ : Fin 26) (⟨3, by decide⟩ : Fin 26) (by decide) _ rfl _ _ _ _ _ d).trans ?_
      refine (read_row_miss arg3 (⟨18, by decide⟩ : Fin 26) (⟨3, by decide⟩ : Fin 26) (by decide) _ rfl _ _ _ _ _ d).trans ?_
      refine (read_row_miss arg3 (⟨17, by decide⟩ : Fin 26) (⟨3, by decide⟩ : Fin 26) (by decide) _ rfl _ _ _ _ _ d).trans ?_
      refine (read_row_miss arg3 (⟨16, by decide⟩ : Fin 26) (⟨3, by decide⟩ : Fin 26) (by decide) _ rfl _ _ _ _ _ d).trans ?_
      refine (read_row_miss arg3 (⟨15, by decide⟩ : Fin 26) (⟨3, by decide⟩ : Fin 26) (by decide) _ rfl _ _ _ _ _ d).trans ?_
      refine (read_row_miss arg3 (⟨14, by decide⟩ : Fin 26) (⟨3, by decide⟩ : Fin 26) (by decide) _ rfl _ _ _ _ _ d).trans ?_
      refine (read_row_miss arg3 (⟨13, by decide⟩ : Fin 26) (⟨3, by decide⟩ : Fin 26) (by decide) _ rfl _ _ _ _ _ d).trans ?_
      refine (read_row_miss arg3 (⟨12, by decide⟩ : Fin 26) (⟨3, by decide⟩ : Fin 26) (by decide) _ rfl _ _ _ _ _ d).trans ?_
      refine (read_row_miss arg3 (⟨11, by decide⟩ : Fin 26) (⟨3, by decide⟩ : Fin 26) (by decide) _ rfl _ _ _ _ _ d).trans ?_
      refine (read_row_miss arg3 (⟨10, by decide⟩ : Fin 26) (⟨3, by decide⟩ : Fin 26) (by decide) _ rfl _ _ _ _ _ d).trans ?_
      refine (read_row_miss arg3 (⟨9, by decide⟩ : Fin 26) (⟨3, by decide⟩ : Fin 26) (by decide) _ rfl _ _ _ _ _ d).trans ?_
      refine (read_row_miss arg3 (⟨8, by decide⟩ : Fin 26) (⟨3, by decide⟩ : Fin 26) (by decide) _ rfl _ _ _ _ _ d).trans ?_
      refine (read_row_miss arg3 (⟨7, by decide⟩ : Fin 26) (⟨3, by decide⟩ : Fin 26) (by decide) _ rfl _ _ _ _ _ d).trans ?_
      refine (read_row_miss arg3 (⟨6, by decide⟩ : Fin 26) (⟨3, by decide⟩ : Fin 26) (by decide) _ rfl _ _ _ _ _ d).trans ?_
      refine (read_row_miss arg3 (⟨5, by decide⟩ : Fin 26) (⟨3, by decide⟩ : Fin 26) (by decide) _ rfl _ _ _ _ _ d).trans ?_
      refine (read_row_miss arg3 (⟨4, by decide⟩ : Fin 26) (⟨3, by decide⟩ : Fin 26) (by decide) _ rfl _ _ _ _ _ d).trans ?_
      refine (read_row_hit arg3 (⟨3, by decide⟩ : Fin 26) _ rfl _ _ _ _ _ d).trans ?_
      exact read_src_row arg2 harg2 emb (⟨3, by decide⟩ : Fin 26) (rowOf tbl i (⟨3, by decide⟩ : Fin 26)) _ (srcoff3 i arg1 harg1 tbl hrange _) _ _ _ d
    · -- row 4: the later rows' writes miss it; its own write lands the row read from sub-table 4
      refine (read_row_miss arg3 (⟨25, by decide⟩ : Fin 26) (⟨4, by decide⟩ : Fin 26) (by decide) _ rfl _ _ _ _ _ d).trans ?_
      refine (read_row_miss arg3 (⟨24, by decide⟩ : Fin 26) (⟨4, by decide⟩ : Fin 26) (by decide) _ rfl _ _ _ _ _ d).trans ?_
      refine (read_row_miss arg3 (⟨23, by decide⟩ : Fin 26) (⟨4, by decide⟩ : Fin 26) (by decide) _ rfl _ _ _ _ _ d).trans ?_
      refine (read_row_miss arg3 (⟨22, by decide⟩ : Fin 26) (⟨4, by decide⟩ : Fin 26) (by decide) _ rfl _ _ _ _ _ d).trans ?_
      refine (read_row_miss arg3 (⟨21, by decide⟩ : Fin 26) (⟨4, by decide⟩ : Fin 26) (by decide) _ rfl _ _ _ _ _ d).trans ?_
      refine (read_row_miss arg3 (⟨20, by decide⟩ : Fin 26) (⟨4, by decide⟩ : Fin 26) (by decide) _ rfl _ _ _ _ _ d).trans ?_
      refine (read_row_miss arg3 (⟨19, by decide⟩ : Fin 26) (⟨4, by decide⟩ : Fin 26) (by decide) _ rfl _ _ _ _ _ d).trans ?_
      refine (read_row_miss arg3 (⟨18, by decide⟩ : Fin 26) (⟨4, by decide⟩ : Fin 26) (by decide) _ rfl _ _ _ _ _ d).trans ?_
      refine (read_row_miss arg3 (⟨17, by decide⟩ : Fin 26) (⟨4, by decide⟩ : Fin 26) (by decide) _ rfl _ _ _ _ _ d).trans ?_
      refine (read_row_miss arg3 (⟨16, by decide⟩ : Fin 26) (⟨4, by decide⟩ : Fin 26) (by decide) _ rfl _ _ _ _ _ d).trans ?_
      refine (read_row_miss arg3 (⟨15, by decide⟩ : Fin 26) (⟨4, by decide⟩ : Fin 26) (by decide) _ rfl _ _ _ _ _ d).trans ?_
      refine (read_row_miss arg3 (⟨14, by decide⟩ : Fin 26) (⟨4, by decide⟩ : Fin 26) (by decide) _ rfl _ _ _ _ _ d).trans ?_
      refine (read_row_miss arg3 (⟨13, by decide⟩ : Fin 26) (⟨4, by decide⟩ : Fin 26) (by decide) _ rfl _ _ _ _ _ d).trans ?_
      refine (read_row_miss arg3 (⟨12, by decide⟩ : Fin 26) (⟨4, by decide⟩ : Fin 26) (by decide) _ rfl _ _ _ _ _ d).trans ?_
      refine (read_row_miss arg3 (⟨11, by decide⟩ : Fin 26) (⟨4, by decide⟩ : Fin 26) (by decide) _ rfl _ _ _ _ _ d).trans ?_
      refine (read_row_miss arg3 (⟨10, by decide⟩ : Fin 26) (⟨4, by decide⟩ : Fin 26) (by decide) _ rfl _ _ _ _ _ d).trans ?_
      refine (read_row_miss arg3 (⟨9, by decide⟩ : Fin 26) (⟨4, by decide⟩ : Fin 26) (by decide) _ rfl _ _ _ _ _ d).trans ?_
      refine (read_row_miss arg3 (⟨8, by decide⟩ : Fin 26) (⟨4, by decide⟩ : Fin 26) (by decide) _ rfl _ _ _ _ _ d).trans ?_
      refine (read_row_miss arg3 (⟨7, by decide⟩ : Fin 26) (⟨4, by decide⟩ : Fin 26) (by decide) _ rfl _ _ _ _ _ d).trans ?_
      refine (read_row_miss arg3 (⟨6, by decide⟩ : Fin 26) (⟨4, by decide⟩ : Fin 26) (by decide) _ rfl _ _ _ _ _ d).trans ?_
      refine (read_row_miss arg3 (⟨5, by decide⟩ : Fin 26) (⟨4, by decide⟩ : Fin 26) (by decide) _ rfl _ _ _ _ _ d).trans ?_
      refine (read_row_hit arg3 (⟨4, by decide⟩ : Fin 26) _ rfl _ _ _ _ _ d).trans ?_
      exact read_src_row arg2 harg2 emb (⟨4, by decide⟩ : Fin 26) (rowOf tbl i (⟨4, by decide⟩ : Fin 26)) _ (srcoff4 i arg1 harg1 tbl hrange _) _ _ _ d
    · -- row 5: the later rows' writes miss it; its own write lands the row read from sub-table 5
      refine (read_row_miss arg3 (⟨25, by decide⟩ : Fin 26) (⟨5, by decide⟩ : Fin 26) (by decide) _ rfl _ _ _ _ _ d).trans ?_
      refine (read_row_miss arg3 (⟨24, by decide⟩ : Fin 26) (⟨5, by decide⟩ : Fin 26) (by decide) _ rfl _ _ _ _ _ d).trans ?_
      refine (read_row_miss arg3 (⟨23, by decide⟩ : Fin 26) (⟨5, by decide⟩ : Fin 26) (by decide) _ rfl _ _ _ _ _ d).trans ?_
      refine (read_row_miss arg3 (⟨22, by decide⟩ : Fin 26) (⟨5, by decide⟩ : Fin 26) (by decide) _ rfl _ _ _ _ _ d).trans ?_
      refine (read_row_miss arg3 (⟨21, by decide⟩ : Fin 26) (⟨5, by decide⟩ : Fin 26) (by decide) _ rfl _ _ _ _ _ d).trans ?_
      refine (read_row_miss arg3 (⟨20, by decide⟩ : Fin 26) (⟨5, by decide⟩ : Fin 26) (by decide) _ rfl _ _ _ _ _ d).trans ?_
      refine (read_row_miss arg3 (⟨19, by decide⟩ : Fin 26) (⟨5, by decide⟩ : Fin 26) (by decide) _ rfl _ _ _ _ _ d).trans ?_
      refine (read_row_miss arg3 (⟨18, by decide⟩ : Fin 26) (⟨5, by decide⟩ : Fin 26) (by decide) _ rfl _ _ _ _ _ d).trans ?_
      refine (read_row_miss arg3 (⟨17, by decide⟩ : Fin 26) (⟨5, by decide⟩ : Fin 26) (by decide) _ rfl _ _ _ _ _ d).trans ?_
      refine (read_row_miss arg3 (⟨16, by decide⟩ : Fin 26) (⟨5, by decide⟩ : Fin 26) (by decide) _ rfl _ _ _ _ _ d).trans ?_
      refine (read_row_miss arg3 (⟨15, by decide⟩ : Fin 26) (⟨5, by decide⟩ : Fin 26) (by decide) _ rfl _ _ _ _ _ d).trans ?_
      refine (read_row_miss arg3 (⟨14, by decide⟩ : Fin 26) (⟨5, by decide⟩ : Fin 26) (by decide) _ rfl _ _ _ _ _ d).trans ?_
      refine (read_row_miss arg3 (⟨13, by decide⟩ : Fin 26) (⟨5, by decide⟩ : Fin 26) (by decide) _ rfl _ _ _ _ _ d).trans ?_
      refine (read_row_miss arg3 (⟨12, by decide⟩ : Fin 26) (⟨5, by decide⟩ : Fin 26) (by decide) _ rfl _ _ _ _ _ d).trans ?_
      refine (read_row_miss arg3 (⟨11, by decide⟩ : Fin 26) (⟨5, by decide⟩ : Fin 26) (by decide) _ rfl _ _ _ _ _ d).trans ?_
      refine (read_row_miss arg3 (⟨10, by decide⟩ : Fin 26) (⟨5, by decide⟩ : Fin 26) (by decide) _ rfl _ _ _ _ _ d).trans ?_
      refine (read_row_miss arg3 (⟨9, by decide⟩ : Fin 26) (⟨5, by decide⟩ : Fin 26) (by decide) _ rfl _ _ _ _ _ d).trans ?_
      refine (read_row_miss arg3 (⟨8, by decide⟩ : Fin 26) (⟨5, by decide⟩ : Fin 26) (by decide) _ rfl _ _ _ _ _ d).trans ?_
      refine (read_row_miss arg3 (⟨7, by decide⟩ : Fin 26) (⟨5, by decide⟩ : Fin 26) (by decide) _ rfl _ _ _ _ _ d).trans ?_
      refine (read_row_miss arg3 (⟨6, by decide⟩ : Fin 26) (⟨5, by decide⟩ : Fin 26) (by decide) _ rfl _ _ _ _ _ d).trans ?_
      refine (read_row_hit arg3 (⟨5, by decide⟩ : Fin 26) _ rfl _ _ _ _ _ d).trans ?_
      exact read_src_row arg2 harg2 emb (⟨5, by decide⟩ : Fin 26) (rowOf tbl i (⟨5, by decide⟩ : Fin 26)) _ (srcoff5 i arg1 harg1 tbl hrange _) _ _ _ d
    · -- row 6: the later rows' writes miss it; its own write lands the row read from sub-table 6
      refine (read_row_miss arg3 (⟨25, by decide⟩ : Fin 26) (⟨6, by decide⟩ : Fin 26) (by decide) _ rfl _ _ _ _ _ d).trans ?_
      refine (read_row_miss arg3 (⟨24, by decide⟩ : Fin 26) (⟨6, by decide⟩ : Fin 26) (by decide) _ rfl _ _ _ _ _ d).trans ?_
      refine (read_row_miss arg3 (⟨23, by decide⟩ : Fin 26) (⟨6, by decide⟩ : Fin 26) (by decide) _ rfl _ _ _ _ _ d).trans ?_
      refine (read_row_miss arg3 (⟨22, by decide⟩ : Fin 26) (⟨6, by decide⟩ : Fin 26) (by decide) _ rfl _ _ _ _ _ d).trans ?_
      refine (read_row_miss arg3 (⟨21, by decide⟩ : Fin 26) (⟨6, by decide⟩ : Fin 26) (by decide) _ rfl _ _ _ _ _ d).trans ?_
      refine (read_row_miss arg3 (⟨20, by decide⟩ : Fin 26) (⟨6, by decide⟩ : Fin 26) (by decide) _ rfl _ _ _ _ _ d).trans ?_
      refine (read_row_miss arg3 (⟨19, by decide⟩ : Fin 26) (⟨6, by decide⟩ : Fin 26) (by decide) _ rfl _ _ _ _ _ d).trans ?_
      refine (read_row_miss arg3 (⟨18, by decide⟩ : Fin 26) (⟨6, by decide⟩ : Fin 26) (by decide) _ rfl _ _ _ _ _ d).trans ?_
      refine (read_row_miss arg3 (⟨17, by decide⟩ : Fin 26) (⟨6, by decide⟩ : Fin 26) (by decide) _ rfl _ _ _ _ _ d).trans ?_
      refine (read_row_miss arg3 (⟨16, by decide⟩ : Fin 26) (⟨6, by decide⟩ : Fin 26) (by decide) _ rfl _ _ _ _ _ d).trans ?_
      refine (read_row_miss arg3 (⟨15, by decide⟩ : Fin 26) (⟨6, by decide⟩ : Fin 26) (by decide) _ rfl _ _ _ _ _ d).trans ?_
      refine (read_row_miss arg3 (⟨14, by decide⟩ : Fin 26) (⟨6, by decide⟩ : Fin 26) (by decide) _ rfl _ _ _ _ _ d).trans ?_
      refine (read_row_miss arg3 (⟨13, by decide⟩ : Fin 26) (⟨6, by decide⟩ : Fin 26) (by decide) _ rfl _ _ _ _ _ d).trans ?_
      refine (read_row_miss arg3 (⟨12, by decide⟩ : Fin 26) (⟨6, by decide⟩ : Fin 26) (by decide) _ rfl _ _ _ _ _ d).trans ?_
      refine (read_row_miss arg3 (⟨11, by decide⟩ : Fin 26) (⟨6, by decide⟩ : Fin 26) (by decide) _ rfl _ _ _ _ _ d).trans ?_
      refine (read_row_miss arg3 (⟨10, by decide⟩ : Fin 26) (⟨6, by decide⟩ : Fin 26) (by decide) _ rfl _ _ _ _ _ d).trans ?_
      refine (read_row_miss arg3 (⟨9, by decide⟩ : Fin 26) (⟨6, by decide⟩ : Fin 26) (by decide) _ rfl _ _ _ _ _ d).trans ?_
      refine (read_row_miss arg3 (⟨8, by decide⟩ : Fin 26) (⟨6, by decide⟩ : Fin 26) (by decide) _ rfl _ _ _ _ _ d).trans ?_
      refine (read_row_miss arg3 (⟨7, by decide⟩ : Fin 26) (⟨6, by decide⟩ : Fin 26) (by decide) _ rfl _ _ _ _ _ d).trans ?_
      refine (read_row_hit arg3 (⟨6, by decide⟩ : Fin 26) _ rfl _ _ _ _ _ d).trans ?_
      exact read_src_row arg2 harg2 emb (⟨6, by decide⟩ : Fin 26) (rowOf tbl i (⟨6, by decide⟩ : Fin 26)) _ (srcoff6 i arg1 harg1 tbl hrange _) _ _ _ d
    · -- row 7: the later rows' writes miss it; its own write lands the row read from sub-table 7
      refine (read_row_miss arg3 (⟨25, by decide⟩ : Fin 26) (⟨7, by decide⟩ : Fin 26) (by decide) _ rfl _ _ _ _ _ d).trans ?_
      refine (read_row_miss arg3 (⟨24, by decide⟩ : Fin 26) (⟨7, by decide⟩ : Fin 26) (by decide) _ rfl _ _ _ _ _ d).trans ?_
      refine (read_row_miss arg3 (⟨23, by decide⟩ : Fin 26) (⟨7, by decide⟩ : Fin 26) (by decide) _ rfl _ _ _ _ _ d).trans ?_
      refine (read_row_miss arg3 (⟨22, by decide⟩ : Fin 26) (⟨7, by decide⟩ : Fin 26) (by decide) _ rfl _ _ _ _ _ d).trans ?_
      refine (read_row_miss arg3 (⟨21, by decide⟩ : Fin 26) (⟨7, by decide⟩ : Fin 26) (by decide) _ rfl _ _ _ _ _ d).trans ?_
      refine (read_row_miss arg3 (⟨20, by decide⟩ : Fin 26) (⟨7, by decide⟩ : Fin 26) (by decide) _ rfl _ _ _ _ _ d).trans ?_
      refine (read_row_miss arg3 (⟨19, by decide⟩ : Fin 26) (⟨7, by decide⟩ : Fin 26) (by decide) _ rfl _ _ _ _ _ d).trans ?_
      refine (read_row_miss arg3 (⟨18, by decide⟩ : Fin 26) (⟨7, by decide⟩ : Fin 26) (by decide) _ rfl _ _ _ _ _ d).trans ?_
      refine (read_row_miss arg3 (⟨17, by decide⟩ : Fin 26) (⟨7, by decide⟩ : Fin 26) (by decide) _ rfl _ _ _ _ _ d).trans ?_
      refine (read_row_miss arg3 (⟨16, by decide⟩ : Fin 26) (⟨7, by decide⟩ : Fin 26) (by decide) _ rfl _ _ _ _ _ d).trans ?_
      refine (read_row_miss arg3 (⟨15, by decide⟩ : Fin 26) (⟨7, by decide⟩ : Fin 26) (by decide) _ rfl _ _ _ _ _ d).trans ?_
      refine (read_row_miss arg3 (⟨14, by decide⟩ : Fin 26) (⟨7, by decide⟩ : Fin 26) (by decide) _ rfl _ _ _ _ _ d).trans ?_
      refine (read_row_miss arg3 (⟨13, by decide⟩ : Fin 26) (⟨7, by decide⟩ : Fin 26) (by decide) _ rfl _ _ _ _ _ d).trans ?_
      refine (read_row_miss arg3 (⟨12, by decide⟩ : Fin 26) (⟨7, by decide⟩ : Fin 26) (by decide) _ rfl _ _ _ _ _ d).trans ?_
      refine (read_row_miss arg3 (⟨11, by decide⟩ : Fin 26) (⟨7, by decide⟩ : Fin 26) (by decide) _ rfl _ _ _ _ _ d).trans ?_
      refine (read_row_miss arg3 (⟨10, by decide⟩ : Fin 26) (⟨7, by decide⟩ : Fin 26) (by decide) _ rfl _ _ _ _ _ d).trans ?_
      refine (read_row_miss arg3 (⟨9, by decide⟩ : Fin 26) (⟨7, by decide⟩ : Fin 26) (by decide) _ rfl _ _ _ _ _ d).trans ?_
      refine (read_row_miss arg3 (⟨8, by decide⟩ : Fin 26) (⟨7, by decide⟩ : Fin 26) (by decide) _ rfl _ _ _ _ _ d).trans ?_
      refine (read_row_hit arg3 (⟨7, by decide⟩ : Fin 26) _ rfl _ _ _ _ _ d).trans ?_
      exact read_src_row arg2 harg2 emb (⟨7, by decide⟩ : Fin 26) (rowOf tbl i (⟨7, by decide⟩ : Fin 26)) _ (srcoff7 i arg1 harg1 tbl hrange _) _ _ _ d
    · -- row 8: the later rows' writes miss it; its own write lands the row read from sub-table 8
      refine (read_row_miss arg3 (⟨25, by decide⟩ : Fin 26) (⟨8, by decide⟩ : Fin 26) (by decide) _ rfl _ _ _ _ _ d).trans ?_
      refine (read_row_miss arg3 (⟨24, by decide⟩ : Fin 26) (⟨8, by decide⟩ : Fin 26) (by decide) _ rfl _ _ _ _ _ d).trans ?_
      refine (read_row_miss arg3 (⟨23, by decide⟩ : Fin 26) (⟨8, by decide⟩ : Fin 26) (by decide) _ rfl _ _ _ _ _ d).trans ?_
      refine (read_row_miss arg3 (⟨22, by decide⟩ : Fin 26) (⟨8, by decide⟩ : Fin 26) (by decide) _ rfl _ _ _ _ _ d).trans ?_
      refine (read_row_miss arg3 (⟨21, by decide⟩ : Fin 26) (⟨8, by decide⟩ : Fin 26) (by decide) _ rfl _ _ _ _ _ d).trans ?_
      refine (read_row_miss arg3 (⟨20, by decide⟩ : Fin 26) (⟨8, by decide⟩ : Fin 26) (by decide) _ rfl _ _ _ _ _ d).trans ?_
      refine (read_row_miss arg3 (⟨19, by decide⟩ : Fin 26) (⟨8, by decide⟩ : Fin 26) (by decide) _ rfl _ _ _ _ _ d).trans ?_
      refine (read_row_miss arg3 (⟨18, by decide⟩ : Fin 26) (⟨8, by decide⟩ : Fin 26) (by decide) _ rfl _ _ _ _ _ d).trans ?_
      refine (read_row_miss arg3 (⟨17, by decide⟩ : Fin 26) (⟨8, by decide⟩ : Fin 26) (by decide) _ rfl _ _ _ _ _ d).trans ?_
      refine (read_row_miss arg3 (⟨16, by decide⟩ : Fin 26) (⟨8, by decide⟩ : Fin 26) (by decide) _ rfl _ _ _ _ _ d).trans ?_
      refine (read_row_miss arg3 (⟨15, by decide⟩ : Fin 26) (⟨8, by decide⟩ : Fin 26) (by decide) _ rfl _ _ _ _ _ d).trans ?_
      refine (read_row_miss arg3 (⟨14, by decide⟩ : Fin 26) (⟨8, by decide⟩ : Fin 26) (by decide) _ rfl _ _ _ _ _ d).trans ?_
      refine (read_row_miss arg3 (⟨13, by decide⟩ : Fin 26) (⟨8, by decide⟩ : Fin 26) (by decide) _ rfl _ _ _ _ _ d).trans ?_
      refine (read_row_miss arg3 (⟨12, by decide⟩ : Fin 26) (⟨8, by decide⟩ : Fin 26) (by decide) _ rfl _ _ _ _ _ d).trans ?_
      refine (read_row_miss arg3 (⟨11, by decide⟩ : Fin 26) (⟨8, by decide⟩ : Fin 26) (by decide) _ rfl _ _ _ _ _ d).trans ?_
      refine (read_row_miss arg3 (⟨10, by decide⟩ : Fin 26) (⟨8, by decide⟩ : Fin 26) (by decide) _ rfl _ _ _ _ _ d).trans ?_
      refine (read_row_miss arg3 (⟨9, by decide⟩ : Fin 26) (⟨8, by decide⟩ : Fin 26) (by decide) _ rfl _ _ _ _ _ d).trans ?_
      refine (read_row_hit arg3 (⟨8, by decide⟩ : Fin 26) _ rfl _ _ _ _ _ d).trans ?_
      exact read_src_row arg2 harg2 emb (⟨8, by decide⟩ : Fin 26) (rowOf tbl i (⟨8, by decide⟩ : Fin 26)) _ (srcoff8 i arg1 harg1 tbl hrange _) _ _ _ d
    · -- row 9: the later rows' writes miss it; its own write lands the row read from sub-table 9
      refine (read_row_miss arg3 (⟨25, by decide⟩ : Fin 26) (⟨9, by decide⟩ : Fin 26) (by decide) _ rfl _ _ _ _ _ d).trans ?_
      refine (read_row_miss arg3 (⟨24, by decide⟩ : Fin 26) (⟨9, by decide⟩ : Fin 26) (by decide) _ rfl _ _ _ _ _ d).trans ?_
      refine (read_row_miss arg3 (⟨23, by decide⟩ : Fin 26) (⟨9, by decide⟩ : Fin 26) (by decide) _ rfl _ _ _ _ _ d).trans ?_
      refine (read_row_miss arg3 (⟨22, by decide⟩ : Fin 26) (⟨9, by decide⟩ : Fin 26) (by decide) _ rfl _ _ _ _ _ d).trans ?_
      refine (read_row_miss arg3 (⟨21, by decide⟩ : Fin 26) (⟨9, by decide⟩ : Fin 26) (by decide) _ rfl _ _ _ _ _ d).trans ?_
      refine (read_row_miss arg3 (⟨20, by decide⟩ : Fin 26) (⟨9, by decide⟩ : Fin 26) (by decide) _ rfl _ _ _ _ _ d).trans ?_
      refine (read_row_miss arg3 (⟨19, by decide⟩ : Fin 26) (⟨9, by decide⟩ : Fin 26) (by decide) _ rfl _ _ _ _ _ d).trans ?_
      refine (read_row_miss arg3 (⟨18, by decide⟩ : Fin 26) (⟨9, by decide⟩ : Fin 26) (by decide) _ rfl _ _ _ _ _ d).trans ?_
      refine (read_row_miss arg3 (⟨17, by decide⟩ : Fin 26) (⟨9, by decide⟩ : Fin 26) (by decide) _ rfl _ _ _ _ _ d).trans ?_
      refine (read_row_miss arg3 (⟨16, by decide⟩ : Fin 26) (⟨9, by decide⟩ : Fin 26) (by decide) _ rfl _ _ _ _ _ d).trans ?_
      refine (read_row_miss arg3 (⟨15, by decide⟩ : Fin 26) (⟨9, by decide⟩ : Fin 26) (by decide) _ rfl _ _ _ _ _ d).trans ?_
      refine (read_row_miss arg3 (⟨14, by decide⟩ : Fin 26) (⟨9, by decide⟩ : Fin 26) (by decide) _ rfl _ _ _ _ _ d).trans ?_
      refine (read_row_miss arg3 (⟨13, by decide⟩ : Fin 26) (⟨9, by decide⟩ : Fin 26) (by decide) _ rfl _ _ _ _ _ d).trans ?_
      refine (read_row_miss arg3 (⟨12, by decide⟩ : Fin 26) (⟨9, by decide⟩ : Fin 26) (by decide) _ rfl _ _ _ _ _ d).trans ?_
      refine (read_row_miss arg3 (⟨11, by decide⟩ : Fin 26) (⟨9, by decide⟩ : Fin 26) (by decide) _ rfl _ _ _ _ _ d).trans ?_
      refine (read_row_miss arg3 (⟨10, by decide⟩ : Fin 26) (⟨9, by decide⟩ : Fin 26) (by decide) _ rfl _ _ _ _ _ d).trans ?_
      refine (read_row_hit arg3 (⟨9, by decide⟩ : Fin 26) _ rfl _ _ _ _ _ d).trans ?_
      exact read_src_row arg2 harg2 emb (⟨9, by decide⟩ : Fin 26) (rowOf tbl i (⟨9, by decide⟩ : Fin 26)) _ (srcoff9 i arg1 harg1 tbl hrange _) _ _ _ d
    · -- row 10: the later rows' writes miss it; its own write lands the row read from sub-table 10
      refine (read_row_miss arg3 (⟨25, by decide⟩ : Fin 26) (⟨10, by decide⟩ : Fin 26) (by decide) _ rfl _ _ _ _ _ d).trans ?_
      refine (read_row_miss arg3 (⟨24, by decide⟩ : Fin 26) (⟨10, by decide⟩ : Fin 26) (by decide) _ rfl _ _ _ _ _ d).trans ?_
      refine (read_row_miss arg3 (⟨23, by decide⟩ : Fin 26) (⟨10, by decide⟩ : Fin 26) (by decide) _ rfl _ _ _ _ _ d).trans ?_
      refine (read_row_miss arg3 (⟨22, by decide⟩ : Fin 26) (⟨10, by decide⟩ : Fin 26) (by decide) _ rfl _ _ _ _ _ d).trans ?_
      refine (read_row_miss arg3 (⟨21, by decide⟩ : Fin 26) (⟨10, by decide⟩ : Fin 26) (by decide) _ rfl _ _ _ _ _ d).trans ?_
      refine (read_row_miss arg3 (⟨20, by decide⟩ : Fin 26) (⟨10, by decide⟩ : Fin 26) (by decide) _ rfl _ _ _ _ _ d).trans ?_
      refine (read_row_miss arg3 (⟨19, by decide⟩ : Fin 26) (⟨10, by decide⟩ : Fin 26) (by decide) _ rfl _ _ _ _ _ d).trans ?_
      refine (read_row_miss arg3 (⟨18, by decide⟩ : Fin 26) (⟨10, by decide⟩ : Fin 26) (by decide) _ rfl _ _ _ _ _ d).trans ?_
      refine (read_row_miss arg3 (⟨17, by decide⟩ : Fin 26) (⟨10, by decide⟩ : Fin 26) (by decide) _ rfl _ _ _ _ _ d).trans ?_
      refine (read_row_miss arg3 (⟨16, by decide⟩ : Fin 26) (⟨10, by decide⟩ : Fin 26) (by decide) _ rfl _ _ _ _ _ d).trans ?_
      refine (read_row_miss arg3 (⟨15, by decide⟩ : Fin 26) (⟨10, by decide⟩ : Fin 26) (by decide) _ rfl _ _ _ _ _ d).trans ?_
      refine (read_row_miss arg3 (⟨14, by decide⟩ : Fin 26) (⟨10, by decide⟩ : Fin 26) (by decide) _ rfl _ _ _ _ _ d).trans ?_
      refine (read_row_miss arg3 (⟨13, by decide⟩ : Fin 26) (⟨10, by decide⟩ : Fin 26) (by decide) _ rfl _ _ _ _ _ d).trans ?_
      refine (read_row_miss arg3 (⟨12, by decide⟩ : Fin 26) (⟨10, by decide⟩ : Fin 26) (by decide) _ rfl _ _ _ _ _ d).trans ?_
      refine (read_row_miss arg3 (⟨11, by decide⟩ : Fin 26) (⟨10, by decide⟩ : Fin 26) (by decide) _ rfl _ _ _ _ _ d).trans ?_
      refine (read_row_hit arg3 (⟨10, by decide⟩ : Fin 26) _ rfl _ _ _ _ _ d).trans ?_
      exact read_src_row arg2 harg2 emb (⟨10, by decide⟩ : Fin 26) (rowOf tbl i (⟨10, by decide⟩ : Fin 26)) _ (srcoff10 i arg1 harg1 tbl hrange _) _ _ _ d
    · -- row 11: the later rows' writes miss it; its own write lands the row read from sub-table 11
      refine (read_row_miss arg3 (⟨25, by decide⟩ : Fin 26) (⟨11, by decide⟩ : Fin 26) (by decide) _ rfl _ _ _ _ _ d).trans ?_
      refine (read_row_miss arg3 (⟨24, by decide⟩ : Fin 26) (⟨11, by decide⟩ : Fin 26) (by decide) _ rfl _ _ _ _ _ d).trans ?_
      refine (read_row_miss arg3 (⟨23, by decide⟩ : Fin 26) (⟨11, by decide⟩ : Fin 26) (by decide) _ rfl _ _ _ _ _ d).trans ?_
      refine (read_row_miss arg3 (⟨22, by decide⟩ : Fin 26) (⟨11, by decide⟩ : Fin 26) (by decide) _ rfl _ _ _ _ _ d).trans ?_
      refine (read_row_miss arg3 (⟨21, by decide⟩ : Fin 26) (⟨11, by decide⟩ : Fin 26) (by decide) _ rfl _ _ _ _ _ d).trans ?_
      refine (read_row_miss arg3 (⟨20, by decide⟩ : Fin 26) (⟨11, by decide⟩ : Fin 26) (by decide) _ rfl _ _ _ _ _ d).trans ?_
      refine (read_row_miss arg3 (⟨19, by decide⟩ : Fin 26) (⟨11, by decide⟩ : Fin 26) (by decide) _ rfl _ _ _ _ _ d).trans ?_
      refine (read_row_miss arg3 (⟨18, by decide⟩ : Fin 26) (⟨11, by decide⟩ : Fin 26) (by decide) _ rfl _ _ _ _ _ d).trans ?_
      refine (read_row_miss arg3 (⟨17, by decide⟩ : Fin 26) (⟨11, by decide⟩ : Fin 26) (by decide) _ rfl _ _ _ _ _ d).trans ?_
      refine (read_row_miss arg3 (⟨16, by decide⟩ : Fin 26) (⟨11, by decide⟩ : Fin 26) (by decide) _ rfl _ _ _ _ _ d).trans ?_
      refine (read_row_miss arg3 (⟨15, by decide⟩ : Fin 26) (⟨11, by decide⟩ : Fin 26) (by decide) _ rfl _ _ _ _ _ d).trans ?_
      refine (read_row_miss arg3 (⟨14, by decide⟩ : Fin 26) (⟨11, by decide⟩ : Fin 26) (by decide) _ rfl _ _ _ _ _ d).trans ?_
      refine (read_row_miss arg3 (⟨13, by decide⟩ : Fin 26) (⟨11, by decide⟩ : Fin 26) (by decide) _ rfl _ _ _ _ _ d).trans ?_
      refine (read_row_miss arg3 (⟨12, by decide⟩ : Fin 26) (⟨11, by decide⟩ : Fin 26) (by decide) _ rfl _ _ _ _ _ d).trans ?_
      refine (read_row_hit arg3 (⟨11, by decide⟩ : Fin 26) _ rfl _ _ _ _ _ d).trans ?_
      exact read_src_row arg2 harg2 emb (⟨11, by decide⟩ : Fin 26) (rowOf tbl i (⟨11, by decide⟩ : Fin 26)) _ (srcoff11 i arg1 harg1 tbl hrange _) _ _ _ d
    · -- row 12: the later rows' writes miss it; its own write lands the row read from sub-table 12
      refine (read_row_miss arg3 (⟨25, by decide⟩ : Fin 26) (⟨12, by decide⟩ : Fin 26) (by decide) _ rfl _ _ _ _ _ d).trans ?_
      refine (read_row_miss arg3 (⟨24, by decide⟩ : Fin 26) (⟨12, by decide⟩ : Fin 26) (by decide) _ rfl _ _ _ _ _ d).trans ?_
      refine (read_row_miss arg3 (⟨23, by decide⟩ : Fin 26) (⟨12, by decide⟩ : Fin 26) (by decide) _ rfl _ _ _ _ _ d).trans ?_
      refine (read_row_miss arg3 (⟨22, by decide⟩ : Fin 26) (⟨12, by decide⟩ : Fin 26) (by decide) _ rfl _ _ _ _ _ d).trans ?_
      refine (read_row_miss arg3 (⟨21, by decide⟩ : Fin 26) (⟨12, by decide⟩ : Fin 26) (by decide) _ rfl _ _ _ _ _ d).trans ?_
      refine (read_row_miss arg3 (⟨20, by decide⟩ : Fin 26) (⟨12, by decide⟩ : Fin 26) (by decide) _ rfl _ _ _ _ _ d).trans ?_
      refine (read_row_miss arg3 (⟨19, by decide⟩ : Fin 26) (⟨12, by decide⟩ : Fin 26) (by decide) _ rfl _ _ _ _ _ d).trans ?_
      refine (read_row_miss arg3 (⟨18, by decide⟩ : Fin 26) (⟨12, by decide⟩ : Fin 26) (by decide) _ rfl _ _ _ _ _ d).trans ?_
      refine (read_row_miss arg3 (⟨17, by decide⟩ : Fin 26) (⟨12, by decide⟩ : Fin 26) (by decide) _ rfl _ _ _ _ _ d).trans ?_
      refine (read_row_miss arg3 (⟨16, by decide⟩ : Fin 26) (⟨12, by decide⟩ : Fin 26) (by decide) _ rfl _ _ _ _ _ d).trans ?_
      refine (read_row_miss arg3 (⟨15, by decide⟩ : Fin 26) (⟨12, by decide⟩ : Fin 26) (by decide) _ rfl _ _ _ _ _ d).trans ?_
      refine (read_row_miss arg3 (⟨14, by decide⟩ : Fin 26) (⟨12, by decide⟩ : Fin 26) (by decide) _ rfl _ _ _ _ _ d).trans ?_
      refine (read_row_miss arg3 (⟨13, by decide⟩ : Fin 26) (⟨12, by decide⟩ : Fin 26) (by decide) _ rfl _ _ _ _ _ d).trans ?_
      refine (read_row_hit arg3 (⟨12, by decide⟩ : Fin 26) _ rfl _ _ _ _ _ d).trans ?_
      exact read_src_row arg2 harg2 emb (⟨12, by decide⟩ : Fin 26) (rowOf tbl i (⟨12, by decide⟩ : Fin 26)) _ (srcoff12 i arg1 harg1 tbl hrange _) _ _ _ d
    · -- row 13: the later rows' writes miss it; its own write lands the row read from sub-table 13
      refine (read_row_miss arg3 (⟨25, by decide⟩ : Fin 26) (⟨13, by decide⟩ : Fin 26) (by decide) _ rfl _ _ _ _ _ d).trans ?_
      refine (read_row_miss arg3 (⟨24, by decide⟩ : Fin 26) (⟨13, by decide⟩ : Fin 26) (by decide) _ rfl _ _ _ _ _ d).trans ?_
      refine (read_row_miss arg3 (⟨23, by decide⟩ : Fin 26) (⟨13, by decide⟩ : Fin 26) (by decide) _ rfl _ _ _ _ _ d).trans ?_
      refine (read_row_miss arg3 (⟨22, by decide⟩ : Fin 26) (⟨13, by decide⟩ : Fin 26) (by decide) _ rfl _ _ _ _ _ d).trans ?_
      refine (read_row_miss arg3 (⟨21, by decide⟩ : Fin 26) (⟨13, by decide⟩ : Fin 26) (by decide) _ rfl _ _ _ _ _ d).trans ?_
      refine (read_row_miss arg3 (⟨20, by decide⟩ : Fin 26) (⟨13, by decide⟩ : Fin 26) (by decide) _ rfl _ _ _ _ _ d).trans ?_
      refine (read_row_miss arg3 (⟨19, by decide⟩ : Fin 26) (⟨13, by decide⟩ : Fin 26) (by decide) _ rfl _ _ _ _ _ d).trans ?_
      refine (read_row_miss arg3 (⟨18, by decide⟩ : Fin 26) (⟨13, by decide⟩ : Fin 26) (by decide) _ rfl _ _ _ _ _ d).trans ?_
      refine (read_row_miss arg3 (⟨17, by decide⟩ : Fin 26) (⟨13, by decide⟩ : Fin 26) (by decide) _ rfl _ _ _ _ _ d).trans ?_
      refine (read_row_miss arg3 (⟨16, by decide⟩ : Fin 26) (⟨13, by decide⟩ : Fin 26) (by decide) _ rfl _ _ _ _ _ d).trans ?_
      refine (read_row_miss arg3 (⟨15, by decide⟩ : Fin 26) (⟨13, by decide⟩ : Fin 26) (by decide) _ rfl _ _ _ _ _ d).trans ?_
      refine (read_row_miss arg3 (⟨14, by decide⟩ : Fin 26) (⟨13, by decide⟩ : Fin 26) (by decide) _ rfl _ _ _ _ _ d).trans ?_
      refine (read_row_hit arg3 (⟨13, by decide⟩ : Fin 26) _ rfl _ _ _ _ _ d).trans ?_
      exact read_src_row arg2 harg2 emb (⟨13, by decide⟩ : Fin 26) (rowOf tbl i (⟨13, by decide⟩ : Fin 26)) _ (srcoff13 i arg1 harg1 tbl hrange _) _ _ _ d
    · -- row 14: the later rows' writes miss it; its own write lands the row read from sub-table 14
      refine (read_row_miss arg3 (⟨25, by decide⟩ : Fin 26) (⟨14, by decide⟩ : Fin 26) (by decide) _ rfl _ _ _ _ _ d).trans ?_
      refine (read_row_miss arg3 (⟨24, by decide⟩ : Fin 26) (⟨14, by decide⟩ : Fin 26) (by decide) _ rfl _ _ _ _ _ d).trans ?_
      refine (read_row_miss arg3 (⟨23, by decide⟩ : Fin 26) (⟨14, by decide⟩ : Fin 26) (by decide) _ rfl _ _ _ _ _ d).trans ?_
      refine (read_row_miss arg3 (⟨22, by decide⟩ : Fin 26) (⟨14, by decide⟩ : Fin 26) (by decide) _ rfl _ _ _ _ _ d).trans ?_
      refine (read_row_miss arg3 (⟨21, by decide⟩ : Fin 26) (⟨14, by decide⟩ : Fin 26) (by decide) _ rfl _ _ _ _ _ d).trans ?_
      refine (read_row_miss arg3 (⟨20, by decide⟩ : Fin 26) (⟨14, by decide⟩ : Fin 26) (by decide) _ rfl _ _ _ _ _ d).trans ?_
      refine (read_row_miss arg3 (⟨19, by decide⟩ : Fin 26) (⟨14, by decide⟩ : Fin 26) (by decide) _ rfl _ _ _ _ _ d).trans ?_
      refine (read_row_miss arg3 (⟨18, by decide⟩ : Fin 26) (⟨14, by decide⟩ : Fin 26) (by decide) _ rfl _ _ _ _ _ d).trans ?_
      refine (read_row_miss arg3 (⟨17, by decide⟩ : Fin 26) (⟨14, by decide⟩ : Fin 26) (by decide) _ rfl _ _ _ _ _ d).trans ?_
      refine (read_row_miss arg3 (⟨16, by decide⟩ : Fin 26) (⟨14, by decide⟩ : Fin 26) (by decide) _ rfl _ _ _ _ _ d).trans ?_
      refine (read_row_miss arg3 (⟨15, by decide⟩ : Fin 26) (⟨14, by decide⟩ : Fin 26) (by decide) _ rfl _ _ _ _ _ d).trans ?_
      refine (read_row_hit arg3 (⟨14, by decide⟩ : Fin 26) _ rfl _ _ _ _ _ d).trans ?_
      exact read_src_row arg2 harg2 emb (⟨14, by decide⟩ : Fin 26) (rowOf tbl i (⟨14, by decide⟩ : Fin 26)) _ (srcoff14 i arg1 harg1 tbl hrange _) _ _ _ d
    · -- row 15: the later rows' writes miss it; its own write lands the row read from sub-table 15
      refine (read_row_miss arg3 (⟨25, by decide⟩ : Fin 26) (⟨15, by decide⟩ : Fin 26) (by decide) _ rfl _ _ _ _ _ d).trans ?_
      refine (read_row_miss arg3 (⟨24, by decide⟩ : Fin 26) (⟨15, by decide⟩ : Fin 26) (by decide) _ rfl _ _ _ _ _ d).trans ?_
      refine (read_row_miss arg3 (⟨23, by decide⟩ : Fin 26) (⟨15, by decide⟩ : Fin 26) (by decide) _ rfl _ _ _ _ _ d).trans ?_
      refine (read_row_miss arg3 (⟨22, by decide⟩ : Fin 26) (⟨15, by decide⟩ : Fin 26) (by decide) _ rfl _ _ _ _ _ d).trans ?_
      refine (read_row_miss arg3 (⟨21, by decide⟩ : Fin 26) (⟨15, by decide⟩ : Fin 26) (by decide) _ rfl _ _ _ _ _ d).trans ?_
      refine (read_row_miss arg3 (⟨20, by decide⟩ : Fin 26) (⟨15, by decide⟩ : Fin 26) (by decide) _ rfl _ _ _ _ _ d).trans ?_
      refine (read_row_miss arg3 (⟨19, by decide⟩ : Fin 26) (⟨15, by decide⟩ : Fin 26) (by decide) _ rfl _ _ _ _ _ d).trans ?_
      refine (read_row_miss arg3 (⟨18, by decide⟩ : Fin 26) (⟨15, by decide⟩ : Fin 26) (by decide) _ rfl _ _ _ _ _ d).trans ?_
      refine (read_row_miss arg3 (⟨17, by decide⟩ : Fin 26) (⟨15, by decide⟩ : Fin 26) (by decide) _ rfl _ _ _ _ _ d).trans ?_
      refine (read_row_miss arg3 (⟨16, by decide⟩ : Fin 26) (⟨15, by decide⟩ : Fin 26) (by decide) _ rfl _ _ _ _ _ d).trans ?_
      refine (read_row_hit arg3 (⟨15, by decide⟩ : Fin 26) _ rfl _ _ _ _ _ d).trans ?_
      exact read_src_row arg2 harg2 emb (⟨15, by decide⟩ : Fin 26) (rowOf tbl i (⟨15, by decide⟩ : Fin 26)) _ (srcoff15 i arg1 harg1 tbl hrange _) _ _ _ d
    · -- row 16: the later rows' writes miss it; its own write lands the row read from sub-table 16
      refine (read_row_miss arg3 (⟨25, by decide⟩ : Fin 26) (⟨16, by decide⟩ : Fin 26) (by decide) _ rfl _ _ _ _ _ d).trans ?_
      refine (read_row_miss arg3 (⟨24, by decide⟩ : Fin 26) (⟨16, by decide⟩ : Fin 26) (by decide) _ rfl _ _ _ _ _ d).trans ?_
      refine (read_row_miss arg3 (⟨23, by decide⟩ : Fin 26) (⟨16, by decide⟩ : Fin 26) (by decide) _ rfl _ _ _ _ _ d).trans ?_
      refine (read_row_miss arg3 (⟨22, by decide⟩ : Fin 26) (⟨16, by decide⟩ : Fin 26) (by decide) _ rfl _ _ _ _ _ d).trans ?_
      refine (read_row_miss arg3 (⟨21, by decide⟩ : Fin 26) (⟨16, by decide⟩ : Fin 26) (by decide) _ rfl _ _ _ _ _ d).trans ?_
      refine (read_row_miss arg3 (⟨20, by decide⟩ : Fin 26) (⟨16, by decide⟩ : Fin 26) (by decide) _ rfl _ _ _ _ _ d).trans ?_
      refine (read_row_miss arg3 (⟨19, by decide⟩ : Fin 26) (⟨16, by decide⟩ : Fin 26) (by decide) _ rfl _ _ _ _ _ d).trans ?_
      refine (read_row_miss arg3 (⟨18, by decide⟩ : Fin 26) (⟨16, by decide⟩ : Fin 26) (by decide) _ rfl _ _ _ _ _ d).trans ?_
      refine (read_row_miss arg3 (⟨17, by decide⟩ : Fin 26) (⟨16, by decide⟩ : Fin 26) (by decide) _ rfl _ _ _ _ _ d).trans ?_
      refine (read_row_hit arg3 (⟨16, by decide⟩ : Fin 26) _ rfl _ _ _ _ _ d).trans ?_
      exact read_src_row arg2 harg2 emb (⟨16, by decide⟩ : Fin 26) (rowOf tbl i (⟨16, by decide⟩ : Fin 26)) _ (srcoff16 i arg1 harg1 tbl hrange _) _ _ _ d
    · -- row 17: the later rows' writes miss it; its own write lands the row read from sub-table 17
      refine (read_row_miss arg3 (⟨25, by decide⟩ : Fin 26) (⟨17, by decide⟩ : Fin 26) (by decide) _ rfl _ _ _ _ _ d).trans ?_
      refine (read_row_miss arg3 (⟨24, by decide⟩ : Fin 26) (⟨17, by decide⟩ : Fin 26) (by decide) _ rfl _ _ _ _ _ d).trans ?_
      refine (read_row_miss arg3 (⟨23, by decide⟩ : Fin 26) (⟨17, by decide⟩ : Fin 26) (by decide) _ rfl _ _ _ _ _ d).trans ?_
      refine (read_row_miss arg3 (⟨22, by decide⟩ : Fin 26) (⟨17, by decide⟩ : Fin 26) (by decide) _ rfl _ _ _ _ _ d).trans ?_
      refine (read_row_miss arg3 (⟨21, by decide⟩ : Fin 26) (⟨17, by decide⟩ : Fin 26) (by decide) _ rfl _ _ _ _ _ d).trans ?_
      refine (read_row_miss arg3 (⟨20, by decide⟩ : Fin 26) (⟨17, by decide⟩ : Fin 26) (by decide) _ rfl _ _ _ _ _ d).trans ?_
      refine (read_row_miss arg3 (⟨19, by decide⟩ : Fin 26) (⟨17, by decide⟩ : Fin 26) (by decide) _ rfl _ _ _ _ _ d).trans ?_
      refine (read_row_miss arg3 (⟨18, by decide⟩ : Fin 26) (⟨17, by decide⟩ : Fin 26) (by decide) _ rfl _ _ _ _ _ d).trans ?_
      refine (read_row_hit arg3 (⟨17, by decide⟩ : Fin 26) _ rfl _ _ _ _ _ d).trans ?_
      exact read_src_row arg2 harg2 emb (⟨17, by decide⟩ : Fin 26) (rowOf tbl i (⟨17, by decide⟩ : Fin 26)) _ (srcoff17 i arg1 harg1 tbl hrange _) _ _ _ d
    · -- row 18: the later rows' writes miss it; its own write lands the row read from sub-table 18
      refine (read_row_miss arg3 (⟨25, by decide⟩ : Fin 26) (⟨18, by decide⟩ : Fin 26) (by decide) _ rfl _ _ _ _ _ d).trans ?_
      refine (read_row_miss arg3 (⟨24, by decide⟩ : Fin 26) (⟨18, by decide⟩ : Fin 26) (by decide) _ rfl _ _ _ _ _ d).trans ?_
      refine (read_row_miss arg3 (⟨23, by decide⟩ : Fin 26) (⟨18, by decide⟩ : Fin 26) (by decide) _ rfl _ _ _ _ _ d).trans ?_
      refine (read_row_miss arg3 (⟨22, by decide⟩ : Fin 26) (⟨18, by decide⟩ : Fin 26) (by decide) _ rfl _ _ _ _ _ d).trans ?_
      refine (read_row_miss arg3 (⟨21, by decide⟩ : Fin 26) (⟨18, by decide⟩ : Fin 26) (by decide) _ rfl _ _ _ _ _ d).trans ?_
      refine (read_row_miss arg3 (⟨20, by decide⟩ : Fin 26) (⟨18, by decide⟩ : Fin 26) (by decide) _ rfl _ _ _ _ _ d).trans ?_
      refine (read_row_miss arg3 (⟨19, by decide⟩ : Fin 26) (⟨18, by decide⟩ : Fin 26) (by decide) _ rfl _ _ _ _ _ d).trans ?_
      refine (read_row_hit arg3 (⟨18, by decide⟩ : Fin 26) _ rfl _ _ _ _ _ d).trans ?_
      exact read_src_row arg2 harg2 emb (⟨18, by decide⟩ : Fin 26) (rowOf tbl i (⟨18, by decide⟩ : Fin 26)) _ (srcoff18 i arg1 harg1 tbl hrange _) _ _ _ d
    · -- row 19: the later rows' writes miss it; its own write lands the row read from sub-table 19
      refine (read_row_miss arg3 (⟨25, by decide⟩ : Fin 26) (⟨19, by decide⟩ : Fin 26) (by decide) _ rfl _ _ _ _ _ d).trans ?_
      refine (read_row_miss arg3 (⟨24, by decide⟩ : Fin 26) (⟨19, by decide⟩ : Fin 26) (by decide) _ rfl _ _ _ _ _ d).trans ?_
      refine (read_row_miss arg3 (⟨23, by decide⟩ : Fin 26) (⟨19, by decide⟩ : Fin 26) (by decide) _ rfl _ _ _ _ _ d).trans ?_
      refine (read_row_miss arg3 (⟨22, by decide⟩ : Fin 26) (⟨19, by decide⟩ : Fin 26) (by decide) _ rfl _ _ _ _ _ d).trans ?_
      refine (read_row_miss arg3 (⟨21, by decide⟩ : Fin 26) (⟨19, by decide⟩ : Fin 26) (by decide) _ rfl _ _ _ _ _ d).trans ?_
      refine (read_row_miss arg3 (⟨20, by decide⟩ : Fin 26) (⟨19, by decide⟩ : Fin 26) (by decide) _ rfl _ _ _ _ _ d).trans ?_
      refine (read_row_hit arg3 (⟨19, by decide⟩ : Fin 26) _ rfl _ _ _ _ _ d).trans ?_
      exact read_src_row arg2 harg2 emb (⟨19, by decide⟩ : Fin 26) (rowOf tbl i (⟨19, by decide⟩ : Fin 26)) _ (srcoff19 i arg1 harg1 tbl hrange _) _ _ _ d
    · -- row 20: the later rows' writes miss it; its own write lands the row read from sub-table 20
      refine (read_row_miss arg3 (⟨25, by decide⟩ : Fin 26) (⟨20, by decide⟩ : Fin 26) (by decide) _ rfl _ _ _ _ _ d).trans ?_
      refine (read_row_miss arg3 (⟨24, by decide⟩ : Fin 26) (⟨20, by decide⟩ : Fin 26) (by decide) _ rfl _ _ _ _ _ d).trans ?_
      refine (read_row_miss arg3 (⟨23, by decide⟩ : Fin 26) (⟨20, by decide⟩ : Fin 26) (by decide) _ rfl _ _ _ _ _ d).trans ?_
      refine (read_row_miss arg3 (⟨22, by decide⟩ : Fin 26) (⟨20, by decide⟩ : Fin 26) (by decide) _ rfl _ _ _ _ _ d).trans ?_
      refine (read_row_miss arg3 (⟨21, by decide⟩ : Fin 26) (⟨20, by decide⟩ : Fin 26) (by decide) _ rfl _ _ _ _ _ d).trans ?_
      refine (read_row_hit arg3 (⟨20, by decide⟩ : Fin 26) _ rfl _ _ _ _ _ d).trans ?_
      exact read_src_row arg2 harg2 emb (⟨20, by decide⟩ : Fin 26) (rowOf tbl i (⟨20, by decide⟩ : Fin 26)) _ (srcoff20 i arg1 harg1 tbl hrange _) _ _ _ d
    · -- row 21: the later rows' writes miss it; its own write lands the row read from sub-table 21
      refine (read_row_miss arg3 (⟨25, by decide⟩ : Fin 26) (⟨21, by decide⟩ : Fin 26) (by decide) _ rfl _ _ _ _ _ d).trans ?_
      refine (read_row_miss arg3 (⟨24, by decide⟩ : Fin 26) (⟨21, by decide⟩ : Fin 26) (by decide) _ rfl _ _ _ _ _ d).trans ?_
      refine (read_row_miss arg3 (⟨23, by decide⟩ : Fin 26) (⟨21, by decide⟩ : Fin 26) (by decide) _ rfl _ _ _ _ _ d).trans ?_
      refine (read_row_miss arg3 (⟨22, by decide⟩ : Fin 26) (⟨21, by decide⟩ : Fin 26) (by decide) _ rfl _ _ _ _ _ d).trans ?_
      refine (read_row_hit arg3 (⟨21, by decide⟩ : Fin 26) _ rfl _ _ _ _ _ d).trans ?_
      exact read_src_row arg2 harg2 emb (⟨21, by decide⟩ : Fin 26) (rowOf tbl i (⟨21, by decide⟩ : Fin 26)) _ (srcoff21 i arg1 harg1 tbl hrange _) _ _ _ d
    · -- row 22: the later rows' writes miss it; its own write lands the row read from sub-table 22
      refine (read_row_miss arg3 (⟨25, by decide⟩ : Fin 26) (⟨22, by decide⟩ : Fin 26) (by decide) _ rfl _ _ _ _ _ d).trans ?_
      refine (read_row_miss arg3 (⟨24, by decide⟩ : Fin 26) (⟨22, by decide⟩ : Fin 26) (by decide) _ rfl _ _ _ _ _ d).trans ?_
      refine (read_row_miss arg3 (⟨23, by decide⟩ : Fin 26) (⟨22, by decide⟩ : Fin 26) (by decide) _ rfl _ _ _ _ _ d).trans ?_
      refine (read_row_hit arg3 (⟨22, by decide⟩ : Fin 26) _ rfl _ _ _ _ _ d).trans ?_
      exact read_src_row arg2 harg2 emb (⟨22, by decide⟩ : Fin 26) (rowOf tbl i (⟨22, by decide⟩ : Fin 26)) _ (srcoff22 i arg1 harg1 tbl hrange _) _ _ _ d
    · -- row 23: the later rows' writes miss it; its own write lands the row read from sub-table 23
      refine (read_row_miss arg3 (⟨25, by decide⟩ : Fin 26) (⟨23, by decide⟩ : Fin 26) (by decide) _ rfl _ _ _ _ _ d).trans ?_
      refine (read_row_miss arg3 (⟨24, by decide⟩ : Fin 26) (⟨23, by decide⟩ : Fin 26) (by decide) _ rfl _ _ _ _ _ d).trans ?_
      refine (read_row_hit arg3 (⟨23, by decide⟩ : Fin 26) _ rfl _ _ _ _ _ d).trans ?_
      exact read_src_row arg2 harg2 emb (⟨23, by decide⟩ : Fin 26) (rowOf tbl i (⟨23, by decide⟩ : Fin 26)) _ (srcoff23 i arg1 harg1 tbl hrange _) _ _ _ d
    · -- row 24: the later rows' writes miss it; its own write lands the row read from sub-table 24
      refine (read_row_miss arg3 (⟨25, by decide⟩ : Fin 26) (⟨24, by decide⟩ : Fin 26) (by decide) _ rfl _ _ _ _ _ d).trans ?_
      refine (read_row_hit arg3 (⟨24, by decide⟩ : Fin 26) _ rfl _ _ _ _ _ d).trans ?_
      exact read_src_row arg2 harg2 emb (⟨24, by decide⟩ : Fin 26) (rowOf tbl i (⟨24, by decide⟩ : Fin 26)) _ (srcoff24 i arg1 harg1 tbl hrange _) _ _ _ d
    · -- row 25: the later rows' writes miss it; its own write lands the row read from sub-table 25
      refine (read_row_hit arg3 (⟨25, by decide⟩ : Fin 26) _ rfl _ _ _ _ _ d).trans ?_
      exact read_src_row arg2 harg2 emb (⟨25, by decide⟩ : Fin 26) (rowOf tbl i (⟨25, by decide⟩ : Fin 26)) _ (srcoff25 i arg1 harg1 tbl hrange _) _ _ _ d
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    iexact Hq25
  iexists _; iexact HW

end Cert.KernelIdeal.Gather2

end
-- ==== Proof.G2Body.lean ====
/-
  The gather call's body at one grid point: its triple.

  The body's run (`gatherRun`) leaves the output window's buffer in eleven pieces — rows 0 to 9 each alone, and the
  rest — each at contents that hold on it what the buffer reading `gatherBlk tbl emb i` holds. Pieces at contents
  that agree with one function on them are pieces at that function, and the eleven are the whole buffer
  (`pieces_join`: row `j` lies in the buffer less the rows before it, the rows being pairwise apart). So the body's
  triple follows (`sound_gather2`): from the table and the stacked tables at any shares, the window's buffer whole and
  the call's 26 counters at zero, the body returns all of them with the buffer holding the gathered block and the
  counters back at zero.
-/
import proofs.«407213_j20864951124667_1_alg».proof.Proof.G2Run

set_option maxRecDepth 16384

noncomputable section

namespace Cert.KernelIdeal.Gather2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts₀] [Facts]
open Facts₀ Facts

local notation "𝕄" => MT nD τ sig Unit (Elt F) ℕ (Pipeline.UD sig nD τ) ℕ

section Join

variable (c : Dev nD) (arg3 : Memref sig .tc .vmem S1x26x64 .f32) (harg3 : arg3.IsWhole) (B : Vec F S1x26x64 .f32)

set_option maxHeartbeats 1000000 in
/-- The eleven pieces the run leaves the buffer in, each at contents that agree on it with the buffer reading `B`,
    are the whole buffer reading `B`. -/
theorem pieces_join (d0 d1 d2 d3 d4 d5 d6 d7 d8 d9 dR : Buf (Elt F) (arg3.view.loc (c : Thread nD τ)))
    (h0 : ∀ idx ∈ rowSet c arg3 (⟨0, of_decide_eq_true rfl⟩ : Fin 26), d0 idx = (harg3.unread B) idx)
    (h1 : ∀ idx ∈ rowSet c arg3 (⟨1, of_decide_eq_true rfl⟩ : Fin 26), d1 idx = (harg3.unread B) idx)
    (h2 : ∀ idx ∈ rowSet c arg3 (⟨2, of_decide_eq_true rfl⟩ : Fin 26), d2 idx = (harg3.unread B) idx)
    (h3 : ∀ idx ∈ rowSet c arg3 (⟨3, of_decide_eq_true rfl⟩ : Fin 26), d3 idx = (harg3.unread B) idx)
    (h4 : ∀ idx ∈ rowSet c arg3 (⟨4, of_decide_eq_true rfl⟩ : Fin 26), d4 idx = (harg3.unread B) idx)
    (h5 : ∀ idx ∈ rowSet c arg3 (⟨5, of_decide_eq_true rfl⟩ : Fin 26), d5 idx = (harg3.unread B) idx)
    (h6 : ∀ idx ∈ rowSet c arg3 (⟨6, of_decide_eq_true rfl⟩ : Fin 26), d6 idx = (harg3.unread B) idx)
    (h7 : ∀ idx ∈ rowSet c arg3 (⟨7, of_decide_eq_true rfl⟩ : Fin 26), d7 idx = (harg3.unread B) idx)
    (h8 : ∀ idx ∈ rowSet c arg3 (⟨8, of_decide_eq_true rfl⟩ : Fin 26), d8 idx = (harg3.unread B) idx)
    (h9 : ∀ idx ∈ rowSet c arg3 (⟨9, of_decide_eq_true rfl⟩ : Fin 26), d9 idx = (harg3.unread B) idx)
    (hR : ∀ idx ∈ arg3.view.set, dR idx = (harg3.unread B) idx) :
    (iprop((arg3.view.loc (c : Thread nD τ) ↦[(rowM arg3 (⟨0, of_decide_eq_true rfl⟩ : Fin 26)).view.set]{fullShare} d0)
        ∗ (arg3.view.loc (c : Thread nD τ) ↦[(rowM arg3 (⟨1, of_decide_eq_true rfl⟩ : Fin 26)).view.set]{fullShare} d1)
        ∗ (arg3.view.loc (c : Thread nD τ) ↦[(rowM arg3 (⟨2, of_decide_eq_true rfl⟩ : Fin 26)).view.set]{fullShare} d2)
        ∗ (arg3.view.loc (c : Thread nD τ) ↦[(rowM arg3 (⟨3, of_decide_eq_true rfl⟩ : Fin 26)).view.set]{fullShare} d3)
        ∗ (arg3.view.loc (c : Thread nD τ) ↦[(rowM arg3 (⟨4, of_decide_eq_true rfl⟩ : Fin 26)).view.set]{fullShare} d4)
        ∗ (arg3.view.loc (c : Thread nD τ) ↦[(rowM arg3 (⟨5, of_decide_eq_true rfl⟩ : Fin 26)).view.set]{fullShare} d5)
        ∗ (arg3.view.loc (c : Thread nD τ) ↦[(rowM arg3 (⟨6, of_decide_eq_true rfl⟩ : Fin 26)).view.set]{fullShare} d6)
        ∗ (arg3.view.loc (c : Thread nD τ) ↦[(rowM arg3 (⟨7, of_decide_eq_true rfl⟩ : Fin 26)).view.set]{fullShare} d7)
        ∗ (arg3.view.loc (c : Thread nD τ) ↦[(rowM arg3 (⟨8, of_decide_eq_true rfl⟩ : Fin 26)).view.set]{fullShare} d8)
        ∗ (arg3.view.loc (c : Thread nD τ) ↦[(rowM arg3 (⟨9, of_decide_eq_true rfl⟩ : Fin 26)).view.set]{fullShare} d9)
        ∗ (arg3.view.loc (c : Thread nD τ) ↦[((((((((((arg3.view.set \ (rowM arg3 (⟨0, of_decide_eq_true rfl⟩ : Fin 26)).view.set) \ (rowM arg3 (⟨1, of_decide_eq_true rfl⟩ : Fin 26)).view.set) \ (rowM arg3 (⟨2, of_decide_eq_true rfl⟩ : Fin 26)).view.set) \ (rowM arg3 (⟨3, of_decide_eq_true rfl⟩ : Fin 26)).view.set) \ (rowM arg3 (⟨4, of_decide_eq_true rfl⟩ : Fin 26)).view.set) \ (rowM arg3 (⟨5, of_decide_eq_true rfl⟩ : Fin 26)).view.set) \ (rowM arg3 (⟨6, of_decide_eq_true rfl⟩ : Fin 26)).view.set) \ (rowM arg3 (⟨7, of_decide_eq_true rfl⟩ : Fin 26)).view.set) \ (rowM arg3 (⟨8, of_decide_eq_true rfl⟩ : Fin 26)).view.set) \ (rowM arg3 (⟨9, of_decide_eq_true rfl⟩ : Fin 26)).view.set)]{fullShare} dR)) : sProp 𝕄)
      ⊢ arg3.view.loc (c : Thread nD τ) ↦[arg3.view.set]{fullShare} (harg3.unread B) := by
  have e0 : (arg3.view.loc (c : Thread nD τ) ↦[(rowM arg3 (⟨0, of_decide_eq_true rfl⟩ : Fin 26)).view.set]{fullShare} d0 : sProp 𝕄)
      = arg3.view.loc (c : Thread nD τ) ↦[(rowM arg3 (⟨0, of_decide_eq_true rfl⟩ : Fin 26)).view.set]{fullShare} (harg3.unread B) := pointsTo_congr h0
  have e1 : (arg3.view.loc (c : Thread nD τ) ↦[(rowM arg3 (⟨1, of_decide_eq_true rfl⟩ : Fin 26)).view.set]{fullShare} d1 : sProp 𝕄)
      = arg3.view.loc (c : Thread nD τ) ↦[(rowM arg3 (⟨1, of_decide_eq_true rfl⟩ : Fin 26)).view.set]{fullShare} (harg3.unread B) := pointsTo_congr h1
  have e2 : (arg3.view.loc (c : Thread nD τ) ↦[(rowM arg3 (⟨2, of_decide_eq_true rfl⟩ : Fin 26)).view.set]{fullShare} d2 : sProp 𝕄)
      = arg3.view.loc (c : Thread nD τ) ↦[(rowM arg3 (⟨2, of_decide_eq_true rfl⟩ : Fin 26)).view.set]{fullShare} (harg3.unread B) := pointsTo_congr h2
  have e3 : (arg3.view.loc (c : Thread nD τ) ↦[(rowM arg3 (⟨3, of_decide_eq_true rfl⟩ : Fin 26)).view.set]{fullShare} d3 : sProp 𝕄)
      = arg3.view.loc (c : Thread nD τ) ↦[(rowM arg3 (⟨3, of_decide_eq_true rfl⟩ : Fin 26)).view.set]{fullShare} (harg3.unread B) := pointsTo_congr h3
  have e4 : (arg3.view.loc (c : Thread nD τ) ↦[(rowM arg3 (⟨4, of_decide_eq_true rfl⟩ : Fin 26)).view.set]{fullShare} d4 : sProp 𝕄)
      = arg3.view.loc (c : Thread nD τ) ↦[(rowM arg3 (⟨4, of_decide_eq_true rfl⟩ : Fin 26)).view.set]{fullShare} (harg3.unread B) := pointsTo_congr h4
  have e5 : (arg3.view.loc (c : Thread nD τ) ↦[(rowM arg3 (⟨5, of_decide_eq_true rfl⟩ : Fin 26)).view.set]{fullShare} d5 : sProp 𝕄)
      = arg3.view.loc (c : Thread nD τ) ↦[(rowM arg3 (⟨5, of_decide_eq_true rfl⟩ : Fin 26)).view.set]{fullShare} (harg3.unread B) := pointsTo_congr h5
  have e6 : (arg3.view.loc (c : Thread nD τ) ↦[(rowM arg3 (⟨6, of_decide_eq_true rfl⟩ : Fin 26)).view.set]{fullShare} d6 : sProp 𝕄)
      = arg3.view.loc (c : Thread nD τ) ↦[(rowM arg3 (⟨6, of_decide_eq_true rfl⟩ : Fin 26)).view.set]{fullShare} (harg3.unread B) := pointsTo_congr h6
  have e7 : (arg3.view.loc (c : Thread nD τ) ↦[(rowM arg3 (⟨7, of_decide_eq_true rfl⟩ : Fin 26)).view.set]{fullShare} d7 : sProp 𝕄)
      = arg3.view.loc (c : Thread nD τ) ↦[(rowM arg3 (⟨7, of_decide_eq_true rfl⟩ : Fin 26)).view.set]{fullShare} (harg3.unread B) := pointsTo_congr h7
  have e8 : (arg3.view.loc (c : Thread nD τ) ↦[(rowM arg3 (⟨8, of_decide_eq_true rfl⟩ : Fin 26)).view.set]{fullShare} d8 : sProp 𝕄)
      = arg3.view.loc (c : Thread nD τ) ↦[(rowM arg3 (⟨8, of_decide_eq_true rfl⟩ : Fin 26)).view.set]{fullShare} (harg3.unread B) := pointsTo_congr h8
  have e9 : (arg3.view.loc (c : Thread nD τ) ↦[(rowM arg3 (⟨9, of_decide_eq_true rfl⟩ : Fin 26)).view.set]{fullShare} d9 : sProp 𝕄)
      = arg3.view.loc (c : Thread nD τ) ↦[(rowM arg3 (⟨9, of_decide_eq_true rfl⟩ : Fin 26)).view.set]{fullShare} (harg3.unread B) := pointsTo_congr h9
  have eR : (arg3.view.loc (c : Thread nD τ) ↦[((((((((((arg3.view.set \ (rowM arg3 (⟨0, of_decide_eq_true rfl⟩ : Fin 26)).view.set) \ (rowM arg3 (⟨1, of_decide_eq_true rfl⟩ : Fin 26)).view.set) \ (rowM arg3 (⟨2, of_decide_eq_true rfl⟩ : Fin 26)).view.set) \ (rowM arg3 (⟨3, of_decide_eq_true rfl⟩ : Fin 26)).view.set) \ (rowM arg3 (⟨4, of_decide_eq_true rfl⟩ : Fin 26)).view.set) \ (rowM arg3 (⟨5, of_decide_eq_true rfl⟩ : Fin 26)).view.set) \ (rowM arg3 (⟨6, of_decide_eq_true rfl⟩ : Fin 26)).view.set) \ (rowM arg3 (⟨7, of_decide_eq_true rfl⟩ : Fin 26)).view.set) \ (rowM arg3 (⟨8, of_decide_eq_true rfl⟩ : Fin 26)).view.set) \ (rowM arg3 (⟨9, of_decide_eq_true rfl⟩ : Fin 26)).view.set)]{fullShare} dR : sProp 𝕄)
      = arg3.view.loc (c : Thread nD τ) ↦[((((((((((arg3.view.set \ (rowM arg3 (⟨0, of_decide_eq_true rfl⟩ : Fin 26)).view.set) \ (rowM arg3 (⟨1, of_decide_eq_true rfl⟩ : Fin 26)).view.set) \ (rowM arg3 (⟨2, of_decide_eq_true rfl⟩ : Fin 26)).view.set) \ (rowM arg3 (⟨3, of_decide_eq_true rfl⟩ : Fin 26)).view.set) \ (rowM arg3 (⟨4, of_decide_eq_true rfl⟩ : Fin 26)).view.set) \ (rowM arg3 (⟨5, of_decide_eq_true rfl⟩ : Fin 26)).view.set) \ (rowM arg3 (⟨6, of_decide_eq_true rfl⟩ : Fin 26)).view.set) \ (rowM arg3 (⟨7, of_decide_eq_true rfl⟩ : Fin 26)).view.set) \ (rowM arg3 (⟨8, of_decide_eq_true rfl⟩ : Fin 26)).view.set) \ (rowM arg3 (⟨9, of_decide_eq_true rfl⟩ : Fin 26)).view.set)]{fullShare} (harg3.unread B) :=
    pointsTo_congr fun idx hi => hR idx
      ((Finset.sdiff_subset.trans (Finset.sdiff_subset.trans (Finset.sdiff_subset.trans (Finset.sdiff_subset.trans (Finset.sdiff_subset.trans (Finset.sdiff_subset.trans (Finset.sdiff_subset.trans (Finset.sdiff_subset.trans (Finset.sdiff_subset.trans (Finset.sdiff_subset)))))))))) hi)
  rw [e0, e1, e2, e3, e4, e5, e6, e7, e8, e9, eR]
  iintro ⟨P0, P1, P2, P3, P4, P5, P6, P7, P8, P9, PR⟩
  ihave PR := (pointsTo_split_subset (sub_sdiff (sub_sdiff (sub_sdiff (sub_sdiff (sub_sdiff (sub_sdiff (sub_sdiff (sub_sdiff (sub_sdiff (rowSet_subset c arg3 (⟨9, of_decide_eq_true rfl⟩ : Fin 26)) (rowSet_disjoint c arg3 (⟨9, of_decide_eq_true rfl⟩ : Fin 26) (⟨0, of_decide_eq_true rfl⟩ : Fin 26) (by decide))) (rowSet_disjoint c arg3 (⟨9, of_decide_eq_true rfl⟩ : Fin 26) (⟨1, of_decide_eq_true rfl⟩ : Fin 26) (by decide))) (rowSet_disjoint c arg3 (⟨9, of_decide_eq_true rfl⟩ : Fin 26) (⟨2, of_decide_eq_true rfl⟩ : Fin 26) (by decide))) (rowSet_disjoint c arg3 (⟨9, of_decide_eq_true rfl⟩ : Fin 26) (⟨3, of_decide_eq_true rfl⟩ : Fin 26) (by decide))) (rowSet_disjoint c arg3 (⟨9, of_decide_eq_true rfl⟩ : Fin 26) (⟨4, of_decide_eq_true rfl⟩ : Fin 26) (by decide))) (rowSet_disjoint c arg3 (⟨9, of_decide_eq_true rfl⟩ : Fin 26) (⟨5, of_decide_eq_true rfl⟩ : Fin 26) (by decide))) (rowSet_disjoint c arg3 (⟨9, of_decide_eq_true rfl⟩ : Fin 26) (⟨6, of_decide_eq_true rfl⟩ : Fin 26) (by decide))) (rowSet_disjoint c arg3 (⟨9, of_decide_eq_true rfl⟩ : Fin 26) (⟨7, of_decide_eq_true rfl⟩ : Fin 26) (by decide))) (rowSet_disjoint c arg3 (⟨9, of_decide_eq_true rfl⟩ : Fin 26) (⟨8, of_decide_eq_true rfl⟩ : Fin 26) (by decide)))).2 $$ [P9 PR]
  · isplitl [P9]; · iexact P9
    iexact PR
  ihave PR := (pointsTo_split_subset (sub_sdiff (sub_sdiff (sub_sdiff (sub_sdiff (sub_sdiff (sub_sdiff (sub_sdiff (sub_sdiff (rowSet_subset c arg3 (⟨8, of_decide_eq_true rfl⟩ : Fin 26)) (rowSet_disjoint c arg3 (⟨8, of_decide_eq_true rfl⟩ : Fin 26) (⟨0, of_decide_eq_true rfl⟩ : Fin 26) (by decide))) (rowSet_disjoint c arg3 (⟨8, of_decide_eq_true rfl⟩ : Fin 26) (⟨1, of_decide_eq_true rfl⟩ : Fin 26) (by decide))) (rowSet_disjoint c arg3 (⟨8, of_decide_eq_true rfl⟩ : Fin 26) (⟨2, of_decide_eq_true rfl⟩ : Fin 26) (by decide))) (rowSet_disjoint c arg3 (⟨8, of_decide_eq_true rfl⟩ : Fin 26) (⟨3, of_decide_eq_true rfl⟩ : Fin 26) (by decide))) (rowSet_disjoint c arg3 (⟨8, of_decide_eq_true rfl⟩ : Fin 26) (⟨4, of_decide_eq_true rfl⟩ : Fin 26) (by decide))) (rowSet_disjoint c arg3 (⟨8, of_decide_eq_true rfl⟩ : Fin 26) (⟨5, of_decide_eq_true rfl⟩ : Fin 26) (by decide))) (rowSet_disjoint c arg3 (⟨8, of_decide_eq_true rfl⟩ : Fin 26) (⟨6, of_decide_eq_true rfl⟩ : Fin 26) (by decide))) (rowSet_disjoint c arg3 (⟨8, of_decide_eq_true rfl⟩ : Fin 26) (⟨7, of_decide_eq_true rfl⟩ : Fin 26) (by decide)))).2 $$ [P8 PR]
  · isplitl [P8]; · iexact P8
    iexact PR
  ihave PR := (pointsTo_split_subset (sub_sdiff (sub_sdiff (sub_sdiff (sub_sdiff (sub_sdiff (sub_sdiff (sub_sdiff (rowSet_subset c arg3 (⟨7, of_decide_eq_true rfl⟩ : Fin 26)) (rowSet_disjoint c arg3 (⟨7, of_decide_eq_true rfl⟩ : Fin 26) (⟨0, of_decide_eq_true rfl⟩ : Fin 26) (by decide))) (rowSet_disjoint c arg3 (⟨7, of_decide_eq_true rfl⟩ : Fin 26) (⟨1, of_decide_eq_true rfl⟩ : Fin 26) (by decide))) (rowSet_disjoint c arg3 (⟨7, of_decide_eq_true rfl⟩ : Fin 26) (⟨2, of_decide_eq_true rfl⟩ : Fin 26) (by decide))) (rowSet_disjoint c arg3 (⟨7, of_decide_eq_true rfl⟩ : Fin 26) (⟨3, of_decide_eq_true rfl⟩ : Fin 26) (by decide))) (rowSet_disjoint c arg3 (⟨7, of_decide_eq_true rfl⟩ : Fin 26) (⟨4, of_decide_eq_true rfl⟩ : Fin 26) (by decide))) (rowSet_disjoint c arg3 (⟨7, of_decide_eq_true rfl⟩ : Fin 26) (⟨5, of_decide_eq_true rfl⟩ : Fin 26) (by decide))) (rowSet_disjoint c arg3 (⟨7, of_decide_eq_true rfl⟩ : Fin 26) (⟨6, of_decide_eq_true rfl⟩ : Fin 26) (by decide)))).2 $$ [P7 PR]
  · isplitl [P7]; · iexact P7
    iexact PR
  ihave PR := (pointsTo_split_subset (sub_sdiff (sub_sdiff (sub_sdiff (sub_sdiff (sub_sdiff (sub_sdiff (rowSet_subset c arg3 (⟨6, of_decide_eq_true rfl⟩ : Fin 26)) (rowSet_disjoint c arg3 (⟨6, of_decide_eq_true rfl⟩ : Fin 26) (⟨0, of_decide_eq_true rfl⟩ : Fin 26) (by decide))) (rowSet_disjoint c arg3 (⟨6, of_decide_eq_true rfl⟩ : Fin 26) (⟨1, of_decide_eq_true rfl⟩ : Fin 26) (by decide))) (rowSet_disjoint c arg3 (⟨6, of_decide_eq_true rfl⟩ : Fin 26) (⟨2, of_decide_eq_true rfl⟩ : Fin 26) (by decide))) (rowSet_disjoint c arg3 (⟨6, of_decide_eq_true rfl⟩ : Fin 26) (⟨3, of_decide_eq_true rfl⟩ : Fin 26) (by decide))) (rowSet_disjoint c arg3 (⟨6, of_decide_eq_true rfl⟩ : Fin 26) (⟨4, of_decide_eq_true rfl⟩ : Fin 26) (by decide))) (rowSet_disjoint c arg3 (⟨6, of_decide_eq_true rfl⟩ : Fin 26) (⟨5, of_decide_eq_true rfl⟩ : Fin 26) (by decide)))).2 $$ [P6 PR]
  · isplitl [P6]; · iexact P6
    iexact PR
  ihave PR := (pointsTo_split_subset (sub_sdiff (sub_sdiff (sub_sdiff (sub_sdiff (sub_sdiff (rowSet_subset c arg3 (⟨5, of_decide_eq_true rfl⟩ : Fin 26)) (rowSet_disjoint c arg3 (⟨5, of_decide_eq_true rfl⟩ : Fin 26) (⟨0, of_decide_eq_true rfl⟩ : Fin 26) (by decide))) (rowSet_disjoint c arg3 (⟨5, of_decide_eq_true rfl⟩ : Fin 26) (⟨1, of_decide_eq_true rfl⟩ : Fin 26) (by decide))) (rowSet_disjoint c arg3 (⟨5, of_decide_eq_true rfl⟩ : Fin 26) (⟨2, of_decide_eq_true rfl⟩ : Fin 26) (by decide))) (rowSet_disjoint c arg3 (⟨5, of_decide_eq_true rfl⟩ : Fin 26) (⟨3, of_decide_eq_true rfl⟩ : Fin 26) (by decide))) (rowSet_disjoint c arg3 (⟨5, of_decide_eq_true rfl⟩ : Fin 26) (⟨4, of_decide_eq_true rfl⟩ : Fin 26) (by decide)))).2 $$ [P5 PR]
  · isplitl [P5]; · iexact P5
    iexact PR
  ihave PR := (pointsTo_split_subset (sub_sdiff (sub_sdiff (sub_sdiff (sub_sdiff (rowSet_subset c arg3 (⟨4, of_decide_eq_true rfl⟩ : Fin 26)) (rowSet_disjoint c arg3 (⟨4, of_decide_eq_true rfl⟩ : Fin 26) (⟨0, of_decide_eq_true rfl⟩ : Fin 26) (by decide))) (rowSet_disjoint c arg3 (⟨4, of_decide_eq_true rfl⟩ : Fin 26) (⟨1, of_decide_eq_true rfl⟩ : Fin 26) (by decide))) (rowSet_disjoint c arg3 (⟨4, of_decide_eq_true rfl⟩ : Fin 26) (⟨2, of_decide_eq_true rfl⟩ : Fin 26) (by decide))) (rowSet_disjoint c arg3 (⟨4, of_decide_eq_true rfl⟩ : Fin 26) (⟨3, of_decide_eq_true rfl⟩ : Fin 26) (by decide)))).2 $$ [P4 PR]
  · isplitl [P4]; · iexact P4
    iexact PR
  ihave PR := (pointsTo_split_subset (sub_sdiff (sub_sdiff (sub_sdiff (rowSet_subset c arg3 (⟨3, of_decide_eq_true rfl⟩ : Fin 26)) (rowSet_disjoint c arg3 (⟨3, of_decide_eq_true rfl⟩ : Fin 26) (⟨0, of_decide_eq_true rfl⟩ : Fin 26) (by decide))) (rowSet_disjoint c arg3 (⟨3, of_decide_eq_true rfl⟩ : Fin 26) (⟨1, of_decide_eq_true rfl⟩ : Fin 26) (by decide))) (rowSet_disjoint c arg3 (⟨3, of_decide_eq_true rfl⟩ : Fin 26) (⟨2, of_decide_eq_true rfl⟩ : Fin 26) (by decide)))).2 $$ [P3 PR]
  · isplitl [P3]; · iexact P3
    iexact PR
  ihave PR := (pointsTo_split_subset (sub_sdiff (sub_sdiff (rowSet_subset c arg3 (⟨2, of_decide_eq_true rfl⟩ : Fin 26)) (rowSet_disjoint c arg3 (⟨2, of_decide_eq_true rfl⟩ : Fin 26) (⟨0, of_decide_eq_true rfl⟩ : Fin 26) (by decide))) (rowSet_disjoint c arg3 (⟨2, of_decide_eq_true rfl⟩ : Fin 26) (⟨1, of_decide_eq_true rfl⟩ : Fin 26) (by decide)))).2 $$ [P2 PR]
  · isplitl [P2]; · iexact P2
    iexact PR
  ihave PR := (pointsTo_split_subset (sub_sdiff (rowSet_subset c arg3 (⟨1, of_decide_eq_true rfl⟩ : Fin 26)) (rowSet_disjoint c arg3 (⟨1, of_decide_eq_true rfl⟩ : Fin 26) (⟨0, of_decide_eq_true rfl⟩ : Fin 26) (by decide)))).2 $$ [P1 PR]
  · isplitl [P1]; · iexact P1
    iexact PR
  ihave PR := (pointsTo_split_subset (rowSet_subset c arg3 (⟨0, of_decide_eq_true rfl⟩ : Fin 26))).2 $$ [P0 PR]
  · isplitl [P0]; · iexact P0
    iexact PR
  iexact PR

end Join

/-- A whole memref's buffer at the contents that read `X` is owned at `X`. -/
theorem owns_unread (c : Dev nD) {sp : Space} {sh : Shape} {e : EltTy} (m : Memref sig .tc sp sh e) (hm : m.IsWhole)
    (q : PosShare TreeShare) (X : sh.Idx → Elt F e) :
    (m.view.loc (c : Thread nD τ) ↦[m.view.set]{q} hm.unread X : sProp 𝕄) ⊢ owns (c : Thread nD τ) m q X := by
  unfold owns
  iintro H
  iexists _
  isplitr; · ipureintro; exact hm.read_unread X
  iexact H

/-- The gather call's body at grid point `i`, under any table `D` of bodies (it makes no call): from the table and
    the stacked tables at any shares, the output window's buffer whole, the call's cells at zero and the core's record
    of waits, it returns them with the window holding the gathered block. -/
theorem sound_gather2 (D : Defs nD τ sig (Elt F) Λ₀) (c : Dev nD) (i : grid0.Coords)
    (arg1 : Memref sig .tc .smem S4096x26 .i32) (harg1 : arg1.IsWhole)
    (arg2 : Memref sig .tc .hbm S26x131073x64 .f32) (harg2 : arg2.IsWhole)
    (arg3 : Memref sig .tc .vmem S1x26x64 .f32) (harg3 : arg3.IsWhole)
    (tbl : Vec F S4096x26 .i32) (emb : Vec F S26x131073x64 .f32) (q1 q2 : PosShare TreeShare)
    (hrange : ∀ f : Fin 26, (tbl (ValueIdx.ix2 (⟨(i 0).val, (i 0).isLt⟩ : Fin 4096) f)).toNat < 131073)
    (W : Waits sig Unit) (K : PUnit → sProp 𝕄) :
    iprop(owns (c : Thread nD τ) arg1 q1 tbl ∗ owns (c : Thread nD τ) arg2 q2 emb ∗ (∃ d, owns (c : Thread nD τ) arg3 fullShare d)
        ∗ sems0 c ∗ owes (c : Thread nD τ) 0 W
        ∗ (iprop(owns (c : Thread nD τ) arg1 q1 tbl ∗ owns (c : Thread nD τ) arg2 q2 emb
              ∗ owns (c : Thread nD τ) arg3 fullShare (gatherBlk tbl emb i) ∗ sems0 c ∗ (∃ W', owes (c : Thread nD τ) 0 W')) -∗ K ⟨⟩))
      ⊢ wp frame (wpE D Variants.none c none) Set.univ
          (cc0__gather_kernel i arg1 harg1 arg2 harg2 arg3 harg3 cc2_scratch0) K := by
  have hopen : (iprop(∃ d, owns (c : Thread nD τ) arg3 fullShare d) : sProp 𝕄)
      ⊢ iprop(∃ f3, arg3.view.loc (c : Thread nD τ) ↦[arg3.view.set]{fullShare} f3) := by
    unfold owns
    iintro ⟨%d, %f, -, H⟩
    iexists f; iexact H
  iintro ⟨H1, H2, H3, Hs, HW, Hk⟩
  ihave H3' := hopen $$ H3
  icases H3' with ⟨%f3, H3⟩
  iapply (gatherRun D c i arg1 harg1 arg2 harg2 arg3 harg3 tbl emb q1 q2 hrange f3 W K)
  isplitl [H1]; · iexact H1
  isplitl [H2]; · iexact H2
  isplitl [H3]; · iexact H3
  isplitl [Hs]; · iexact Hs
  isplitl [HW]; · iexact HW
  iintro ⟨H1, H2, ⟨%d0, %h0, P0⟩, ⟨%d1, %h1, P1⟩, ⟨%d2, %h2, P2⟩, ⟨%d3, %h3, P3⟩, ⟨%d4, %h4, P4⟩, ⟨%d5, %h5, P5⟩, ⟨%d6, %h6, P6⟩, ⟨%d7, %h7, P7⟩, ⟨%d8, %h8, P8⟩, ⟨%d9, %h9, P9⟩, ⟨%dR, %hR, PR⟩, Hs, HW⟩
  iapply Hk
  isplitl [H1]; · iexact H1
  isplitl [H2]; · iexact H2
  isplitl [P0 P1 P2 P3 P4 P5 P6 P7 P8 P9 PR]
  · iapply (owns_unread c arg3 harg3 fullShare (gatherBlk tbl emb i))
    iapply (pieces_join c arg3 harg3 (gatherBlk tbl emb i) d0 d1 d2 d3 d4 d5 d6 d7 d8 d9 dR h0 h1 h2 h3 h4 h5 h6 h7 h8 h9 hR)
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    iexact PR
  isplitl [Hs]; · iexact Hs
  iexact HW

/-- The region invariant's statement of the call's own cells at zero is the chain the body's run holds them in. -/
theorem sems0_eq (c : Dev nD) :
    (Pipeline.ownSems0 (Ix := Unit) (Name := ℕ) (U := Pipeline.UD sig nD τ) (Lvl := ℕ) (Val := Elt F) (τ := τ) osem c : sProp 𝕄)
      = sems0 c := by
  rw [Pipeline.ownSems0_eq_of_list c osem [0, 1, 2, 3, 4, 5, 6, 7, 8, 9, 10, 11, 12, 13, 14, 15, 16, 17, 18, 19, 20, 21, 22, 23, 24, 25] (by decide) (by decide)]; rfl

end Cert.KernelIdeal.Gather2

end
-- ==== Proof.Fr.Trip2.lean ====
/- The hypothesis `Triple2` of the region's modules, discharged by the gather body's triple (the gather calls run one function). -/
import proofs.«407213_j20864951124667_1_alg».proof.Proof.Fr.Obl2
import proofs.«407213_j20864951124667_1_alg».proof.Proof.Fr.TripG
import proofs.«407213_j20864951124667_1_alg».proof.Proof.G2Body

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
set_option maxRecDepth 16384

/-! # The gather body's triple, in the form region 2 consumes it -/

/-- The gather calls run one function: this call's body is the first call's. -/
theorem cc2_eq_cc0 (i : grid0.Coords) (arg1 : Memref sig .tc .smem S4096x26 .i32) (harg1 : arg1.IsWhole) (arg2 : Memref sig .tc .hbm S26x131073x64 .f32) (harg2 : arg2.IsWhole) (arg3 : Memref sig .tc .vmem S1x26x64 .f32) (harg3 : arg3.IsWhole) (arg4 : DmaSems sig S26) :
    cc2__gather_kernel (F := F) i arg1 harg1 arg2 harg2 arg3 harg3 arg4 = cc0__gather_kernel (F := F) i arg1 harg1 arg2 harg2 arg3 harg3 arg4 := rfl

/-- The generic triple at this call's table and cells, at any body table: from the body's triple, the table of row numbers and
    the stacked tables as whole memrefs at the full share, the 26 cells listed. -/
theorem tripleG2 (D : Defs nD τ sig (Elt F) Λ₀) :
    TripleG (F := F) (Memref.whole main_v14) (Memref.isWhole_whole _) cc2_scratch0 Gather2.osem D := fun c i arg3 harg3 tbl emb hr W K => by
  rw [Gather2.sems0_eq]
  exact Gather2.sound_gather2 D c i (Memref.whole main_v14) (Memref.isWhole_whole _) (Memref.whole main_arg2) (Memref.isWhole_whole _)
    arg3 harg3 tbl emb fullShare fullShare hr W K

/-- `Triple2`: this call runs the first call's body, and the generic triple at this program's body table. -/
theorem triple2 : Triple2 (F := F) := fun c i arg3 harg3 tbl emb hr W K => by
  rw [cc2_eq_cc0]
  exact tripleG2 defs₀ c i arg3 harg3 tbl emb hr W K

end Cert.KernelIdeal.Fr

end
-- ==== Proof.G3Run.lean ====
/-
  The gather call's body at one grid point: its run.

  At grid point `i` the body reads, for each of the 26 sub-tables `f`, the word `tbl[i, f]` from the table of row
  numbers (scalar memory), takes it for a row number in range (the side condition it assumes of the word: the one-row
  window at that row lies inside the stacked tables), and starts a copy of row `tbl[i, f]` of sub-table `f` into row
  `f` of the output window's buffer, each copy on a semaphore of its own; then it waits for the 26 copies in turn. No
  two copies share a semaphore, a source row or a destination row, every copy is waited for before the body ends, and
  nothing reads the window's buffer in between.

  This module proves what the assumed side conditions need — each word the body loads is the table's entry
  (`readAt_tbl`), which the range hypothesis puts in range (`chk1` … `chk26`) — and runs the body once
  (`gatherRun`): the window's buffer ends in eleven pieces — rows 0 to 9 each alone, and the rest — each at contents
  that hold on it what the buffer reading the gathered block holds: read at row `k`, the writes of the later rows
  miss it (`read_row_miss`), the write of row `k` gives the row the copy read (`read_row_hit`), and that row is
  `emb[k, tbl[i, k], ·]` (`read_src_row`). Putting the pieces together is the next module's.
-/
import proofs.«407213_j20864951124667_1_alg».proof.Proof.G3Defs
import proofs.«407213_j20864951124667_1_alg».proof.Proof.Gen.KernelIdeal.Skeleton
import Idealize.ShloMosaic.Lib.ValueIdx
import Idealize.ShloMosaic.Lib.Pipeline.FrameBody
import Idealize.ShloMosaic.Lib.Ring
import Idealize.ShloMosaic.Lib.WholeRead
import Idealize.ShloMosaic.Lib.Tactic

set_option maxRecDepth 16384

noncomputable section

namespace Cert.KernelIdeal.Gather3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts₀] [Facts]
open Facts₀ Facts

local notation "𝕄" => MT nD τ sig Unit (Elt F) ℕ (Pipeline.UD sig nD τ) ℕ

/-- The call's 26 own transfer-semaphore counters at zero: the cells of its scratch array, as cells of the pool. -/
abbrev sems0 (c : Dev nD) : sProp 𝕄 :=
  iprop(semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0)

/-- A unit load of a whole table held at the contents that read `tbl`, at offsets `(i, f)`, reads `tbl[i, f]`. -/
theorem readAt_tbl (i : grid0.Coords) (arg1 : Memref sig .tc .smem S4096x26 .i32) (harg1 : arg1.IsWhole)
    (tbl : Vec F S4096x26 .i32) (f : Fin 26) (off : Fin 2 → ℕ) (hoff : off = ![(i 0).val, f.val])
    (h : ∀ a, off a + S1x1.size a ≤ S4096x26.size a)
    (x : (Rect.unit (s := S4096x26) off S1x1.size h).toLoadRect.shape.Idx) :
    View.readAt (Elt F) arg1.view (Rect.unit (s := S4096x26) off S1x1.size h).toLoadRect (harg1.unread tbl) x
      = tbl (ValueIdx.ix2 (⟨(i 0).val, (i 0).isLt⟩ : Fin 4096) f) := by
  subst hoff
  rw [harg1.readAt_unread]
  congr 1
  funext a
  apply Fin.ext
  have hx : ∀ a, (x a).val = 0 := fun a => by
    have := (x a).isLt
    fin_cases a <;> simp_all [Rect.unit, Rect.toLoadRect, S1x1] <;> omega
  fin_cases a <;> simp [LoadRect.idx, Rect.unit, Rect.toLoadRect, ValueIdx.ix2, hx]

/-- The in-bounds condition of a one-row window of the stacked tables at sub-table `f` and a row below the count. -/
theorem chk_core (v : BitVec 32) (f : ℕ) (hf : f < 26) (hv : v.toNat < 131073) :
    ∀ a : Fin 3, (![f, v.toNat, 0] : Fin 3 → ℕ) a + S1x1x64.size a ≤ S26x131073x64.size a := by
  intro a
  fin_cases a <;> simp [S1x1x64, S26x131073x64] <;> omega

theorem off1_eq (i : grid0.Coords) : k0_off1 i = ![(i 0).val, 0] := by
  have h : (i 0).val < 4096 := (i 0).isLt
  unfold k0_off1
  simp only [Scalar.indexCast, BitVec.toNat_ofNat]
  congr 1
  omega

/-- The word the body loads for sub-table 0 satisfies the condition the body assumes of it. -/
theorem chk1 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk1 (View.readAt (Elt F) arg1.view (Rect.unit (s := S4096x26) (k0_off1 i) S1x1.size (Facts₀.k0_off1_inb i)).toLoadRect (harg1.unread tbl) x) := fun x => by
  rw [readAt_tbl i arg1 harg1 tbl (⟨0, by decide⟩ : Fin 26) _ (off1_eq i)]
  exact ⟨chk_core _ 0 (by decide) (hrange _), chk_core _ 0 (by decide) (hrange _)⟩

theorem off3_eq (i : grid0.Coords) : k0_off3 i = ![(i 0).val, 1] := by
  have h : (i 0).val < 4096 := (i 0).isLt
  unfold k0_off3
  simp only [Scalar.indexCast, BitVec.toNat_ofNat]
  congr 1
  omega

/-- The word the body loads for sub-table 1 satisfies the condition the body assumes of it. -/
theorem chk2 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk2 (View.readAt (Elt F) arg1.view (Rect.unit (s := S4096x26) (k0_off3 i) S1x1.size (Facts₀.k0_off3_inb i)).toLoadRect (harg1.unread tbl) x) := fun x => by
  rw [readAt_tbl i arg1 harg1 tbl (⟨1, by decide⟩ : Fin 26) _ (off3_eq i)]
  exact ⟨chk_core _ 1 (by decide) (hrange _), chk_core _ 1 (by decide) (hrange _)⟩

theorem off5_eq (i : grid0.Coords) : k0_off5 i = ![(i 0).val, 2] := by
  have h : (i 0).val < 4096 := (i 0).isLt
  unfold k0_off5
  simp only [Scalar.indexCast, BitVec.toNat_ofNat]
  congr 1
  omega

/-- The word the body loads for sub-table 2 satisfies the condition the body assumes of it. -/
theorem chk3 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk3 (View.readAt (Elt F) arg1.view (Rect.unit (s := S4096x26) (k0_off5 i) S1x1.size (Facts₀.k0_off5_inb i)).toLoadRect (harg1.unread tbl) x) := fun x => by
  rw [readAt_tbl i arg1 harg1 tbl (⟨2, by decide⟩ : Fin 26) _ (off5_eq i)]
  exact ⟨chk_core _ 2 (by decide) (hrange _), chk_core _ 2 (by decide) (hrange _)⟩

theorem off7_eq (i : grid0.Coords) : k0_off7 i = ![(i 0).val, 3] := by
  have h : (i 0).val < 4096 := (i 0).isLt
  unfold k0_off7
  simp only [Scalar.indexCast, BitVec.toNat_ofNat]
  congr 1
  omega

/-- The word the body loads for sub-table 3 satisfies the condition the body assumes of it. -/
theorem chk4 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk4 (View.readAt (Elt F) arg1.view (Rect.unit (s := S4096x26) (k0_off7 i) S1x1.size (Facts₀.k0_off7_inb i)).toLoadRect (harg1.unread tbl) x) := fun x => by
  rw [readAt_tbl i arg1 harg1 tbl (⟨3, by decide⟩ : Fin 26) _ (off7_eq i)]
  exact ⟨chk_core _ 3 (by decide) (hrange _), chk_core _ 3 (by decide) (hrange _)⟩

theorem off9_eq (i : grid0.Coords) : k0_off9 i = ![(i 0).val, 4] := by
  have h : (i 0).val < 4096 := (i 0).isLt
  unfold k0_off9
  simp only [Scalar.indexCast, BitVec.toNat_ofNat]
  congr 1
  omega

/-- The word the body loads for sub-table 4 satisfies the condition the body assumes of it. -/
theorem chk5 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk5 (View.readAt (Elt F) arg1.view (Rect.unit (s := S4096x26) (k0_off9 i) S1x1.size (Facts₀.k0_off9_inb i)).toLoadRect (harg1.unread tbl) x) := fun x => by
  rw [readAt_tbl i arg1 harg1 tbl (⟨4, by decide⟩ : Fin 26) _ (off9_eq i)]
  exact ⟨chk_core _ 4 (by decide) (hrange _), chk_core _ 4 (by decide) (hrange _)⟩

theorem off11_eq (i : grid0.Coords) : k0_off11 i = ![(i 0).val, 5] := by
  have h : (i 0).val < 4096 := (i 0).isLt
  unfold k0_off11
  simp only [Scalar.indexCast, BitVec.toNat_ofNat]
  congr 1
  omega

/-- The word the body loads for sub-table 5 satisfies the condition the body assumes of it. -/
theorem chk6 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk6 (View.readAt (Elt F) arg1.view (Rect.unit (s := S4096x26) (k0_off11 i) S1x1.size (Facts₀.k0_off11_inb i)).toLoadRect (harg1.unread tbl) x) := fun x => by
  rw [readAt_tbl i arg1 harg1 tbl (⟨5, by decide⟩ : Fin 26) _ (off11_eq i)]
  exact ⟨chk_core _ 5 (by decide) (hrange _), chk_core _ 5 (by decide) (hrange _)⟩

theorem off13_eq (i : grid0.Coords) : k0_off13 i = ![(i 0).val, 6] := by
  have h : (i 0).val < 4096 := (i 0).isLt
  unfold k0_off13
  simp only [Scalar.indexCast, BitVec.toNat_ofNat]
  congr 1
  omega

/-- The word the body loads for sub-table 6 satisfies the condition the body assumes of it. -/
theorem chk7 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk7 (View.readAt (Elt F) arg1.view (Rect.unit (s := S4096x26) (k0_off13 i) S1x1.size (Facts₀.k0_off13_inb i)).toLoadRect (harg1.unread tbl) x) := fun x => by
  rw [readAt_tbl i arg1 harg1 tbl (⟨6, by decide⟩ : Fin 26) _ (off13_eq i)]
  exact ⟨chk_core _ 6 (by decide) (hrange _), chk_core _ 6 (by decide) (hrange _)⟩

theorem off15_eq (i : grid0.Coords) : k0_off15 i = ![(i 0).val, 7] := by
  have h : (i 0).val < 4096 := (i 0).isLt
  unfold k0_off15
  simp only [Scalar.indexCast, BitVec.toNat_ofNat]
  congr 1
  omega

/-- The word the body loads for sub-table 7 satisfies the condition the body assumes of it. -/
theorem chk8 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk8 (View.readAt (Elt F) arg1.view (Rect.unit (s := S4096x26) (k0_off15 i) S1x1.size (Facts₀.k0_off15_inb i)).toLoadRect (harg1.unread tbl) x) := fun x => by
  rw [readAt_tbl i arg1 harg1 tbl (⟨7, by decide⟩ : Fin 26) _ (off15_eq i)]
  exact ⟨chk_core _ 7 (by decide) (hrange _), chk_core _ 7 (by decide) (hrange _)⟩

theorem off17_eq (i : grid0.Coords) : k0_off17 i = ![(i 0).val, 8] := by
  have h : (i 0).val < 4096 := (i 0).isLt
  unfold k0_off17
  simp only [Scalar.indexCast, BitVec.toNat_ofNat]
  congr 1
  omega

/-- The word the body loads for sub-table 8 satisfies the condition the body assumes of it. -/
theorem chk9 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk9 (View.readAt (Elt F) arg1.view (Rect.unit (s := S4096x26) (k0_off17 i) S1x1.size (Facts₀.k0_off17_inb i)).toLoadRect (harg1.unread tbl) x) := fun x => by
  rw [readAt_tbl i arg1 harg1 tbl (⟨8, by decide⟩ : Fin 26) _ (off17_eq i)]
  exact ⟨chk_core _ 8 (by decide) (hrange _), chk_core _ 8 (by decide) (hrange _)⟩

theorem off19_eq (i : grid0.Coords) : k0_off19 i = ![(i 0).val, 9] := by
  have h : (i 0).val < 4096 := (i 0).isLt
  unfold k0_off19
  simp only [Scalar.indexCast, BitVec.toNat_ofNat]
  congr 1
  omega

/-- The word the body loads for sub-table 9 satisfies the condition the body assumes of it. -/
theorem chk10 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk10 (View.readAt (Elt F) arg1.view (Rect.unit (s := S4096x26) (k0_off19 i) S1x1.size (Facts₀.k0_off19_inb i)).toLoadRect (harg1.unread tbl) x) := fun x => by
  rw [readAt_tbl i arg1 harg1 tbl (⟨9, by decide⟩ : Fin 26) _ (off19_eq i)]
  exact ⟨chk_core _ 9 (by decide) (hrange _), chk_core _ 9 (by decide) (hrange _)⟩

theorem off21_eq (i : grid0.Coords) : k0_off21 i = ![(i 0).val, 10] := by
  have h : (i 0).val < 4096 := (i 0).isLt
  unfold k0_off21
  simp only [Scalar.indexCast, BitVec.toNat_ofNat]
  congr 1
  omega

/-- The word the body loads for sub-table 10 satisfies the condition the body assumes of it. -/
theorem chk11 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk11 (View.readAt (Elt F) arg1.view (Rect.unit (s := S4096x26) (k0_off21 i) S1x1.size (Facts₀.k0_off21_inb i)).toLoadRect (harg1.unread tbl) x) := fun x => by
  rw [readAt_tbl i arg1 harg1 tbl (⟨10, by decide⟩ : Fin 26) _ (off21_eq i)]
  exact ⟨chk_core _ 10 (by decide) (hrange _), chk_core _ 10 (by decide) (hrange _)⟩

theorem off23_eq (i : grid0.Coords) : k0_off23 i = ![(i 0).val, 11] := by
  have h : (i 0).val < 4096 := (i 0).isLt
  unfold k0_off23
  simp only [Scalar.indexCast, BitVec.toNat_ofNat]
  congr 1
  omega

/-- The word the body loads for sub-table 11 satisfies the condition the body assumes of it. -/
theorem chk12 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk12 (View.readAt (Elt F) arg1.view (Rect.unit (s := S4096x26) (k0_off23 i) S1x1.size (Facts₀.k0_off23_inb i)).toLoadRect (harg1.unread tbl) x) := fun x => by
  rw [readAt_tbl i arg1 harg1 tbl (⟨11, by decide⟩ : Fin 26) _ (off23_eq i)]
  exact ⟨chk_core _ 11 (by decide) (hrange _), chk_core _ 11 (by decide) (hrange _)⟩

theorem off25_eq (i : grid0.Coords) : k0_off25 i = ![(i 0).val, 12] := by
  have h : (i 0).val < 4096 := (i 0).isLt
  unfold k0_off25
  simp only [Scalar.indexCast, BitVec.toNat_ofNat]
  congr 1
  omega

/-- The word the body loads for sub-table 12 satisfies the condition the body assumes of it. -/
theorem chk13 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk13 (View.readAt (Elt F) arg1.view (Rect.unit (s := S4096x26) (k0_off25 i) S1x1.size (Facts₀.k0_off25_inb i)).toLoadRect (harg1.unread tbl) x) := fun x => by
  rw [readAt_tbl i arg1 harg1 tbl (⟨12, by decide⟩ : Fin 26) _ (off25_eq i)]
  exact ⟨chk_core _ 12 (by decide) (hrange _), chk_core _ 12 (by decide) (hrange _)⟩

theorem off27_eq (i : grid0.Coords) : k0_off27 i = ![(i 0).val, 13] := by
  have h : (i 0).val < 4096 := (i 0).isLt
  unfold k0_off27
  simp only [Scalar.indexCast, BitVec.toNat_ofNat]
  congr 1
  omega

/-- The word the body loads for sub-table 13 satisfies the condition the body assumes of it. -/
theorem chk14 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk14 (View.readAt (Elt F) arg1.view (Rect.unit (s := S4096x26) (k0_off27 i) S1x1.size (Facts₀.k0_off27_inb i)).toLoadRect (harg1.unread tbl) x) := fun x => by
  rw [readAt_tbl i arg1 harg1 tbl (⟨13, by decide⟩ : Fin 26) _ (off27_eq i)]
  exact ⟨chk_core _ 13 (by decide) (hrange _), chk_core _ 13 (by decide) (hrange _)⟩

theorem off29_eq (i : grid0.Coords) : k0_off29 i = ![(i 0).val, 14] := by
  have h : (i 0).val < 4096 := (i 0).isLt
  unfold k0_off29
  simp only [Scalar.indexCast, BitVec.toNat_ofNat]
  congr 1
  omega

/-- The word the body loads for sub-table 14 satisfies the condition the body assumes of it. -/
theorem chk15 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk15 (View.readAt (Elt F) arg1.view (Rect.unit (s := S4096x26) (k0_off29 i) S1x1.size (Facts₀.k0_off29_inb i)).toLoadRect (harg1.unread tbl) x) := fun x => by
  rw [readAt_tbl i arg1 harg1 tbl (⟨14, by decide⟩ : Fin 26) _ (off29_eq i)]
  exact ⟨chk_core _ 14 (by decide) (hrange _), chk_core _ 14 (by decide) (hrange _)⟩

theorem off31_eq (i : grid0.Coords) : k0_off31 i = ![(i 0).val, 15] := by
  have h : (i 0).val < 4096 := (i 0).isLt
  unfold k0_off31
  simp only [Scalar.indexCast, BitVec.toNat_ofNat]
  congr 1
  omega

/-- The word the body loads for sub-table 15 satisfies the condition the body assumes of it. -/
theorem chk16 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk16 (View.readAt (Elt F) arg1.view (Rect.unit (s := S4096x26) (k0_off31 i) S1x1.size (Facts₀.k0_off31_inb i)).toLoadRect (harg1.unread tbl) x) := fun x => by
  rw [readAt_tbl i arg1 harg1 tbl (⟨15, by decide⟩ : Fin 26) _ (off31_eq i)]
  exact ⟨chk_core _ 15 (by decide) (hrange _), chk_core _ 15 (by decide) (hrange _)⟩

theorem off33_eq (i : grid0.Coords) : k0_off33 i = ![(i 0).val, 16] := by
  have h : (i 0).val < 4096 := (i 0).isLt
  unfold k0_off33
  simp only [Scalar.indexCast, BitVec.toNat_ofNat]
  congr 1
  omega

/-- The word the body loads for sub-table 16 satisfies the condition the body assumes of it. -/
theorem chk17 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk17 (View.readAt (Elt F) arg1.view (Rect.unit (s := S4096x26) (k0_off33 i) S1x1.size (Facts₀.k0_off33_inb i)).toLoadRect (harg1.unread tbl) x) := fun x => by
  rw [readAt_tbl i arg1 harg1 tbl (⟨16, by decide⟩ : Fin 26) _ (off33_eq i)]
  exact ⟨chk_core _ 16 (by decide) (hrange _), chk_core _ 16 (by decide) (hrange _)⟩

theorem off35_eq (i : grid0.Coords) : k0_off35 i = ![(i 0).val, 17] := by
  have h : (i 0).val < 4096 := (i 0).isLt
  unfold k0_off35
  simp only [Scalar.indexCast, BitVec.toNat_ofNat]
  congr 1
  omega

/-- The word the body loads for sub-table 17 satisfies the condition the body assumes of it. -/
theorem chk18 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk18 (View.readAt (Elt F) arg1.view (Rect.unit (s := S4096x26) (k0_off35 i) S1x1.size (Facts₀.k0_off35_inb i)).toLoadRect (harg1.unread tbl) x) := fun x => by
  rw [readAt_tbl i arg1 harg1 tbl (⟨17, by decide⟩ : Fin 26) _ (off35_eq i)]
  exact ⟨chk_core _ 17 (by decide) (hrange _), chk_core _ 17 (by decide) (hrange _)⟩

theorem off37_eq (i : grid0.Coords) : k0_off37 i = ![(i 0).val, 18] := by
  have h : (i 0).val < 4096 := (i 0).isLt
  unfold k0_off37
  simp only [Scalar.indexCast, BitVec.toNat_ofNat]
  congr 1
  omega

/-- The word the body loads for sub-table 18 satisfies the condition the body assumes of it. -/
theorem chk19 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk19 (View.readAt (Elt F) arg1.view (Rect.unit (s := S4096x26) (k0_off37 i) S1x1.size (Facts₀.k0_off37_inb i)).toLoadRect (harg1.unread tbl) x) := fun x => by
  rw [readAt_tbl i arg1 harg1 tbl (⟨18, by decide⟩ : Fin 26) _ (off37_eq i)]
  exact ⟨chk_core _ 18 (by decide) (hrange _), chk_core _ 18 (by decide) (hrange _)⟩

theorem off39_eq (i : grid0.Coords) : k0_off39 i = ![(i 0).val, 19] := by
  have h : (i 0).val < 4096 := (i 0).isLt
  unfold k0_off39
  simp only [Scalar.indexCast, BitVec.toNat_ofNat]
  congr 1
  omega

/-- The word the body loads for sub-table 19 satisfies the condition the body assumes of it. -/
theorem chk20 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk20 (View.readAt (Elt F) arg1.view (Rect.unit (s := S4096x26) (k0_off39 i) S1x1.size (Facts₀.k0_off39_inb i)).toLoadRect (harg1.unread tbl) x) := fun x => by
  rw [readAt_tbl i arg1 harg1 tbl (⟨19, by decide⟩ : Fin 26) _ (off39_eq i)]
  exact ⟨chk_core _ 19 (by decide) (hrange _), chk_core _ 19 (by decide) (hrange _)⟩

theorem off41_eq (i : grid0.Coords) : k0_off41 i = ![(i 0).val, 20] := by
  have h : (i 0).val < 4096 := (i 0).isLt
  unfold k0_off41
  simp only [Scalar.indexCast, BitVec.toNat_ofNat]
  congr 1
  omega

/-- The word the body loads for sub-table 20 satisfies the condition the body assumes of it. -/
theorem chk21 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk21 (View.readAt (Elt F) arg1.view (Rect.unit (s := S4096x26) (k0_off41 i) S1x1.size (Facts₀.k0_off41_inb i)).toLoadRect (harg1.unread tbl) x) := fun x => by
  rw [readAt_tbl i arg1 harg1 tbl (⟨20, by decide⟩ : Fin 26) _ (off41_eq i)]
  exact ⟨chk_core _ 20 (by decide) (hrange _), chk_core _ 20 (by decide) (hrange _)⟩

theorem off43_eq (i : grid0.Coords) : k0_off43 i = ![(i 0).val, 21] := by
  have h : (i 0).val < 4096 := (i 0).isLt
  unfold k0_off43
  simp only [Scalar.indexCast, BitVec.toNat_ofNat]
  congr 1
  omega

/-- The word the body loads for sub-table 21 satisfies the condition the body assumes of it. -/
theorem chk22 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk22 (View.readAt (Elt F) arg1.view (Rect.unit (s := S4096x26) (k0_off43 i) S1x1.size (Facts₀.k0_off43_inb i)).toLoadRect (harg1.unread tbl) x) := fun x => by
  rw [readAt_tbl i arg1 harg1 tbl (⟨21, by decide⟩ : Fin 26) _ (off43_eq i)]
  exact ⟨chk_core _ 21 (by decide) (hrange _), chk_core _ 21 (by decide) (hrange _)⟩

theorem off45_eq (i : grid0.Coords) : k0_off45 i = ![(i 0).val, 22] := by
  have h : (i 0).val < 4096 := (i 0).isLt
  unfold k0_off45
  simp only [Scalar.indexCast, BitVec.toNat_ofNat]
  congr 1
  omega

/-- The word the body loads for sub-table 22 satisfies the condition the body assumes of it. -/
theorem chk23 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk23 (View.readAt (Elt F) arg1.view (Rect.unit (s := S4096x26) (k0_off45 i) S1x1.size (Facts₀.k0_off45_inb i)).toLoadRect (harg1.unread tbl) x) := fun x => by
  rw [readAt_tbl i arg1 harg1 tbl (⟨22, by decide⟩ : Fin 26) _ (off45_eq i)]
  exact ⟨chk_core _ 22 (by decide) (hrange _), chk_core _ 22 (by decide) (hrange _)⟩

theorem off47_eq (i : grid0.Coords) : k0_off47 i = ![(i 0).val, 23] := by
  have h : (i 0).val < 4096 := (i 0).isLt
  unfold k0_off47
  simp only [Scalar.indexCast, BitVec.toNat_ofNat]
  congr 1
  omega

/-- The word the body loads for sub-table 23 satisfies the condition the body assumes of it. -/
theorem chk24 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk24 (View.readAt (Elt F) arg1.view (Rect.unit (s := S4096x26) (k0_off47 i) S1x1.size (Facts₀.k0_off47_inb i)).toLoadRect (harg1.unread tbl) x) := fun x => by
  rw [readAt_tbl i arg1 harg1 tbl (⟨23, by decide⟩ : Fin 26) _ (off47_eq i)]
  exact ⟨chk_core _ 23 (by decide) (hrange _), chk_core _ 23 (by decide) (hrange _)⟩

theorem off49_eq (i : grid0.Coords) : k0_off49 i = ![(i 0).val, 24] := by
  have h : (i 0).val < 4096 := (i 0).isLt
  unfold k0_off49
  simp only [Scalar.indexCast, BitVec.toNat_ofNat]
  congr 1
  omega

/-- The word the body loads for sub-table 24 satisfies the condition the body assumes of it. -/
theorem chk25 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk25 (View.readAt (Elt F) arg1.view (Rect.unit (s := S4096x26) (k0_off49 i) S1x1.size (Facts₀.k0_off49_inb i)).toLoadRect (harg1.unread tbl) x) := fun x => by
  rw [readAt_tbl i arg1 harg1 tbl (⟨24, by decide⟩ : Fin 26) _ (off49_eq i)]
  exact ⟨chk_core _ 24 (by decide) (hrange _), chk_core _ 24 (by decide) (hrange _)⟩

theorem off51_eq (i : grid0.Coords) : k0_off51 i = ![(i 0).val, 25] := by
  have h : (i 0).val < 4096 := (i 0).isLt
  unfold k0_off51
  simp only [Scalar.indexCast, BitVec.toNat_ofNat]
  congr 1
  omega

/-- The word the body loads for sub-table 25 satisfies the condition the body assumes of it. -/
theorem chk26 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) :
    ∀ x, k0_chk26 (View.readAt (Elt F) arg1.view (Rect.unit (s := S4096x26) (k0_off51 i) S1x1.size (Facts₀.k0_off51_inb i)).toLoadRect (harg1.unread tbl) x) := fun x => by
  rw [readAt_tbl i arg1 harg1 tbl (⟨25, by decide⟩ : Fin 26) _ (off51_eq i)]
  exact chk_core _ 25 (by decide) (hrange _)

/-- The one-row window at row `k` of the block lies inside it. -/
theorem row_inb (k : Fin 26) : ∀ a, (![0, k.val, 0] : Fin 3 → ℕ) a + S1x1x64.size a ≤ S1x26x64.size a := by
  intro a
  have := k.isLt
  fin_cases a <;> simp [S1x1x64, S1x26x64] <;> omega

/-- Row `k` of the block as the body names it: the block's window at `k`, its unit axes dropped. -/
abbrev rowM (arg3 : Memref sig .tc .vmem S1x26x64 .f32) (k : Fin 26) : Memref sig .tc .vmem S64 .f32 :=
  (arg3.slice (Rect.unit (s := S1x26x64) ![0, k.val, 0] S1x1x64.size (row_inb k)) (fun _ => rfl)).squeeze S64
    Facts₀.squeezes_S1x1x64_S64

section ViewLemmas

variable {sig' : RefSig} {Val : EltTy → Type} {κ : Kind} {sp : Space} {s : Shape} {e : EltTy}

/-- Read through a view after a whole write through one of its rectangles seen at another shape of as many
    elements: at the element the rectangle places index `x` of that shape, the payload at `x`; -/
theorem read_write_slice_reshape_emb (v : View sig' κ sp s e) (R : Rect s) {s3 : Shape} (hn : s3.numel = R.shape.numel)
    (f : v.ty.Contents Val) (w : s3.Idx → Val e) (x : s3.Idx) :
    v.read Val (((v.slice R).reshape s3 hn).write Val f w Finset.univ) (R.emb (Shape.reshapeEquiv hn x)) = w x := by
  rw [View.read_apply,
    show v.emb (R.emb (Shape.reshapeEquiv hn x)) = ((v.slice R).reshape s3 hn).emb x from rfl,
    View.write_emb_of_mem _ _ (Finset.mem_univ x), cast_cast, cast_eq]

/-- at an element the rectangle does not hold, the old contents. -/
theorem read_write_slice_reshape_of_not_mem (v : View sig' κ sp s e) (R : Rect s) {s3 : Shape} (hn : s3.numel = R.shape.numel)
    (f : v.ty.Contents Val) (w : s3.Idx → Val e) (y : s.Idx) (hy : ∀ x : s3.Idx, R.emb (Shape.reshapeEquiv hn x) ≠ y) :
    v.read Val (((v.slice R).reshape s3 hn).write Val f w Finset.univ) y = v.read Val f y := by
  rw [View.read_apply, View.read_apply, View.write_of_not_mem]
  intro hm
  obtain ⟨x, -, hx⟩ := Finset.mem_map.mp hm
  exact hy x (v.emb.injective (by exact hx))

end ViewLemmas

/-- An index of length `a` matched with shape `[1, 1, a]` sits behind two coordinates `0`. -/
theorem reshapeEquiv_ix1_11a {a : ℕ} (h : (⟨1, ![a]⟩ : Shape).numel = (⟨3, ![1, 1, a]⟩ : Shape).numel) (x : Fin a) :
    Shape.reshapeEquiv h (ValueIdx.ix1 x)
      = ValueIdx.ix3 (⟨0, Nat.one_pos⟩ : Fin 1) (⟨0, Nat.one_pos⟩ : Fin 1) x :=
  Shape.reshapeEquiv_eq_of_rowMajor h (by
    rw [Shape.rowMajor_val_three, Shape.rowMajor_val_one]
    show ((0 * 1 + 0) * a + x.val) = x.val
    simp only [Nat.zero_mul, Nat.zero_add])

/-- Where a rectangle of unit strides places an index: its offset further along each axis. -/
theorem emb_unit_val {s : Shape} (off size : Fin s.rank → ℕ) (inb : ∀ a, off a + size a ≤ s.size a)
    (z : (Rect.unit (s := s) off size inb).shape.Idx) (a : Fin s.rank) :
    ((Rect.unit (s := s) off size inb).emb z a).val = off a + (z a).val := by
  simp [Rect.unit, Rect.emb]

/-- Row `k` of the block after a whole write of a row through the squeezed one-row window at `k`: the row written. -/
theorem read_row_hit (arg3 : Memref sig .tc .vmem S1x26x64 .f32) (k : Fin 26) (off : Fin 3 → ℕ) (hoff : off = ![0, k.val, 0])
    (inb : ∀ a, off a + S1x1x64.size a ≤ S1x26x64.size a)
    (hs : ∀ a, (Rect.unit (s := S1x26x64) off S1x1x64.size inb).stride a = 1) (hq : S1x1x64.Squeezes S64)
    (g : arg3.view.ty.Contents (Elt F)) (P : S64.Idx → Elt F .f32) (j : Fin 64) :
    arg3.view.read (Elt F)
        ((((arg3.slice (Rect.unit (s := S1x26x64) off S1x1x64.size inb) hs).squeeze S64 hq).view).write (Elt F) g P Finset.univ)
        (ValueIdx.ix3 (⟨0, Nat.one_pos⟩ : Fin 1) k j)
      = P (ValueIdx.ix1 j) := by
  subst hoff
  simp only [Memref.view_squeeze, Memref.view_slice]
  have h := read_write_slice_reshape_emb (Val := Elt F) arg3.view
    (Rect.unit (s := S1x26x64) ![0, k.val, 0] S1x1x64.size inb) hq.numel_eq g P (ValueIdx.ix1 j)
  have hi : (Rect.unit (s := S1x26x64) ![0, k.val, 0] S1x1x64.size inb).emb (Shape.reshapeEquiv hq.numel_eq (ValueIdx.ix1 j))
      = ValueIdx.ix3 (⟨0, Nat.one_pos⟩ : Fin 1) k j := by
    funext a
    apply Fin.ext
    rw [emb_unit_val]
    have hz := congrFun (reshapeEquiv_ix1_11a (a := 64) hq.numel_eq j) a
    rw [hz]
    fin_cases a <;> simp [ValueIdx.ix3]
  rw [hi] at h
  exact h

/-- Any other row of the block after that write: as it was. -/
theorem read_row_miss (arg3 : Memref sig .tc .vmem S1x26x64 .f32) (k k' : Fin 26) (hk : k' ≠ k) (off : Fin 3 → ℕ) (hoff : off = ![0, k.val, 0])
    (inb : ∀ a, off a + S1x1x64.size a ≤ S1x26x64.size a)
    (hs : ∀ a, (Rect.unit (s := S1x26x64) off S1x1x64.size inb).stride a = 1) (hq : S1x1x64.Squeezes S64)
    (g : arg3.view.ty.Contents (Elt F)) (P : S64.Idx → Elt F .f32) (j : Fin 64) :
    arg3.view.read (Elt F)
        ((((arg3.slice (Rect.unit (s := S1x26x64) off S1x1x64.size inb) hs).squeeze S64 hq).view).write (Elt F) g P Finset.univ)
        (ValueIdx.ix3 (⟨0, Nat.one_pos⟩ : Fin 1) k' j)
      = arg3.view.read (Elt F) g (ValueIdx.ix3 (⟨0, Nat.one_pos⟩ : Fin 1) k' j) := by
  subst hoff
  simp only [Memref.view_squeeze, Memref.view_slice]
  refine read_write_slice_reshape_of_not_mem (Val := Elt F) arg3.view _ hq.numel_eq g P _ fun x hx => hk ?_
  have h1 := congrArg Fin.val (congrFun hx 1)
  rw [emb_unit_val] at h1
  have hz : ((Shape.reshapeEquiv hq.numel_eq x : (Rect.unit (s := S1x26x64) ![0, k.val, 0] S1x1x64.size inb).shape.Idx) 1).val < 1 :=
    (Shape.reshapeEquiv hq.numel_eq x 1).isLt
  apply Fin.ext
  simp [ValueIdx.ix3] at h1
  omega

/-- The row a transfer reads: through the squeezed one-row window at `(k, r)` of the stacked tables held at the
    contents that read `emb`, entry `j` is `emb[k, r, j]`. -/
theorem read_src_row (arg2 : Memref sig .tc .hbm S26x131073x64 .f32) (harg2 : arg2.IsWhole) (emb : Vec F S26x131073x64 .f32)
    (k : Fin 26) (r : Fin 131073) (off : Fin 3 → ℕ) (hoff : off = ![k.val, r.val, 0])
    (inb : ∀ a, off a + S1x1x64.size a ≤ S26x131073x64.size a)
    (hs : ∀ a, (Rect.unit (s := S26x131073x64) off S1x1x64.size inb).stride a = 1) (hq : S1x1x64.Squeezes S64) (j : Fin 64) :
    ((arg2.slice (Rect.unit (s := S26x131073x64) off S1x1x64.size inb) hs).squeeze S64 hq).view.read (Elt F)
        (harg2.unread emb) (ValueIdx.ix1 j)
      = emb (ValueIdx.ix3 k r j) := by
  subst hoff
  simp only [Memref.view_squeeze, Memref.view_slice]
  have hi : (Rect.unit (s := S26x131073x64) ![k.val, r.val, 0] S1x1x64.size inb).emb (Shape.reshapeEquiv hq.numel_eq (ValueIdx.ix1 j))
      = ValueIdx.ix3 k r j := by
    funext a
    apply Fin.ext
    rw [emb_unit_val]
    have hz := congrFun (reshapeEquiv_ix1_11a (a := 64) hq.numel_eq j) a
    rw [hz]
    fin_cases a <;> simp [ValueIdx.ix3]
  exact (congrFun (harg2.read_unread emb) _).trans (congrArg emb hi)

/-- The offsets of the row the transfer for sub-table 0 reads, in closed form. -/
theorem srcoff0 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off2 (View.readAt (Elt F) arg1.view (Rect.unit (s := S4096x26) (k0_off1 i) S1x1.size (Facts₀.k0_off1_inb i)).toLoadRect (harg1.unread tbl) x)
      = ![0, (rowOf tbl i (⟨0, by decide⟩ : Fin 26)).val, 0] := by
  rw [readAt_tbl i arg1 harg1 tbl (⟨0, by decide⟩ : Fin 26) _ (off1_eq i), rowOf_val tbl i _ (hrange _)]
  rfl

/-- The offsets of the row the transfer for sub-table 1 reads, in closed form. -/
theorem srcoff1 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off4 (View.readAt (Elt F) arg1.view (Rect.unit (s := S4096x26) (k0_off3 i) S1x1.size (Facts₀.k0_off3_inb i)).toLoadRect (harg1.unread tbl) x)
      = ![1, (rowOf tbl i (⟨1, by decide⟩ : Fin 26)).val, 0] := by
  rw [readAt_tbl i arg1 harg1 tbl (⟨1, by decide⟩ : Fin 26) _ (off3_eq i), rowOf_val tbl i _ (hrange _)]
  rfl

/-- The offsets of the row the transfer for sub-table 2 reads, in closed form. -/
theorem srcoff2 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off6 (View.readAt (Elt F) arg1.view (Rect.unit (s := S4096x26) (k0_off5 i) S1x1.size (Facts₀.k0_off5_inb i)).toLoadRect (harg1.unread tbl) x)
      = ![2, (rowOf tbl i (⟨2, by decide⟩ : Fin 26)).val, 0] := by
  rw [readAt_tbl i arg1 harg1 tbl (⟨2, by decide⟩ : Fin 26) _ (off5_eq i), rowOf_val tbl i _ (hrange _)]
  rfl

/-- The offsets of the row the transfer for sub-table 3 reads, in closed form. -/
theorem srcoff3 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off8 (View.readAt (Elt F) arg1.view (Rect.unit (s := S4096x26) (k0_off7 i) S1x1.size (Facts₀.k0_off7_inb i)).toLoadRect (harg1.unread tbl) x)
      = ![3, (rowOf tbl i (⟨3, by decide⟩ : Fin 26)).val, 0] := by
  rw [readAt_tbl i arg1 harg1 tbl (⟨3, by decide⟩ : Fin 26) _ (off7_eq i), rowOf_val tbl i _ (hrange _)]
  rfl

/-- The offsets of the row the transfer for sub-table 4 reads, in closed form. -/
theorem srcoff4 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off10 (View.readAt (Elt F) arg1.view (Rect.unit (s := S4096x26) (k0_off9 i) S1x1.size (Facts₀.k0_off9_inb i)).toLoadRect (harg1.unread tbl) x)
      = ![4, (rowOf tbl i (⟨4, by decide⟩ : Fin 26)).val, 0] := by
  rw [readAt_tbl i arg1 harg1 tbl (⟨4, by decide⟩ : Fin 26) _ (off9_eq i), rowOf_val tbl i _ (hrange _)]
  rfl

/-- The offsets of the row the transfer for sub-table 5 reads, in closed form. -/
theorem srcoff5 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off12 (View.readAt (Elt F) arg1.view (Rect.unit (s := S4096x26) (k0_off11 i) S1x1.size (Facts₀.k0_off11_inb i)).toLoadRect (harg1.unread tbl) x)
      = ![5, (rowOf tbl i (⟨5, by decide⟩ : Fin 26)).val, 0] := by
  rw [readAt_tbl i arg1 harg1 tbl (⟨5, by decide⟩ : Fin 26) _ (off11_eq i), rowOf_val tbl i _ (hrange _)]
  rfl

/-- The offsets of the row the transfer for sub-table 6 reads, in closed form. -/
theorem srcoff6 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off14 (View.readAt (Elt F) arg1.view (Rect.unit (s := S4096x26) (k0_off13 i) S1x1.size (Facts₀.k0_off13_inb i)).toLoadRect (harg1.unread tbl) x)
      = ![6, (rowOf tbl i (⟨6, by decide⟩ : Fin 26)).val, 0] := by
  rw [readAt_tbl i arg1 harg1 tbl (⟨6, by decide⟩ : Fin 26) _ (off13_eq i), rowOf_val tbl i _ (hrange _)]
  rfl

/-- The offsets of the row the transfer for sub-table 7 reads, in closed form. -/
theorem srcoff7 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off16 (View.readAt (Elt F) arg1.view (Rect.unit (s := S4096x26) (k0_off15 i) S1x1.size (Facts₀.k0_off15_inb i)).toLoadRect (harg1.unread tbl) x)
      = ![7, (rowOf tbl i (⟨7, by decide⟩ : Fin 26)).val, 0] := by
  rw [readAt_tbl i arg1 harg1 tbl (⟨7, by decide⟩ : Fin 26) _ (off15_eq i), rowOf_val tbl i _ (hrange _)]
  rfl

/-- The offsets of the row the transfer for sub-table 8 reads, in closed form. -/
theorem srcoff8 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off18 (View.readAt (Elt F) arg1.view (Rect.unit (s := S4096x26) (k0_off17 i) S1x1.size (Facts₀.k0_off17_inb i)).toLoadRect (harg1.unread tbl) x)
      = ![8, (rowOf tbl i (⟨8, by decide⟩ : Fin 26)).val, 0] := by
  rw [readAt_tbl i arg1 harg1 tbl (⟨8, by decide⟩ : Fin 26) _ (off17_eq i), rowOf_val tbl i _ (hrange _)]
  rfl

/-- The offsets of the row the transfer for sub-table 9 reads, in closed form. -/
theorem srcoff9 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off20 (View.readAt (Elt F) arg1.view (Rect.unit (s := S4096x26) (k0_off19 i) S1x1.size (Facts₀.k0_off19_inb i)).toLoadRect (harg1.unread tbl) x)
      = ![9, (rowOf tbl i (⟨9, by decide⟩ : Fin 26)).val, 0] := by
  rw [readAt_tbl i arg1 harg1 tbl (⟨9, by decide⟩ : Fin 26) _ (off19_eq i), rowOf_val tbl i _ (hrange _)]
  rfl

/-- The offsets of the row the transfer for sub-table 10 reads, in closed form. -/
theorem srcoff10 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off22 (View.readAt (Elt F) arg1.view (Rect.unit (s := S4096x26) (k0_off21 i) S1x1.size (Facts₀.k0_off21_inb i)).toLoadRect (harg1.unread tbl) x)
      = ![10, (rowOf tbl i (⟨10, by decide⟩ : Fin 26)).val, 0] := by
  rw [readAt_tbl i arg1 harg1 tbl (⟨10, by decide⟩ : Fin 26) _ (off21_eq i), rowOf_val tbl i _ (hrange _)]
  rfl

/-- The offsets of the row the transfer for sub-table 11 reads, in closed form. -/
theorem srcoff11 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off24 (View.readAt (Elt F) arg1.view (Rect.unit (s := S4096x26) (k0_off23 i) S1x1.size (Facts₀.k0_off23_inb i)).toLoadRect (harg1.unread tbl) x)
      = ![11, (rowOf tbl i (⟨11, by decide⟩ : Fin 26)).val, 0] := by
  rw [readAt_tbl i arg1 harg1 tbl (⟨11, by decide⟩ : Fin 26) _ (off23_eq i), rowOf_val tbl i _ (hrange _)]
  rfl

/-- The offsets of the row the transfer for sub-table 12 reads, in closed form. -/
theorem srcoff12 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off26 (View.readAt (Elt F) arg1.view (Rect.unit (s := S4096x26) (k0_off25 i) S1x1.size (Facts₀.k0_off25_inb i)).toLoadRect (harg1.unread tbl) x)
      = ![12, (rowOf tbl i (⟨12, by decide⟩ : Fin 26)).val, 0] := by
  rw [readAt_tbl i arg1 harg1 tbl (⟨12, by decide⟩ : Fin 26) _ (off25_eq i), rowOf_val tbl i _ (hrange _)]
  rfl

/-- The offsets of the row the transfer for sub-table 13 reads, in closed form. -/
theorem srcoff13 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off28 (View.readAt (Elt F) arg1.view (Rect.unit (s := S4096x26) (k0_off27 i) S1x1.size (Facts₀.k0_off27_inb i)).toLoadRect (harg1.unread tbl) x)
      = ![13, (rowOf tbl i (⟨13, by decide⟩ : Fin 26)).val, 0] := by
  rw [readAt_tbl i arg1 harg1 tbl (⟨13, by decide⟩ : Fin 26) _ (off27_eq i), rowOf_val tbl i _ (hrange _)]
  rfl

/-- The offsets of the row the transfer for sub-table 14 reads, in closed form. -/
theorem srcoff14 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off30 (View.readAt (Elt F) arg1.view (Rect.unit (s := S4096x26) (k0_off29 i) S1x1.size (Facts₀.k0_off29_inb i)).toLoadRect (harg1.unread tbl) x)
      = ![14, (rowOf tbl i (⟨14, by decide⟩ : Fin 26)).val, 0] := by
  rw [readAt_tbl i arg1 harg1 tbl (⟨14, by decide⟩ : Fin 26) _ (off29_eq i), rowOf_val tbl i _ (hrange _)]
  rfl

/-- The offsets of the row the transfer for sub-table 15 reads, in closed form. -/
theorem srcoff15 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off32 (View.readAt (Elt F) arg1.view (Rect.unit (s := S4096x26) (k0_off31 i) S1x1.size (Facts₀.k0_off31_inb i)).toLoadRect (harg1.unread tbl) x)
      = ![15, (rowOf tbl i (⟨15, by decide⟩ : Fin 26)).val, 0] := by
  rw [readAt_tbl i arg1 harg1 tbl (⟨15, by decide⟩ : Fin 26) _ (off31_eq i), rowOf_val tbl i _ (hrange _)]
  rfl

/-- The offsets of the row the transfer for sub-table 16 reads, in closed form. -/
theorem srcoff16 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off34 (View.readAt (Elt F) arg1.view (Rect.unit (s := S4096x26) (k0_off33 i) S1x1.size (Facts₀.k0_off33_inb i)).toLoadRect (harg1.unread tbl) x)
      = ![16, (rowOf tbl i (⟨16, by decide⟩ : Fin 26)).val, 0] := by
  rw [readAt_tbl i arg1 harg1 tbl (⟨16, by decide⟩ : Fin 26) _ (off33_eq i), rowOf_val tbl i _ (hrange _)]
  rfl

/-- The offsets of the row the transfer for sub-table 17 reads, in closed form. -/
theorem srcoff17 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off36 (View.readAt (Elt F) arg1.view (Rect.unit (s := S4096x26) (k0_off35 i) S1x1.size (Facts₀.k0_off35_inb i)).toLoadRect (harg1.unread tbl) x)
      = ![17, (rowOf tbl i (⟨17, by decide⟩ : Fin 26)).val, 0] := by
  rw [readAt_tbl i arg1 harg1 tbl (⟨17, by decide⟩ : Fin 26) _ (off35_eq i), rowOf_val tbl i _ (hrange _)]
  rfl

/-- The offsets of the row the transfer for sub-table 18 reads, in closed form. -/
theorem srcoff18 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off38 (View.readAt (Elt F) arg1.view (Rect.unit (s := S4096x26) (k0_off37 i) S1x1.size (Facts₀.k0_off37_inb i)).toLoadRect (harg1.unread tbl) x)
      = ![18, (rowOf tbl i (⟨18, by decide⟩ : Fin 26)).val, 0] := by
  rw [readAt_tbl i arg1 harg1 tbl (⟨18, by decide⟩ : Fin 26) _ (off37_eq i), rowOf_val tbl i _ (hrange _)]
  rfl

/-- The offsets of the row the transfer for sub-table 19 reads, in closed form. -/
theorem srcoff19 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off40 (View.readAt (Elt F) arg1.view (Rect.unit (s := S4096x26) (k0_off39 i) S1x1.size (Facts₀.k0_off39_inb i)).toLoadRect (harg1.unread tbl) x)
      = ![19, (rowOf tbl i (⟨19, by decide⟩ : Fin 26)).val, 0] := by
  rw [readAt_tbl i arg1 harg1 tbl (⟨19, by decide⟩ : Fin 26) _ (off39_eq i), rowOf_val tbl i _ (hrange _)]
  rfl

/-- The offsets of the row the transfer for sub-table 20 reads, in closed form. -/
theorem srcoff20 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off42 (View.readAt (Elt F) arg1.view (Rect.unit (s := S4096x26) (k0_off41 i) S1x1.size (Facts₀.k0_off41_inb i)).toLoadRect (harg1.unread tbl) x)
      = ![20, (rowOf tbl i (⟨20, by decide⟩ : Fin 26)).val, 0] := by
  rw [readAt_tbl i arg1 harg1 tbl (⟨20, by decide⟩ : Fin 26) _ (off41_eq i), rowOf_val tbl i _ (hrange _)]
  rfl

/-- The offsets of the row the transfer for sub-table 21 reads, in closed form. -/
theorem srcoff21 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off44 (View.readAt (Elt F) arg1.view (Rect.unit (s := S4096x26) (k0_off43 i) S1x1.size (Facts₀.k0_off43_inb i)).toLoadRect (harg1.unread tbl) x)
      = ![21, (rowOf tbl i (⟨21, by decide⟩ : Fin 26)).val, 0] := by
  rw [readAt_tbl i arg1 harg1 tbl (⟨21, by decide⟩ : Fin 26) _ (off43_eq i), rowOf_val tbl i _ (hrange _)]
  rfl

/-- The offsets of the row the transfer for sub-table 22 reads, in closed form. -/
theorem srcoff22 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off46 (View.readAt (Elt F) arg1.view (Rect.unit (s := S4096x26) (k0_off45 i) S1x1.size (Facts₀.k0_off45_inb i)).toLoadRect (harg1.unread tbl) x)
      = ![22, (rowOf tbl i (⟨22, by decide⟩ : Fin 26)).val, 0] := by
  rw [readAt_tbl i arg1 harg1 tbl (⟨22, by decide⟩ : Fin 26) _ (off45_eq i), rowOf_val tbl i _ (hrange _)]
  rfl

/-- The offsets of the row the transfer for sub-table 23 reads, in closed form. -/
theorem srcoff23 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off48 (View.readAt (Elt F) arg1.view (Rect.unit (s := S4096x26) (k0_off47 i) S1x1.size (Facts₀.k0_off47_inb i)).toLoadRect (harg1.unread tbl) x)
      = ![23, (rowOf tbl i (⟨23, by decide⟩ : Fin 26)).val, 0] := by
  rw [readAt_tbl i arg1 harg1 tbl (⟨23, by decide⟩ : Fin 26) _ (off47_eq i), rowOf_val tbl i _ (hrange _)]
  rfl

/-- The offsets of the row the transfer for sub-table 24 reads, in closed form. -/
theorem srcoff24 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off50 (View.readAt (Elt F) arg1.view (Rect.unit (s := S4096x26) (k0_off49 i) S1x1.size (Facts₀.k0_off49_inb i)).toLoadRect (harg1.unread tbl) x)
      = ![24, (rowOf tbl i (⟨24, by decide⟩ : Fin 26)).val, 0] := by
  rw [readAt_tbl i arg1 harg1 tbl (⟨24, by decide⟩ : Fin 26) _ (off49_eq i), rowOf_val tbl i _ (hrange _)]
  rfl

/-- The offsets of the row the transfer for sub-table 25 reads, in closed form. -/
theorem srcoff25 (i : grid0.Coords) (arg1 : Memref sig .tc .smem S4096x26 .i32) (harg1 : arg1.IsWhole) (tbl : Vec F S4096x26 .i32)
    (hrange : ∀ f : Fin 26, (tbl (ValueIdx.ix2 (⟨(i 0).val, (i 0).isLt⟩ : Fin 4096) f)).toNat < 131073) (x) :
    k0_off52 (View.readAt (Elt F) arg1.view (Rect.unit (s := S4096x26) (k0_off51 i) S1x1.size (Facts₀.k0_off51_inb i)).toLoadRect (harg1.unread tbl) x)
      = ![25, (rowOf tbl i (⟨25, by decide⟩ : Fin 26)).val, 0] := by
  rw [readAt_tbl i arg1 harg1 tbl (⟨25, by decide⟩ : Fin 26) _ (off51_eq i), rowOf_val tbl i _ (hrange _)]
  rfl

/-- Two blocks of one leading row are equal when they agree entry by entry of each of the 26 rows. -/
theorem blk_ext (A B : Vec F S1x26x64 .f32)
    (h : ∀ (k : Fin 26) (d : Fin 64), A (ValueIdx.ix3 (⟨0, Nat.one_pos⟩ : Fin 1) k d) = B (ValueIdx.ix3 (⟨0, Nat.one_pos⟩ : Fin 1) k d)) :
    A = B := by
  funext y
  have h0 : (y 0).val = 0 := Nat.lt_one_iff.mp (y 0).isLt
  have hy : y = ValueIdx.ix3 (⟨0, Nat.one_pos⟩ : Fin 1) (y 1) (y 2) := by
    funext a
    fin_cases a
    · exact Fin.ext h0
    · rfl
    · rfl
  rw [hy]
  exact h (y 1) (y 2)

section Pieces

/-- Contents that read alike at an index hold the same value at the element the view places it at. -/
theorem eq_of_read_eq {sig' : RefSig} {Val : EltTy → Type} {κ : Kind} {sp : Space} {s : Shape} {e : EltTy}
    (v : View sig' κ sp s e) (f g : v.ty.Contents Val) (x : s.Idx) (h : v.read Val f x = v.read Val g x) :
    f (v.emb x) = g (v.emb x) := by
  rw [View.read_apply, View.read_apply] at h
  exact (cast_inj _).mp h

theorem sub_sdiff {α : Type*} [DecidableEq α] {s t u : Finset α} (h1 : s ⊆ t) (h2 : Disjoint s u) : s ⊆ t \ u :=
  Finset.subset_sdiff.mpr ⟨h1, h2⟩

variable (c : Dev nD) (arg3 : Memref sig .tc .vmem S1x26x64 .f32)

/-- The elements of row `k` of the block's buffer. -/
abbrev rowSet (k : Fin 26) : Finset (Idx (arg3.view.loc (c : Thread nD τ))) := (rowM arg3 k).view.set

/-- Where the row window at `k` places entry `d`: the block's element `(0, k, d)`. -/
theorem row_place (k : Fin 26) (d : Fin 64) :
    (Rect.unit (s := S1x26x64) ![0, k.val, 0] S1x1x64.size (row_inb k)).emb
        (Shape.reshapeEquiv (Facts₀.squeezes_S1x1x64_S64).numel_eq (ValueIdx.ix1 d))
      = ValueIdx.ix3 (⟨0, Nat.one_pos⟩ : Fin 1) k d := by
  funext a
  apply Fin.ext
  rw [emb_unit_val]
  have hz := congrFun (reshapeEquiv_ix1_11a (a := 64) (Facts₀.squeezes_S1x1x64_S64).numel_eq d) a
  rw [hz]
  fin_cases a <;> simp [ValueIdx.ix3]

/-- An element of row `k` is the block's element `(0, k, d)` for some `d`. -/
theorem mem_rowSet {k : Fin 26} {idx : Idx (arg3.view.loc (c : Thread nD τ))} (h : idx ∈ rowSet c arg3 k) :
    ∃ d : Fin 64, idx = arg3.view.emb (ValueIdx.ix3 (⟨0, Nat.one_pos⟩ : Fin 1) k d) := by
  obtain ⟨x, -, rfl⟩ := Finset.mem_map.mp h
  obtain ⟨d, rfl⟩ : ∃ d : Fin 64, x = ValueIdx.ix1 d := ⟨x 0, ValueIdx.eq_ix1 x⟩
  exact ⟨d, congrArg arg3.view.emb (row_place k d)⟩

theorem rowSet_subset (k : Fin 26) : rowSet c arg3 k ⊆ arg3.view.set := by
  intro idx h
  obtain ⟨d, rfl⟩ := mem_rowSet c arg3 h
  exact arg3.view.emb_mem_set _

theorem rowSet_disjoint (k k' : Fin 26) (h : k ≠ k') : Disjoint (rowSet c arg3 k) (rowSet c arg3 k') := by
  rw [Finset.disjoint_left]
  intro idx h1 h2
  obtain ⟨d, rfl⟩ := mem_rowSet c arg3 h1
  obtain ⟨d', h'⟩ := mem_rowSet c arg3 h2
  have h3 := congrFun (arg3.view.emb.injective h') 1
  exact h h3

variable (harg3 : arg3.IsWhole) (B : Vec F S1x26x64 .f32)

/-- Row `k` after a whole write of the row `B` has there holds what the whole buffer reading `B` holds. -/
theorem win_contents (k : Fin 26) (g : arg3.view.ty.Contents (Elt F)) (P : S64.Idx → Elt F .f32)
    (hP : ∀ d : Fin 64, P (ValueIdx.ix1 d) = B (ValueIdx.ix3 (⟨0, Nat.one_pos⟩ : Fin 1) k d)) :
    ∀ idx ∈ rowSet c arg3 k, ((rowM arg3 k).view.write (Elt F) g P Finset.univ) idx = (harg3.unread B) idx := by
  intro idx h
  obtain ⟨d, rfl⟩ := mem_rowSet c arg3 h
  refine eq_of_read_eq arg3.view _ _ _ ?_
  rw [congrFun (harg3.read_unread B) _, ← hP d]
  exact read_row_hit arg3 k _ rfl _ _ _ g P d

/-- Contents that read `B` hold, on the block's elements, what the whole buffer reading `B` holds. -/
theorem rest_contents (g : arg3.view.ty.Contents (Elt F)) (hg : arg3.view.read (Elt F) g = B) :
    ∀ idx ∈ arg3.view.set, g idx = (harg3.unread B) idx := by
  intro idx h
  obtain ⟨y, -, rfl⟩ := Finset.mem_map.mp h
  refine eq_of_read_eq arg3.view _ _ y ?_
  rw [congrFun (harg3.read_unread B) y, hg]

end Pieces

set_option sl_exec.dmaWindow true in
set_option sl_exec.dmaWindowSet true in
set_option sl_exec.rejoinHeartbeats 4000000 in
set_option sl_exec.stepHeartbeats 2000000 in
set_option maxHeartbeats 0 in
/-- The gather body's run, under any table `D` of bodies (the body makes no call): from the table and the stacked
    tables at any shares, the output window's buffer whole at `f3`, the call's 26 cells at zero and the core's record
    of waits, the body runs to the continuation holding the table, the stacked tables and the cells as they were, and
    the buffer IN ELEVEN PIECES, as the 26 copies leave it: rows 0 to 9 each by itself and the rest of the buffer, each
    piece at contents that hold on it what the buffer reading the gathered block holds. (Row `k` alone is at the
    contents it had when its copy landed, whose last write is the row the copy read; the rest is at the last
    contents, 26 whole writes of a row one inside the other, which read the gathered block row by row.) -/
theorem gatherRun (D : Defs nD τ sig (Elt F) Λ₀) (c : Dev nD) (i : grid0.Coords)
    (arg1 : Memref sig .tc .smem S4096x26 .i32) (harg1 : arg1.IsWhole)
    (arg2 : Memref sig .tc .hbm S26x131073x64 .f32) (harg2 : arg2.IsWhole)
    (arg3 : Memref sig .tc .vmem S1x26x64 .f32) (harg3 : arg3.IsWhole)
    (tbl : Vec F S4096x26 .i32) (emb : Vec F S26x131073x64 .f32) (q1 q2 : PosShare TreeShare)
    (hrange : ∀ f : Fin 26, (tbl (ValueIdx.ix2 (⟨(i 0).val, (i 0).isLt⟩ : Fin 4096) f)).toNat < 131073)
    (f3 : Buf (Elt F) (arg3.view.loc (c : Thread nD τ))) (W : Waits sig Unit) (K : PUnit → sProp 𝕄) :
    iprop(owns (c : Thread nD τ) arg1 q1 tbl ∗ owns (c : Thread nD τ) arg2 q2 emb
        ∗ (arg3.view.loc (c : Thread nD τ) ↦[arg3.view.set]{fullShare} f3) ∗ sems0 c ∗ owes (c : Thread nD τ) 0 W
        ∗ (iprop(owns (c : Thread nD τ) arg1 q1 tbl ∗ owns (c : Thread nD τ) arg2 q2 emb
              ∗ (∃ d : Buf (Elt F) (arg3.view.loc (c : Thread nD τ)), ⌜∀ idx ∈ rowSet c arg3 (⟨0, of_decide_eq_true rfl⟩ : Fin 26), d idx = (harg3.unread (gatherBlk tbl emb i)) idx⌝ ∗ (arg3.view.loc (c : Thread nD τ) ↦[(rowM arg3 (⟨0, of_decide_eq_true rfl⟩ : Fin 26)).view.set]{fullShare} d))
                  ∗ (∃ d : Buf (Elt F) (arg3.view.loc (c : Thread nD τ)), ⌜∀ idx ∈ rowSet c arg3 (⟨1, of_decide_eq_true rfl⟩ : Fin 26), d idx = (harg3.unread (gatherBlk tbl emb i)) idx⌝ ∗ (arg3.view.loc (c : Thread nD τ) ↦[(rowM arg3 (⟨1, of_decide_eq_true rfl⟩ : Fin 26)).view.set]{fullShare} d))
                  ∗ (∃ d : Buf (Elt F) (arg3.view.loc (c : Thread nD τ)), ⌜∀ idx ∈ rowSet c arg3 (⟨2, of_decide_eq_true rfl⟩ : Fin 26), d idx = (harg3.unread (gatherBlk tbl emb i)) idx⌝ ∗ (arg3.view.loc (c : Thread nD τ) ↦[(rowM arg3 (⟨2, of_decide_eq_true rfl⟩ : Fin 26)).view.set]{fullShare} d))
                  ∗ (∃ d : Buf (Elt F) (arg3.view.loc (c : Thread nD τ)), ⌜∀ idx ∈ rowSet c arg3 (⟨3, of_decide_eq_true rfl⟩ : Fin 26), d idx = (harg3.unread (gatherBlk tbl emb i)) idx⌝ ∗ (arg3.view.loc (c : Thread nD τ) ↦[(rowM arg3 (⟨3, of_decide_eq_true rfl⟩ : Fin 26)).view.set]{fullShare} d))
                  ∗ (∃ d : Buf (Elt F) (arg3.view.loc (c : Thread nD τ)), ⌜∀ idx ∈ rowSet c arg3 (⟨4, of_decide_eq_true rfl⟩ : Fin 26), d idx = (harg3.unread (gatherBlk tbl emb i)) idx⌝ ∗ (arg3.view.loc (c : Thread nD τ) ↦[(rowM arg3 (⟨4, of_decide_eq_true rfl⟩ : Fin 26)).view.set]{fullShare} d))
                  ∗ (∃ d : Buf (Elt F) (arg3.view.loc (c : Thread nD τ)), ⌜∀ idx ∈ rowSet c arg3 (⟨5, of_decide_eq_true rfl⟩ : Fin 26), d idx = (harg3.unread (gatherBlk tbl emb i)) idx⌝ ∗ (arg3.view.loc (c : Thread nD τ) ↦[(rowM arg3 (⟨5, of_decide_eq_true rfl⟩ : Fin 26)).view.set]{fullShare} d))
                  ∗ (∃ d : Buf (Elt F) (arg3.view.loc (c : Thread nD τ)), ⌜∀ idx ∈ rowSet c arg3 (⟨6, of_decide_eq_true rfl⟩ : Fin 26), d idx = (harg3.unread (gatherBlk tbl emb i)) idx⌝ ∗ (arg3.view.loc (c : Thread nD τ) ↦[(rowM arg3 (⟨6, of_decide_eq_true rfl⟩ : Fin 26)).view.set]{fullShare} d))
                  ∗ (∃ d : Buf (Elt F) (arg3.view.loc (c : Thread nD τ)), ⌜∀ idx ∈ rowSet c arg3 (⟨7, of_decide_eq_true rfl⟩ : Fin 26), d idx = (harg3.unread (gatherBlk tbl emb i)) idx⌝ ∗ (arg3.view.loc (c : Thread nD τ) ↦[(rowM arg3 (⟨7, of_decide_eq_true rfl⟩ : Fin 26)).view.set]{fullShare} d))
                  ∗ (∃ d : Buf (Elt F) (arg3.view.loc (c : Thread nD τ)), ⌜∀ idx ∈ rowSet c arg3 (⟨8, of_decide_eq_true rfl⟩ : Fin 26), d idx = (harg3.unread (gatherBlk tbl emb i)) idx⌝ ∗ (arg3.view.loc (c : Thread nD τ) ↦[(rowM arg3 (⟨8, of_decide_eq_true rfl⟩ : Fin 26)).view.set]{fullShare} d))
                  ∗ (∃ d : Buf (Elt F) (arg3.view.loc (c : Thread nD τ)), ⌜∀ idx ∈ rowSet c arg3 (⟨9, of_decide_eq_true rfl⟩ : Fin 26), d idx = (harg3.unread (gatherBlk tbl emb i)) idx⌝ ∗ (arg3.view.loc (c : Thread nD τ) ↦[(rowM arg3 (⟨9, of_decide_eq_true rfl⟩ : Fin 26)).view.set]{fullShare} d))
                  ∗ (∃ d : Buf (Elt F) (arg3.view.loc (c : Thread nD τ)), ⌜∀ idx ∈ arg3.view.set, d idx = (harg3.unread (gatherBlk tbl emb i)) idx⌝ ∗ (arg3.view.loc (c : Thread nD τ) ↦[((((((((((arg3.view.set \ (rowM arg3 (⟨0, of_decide_eq_true rfl⟩ : Fin 26)).view.set) \ (rowM arg3 (⟨1, of_decide_eq_true rfl⟩ : Fin 26)).view.set) \ (rowM arg3 (⟨2, of_decide_eq_true rfl⟩ : Fin 26)).view.set) \ (rowM arg3 (⟨3, of_decide_eq_true rfl⟩ : Fin 26)).view.set) \ (rowM arg3 (⟨4, of_decide_eq_true rfl⟩ : Fin 26)).view.set) \ (rowM arg3 (⟨5, of_decide_eq_true rfl⟩ : Fin 26)).view.set) \ (rowM arg3 (⟨6, of_decide_eq_true rfl⟩ : Fin 26)).view.set) \ (rowM arg3 (⟨7, of_decide_eq_true rfl⟩ : Fin 26)).view.set) \ (rowM arg3 (⟨8, of_decide_eq_true rfl⟩ : Fin 26)).view.set) \ (rowM arg3 (⟨9, of_decide_eq_true rfl⟩ : Fin 26)).view.set)]{fullShare} d))
              ∗ sems0 c ∗ (∃ W', owes (c : Thread nD τ) 0 W')) -∗ K ⟨⟩))
      ⊢ wp frame (wpE D Variants.none c none) Set.univ
          (cc0__gather_kernel i arg1 harg1 arg2 harg2 arg3 harg3 cc3_scratch0) K := by
  simp only [cc0__gather_kernel_eq_skeleton]; unfold cc0__gather_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f1, %hf1, H1⟩, ⟨%f2, %hf2, H2⟩, H3, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25⟩, HW, Hk⟩
  obtain rfl := harg1.eq_unread hf1
  obtain rfl := harg2.eq_unread hf2
  have hc1 := chk1 i arg1 harg1 tbl hrange
  have hc2 := chk2 i arg1 harg1 tbl hrange
  have hc3 := chk3 i arg1 harg1 tbl hrange
  have hc4 := chk4 i arg1 harg1 tbl hrange
  have hc5 := chk5 i arg1 harg1 tbl hrange
  have hc6 := chk6 i arg1 harg1 tbl hrange
  have hc7 := chk7 i arg1 harg1 tbl hrange
  have hc8 := chk8 i arg1 harg1 tbl hrange
  have hc9 := chk9 i arg1 harg1 tbl hrange
  have hc10 := chk10 i arg1 harg1 tbl hrange
  have hc11 := chk11 i arg1 harg1 tbl hrange
  have hc12 := chk12 i arg1 harg1 tbl hrange
  have hc13 := chk13 i arg1 harg1 tbl hrange
  have hc14 := chk14 i arg1 harg1 tbl hrange
  have hc15 := chk15 i arg1 harg1 tbl hrange
  have hc16 := chk16 i arg1 harg1 tbl hrange
  have hc17 := chk17 i arg1 harg1 tbl hrange
  have hc18 := chk18 i arg1 harg1 tbl hrange
  have hc19 := chk19 i arg1 harg1 tbl hrange
  have hc20 := chk20 i arg1 harg1 tbl hrange
  have hc21 := chk21 i arg1 harg1 tbl hrange
  have hc22 := chk22 i arg1 harg1 tbl hrange
  have hc23 := chk23 i arg1 harg1 tbl hrange
  have hc24 := chk24 i arg1 harg1 tbl hrange
  have hc25 := chk25 i arg1 harg1 tbl hrange
  have hc26 := chk26 i arg1 harg1 tbl hrange
  sl_exec_parts (disch := first | (guard_target = k0_chk1 _; exact hc1 _) | (guard_target = k0_chk2 _; exact hc2 _) | (guard_target = k0_chk3 _; exact hc3 _) | (guard_target = k0_chk4 _; exact hc4 _) | (guard_target = k0_chk5 _; exact hc5 _) | (guard_target = k0_chk6 _; exact hc6 _) | (guard_target = k0_chk7 _; exact hc7 _) | (guard_target = k0_chk8 _; exact hc8 _) | (guard_target = k0_chk9 _; exact hc9 _) | (guard_target = k0_chk10 _; exact hc10 _) | (guard_target = k0_chk11 _; exact hc11 _) | (guard_target = k0_chk12 _; exact hc12 _) | (guard_target = k0_chk13 _; exact hc13 _) | (guard_target = k0_chk14 _; exact hc14 _) | (guard_target = k0_chk15 _; exact hc15 _) | (guard_target = k0_chk16 _; exact hc16 _) | (guard_target = k0_chk17 _; exact hc17 _) | (guard_target = k0_chk18 _; exact hc18 _) | (guard_target = k0_chk19 _; exact hc19 _) | (guard_target = k0_chk20 _; exact hc20 _) | (guard_target = k0_chk21 _; exact hc21 _) | (guard_target = k0_chk22 _; exact hc22 _) | (guard_target = k0_chk23 _; exact hc23 _) | (guard_target = k0_chk24 _; exact hc24 _) | (guard_target = k0_chk25 _; exact hc25 _) | (guard_target = k0_chk26 _; exact hc26 _))
  sl_step
  iapply Hk
  isplitl [H1]
  · iexists _; isplitr; · ipureintro; exact harg1.read_unread _
    iexact H1
  isplitl [H2]
  · iexists _; isplitr; · ipureintro; exact harg2.read_unread _
    iexact H2
  isplitl [H3_2]
  · -- row 0 alone: its last write is the row its copy read
    iexists _; isplitr; swap; · iexact H3_2
    ipureintro
    refine win_contents c arg3 harg3 (gatherBlk tbl emb i) (⟨0, of_decide_eq_true rfl⟩ : Fin 26) _ _ fun d => ?_
    exact read_src_row arg2 harg2 emb (⟨0, of_decide_eq_true rfl⟩ : Fin 26) (rowOf tbl i (⟨0, of_decide_eq_true rfl⟩ : Fin 26)) _ (srcoff0 i arg1 harg1 tbl hrange _) _ _ _ d
  isplitl [H3_3]
  · -- row 1 alone: its last write is the row its copy read
    iexists _; isplitr; swap; · iexact H3_3
    ipureintro
    refine win_contents c arg3 harg3 (gatherBlk tbl emb i) (⟨1, of_decide_eq_true rfl⟩ : Fin 26) _ _ fun d => ?_
    exact read_src_row arg2 harg2 emb (⟨1, of_decide_eq_true rfl⟩ : Fin 26) (rowOf tbl i (⟨1, of_decide_eq_true rfl⟩ : Fin 26)) _ (srcoff1 i arg1 harg1 tbl hrange _) _ _ _ d
  isplitl [H3_4]
  · -- row 2 alone: its last write is the row its copy read
    iexists _; isplitr; swap; · iexact H3_4
    ipureintro
    refine win_contents c arg3 harg3 (gatherBlk tbl emb i) (⟨2, of_decide_eq_true rfl⟩ : Fin 26) _ _ fun d => ?_
    exact read_src_row arg2 harg2 emb (⟨2, of_decide_eq_true rfl⟩ : Fin 26) (rowOf tbl i (⟨2, of_decide_eq_true rfl⟩ : Fin 26)) _ (srcoff2 i arg1 harg1 tbl hrange _) _ _ _ d
  isplitl [H3_5]
  · -- row 3 alone: its last write is the row its copy read
    iexists _; isplitr; swap; · iexact H3_5
    ipureintro
    refine win_contents c arg3 harg3 (gatherBlk tbl emb i) (⟨3, of_decide_eq_true rfl⟩ : Fin 26) _ _ fun d => ?_
    exact read_src_row arg2 harg2 emb (⟨3, of_decide_eq_true rfl⟩ : Fin 26) (rowOf tbl i (⟨3, of_decide_eq_true rfl⟩ : Fin 26)) _ (srcoff3 i arg1 harg1 tbl hrange _) _ _ _ d
  isplitl [H3_6]
  · -- row 4 alone: its last write is the row its copy read
    iexists _; isplitr; swap; · iexact H3_6
    ipureintro
    refine win_contents c arg3 harg3 (gatherBlk tbl emb i) (⟨4, of_decide_eq_true rfl⟩ : Fin 26) _ _ fun d => ?_
    exact read_src_row arg2 harg2 emb (⟨4, of_decide_eq_true rfl⟩ : Fin 26) (rowOf tbl i (⟨4, of_decide_eq_true rfl⟩ : Fin 26)) _ (srcoff4 i arg1 harg1 tbl hrange _) _ _ _ d
  isplitl [H3_7]
  · -- row 5 alone: its last write is the row its copy read
    iexists _; isplitr; swap; · iexact H3_7
    ipureintro
    refine win_contents c arg3 harg3 (gatherBlk tbl emb i) (⟨5, of_decide_eq_true rfl⟩ : Fin 26) _ _ fun d => ?_
    exact read_src_row arg2 harg2 emb (⟨5, of_decide_eq_true rfl⟩ : Fin 26) (rowOf tbl i (⟨5, of_decide_eq_true rfl⟩ : Fin 26)) _ (srcoff5 i arg1 harg1 tbl hrange _) _ _ _ d
  isplitl [H3_8]
  · -- row 6 alone: its last write is the row its copy read
    iexists _; isplitr; swap; · iexact H3_8
    ipureintro
    refine win_contents c arg3 harg3 (gatherBlk tbl emb i) (⟨6, of_decide_eq_true rfl⟩ : Fin 26) _ _ fun d => ?_
    exact read_src_row arg2 harg2 emb (⟨6, of_decide_eq_true rfl⟩ : Fin 26) (rowOf tbl i (⟨6, of_decide_eq_true rfl⟩ : Fin 26)) _ (srcoff6 i arg1 harg1 tbl hrange _) _ _ _ d
  isplitl [H3_9]
  · -- row 7 alone: its last write is the row its copy read
    iexists _; isplitr; swap; · iexact H3_9
    ipureintro
    refine win_contents c arg3 harg3 (gatherBlk tbl emb i) (⟨7, of_decide_eq_true rfl⟩ : Fin 26) _ _ fun d => ?_
    exact read_src_row arg2 harg2 emb (⟨7, of_decide_eq_true rfl⟩ : Fin 26) (rowOf tbl i (⟨7, of_decide_eq_true rfl⟩ : Fin 26)) _ (srcoff7 i arg1 harg1 tbl hrange _) _ _ _ d
  isplitl [H3_10]
  · -- row 8 alone: its last write is the row its copy read
    iexists _; isplitr; swap; · iexact H3_10
    ipureintro
    refine win_contents c arg3 harg3 (gatherBlk tbl emb i) (⟨8, of_decide_eq_true rfl⟩ : Fin 26) _ _ fun d => ?_
    exact read_src_row arg2 harg2 emb (⟨8, of_decide_eq_true rfl⟩ : Fin 26) (rowOf tbl i (⟨8, of_decide_eq_true rfl⟩ : Fin 26)) _ (srcoff8 i arg1 harg1 tbl hrange _) _ _ _ d
  isplitl [H3_11]
  · -- row 9 alone: its last write is the row its copy read
    iexists _; isplitr; swap; · iexact H3_11
    ipureintro
    refine win_contents c arg3 harg3 (gatherBlk tbl emb i) (⟨9, of_decide_eq_true rfl⟩ : Fin 26) _ _ fun d => ?_
    exact read_src_row arg2 harg2 emb (⟨9, of_decide_eq_true rfl⟩ : Fin 26) (rowOf tbl i (⟨9, of_decide_eq_true rfl⟩ : Fin 26)) _ (srcoff9 i arg1 harg1 tbl hrange _) _ _ _ d
  isplitl [H3]
  · -- the rest, at the last contents: they read the gathered block, row by row
    iexists _; isplitr; swap; · iexact H3
    ipureintro
    refine rest_contents arg3 harg3 (gatherBlk tbl emb i) _ (blk_ext _ _ fun k d => ?_)
    fin_cases k
    · -- row 0: the later rows' writes miss it; its own write lands the row read from sub-table 0
      refine (read_row_miss arg3 (⟨25, by decide⟩ : Fin 26) (⟨0, by decide⟩ : Fin 26) (by decide) _ rfl _ _ _ _ _ d).trans ?_
      refine (read_row_miss arg3 (⟨24, by decide⟩ : Fin 26) (⟨0, by decide⟩ : Fin 26) (by decide) _ rfl _ _ _ _ _ d).trans ?_
      refine (read_row_miss arg3 (⟨23, by decide⟩ : Fin 26) (⟨0, by decide⟩ : Fin 26) (by decide) _ rfl _ _ _ _ _ d).trans ?_
      refine (read_row_miss arg3 (⟨22, by decide⟩ : Fin 26) (⟨0, by decide⟩ : Fin 26) (by decide) _ rfl _ _ _ _ _ d).trans ?_
      refine (read_row_miss arg3 (⟨21, by decide⟩ : Fin 26) (⟨0, by decide⟩ : Fin 26) (by decide) _ rfl _ _ _ _ _ d).trans ?_
      refine (read_row_miss arg3 (⟨20, by decide⟩ : Fin 26) (⟨0, by decide⟩ : Fin 26) (by decide) _ rfl _ _ _ _ _ d).trans ?_
      refine (read_row_miss arg3 (⟨19, by decide⟩ : Fin 26) (⟨0, by decide⟩ : Fin 26) (by decide) _ rfl _ _ _ _ _ d).trans ?_
      refine (read_row_miss arg3 (⟨18, by decide⟩ : Fin 26) (⟨0, by decide⟩ : Fin 26) (by decide) _ rfl _ _ _ _ _ d).trans ?_
      refine (read_row_miss arg3 (⟨17, by decide⟩ : Fin 26) (⟨0, by decide⟩ : Fin 26) (by decide) _ rfl _ _ _ _ _ d).trans ?_
      refine (read_row_miss arg3 (⟨16, by decide⟩ : Fin 26) (⟨0, by decide⟩ : Fin 26) (by decide) _ rfl _ _ _ _ _ d).trans ?_
      refine (read_row_miss arg3 (⟨15, by decide⟩ : Fin 26) (⟨0, by decide⟩ : Fin 26) (by decide) _ rfl _ _ _ _ _ d).trans ?_
      refine (read_row_miss arg3 (⟨14, by decide⟩ : Fin 26) (⟨0, by decide⟩ : Fin 26) (by decide) _ rfl _ _ _ _ _ d).trans ?_
      refine (read_row_miss arg3 (⟨13, by decide⟩ : Fin 26) (⟨0, by decide⟩ : Fin 26) (by decide) _ rfl _ _ _ _ _ d).trans ?_
      refine (read_row_miss arg3 (⟨12, by decide⟩ : Fin 26) (⟨0, by decide⟩ : Fin 26) (by decide) _ rfl _ _ _ _ _ d).trans ?_
      refine (read_row_miss arg3 (⟨11, by decide⟩ : Fin 26) (⟨0, by decide⟩ : Fin 26) (by decide) _ rfl _ _ _ _ _ d).trans ?_
      refine (read_row_miss arg3 (⟨10, by decide⟩ : Fin 26) (⟨0, by decide⟩ : Fin 26) (by decide) _ rfl _ _ _ _ _ d).trans ?_
      refine (read_row_miss arg3 (⟨9, by decide⟩ : Fin 26) (⟨0, by decide⟩ : Fin 26) (by decide) _ rfl _ _ _ _ _ d).trans ?_
      refine (read_row_miss arg3 (⟨8, by decide⟩ : Fin 26) (⟨0, by decide⟩ : Fin 26) (by decide) _ rfl _ _ _ _ _ d).trans ?_
      refine (read_row_miss arg3 (⟨7, by decide⟩ : Fin 26) (⟨0, by decide⟩ : Fin 26) (by decide) _ rfl _ _ _ _ _ d).trans ?_
      refine (read_row_miss arg3 (⟨6, by decide⟩ : Fin 26) (⟨0, by decide⟩ : Fin 26) (by decide) _ rfl _ _ _ _ _ d).trans ?_
      refine (read_row_miss arg3 (⟨5, by decide⟩ : Fin 26) (⟨0, by decide⟩ : Fin 26) (by decide) _ rfl _ _ _ _ _ d).trans ?_
      refine (read_row_miss arg3 (⟨4, by decide⟩ : Fin 26) (⟨0, by decide⟩ : Fin 26) (by decide) _ rfl _ _ _ _ _ d).trans ?_
      refine (read_row_miss arg3 (⟨3, by decide⟩ : Fin 26) (⟨0, by decide⟩ : Fin 26) (by decide) _ rfl _ _ _ _ _ d).trans ?_
      refine (read_row_miss arg3 (⟨2, by decide⟩ : Fin 26) (⟨0, by decide⟩ : Fin 26) (by decide) _ rfl _ _ _ _ _ d).trans ?_
      refine (read_row_miss arg3 (⟨1, by decide⟩ : Fin 26) (⟨0, by decide⟩ : Fin 26) (by decide) _ rfl _ _ _ _ _ d).trans ?_
      refine (read_row_hit arg3 (⟨0, by decide⟩ : Fin 26) _ rfl _ _ _ _ _ d).trans ?_
      exact read_src_row arg2 harg2 emb (⟨0, by decide⟩ : Fin 26) (rowOf tbl i (⟨0, by decide⟩ : Fin 26)) _ (srcoff0 i arg1 harg1 tbl hrange _) _ _ _ d
    · -- row 1: the later rows' writes miss it; its own write lands the row read from sub-table 1
      refine (read_row_miss arg3 (⟨25, by decide⟩ : Fin 26) (⟨1, by decide⟩ : Fin 26) (by decide) _ rfl _ _ _ _ _ d).trans ?_
      refine (read_row_miss arg3 (⟨24, by decide⟩ : Fin 26) (⟨1, by decide⟩ : Fin 26) (by decide) _ rfl _ _ _ _ _ d).trans ?_
      refine (read_row_miss arg3 (⟨23, by decide⟩ : Fin 26) (⟨1, by decide⟩ : Fin 26) (by decide) _ rfl _ _ _ _ _ d).trans ?_
      refine (read_row_miss arg3 (⟨22, by decide⟩ : Fin 26) (⟨1, by decide⟩ : Fin 26) (by decide) _ rfl _ _ _ _ _ d).trans ?_
      refine (read_row_miss arg3 (⟨21, by decide⟩ : Fin 26) (⟨1, by decide⟩ : Fin 26) (by decide) _ rfl _ _ _ _ _ d).trans ?_
      refine (read_row_miss arg3 (⟨20, by decide⟩ : Fin 26) (⟨1, by decide⟩ : Fin 26) (by decide) _ rfl _ _ _ _ _ d).trans ?_
      refine (read_row_miss arg3 (⟨19, by decide⟩ : Fin 26) (⟨1, by decide⟩ : Fin 26) (by decide) _ rfl _ _ _ _ _ d).trans ?_
      refine (read_row_miss arg3 (⟨18, by decide⟩ : Fin 26) (⟨1, by decide⟩ : Fin 26) (by decide) _ rfl _ _ _ _ _ d).trans ?_
      refine (read_row_miss arg3 (⟨17, by decide⟩ : Fin 26) (⟨1, by decide⟩ : Fin 26) (by decide) _ rfl _ _ _ _ _ d).trans ?_
      refine (read_row_miss arg3 (⟨16, by decide⟩ : Fin 26) (⟨1, by decide⟩ : Fin 26) (by decide) _ rfl _ _ _ _ _ d).trans ?_
      refine (read_row_miss arg3 (⟨15, by decide⟩ : Fin 26) (⟨1, by decide⟩ : Fin 26) (by decide) _ rfl _ _ _ _ _ d).trans ?_
      refine (read_row_miss arg3 (⟨14, by decide⟩ : Fin 26) (⟨1, by decide⟩ : Fin 26) (by decide) _ rfl _ _ _ _ _ d).trans ?_
      refine (read_row_miss arg3 (⟨13, by decide⟩ : Fin 26) (⟨1, by decide⟩ : Fin 26) (by decide) _ rfl _ _ _ _ _ d).trans ?_
      refine (read_row_miss arg3 (⟨12, by decide⟩ : Fin 26) (⟨1, by decide⟩ : Fin 26) (by decide) _ rfl _ _ _ _ _ d).trans ?_
      refine (read_row_miss arg3 (⟨11, by decide⟩ : Fin 26) (⟨1, by decide⟩ : Fin 26) (by decide) _ rfl _ _ _ _ _ d).trans ?_
      refine (read_row_miss arg3 (⟨10, by decide⟩ : Fin 26) (⟨1, by decide⟩ : Fin 26) (by decide) _ rfl _ _ _ _ _ d).trans ?_
      refine (read_row_miss arg3 (⟨9, by decide⟩ : Fin 26) (⟨1, by decide⟩ : Fin 26) (by decide) _ rfl _ _ _ _ _ d).trans ?_
      refine (read_row_miss arg3 (⟨8, by decide⟩ : Fin 26) (⟨1, by decide⟩ : Fin 26) (by decide) _ rfl _ _ _ _ _ d).trans ?_
      refine (read_row_miss arg3 (⟨7, by decide⟩ : Fin 26) (⟨1, by decide⟩ : Fin 26) (by decide) _ rfl _ _ _ _ _ d).trans ?_
      refine (read_row_miss arg3 (⟨6, by decide⟩ : Fin 26) (⟨1, by decide⟩ : Fin 26) (by decide) _ rfl _ _ _ _ _ d).trans ?_
      refine (read_row_miss arg3 (⟨5, by decide⟩ : Fin 26) (⟨1, by decide⟩ : Fin 26) (by decide) _ rfl _ _ _ _ _ d).trans ?_
      refine (read_row_miss arg3 (⟨4, by decide⟩ : Fin 26) (⟨1, by decide⟩ : Fin 26) (by decide) _ rfl _ _ _ _ _ d).trans ?_
      refine (read_row_miss arg3 (⟨3, by decide⟩ : Fin 26) (⟨1, by decide⟩ : Fin 26) (by decide) _ rfl _ _ _ _ _ d).trans ?_
      refine (read_row_miss arg3 (⟨2, by decide⟩ : Fin 26) (⟨1, by decide⟩ : Fin 26) (by decide) _ rfl _ _ _ _ _ d).trans ?_
      refine (read_row_hit arg3 (⟨1, by decide⟩ : Fin 26) _ rfl _ _ _ _ _ d).trans ?_
      exact read_src_row arg2 harg2 emb (⟨1, by decide⟩ : Fin 26) (rowOf tbl i (⟨1, by decide⟩ : Fin 26)) _ (srcoff1 i arg1 harg1 tbl hrange _) _ _ _ d
    · -- row 2: the later rows' writes miss it; its own write lands the row read from sub-table 2
      refine (read_row_miss arg3 (⟨25, by decide⟩ : Fin 26) (⟨2, by decide⟩ : Fin 26) (by decide) _ rfl _ _ _ _ _ d).trans ?_
      refine (read_row_miss arg3 (⟨24, by decide⟩ : Fin 26) (⟨2, by decide⟩ : Fin 26) (by decide) _ rfl _ _ _ _ _ d).trans ?_
      refine (read_row_miss arg3 (⟨23, by decide⟩ : Fin 26) (⟨2, by decide⟩ : Fin 26) (by decide) _ rfl _ _ _ _ _ d).trans ?_
      refine (read_row_miss arg3 (⟨22, by decide⟩ : Fin 26) (⟨2, by decide⟩ : Fin 26) (by decide) _ rfl _ _ _ _ _ d).trans ?_
      refine (read_row_miss arg3 (⟨21, by decide⟩ : Fin 26) (⟨2, by decide⟩ : Fin 26) (by decide) _ rfl _ _ _ _ _ d).trans ?_
      refine (read_row_miss arg3 (⟨20, by decide⟩ : Fin 26) (⟨2, by decide⟩ : Fin 26) (by decide) _ rfl _ _ _ _ _ d).trans ?_
      refine (read_row_miss arg3 (⟨19, by decide⟩ : Fin 26) (⟨2, by decide⟩ : Fin 26) (by decide) _ rfl _ _ _ _ _ d).trans ?_
      refine (read_row_miss arg3 (⟨18, by decide⟩ : Fin 26) (⟨2, by decide⟩ : Fin 26) (by decide) _ rfl _ _ _ _ _ d).trans ?_
      refine (read_row_miss arg3 (⟨17, by decide⟩ : Fin 26) (⟨2, by decide⟩ : Fin 26) (by decide) _ rfl _ _ _ _ _ d).trans ?_
      refine (read_row_miss arg3 (⟨16, by decide⟩ : Fin 26) (⟨2, by decide⟩ : Fin 26) (by decide) _ rfl _ _ _ _ _ d).trans ?_
      refine (read_row_miss arg3 (⟨15, by decide⟩ : Fin 26) (⟨2, by decide⟩ : Fin 26) (by decide) _ rfl _ _ _ _ _ d).trans ?_
      refine (read_row_miss arg3 (⟨14, by decide⟩ : Fin 26) (⟨2, by decide⟩ : Fin 26) (by decide) _ rfl _ _ _ _ _ d).trans ?_
      refine (read_row_miss arg3 (⟨13, by decide⟩ : Fin 26) (⟨2, by decide⟩ : Fin 26) (by decide) _ rfl _ _ _ _ _ d).trans ?_
      refine (read_row_miss arg3 (⟨12, by decide⟩ : Fin 26) (⟨2, by decide⟩ : Fin 26) (by decide) _ rfl _ _ _ _ _ d).trans ?_
      refine (read_row_miss arg3 (⟨11, by decide⟩ : Fin 26) (⟨2, by decide⟩ : Fin 26) (by decide) _ rfl _ _ _ _ _ d).trans ?_
      refine (read_row_miss arg3 (⟨10, by decide⟩ : Fin 26) (⟨2, by decide⟩ : Fin 26) (by decide) _ rfl _ _ _ _ _ d).trans ?_
      refine (read_row_miss arg3 (⟨9, by decide⟩ : Fin 26) (⟨2, by decide⟩ : Fin 26) (by decide) _ rfl _ _ _ _ _ d).trans ?_
      refine (read_row_miss arg3 (⟨8, by decide⟩ : Fin 26) (⟨2, by decide⟩ : Fin 26) (by decide) _ rfl _ _ _ _ _ d).trans ?_
      refine (read_row_miss arg3 (⟨7, by decide⟩ : Fin 26) (⟨2, by decide⟩ : Fin 26) (by decide) _ rfl _ _ _ _ _ d).trans ?_
      refine (read_row_miss arg3 (⟨6, by decide⟩ : Fin 26) (⟨2, by decide⟩ : Fin 26) (by decide) _ rfl _ _ _ _ _ d).trans ?_
      refine (read_row_miss arg3 (⟨5, by decide⟩ : Fin 26) (⟨2, by decide⟩ : Fin 26) (by decide) _ rfl _ _ _ _ _ d).trans ?_
      refine (read_row_miss arg3 (⟨4, by decide⟩ : Fin 26) (⟨2, by decide⟩ : Fin 26) (by decide) _ rfl _ _ _ _ _ d).trans ?_
      refine (read_row_miss arg3 (⟨3, by decide⟩ : Fin 26) (⟨2, by decide⟩ : Fin 26) (by decide) _ rfl _ _ _ _ _ d).trans ?_
      refine (read_row_hit arg3 (⟨2, by decide⟩ : Fin 26) _ rfl _ _ _ _ _ d).trans ?_
      exact read_src_row arg2 harg2 emb (⟨2, by decide⟩ : Fin 26) (rowOf tbl i (⟨2, by decide⟩ : Fin 26)) _ (srcoff2 i arg1 harg1 tbl hrange _) _ _ _ d
    · -- row 3: the later rows' writes miss it; its own write lands the row read from sub-table 3
      refine (read_row_miss arg3 (⟨25, by decide⟩ : Fin 26) (⟨3, by decide⟩ : Fin 26) (by decide) _ rfl _ _ _ _ _ d).trans ?_
      refine (read_row_miss arg3 (⟨24, by decide⟩ : Fin 26) (⟨3, by decide⟩ : Fin 26) (by decide) _ rfl _ _ _ _ _ d).trans ?_
      refine (read_row_miss arg3 (⟨23, by decide⟩ : Fin 26) (⟨3, by decide⟩ : Fin 26) (by decide) _ rfl _ _ _ _ _ d).trans ?_
      refine (read_row_miss arg3 (⟨22, by decide⟩ : Fin 26) (⟨3, by decide⟩ : Fin 26) (by decide) _ rfl _ _ _ _ _ d).trans ?_
      refine (read_row_miss arg3 (⟨21, by decide⟩ : Fin 26) (⟨3, by decide⟩ : Fin 26) (by decide) _ rfl _ _ _ _ _ d).trans ?_
      refine (read_row_miss arg3 (⟨20, by decide⟩ : Fin 26) (⟨3, by decide⟩ : Fin 26) (by decide) _ rfl _ _ _ _ _ d).trans ?_
      refine (read_row_miss arg3 (⟨19, by decide⟩ : Fin 26) (⟨3, by decide⟩ : Fin 26) (by decide) _ rfl _ _ _ _ _ d).trans ?_
      refine (read_row_miss arg3 (⟨18, by decide⟩ : Fin 26) (⟨3, by decide⟩ : Fin 26) (by decide) _ rfl _ _ _ _ _ d).trans ?_
      refine (read_row_miss arg3 (⟨17, by decide⟩ : Fin 26) (⟨3, by decide⟩ : Fin 26) (by decide) _ rfl _ _ _ _ _ d).trans ?_
      refine (read_row_miss arg3 (⟨16, by decide⟩ : Fin 26) (⟨3, by decide⟩ : Fin 26) (by decide) _ rfl _ _ _ _ _ d).trans ?_
      refine (read_row_miss arg3 (⟨15, by decide⟩ : Fin 26) (⟨3, by decide⟩ : Fin 26) (by decide) _ rfl _ _ _ _ _ d).trans ?_
      refine (read_row_miss arg3 (⟨14, by decide⟩ : Fin 26) (⟨3, by decide⟩ : Fin 26) (by decide) _ rfl _ _ _ _ _ d).trans ?_
      refine (read_row_miss arg3 (⟨13, by decide⟩ : Fin 26) (⟨3, by decide⟩ : Fin 26) (by decide) _ rfl _ _ _ _ _ d).trans ?_
      refine (read_row_miss arg3 (⟨12, by decide⟩ : Fin 26) (⟨3, by decide⟩ : Fin 26) (by decide) _ rfl _ _ _ _ _ d).trans ?_
      refine (read_row_miss arg3 (⟨11, by decide⟩ : Fin 26) (⟨3, by decide⟩ : Fin 26) (by decide) _ rfl _ _ _ _ _ d).trans ?_
      refine (read_row_miss arg3 (⟨10, by decide⟩ : Fin 26) (⟨3, by decide⟩ : Fin 26) (by decide) _ rfl _ _ _ _ _ d).trans ?_
      refine (read_row_miss arg3 (⟨9, by decide⟩ : Fin 26) (⟨3, by decide⟩ : Fin 26) (by decide) _ rfl _ _ _ _ _ d).trans ?_
      refine (read_row_miss arg3 (⟨8, by decide⟩ : Fin 26) (⟨3, by decide⟩ : Fin 26) (by decide) _ rfl _ _ _ _ _ d).trans ?_
      refine (read_row_miss arg3 (⟨7, by decide⟩ : Fin 26) (⟨3, by decide⟩ : Fin 26) (by decide) _ rfl _ _ _ _ _ d).trans ?_
      refine (read_row_miss arg3 (⟨6, by decide⟩ : Fin 26) (⟨3, by decide⟩ : Fin 26) (by decide) _ rfl _ _ _ _ _ d).trans ?_
      refine (read_row_miss arg3 (⟨5, by decide⟩ : Fin 26) (⟨3, by decide⟩ : Fin 26) (by decide) _ rfl _ _ _ _ _ d).trans ?_
      refine (read_row_miss arg3 (⟨4, by decide⟩ : Fin 26) (⟨3, by decide⟩ : Fin 26) (by decide) _ rfl _ _ _ _ _ d).trans ?_
      refine (read_row_hit arg3 (⟨3, by decide⟩ : Fin 26) _ rfl _ _ _ _ _ d).trans ?_
      exact read_src_row arg2 harg2 emb (⟨3, by decide⟩ : Fin 26) (rowOf tbl i (⟨3, by decide⟩ : Fin 26)) _ (srcoff3 i arg1 harg1 tbl hrange _) _ _ _ d
    · -- row 4: the later rows' writes miss it; its own write lands the row read from sub-table 4
      refine (read_row_miss arg3 (⟨25, by decide⟩ : Fin 26) (⟨4, by decide⟩ : Fin 26) (by decide) _ rfl _ _ _ _ _ d).trans ?_
      refine (read_row_miss arg3 (⟨24, by decide⟩ : Fin 26) (⟨4, by decide⟩ : Fin 26) (by decide) _ rfl _ _ _ _ _ d).trans ?_
      refine (read_row_miss arg3 (⟨23, by decide⟩ : Fin 26) (⟨4, by decide⟩ : Fin 26) (by decide) _ rfl _ _ _ _ _ d).trans ?_
      refine (read_row_miss arg3 (⟨22, by decide⟩ : Fin 26) (⟨4, by decide⟩ : Fin 26) (by decide) _ rfl _ _ _ _ _ d).trans ?_
      refine (read_row_miss arg3 (⟨21, by decide⟩ : Fin 26) (⟨4, by decide⟩ : Fin 26) (by decide) _ rfl _ _ _ _ _ d).trans ?_
      refine (read_row_miss arg3 (⟨20, by decide⟩ : Fin 26) (⟨4, by decide⟩ : Fin 26) (by decide) _ rfl _ _ _ _ _ d).trans ?_
      refine (read_row_miss arg3 (⟨19, by decide⟩ : Fin 26) (⟨4, by decide⟩ : Fin 26) (by decide) _ rfl _ _ _ _ _ d).trans ?_
      refine (read_row_miss arg3 (⟨18, by decide⟩ : Fin 26) (⟨4, by decide⟩ : Fin 26) (by decide) _ rfl _ _ _ _ _ d).trans ?_
      refine (read_row_miss arg3 (⟨17, by decide⟩ : Fin 26) (⟨4, by decide⟩ : Fin 26) (by decide) _ rfl _ _ _ _ _ d).trans ?_
      refine (read_row_miss arg3 (⟨16, by decide⟩ : Fin 26) (⟨4, by decide⟩ : Fin 26) (by decide) _ rfl _ _ _ _ _ d).trans ?_
      refine (read_row_miss arg3 (⟨15, by decide⟩ : Fin 26) (⟨4, by decide⟩ : Fin 26) (by decide) _ rfl _ _ _ _ _ d).trans ?_
      refine (read_row_miss arg3 (⟨14, by decide⟩ : Fin 26) (⟨4, by decide⟩ : Fin 26) (by decide) _ rfl _ _ _ _ _ d).trans ?_
      refine (read_row_miss arg3 (⟨13, by decide⟩ : Fin 26) (⟨4, by decide⟩ : Fin 26) (by decide) _ rfl _ _ _ _ _ d).trans ?_
      refine (read_row_miss arg3 (⟨12, by decide⟩ : Fin 26) (⟨4, by decide⟩ : Fin 26) (by decide) _ rfl _ _ _ _ _ d).trans ?_
      refine (read_row_miss arg3 (⟨11, by decide⟩ : Fin 26) (⟨4, by decide⟩ : Fin 26) (by decide) _ rfl _ _ _ _ _ d).trans ?_
      refine (read_row_miss arg3 (⟨10, by decide⟩ : Fin 26) (⟨4, by decide⟩ : Fin 26) (by decide) _ rfl _ _ _ _ _ d).trans ?_
      refine (read_row_miss arg3 (⟨9, by decide⟩ : Fin 26) (⟨4, by decide⟩ : Fin 26) (by decide) _ rfl _ _ _ _ _ d).trans ?_
      refine (read_row_miss arg3 (⟨8, by decide⟩ : Fin 26) (⟨4, by decide⟩ : Fin 26) (by decide) _ rfl _ _ _ _ _ d).trans ?_
      refine (read_row_miss arg3 (⟨7, by decide⟩ : Fin 26) (⟨4, by decide⟩ : Fin 26) (by decide) _ rfl _ _ _ _ _ d).trans ?_
      refine (read_row_miss arg3 (⟨6, by decide⟩ : Fin 26) (⟨4, by decide⟩ : Fin 26) (by decide) _ rfl _ _ _ _ _ d).trans ?_
      refine (read_row_miss arg3 (⟨5, by decide⟩ : Fin 26) (⟨4, by decide⟩ : Fin 26) (by decide) _ rfl _ _ _ _ _ d).trans ?_
      refine (read_row_hit arg3 (⟨4, by decide⟩ : Fin 26) _ rfl _ _ _ _ _ d).trans ?_
      exact read_src_row arg2 harg2 emb (⟨4, by decide⟩ : Fin 26) (rowOf tbl i (⟨4, by decide⟩ : Fin 26)) _ (srcoff4 i arg1 harg1 tbl hrange _) _ _ _ d
    · -- row 5: the later rows' writes miss it; its own write lands the row read from sub-table 5
      refine (read_row_miss arg3 (⟨25, by decide⟩ : Fin 26) (⟨5, by decide⟩ : Fin 26) (by decide) _ rfl _ _ _ _ _ d).trans ?_
      refine (read_row_miss arg3 (⟨24, by decide⟩ : Fin 26) (⟨5, by decide⟩ : Fin 26) (by decide) _ rfl _ _ _ _ _ d).trans ?_
      refine (read_row_miss arg3 (⟨23, by decide⟩ : Fin 26) (⟨5, by decide⟩ : Fin 26) (by decide) _ rfl _ _ _ _ _ d).trans ?_
      refine (read_row_miss arg3 (⟨22, by decide⟩ : Fin 26) (⟨5, by decide⟩ : Fin 26) (by decide) _ rfl _ _ _ _ _ d).trans ?_
      refine (read_row_miss arg3 (⟨21, by decide⟩ : Fin 26) (⟨5, by decide⟩ : Fin 26) (by decide) _ rfl _ _ _ _ _ d).trans ?_
      refine (read_row_miss arg3 (⟨20, by decide⟩ : Fin 26) (⟨5, by decide⟩ : Fin 26) (by decide) _ rfl _ _ _ _ _ d).trans ?_
      refine (read_row_miss arg3 (⟨19, by decide⟩ : Fin 26) (⟨5, by decide⟩ : Fin 26) (by decide) _ rfl _ _ _ _ _ d).trans ?_
      refine (read_row_miss arg3 (⟨18, by decide⟩ : Fin 26) (⟨5, by decide⟩ : Fin 26) (by decide) _ rfl _ _ _ _ _ d).trans ?_
      refine (read_row_miss arg3 (⟨17, by decide⟩ : Fin 26) (⟨5, by decide⟩ : Fin 26) (by decide) _ rfl _ _ _ _ _ d).trans ?_
      refine (read_row_miss arg3 (⟨16, by decide⟩ : Fin 26) (⟨5, by decide⟩ : Fin 26) (by decide) _ rfl _ _ _ _ _ d).trans ?_
      refine (read_row_miss arg3 (⟨15, by decide⟩ : Fin 26) (⟨5, by decide⟩ : Fin 26) (by decide) _ rfl _ _ _ _ _ d).trans ?_
      refine (read_row_miss arg3 (⟨14, by decide⟩ : Fin 26) (⟨5, by decide⟩ : Fin 26) (by decide) _ rfl _ _ _ _ _ d).trans ?_
      refine (read_row_miss arg3 (⟨13, by decide⟩ : Fin 26) (⟨5, by decide⟩ : Fin 26) (by decide) _ rfl _ _ _ _ _ d).trans ?_
      refine (read_row_miss arg3 (⟨12, by decide⟩ : Fin 26) (⟨5, by decide⟩ : Fin 26) (by decide) _ rfl _ _ _ _ _ d).trans ?_
      refine (read_row_miss arg3 (⟨11, by decide⟩ : Fin 26) (⟨5, by decide⟩ : Fin 26) (by decide) _ rfl _ _ _ _ _ d).trans ?_
      refine (read_row_miss arg3 (⟨10, by decide⟩ : Fin 26) (⟨5, by decide⟩ : Fin 26) (by decide) _ rfl _ _ _ _ _ d).trans ?_
      refine (read_row_miss arg3 (⟨9, by decide⟩ : Fin 26) (⟨5, by decide⟩ : Fin 26) (by decide) _ rfl _ _ _ _ _ d).trans ?_
      refine (read_row_miss arg3 (⟨8, by decide⟩ : Fin 26) (⟨5, by decide⟩ : Fin 26) (by decide) _ rfl _ _ _ _ _ d).trans ?_
      refine (read_row_miss arg3 (⟨7, by decide⟩ : Fin 26) (⟨5, by decide⟩ : Fin 26) (by decide) _ rfl _ _ _ _ _ d).trans ?_
      refine (read_row_miss arg3 (⟨6, by decide⟩ : Fin 26) (⟨5, by decide⟩ : Fin 26) (by decide) _ rfl _ _ _ _ _ d).trans ?_
      refine (read_row_hit arg3 (⟨5, by decide⟩ : Fin 26) _ rfl _ _ _ _ _ d).trans ?_
      exact read_src_row arg2 harg2 emb (⟨5, by decide⟩ : Fin 26) (rowOf tbl i (⟨5, by decide⟩ : Fin 26)) _ (srcoff5 i arg1 harg1 tbl hrange _) _ _ _ d
    · -- row 6: the later rows' writes miss it; its own write lands the row read from sub-table 6
      refine (read_row_miss arg3 (⟨25, by decide⟩ : Fin 26) (⟨6, by decide⟩ : Fin 26) (by decide) _ rfl _ _ _ _ _ d).trans ?_
      refine (read_row_miss arg3 (⟨24, by decide⟩ : Fin 26) (⟨6, by decide⟩ : Fin 26) (by decide) _ rfl _ _ _ _ _ d).trans ?_
      refine (read_row_miss arg3 (⟨23, by decide⟩ : Fin 26) (⟨6, by decide⟩ : Fin 26) (by decide) _ rfl _ _ _ _ _ d).trans ?_
      refine (read_row_miss arg3 (⟨22, by decide⟩ : Fin 26) (⟨6, by decide⟩ : Fin 26) (by decide) _ rfl _ _ _ _ _ d).trans ?_
      refine (read_row_miss arg3 (⟨21, by decide⟩ : Fin 26) (⟨6, by decide⟩ : Fin 26) (by decide) _ rfl _ _ _ _ _ d).trans ?_
      refine (read_row_miss arg3 (⟨20, by decide⟩ : Fin 26) (⟨6, by decide⟩ : Fin 26) (by decide) _ rfl _ _ _ _ _ d).trans ?_
      refine (read_row_miss arg3 (⟨19, by decide⟩ : Fin 26) (⟨6, by decide⟩ : Fin 26) (by decide) _ rfl _ _ _ _ _ d).trans ?_
      refine (read_row_miss arg3 (⟨18, by decide⟩ : Fin 26) (⟨6, by decide⟩ : Fin 26) (by decide) _ rfl _ _ _ _ _ d).trans ?_
      refine (read_row_miss arg3 (⟨17, by decide⟩ : Fin 26) (⟨6, by decide⟩ : Fin 26) (by decide) _ rfl _ _ _ _ _ d).trans ?_
      refine (read_row_miss arg3 (⟨16, by decide⟩ : Fin 26) (⟨6, by decide⟩ : Fin 26) (by decide) _ rfl _ _ _ _ _ d).trans ?_
      refine (read_row_miss arg3 (⟨15, by decide⟩ : Fin 26) (⟨6, by decide⟩ : Fin 26) (by decide) _ rfl _ _ _ _ _ d).trans ?_
      refine (read_row_miss arg3 (⟨14, by decide⟩ : Fin 26) (⟨6, by decide⟩ : Fin 26) (by decide) _ rfl _ _ _ _ _ d).trans ?_
      refine (read_row_miss arg3 (⟨13, by decide⟩ : Fin 26) (⟨6, by decide⟩ : Fin 26) (by decide) _ rfl _ _ _ _ _ d).trans ?_
      refine (read_row_miss arg3 (⟨12, by decide⟩ : Fin 26) (⟨6, by decide⟩ : Fin 26) (by decide) _ rfl _ _ _ _ _ d).trans ?_
      refine (read_row_miss arg3 (⟨11, by decide⟩ : Fin 26) (⟨6, by decide⟩ : Fin 26) (by decide) _ rfl _ _ _ _ _ d).trans ?_
      refine (read_row_miss arg3 (⟨10, by decide⟩ : Fin 26) (⟨6, by decide⟩ : Fin 26) (by decide) _ rfl _ _ _ _ _ d).trans ?_
      refine (read_row_miss arg3 (⟨9, by decide⟩ : Fin 26) (⟨6, by decide⟩ : Fin 26) (by decide) _ rfl _ _ _ _ _ d).trans ?_
      refine (read_row_miss arg3 (⟨8, by decide⟩ : Fin 26) (⟨6, by decide⟩ : Fin 26) (by decide) _ rfl _ _ _ _ _ d).trans ?_
      refine (read_row_miss arg3 (⟨7, by decide⟩ : Fin 26) (⟨6, by decide⟩ : Fin 26) (by decide) _ rfl _ _ _ _ _ d).trans ?_
      refine (read_row_hit arg3 (⟨6, by decide⟩ : Fin 26) _ rfl _ _ _ _ _ d).trans ?_
      exact read_src_row arg2 harg2 emb (⟨6, by decide⟩ : Fin 26) (rowOf tbl i (⟨6, by decide⟩ : Fin 26)) _ (srcoff6 i arg1 harg1 tbl hrange _) _ _ _ d
    · -- row 7: the later rows' writes miss it; its own write lands the row read from sub-table 7
      refine (read_row_miss arg3 (⟨25, by decide⟩ : Fin 26) (⟨7, by decide⟩ : Fin 26) (by decide) _ rfl _ _ _ _ _ d).trans ?_
      refine (read_row_miss arg3 (⟨24, by decide⟩ : Fin 26) (⟨7, by decide⟩ : Fin 26) (by decide) _ rfl _ _ _ _ _ d).trans ?_
      refine (read_row_miss arg3 (⟨23, by decide⟩ : Fin 26) (⟨7, by decide⟩ : Fin 26) (by decide) _ rfl _ _ _ _ _ d).trans ?_
      refine (read_row_miss arg3 (⟨22, by decide⟩ : Fin 26) (⟨7, by decide⟩ : Fin 26) (by decide) _ rfl _ _ _ _ _ d).trans ?_
      refine (read_row_miss arg3 (⟨21, by decide⟩ : Fin 26) (⟨7, by decide⟩ : Fin 26) (by decide) _ rfl _ _ _ _ _ d).trans ?_
      refine (read_row_miss arg3 (⟨20, by decide⟩ : Fin 26) (⟨7, by decide⟩ : Fin 26) (by decide) _ rfl _ _ _ _ _ d).trans ?_
      refine (read_row_miss arg3 (⟨19, by decide⟩ : Fin 26) (⟨7, by decide⟩ : Fin 26) (by decide) _ rfl _ _ _ _ _ d).trans ?_
      refine (read_row_miss arg3 (⟨18, by decide⟩ : Fin 26) (⟨7, by decide⟩ : Fin 26) (by decide) _ rfl _ _ _ _ _ d).trans ?_
      refine (read_row_miss arg3 (⟨17, by decide⟩ : Fin 26) (⟨7, by decide⟩ : Fin 26) (by decide) _ rfl _ _ _ _ _ d).trans ?_
      refine (read_row_miss arg3 (⟨16, by decide⟩ : Fin 26) (⟨7, by decide⟩ : Fin 26) (by decide) _ rfl _ _ _ _ _ d).trans ?_
      refine (read_row_miss arg3 (⟨15, by decide⟩ : Fin 26) (⟨7, by decide⟩ : Fin 26) (by decide) _ rfl _ _ _ _ _ d).trans ?_
      refine (read_row_miss arg3 (⟨14, by decide⟩ : Fin 26) (⟨7, by decide⟩ : Fin 26) (by decide) _ rfl _ _ _ _ _ d).trans ?_
      refine (read_row_miss arg3 (⟨13, by decide⟩ : Fin 26) (⟨7, by decide⟩ : Fin 26) (by decide) _ rfl _ _ _ _ _ d).trans ?_
      refine (read_row_miss arg3 (⟨12, by decide⟩ : Fin 26) (⟨7, by decide⟩ : Fin 26) (by decide) _ rfl _ _ _ _ _ d).trans ?_
      refine (read_row_miss arg3 (⟨11, by decide⟩ : Fin 26) (⟨7, by decide⟩ : Fin 26) (by decide) _ rfl _ _ _ _ _ d).trans ?_
      refine (read_row_miss arg3 (⟨10, by decide⟩ : Fin 26) (⟨7, by decide⟩ : Fin 26) (by decide) _ rfl _ _ _ _ _ d).trans ?_
      refine (read_row_miss arg3 (⟨9, by decide⟩ : Fin 26) (⟨7, by decide⟩ : Fin 26) (by decide) _ rfl _ _ _ _ _ d).trans ?_
      refine (read_row_miss arg3 (⟨8, by decide⟩ : Fin 26) (⟨7, by decide⟩ : Fin 26) (by decide) _ rfl _ _ _ _ _ d).trans ?_
      refine (read_row_hit arg3 (⟨7, by decide⟩ : Fin 26) _ rfl _ _ _ _ _ d).trans ?_
      exact read_src_row arg2 harg2 emb (⟨7, by decide⟩ : Fin 26) (rowOf tbl i (⟨7, by decide⟩ : Fin 26)) _ (srcoff7 i arg1 harg1 tbl hrange _) _ _ _ d
    · -- row 8: the later rows' writes miss it; its own write lands the row read from sub-table 8
      refine (read_row_miss arg3 (⟨25, by decide⟩ : Fin 26) (⟨8, by decide⟩ : Fin 26) (by decide) _ rfl _ _ _ _ _ d).trans ?_
      refine (read_row_miss arg3 (⟨24, by decide⟩ : Fin 26) (⟨8, by decide⟩ : Fin 26) (by decide) _ rfl _ _ _ _ _ d).trans ?_
      refine (read_row_miss arg3 (⟨23, by decide⟩ : Fin 26) (⟨8, by decide⟩ : Fin 26) (by decide) _ rfl _ _ _ _ _ d).trans ?_
      refine (read_row_miss arg3 (⟨22, by decide⟩ : Fin 26) (⟨8, by decide⟩ : Fin 26) (by decide) _ rfl _ _ _ _ _ d).trans ?_
      refine (read_row_miss arg3 (⟨21, by decide⟩ : Fin 26) (⟨8, by decide⟩ : Fin 26) (by decide) _ rfl _ _ _ _ _ d).trans ?_
      refine (read_row_miss arg3 (⟨20, by decide⟩ : Fin 26) (⟨8, by decide⟩ : Fin 26) (by decide) _ rfl _ _ _ _ _ d).trans ?_
      refine (read_row_miss arg3 (⟨19, by decide⟩ : Fin 26) (⟨8, by decide⟩ : Fin 26) (by decide) _ rfl _ _ _ _ _ d).trans ?_
      refine (read_row_miss arg3 (⟨18, by decide⟩ : Fin 26) (⟨8, by decide⟩ : Fin 26) (by decide) _ rfl _ _ _ _ _ d).trans ?_
      refine (read_row_miss arg3 (⟨17, by decide⟩ : Fin 26) (⟨8, by decide⟩ : Fin 26) (by decide) _ rfl _ _ _ _ _ d).trans ?_
      refine (read_row_miss arg3 (⟨16, by decide⟩ : Fin 26) (⟨8, by decide⟩ : Fin 26) (by decide) _ rfl _ _ _ _ _ d).trans ?_
      refine (read_row_miss arg3 (⟨15, by decide⟩ : Fin 26) (⟨8, by decide⟩ : Fin 26) (by decide) _ rfl _ _ _ _ _ d).trans ?_
      refine (read_row_miss arg3 (⟨14, by decide⟩ : Fin 26) (⟨8, by decide⟩ : Fin 26) (by decide) _ rfl _ _ _ _ _ d).trans ?_
      refine (read_row_miss arg3 (⟨13, by decide⟩ : Fin 26) (⟨8, by decide⟩ : Fin 26) (by decide) _ rfl _ _ _ _ _ d).trans ?_
      refine (read_row_miss arg3 (⟨12, by decide⟩ : Fin 26) (⟨8, by decide⟩ : Fin 26) (by decide) _ rfl _ _ _ _ _ d).trans ?_
      refine (read_row_miss arg3 (⟨11, by decide⟩ : Fin 26) (⟨8, by decide⟩ : Fin 26) (by decide) _ rfl _ _ _ _ _ d).trans ?_
      refine (read_row_miss arg3 (⟨10, by decide⟩ : Fin 26) (⟨8, by decide⟩ : Fin 26) (by decide) _ rfl _ _ _ _ _ d).trans ?_
      refine (read_row_miss arg3 (⟨9, by decide⟩ : Fin 26) (⟨8, by decide⟩ : Fin 26) (by decide) _ rfl _ _ _ _ _ d).trans ?_
      refine (read_row_hit arg3 (⟨8, by decide⟩ : Fin 26) _ rfl _ _ _ _ _ d).trans ?_
      exact read_src_row arg2 harg2 emb (⟨8, by decide⟩ : Fin 26) (rowOf tbl i (⟨8, by decide⟩ : Fin 26)) _ (srcoff8 i arg1 harg1 tbl hrange _) _ _ _ d
    · -- row 9: the later rows' writes miss it; its own write lands the row read from sub-table 9
      refine (read_row_miss arg3 (⟨25, by decide⟩ : Fin 26) (⟨9, by decide⟩ : Fin 26) (by decide) _ rfl _ _ _ _ _ d).trans ?_
      refine (read_row_miss arg3 (⟨24, by decide⟩ : Fin 26) (⟨9, by decide⟩ : Fin 26) (by decide) _ rfl _ _ _ _ _ d).trans ?_
      refine (read_row_miss arg3 (⟨23, by decide⟩ : Fin 26) (⟨9, by decide⟩ : Fin 26) (by decide) _ rfl _ _ _ _ _ d).trans ?_
      refine (read_row_miss arg3 (⟨22, by decide⟩ : Fin 26) (⟨9, by decide⟩ : Fin 26) (by decide) _ rfl _ _ _ _ _ d).trans ?_
      refine (read_row_miss arg3 (⟨21, by decide⟩ : Fin 26) (⟨9, by decide⟩ : Fin 26) (by decide) _ rfl _ _ _ _ _ d).trans ?_
      refine (read_row_miss arg3 (⟨20, by decide⟩ : Fin 26) (⟨9, by decide⟩ : Fin 26) (by decide) _ rfl _ _ _ _ _ d).trans ?_
      refine (read_row_miss arg3 (⟨19, by decide⟩ : Fin 26) (⟨9, by decide⟩ : Fin 26) (by decide) _ rfl _ _ _ _ _ d).trans ?_
      refine (read_row_miss arg3 (⟨18, by decide⟩ : Fin 26) (⟨9, by decide⟩ : Fin 26) (by decide) _ rfl _ _ _ _ _ d).trans ?_
      refine (read_row_miss arg3 (⟨17, by decide⟩ : Fin 26) (⟨9, by decide⟩ : Fin 26) (by decide) _ rfl _ _ _ _ _ d).trans ?_
      refine (read_row_miss arg3 (⟨16, by decide⟩ : Fin 26) (⟨9, by decide⟩ : Fin 26) (by decide) _ rfl _ _ _ _ _ d).trans ?_
      refine (read_row_miss arg3 (⟨15, by decide⟩ : Fin 26) (⟨9, by decide⟩ : Fin 26) (by decide) _ rfl _ _ _ _ _ d).trans ?_
      refine (read_row_miss arg3 (⟨14, by decide⟩ : Fin 26) (⟨9, by decide⟩ : Fin 26) (by decide) _ rfl _ _ _ _ _ d).trans ?_
      refine (read_row_miss arg3 (⟨13, by decide⟩ : Fin 26) (⟨9, by decide⟩ : Fin 26) (by decide) _ rfl _ _ _ _ _ d).trans ?_
      refine (read_row_miss arg3 (⟨12, by decide⟩ : Fin 26) (⟨9, by decide⟩ : Fin 26) (by decide) _ rfl _ _ _ _ _ d).trans ?_
      refine (read_row_miss arg3 (⟨11, by decide⟩ : Fin 26) (⟨9, by decide⟩ : Fin 26) (by decide) _ rfl _ _ _ _ _ d).trans ?_
      refine (read_row_miss arg3 (⟨10, by decide⟩ : Fin 26) (⟨9, by decide⟩ : Fin 26) (by decide) _ rfl _ _ _ _ _ d).trans ?_
      refine (read_row_hit arg3 (⟨9, by decide⟩ : Fin 26) _ rfl _ _ _ _ _ d).trans ?_
      exact read_src_row arg2 harg2 emb (⟨9, by decide⟩ : Fin 26) (rowOf tbl i (⟨9, by decide⟩ : Fin 26)) _ (srcoff9 i arg1 harg1 tbl hrange _) _ _ _ d
    · -- row 10: the later rows' writes miss it; its own write lands the row read from sub-table 10
      refine (read_row_miss arg3 (⟨25, by decide⟩ : Fin 26) (⟨10, by decide⟩ : Fin 26) (by decide) _ rfl _ _ _ _ _ d).trans ?_
      refine (read_row_miss arg3 (⟨24, by decide⟩ : Fin 26) (⟨10, by decide⟩ : Fin 26) (by decide) _ rfl _ _ _ _ _ d).trans ?_
      refine (read_row_miss arg3 (⟨23, by decide⟩ : Fin 26) (⟨10, by decide⟩ : Fin 26) (by decide) _ rfl _ _ _ _ _ d).trans ?_
      refine (read_row_miss arg3 (⟨22, by decide⟩ : Fin 26) (⟨10, by decide⟩ : Fin 26) (by decide) _ rfl _ _ _ _ _ d).trans ?_
      refine (read_row_miss arg3 (⟨21, by decide⟩ : Fin 26) (⟨10, by decide⟩ : Fin 26) (by decide) _ rfl _ _ _ _ _ d).trans ?_
      refine (read_row_miss arg3 (⟨20, by decide⟩ : Fin 26) (⟨10, by decide⟩ : Fin 26) (by decide) _ rfl _ _ _ _ _ d).trans ?_
      refine (read_row_miss arg3 (⟨19, by decide⟩ : Fin 26) (⟨10, by decide⟩ : Fin 26) (by decide) _ rfl _ _ _ _ _ d).trans ?_
      refine (read_row_miss arg3 (⟨18, by decide⟩ : Fin 26) (⟨10, by decide⟩ : Fin 26) (by decide) _ rfl _ _ _ _ _ d).trans ?_
      refine (read_row_miss arg3 (⟨17, by decide⟩ : Fin 26) (⟨10, by decide⟩ : Fin 26) (by decide) _ rfl _ _ _ _ _ d).trans ?_
      refine (read_row_miss arg3 (⟨16, by decide⟩ : Fin 26) (⟨10, by decide⟩ : Fin 26) (by decide) _ rfl _ _ _ _ _ d).trans ?_
      refine (read_row_miss arg3 (⟨15, by decide⟩ : Fin 26) (⟨10, by decide⟩ : Fin 26) (by decide) _ rfl _ _ _ _ _ d).trans ?_
      refine (read_row_miss arg3 (⟨14, by decide⟩ : Fin 26) (⟨10, by decide⟩ : Fin 26) (by decide) _ rfl _ _ _ _ _ d).trans ?_
      refine (read_row_miss arg3 (⟨13, by decide⟩ : Fin 26) (⟨10, by decide⟩ : Fin 26) (by decide) _ rfl _ _ _ _ _ d).trans ?_
      refine (read_row_miss arg3 (⟨12, by decide⟩ : Fin 26) (⟨10, by decide⟩ : Fin 26) (by decide) _ rfl _ _ _ _ _ d).trans ?_
      refine (read_row_miss arg3 (⟨11, by decide⟩ : Fin 26) (⟨10, by decide⟩ : Fin 26) (by decide) _ rfl _ _ _ _ _ d).trans ?_
      refine (read_row_hit arg3 (⟨10, by decide⟩ : Fin 26) _ rfl _ _ _ _ _ d).trans ?_
      exact read_src_row arg2 harg2 emb (⟨10, by decide⟩ : Fin 26) (rowOf tbl i (⟨10, by decide⟩ : Fin 26)) _ (srcoff10 i arg1 harg1 tbl hrange _) _ _ _ d
    · -- row 11: the later rows' writes miss it; its own write lands the row read from sub-table 11
      refine (read_row_miss arg3 (⟨25, by decide⟩ : Fin 26) (⟨11, by decide⟩ : Fin 26) (by decide) _ rfl _ _ _ _ _ d).trans ?_
      refine (read_row_miss arg3 (⟨24, by decide⟩ : Fin 26) (⟨11, by decide⟩ : Fin 26) (by decide) _ rfl _ _ _ _ _ d).trans ?_
      refine (read_row_miss arg3 (⟨23, by decide⟩ : Fin 26) (⟨11, by decide⟩ : Fin 26) (by decide) _ rfl _ _ _ _ _ d).trans ?_
      refine (read_row_miss arg3 (⟨22, by decide⟩ : Fin 26) (⟨11, by decide⟩ : Fin 26) (by decide) _ rfl _ _ _ _ _ d).trans ?_
      refine (read_row_miss arg3 (⟨21, by decide⟩ : Fin 26) (⟨11, by decide⟩ : Fin 26) (by decide) _ rfl _ _ _ _ _ d).trans ?_
      refine (read_row_miss arg3 (⟨20, by decide⟩ : Fin 26) (⟨11, by decide⟩ : Fin 26) (by decide) _ rfl _ _ _ _ _ d).trans ?_
      refine (read_row_miss arg3 (⟨19, by decide⟩ : Fin 26) (⟨11, by decide⟩ : Fin 26) (by decide) _ rfl _ _ _ _ _ d).trans ?_
      refine (read_row_miss arg3 (⟨18, by decide⟩ : Fin 26) (⟨11, by decide⟩ : Fin 26) (by decide) _ rfl _ _ _ _ _ d).trans ?_
      refine (read_row_miss arg3 (⟨17, by decide⟩ : Fin 26) (⟨11, by decide⟩ : Fin 26) (by decide) _ rfl _ _ _ _ _ d).trans ?_
      refine (read_row_miss arg3 (⟨16, by decide⟩ : Fin 26) (⟨11, by decide⟩ : Fin 26) (by decide) _ rfl _ _ _ _ _ d).trans ?_
      refine (read_row_miss arg3 (⟨15, by decide⟩ : Fin 26) (⟨11, by decide⟩ : Fin 26) (by decide) _ rfl _ _ _ _ _ d).trans ?_
      refine (read_row_miss arg3 (⟨14, by decide⟩ : Fin 26) (⟨11, by decide⟩ : Fin 26) (by decide) _ rfl _ _ _ _ _ d).trans ?_
      refine (read_row_miss arg3 (⟨13, by decide⟩ : Fin 26) (⟨11, by decide⟩ : Fin 26) (by decide) _ rfl _ _ _ _ _ d).trans ?_
      refine (read_row_miss arg3 (⟨12, by decide⟩ : Fin 26) (⟨11, by decide⟩ : Fin 26) (by decide) _ rfl _ _ _ _ _ d).trans ?_
      refine (read_row_hit arg3 (⟨11, by decide⟩ : Fin 26) _ rfl _ _ _ _ _ d).trans ?_
      exact read_src_row arg2 harg2 emb (⟨11, by decide⟩ : Fin 26) (rowOf tbl i (⟨11, by decide⟩ : Fin 26)) _ (srcoff11 i arg1 harg1 tbl hrange _) _ _ _ d
    · -- row 12: the later rows' writes miss it; its own write lands the row read from sub-table 12
      refine (read_row_miss arg3 (⟨25, by decide⟩ : Fin 26) (⟨12, by decide⟩ : Fin 26) (by decide) _ rfl _ _ _ _ _ d).trans ?_
      refine (read_row_miss arg3 (⟨24, by decide⟩ : Fin 26) (⟨12, by decide⟩ : Fin 26) (by decide) _ rfl _ _ _ _ _ d).trans ?_
      refine (read_row_miss arg3 (⟨23, by decide⟩ : Fin 26) (⟨12, by decide⟩ : Fin 26) (by decide) _ rfl _ _ _ _ _ d).trans ?_
      refine (read_row_miss arg3 (⟨22, by decide⟩ : Fin 26) (⟨12, by decide⟩ : Fin 26) (by decide) _ rfl _ _ _ _ _ d).trans ?_
      refine (read_row_miss arg3 (⟨21, by decide⟩ : Fin 26) (⟨12, by decide⟩ : Fin 26) (by decide) _ rfl _ _ _ _ _ d).trans ?_
      refine (read_row_miss arg3 (⟨20, by decide⟩ : Fin 26) (⟨12, by decide⟩ : Fin 26) (by decide) _ rfl _ _ _ _ _ d).trans ?_
      refine (read_row_miss arg3 (⟨19, by decide⟩ : Fin 26) (⟨12, by decide⟩ : Fin 26) (by decide) _ rfl _ _ _ _ _ d).trans ?_
      refine (read_row_miss arg3 (⟨18, by decide⟩ : Fin 26) (⟨12, by decide⟩ : Fin 26) (by decide) _ rfl _ _ _ _ _ d).trans ?_
      refine (read_row_miss arg3 (⟨17, by decide⟩ : Fin 26) (⟨12, by decide⟩ : Fin 26) (by decide) _ rfl _ _ _ _ _ d).trans ?_
      refine (read_row_miss arg3 (⟨16, by decide⟩ : Fin 26) (⟨12, by decide⟩ : Fin 26) (by decide) _ rfl _ _ _ _ _ d).trans ?_
      refine (read_row_miss arg3 (⟨15, by decide⟩ : Fin 26) (⟨12, by decide⟩ : Fin 26) (by decide) _ rfl _ _ _ _ _ d).trans ?_
      refine (read_row_miss arg3 (⟨14, by decide⟩ : Fin 26) (⟨12, by decide⟩ : Fin 26) (by decide) _ rfl _ _ _ _ _ d).trans ?_
      refine (read_row_miss arg3 (⟨13, by decide⟩ : Fin 26) (⟨12, by decide⟩ : Fin 26) (by decide) _ rfl _ _ _ _ _ d).trans ?_
      refine (read_row_hit arg3 (⟨12, by decide⟩ : Fin 26) _ rfl _ _ _ _ _ d).trans ?_
      exact read_src_row arg2 harg2 emb (⟨12, by decide⟩ : Fin 26) (rowOf tbl i (⟨12, by decide⟩ : Fin 26)) _ (srcoff12 i arg1 harg1 tbl hrange _) _ _ _ d
    · -- row 13: the later rows' writes miss it; its own write lands the row read from sub-table 13
      refine (read_row_miss arg3 (⟨25, by decide⟩ : Fin 26) (⟨13, by decide⟩ : Fin 26) (by decide) _ rfl _ _ _ _ _ d).trans ?_
      refine (read_row_miss arg3 (⟨24, by decide⟩ : Fin 26) (⟨13, by decide⟩ : Fin 26) (by decide) _ rfl _ _ _ _ _ d).trans ?_
      refine (read_row_miss arg3 (⟨23, by decide⟩ : Fin 26) (⟨13, by decide⟩ : Fin 26) (by decide) _ rfl _ _ _ _ _ d).trans ?_
      refine (read_row_miss arg3 (⟨22, by decide⟩ : Fin 26) (⟨13, by decide⟩ : Fin 26) (by decide) _ rfl _ _ _ _ _ d).trans ?_
      refine (read_row_miss arg3 (⟨21, by decide⟩ : Fin 26) (⟨13, by decide⟩ : Fin 26) (by decide) _ rfl _ _ _ _ _ d).trans ?_
      refine (read_row_miss arg3 (⟨20, by decide⟩ : Fin 26) (⟨13, by decide⟩ : Fin 26) (by decide) _ rfl _ _ _ _ _ d).trans ?_
      refine (read_row_miss arg3 (⟨19, by decide⟩ : Fin 26) (⟨13, by decide⟩ : Fin 26) (by decide) _ rfl _ _ _ _ _ d).trans ?_
      refine (read_row_miss arg3 (⟨18, by decide⟩ : Fin 26) (⟨13, by decide⟩ : Fin 26) (by decide) _ rfl _ _ _ _ _ d).trans ?_
      refine (read_row_miss arg3 (⟨17, by decide⟩ : Fin 26) (⟨13, by decide⟩ : Fin 26) (by decide) _ rfl _ _ _ _ _ d).trans ?_
      refine (read_row_miss arg3 (⟨16, by decide⟩ : Fin 26) (⟨13, by decide⟩ : Fin 26) (by decide) _ rfl _ _ _ _ _ d).trans ?_
      refine (read_row_miss arg3 (⟨15, by decide⟩ : Fin 26) (⟨13, by decide⟩ : Fin 26) (by decide) _ rfl _ _ _ _ _ d).trans ?_
      refine (read_row_miss arg3 (⟨14, by decide⟩ : Fin 26) (⟨13, by decide⟩ : Fin 26) (by decide) _ rfl _ _ _ _ _ d).trans ?_
      refine (read_row_hit arg3 (⟨13, by decide⟩ : Fin 26) _ rfl _ _ _ _ _ d).trans ?_
      exact read_src_row arg2 harg2 emb (⟨13, by decide⟩ : Fin 26) (rowOf tbl i (⟨13, by decide⟩ : Fin 26)) _ (srcoff13 i arg1 harg1 tbl hrange _) _ _ _ d
    · -- row 14: the later rows' writes miss it; its own write lands the row read from sub-table 14
      refine (read_row_miss arg3 (⟨25, by decide⟩ : Fin 26) (⟨14, by decide⟩ : Fin 26) (by decide) _ rfl _ _ _ _ _ d).trans ?_
      refine (read_row_miss arg3 (⟨24, by decide⟩ : Fin 26) (⟨14, by decide⟩ : Fin 26) (by decide) _ rfl _ _ _ _ _ d).trans ?_
      refine (read_row_miss arg3 (⟨23, by decide⟩ : Fin 26) (⟨14, by decide⟩ : Fin 26) (by decide) _ rfl _ _ _ _ _ d).trans ?_
      refine (read_row_miss arg3 (⟨22, by decide⟩ : Fin 26) (⟨14, by decide⟩ : Fin 26) (by decide) _ rfl _ _ _ _ _ d).trans ?_
      refine (read_row_miss arg3 (⟨21, by decide⟩ : Fin 26) (⟨14, by decide⟩ : Fin 26) (by decide) _ rfl _ _ _ _ _ d).trans ?_
      refine (read_row_miss arg3 (⟨20, by decide⟩ : Fin 26) (⟨14, by decide⟩ : Fin 26) (by decide) _ rfl _ _ _ _ _ d).trans ?_
      refine (read_row_miss arg3 (⟨19, by decide⟩ : Fin 26) (⟨14, by decide⟩ : Fin 26) (by decide) _ rfl _ _ _ _ _ d).trans ?_
      refine (read_row_miss arg3 (⟨18, by decide⟩ : Fin 26) (⟨14, by decide⟩ : Fin 26) (by decide) _ rfl _ _ _ _ _ d).trans ?_
      refine (read_row_miss arg3 (⟨17, by decide⟩ : Fin 26) (⟨14, by decide⟩ : Fin 26) (by decide) _ rfl _ _ _ _ _ d).trans ?_
      refine (read_row_miss arg3 (⟨16, by decide⟩ : Fin 26) (⟨14, by decide⟩ : Fin 26) (by decide) _ rfl _ _ _ _ _ d).trans ?_
      refine (read_row_miss arg3 (⟨15, by decide⟩ : Fin 26) (⟨14, by decide⟩ : Fin 26) (by decide) _ rfl _ _ _ _ _ d).trans ?_
      refine (read_row_hit arg3 (⟨14, by decide⟩ : Fin 26) _ rfl _ _ _ _ _ d).trans ?_
      exact read_src_row arg2 harg2 emb (⟨14, by decide⟩ : Fin 26) (rowOf tbl i (⟨14, by decide⟩ : Fin 26)) _ (srcoff14 i arg1 harg1 tbl hrange _) _ _ _ d
    · -- row 15: the later rows' writes miss it; its own write lands the row read from sub-table 15
      refine (read_row_miss arg3 (⟨25, by decide⟩ : Fin 26) (⟨15, by decide⟩ : Fin 26) (by decide) _ rfl _ _ _ _ _ d).trans ?_
      refine (read_row_miss arg3 (⟨24, by decide⟩ : Fin 26) (⟨15, by decide⟩ : Fin 26) (by decide) _ rfl _ _ _ _ _ d).trans ?_
      refine (read_row_miss arg3 (⟨23, by decide⟩ : Fin 26) (⟨15, by decide⟩ : Fin 26) (by decide) _ rfl _ _ _ _ _ d).trans ?_
      refine (read_row_miss arg3 (⟨22, by decide⟩ : Fin 26) (⟨15, by decide⟩ : Fin 26) (by decide) _ rfl _ _ _ _ _ d).trans ?_
      refine (read_row_miss arg3 (⟨21, by decide⟩ : Fin 26) (⟨15, by decide⟩ : Fin 26) (by decide) _ rfl _ _ _ _ _ d).trans ?_
      refine (read_row_miss arg3 (⟨20, by decide⟩ : Fin 26) (⟨15, by decide⟩ : Fin 26) (by decide) _ rfl _ _ _ _ _ d).trans ?_
      refine (read_row_miss arg3 (⟨19, by decide⟩ : Fin 26) (⟨15, by decide⟩ : Fin 26) (by decide) _ rfl _ _ _ _ _ d).trans ?_
      refine (read_row_miss arg3 (⟨18, by decide⟩ : Fin 26) (⟨15, by decide⟩ : Fin 26) (by decide) _ rfl _ _ _ _ _ d).trans ?_
      refine (read_row_miss arg3 (⟨17, by decide⟩ : Fin 26) (⟨15, by decide⟩ : Fin 26) (by decide) _ rfl _ _ _ _ _ d).trans ?_
      refine (read_row_miss arg3 (⟨16, by decide⟩ : Fin 26) (⟨15, by decide⟩ : Fin 26) (by decide) _ rfl _ _ _ _ _ d).trans ?_
      refine (read_row_hit arg3 (⟨15, by decide⟩ : Fin 26) _ rfl _ _ _ _ _ d).trans ?_
      exact read_src_row arg2 harg2 emb (⟨15, by decide⟩ : Fin 26) (rowOf tbl i (⟨15, by decide⟩ : Fin 26)) _ (srcoff15 i arg1 harg1 tbl hrange _) _ _ _ d
    · -- row 16: the later rows' writes miss it; its own write lands the row read from sub-table 16
      refine (read_row_miss arg3 (⟨25, by decide⟩ : Fin 26) (⟨16, by decide⟩ : Fin 26) (by decide) _ rfl _ _ _ _ _ d).trans ?_
      refine (read_row_miss arg3 (⟨24, by decide⟩ : Fin 26) (⟨16, by decide⟩ : Fin 26) (by decide) _ rfl _ _ _ _ _ d).trans ?_
      refine (read_row_miss arg3 (⟨23, by decide⟩ : Fin 26) (⟨16, by decide⟩ : Fin 26) (by decide) _ rfl _ _ _ _ _ d).trans ?_
      refine (read_row_miss arg3 (⟨22, by decide⟩ : Fin 26) (⟨16, by decide⟩ : Fin 26) (by decide) _ rfl _ _ _ _ _ d).trans ?_
      refine (read_row_miss arg3 (⟨21, by decide⟩ : Fin 26) (⟨16, by decide⟩ : Fin 26) (by decide) _ rfl _ _ _ _ _ d).trans ?_
      refine (read_row_miss arg3 (⟨20, by decide⟩ : Fin 26) (⟨16, by decide⟩ : Fin 26) (by decide) _ rfl _ _ _ _ _ d).trans ?_
      refine (read_row_miss arg3 (⟨19, by decide⟩ : Fin 26) (⟨16, by decide⟩ : Fin 26) (by decide) _ rfl _ _ _ _ _ d).trans ?_
      refine (read_row_miss arg3 (⟨18, by decide⟩ : Fin 26) (⟨16, by decide⟩ : Fin 26) (by decide) _ rfl _ _ _ _ _ d).trans ?_
      refine (read_row_miss arg3 (⟨17, by decide⟩ : Fin 26) (⟨16, by decide⟩ : Fin 26) (by decide) _ rfl _ _ _ _ _ d).trans ?_
      refine (read_row_hit arg3 (⟨16, by decide⟩ : Fin 26) _ rfl _ _ _ _ _ d).trans ?_
      exact read_src_row arg2 harg2 emb (⟨16, by decide⟩ : Fin 26) (rowOf tbl i (⟨16, by decide⟩ : Fin 26)) _ (srcoff16 i arg1 harg1 tbl hrange _) _ _ _ d
    · -- row 17: the later rows' writes miss it; its own write lands the row read from sub-table 17
      refine (read_row_miss arg3 (⟨25, by decide⟩ : Fin 26) (⟨17, by decide⟩ : Fin 26) (by decide) _ rfl _ _ _ _ _ d).trans ?_
      refine (read_row_miss arg3 (⟨24, by decide⟩ : Fin 26) (⟨17, by decide⟩ : Fin 26) (by decide) _ rfl _ _ _ _ _ d).trans ?_
      refine (read_row_miss arg3 (⟨23, by decide⟩ : Fin 26) (⟨17, by decide⟩ : Fin 26) (by decide) _ rfl _ _ _ _ _ d).trans ?_
      refine (read_row_miss arg3 (⟨22, by decide⟩ : Fin 26) (⟨17, by decide⟩ : Fin 26) (by decide) _ rfl _ _ _ _ _ d).trans ?_
      refine (read_row_miss arg3 (⟨21, by decide⟩ : Fin 26) (⟨17, by decide⟩ : Fin 26) (by decide) _ rfl _ _ _ _ _ d).trans ?_
      refine (read_row_miss arg3 (⟨20, by decide⟩ : Fin 26) (⟨17, by decide⟩ : Fin 26) (by decide) _ rfl _ _ _ _ _ d).trans ?_
      refine (read_row_miss arg3 (⟨19, by decide⟩ : Fin 26) (⟨17, by decide⟩ : Fin 26) (by decide) _ rfl _ _ _ _ _ d).trans ?_
      refine (read_row_miss arg3 (⟨18, by decide⟩ : Fin 26) (⟨17, by decide⟩ : Fin 26) (by decide) _ rfl _ _ _ _ _ d).trans ?_
      refine (read_row_hit arg3 (⟨17, by decide⟩ : Fin 26) _ rfl _ _ _ _ _ d).trans ?_
      exact read_src_row arg2 harg2 emb (⟨17, by decide⟩ : Fin 26) (rowOf tbl i (⟨17, by decide⟩ : Fin 26)) _ (srcoff17 i arg1 harg1 tbl hrange _) _ _ _ d
    · -- row 18: the later rows' writes miss it; its own write lands the row read from sub-table 18
      refine (read_row_miss arg3 (⟨25, by decide⟩ : Fin 26) (⟨18, by decide⟩ : Fin 26) (by decide) _ rfl _ _ _ _ _ d).trans ?_
      refine (read_row_miss arg3 (⟨24, by decide⟩ : Fin 26) (⟨18, by decide⟩ : Fin 26) (by decide) _ rfl _ _ _ _ _ d).trans ?_
      refine (read_row_miss arg3 (⟨23, by decide⟩ : Fin 26) (⟨18, by decide⟩ : Fin 26) (by decide) _ rfl _ _ _ _ _ d).trans ?_
      refine (read_row_miss arg3 (⟨22, by decide⟩ : Fin 26) (⟨18, by decide⟩ : Fin 26) (by decide) _ rfl _ _ _ _ _ d).trans ?_
      refine (read_row_miss arg3 (⟨21, by decide⟩ : Fin 26) (⟨18, by decide⟩ : Fin 26) (by decide) _ rfl _ _ _ _ _ d).trans ?_
      refine (read_row_miss arg3 (⟨20, by decide⟩ : Fin 26) (⟨18, by decide⟩ : Fin 26) (by decide) _ rfl _ _ _ _ _ d).trans ?_
      refine (read_row_miss arg3 (⟨19, by decide⟩ : Fin 26) (⟨18, by decide⟩ : Fin 26) (by decide) _ rfl _ _ _ _ _ d).trans ?_
      refine (read_row_hit arg3 (⟨18, by decide⟩ : Fin 26) _ rfl _ _ _ _ _ d).trans ?_
      exact read_src_row arg2 harg2 emb (⟨18, by decide⟩ : Fin 26) (rowOf tbl i (⟨18, by decide⟩ : Fin 26)) _ (srcoff18 i arg1 harg1 tbl hrange _) _ _ _ d
    · -- row 19: the later rows' writes miss it; its own write lands the row read from sub-table 19
      refine (read_row_miss arg3 (⟨25, by decide⟩ : Fin 26) (⟨19, by decide⟩ : Fin 26) (by decide) _ rfl _ _ _ _ _ d).trans ?_
      refine (read_row_miss arg3 (⟨24, by decide⟩ : Fin 26) (⟨19, by decide⟩ : Fin 26) (by decide) _ rfl _ _ _ _ _ d).trans ?_
      refine (read_row_miss arg3 (⟨23, by decide⟩ : Fin 26) (⟨19, by decide⟩ : Fin 26) (by decide) _ rfl _ _ _ _ _ d).trans ?_
      refine (read_row_miss arg3 (⟨22, by decide⟩ : Fin 26) (⟨19, by decide⟩ : Fin 26) (by decide) _ rfl _ _ _ _ _ d).trans ?_
      refine (read_row_miss arg3 (⟨21, by decide⟩ : Fin 26) (⟨19, by decide⟩ : Fin 26) (by decide) _ rfl _ _ _ _ _ d).trans ?_
      refine (read_row_miss arg3 (⟨20, by decide⟩ : Fin 26) (⟨19, by decide⟩ : Fin 26) (by decide) _ rfl _ _ _ _ _ d).trans ?_
      refine (read_row_hit arg3 (⟨19, by decide⟩ : Fin 26) _ rfl _ _ _ _ _ d).trans ?_
      exact read_src_row arg2 harg2 emb (⟨19, by decide⟩ : Fin 26) (rowOf tbl i (⟨19, by decide⟩ : Fin 26)) _ (srcoff19 i arg1 harg1 tbl hrange _) _ _ _ d
    · -- row 20: the later rows' writes miss it; its own write lands the row read from sub-table 20
      refine (read_row_miss arg3 (⟨25, by decide⟩ : Fin 26) (⟨20, by decide⟩ : Fin 26) (by decide) _ rfl _ _ _ _ _ d).trans ?_
      refine (read_row_miss arg3 (⟨24, by decide⟩ : Fin 26) (⟨20, by decide⟩ : Fin 26) (by decide) _ rfl _ _ _ _ _ d).trans ?_
      refine (read_row_miss arg3 (⟨23, by decide⟩ : Fin 26) (⟨20, by decide⟩ : Fin 26) (by decide) _ rfl _ _ _ _ _ d).trans ?_
      refine (read_row_miss arg3 (⟨22, by decide⟩ : Fin 26) (⟨20, by decide⟩ : Fin 26) (by decide) _ rfl _ _ _ _ _ d).trans ?_
      refine (read_row_miss arg3 (⟨21, by decide⟩ : Fin 26) (⟨20, by decide⟩ : Fin 26) (by decide) _ rfl _ _ _ _ _ d).trans ?_
      refine (read_row_hit arg3 (⟨20, by decide⟩ : Fin 26) _ rfl _ _ _ _ _ d).trans ?_
      exact read_src_row arg2 harg2 emb (⟨20, by decide⟩ : Fin 26) (rowOf tbl i (⟨20, by decide⟩ : Fin 26)) _ (srcoff20 i arg1 harg1 tbl hrange _) _ _ _ d
    · -- row 21: the later rows' writes miss it; its own write lands the row read from sub-table 21
      refine (read_row_miss arg3 (⟨25, by decide⟩ : Fin 26) (⟨21, by decide⟩ : Fin 26) (by decide) _ rfl _ _ _ _ _ d).trans ?_
      refine (read_row_miss arg3 (⟨24, by decide⟩ : Fin 26) (⟨21, by decide⟩ : Fin 26) (by decide) _ rfl _ _ _ _ _ d).trans ?_
      refine (read_row_miss arg3 (⟨23, by decide⟩ : Fin 26) (⟨21, by decide⟩ : Fin 26) (by decide) _ rfl _ _ _ _ _ d).trans ?_
      refine (read_row_miss arg3 (⟨22, by decide⟩ : Fin 26) (⟨21, by decide⟩ : Fin 26) (by decide) _ rfl _ _ _ _ _ d).trans ?_
      refine (read_row_hit arg3 (⟨21, by decide⟩ : Fin 26) _ rfl _ _ _ _ _ d).trans ?_
      exact read_src_row arg2 harg2 emb (⟨21, by decide⟩ : Fin 26) (rowOf tbl i (⟨21, by decide⟩ : Fin 26)) _ (srcoff21 i arg1 harg1 tbl hrange _) _ _ _ d
    · -- row 22: the later rows' writes miss it; its own write lands the row read from sub-table 22
      refine (read_row_miss arg3 (⟨25, by decide⟩ : Fin 26) (⟨22, by decide⟩ : Fin 26) (by decide) _ rfl _ _ _ _ _ d).trans ?_
      refine (read_row_miss arg3 (⟨24, by decide⟩ : Fin 26) (⟨22, by decide⟩ : Fin 26) (by decide) _ rfl _ _ _ _ _ d).trans ?_
      refine (read_row_miss arg3 (⟨23, by decide⟩ : Fin 26) (⟨22, by decide⟩ : Fin 26) (by decide) _ rfl _ _ _ _ _ d).trans ?_
      refine (read_row_hit arg3 (⟨22, by decide⟩ : Fin 26) _ rfl _ _ _ _ _ d).trans ?_
      exact read_src_row arg2 harg2 emb (⟨22, by decide⟩ : Fin 26) (rowOf tbl i (⟨22, by decide⟩ : Fin 26)) _ (srcoff22 i arg1 harg1 tbl hrange _) _ _ _ d
    · -- row 23: the later rows' writes miss it; its own write lands the row read from sub-table 23
      refine (read_row_miss arg3 (⟨25, by decide⟩ : Fin 26) (⟨23, by decide⟩ : Fin 26) (by decide) _ rfl _ _ _ _ _ d).trans ?_
      refine (read_row_miss arg3 (⟨24, by decide⟩ : Fin 26) (⟨23, by decide⟩ : Fin 26) (by decide) _ rfl _ _ _ _ _ d).trans ?_
      refine (read_row_hit arg3 (⟨23, by decide⟩ : Fin 26) _ rfl _ _ _ _ _ d).trans ?_
      exact read_src_row arg2 harg2 emb (⟨23, by decide⟩ : Fin 26) (rowOf tbl i (⟨23, by decide⟩ : Fin 26)) _ (srcoff23 i arg1 harg1 tbl hrange _) _ _ _ d
    · -- row 24: the later rows' writes miss it; its own write lands the row read from sub-table 24
      refine (read_row_miss arg3 (⟨25, by decide⟩ : Fin 26) (⟨24, by decide⟩ : Fin 26) (by decide) _ rfl _ _ _ _ _ d).trans ?_
      refine (read_row_hit arg3 (⟨24, by decide⟩ : Fin 26) _ rfl _ _ _ _ _ d).trans ?_
      exact read_src_row arg2 harg2 emb (⟨24, by decide⟩ : Fin 26) (rowOf tbl i (⟨24, by decide⟩ : Fin 26)) _ (srcoff24 i arg1 harg1 tbl hrange _) _ _ _ d
    · -- row 25: the later rows' writes miss it; its own write lands the row read from sub-table 25
      refine (read_row_hit arg3 (⟨25, by decide⟩ : Fin 26) _ rfl _ _ _ _ _ d).trans ?_
      exact read_src_row arg2 harg2 emb (⟨25, by decide⟩ : Fin 26) (rowOf tbl i (⟨25, by decide⟩ : Fin 26)) _ (srcoff25 i arg1 harg1 tbl hrange _) _ _ _ d
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    iexact Hq25
  iexists _; iexact HW

end Cert.KernelIdeal.Gather3

end
-- ==== Proof.G3Body.lean ====
/-
  The gather call's body at one grid point: its triple.

  The body's run (`gatherRun`) leaves the output window's buffer in eleven pieces — rows 0 to 9 each alone, and the
  rest — each at contents that hold on it what the buffer reading `gatherBlk tbl emb i` holds. Pieces at contents
  that agree with one function on them are pieces at that function, and the eleven are the whole buffer
  (`pieces_join`: row `j` lies in the buffer less the rows before it, the rows being pairwise apart). So the body's
  triple follows (`sound_gather3`): from the table and the stacked tables at any shares, the window's buffer whole and
  the call's 26 counters at zero, the body returns all of them with the buffer holding the gathered block and the
  counters back at zero.
-/
import proofs.«407213_j20864951124667_1_alg».proof.Proof.G3Run

set_option maxRecDepth 16384

noncomputable section

namespace Cert.KernelIdeal.Gather3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts₀] [Facts]
open Facts₀ Facts

local notation "𝕄" => MT nD τ sig Unit (Elt F) ℕ (Pipeline.UD sig nD τ) ℕ

section Join

variable (c : Dev nD) (arg3 : Memref sig .tc .vmem S1x26x64 .f32) (harg3 : arg3.IsWhole) (B : Vec F S1x26x64 .f32)

set_option maxHeartbeats 1000000 in
/-- The eleven pieces the run leaves the buffer in, each at contents that agree on it with the buffer reading `B`,
    are the whole buffer reading `B`. -/
theorem pieces_join (d0 d1 d2 d3 d4 d5 d6 d7 d8 d9 dR : Buf (Elt F) (arg3.view.loc (c : Thread nD τ)))
    (h0 : ∀ idx ∈ rowSet c arg3 (⟨0, of_decide_eq_true rfl⟩ : Fin 26), d0 idx = (harg3.unread B) idx)
    (h1 : ∀ idx ∈ rowSet c arg3 (⟨1, of_decide_eq_true rfl⟩ : Fin 26), d1 idx = (harg3.unread B) idx)
    (h2 : ∀ idx ∈ rowSet c arg3 (⟨2, of_decide_eq_true rfl⟩ : Fin 26), d2 idx = (harg3.unread B) idx)
    (h3 : ∀ idx ∈ rowSet c arg3 (⟨3, of_decide_eq_true rfl⟩ : Fin 26), d3 idx = (harg3.unread B) idx)
    (h4 : ∀ idx ∈ rowSet c arg3 (⟨4, of_decide_eq_true rfl⟩ : Fin 26), d4 idx = (harg3.unread B) idx)
    (h5 : ∀ idx ∈ rowSet c arg3 (⟨5, of_decide_eq_true rfl⟩ : Fin 26), d5 idx = (harg3.unread B) idx)
    (h6 : ∀ idx ∈ rowSet c arg3 (⟨6, of_decide_eq_true rfl⟩ : Fin 26), d6 idx = (harg3.unread B) idx)
    (h7 : ∀ idx ∈ rowSet c arg3 (⟨7, of_decide_eq_true rfl⟩ : Fin 26), d7 idx = (harg3.unread B) idx)
    (h8 : ∀ idx ∈ rowSet c arg3 (⟨8, of_decide_eq_true rfl⟩ : Fin 26), d8 idx = (harg3.unread B) idx)
    (h9 : ∀ idx ∈ rowSet c arg3 (⟨9, of_decide_eq_true rfl⟩ : Fin 26), d9 idx = (harg3.unread B) idx)
    (hR : ∀ idx ∈ arg3.view.set, dR idx = (harg3.unread B) idx) :
    (iprop((arg3.view.loc (c : Thread nD τ) ↦[(rowM arg3 (⟨0, of_decide_eq_true rfl⟩ : Fin 26)).view.set]{fullShare} d0)
        ∗ (arg3.view.loc (c : Thread nD τ) ↦[(rowM arg3 (⟨1, of_decide_eq_true rfl⟩ : Fin 26)).view.set]{fullShare} d1)
        ∗ (arg3.view.loc (c : Thread nD τ) ↦[(rowM arg3 (⟨2, of_decide_eq_true rfl⟩ : Fin 26)).view.set]{fullShare} d2)
        ∗ (arg3.view.loc (c : Thread nD τ) ↦[(rowM arg3 (⟨3, of_decide_eq_true rfl⟩ : Fin 26)).view.set]{fullShare} d3)
        ∗ (arg3.view.loc (c : Thread nD τ) ↦[(rowM arg3 (⟨4, of_decide_eq_true rfl⟩ : Fin 26)).view.set]{fullShare} d4)
        ∗ (arg3.view.loc (c : Thread nD τ) ↦[(rowM arg3 (⟨5, of_decide_eq_true rfl⟩ : Fin 26)).view.set]{fullShare} d5)
        ∗ (arg3.view.loc (c : Thread nD τ) ↦[(rowM arg3 (⟨6, of_decide_eq_true rfl⟩ : Fin 26)).view.set]{fullShare} d6)
        ∗ (arg3.view.loc (c : Thread nD τ) ↦[(rowM arg3 (⟨7, of_decide_eq_true rfl⟩ : Fin 26)).view.set]{fullShare} d7)
        ∗ (arg3.view.loc (c : Thread nD τ) ↦[(rowM arg3 (⟨8, of_decide_eq_true rfl⟩ : Fin 26)).view.set]{fullShare} d8)
        ∗ (arg3.view.loc (c : Thread nD τ) ↦[(rowM arg3 (⟨9, of_decide_eq_true rfl⟩ : Fin 26)).view.set]{fullShare} d9)
        ∗ (arg3.view.loc (c : Thread nD τ) ↦[((((((((((arg3.view.set \ (rowM arg3 (⟨0, of_decide_eq_true rfl⟩ : Fin 26)).view.set) \ (rowM arg3 (⟨1, of_decide_eq_true rfl⟩ : Fin 26)).view.set) \ (rowM arg3 (⟨2, of_decide_eq_true rfl⟩ : Fin 26)).view.set) \ (rowM arg3 (⟨3, of_decide_eq_true rfl⟩ : Fin 26)).view.set) \ (rowM arg3 (⟨4, of_decide_eq_true rfl⟩ : Fin 26)).view.set) \ (rowM arg3 (⟨5, of_decide_eq_true rfl⟩ : Fin 26)).view.set) \ (rowM arg3 (⟨6, of_decide_eq_true rfl⟩ : Fin 26)).view.set) \ (rowM arg3 (⟨7, of_decide_eq_true rfl⟩ : Fin 26)).view.set) \ (rowM arg3 (⟨8, of_decide_eq_true rfl⟩ : Fin 26)).view.set) \ (rowM arg3 (⟨9, of_decide_eq_true rfl⟩ : Fin 26)).view.set)]{fullShare} dR)) : sProp 𝕄)
      ⊢ arg3.view.loc (c : Thread nD τ) ↦[arg3.view.set]{fullShare} (harg3.unread B) := by
  have e0 : (arg3.view.loc (c : Thread nD τ) ↦[(rowM arg3 (⟨0, of_decide_eq_true rfl⟩ : Fin 26)).view.set]{fullShare} d0 : sProp 𝕄)
      = arg3.view.loc (c : Thread nD τ) ↦[(rowM arg3 (⟨0, of_decide_eq_true rfl⟩ : Fin 26)).view.set]{fullShare} (harg3.unread B) := pointsTo_congr h0
  have e1 : (arg3.view.loc (c : Thread nD τ) ↦[(rowM arg3 (⟨1, of_decide_eq_true rfl⟩ : Fin 26)).view.set]{fullShare} d1 : sProp 𝕄)
      = arg3.view.loc (c : Thread nD τ) ↦[(rowM arg3 (⟨1, of_decide_eq_true rfl⟩ : Fin 26)).view.set]{fullShare} (harg3.unread B) := pointsTo_congr h1
  have e2 : (arg3.view.loc (c : Thread nD τ) ↦[(rowM arg3 (⟨2, of_decide_eq_true rfl⟩ : Fin 26)).view.set]{fullShare} d2 : sProp 𝕄)
      = arg3.view.loc (c : Thread nD τ) ↦[(rowM arg3 (⟨2, of_decide_eq_true rfl⟩ : Fin 26)).view.set]{fullShare} (harg3.unread B) := pointsTo_congr h2
  have e3 : (arg3.view.loc (c : Thread nD τ) ↦[(rowM arg3 (⟨3, of_decide_eq_true rfl⟩ : Fin 26)).view.set]{fullShare} d3 : sProp 𝕄)
      = arg3.view.loc (c : Thread nD τ) ↦[(rowM arg3 (⟨3, of_decide_eq_true rfl⟩ : Fin 26)).view.set]{fullShare} (harg3.unread B) := pointsTo_congr h3
  have e4 : (arg3.view.loc (c : Thread nD τ) ↦[(rowM arg3 (⟨4, of_decide_eq_true rfl⟩ : Fin 26)).view.set]{fullShare} d4 : sProp 𝕄)
      = arg3.view.loc (c : Thread nD τ) ↦[(rowM arg3 (⟨4, of_decide_eq_true rfl⟩ : Fin 26)).view.set]{fullShare} (harg3.unread B) := pointsTo_congr h4
  have e5 : (arg3.view.loc (c : Thread nD τ) ↦[(rowM arg3 (⟨5, of_decide_eq_true rfl⟩ : Fin 26)).view.set]{fullShare} d5 : sProp 𝕄)
      = arg3.view.loc (c : Thread nD τ) ↦[(rowM arg3 (⟨5, of_decide_eq_true rfl⟩ : Fin 26)).view.set]{fullShare} (harg3.unread B) := pointsTo_congr h5
  have e6 : (arg3.view.loc (c : Thread nD τ) ↦[(rowM arg3 (⟨6, of_decide_eq_true rfl⟩ : Fin 26)).view.set]{fullShare} d6 : sProp 𝕄)
      = arg3.view.loc (c : Thread nD τ) ↦[(rowM arg3 (⟨6, of_decide_eq_true rfl⟩ : Fin 26)).view.set]{fullShare} (harg3.unread B) := pointsTo_congr h6
  have e7 : (arg3.view.loc (c : Thread nD τ) ↦[(rowM arg3 (⟨7, of_decide_eq_true rfl⟩ : Fin 26)).view.set]{fullShare} d7 : sProp 𝕄)
      = arg3.view.loc (c : Thread nD τ) ↦[(rowM arg3 (⟨7, of_decide_eq_true rfl⟩ : Fin 26)).view.set]{fullShare} (harg3.unread B) := pointsTo_congr h7
  have e8 : (arg3.view.loc (c : Thread nD τ) ↦[(rowM arg3 (⟨8, of_decide_eq_true rfl⟩ : Fin 26)).view.set]{fullShare} d8 : sProp 𝕄)
      = arg3.view.loc (c : Thread nD τ) ↦[(rowM arg3 (⟨8, of_decide_eq_true rfl⟩ : Fin 26)).view.set]{fullShare} (harg3.unread B) := pointsTo_congr h8
  have e9 : (arg3.view.loc (c : Thread nD τ) ↦[(rowM arg3 (⟨9, of_decide_eq_true rfl⟩ : Fin 26)).view.set]{fullShare} d9 : sProp 𝕄)
      = arg3.view.loc (c : Thread nD τ) ↦[(rowM arg3 (⟨9, of_decide_eq_true rfl⟩ : Fin 26)).view.set]{fullShare} (harg3.unread B) := pointsTo_congr h9
  have eR : (arg3.view.loc (c : Thread nD τ) ↦[((((((((((arg3.view.set \ (rowM arg3 (⟨0, of_decide_eq_true rfl⟩ : Fin 26)).view.set) \ (rowM arg3 (⟨1, of_decide_eq_true rfl⟩ : Fin 26)).view.set) \ (rowM arg3 (⟨2, of_decide_eq_true rfl⟩ : Fin 26)).view.set) \ (rowM arg3 (⟨3, of_decide_eq_true rfl⟩ : Fin 26)).view.set) \ (rowM arg3 (⟨4, of_decide_eq_true rfl⟩ : Fin 26)).view.set) \ (rowM arg3 (⟨5, of_decide_eq_true rfl⟩ : Fin 26)).view.set) \ (rowM arg3 (⟨6, of_decide_eq_true rfl⟩ : Fin 26)).view.set) \ (rowM arg3 (⟨7, of_decide_eq_true rfl⟩ : Fin 26)).view.set) \ (rowM arg3 (⟨8, of_decide_eq_true rfl⟩ : Fin 26)).view.set) \ (rowM arg3 (⟨9, of_decide_eq_true rfl⟩ : Fin 26)).view.set)]{fullShare} dR : sProp 𝕄)
      = arg3.view.loc (c : Thread nD τ) ↦[((((((((((arg3.view.set \ (rowM arg3 (⟨0, of_decide_eq_true rfl⟩ : Fin 26)).view.set) \ (rowM arg3 (⟨1, of_decide_eq_true rfl⟩ : Fin 26)).view.set) \ (rowM arg3 (⟨2, of_decide_eq_true rfl⟩ : Fin 26)).view.set) \ (rowM arg3 (⟨3, of_decide_eq_true rfl⟩ : Fin 26)).view.set) \ (rowM arg3 (⟨4, of_decide_eq_true rfl⟩ : Fin 26)).view.set) \ (rowM arg3 (⟨5, of_decide_eq_true rfl⟩ : Fin 26)).view.set) \ (rowM arg3 (⟨6, of_decide_eq_true rfl⟩ : Fin 26)).view.set) \ (rowM arg3 (⟨7, of_decide_eq_true rfl⟩ : Fin 26)).view.set) \ (rowM arg3 (⟨8, of_decide_eq_true rfl⟩ : Fin 26)).view.set) \ (rowM arg3 (⟨9, of_decide_eq_true rfl⟩ : Fin 26)).view.set)]{fullShare} (harg3.unread B) :=
    pointsTo_congr fun idx hi => hR idx
      ((Finset.sdiff_subset.trans (Finset.sdiff_subset.trans (Finset.sdiff_subset.trans (Finset.sdiff_subset.trans (Finset.sdiff_subset.trans (Finset.sdiff_subset.trans (Finset.sdiff_subset.trans (Finset.sdiff_subset.trans (Finset.sdiff_subset.trans (Finset.sdiff_subset)))))))))) hi)
  rw [e0, e1, e2, e3, e4, e5, e6, e7, e8, e9, eR]
  iintro ⟨P0, P1, P2, P3, P4, P5, P6, P7, P8, P9, PR⟩
  ihave PR := (pointsTo_split_subset (sub_sdiff (sub_sdiff (sub_sdiff (sub_sdiff (sub_sdiff (sub_sdiff (sub_sdiff (sub_sdiff (sub_sdiff (rowSet_subset c arg3 (⟨9, of_decide_eq_true rfl⟩ : Fin 26)) (rowSet_disjoint c arg3 (⟨9, of_decide_eq_true rfl⟩ : Fin 26) (⟨0, of_decide_eq_true rfl⟩ : Fin 26) (by decide))) (rowSet_disjoint c arg3 (⟨9, of_decide_eq_true rfl⟩ : Fin 26) (⟨1, of_decide_eq_true rfl⟩ : Fin 26) (by decide))) (rowSet_disjoint c arg3 (⟨9, of_decide_eq_true rfl⟩ : Fin 26) (⟨2, of_decide_eq_true rfl⟩ : Fin 26) (by decide))) (rowSet_disjoint c arg3 (⟨9, of_decide_eq_true rfl⟩ : Fin 26) (⟨3, of_decide_eq_true rfl⟩ : Fin 26) (by decide))) (rowSet_disjoint c arg3 (⟨9, of_decide_eq_true rfl⟩ : Fin 26) (⟨4, of_decide_eq_true rfl⟩ : Fin 26) (by decide))) (rowSet_disjoint c arg3 (⟨9, of_decide_eq_true rfl⟩ : Fin 26) (⟨5, of_decide_eq_true rfl⟩ : Fin 26) (by decide))) (rowSet_disjoint c arg3 (⟨9, of_decide_eq_true rfl⟩ : Fin 26) (⟨6, of_decide_eq_true rfl⟩ : Fin 26) (by decide))) (rowSet_disjoint c arg3 (⟨9, of_decide_eq_true rfl⟩ : Fin 26) (⟨7, of_decide_eq_true rfl⟩ : Fin 26) (by decide))) (rowSet_disjoint c arg3 (⟨9, of_decide_eq_true rfl⟩ : Fin 26) (⟨8, of_decide_eq_true rfl⟩ : Fin 26) (by decide)))).2 $$ [P9 PR]
  · isplitl [P9]; · iexact P9
    iexact PR
  ihave PR := (pointsTo_split_subset (sub_sdiff (sub_sdiff (sub_sdiff (sub_sdiff (sub_sdiff (sub_sdiff (sub_sdiff (sub_sdiff (rowSet_subset c arg3 (⟨8, of_decide_eq_true rfl⟩ : Fin 26)) (rowSet_disjoint c arg3 (⟨8, of_decide_eq_true rfl⟩ : Fin 26) (⟨0, of_decide_eq_true rfl⟩ : Fin 26) (by decide))) (rowSet_disjoint c arg3 (⟨8, of_decide_eq_true rfl⟩ : Fin 26) (⟨1, of_decide_eq_true rfl⟩ : Fin 26) (by decide))) (rowSet_disjoint c arg3 (⟨8, of_decide_eq_true rfl⟩ : Fin 26) (⟨2, of_decide_eq_true rfl⟩ : Fin 26) (by decide))) (rowSet_disjoint c arg3 (⟨8, of_decide_eq_true rfl⟩ : Fin 26) (⟨3, of_decide_eq_true rfl⟩ : Fin 26) (by decide))) (rowSet_disjoint c arg3 (⟨8, of_decide_eq_true rfl⟩ : Fin 26) (⟨4, of_decide_eq_true rfl⟩ : Fin 26) (by decide))) (rowSet_disjoint c arg3 (⟨8, of_decide_eq_true rfl⟩ : Fin 26) (⟨5, of_decide_eq_true rfl⟩ : Fin 26) (by decide))) (rowSet_disjoint c arg3 (⟨8, of_decide_eq_true rfl⟩ : Fin 26) (⟨6, of_decide_eq_true rfl⟩ : Fin 26) (by decide))) (rowSet_disjoint c arg3 (⟨8, of_decide_eq_true rfl⟩ : Fin 26) (⟨7, of_decide_eq_true rfl⟩ : Fin 26) (by decide)))).2 $$ [P8 PR]
  · isplitl [P8]; · iexact P8
    iexact PR
  ihave PR := (pointsTo_split_subset (sub_sdiff (sub_sdiff (sub_sdiff (sub_sdiff (sub_sdiff (sub_sdiff (sub_sdiff (rowSet_subset c arg3 (⟨7, of_decide_eq_true rfl⟩ : Fin 26)) (rowSet_disjoint c arg3 (⟨7, of_decide_eq_true rfl⟩ : Fin 26) (⟨0, of_decide_eq_true rfl⟩ : Fin 26) (by decide))) (rowSet_disjoint c arg3 (⟨7, of_decide_eq_true rfl⟩ : Fin 26) (⟨1, of_decide_eq_true rfl⟩ : Fin 26) (by decide))) (rowSet_disjoint c arg3 (⟨7, of_decide_eq_true rfl⟩ : Fin 26) (⟨2, of_decide_eq_true rfl⟩ : Fin 26) (by decide))) (rowSet_disjoint c arg3 (⟨7, of_decide_eq_true rfl⟩ : Fin 26) (⟨3, of_decide_eq_true rfl⟩ : Fin 26) (by decide))) (rowSet_disjoint c arg3 (⟨7, of_decide_eq_true rfl⟩ : Fin 26) (⟨4, of_decide_eq_true rfl⟩ : Fin 26) (by decide))) (rowSet_disjoint c arg3 (⟨7, of_decide_eq_true rfl⟩ : Fin 26) (⟨5, of_decide_eq_true rfl⟩ : Fin 26) (by decide))) (rowSet_disjoint c arg3 (⟨7, of_decide_eq_true rfl⟩ : Fin 26) (⟨6, of_decide_eq_true rfl⟩ : Fin 26) (by decide)))).2 $$ [P7 PR]
  · isplitl [P7]; · iexact P7
    iexact PR
  ihave PR := (pointsTo_split_subset (sub_sdiff (sub_sdiff (sub_sdiff (sub_sdiff (sub_sdiff (sub_sdiff (rowSet_subset c arg3 (⟨6, of_decide_eq_true rfl⟩ : Fin 26)) (rowSet_disjoint c arg3 (⟨6, of_decide_eq_true rfl⟩ : Fin 26) (⟨0, of_decide_eq_true rfl⟩ : Fin 26) (by decide))) (rowSet_disjoint c arg3 (⟨6, of_decide_eq_true rfl⟩ : Fin 26) (⟨1, of_decide_eq_true rfl⟩ : Fin 26) (by decide))) (rowSet_disjoint c arg3 (⟨6, of_decide_eq_true rfl⟩ : Fin 26) (⟨2, of_decide_eq_true rfl⟩ : Fin 26) (by decide))) (rowSet_disjoint c arg3 (⟨6, of_decide_eq_true rfl⟩ : Fin 26) (⟨3, of_decide_eq_true rfl⟩ : Fin 26) (by decide))) (rowSet_disjoint c arg3 (⟨6, of_decide_eq_true rfl⟩ : Fin 26) (⟨4, of_decide_eq_true rfl⟩ : Fin 26) (by decide))) (rowSet_disjoint c arg3 (⟨6, of_decide_eq_true rfl⟩ : Fin 26) (⟨5, of_decide_eq_true rfl⟩ : Fin 26) (by decide)))).2 $$ [P6 PR]
  · isplitl [P6]; · iexact P6
    iexact PR
  ihave PR := (pointsTo_split_subset (sub_sdiff (sub_sdiff (sub_sdiff (sub_sdiff (sub_sdiff (rowSet_subset c arg3 (⟨5, of_decide_eq_true rfl⟩ : Fin 26)) (rowSet_disjoint c arg3 (⟨5, of_decide_eq_true rfl⟩ : Fin 26) (⟨0, of_decide_eq_true rfl⟩ : Fin 26) (by decide))) (rowSet_disjoint c arg3 (⟨5, of_decide_eq_true rfl⟩ : Fin 26) (⟨1, of_decide_eq_true rfl⟩ : Fin 26) (by decide))) (rowSet_disjoint c arg3 (⟨5, of_decide_eq_true rfl⟩ : Fin 26) (⟨2, of_decide_eq_true rfl⟩ : Fin 26) (by decide))) (rowSet_disjoint c arg3 (⟨5, of_decide_eq_true rfl⟩ : Fin 26) (⟨3, of_decide_eq_true rfl⟩ : Fin 26) (by decide))) (rowSet_disjoint c arg3 (⟨5, of_decide_eq_true rfl⟩ : Fin 26) (⟨4, of_decide_eq_true rfl⟩ : Fin 26) (by decide)))).2 $$ [P5 PR]
  · isplitl [P5]; · iexact P5
    iexact PR
  ihave PR := (pointsTo_split_subset (sub_sdiff (sub_sdiff (sub_sdiff (sub_sdiff (rowSet_subset c arg3 (⟨4, of_decide_eq_true rfl⟩ : Fin 26)) (rowSet_disjoint c arg3 (⟨4, of_decide_eq_true rfl⟩ : Fin 26) (⟨0, of_decide_eq_true rfl⟩ : Fin 26) (by decide))) (rowSet_disjoint c arg3 (⟨4, of_decide_eq_true rfl⟩ : Fin 26) (⟨1, of_decide_eq_true rfl⟩ : Fin 26) (by decide))) (rowSet_disjoint c arg3 (⟨4, of_decide_eq_true rfl⟩ : Fin 26) (⟨2, of_decide_eq_true rfl⟩ : Fin 26) (by decide))) (rowSet_disjoint c arg3 (⟨4, of_decide_eq_true rfl⟩ : Fin 26) (⟨3, of_decide_eq_true rfl⟩ : Fin 26) (by decide)))).2 $$ [P4 PR]
  · isplitl [P4]; · iexact P4
    iexact PR
  ihave PR := (pointsTo_split_subset (sub_sdiff (sub_sdiff (sub_sdiff (rowSet_subset c arg3 (⟨3, of_decide_eq_true rfl⟩ : Fin 26)) (rowSet_disjoint c arg3 (⟨3, of_decide_eq_true rfl⟩ : Fin 26) (⟨0, of_decide_eq_true rfl⟩ : Fin 26) (by decide))) (rowSet_disjoint c arg3 (⟨3, of_decide_eq_true rfl⟩ : Fin 26) (⟨1, of_decide_eq_true rfl⟩ : Fin 26) (by decide))) (rowSet_disjoint c arg3 (⟨3, of_decide_eq_true rfl⟩ : Fin 26) (⟨2, of_decide_eq_true rfl⟩ : Fin 26) (by decide)))).2 $$ [P3 PR]
  · isplitl [P3]; · iexact P3
    iexact PR
  ihave PR := (pointsTo_split_subset (sub_sdiff (sub_sdiff (rowSet_subset c arg3 (⟨2, of_decide_eq_true rfl⟩ : Fin 26)) (rowSet_disjoint c arg3 (⟨2, of_decide_eq_true rfl⟩ : Fin 26) (⟨0, of_decide_eq_true rfl⟩ : Fin 26) (by decide))) (rowSet_disjoint c arg3 (⟨2, of_decide_eq_true rfl⟩ : Fin 26) (⟨1, of_decide_eq_true rfl⟩ : Fin 26) (by decide)))).2 $$ [P2 PR]
  · isplitl [P2]; · iexact P2
    iexact PR
  ihave PR := (pointsTo_split_subset (sub_sdiff (rowSet_subset c arg3 (⟨1, of_decide_eq_true rfl⟩ : Fin 26)) (rowSet_disjoint c arg3 (⟨1, of_decide_eq_true rfl⟩ : Fin 26) (⟨0, of_decide_eq_true rfl⟩ : Fin 26) (by decide)))).2 $$ [P1 PR]
  · isplitl [P1]; · iexact P1
    iexact PR
  ihave PR := (pointsTo_split_subset (rowSet_subset c arg3 (⟨0, of_decide_eq_true rfl⟩ : Fin 26))).2 $$ [P0 PR]
  · isplitl [P0]; · iexact P0
    iexact PR
  iexact PR

end Join

/-- A whole memref's buffer at the contents that read `X` is owned at `X`. -/
theorem owns_unread (c : Dev nD) {sp : Space} {sh : Shape} {e : EltTy} (m : Memref sig .tc sp sh e) (hm : m.IsWhole)
    (q : PosShare TreeShare) (X : sh.Idx → Elt F e) :
    (m.view.loc (c : Thread nD τ) ↦[m.view.set]{q} hm.unread X : sProp 𝕄) ⊢ owns (c : Thread nD τ) m q X := by
  unfold owns
  iintro H
  iexists _
  isplitr; · ipureintro; exact hm.read_unread X
  iexact H

/-- The gather call's body at grid point `i`, under any table `D` of bodies (it makes no call): from the table and
    the stacked tables at any shares, the output window's buffer whole, the call's cells at zero and the core's record
    of waits, it returns them with the window holding the gathered block. -/
theorem sound_gather3 (D : Defs nD τ sig (Elt F) Λ₀) (c : Dev nD) (i : grid0.Coords)
    (arg1 : Memref sig .tc .smem S4096x26 .i32) (harg1 : arg1.IsWhole)
    (arg2 : Memref sig .tc .hbm S26x131073x64 .f32) (harg2 : arg2.IsWhole)
    (arg3 : Memref sig .tc .vmem S1x26x64 .f32) (harg3 : arg3.IsWhole)
    (tbl : Vec F S4096x26 .i32) (emb : Vec F S26x131073x64 .f32) (q1 q2 : PosShare TreeShare)
    (hrange : ∀ f : Fin 26, (tbl (ValueIdx.ix2 (⟨(i 0).val, (i 0).isLt⟩ : Fin 4096) f)).toNat < 131073)
    (W : Waits sig Unit) (K : PUnit → sProp 𝕄) :
    iprop(owns (c : Thread nD τ) arg1 q1 tbl ∗ owns (c : Thread nD τ) arg2 q2 emb ∗ (∃ d, owns (c : Thread nD τ) arg3 fullShare d)
        ∗ sems0 c ∗ owes (c : Thread nD τ) 0 W
        ∗ (iprop(owns (c : Thread nD τ) arg1 q1 tbl ∗ owns (c : Thread nD τ) arg2 q2 emb
              ∗ owns (c : Thread nD τ) arg3 fullShare (gatherBlk tbl emb i) ∗ sems0 c ∗ (∃ W', owes (c : Thread nD τ) 0 W')) -∗ K ⟨⟩))
      ⊢ wp frame (wpE D Variants.none c none) Set.univ
          (cc0__gather_kernel i arg1 harg1 arg2 harg2 arg3 harg3 cc3_scratch0) K := by
  have hopen : (iprop(∃ d, owns (c : Thread nD τ) arg3 fullShare d) : sProp 𝕄)
      ⊢ iprop(∃ f3, arg3.view.loc (c : Thread nD τ) ↦[arg3.view.set]{fullShare} f3) := by
    unfold owns
    iintro ⟨%d, %f, -, H⟩
    iexists f; iexact H
  iintro ⟨H1, H2, H3, Hs, HW, Hk⟩
  ihave H3' := hopen $$ H3
  icases H3' with ⟨%f3, H3⟩
  iapply (gatherRun D c i arg1 harg1 arg2 harg2 arg3 harg3 tbl emb q1 q2 hrange f3 W K)
  isplitl [H1]; · iexact H1
  isplitl [H2]; · iexact H2
  isplitl [H3]; · iexact H3
  isplitl [Hs]; · iexact Hs
  isplitl [HW]; · iexact HW
  iintro ⟨H1, H2, ⟨%d0, %h0, P0⟩, ⟨%d1, %h1, P1⟩, ⟨%d2, %h2, P2⟩, ⟨%d3, %h3, P3⟩, ⟨%d4, %h4, P4⟩, ⟨%d5, %h5, P5⟩, ⟨%d6, %h6, P6⟩, ⟨%d7, %h7, P7⟩, ⟨%d8, %h8, P8⟩, ⟨%d9, %h9, P9⟩, ⟨%dR, %hR, PR⟩, Hs, HW⟩
  iapply Hk
  isplitl [H1]; · iexact H1
  isplitl [H2]; · iexact H2
  isplitl [P0 P1 P2 P3 P4 P5 P6 P7 P8 P9 PR]
  · iapply (owns_unread c arg3 harg3 fullShare (gatherBlk tbl emb i))
    iapply (pieces_join c arg3 harg3 (gatherBlk tbl emb i) d0 d1 d2 d3 d4 d5 d6 d7 d8 d9 dR h0 h1 h2 h3 h4 h5 h6 h7 h8 h9 hR)
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    iexact PR
  isplitl [Hs]; · iexact Hs
  iexact HW

/-- The region invariant's statement of the call's own cells at zero is the chain the body's run holds them in. -/
theorem sems0_eq (c : Dev nD) :
    (Pipeline.ownSems0 (Ix := Unit) (Name := ℕ) (U := Pipeline.UD sig nD τ) (Lvl := ℕ) (Val := Elt F) (τ := τ) osem c : sProp 𝕄)
      = sems0 c := by
  rw [Pipeline.ownSems0_eq_of_list c osem [0, 1, 2, 3, 4, 5, 6, 7, 8, 9, 10, 11, 12, 13, 14, 15, 16, 17, 18, 19, 20, 21, 22, 23, 24, 25] (by decide) (by decide)]; rfl

end Cert.KernelIdeal.Gather3

end
-- ==== Proof.Fr.Trip3.lean ====
/- The hypothesis `Triple3` of the region's modules, discharged by the gather body's triple (the gather calls run one function). -/
import proofs.«407213_j20864951124667_1_alg».proof.Proof.Fr.Obl3
import proofs.«407213_j20864951124667_1_alg».proof.Proof.Fr.TripG
import proofs.«407213_j20864951124667_1_alg».proof.Proof.G3Body

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
set_option maxRecDepth 16384

/-! # The gather body's triple, in the form region 3 consumes it -/

/-- The gather calls run one function: this call's body is the first call's. -/
theorem cc3_eq_cc0 (i : grid0.Coords) (arg1 : Memref sig .tc .smem S4096x26 .i32) (harg1 : arg1.IsWhole) (arg2 : Memref sig .tc .hbm S26x131073x64 .f32) (harg2 : arg2.IsWhole) (arg3 : Memref sig .tc .vmem S1x26x64 .f32) (harg3 : arg3.IsWhole) (arg4 : DmaSems sig S26) :
    cc3__gather_kernel (F := F) i arg1 harg1 arg2 harg2 arg3 harg3 arg4 = cc0__gather_kernel (F := F) i arg1 harg1 arg2 harg2 arg3 harg3 arg4 := rfl

/-- The generic triple at this call's table and cells, at any body table: from the body's triple, the table of row numbers and
    the stacked tables as whole memrefs at the full share, the 26 cells listed. -/
theorem tripleG3 (D : Defs nD τ sig (Elt F) Λ₀) :
    TripleG (F := F) (Memref.whole main_v16) (Memref.isWhole_whole _) cc3_scratch0 Gather3.osem D := fun c i arg3 harg3 tbl emb hr W K => by
  rw [Gather3.sems0_eq]
  exact Gather3.sound_gather3 D c i (Memref.whole main_v16) (Memref.isWhole_whole _) (Memref.whole main_arg2) (Memref.isWhole_whole _)
    arg3 harg3 tbl emb fullShare fullShare hr W K

/-- `Triple3`: this call runs the first call's body, and the generic triple at this program's body table. -/
theorem triple3 : Triple3 (F := F) := fun c i arg3 harg3 tbl emb hr W K => by
  rw [cc3_eq_cc0]
  exact tripleG3 defs₀ c i arg3 harg3 tbl emb hr W K

end Cert.KernelIdeal.Fr

end
-- ==== Proof.B.KerHost.lean ====
import proofs.«407213_j20864951124667_1_alg».proof.Proof.Gen.Kernel.Regions
import Idealize.ShloMosaic.Lib.StableHlo.Run

/-! The host side of the program read back: what the operations outside the five kernel regions leave in the
    buffers the regions read and in the final result, as pure functions of the launch contents and of what the
    regions leave. Nothing here depends on the float instance. -/

noncomputable section

namespace Cert.Kernel.KerHost

open Idealize.ShloMosaic Idealize.ShloMosaic.TcCoe
open Facts₀ Facts

variable {F : FTy → Type} [FloatOps F]

/-! ## The host operations as pure functions -/

/-- x ↦ x · w + b (b broadcast along the rows), 13 → 128 columns. -/
def lin1K (a0 : FVec F S16384x13 .f32) (a3 : FVec F S13x128 .f32) (a4 : FVec F S128 .f32) : FVec F S16384x128 .f32 :=
  addf (Host.dotGeneral dot_S16384x13_S13x128_S16384x128_1_0_0_1_n_n none a0 a3)
    (broadcastInDim S16384x128 ![0, 1] bcast_S1x128_S16384x128_0_1 (broadcastInDim S1x128 ![1] bcast_S128_S1x128_1 a4))
/-- The maximum with zero, 128 columns. -/
def relu128K (x : FVec F S16384x128 .f32) : FVec F S16384x128 .f32 :=
  maximumf x (broadcastInDim S16384x128 ![] bcast_S_S16384x128 (constant (F := F) S_ .f32 0x00000000#32))
/-- x ↦ x · w + b, 128 → 64 columns. -/
def lin2K (x : FVec F S16384x128 .f32) (a5 : FVec F S128x64 .f32) (a6 : FVec F S64 .f32) : FVec F S16384x64 .f32 :=
  addf (Host.dotGeneral dot_S16384x128_S128x64_S16384x64_1_0_0_1_n_n none x a5)
    (broadcastInDim S16384x64 ![0, 1] bcast_S1x64_S16384x64_0_1 (broadcastInDim S1x64 ![1] bcast_S64_S1x64_1 a6))
/-- The maximum with zero, 64 columns. -/
def relu64K (x : FVec F S16384x64 .f32) : FVec F S16384x64 .f32 :=
  maximumf x (broadcastInDim S16384x64 ![] bcast_S_S16384x64 (constant (F := F) S_ .f32 0x00000000#32))

/-- The dense head: two affine layers, each followed by the maximum with zero. -/
def headK (a0 : FVec F S16384x13 .f32) (a3 : FVec F S13x128 .f32) (a4 : FVec F S128 .f32)
    (a5 : FVec F S128x64 .f32) (a6 : FVec F S64 .f32) : FVec F S16384x64 .f32 :=
  relu64K (lin2K (relu128K (lin1K a0 a3 a4)) a5 a6)

/-- Rows 0 .. 4095 of the index table. -/
def sliceK0 (a1 : IVec S16384x26 32) : IVec S4096x26 32 := extractStridedSlice S4096x26 ![0, 0] a1 slices_S16384x26_S4096x26_0_0
/-- Rows 4096 .. 8191 of the index table. -/
def sliceK1 (a1 : IVec S16384x26 32) : IVec S4096x26 32 := extractStridedSlice S4096x26 ![4096, 0] a1 slices_S16384x26_S4096x26_4096_0
/-- Rows 8192 .. 12287 of the index table. -/
def sliceK2 (a1 : IVec S16384x26 32) : IVec S4096x26 32 := extractStridedSlice S4096x26 ![8192, 0] a1 slices_S16384x26_S4096x26_8192_0
/-- Rows 12288 .. 16383 of the index table. -/
def sliceK3 (a1 : IVec S16384x26 32) : IVec S4096x26 32 := extractStridedSlice S4096x26 ![12288, 0] a1 slices_S16384x26_S4096x26_12288_0

/-- The four row blocks stacked along axis 0. -/
def concat4K (u0 u1 u2 u3 : FVec F S4096x26x64 .f32) : FVec F S16384x26x64 .f32 :=
  concatenate S16384x26x64 0 [⟨S4096x26x64, u0⟩, ⟨S4096x26x64, u1⟩, ⟨S4096x26x64, u2⟩, ⟨S4096x26x64, u3⟩]
    concatenates_S4096x26x64_S4096x26x64_S4096x26x64_S4096x26x64_S16384x26x64_d0

/-- x ↦ x · w + b, 415 → 512 columns. -/
def lin3K (x : FVec F S16384x415 .f32) (a7 : FVec F S415x512 .f32) (a8 : FVec F S512 .f32) : FVec F S16384x512 .f32 :=
  addf (Host.dotGeneral dot_S16384x415_S415x512_S16384x512_1_0_0_1_n_n none x a7)
    (broadcastInDim S16384x512 ![0, 1] bcast_S1x512_S16384x512_0_1 (broadcastInDim S1x512 ![1] bcast_S512_S1x512_1 a8))
/-- The maximum with zero, 512 columns. -/
def relu512K (x : FVec F S16384x512 .f32) : FVec F S16384x512 .f32 :=
  maximumf x (broadcastInDim S16384x512 ![] bcast_S_S16384x512 (constant (F := F) S_ .f32 0x00000000#32))
/-- x ↦ x · w + b, 512 → 256 columns. -/
def lin4K (x : FVec F S16384x512 .f32) (a9 : FVec F S512x256 .f32) (a10 : FVec F S256 .f32) : FVec F S16384x256 .f32 :=
  addf (Host.dotGeneral dot_S16384x512_S512x256_S16384x256_1_0_0_1_n_n none x a9)
    (broadcastInDim S16384x256 ![0, 1] bcast_S1x256_S16384x256_0_1 (broadcastInDim S1x256 ![1] bcast_S256_S1x256_1 a10))
/-- The maximum with zero, 256 columns. -/
def relu256K (x : FVec F S16384x256 .f32) : FVec F S16384x256 .f32 :=
  maximumf x (broadcastInDim S16384x256 ![] bcast_S_S16384x256 (constant (F := F) S_ .f32 0x00000000#32))
/-- x ↦ x · w + b, 256 → 1 column, the column read as a vector. -/
def lin5K (x : FVec F S16384x256 .f32) (a11 : FVec F S256x1 .f32) (a12 : FVec F S1 .f32) : FVec F S16384 .f32 :=
  shapeCast S16384
    (addf (Host.dotGeneral dot_S16384x256_S256x1_S16384x1_1_0_0_1_n_n none x a11)
      (broadcastInDim S16384x1 ![0, 1] bcast_S1x1_S16384x1_0_1 (broadcastInDim S1x1 ![1] bcast_S1_S1x1_1 a12)))
    shapeCasts_S16384x1_S16384

/-- The tail: two affine layers with the maximum with zero, a last affine layer, the column read as a vector. -/
def tailK (x : FVec F S16384x415 .f32) (a7 : FVec F S415x512 .f32) (a8 : FVec F S512 .f32)
    (a9 : FVec F S512x256 .f32) (a10 : FVec F S256 .f32) (a11 : FVec F S256x1 .f32) (a12 : FVec F S1 .f32) : FVec F S16384 .f32 :=
  lin5K (relu256K (lin4K (relu512K (lin3K x a7 a8)) a9 a10)) a11 a12

/-! ## Each host stretch read at the reference it produces, over any contents -/

section Stretch
variable (W : Valuation τ sig (Elt F))

theorem ops0_v3 : StableHlo.after Gen.hostOps0 W (Proc.devRef .tc main_v3)
    = lin1K (W (Proc.devRef .tc main_arg0)) (W (Proc.devRef .tc main_arg3)) (W (Proc.devRef .tc main_arg4)) := by
  after_results; rfl
theorem ops0_1_v4 : StableHlo.after Gen.hostOps0_1 W (Proc.devRef .tc main_v4) = relu128K (W (Proc.devRef .tc main_v3)) := by
  after_results; rfl
theorem ops0_2_v8 : StableHlo.after Gen.hostOps0_2 W (Proc.devRef .tc main_v8)
    = lin2K (W (Proc.devRef .tc main_v4)) (W (Proc.devRef .tc main_arg5)) (W (Proc.devRef .tc main_arg6)) := by
  after_results; rfl
theorem ops0_3_v9 : StableHlo.after Gen.hostOps0_3 W (Proc.devRef .tc main_v9) = relu64K (W (Proc.devRef .tc main_v8)) := by
  after_results; rfl
theorem ops0_4_v10 : StableHlo.after Gen.hostOps0_4 W (Proc.devRef .tc main_v10) = sliceK0 (W (Proc.devRef .tc main_arg1)) := by
  after_results; rfl
theorem ops1_v12 : StableHlo.after Gen.hostOps1 W (Proc.devRef .tc main_v12) = sliceK1 (W (Proc.devRef .tc main_arg1)) := by
  after_results; rfl
theorem ops2_v14 : StableHlo.after Gen.hostOps2 W (Proc.devRef .tc main_v14) = sliceK2 (W (Proc.devRef .tc main_arg1)) := by
  after_results; rfl
theorem ops3_v16 : StableHlo.after Gen.hostOps3 W (Proc.devRef .tc main_v16) = sliceK3 (W (Proc.devRef .tc main_arg1)) := by
  after_results; rfl
theorem ops4_v18 : StableHlo.after Gen.hostOps4 W (Proc.devRef .tc main_v18)
    = concat4K (W (Proc.devRef .tc main_v11)) (W (Proc.devRef .tc main_v13)) (W (Proc.devRef .tc main_v15)) (W (Proc.devRef .tc main_v17)) := by
  after_results; rfl
theorem ops5_v23 : StableHlo.after Gen.hostOps5 W (Proc.devRef .tc main_v23)
    = lin3K (W (Proc.devRef .tc main_v19)) (W (Proc.devRef .tc main_arg7)) (W (Proc.devRef .tc main_arg8)) := by
  after_results; rfl
theorem ops5_1_v24 : StableHlo.after Gen.hostOps5_1 W (Proc.devRef .tc main_v24) = relu512K (W (Proc.devRef .tc main_v23)) := by
  after_results; rfl
theorem ops5_2_v28 : StableHlo.after Gen.hostOps5_2 W (Proc.devRef .tc main_v28)
    = lin4K (W (Proc.devRef .tc main_v24)) (W (Proc.devRef .tc main_arg9)) (W (Proc.devRef .tc main_arg10)) := by
  after_results; rfl
theorem ops5_3_v29 : StableHlo.after Gen.hostOps5_3 W (Proc.devRef .tc main_v29) = relu256K (W (Proc.devRef .tc main_v28)) := by
  after_results; rfl
theorem ops5_4_v34 : StableHlo.after Gen.hostOps5_4 W (Proc.devRef .tc main_v34)
    = lin5K (W (Proc.devRef .tc main_v29)) (W (Proc.devRef .tc main_arg11)) (W (Proc.devRef .tc main_arg12)) := by
  after_results; rfl

end Stretch

/-! ## The valuations at the references the regions and the result read -/

variable (m : (ℓ : Loc nD τ sig) → Buf (Elt F) ℓ) (outs : Gen.Outs (F := F))

/-! ### An argument keeps its launch contents -/

theorem V2_arg5 (c : Dev nD) : Gen.V2 m c main_arg5 = m ((c : Thread nD τ).loc main_arg5) :=
  (Gen.V2_of m c main_arg5 (by decide)).trans <| (Gen.V1_of m c main_arg5 (by decide)).trans rfl
theorem V2_arg6 (c : Dev nD) : Gen.V2 m c main_arg6 = m ((c : Thread nD τ).loc main_arg6) :=
  (Gen.V2_of m c main_arg6 (by decide)).trans <| (Gen.V1_of m c main_arg6 (by decide)).trans rfl

theorem V4_arg1 (c : Dev nD) : Gen.V4 m c main_arg1 = m ((c : Thread nD τ).loc main_arg1) :=
  (Gen.V4_of m c main_arg1 (by decide)).trans <| (Gen.V3_of m c main_arg1 (by decide)).trans <|
    (Gen.V2_of m c main_arg1 (by decide)).trans <| (Gen.V1_of m c main_arg1 (by decide)).trans rfl
theorem V5_arg1 (c : Dev nD) : Gen.V5 m c main_arg1 = m ((c : Thread nD τ).loc main_arg1) :=
  (Gen.V5_of m c main_arg1 (by decide)).trans (V4_arg1 m c)
theorem V6_arg1 (c : Dev nD) : Gen.V6 m outs c main_arg1 = m ((c : Thread nD τ).loc main_arg1) :=
  (Gen.V6_of m outs c main_arg1 (by decide)).trans (V5_arg1 m c)
theorem V8_arg1 (c : Dev nD) : Gen.V8 m outs c main_arg1 = m ((c : Thread nD τ).loc main_arg1) :=
  (Gen.V8_of m outs c main_arg1 (by decide)).trans <| (Gen.V7_of m outs c main_arg1 (by decide)).trans (V6_arg1 m outs c)
theorem V10_arg1 (c : Dev nD) : Gen.V10 m outs c main_arg1 = m ((c : Thread nD τ).loc main_arg1) :=
  (Gen.V10_of m outs c main_arg1 (by decide)).trans <| (Gen.V9_of m outs c main_arg1 (by decide)).trans (V8_arg1 m outs c)

theorem V4_arg2 (c : Dev nD) : Gen.V4 m c main_arg2 = m ((c : Thread nD τ).loc main_arg2) :=
  (Gen.V4_of m c main_arg2 (by decide)).trans <| (Gen.V3_of m c main_arg2 (by decide)).trans <|
    (Gen.V2_of m c main_arg2 (by decide)).trans <| (Gen.V1_of m c main_arg2 (by decide)).trans rfl
/-- The embedding tables, as region 0 finds them. -/
theorem V5_arg2 (c : Dev nD) : Gen.V5 m c main_arg2 = m ((c : Thread nD τ).loc main_arg2) :=
  (Gen.V5_of m c main_arg2 (by decide)).trans (V4_arg2 m c)
/-- The embedding tables, as region 1 finds them. -/
theorem V7_arg2 (c : Dev nD) : Gen.V7 m outs c main_arg2 = m ((c : Thread nD τ).loc main_arg2) :=
  (Gen.V7_of m outs c main_arg2 (by decide)).trans <| (Gen.V6_of m outs c main_arg2 (by decide)).trans (V5_arg2 m c)
/-- The embedding tables, as region 2 finds them. -/
theorem V9_arg2 (c : Dev nD) : Gen.V9 m outs c main_arg2 = m ((c : Thread nD τ).loc main_arg2) :=
  (Gen.V9_of m outs c main_arg2 (by decide)).trans <| (Gen.V8_of m outs c main_arg2 (by decide)).trans (V7_arg2 m outs c)
/-- The embedding tables, as region 3 finds them. -/
theorem V11_arg2 (c : Dev nD) : Gen.V11 m outs c main_arg2 = m ((c : Thread nD τ).loc main_arg2) :=
  (Gen.V11_of m outs c main_arg2 (by decide)).trans <| (Gen.V10_of m outs c main_arg2 (by decide)).trans (V9_arg2 m outs c)

theorem V18_arg11 (c : Dev nD) : Gen.V18 m outs c main_arg11 = m ((c : Thread nD τ).loc main_arg11) :=
  (Gen.V19_of m outs c main_arg11 (by decide)).symm.trans (Gen.V19_main_arg11 m outs c)
theorem V18_arg12 (c : Dev nD) : Gen.V18 m outs c main_arg12 = m ((c : Thread nD τ).loc main_arg12) :=
  (Gen.V19_of m outs c main_arg12 (by decide)).symm.trans (Gen.V19_main_arg12 m outs c)
theorem V16_arg9 (c : Dev nD) : Gen.V16 m outs c main_arg9 = m ((c : Thread nD τ).loc main_arg9) :=
  (Gen.V17_of m outs c main_arg9 (by decide)).symm.trans <| (Gen.V18_of m outs c main_arg9 (by decide)).symm.trans <|
    (Gen.V19_of m outs c main_arg9 (by decide)).symm.trans (Gen.V19_main_arg9 m outs c)
theorem V16_arg10 (c : Dev nD) : Gen.V16 m outs c main_arg10 = m ((c : Thread nD τ).loc main_arg10) :=
  (Gen.V17_of m outs c main_arg10 (by decide)).symm.trans <| (Gen.V18_of m outs c main_arg10 (by decide)).symm.trans <|
    (Gen.V19_of m outs c main_arg10 (by decide)).symm.trans (Gen.V19_main_arg10 m outs c)
theorem V14_arg7 (c : Dev nD) : Gen.V14 m outs c main_arg7 = m ((c : Thread nD τ).loc main_arg7) :=
  (Gen.V15_of m outs c main_arg7 (by decide)).symm.trans <| (Gen.V16_of m outs c main_arg7 (by decide)).symm.trans <|
    (Gen.V17_of m outs c main_arg7 (by decide)).symm.trans <| (Gen.V18_of m outs c main_arg7 (by decide)).symm.trans <|
    (Gen.V19_of m outs c main_arg7 (by decide)).symm.trans (Gen.V19_main_arg7 m outs c)
theorem V14_arg8 (c : Dev nD) : Gen.V14 m outs c main_arg8 = m ((c : Thread nD τ).loc main_arg8) :=
  (Gen.V15_of m outs c main_arg8 (by decide)).symm.trans <| (Gen.V16_of m outs c main_arg8 (by decide)).symm.trans <|
    (Gen.V17_of m outs c main_arg8 (by decide)).symm.trans <| (Gen.V18_of m outs c main_arg8 (by decide)).symm.trans <|
    (Gen.V19_of m outs c main_arg8 (by decide)).symm.trans (Gen.V19_main_arg8 m outs c)

/-! ### The dense head -/

theorem V1_v3 (c : Dev nD) : Gen.V1 m c main_v3
    = lin1K (m ((c : Thread nD τ).loc main_arg0)) (m ((c : Thread nD τ).loc main_arg3)) (m ((c : Thread nD τ).loc main_arg4)) :=
  ops0_v3 (Gen.V0 m c)
theorem V2_v4 (c : Dev nD) : Gen.V2 m c main_v4
    = relu128K (lin1K (m ((c : Thread nD τ).loc main_arg0)) (m ((c : Thread nD τ).loc main_arg3)) (m ((c : Thread nD τ).loc main_arg4))) :=
  (ops0_1_v4 (Gen.V1 m c)).trans (congrArg relu128K (V1_v3 m c))
theorem V3_v8 (c : Dev nD) : Gen.V3 m c main_v8
    = lin2K (relu128K (lin1K (m ((c : Thread nD τ).loc main_arg0)) (m ((c : Thread nD τ).loc main_arg3)) (m ((c : Thread nD τ).loc main_arg4))))
        (m ((c : Thread nD τ).loc main_arg5)) (m ((c : Thread nD τ).loc main_arg6)) :=
  (ops0_2_v8 (Gen.V2 m c)).trans (by rw [V2_v4 m c, V2_arg5 m c, V2_arg6 m c])
theorem V4_v9 (c : Dev nD) : Gen.V4 m c main_v9
    = headK (m ((c : Thread nD τ).loc main_arg0)) (m ((c : Thread nD τ).loc main_arg3)) (m ((c : Thread nD τ).loc main_arg4))
        (m ((c : Thread nD τ).loc main_arg5)) (m ((c : Thread nD τ).loc main_arg6)) :=
  (ops0_3_v9 (Gen.V3 m c)).trans (congrArg relu64K (V3_v8 m c))
/-- The dense head's result, as it stands when region 0 is entered. -/
theorem V5_v9 (c : Dev nD) : Gen.V5 m c main_v9
    = headK (m ((c : Thread nD τ).loc main_arg0)) (m ((c : Thread nD τ).loc main_arg3)) (m ((c : Thread nD τ).loc main_arg4))
        (m ((c : Thread nD τ).loc main_arg5)) (m ((c : Thread nD τ).loc main_arg6)) :=
  (Gen.V5_of m c main_v9 (by decide)).trans (V4_v9 m c)

/-! ### The four index tables -/

/-- Region 0's table: rows 0 .. 4095. -/
theorem V5_v10 (c : Dev nD) : Gen.V5 m c main_v10 = sliceK0 (m ((c : Thread nD τ).loc main_arg1)) :=
  (ops0_4_v10 (Gen.V4 m c)).trans (congrArg sliceK0 (V4_arg1 m c))
/-- Region 1's table: rows 4096 .. 8191. -/
theorem V7_v12 (c : Dev nD) : Gen.V7 m outs c main_v12 = sliceK1 (m ((c : Thread nD τ).loc main_arg1)) :=
  (ops1_v12 (Gen.V6 m outs c)).trans (congrArg sliceK1 (V6_arg1 m outs c))
/-- Region 2's table: rows 8192 .. 12287. -/
theorem V9_v14 (c : Dev nD) : Gen.V9 m outs c main_v14 = sliceK2 (m ((c : Thread nD τ).loc main_arg1)) :=
  (ops2_v14 (Gen.V8 m outs c)).trans (congrArg sliceK2 (V8_arg1 m outs c))
/-- Region 3's table: rows 12288 .. 16383. -/
theorem V11_v16 (c : Dev nD) : Gen.V11 m outs c main_v16 = sliceK3 (m ((c : Thread nD τ).loc main_arg1)) :=
  (ops3_v16 (Gen.V10 m outs c)).trans (congrArg sliceK3 (V10_arg1 m outs c))

/-! ### What region 4 reads -/

/-- Nothing between the head and region 4 writes the head's result. -/
theorem V13_v9 (c : Dev nD) : Gen.V13 m outs c main_v9 = Gen.V5 m c main_v9 :=
  (Gen.V13_of m outs c main_v9 (by decide)).trans <| (Gen.V12_of m outs c main_v9 (by decide)).trans <|
    (Gen.V11_of m outs c main_v9 (by decide)).trans <| (Gen.V10_of m outs c main_v9 (by decide)).trans <|
    (Gen.V9_of m outs c main_v9 (by decide)).trans <| (Gen.V8_of m outs c main_v9 (by decide)).trans <|
    (Gen.V7_of m outs c main_v9 (by decide)).trans (Gen.V6_of m outs c main_v9 (by decide))

theorem V12_v17 (c : Dev nD) : Gen.V12 m outs c main_v17 = outs 12 main_v17 c := Function.update_self _ _ _
theorem V12_v15 (c : Dev nD) : Gen.V12 m outs c main_v15 = outs 10 main_v15 c :=
  (Gen.V12_of m outs c main_v15 (by decide)).trans <| (Gen.V11_of m outs c main_v15 (by decide)).trans (Function.update_self _ _ _)
theorem V12_v13 (c : Dev nD) : Gen.V12 m outs c main_v13 = outs 8 main_v13 c :=
  (Gen.V12_of m outs c main_v13 (by decide)).trans <| (Gen.V11_of m outs c main_v13 (by decide)).trans <|
    (Gen.V10_of m outs c main_v13 (by decide)).trans <| (Gen.V9_of m outs c main_v13 (by decide)).trans (Function.update_self _ _ _)
theorem V12_v11 (c : Dev nD) : Gen.V12 m outs c main_v11 = outs 6 main_v11 c :=
  (Gen.V12_of m outs c main_v11 (by decide)).trans <| (Gen.V11_of m outs c main_v11 (by decide)).trans <|
    (Gen.V10_of m outs c main_v11 (by decide)).trans <| (Gen.V9_of m outs c main_v11 (by decide)).trans <|
    (Gen.V8_of m outs c main_v11 (by decide)).trans <| (Gen.V7_of m outs c main_v11 (by decide)).trans (Function.update_self _ _ _)
/-- The gathered rows region 4 reads: what the four gather regions leave, stacked. -/
theorem V13_v18 (c : Dev nD) : Gen.V13 m outs c main_v18
    = concat4K (outs 6 main_v11 c) (outs 8 main_v13 c) (outs 10 main_v15 c) (outs 12 main_v17 c) :=
  (ops4_v18 (Gen.V12 m outs c)).trans (by rw [V12_v11 m outs c, V12_v13 m outs c, V12_v15 m outs c, V12_v17 m outs c])

/-! ### The result -/

theorem V14_v19 (c : Dev nD) : Gen.V14 m outs c main_v19 = outs 14 main_v19 c := Function.update_self _ _ _
theorem V15_v23 (c : Dev nD) : Gen.V15 m outs c main_v23
    = lin3K (outs 14 main_v19 c) (m ((c : Thread nD τ).loc main_arg7)) (m ((c : Thread nD τ).loc main_arg8)) :=
  (ops5_v23 (Gen.V14 m outs c)).trans (by rw [V14_v19 m outs c, V14_arg7 m outs c, V14_arg8 m outs c])
theorem V16_v24 (c : Dev nD) : Gen.V16 m outs c main_v24
    = relu512K (lin3K (outs 14 main_v19 c) (m ((c : Thread nD τ).loc main_arg7)) (m ((c : Thread nD τ).loc main_arg8))) :=
  (ops5_1_v24 (Gen.V15 m outs c)).trans (congrArg relu512K (V15_v23 m outs c))
theorem V17_v28 (c : Dev nD) : Gen.V17 m outs c main_v28
    = lin4K (relu512K (lin3K (outs 14 main_v19 c) (m ((c : Thread nD τ).loc main_arg7)) (m ((c : Thread nD τ).loc main_arg8))))
        (m ((c : Thread nD τ).loc main_arg9)) (m ((c : Thread nD τ).loc main_arg10)) :=
  (ops5_2_v28 (Gen.V16 m outs c)).trans (by rw [V16_v24 m outs c, V16_arg9 m outs c, V16_arg10 m outs c])
theorem V18_v29 (c : Dev nD) : Gen.V18 m outs c main_v29
    = relu256K (lin4K (relu512K (lin3K (outs 14 main_v19 c) (m ((c : Thread nD τ).loc main_arg7)) (m ((c : Thread nD τ).loc main_arg8))))
        (m ((c : Thread nD τ).loc main_arg9)) (m ((c : Thread nD τ).loc main_arg10))) :=
  (ops5_3_v29 (Gen.V17 m outs c)).trans (congrArg relu256K (V17_v28 m outs c))
/-- The program's result: the tail applied to what region 4 leaves. -/
theorem V19_v34 (c : Dev nD) : Gen.V19 m outs c main_v34
    = tailK (outs 14 main_v19 c) (m ((c : Thread nD τ).loc main_arg7)) (m ((c : Thread nD τ).loc main_arg8))
        (m ((c : Thread nD τ).loc main_arg9)) (m ((c : Thread nD τ).loc main_arg10))
        (m ((c : Thread nD τ).loc main_arg11)) (m ((c : Thread nD τ).loc main_arg12)) :=
  (ops5_4_v34 (Gen.V18 m outs c)).trans (by rw [V18_v29 m outs c, V18_arg11 m outs c, V18_arg12 m outs c]; rfl)

end Cert.Kernel.KerHost
-- ==== Proof.B.Rng.lean ====
/-
  The index tables the four gather regions read are slices of the index array: under the precondition every
  word of each is below 131073 read unsigned, and every word of the array is in [0, 131073) read signed.
-/
import proofs.«407213_j20864951124667_1_alg».proof.Defs
import proofs.«407213_j20864951124667_1_alg».proof.Proof.Gen.Pre_finite_inputs
import proofs.«407213_j20864951124667_1_alg».proof.Proof.PreRange
import proofs.«407213_j20864951124667_1_alg».proof.Proof.B.KerHost

noncomputable section

namespace Cert.Kernel.Rng

open Cert.Kernel Cert.Kernel.Gen
open Idealize.ShloMosaic Idealize.ShloMosaic.TcCoe Idealize.SL.Sem

variable (m : (ℓ : Loc nD τ sig) → Buf (Elt (F := Bits)) ℓ)

/-- Under the precondition every word of the index table is in [0, 131073), signed. -/
theorem ids_signed (hpre : Cert.Pre_Kernel m) (c : Dev nD) :
    ∀ i : S16384x26.Idx, 0 ≤ (m ((c : Thread nD τ).loc main_arg1) i).toInt ∧ (m ((c : Thread nD τ).loc main_arg1) i).toInt < 131073 :=
  Cert.PreRange.range_of_pre_toInt _ _ _ _ _ _ _ _ _ _ _ _ _ (hpre c)

/-- Under the precondition every word of the index table is below 131073, unsigned. -/
theorem arg1_lt (hpre : Cert.Pre_Kernel m) (c : Dev nD) :
    ∀ i : S16384x26.Idx, (m ((c : Thread nD τ).loc main_arg1) i).toNat < 131073 :=
  Cert.PreRange.range_of_pre _ _ _ _ _ _ _ _ _ _ _ _ _ (hpre c)

/-- A slice's word is a word of the table: a bound on every word of the table bounds every word of a slice. -/
theorem slice_lt (a1 : S16384x26.Idx → BitVec 32) (hr : ∀ i : S16384x26.Idx, (a1 i).toNat < 131073)
    (off : Fin S16384x26.rank → Nat) (h : S16384x26.Slices off S4096x26) (i : S4096x26.Idx) :
    (extractStridedSlice S4096x26 off a1 h i).toNat < 131073 := hr _

variable (outs : Gen.Outs (F := Bits))

/-- The table region 0 reads: every word below 131073. -/
theorem rng0 (hpre : Cert.Pre_Kernel m) (c : Dev nD) :
    ∀ i : S4096x26.Idx, (Gen.V5 (F := Bits) m c main_v10 i).toNat < 131073 := by
  intro i
  rw [KerHost.V5_v10]
  exact slice_lt _ (arg1_lt m hpre c) _ _ i

/-- The table region 1 reads: every word below 131073. -/
theorem rng1 (hpre : Cert.Pre_Kernel m) (c : Dev nD) :
    ∀ i : S4096x26.Idx, (Gen.V7 (F := Bits) m outs c main_v12 i).toNat < 131073 := by
  intro i
  rw [KerHost.V7_v12]
  exact slice_lt _ (arg1_lt m hpre c) _ _ i

/-- The table region 2 reads: every word below 131073. -/
theorem rng2 (hpre : Cert.Pre_Kernel m) (c : Dev nD) :
    ∀ i : S4096x26.Idx, (Gen.V9 (F := Bits) m outs c main_v14 i).toNat < 131073 := by
  intro i
  rw [KerHost.V9_v14]
  exact slice_lt _ (arg1_lt m hpre c) _ _ i

/-- The table region 3 reads: every word below 131073. -/
theorem rng3 (hpre : Cert.Pre_Kernel m) (c : Dev nD) :
    ∀ i : S4096x26.Idx, (Gen.V11 (F := Bits) m outs c main_v16 i).toNat < 131073 := by
  intro i
  rw [KerHost.V11_v16]
  exact slice_lt _ (arg1_lt m hpre c) _ _ i

end Cert.Kernel.Rng

end
-- ==== Proof.B.Fr.Base.lean ====
/- What the regions' modules share: valuations read at the TensorCore's references, the level assignment, the rest state. -/
import proofs.«407213_j20864951124667_1_alg».proof.Proof.Gen.Kernel.Regions
import Idealize.ShloMosaic.Lib.Pipeline.Frame

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # What every region's module shares: the valuations read at the TensorCore's references, the (empty) level
    assignment, and what rides beside the buffers from segment to segment. -/

/-- A valuation read at the TensorCore's references. -/
abbrev atRefs (E : Dev nD → Valuation τ sig (Elt F)) : (c : Dev nD) → (b : Ref sig .tc) → Buf (Elt F) ((c : Thread nD τ).loc b) :=
  fun c b => E c b

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev Rst (c : Dev nD) : sProp 𝕄 := iprop((∃ r, prngReg c r) ∗ ∃ W, owes (c : Thread nD τ) (0 : CellTallies nD τ sig Unit) W)

end Cert.Kernel.Fr

end
-- ==== Proof.B.Fr.LaunchCommon.lean ====
/- The launch shared by the frame and the run: the launch element, the rest state every core carries between items, and
   what the launch's deal makes of it. -/
import proofs.«407213_j20864951124667_1_alg».proof.Proof.B.Fr.Base
import Idealize.ShloMosaic.Lib.Pipeline.Frame
import Idealize.ShloMosaic.Lib.Pipeline.Regions
import Idealize.ShloMosaic.Lib.Pipeline.Kit

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

/-! # The launch, shared by the frame and the run

The regions' records are stated over the product algebra (the staging cells' rounds beside the transfer counters), no
index, level `0` everywhere, no variants. Between two items every core holds its unscoped buffers beside the SAME rest:
its generator register at some value and a ledger owing nothing. This module makes that rest from what the launch deals
each core, and splits the launch element between the staging cells and the counters. Everything here is over an
arbitrary admissible family `a` of table contents. -/

/-- The rest a core carries between any two items: the same at every one of the six points. -/
abbrev ER : Fin 6 → Dev nD → sProp 𝕄 := fun _ c => Rst (F := F) c

/-- Nothing is owed at launch. -/
abbrev O₀ : Dev nD → CellTallies nD τ sig Unit := 0

/-- No ghost resource is dealt beside the staging cells'. -/
abbrev G₀ : Dev nD → sProp 𝕄 := fun _ => iprop(emp)

section Elem

variable (a : (p : Fin 5) → (pcfgs (F := F) p).Adm)

/-- The launch element: the staging cells' initial rounds beside the unit of the transfer counters. -/
abbrev u₀ : Pipeline.UD sig nD τ :=
  (initOf (Pipeline.cells (Pipeline.pin (pcfgs (F := F)) a) (cellOf_inj a)) (Pipeline.launchToks (Pipeline.pin (pcfgs (F := F)) a) (cellOf_inj a)), 1)

/-- Owning the launch element gives the staging cells' initial rounds through the left embedding; the counters' unit
    is dropped, and the ghost resources are empty on every core. -/
theorem hu₀ : (ownU (u₀ a) : sProp 𝕄)
    ⊢ |={Set.univ}=> iprop(BI.own ((embL : Emb (UR sig nD τ) 𝕄) (initOf (Pipeline.cells (Pipeline.pin (pcfgs (F := F)) a) (cellOf_inj a)) (Pipeline.launchToks (Pipeline.pin (pcfgs (F := F)) a) (cellOf_inj a))))
        ∗ bigSep Finset.univ (G₀ (F := F))) := by
  iintro Hu
  ihave H' := (ownU_pair _ _) $$ Hu
  icases H' with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

end Elem

/-- No index is live anywhere. -/
theorem hL : ∀ g : GSem nD τ sig, g.1.2 ≠ .tc → L g = ∅ := fun _ _ => rfl

/-- THE LAUNCH'S REST: of what each core is dealt (its semaphores at zero, an empty ledger owing nothing, the launch
    credit, its generator register, no ghost resource) it keeps the register, at the value it has, and the ledger;
    the semaphores, the credit and the level facts are dropped. Core by core. -/
theorem hE0 (ρ : Dev nD → PrngReg) :
    iprop((bigSep Finset.univ fun c : Dev nD => iprop(unscopedSems0 c ∗ owes (c : Thread nD τ) (O₀ c) ∅ ∗ Pipeline.launchCred O₀ c ∗ prngReg c (ρ c) ∗ G₀ (F := F) c)) ∗ levAts L lv)
      ⊢ (|={Set.univ}=> bigSep Finset.univ (ER (F := F) 0) : sProp 𝕄) := by
  refine Pipeline.initEach L lv fun c => ?_
  iintro ⟨⟨-, HO, -, Hp, -⟩, -⟩
  imodintro
  isplitl [Hp]; · iexists _; iexact Hp
  iexists ∅; iexact HO

/-- THE END'S REST owes nothing: drop the generator register. -/
theorem hE5 (c : Dev nD) : ER (F := F) 5 c ⊢ (iprop(∃ W, owes (c : Thread nD τ) (0 : CellTallies nD τ sig Unit) W) : sProp 𝕄) := by
  iintro ⟨-, HO⟩
  iexact HO

end Cert.Kernel.Fr

end
-- ==== Proof.B.G0Defs.lean ====
/-
  The block one grid point of the first gather call leaves in its output window, as a function of the
  table of row numbers and the stacked tables of rows.
-/
import proofs.«407213_j20864951124667_1_alg».proof.Kernel
import Idealize.ShloMosaic.Lib.ValueIdx

namespace Cert.Kernel.Gather0

open Idealize.ShloMosaic

variable {F : FTy → Type} [FloatOps F]

/-- The row number the table holds for grid point `i` and sub-table `f`, reduced into the range of rows
    (the reduction changes nothing where the word is a row number: `rowOf_val`). -/
def rowOf (tbl : Vec F S4096x26 .i32) (i : grid0.Coords) (f : Fin 26) : Fin 131073 :=
  ⟨(tbl (ValueIdx.ix2 (⟨(i 0).val, (i 0).isLt⟩ : Fin 4096) f)).toNat % 131073, Nat.mod_lt _ (by decide)⟩

/-- Where the table's word is a row number, `rowOf` is that number. -/
theorem rowOf_val (tbl : Vec F S4096x26 .i32) (i : grid0.Coords) (f : Fin 26)
    (h : (tbl (ValueIdx.ix2 (⟨(i 0).val, (i 0).isLt⟩ : Fin 4096) f)).toNat < 131073) :
    (rowOf tbl i f).val = (tbl (ValueIdx.ix2 (⟨(i 0).val, (i 0).isLt⟩ : Fin 4096) f)).toNat :=
  Nat.mod_eq_of_lt h

/-- The gathered block at grid point `i`: its row `f` is row `tbl[i, f]` of sub-table `f`. -/
def gatherBlk (tbl : Vec F S4096x26 .i32) (emb : Vec F S26x131073x64 .f32) (i : grid0.Coords) :
    Vec F S1x26x64 .f32 :=
  fun y => emb (ValueIdx.ix3 (y 1 : Fin 26) (rowOf tbl i (y 1)) (y 2 : Fin 64))

/-- The call's own transfer semaphores, cell by cell: cell `k` of its scratch array of 26 is cell `2 + k` of
    the pool. -/
abbrev osem : Fin 26 → SemLoc sig := fun k =>
  (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27] : Fin 26 → SemLoc sig) k

end Cert.Kernel.Gather0
-- ==== Proof.B.Fr.Dat0.lean ====
/- Region 0's proof data: what the gather body leaves in its output block, the region's invariant, the table's contents. -/
import proofs.«407213_j20864951124667_1_alg».proof.Proof.B.Fr.Base
import proofs.«407213_j20864951124667_1_alg».proof.Proof.B.G0Defs
import proofs.«407213_j20864951124667_1_alg».proof.Proof.Gen.Kernel.Launch
import Idealize.ShloMosaic.Lib.Pipeline.Frame
import Idealize.ShloMosaic.Lib.Pipeline.Kit

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 0 (a gather call): its proof data, at entry contents `V` and admissible table contents `a` -/

section Region0

variable (V : (c : Dev nD) → (b : Ref sig .tc) → Buf (Elt F) ((c : Thread nD τ).loc b)) (a : (pcfg0 (F := F)).Adm)

/-- The operand the body reads by its own transfers: the stacked tables of rows, left in HBM. -/
def H0 : Finset (Ref sig .tc) := {main_arg2}
theorem H0_sub : H0 ⊆ Pipeline.restRefs sig spec0 := by decide

/-- The table of row numbers as the region finds it. -/
abbrev tbl0 (c : Dev nD) : Vec F S4096x26 .i32 := V c main_v10
/-- The stacked tables of rows as the region finds them. -/
abbrev emb0 (c : Dev nD) : Vec F S26x131073x64 .f32 := V c main_arg2

/-- The region's invariant: the scoped rest, the generator register, the body's 26 cells at zero, the stacked tables whole
    at their entry contents, and the table of row numbers whole at the contents the pipeline is pinned at. -/
def Phi0 (c : Dev nD) : sProp 𝕄 :=
  iprop(Pipeline.ΦD Gather0.osem spec0 H0 V c
    ∗ Pipeline.prefHeld (Ix := Unit) (Name := ℕ) (U := Pipeline.UD sig nD τ) (Lvl := ℕ) pre0 c (fun _ => fullShare) a.1)

/-- The proof data of the region's pipeline on core `c`: the output array as the region finds it; after the body at point `t` the
    output block holds the gathered rows; the invariant `Phi0` at every point; nothing owed; full shares. -/
def dat0 (c : Dev nD) : Dat τ (Elt F) Unit ℕ (Pipeline.UD sig nD τ) ℕ (cfg0 a) c where
  A w := V c (Pipeline.arrRef spec0 w)
  after w t := match w with
    | ⟨0, _⟩ => Gather0.gatherBlk (tbl0 V c) (emb0 V c) (grid0.coords t)
  Φ _ := Phi0 V a c
  q _ := fullShare
  owed _ := 0

theorem A_eq0 (c : Dev nD) (w : Fin (cfg0 a).W) : (dat0 V a c).A w = V c (Pipeline.arrRef spec0 w) := by
  dsimp only [dat0]
theorem after0_0 (c : Dev nD) (t : Fin (cfg0 a).N) :
    (dat0 V a c).after 0 t = Gather0.gatherBlk (tbl0 V c) (emb0 V c) (grid0.coords t) := by dsimp only [dat0]; rfl
/-- The stacked tables' points-to, as the body takes it. -/
theorem hbm0_eq (c : Dev nD) :
    (bigSep H0 (fun b => ((c : Thread nD τ).loc b) ↦{fullShare} V c b) : sProp 𝕄)
      = owns (c : Thread nD τ) (Memref.whole main_arg2) fullShare (emb0 V c) := by
  rw [BI.bigSep_eq_bigSepL_of_eq [main_arg2] (by decide) (by decide), owns_whole]; rfl
/-- The table of row numbers held whole, as the body takes it. -/
theorem pref0_eq (c : Dev nD) :
    (Pipeline.prefHeld (Ix := Unit) (Name := ℕ) (U := Pipeline.UD sig nD τ) (Lvl := ℕ) pre0 c (fun _ => fullShare) a.1 : sProp 𝕄)
      = owns (c : Thread nD τ) (Memref.whole main_v10) fullShare (a.1 0) := by
  unfold Pipeline.prefHeld; rw [bigSep_W0]
  exact (owns_whole (c : Thread nD τ) main_v10 fullShare (a.1 0)).symm
/-- The two unscoped buffers the region takes out of the rest: the table of row numbers and the stacked tables. -/
def HT0 : Finset (Ref sig .tc) := {main_v10, main_arg2}
theorem HT0_sub : HT0 ⊆ Pipeline.restRefs sig spec0 := by decide
/-- The unscoped rest, those two apart. -/
theorem rest0_split (c : Dev nD) (W : (b : Ref sig .tc) → Buf (Elt F) ((c : Thread nD τ).loc b)) :
    (Pipeline.unscopedRest (Ix := Unit) (Name := ℕ) (U := Pipeline.UD sig nD τ) (Lvl := ℕ) spec0 c W : sProp 𝕄)
      = iprop((owns (c : Thread nD τ) (Memref.whole main_v10) fullShare (W main_v10) ∗ owns (c : Thread nD τ) (Memref.whole main_arg2) fullShare (W main_arg2))
          ∗ bigSep (Pipeline.restRefs sig spec0 \ HT0) fun b => ((c : Thread nD τ).loc b) ↦{fullShare} W b) := by
  rw [Pipeline.unscopedRest_sdiff spec0 HT0 HT0_sub c W, BI.bigSep_eq_bigSepL_of_eq [main_v10, main_arg2] (by decide) (by decide), owns_whole, owns_whole]; rfl
theorem Phi_eq0 (c : Dev nD) (t) : (dat0 V a c).Φ t = Phi0 V a c := rfl
theorem owed_eq0 (c : Dev nD) (t) : (dat0 V a c).owed t = 0 := rfl

/-- The table's admissible contents: the table of row numbers as the region finds it on the one core (the side condition
    is trivial: no index map reads the table). -/
def adm0 (E : Dev nD → Valuation τ sig (Elt F)) : (pcfg0 (F := F)).Adm :=
  ⟨fun | 0 => E (0 : Dev nD) main_v10 | ⟨_ + 1, h⟩ => absurd h (Nat.not_lt.2 (Nat.le_add_left _ _)), trivial⟩

/-- The table the pipeline is pinned at is the one the region finds, on every core (there is one). -/
theorem adm0_pf (E : Dev nD → Valuation τ sig (Elt F)) (c : Dev nD) : (adm0 E).1 0 = atRefs E c main_v10 := by
  have hc : c = 0 := Subsingleton.elim _ _
  subst hc; rfl

end Region0

end Cert.Kernel.Fr

end
-- ==== Proof.B.G1Defs.lean ====
/-
  The block one grid point of the second gather call leaves in its output window, as a function of the
  table of row numbers and the stacked tables of rows.
-/
import proofs.«407213_j20864951124667_1_alg».proof.Kernel
import Idealize.ShloMosaic.Lib.ValueIdx

namespace Cert.Kernel.Gather1

open Idealize.ShloMosaic

variable {F : FTy → Type} [FloatOps F]

/-- The row number the table holds for grid point `i` and sub-table `f`, reduced into the range of rows
    (the reduction changes nothing where the word is a row number: `rowOf_val`). -/
def rowOf (tbl : Vec F S4096x26 .i32) (i : grid1.Coords) (f : Fin 26) : Fin 131073 :=
  ⟨(tbl (ValueIdx.ix2 (⟨(i 0).val, (i 0).isLt⟩ : Fin 4096) f)).toNat % 131073, Nat.mod_lt _ (by decide)⟩

/-- Where the table's word is a row number, `rowOf` is that number. -/
theorem rowOf_val (tbl : Vec F S4096x26 .i32) (i : grid1.Coords) (f : Fin 26)
    (h : (tbl (ValueIdx.ix2 (⟨(i 0).val, (i 0).isLt⟩ : Fin 4096) f)).toNat < 131073) :
    (rowOf tbl i f).val = (tbl (ValueIdx.ix2 (⟨(i 0).val, (i 0).isLt⟩ : Fin 4096) f)).toNat :=
  Nat.mod_eq_of_lt h

/-- The gathered block at grid point `i`: its row `f` is row `tbl[i, f]` of sub-table `f`. -/
def gatherBlk (tbl : Vec F S4096x26 .i32) (emb : Vec F S26x131073x64 .f32) (i : grid1.Coords) :
    Vec F S1x26x64 .f32 :=
  fun y => emb (ValueIdx.ix3 (y 1 : Fin 26) (rowOf tbl i (y 1)) (y 2 : Fin 64))

/-- The call's own transfer semaphores, cell by cell: cell `k` of its scratch array of 26 is cell `30 + k` of
    the pool. -/
abbrev osem : Fin 26 → SemLoc sig := fun k =>
  (![SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53, SemLoc.dma 54, SemLoc.dma 55] : Fin 26 → SemLoc sig) k

end Cert.Kernel.Gather1
-- ==== Proof.B.Fr.Dat1.lean ====
/- Region 1's proof data: what the gather body leaves in its output block, the region's invariant, the table's contents. -/
import proofs.«407213_j20864951124667_1_alg».proof.Proof.B.Fr.Base
import proofs.«407213_j20864951124667_1_alg».proof.Proof.B.G1Defs
import proofs.«407213_j20864951124667_1_alg».proof.Proof.Gen.Kernel.Launch
import Idealize.ShloMosaic.Lib.Pipeline.Frame
import Idealize.ShloMosaic.Lib.Pipeline.Kit

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1 (a gather call): its proof data, at entry contents `V` and admissible table contents `a` -/

section Region1

variable (V : (c : Dev nD) → (b : Ref sig .tc) → Buf (Elt F) ((c : Thread nD τ).loc b)) (a : (pcfg1 (F := F)).Adm)

/-- The operand the body reads by its own transfers: the stacked tables of rows, left in HBM. -/
def H1 : Finset (Ref sig .tc) := {main_arg2}
theorem H1_sub : H1 ⊆ Pipeline.restRefs sig spec1 := by decide

/-- The table of row numbers as the region finds it. -/
abbrev tbl1 (c : Dev nD) : Vec F S4096x26 .i32 := V c main_v12
/-- The stacked tables of rows as the region finds them. -/
abbrev emb1 (c : Dev nD) : Vec F S26x131073x64 .f32 := V c main_arg2

/-- The region's invariant: the scoped rest, the generator register, the body's 26 cells at zero, the stacked tables whole
    at their entry contents, and the table of row numbers whole at the contents the pipeline is pinned at. -/
def Phi1 (c : Dev nD) : sProp 𝕄 :=
  iprop(Pipeline.ΦD Gather1.osem spec1 H1 V c
    ∗ Pipeline.prefHeld (Ix := Unit) (Name := ℕ) (U := Pipeline.UD sig nD τ) (Lvl := ℕ) pre1 c (fun _ => fullShare) a.1)

/-- The proof data of the region's pipeline on core `c`: the output array as the region finds it; after the body at point `t` the
    output block holds the gathered rows; the invariant `Phi1` at every point; nothing owed; full shares. -/
def dat1 (c : Dev nD) : Dat τ (Elt F) Unit ℕ (Pipeline.UD sig nD τ) ℕ (cfg1 a) c where
  A w := V c (Pipeline.arrRef spec1 w)
  after w t := match w with
    | ⟨0, _⟩ => Gather1.gatherBlk (tbl1 V c) (emb1 V c) (grid1.coords t)
  Φ _ := Phi1 V a c
  q _ := fullShare
  owed _ := 0

theorem A_eq1 (c : Dev nD) (w : Fin (cfg1 a).W) : (dat1 V a c).A w = V c (Pipeline.arrRef spec1 w) := by
  dsimp only [dat1]
theorem after1_0 (c : Dev nD) (t : Fin (cfg1 a).N) :
    (dat1 V a c).after 0 t = Gather1.gatherBlk (tbl1 V c) (emb1 V c) (grid1.coords t) := by dsimp only [dat1]; rfl
/-- The stacked tables' points-to, as the body takes it. -/
theorem hbm1_eq (c : Dev nD) :
    (bigSep H1 (fun b => ((c : Thread nD τ).loc b) ↦{fullShare} V c b) : sProp 𝕄)
      = owns (c : Thread nD τ) (Memref.whole main_arg2) fullShare (emb1 V c) := by
  rw [BI.bigSep_eq_bigSepL_of_eq [main_arg2] (by decide) (by decide), owns_whole]; rfl
/-- The table of row numbers held whole, as the body takes it. -/
theorem pref1_eq (c : Dev nD) :
    (Pipeline.prefHeld (Ix := Unit) (Name := ℕ) (U := Pipeline.UD sig nD τ) (Lvl := ℕ) pre1 c (fun _ => fullShare) a.1 : sProp 𝕄)
      = owns (c : Thread nD τ) (Memref.whole main_v12) fullShare (a.1 0) := by
  unfold Pipeline.prefHeld; rw [bigSep_W1]
  exact (owns_whole (c : Thread nD τ) main_v12 fullShare (a.1 0)).symm
/-- The two unscoped buffers the region takes out of the rest: the table of row numbers and the stacked tables. -/
def HT1 : Finset (Ref sig .tc) := {main_v12, main_arg2}
theorem HT1_sub : HT1 ⊆ Pipeline.restRefs sig spec1 := by decide
/-- The unscoped rest, those two apart. -/
theorem rest1_split (c : Dev nD) (W : (b : Ref sig .tc) → Buf (Elt F) ((c : Thread nD τ).loc b)) :
    (Pipeline.unscopedRest (Ix := Unit) (Name := ℕ) (U := Pipeline.UD sig nD τ) (Lvl := ℕ) spec1 c W : sProp 𝕄)
      = iprop((owns (c : Thread nD τ) (Memref.whole main_v12) fullShare (W main_v12) ∗ owns (c : Thread nD τ) (Memref.whole main_arg2) fullShare (W main_arg2))
          ∗ bigSep (Pipeline.restRefs sig spec1 \ HT1) fun b => ((c : Thread nD τ).loc b) ↦{fullShare} W b) := by
  rw [Pipeline.unscopedRest_sdiff spec1 HT1 HT1_sub c W, BI.bigSep_eq_bigSepL_of_eq [main_v12, main_arg2] (by decide) (by decide), owns_whole, owns_whole]; rfl
theorem Phi_eq1 (c : Dev nD) (t) : (dat1 V a c).Φ t = Phi1 V a c := rfl
theorem owed_eq1 (c : Dev nD) (t) : (dat1 V a c).owed t = 0 := rfl

/-- The table's admissible contents: the table of row numbers as the region finds it on the one core (the side condition
    is trivial: no index map reads the table). -/
def adm1 (E : Dev nD → Valuation τ sig (Elt F)) : (pcfg1 (F := F)).Adm :=
  ⟨fun | 0 => E (0 : Dev nD) main_v12 | ⟨_ + 1, h⟩ => absurd h (Nat.not_lt.2 (Nat.le_add_left _ _)), trivial⟩

/-- The table the pipeline is pinned at is the one the region finds, on every core (there is one). -/
theorem adm1_pf (E : Dev nD → Valuation τ sig (Elt F)) (c : Dev nD) : (adm1 E).1 0 = atRefs E c main_v12 := by
  have hc : c = 0 := Subsingleton.elim _ _
  subst hc; rfl

end Region1

end Cert.Kernel.Fr

end
-- ==== Proof.B.G2Defs.lean ====
/-
  The block one grid point of the third gather call leaves in its output window, as a function of the
  table of row numbers and the stacked tables of rows.
-/
import proofs.«407213_j20864951124667_1_alg».proof.Kernel
import Idealize.ShloMosaic.Lib.ValueIdx

namespace Cert.Kernel.Gather2

open Idealize.ShloMosaic

variable {F : FTy → Type} [FloatOps F]

/-- The row number the table holds for grid point `i` and sub-table `f`, reduced into the range of rows
    (the reduction changes nothing where the word is a row number: `rowOf_val`). -/
def rowOf (tbl : Vec F S4096x26 .i32) (i : grid2.Coords) (f : Fin 26) : Fin 131073 :=
  ⟨(tbl (ValueIdx.ix2 (⟨(i 0).val, (i 0).isLt⟩ : Fin 4096) f)).toNat % 131073, Nat.mod_lt _ (by decide)⟩

/-- Where the table's word is a row number, `rowOf` is that number. -/
theorem rowOf_val (tbl : Vec F S4096x26 .i32) (i : grid2.Coords) (f : Fin 26)
    (h : (tbl (ValueIdx.ix2 (⟨(i 0).val, (i 0).isLt⟩ : Fin 4096) f)).toNat < 131073) :
    (rowOf tbl i f).val = (tbl (ValueIdx.ix2 (⟨(i 0).val, (i 0).isLt⟩ : Fin 4096) f)).toNat :=
  Nat.mod_eq_of_lt h

/-- The gathered block at grid point `i`: its row `f` is row `tbl[i, f]` of sub-table `f`. -/
def gatherBlk (tbl : Vec F S4096x26 .i32) (emb : Vec F S26x131073x64 .f32) (i : grid2.Coords) :
    Vec F S1x26x64 .f32 :=
  fun y => emb (ValueIdx.ix3 (y 1 : Fin 26) (rowOf tbl i (y 1)) (y 2 : Fin 64))

/-- The call's own transfer semaphores, cell by cell: cell `k` of its scratch array of 26 is cell `58 + k` of
    the pool. -/
abbrev osem : Fin 26 → SemLoc sig := fun k =>
  (![SemLoc.dma 58, SemLoc.dma 59, SemLoc.dma 60, SemLoc.dma 61, SemLoc.dma 62, SemLoc.dma 63, SemLoc.dma 64, SemLoc.dma 65, SemLoc.dma 66, SemLoc.dma 67, SemLoc.dma 68, SemLoc.dma 69, SemLoc.dma 70, SemLoc.dma 71, SemLoc.dma 72, SemLoc.dma 73, SemLoc.dma 74, SemLoc.dma 75, SemLoc.dma 76, SemLoc.dma 77, SemLoc.dma 78, SemLoc.dma 79, SemLoc.dma 80, SemLoc.dma 81, SemLoc.dma 82, SemLoc.dma 83] : Fin 26 → SemLoc sig) k

end Cert.Kernel.Gather2
-- ==== Proof.B.Fr.Dat2.lean ====
/- Region 2's proof data: what the gather body leaves in its output block, the region's invariant, the table's contents. -/
import proofs.«407213_j20864951124667_1_alg».proof.Proof.B.Fr.Base
import proofs.«407213_j20864951124667_1_alg».proof.Proof.B.G2Defs
import proofs.«407213_j20864951124667_1_alg».proof.Proof.Gen.Kernel.Launch
import Idealize.ShloMosaic.Lib.Pipeline.Frame
import Idealize.ShloMosaic.Lib.Pipeline.Kit

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 2 (a gather call): its proof data, at entry contents `V` and admissible table contents `a` -/

section Region2

variable (V : (c : Dev nD) → (b : Ref sig .tc) → Buf (Elt F) ((c : Thread nD τ).loc b)) (a : (pcfg2 (F := F)).Adm)

/-- The operand the body reads by its own transfers: the stacked tables of rows, left in HBM. -/
def H2 : Finset (Ref sig .tc) := {main_arg2}
theorem H2_sub : H2 ⊆ Pipeline.restRefs sig spec2 := by decide

/-- The table of row numbers as the region finds it. -/
abbrev tbl2 (c : Dev nD) : Vec F S4096x26 .i32 := V c main_v14
/-- The stacked tables of rows as the region finds them. -/
abbrev emb2 (c : Dev nD) : Vec F S26x131073x64 .f32 := V c main_arg2

/-- The region's invariant: the scoped rest, the generator register, the body's 26 cells at zero, the stacked tables whole
    at their entry contents, and the table of row numbers whole at the contents the pipeline is pinned at. -/
def Phi2 (c : Dev nD) : sProp 𝕄 :=
  iprop(Pipeline.ΦD Gather2.osem spec2 H2 V c
    ∗ Pipeline.prefHeld (Ix := Unit) (Name := ℕ) (U := Pipeline.UD sig nD τ) (Lvl := ℕ) pre2 c (fun _ => fullShare) a.1)

/-- The proof data of the region's pipeline on core `c`: the output array as the region finds it; after the body at point `t` the
    output block holds the gathered rows; the invariant `Phi2` at every point; nothing owed; full shares. -/
def dat2 (c : Dev nD) : Dat τ (Elt F) Unit ℕ (Pipeline.UD sig nD τ) ℕ (cfg2 a) c where
  A w := V c (Pipeline.arrRef spec2 w)
  after w t := match w with
    | ⟨0, _⟩ => Gather2.gatherBlk (tbl2 V c) (emb2 V c) (grid2.coords t)
  Φ _ := Phi2 V a c
  q _ := fullShare
  owed _ := 0

theorem A_eq2 (c : Dev nD) (w : Fin (cfg2 a).W) : (dat2 V a c).A w = V c (Pipeline.arrRef spec2 w) := by
  dsimp only [dat2]
theorem after2_0 (c : Dev nD) (t : Fin (cfg2 a).N) :
    (dat2 V a c).after 0 t = Gather2.gatherBlk (tbl2 V c) (emb2 V c) (grid2.coords t) := by dsimp only [dat2]; rfl
/-- The stacked tables' points-to, as the body takes it. -/
theorem hbm2_eq (c : Dev nD) :
    (bigSep H2 (fun b => ((c : Thread nD τ).loc b) ↦{fullShare} V c b) : sProp 𝕄)
      = owns (c : Thread nD τ) (Memref.whole main_arg2) fullShare (emb2 V c) := by
  rw [BI.bigSep_eq_bigSepL_of_eq [main_arg2] (by decide) (by decide), owns_whole]; rfl
/-- The table of row numbers held whole, as the body takes it. -/
theorem pref2_eq (c : Dev nD) :
    (Pipeline.prefHeld (Ix := Unit) (Name := ℕ) (U := Pipeline.UD sig nD τ) (Lvl := ℕ) pre2 c (fun _ => fullShare) a.1 : sProp 𝕄)
      = owns (c : Thread nD τ) (Memref.whole main_v14) fullShare (a.1 0) := by
  unfold Pipeline.prefHeld; rw [bigSep_W2]
  exact (owns_whole (c : Thread nD τ) main_v14 fullShare (a.1 0)).symm
/-- The two unscoped buffers the region takes out of the rest: the table of row numbers and the stacked tables. -/
def HT2 : Finset (Ref sig .tc) := {main_v14, main_arg2}
theorem HT2_sub : HT2 ⊆ Pipeline.restRefs sig spec2 := by decide
/-- The unscoped rest, those two apart. -/
theorem rest2_split (c : Dev nD) (W : (b : Ref sig .tc) → Buf (Elt F) ((c : Thread nD τ).loc b)) :
    (Pipeline.unscopedRest (Ix := Unit) (Name := ℕ) (U := Pipeline.UD sig nD τ) (Lvl := ℕ) spec2 c W : sProp 𝕄)
      = iprop((owns (c : Thread nD τ) (Memref.whole main_v14) fullShare (W main_v14) ∗ owns (c : Thread nD τ) (Memref.whole main_arg2) fullShare (W main_arg2))
          ∗ bigSep (Pipeline.restRefs sig spec2 \ HT2) fun b => ((c : Thread nD τ).loc b) ↦{fullShare} W b) := by
  rw [Pipeline.unscopedRest_sdiff spec2 HT2 HT2_sub c W, BI.bigSep_eq_bigSepL_of_eq [main_v14, main_arg2] (by decide) (by decide), owns_whole, owns_whole]; rfl
theorem Phi_eq2 (c : Dev nD) (t) : (dat2 V a c).Φ t = Phi2 V a c := rfl
theorem owed_eq2 (c : Dev nD) (t) : (dat2 V a c).owed t = 0 := rfl

/-- The table's admissible contents: the table of row numbers as the region finds it on the one core (the side condition
    is trivial: no index map reads the table). -/
def adm2 (E : Dev nD → Valuation τ sig (Elt F)) : (pcfg2 (F := F)).Adm :=
  ⟨fun | 0 => E (0 : Dev nD) main_v14 | ⟨_ + 1, h⟩ => absurd h (Nat.not_lt.2 (Nat.le_add_left _ _)), trivial⟩

/-- The table the pipeline is pinned at is the one the region finds, on every core (there is one). -/
theorem adm2_pf (E : Dev nD → Valuation τ sig (Elt F)) (c : Dev nD) : (adm2 E).1 0 = atRefs E c main_v14 := by
  have hc : c = 0 := Subsingleton.elim _ _
  subst hc; rfl

end Region2

end Cert.Kernel.Fr

end
-- ==== Proof.B.G3Defs.lean ====
/-
  The block one grid point of the fourth gather call leaves in its output window, as a function of the
  table of row numbers and the stacked tables of rows.
-/
import proofs.«407213_j20864951124667_1_alg».proof.Kernel
import Idealize.ShloMosaic.Lib.ValueIdx

namespace Cert.Kernel.Gather3

open Idealize.ShloMosaic

variable {F : FTy → Type} [FloatOps F]

/-- The row number the table holds for grid point `i` and sub-table `f`, reduced into the range of rows
    (the reduction changes nothing where the word is a row number: `rowOf_val`). -/
def rowOf (tbl : Vec F S4096x26 .i32) (i : grid3.Coords) (f : Fin 26) : Fin 131073 :=
  ⟨(tbl (ValueIdx.ix2 (⟨(i 0).val, (i 0).isLt⟩ : Fin 4096) f)).toNat % 131073, Nat.mod_lt _ (by decide)⟩

/-- Where the table's word is a row number, `rowOf` is that number. -/
theorem rowOf_val (tbl : Vec F S4096x26 .i32) (i : grid3.Coords) (f : Fin 26)
    (h : (tbl (ValueIdx.ix2 (⟨(i 0).val, (i 0).isLt⟩ : Fin 4096) f)).toNat < 131073) :
    (rowOf tbl i f).val = (tbl (ValueIdx.ix2 (⟨(i 0).val, (i 0).isLt⟩ : Fin 4096) f)).toNat :=
  Nat.mod_eq_of_lt h

/-- The gathered block at grid point `i`: its row `f` is row `tbl[i, f]` of sub-table `f`. -/
def gatherBlk (tbl : Vec F S4096x26 .i32) (emb : Vec F S26x131073x64 .f32) (i : grid3.Coords) :
    Vec F S1x26x64 .f32 :=
  fun y => emb (ValueIdx.ix3 (y 1 : Fin 26) (rowOf tbl i (y 1)) (y 2 : Fin 64))

/-- The call's own transfer semaphores, cell by cell: cell `k` of its scratch array of 26 is cell `86 + k` of
    the pool. -/
abbrev osem : Fin 26 → SemLoc sig := fun k =>
  (![SemLoc.dma 86, SemLoc.dma 87, SemLoc.dma 88, SemLoc.dma 89, SemLoc.dma 90, SemLoc.dma 91, SemLoc.dma 92, SemLoc.dma 93, SemLoc.dma 94, SemLoc.dma 95, SemLoc.dma 96, SemLoc.dma 97, SemLoc.dma 98, SemLoc.dma 99, SemLoc.dma 100, SemLoc.dma 101, SemLoc.dma 102, SemLoc.dma 103, SemLoc.dma 104, SemLoc.dma 105, SemLoc.dma 106, SemLoc.dma 107, SemLoc.dma 108, SemLoc.dma 109, SemLoc.dma 110, SemLoc.dma 111] : Fin 26 → SemLoc sig) k

end Cert.Kernel.Gather3
-- ==== Proof.B.Fr.Dat3.lean ====
/- Region 3's proof data: what the gather body leaves in its output block, the region's invariant, the table's contents. -/
import proofs.«407213_j20864951124667_1_alg».proof.Proof.B.Fr.Base
import proofs.«407213_j20864951124667_1_alg».proof.Proof.B.G3Defs
import proofs.«407213_j20864951124667_1_alg».proof.Proof.Gen.Kernel.Launch
import Idealize.ShloMosaic.Lib.Pipeline.Frame
import Idealize.ShloMosaic.Lib.Pipeline.Kit

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 3 (a gather call): its proof data, at entry contents `V` and admissible table contents `a` -/

section Region3

variable (V : (c : Dev nD) → (b : Ref sig .tc) → Buf (Elt F) ((c : Thread nD τ).loc b)) (a : (pcfg3 (F := F)).Adm)

/-- The operand the body reads by its own transfers: the stacked tables of rows, left in HBM. -/
def H3 : Finset (Ref sig .tc) := {main_arg2}
theorem H3_sub : H3 ⊆ Pipeline.restRefs sig spec3 := by decide

/-- The table of row numbers as the region finds it. -/
abbrev tbl3 (c : Dev nD) : Vec F S4096x26 .i32 := V c main_v16
/-- The stacked tables of rows as the region finds them. -/
abbrev emb3 (c : Dev nD) : Vec F S26x131073x64 .f32 := V c main_arg2

/-- The region's invariant: the scoped rest, the generator register, the body's 26 cells at zero, the stacked tables whole
    at their entry contents, and the table of row numbers whole at the contents the pipeline is pinned at. -/
def Phi3 (c : Dev nD) : sProp 𝕄 :=
  iprop(Pipeline.ΦD Gather3.osem spec3 H3 V c
    ∗ Pipeline.prefHeld (Ix := Unit) (Name := ℕ) (U := Pipeline.UD sig nD τ) (Lvl := ℕ) pre3 c (fun _ => fullShare) a.1)

/-- The proof data of the region's pipeline on core `c`: the output array as the region finds it; after the body at point `t` the
    output block holds the gathered rows; the invariant `Phi3` at every point; nothing owed; full shares. -/
def dat3 (c : Dev nD) : Dat τ (Elt F) Unit ℕ (Pipeline.UD sig nD τ) ℕ (cfg3 a) c where
  A w := V c (Pipeline.arrRef spec3 w)
  after w t := match w with
    | ⟨0, _⟩ => Gather3.gatherBlk (tbl3 V c) (emb3 V c) (grid3.coords t)
  Φ _ := Phi3 V a c
  q _ := fullShare
  owed _ := 0

theorem A_eq3 (c : Dev nD) (w : Fin (cfg3 a).W) : (dat3 V a c).A w = V c (Pipeline.arrRef spec3 w) := by
  dsimp only [dat3]
theorem after3_0 (c : Dev nD) (t : Fin (cfg3 a).N) :
    (dat3 V a c).after 0 t = Gather3.gatherBlk (tbl3 V c) (emb3 V c) (grid3.coords t) := by dsimp only [dat3]; rfl
/-- The stacked tables' points-to, as the body takes it. -/
theorem hbm3_eq (c : Dev nD) :
    (bigSep H3 (fun b => ((c : Thread nD τ).loc b) ↦{fullShare} V c b) : sProp 𝕄)
      = owns (c : Thread nD τ) (Memref.whole main_arg2) fullShare (emb3 V c) := by
  rw [BI.bigSep_eq_bigSepL_of_eq [main_arg2] (by decide) (by decide), owns_whole]; rfl
/-- The table of row numbers held whole, as the body takes it. -/
theorem pref3_eq (c : Dev nD) :
    (Pipeline.prefHeld (Ix := Unit) (Name := ℕ) (U := Pipeline.UD sig nD τ) (Lvl := ℕ) pre3 c (fun _ => fullShare) a.1 : sProp 𝕄)
      = owns (c : Thread nD τ) (Memref.whole main_v16) fullShare (a.1 0) := by
  unfold Pipeline.prefHeld; rw [bigSep_W3]
  exact (owns_whole (c : Thread nD τ) main_v16 fullShare (a.1 0)).symm
/-- The two unscoped buffers the region takes out of the rest: the table of row numbers and the stacked tables. -/
def HT3 : Finset (Ref sig .tc) := {main_v16, main_arg2}
theorem HT3_sub : HT3 ⊆ Pipeline.restRefs sig spec3 := by decide
/-- The unscoped rest, those two apart. -/
theorem rest3_split (c : Dev nD) (W : (b : Ref sig .tc) → Buf (Elt F) ((c : Thread nD τ).loc b)) :
    (Pipeline.unscopedRest (Ix := Unit) (Name := ℕ) (U := Pipeline.UD sig nD τ) (Lvl := ℕ) spec3 c W : sProp 𝕄)
      = iprop((owns (c : Thread nD τ) (Memref.whole main_v16) fullShare (W main_v16) ∗ owns (c : Thread nD τ) (Memref.whole main_arg2) fullShare (W main_arg2))
          ∗ bigSep (Pipeline.restRefs sig spec3 \ HT3) fun b => ((c : Thread nD τ).loc b) ↦{fullShare} W b) := by
  rw [Pipeline.unscopedRest_sdiff spec3 HT3 HT3_sub c W, BI.bigSep_eq_bigSepL_of_eq [main_v16, main_arg2] (by decide) (by decide), owns_whole, owns_whole]; rfl
theorem Phi_eq3 (c : Dev nD) (t) : (dat3 V a c).Φ t = Phi3 V a c := rfl
theorem owed_eq3 (c : Dev nD) (t) : (dat3 V a c).owed t = 0 := rfl

/-- The table's admissible contents: the table of row numbers as the region finds it on the one core (the side condition
    is trivial: no index map reads the table). -/
def adm3 (E : Dev nD → Valuation τ sig (Elt F)) : (pcfg3 (F := F)).Adm :=
  ⟨fun | 0 => E (0 : Dev nD) main_v16 | ⟨_ + 1, h⟩ => absurd h (Nat.not_lt.2 (Nat.le_add_left _ _)), trivial⟩

/-- The table the pipeline is pinned at is the one the region finds, on every core (there is one). -/
theorem adm3_pf (E : Dev nD → Valuation τ sig (Elt F)) (c : Dev nD) : (adm3 E).1 0 = atRefs E c main_v16 := by
  have hc : c = 0 := Subsingleton.elim _ _
  subst hc; rfl

end Region3

end Cert.Kernel.Fr

end
-- ==== Proof.B.IDefs.lean ====
/- The value the interaction kernel's body stores into its output block, as one pure function of
   the two blocks it loads: the payload terms of the body's skeleton composed in the order the
   skeleton threads them (its first part returns the tuple of payloads 3, 4, 5, …, 27 of the two
   loaded blocks; payload 1 is formed of components 2 to 25 of that tuple; the stored value is
   payload 2 of component 1 and payload 1). Read off the payloads' operations: payload 3 is a shape
   cast of x0 (256x64); payload 4 concatenates x0 as row 0 above the 26 rows of x1 (256x27x64),
   truncates to bf16 and takes the batched product of that block with itself (256x27x27);
   payloads 5 to 27 and the slices inside payload 1 are its slices at offsets (0, i, i+1) of widths
   26-i (i < 26), whose widths sum to 351; payload 2 concatenates x0 and those 351 columns
   (256x415). -/
import proofs.«407213_j20864951124667_1_alg».proof.Proof.Gen.Kernel.Skeleton

noncomputable section

namespace Cert.Kernel.Inter

open Idealize.ShloMosaic Idealize.SL.Sem
open Cert.Kernel Cert.Kernel.Gen

variable {F : FTy → Type} [FloatOps F]

/-- Payload 4 of the two loaded blocks (the 256x27x27 block every slice is taken from), named. -/
def interGram (x0 : Vec F S256x64 .f32) (x1 : Vec F S256x26x64 .f32) : FVec F S256x27x27 .f32 :=
  k4_pay4 x0 x1

/-- Payload 1 (the 256x351 concatenation of the slices) at the payloads of the two loaded blocks. -/
def interTri (x0 : Vec F S256x64 .f32) (x1 : Vec F S256x26x64 .f32) : FVec F S256x351 .f32 :=
  k4_pay1 (k4_pay4 x0 x1) (k4_pay5 x0 x1) (k4_pay6 x0 x1) (k4_pay7 x0 x1) (k4_pay8 x0 x1)
    (k4_pay9 x0 x1) (k4_pay10 x0 x1) (k4_pay11 x0 x1) (k4_pay12 x0 x1) (k4_pay13 x0 x1)
    (k4_pay14 x0 x1) (k4_pay15 x0 x1) (k4_pay16 x0 x1) (k4_pay17 x0 x1) (k4_pay18 x0 x1)
    (k4_pay19 x0 x1) (k4_pay20 x0 x1) (k4_pay21 x0 x1) (k4_pay22 x0 x1) (k4_pay23 x0 x1)
    (k4_pay24 x0 x1) (k4_pay25 x0 x1) (k4_pay26 x0 x1) (k4_pay27 x0 x1)

/-- Payload 2 (the 256x415 concatenation) at payload 3 of x0 and the 351 columns above. -/
def interBlk (x0 : Vec F S256x64 .f32) (x1 : Vec F S256x26x64 .f32) : Vec F S256x415 .f32 :=
  k4_pay2 (k4_pay3 x0) (interTri x0 x1)

theorem interBlk_def (x0 : Vec F S256x64 .f32) (x1 : Vec F S256x26x64 .f32) :
    interBlk x0 x1 = k4_pay2 (k4_pay3 x0) (k4_pay1 (k4_pay4 x0 x1) (k4_pay5 x0 x1) (k4_pay6 x0 x1)
      (k4_pay7 x0 x1) (k4_pay8 x0 x1) (k4_pay9 x0 x1) (k4_pay10 x0 x1) (k4_pay11 x0 x1)
      (k4_pay12 x0 x1) (k4_pay13 x0 x1) (k4_pay14 x0 x1) (k4_pay15 x0 x1) (k4_pay16 x0 x1)
      (k4_pay17 x0 x1) (k4_pay18 x0 x1) (k4_pay19 x0 x1) (k4_pay20 x0 x1) (k4_pay21 x0 x1)
      (k4_pay22 x0 x1) (k4_pay23 x0 x1) (k4_pay24 x0 x1) (k4_pay25 x0 x1) (k4_pay26 x0 x1)
      (k4_pay27 x0 x1)) := rfl

end Cert.Kernel.Inter

end
-- ==== Proof.B.Fr.Dat4.lean ====
/- Region 4's proof data: the inputs' blocks and what the interaction body leaves in its output block. -/
import proofs.«407213_j20864951124667_1_alg».proof.Proof.B.Fr.Base
import proofs.«407213_j20864951124667_1_alg».proof.Proof.B.IDefs
import proofs.«407213_j20864951124667_1_alg».proof.Proof.Gen.Kernel.Points
import Idealize.ShloMosaic.Lib.Pipeline.Frame
import Idealize.ShloMosaic.Lib.Pipeline.FrameBody

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 4 (the interaction call): its proof data, at entry contents `V` -/

section Region4

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The proof data of pipeline 4 on core `c`: the arrays as the region finds them; after the body at point `t` each input's
    buffer at its block and the output's at the interaction block of the two; the class invariant (the scoped rest and the
    generator register); nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => Inter.interBlk (iblk4 V c 0 t) (iblk4 V c 1 t)
  Φ _ := Pipeline.ΦA (U := Pipeline.UD sig nD τ) spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = Inter.interBlk (iblk4 V c 0 t) (iblk4 V c 1 t) := by dsimp only [dat4]

/-- Each input's current staging buffer holds its block at every point (both are fetched at every point). -/
theorem before4_0 (c : Dev nD) (t : Fin cfg4.N) (d) : (dat4 V c).before 0 t d = iblk4 V c 0 t := by
  rw [(dat4 V c).before_fetched 0 t (fetch4_0 t) d]
  unfold Dat.fetched Dat.blockOf iblk4; rw [A_eq4]; try rfl
theorem before4_1 (c : Dev nD) (t : Fin cfg4.N) (d) : (dat4 V c).before 1 t d = iblk4 V c 1 t := by
  rw [(dat4 V c).before_fetched 1 t (fetch4_1 t) d]
  unfold Dat.fetched Dat.blockOf iblk4; rw [A_eq4]; try rfl

end Region4

end Cert.Kernel.Fr

end
-- ==== Proof.B.Fr.Family.lean ====
/- The proof data family over the regions' entry contents, and the hypothesis tying the regions' results to it. -/
import proofs.«407213_j20864951124667_1_alg».proof.Proof.B.Fr.Dat0
import proofs.«407213_j20864951124667_1_alg».proof.Proof.B.Fr.Dat1
import proofs.«407213_j20864951124667_1_alg».proof.Proof.B.Fr.Dat2
import proofs.«407213_j20864951124667_1_alg».proof.Proof.B.Fr.Dat3
import proofs.«407213_j20864951124667_1_alg».proof.Proof.B.Fr.Dat4

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The tables' contents and the proof data family, over the five regions' entry contents -/

section Family

variable (E0 E1 E2 E3 E4 : Dev nD → Valuation τ sig (Elt F))

/-- The prefetched tables' admissible contents, pipeline by pipeline (the interaction call has no table). -/
def adm : (p : Fin 5) → (pcfgs (F := F) p).Adm
  | ⟨0, _⟩ => adm0 E0
  | ⟨1, _⟩ => adm1 E1
  | ⟨2, _⟩ => adm2 E2
  | ⟨3, _⟩ => adm3 E3
  | ⟨4, _⟩ => cfg4.toPCfg_adm

/-- Every pipeline's proof data, each at its region's entry contents: a literal `match` on the pipeline. -/
def pdats : (p : Fin 5) → (c : Dev nD) → Dat τ (Elt F) Unit ℕ (Pipeline.UD sig nD τ) ℕ (Pipeline.pin (pcfgs (F := F)) (adm E0 E1 E2 E3) p) c
  | ⟨0, _⟩ => fun c => dat0 (atRefs E0) (adm0 E0) c
  | ⟨1, _⟩ => fun c => dat1 (atRefs E1) (adm1 E1) c
  | ⟨2, _⟩ => fun c => dat2 (atRefs E2) (adm2 E2) c
  | ⟨3, _⟩ => fun c => dat3 (atRefs E3) (adm3 E3) c
  | ⟨4, _⟩ => fun c => dat4 (atRefs E4) c

end Family

section AtRun

variable (m : (ℓ : Loc nD τ sig) → Buf (Elt F) ℓ) (outs : Outs (F := F))

/-- The tables' contents and the proof data along the run from `m` over the regions' results `outs`. -/
abbrev admM : (p : Fin 5) → (pcfgs (F := F) p).Adm := adm (V5 m) (V7 m outs) (V9 m outs) (V11 m outs)
abbrev pdatsM : (p : Fin 5) → (c : Dev nD) → Dat τ (Elt F) Unit ℕ (Pipeline.UD sig nD τ) ℕ (Pipeline.pin (pcfgs (F := F)) (admM m outs) p) c :=
  pdats (V5 m) (V7 m outs) (V9 m outs) (V11 m outs) (V13 m outs)

/-- The regions' results are what their pipelines leave in their output arrays. -/
structure OutsOk : Prop where
  o0 : ∀ c : Dev nD, outs 6 main_v11 c = (dat0 (atRefs (V5 m)) (adm0 (V5 m)) c).arrAt 0 (cfg0 (adm0 (V5 m))).N
  o1 : ∀ c : Dev nD, outs 8 main_v13 c = (dat1 (atRefs (V7 m outs)) (adm1 (V7 m outs)) c).arrAt 0 (cfg1 (adm1 (V7 m outs))).N
  o2 : ∀ c : Dev nD, outs 10 main_v15 c = (dat2 (atRefs (V9 m outs)) (adm2 (V9 m outs)) c).arrAt 0 (cfg2 (adm2 (V9 m outs))).N
  o3 : ∀ c : Dev nD, outs 12 main_v17 c = (dat3 (atRefs (V11 m outs)) (adm3 (V11 m outs)) c).arrAt 0 (cfg3 (adm3 (V11 m outs))).N
  o4 : ∀ c : Dev nD, outs 14 main_v19 c = (dat4 (atRefs (V13 m outs)) c).arrAt 2 cfg4.N

end AtRun

end Cert.Kernel.Fr

end
-- ==== Proof.B.Fr.Obl0.lean ====
/- Region 0's body obligation, from the gather body's triple (a hypothesis here: `Triple0`). -/
import proofs.«407213_j20864951124667_1_alg».proof.Proof.B.Fr.Dat0

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 0: the body obligation -/

section Obl0

variable (V : (c : Dev nD) → (b : Ref sig .tc) → Buf (Elt F) ((c : Thread nD τ).loc b)) (a : (pcfg0 (F := F)).Adm)

/-- The output window's current staging memref at point `t`. -/
abbrev st0_0 (t : Fin (cfg0 a).N) := ((cfg0 a).win 0).stage ((cfg0 a).slots t 0)

/-- The kernel body at point `t`, on what the pipeline calls it with. -/
abbrev bodyAt0 (t : Fin (cfg0 a).N) : Prog (TpuEff nD τ sig (Elt F) Λ₀ .tc) PUnit :=
  cc0__gather_kernel (grid0.coords t) (Memref.whole main_v10) (Memref.isWhole_whole _) (Memref.whole main_arg2) (Memref.isWhole_whole _)
    (spec0_0.stage ((cfg0 a).slots t 0)) (hstage0_0 (((cfg0 a).slots t 0).cast nbuf0_0)) cc0_scratch0

/-- The gather body's triple in the form the region consumes it: on the table of row numbers and the stacked tables held whole
    (at contents `tbl`, `emb`, every row number the point reads in range), the output block at anything, the body's 26 cells at
    zero and the core owing nothing, the body runs to the continuation holding them as they were and the output block at the
    gathered rows. -/
def Triple0 : Prop :=
  ∀ (c : Dev nD) (i : grid0.Coords) (arg3 : Memref sig .tc .vmem S1x26x64 .f32) (harg3 : arg3.IsWhole)
    (tbl : Vec F S4096x26 .i32) (emb : Vec F S26x131073x64 .f32)
    (hrange : ∀ f : Fin 26, (tbl (ValueIdx.ix2 (⟨(i 0).val, (i 0).isLt⟩ : Fin 4096) f)).toNat < 131073)
    (W : Waits sig Unit) (K : PUnit → sProp 𝕄),
    iprop(owns (c : Thread nD τ) (Memref.whole main_v10) fullShare tbl ∗ owns (c : Thread nD τ) (Memref.whole main_arg2) fullShare emb
        ∗ (∃ d, owns (c : Thread nD τ) arg3 fullShare d)
        ∗ Pipeline.ownSems0 (Ix := Unit) (Name := ℕ) (U := Pipeline.UD sig nD τ) (Lvl := ℕ) (Val := Elt F) (τ := τ) Gather0.osem c
        ∗ owes (c : Thread nD τ) 0 W
        ∗ (iprop(owns (c : Thread nD τ) (Memref.whole main_v10) fullShare tbl ∗ owns (c : Thread nD τ) (Memref.whole main_arg2) fullShare emb
            ∗ owns (c : Thread nD τ) arg3 fullShare (Gather0.gatherBlk tbl emb i)
            ∗ Pipeline.ownSems0 (Ix := Unit) (Name := ℕ) (U := Pipeline.UD sig nD τ) (Lvl := ℕ) (Val := Elt F) (τ := τ) Gather0.osem c
            ∗ (∃ W', owes (c : Thread nD τ) 0 W')) -∗ K ⟨⟩))
      ⊢ wp frame (wpE (defs₀ (F := F)) Variants.none c none) Set.univ
          (cc0__gather_kernel i (Memref.whole main_v10) (Memref.isWhole_whole _) (Memref.whole main_arg2) (Memref.isWhole_whole _) arg3 harg3 cc0_scratch0) K

def bodyPre0 (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d)))

def bodyPost0 (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t))

theorem sound_body0 (hG : Triple0 (F := F)) (c : Dev nD) (hpf : a.1 0 = V c main_v10)
    (hrng : ∀ (r : Fin 4096) (f : Fin 26), (tbl0 V c (ValueIdx.ix2 r f)).toNat < 131073) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  rw [Phi_eq0, Phi_eq0, after0_0]
  unfold Phi0
  rw [Pipeline.ΦD_eq, hbm0_eq, pref0_eq, hpf]
  unfold Dat.owesAt Pipeline.owesWithin
  rw [owed_eq0, owed_eq0]
  iintro ⟨⟨⟨HS, Hg, Hq, Hh⟩, Ht⟩, ⟨%W, -, HW⟩, ⟨%d0, H0⟩⟩
  iapply (hG c (grid0.coords t) _ _ (tbl0 V c) (emb0 V c) (fun f => hrng _ f) W _)
  isplitl [Ht]; · iexact Ht
  isplitl [Hh]; · iexact Hh
  isplitl [H0]; · iexists _; iexact H0
  isplitl [Hq]; · iexact Hq
  isplitl [HW]; · iexact HW
  iintro ⟨Ht, Hh, H0, Hq, ⟨%W', HW'⟩⟩
  isplitl [HS Hg Hq Hh Ht]
  · isplitr [Ht]
    · isplitl [HS]; · iexact HS
      isplitl [Hg]; · iexact Hg
      isplitl [Hq]; · iexact Hq
      iexact Hh
    · iexact Ht
  isplitl [HW']
  · iexists W'; isplitr; · ipureintro; exact fun _ _ => Or.inl trivial
    iexact HW'
  iexact H0

theorem body_obligation0 (hG : Triple0 (F := F)) (c : Dev nD) (hpf : a.1 0 = V c main_v10)
    (hrng : ∀ (r : Fin 4096) (f : Fin 26), (tbl0 V c (ValueIdx.ix2 r f)).toNat < 131073) :
    BodyObligation (dat0 (F := F) V a c) (defs₀ (F := F)) Variants.none () Set.univ := fun t => by
  rw [bigSep_W0, bigSep_W0]
  exact sound_body0 V a hG c hpf hrng t

end Obl0

end Cert.Kernel.Fr

end
-- ==== Proof.B.Fr.Reg0.lean ====
/- Region 0 as a segment of the run: entered from the contents before it, left at the contents after it. -/
import proofs.«407213_j20864951124667_1_alg».proof.Proof.B.Fr.Family
import proofs.«407213_j20864951124667_1_alg».proof.Proof.B.Fr.Obl0
import Idealize.ShloMosaic.Lib.Pipeline.RegionsLoop

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 0 as a segment -/

section Reg0

variable (m : (ℓ : Loc nD τ sig) → Buf (Elt F) ℓ) (outs : Outs (F := F))

theorem hF0 (hok : OutsOk m outs) (c : Dev nD) (w : Fin (cfg0 (admM m outs 0)).W) :
    (pdatsM m outs 0 c).arrAt w (cfg0 (admM m outs 0)).N = atRefs (V6 m outs) c (Pipeline.arrRef spec0 w) :=
  match w with
  | ⟨0, _⟩ => by
    show _ = V6 m outs c main_v11
    simp only [Function.update_self]
    exact (hok.o0 c).symm
theorem hrest0 (c : Dev nD) : ∀ b, b ∉ Finset.univ.image (Pipeline.arrRef spec0) → atRefs (V6 m outs) c b = atRefs (V5 m) c b :=
  fun b hb => V6_of m outs c b fun h => hb (Finset.mem_image.mpr ⟨0, Finset.mem_univ _, (List.mem_singleton.mp h).symm⟩)

/-- `rest0_split` and `pref0_eq` in the spelling the library's pinned configuration gives them. -/
theorem rest0_pin (c : Dev nD) (W : (b : Ref sig .tc) → Buf (Elt F) ((c : Thread nD τ).loc b)) :
    (Pipeline.unscopedRest (Ix := Unit) (Name := ℕ) (U := Pipeline.UD sig nD τ) (Lvl := ℕ) (Pipeline.pin (pcfgs (F := F)) (admM m outs) 0).spec c W : sProp 𝕄)
      = iprop((owns (c : Thread nD τ) (Memref.whole main_v10) fullShare (W main_v10) ∗ owns (c : Thread nD τ) (Memref.whole main_arg2) fullShare (W main_arg2))
          ∗ bigSep (Pipeline.restRefs sig spec0 \ HT0) fun b => ((c : Thread nD τ).loc b) ↦{fullShare} W b) :=
  rest0_split c W
theorem pref0_pin (c : Dev nD) :
    (Pipeline.prefHeld (Ix := Unit) (Name := ℕ) (U := Pipeline.UD sig nD τ) (Lvl := ℕ) (pcfgs (F := F) 0).pre c (fun _ => fullShare) (admM m outs 0).1 : sProp 𝕄)
      = owns (c : Thread nD τ) (Memref.whole main_v10) fullShare (tbl0 (atRefs (V5 m)) c) :=
  (pref0_eq (admM m outs 0) c).trans (congrArg (owns (c : Thread nD τ) (Memref.whole main_v10) fullShare) (adm0_pf (V5 m) c))

theorem ownSemFacts0 : Pipeline.OwnSemFacts spec0 Gather0.osem := by decide

set_option backward.isDefEq.respectTransparency.types false in
def reg0 (hG : Triple0 (F := F)) (hok : OutsOk m outs)
    (hrng : ∀ (c : Dev nD) (r : Fin 4096) (f : Fin 26), (tbl0 (atRefs (V5 m)) c (ValueIdx.ix2 r f)).toNat < 131073) :
    Pipeline.RegionSeg (pcfgs (F := F)) (admM m outs) (pdatsM m outs) () defs₀ 𝒱₀ L lv 0 where
  win := (launch0 (F := F)).win.to₀
  block_pos := (launch0 (F := F)).block_pos
  stage_whole := (launch0 (F := F)).stage_whole
  K := Fin 26
  osem := Gather0.osem
  ho := ownSemFacts0
  hbody c := (body_obligation0 (atRefs (V5 m)) (admM m outs 0) hG c (adm0_pf (V5 m) c) (hrng c)).loose
  hwaits := Pipeline.hwaits_of_owed_zero _ _ _ _ L lv 0 fun _ _ => rfl
  pre c := iprop(StableHlo.held (c : Thread nD τ) (Pipeline.ucRefs τ sig) (V5 m c) ∗ Rst c)
  post c := iprop(StableHlo.held (c : Thread nD τ) (Pipeline.ucRefs τ sig) (V6 m outs c) ∗ Rst c)
  X c := iprop((∃ r, prngReg c r) ∗ Pipeline.ownSems0 (Ix := Unit) (Name := ℕ) (U := Pipeline.UD sig nD τ) (Lvl := ℕ) (Val := Elt F) (τ := τ) Gather0.osem c
    ∗ owns (c : Thread nD τ) (Memref.whole main_arg2) fullShare (emb0 (atRefs (V5 m)) c))
  Y c := iprop((∃ r, prngReg c r) ∗ owns (c : Thread nD τ) (Memref.whole main_arg2) fullShare (emb0 (atRefs (V5 m)) c)
    ∗ owns (c : Thread nD τ) (Memref.whole main_v10) fullShare (tbl0 (atRefs (V5 m)) c))
  Z c := bigSep (Pipeline.restRefs sig spec0 \ HT0) fun b => ((c : Thread nD τ).loc b) ↦{fullShare} atRefs (V5 m) c b
  hentry c := by
    have hsplit := Pipeline.arrays_of_unscopedBufs (p := 0) (pcfgs (F := F)) (admM m outs) (pdatsM m outs) (launch0 (F := F)).win (launch0 (F := F)).arr_whole c
      ((pdatsM m outs 0 c).share_full fun _ => rfl) (atRefs (V5 m) c) fun _ => rfl
    rw [Pipeline.unscopedBufs_held, rest0_pin] at hsplit
    rw [pref0_pin]
    iintro ⟨⟨Hub, Hp, HO⟩, Hsem, -⟩
    ihave H := hsplit $$ Hub
    icases H with ⟨Ha, ⟨Ht, Hh⟩, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hsem Hh]
    · isplitl [Hp]; · iexact Hp
      isplitl [Hsem]; · iexact Hsem
      iexact Hh
    iexact Hrest
  hin c := by
    rw [show (pdatsM m outs 0 c).Φ 0 = Phi0 (atRefs (V5 m)) (admM m outs 0) c from rfl]
    unfold Phi0; rw [Pipeline.ΦD_eq, hbm0_eq]
    iintro ⟨⟨Hp, Hs, Hh⟩, Ht, Hr⟩
    isplitr [Ht]
    · isplitl [Hr]; · iexact Hr
      isplitl [Hp]; · iexact Hp
      isplitl [Hs]; · iexact Hs
      iexact Hh
    iexact Ht
  hout c := by
    rw [show (pdatsM m outs 0 c).Φ (Fin.last _) = Phi0 (atRefs (V5 m)) (admM m outs 0) c from rfl]
    unfold Phi0; rw [Pipeline.ΦD_eq, hbm0_eq, pref0_eq, show (admM m outs 0).1 0 = tbl0 (atRefs (V5 m)) c from adm0_pf (V5 m) c]
    iintro ⟨⟨Hr, Hp, Hs, Hh⟩, Ht⟩
    isplitl [Hp Hh Ht]
    · isplitl [Hp]; · iexact Hp
      isplitl [Hh]; · iexact Hh
      iexact Ht
    isplitl [Hs]; · iexact Hs
    iexact Hr
  hexit c := by
    have hjoin := Pipeline.unscopedBufs_of_arrays (p := 0) (pcfgs (F := F)) (admM m outs) (Ix := Unit) (Name := ℕ) (U := Pipeline.UD sig nD τ) (Lvl := ℕ)
      (launch0 (F := F)).win (launch0 (F := F)).arr_whole c (pdatsM m outs) ((pdatsM m outs 0 c).share_full fun _ => rfl)
      (atRefs (V5 m) c) (atRefs (V6 m outs) c) ((pdatsM m outs 0 c).arrAt · (cfg0 (admM m outs 0)).N) (hF0 m outs hok c) (hrest0 m outs c)
    rw [Pipeline.unscopedBufs_held, rest0_pin] at hjoin
    iintro ⟨Ha, HO, ⟨Hp, Hh, Ht⟩, Hrest⟩
    imodintro
    isplitl [Ha Hrest Hh Ht]
    · iapply hjoin
      isplitl [Ha]; · iexact Ha
      isplitl [Ht Hh]
      · isplitl [Ht]; · iexact Ht
        iexact Hh
      iexact Hrest
    isplitl [Hp]; · iexact Hp
    unfold Pipeline.Dat.owesAt Pipeline.owesWithin
    icases HO with ⟨%W, -, HO⟩; iexists W; iexact HO

end Reg0

end Cert.Kernel.Fr

end
-- ==== Proof.B.Fr.Obl1.lean ====
/- Region 1's body obligation, from the gather body's triple (a hypothesis here: `Triple1`). -/
import proofs.«407213_j20864951124667_1_alg».proof.Proof.B.Fr.Dat1

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1: the body obligation -/

section Obl1

variable (V : (c : Dev nD) → (b : Ref sig .tc) → Buf (Elt F) ((c : Thread nD τ).loc b)) (a : (pcfg1 (F := F)).Adm)

/-- The output window's current staging memref at point `t`. -/
abbrev st1_0 (t : Fin (cfg1 a).N) := ((cfg1 a).win 0).stage ((cfg1 a).slots t 0)

/-- The kernel body at point `t`, on what the pipeline calls it with. -/
abbrev bodyAt1 (t : Fin (cfg1 a).N) : Prog (TpuEff nD τ sig (Elt F) Λ₀ .tc) PUnit :=
  cc1__gather_kernel (grid1.coords t) (Memref.whole main_v12) (Memref.isWhole_whole _) (Memref.whole main_arg2) (Memref.isWhole_whole _)
    (spec1_0.stage ((cfg1 a).slots t 0)) (hstage1_0 (((cfg1 a).slots t 0).cast nbuf1_0)) cc1_scratch0

/-- The gather body's triple in the form the region consumes it: on the table of row numbers and the stacked tables held whole
    (at contents `tbl`, `emb`, every row number the point reads in range), the output block at anything, the body's 26 cells at
    zero and the core owing nothing, the body runs to the continuation holding them as they were and the output block at the
    gathered rows. -/
def Triple1 : Prop :=
  ∀ (c : Dev nD) (i : grid1.Coords) (arg3 : Memref sig .tc .vmem S1x26x64 .f32) (harg3 : arg3.IsWhole)
    (tbl : Vec F S4096x26 .i32) (emb : Vec F S26x131073x64 .f32)
    (hrange : ∀ f : Fin 26, (tbl (ValueIdx.ix2 (⟨(i 0).val, (i 0).isLt⟩ : Fin 4096) f)).toNat < 131073)
    (W : Waits sig Unit) (K : PUnit → sProp 𝕄),
    iprop(owns (c : Thread nD τ) (Memref.whole main_v12) fullShare tbl ∗ owns (c : Thread nD τ) (Memref.whole main_arg2) fullShare emb
        ∗ (∃ d, owns (c : Thread nD τ) arg3 fullShare d)
        ∗ Pipeline.ownSems0 (Ix := Unit) (Name := ℕ) (U := Pipeline.UD sig nD τ) (Lvl := ℕ) (Val := Elt F) (τ := τ) Gather1.osem c
        ∗ owes (c : Thread nD τ) 0 W
        ∗ (iprop(owns (c : Thread nD τ) (Memref.whole main_v12) fullShare tbl ∗ owns (c : Thread nD τ) (Memref.whole main_arg2) fullShare emb
            ∗ owns (c : Thread nD τ) arg3 fullShare (Gather1.gatherBlk tbl emb i)
            ∗ Pipeline.ownSems0 (Ix := Unit) (Name := ℕ) (U := Pipeline.UD sig nD τ) (Lvl := ℕ) (Val := Elt F) (τ := τ) Gather1.osem c
            ∗ (∃ W', owes (c : Thread nD τ) 0 W')) -∗ K ⟨⟩))
      ⊢ wp frame (wpE (defs₀ (F := F)) Variants.none c none) Set.univ
          (cc1__gather_kernel i (Memref.whole main_v12) (Memref.isWhole_whole _) (Memref.whole main_arg2) (Memref.isWhole_whole _) arg3 harg3 cc1_scratch0) K

def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d)))

def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t))

theorem sound_body1 (hG : Triple1 (F := F)) (c : Dev nD) (hpf : a.1 0 = V c main_v12)
    (hrng : ∀ (r : Fin 4096) (f : Fin 26), (tbl1 V c (ValueIdx.ix2 r f)).toNat < 131073) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  rw [Phi_eq1, Phi_eq1, after1_0]
  unfold Phi1
  rw [Pipeline.ΦD_eq, hbm1_eq, pref1_eq, hpf]
  unfold Dat.owesAt Pipeline.owesWithin
  rw [owed_eq1, owed_eq1]
  iintro ⟨⟨⟨HS, Hg, Hq, Hh⟩, Ht⟩, ⟨%W, -, HW⟩, ⟨%d0, H1⟩⟩
  iapply (hG c (grid1.coords t) _ _ (tbl1 V c) (emb1 V c) (fun f => hrng _ f) W _)
  isplitl [Ht]; · iexact Ht
  isplitl [Hh]; · iexact Hh
  isplitl [H1]; · iexists _; iexact H1
  isplitl [Hq]; · iexact Hq
  isplitl [HW]; · iexact HW
  iintro ⟨Ht, Hh, H1, Hq, ⟨%W', HW'⟩⟩
  isplitl [HS Hg Hq Hh Ht]
  · isplitr [Ht]
    · isplitl [HS]; · iexact HS
      isplitl [Hg]; · iexact Hg
      isplitl [Hq]; · iexact Hq
      iexact Hh
    · iexact Ht
  isplitl [HW']
  · iexists W'; isplitr; · ipureintro; exact fun _ _ => Or.inl trivial
    iexact HW'
  iexact H1

theorem body_obligation1 (hG : Triple1 (F := F)) (c : Dev nD) (hpf : a.1 0 = V c main_v12)
    (hrng : ∀ (r : Fin 4096) (f : Fin 26), (tbl1 V c (ValueIdx.ix2 r f)).toNat < 131073) :
    BodyObligation (dat1 (F := F) V a c) (defs₀ (F := F)) Variants.none () Set.univ := fun t => by
  rw [bigSep_W1, bigSep_W1]
  exact sound_body1 V a hG c hpf hrng t

end Obl1

end Cert.Kernel.Fr

end
-- ==== Proof.B.Fr.Reg1.lean ====
/- Region 1 as a segment of the run: entered from the contents before it, left at the contents after it. -/
import proofs.«407213_j20864951124667_1_alg».proof.Proof.B.Fr.Family
import proofs.«407213_j20864951124667_1_alg».proof.Proof.B.Fr.Obl1
import Idealize.ShloMosaic.Lib.Pipeline.RegionsLoop

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1 as a segment -/

section Reg1

variable (m : (ℓ : Loc nD τ sig) → Buf (Elt F) ℓ) (outs : Outs (F := F))

theorem hF1 (hok : OutsOk m outs) (c : Dev nD) (w : Fin (cfg1 (admM m outs 1)).W) :
    (pdatsM m outs 1 c).arrAt w (cfg1 (admM m outs 1)).N = atRefs (V8 m outs) c (Pipeline.arrRef spec1 w) :=
  match w with
  | ⟨0, _⟩ => by
    show _ = V8 m outs c main_v13
    simp only [Function.update_self]
    exact (hok.o1 c).symm
theorem hrest1 (c : Dev nD) : ∀ b, b ∉ Finset.univ.image (Pipeline.arrRef spec1) → atRefs (V8 m outs) c b = atRefs (V7 m outs) c b :=
  fun b hb => V8_of m outs c b fun h => hb (Finset.mem_image.mpr ⟨0, Finset.mem_univ _, (List.mem_singleton.mp h).symm⟩)

/-- `rest1_split` and `pref1_eq` in the spelling the library's pinned configuration gives them. -/
theorem rest1_pin (c : Dev nD) (W : (b : Ref sig .tc) → Buf (Elt F) ((c : Thread nD τ).loc b)) :
    (Pipeline.unscopedRest (Ix := Unit) (Name := ℕ) (U := Pipeline.UD sig nD τ) (Lvl := ℕ) (Pipeline.pin (pcfgs (F := F)) (admM m outs) 1).spec c W : sProp 𝕄)
      = iprop((owns (c : Thread nD τ) (Memref.whole main_v12) fullShare (W main_v12) ∗ owns (c : Thread nD τ) (Memref.whole main_arg2) fullShare (W main_arg2))
          ∗ bigSep (Pipeline.restRefs sig spec1 \ HT1) fun b => ((c : Thread nD τ).loc b) ↦{fullShare} W b) :=
  rest1_split c W
theorem pref1_pin (c : Dev nD) :
    (Pipeline.prefHeld (Ix := Unit) (Name := ℕ) (U := Pipeline.UD sig nD τ) (Lvl := ℕ) (pcfgs (F := F) 1).pre c (fun _ => fullShare) (admM m outs 1).1 : sProp 𝕄)
      = owns (c : Thread nD τ) (Memref.whole main_v12) fullShare (tbl1 (atRefs (V7 m outs)) c) :=
  (pref1_eq (admM m outs 1) c).trans (congrArg (owns (c : Thread nD τ) (Memref.whole main_v12) fullShare) (adm1_pf (V7 m outs) c))

theorem ownSemFacts1 : Pipeline.OwnSemFacts spec1 Gather1.osem := by decide

set_option backward.isDefEq.respectTransparency.types false in
def reg1 (hG : Triple1 (F := F)) (hok : OutsOk m outs)
    (hrng : ∀ (c : Dev nD) (r : Fin 4096) (f : Fin 26), (tbl1 (atRefs (V7 m outs)) c (ValueIdx.ix2 r f)).toNat < 131073) :
    Pipeline.RegionSeg (pcfgs (F := F)) (admM m outs) (pdatsM m outs) () defs₀ 𝒱₀ L lv 1 where
  win := (launch1 (F := F)).win.to₀
  block_pos := (launch1 (F := F)).block_pos
  stage_whole := (launch1 (F := F)).stage_whole
  K := Fin 26
  osem := Gather1.osem
  ho := ownSemFacts1
  hbody c := (body_obligation1 (atRefs (V7 m outs)) (admM m outs 1) hG c (adm1_pf (V7 m outs) c) (hrng c)).loose
  hwaits := Pipeline.hwaits_of_owed_zero _ _ _ _ L lv 1 fun _ _ => rfl
  pre c := iprop(StableHlo.held (c : Thread nD τ) (Pipeline.ucRefs τ sig) (V7 m outs c) ∗ Rst c)
  post c := iprop(StableHlo.held (c : Thread nD τ) (Pipeline.ucRefs τ sig) (V8 m outs c) ∗ Rst c)
  X c := iprop((∃ r, prngReg c r) ∗ Pipeline.ownSems0 (Ix := Unit) (Name := ℕ) (U := Pipeline.UD sig nD τ) (Lvl := ℕ) (Val := Elt F) (τ := τ) Gather1.osem c
    ∗ owns (c : Thread nD τ) (Memref.whole main_arg2) fullShare (emb1 (atRefs (V7 m outs)) c))
  Y c := iprop((∃ r, prngReg c r) ∗ owns (c : Thread nD τ) (Memref.whole main_arg2) fullShare (emb1 (atRefs (V7 m outs)) c)
    ∗ owns (c : Thread nD τ) (Memref.whole main_v12) fullShare (tbl1 (atRefs (V7 m outs)) c))
  Z c := bigSep (Pipeline.restRefs sig spec1 \ HT1) fun b => ((c : Thread nD τ).loc b) ↦{fullShare} atRefs (V7 m outs) c b
  hentry c := by
    have hsplit := Pipeline.arrays_of_unscopedBufs (p := 1) (pcfgs (F := F)) (admM m outs) (pdatsM m outs) (launch1 (F := F)).win (launch1 (F := F)).arr_whole c
      ((pdatsM m outs 1 c).share_full fun _ => rfl) (atRefs (V7 m outs) c) fun _ => rfl
    rw [Pipeline.unscopedBufs_held, rest1_pin] at hsplit
    rw [pref1_pin]
    iintro ⟨⟨Hub, Hp, HO⟩, Hsem, -⟩
    ihave H := hsplit $$ Hub
    icases H with ⟨Ha, ⟨Ht, Hh⟩, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hsem Hh]
    · isplitl [Hp]; · iexact Hp
      isplitl [Hsem]; · iexact Hsem
      iexact Hh
    iexact Hrest
  hin c := by
    rw [show (pdatsM m outs 1 c).Φ 0 = Phi1 (atRefs (V7 m outs)) (admM m outs 1) c from rfl]
    unfold Phi1; rw [Pipeline.ΦD_eq, hbm1_eq]
    iintro ⟨⟨Hp, Hs, Hh⟩, Ht, Hr⟩
    isplitr [Ht]
    · isplitl [Hr]; · iexact Hr
      isplitl [Hp]; · iexact Hp
      isplitl [Hs]; · iexact Hs
      iexact Hh
    iexact Ht
  hout c := by
    rw [show (pdatsM m outs 1 c).Φ (Fin.last _) = Phi1 (atRefs (V7 m outs)) (admM m outs 1) c from rfl]
    unfold Phi1; rw [Pipeline.ΦD_eq, hbm1_eq, pref1_eq, show (admM m outs 1).1 0 = tbl1 (atRefs (V7 m outs)) c from adm1_pf (V7 m outs) c]
    iintro ⟨⟨Hr, Hp, Hs, Hh⟩, Ht⟩
    isplitl [Hp Hh Ht]
    · isplitl [Hp]; · iexact Hp
      isplitl [Hh]; · iexact Hh
      iexact Ht
    isplitl [Hs]; · iexact Hs
    iexact Hr
  hexit c := by
    have hjoin := Pipeline.unscopedBufs_of_arrays (p := 1) (pcfgs (F := F)) (admM m outs) (Ix := Unit) (Name := ℕ) (U := Pipeline.UD sig nD τ) (Lvl := ℕ)
      (launch1 (F := F)).win (launch1 (F := F)).arr_whole c (pdatsM m outs) ((pdatsM m outs 1 c).share_full fun _ => rfl)
      (atRefs (V7 m outs) c) (atRefs (V8 m outs) c) ((pdatsM m outs 1 c).arrAt · (cfg1 (admM m outs 1)).N) (hF1 m outs hok c) (hrest1 m outs c)
    rw [Pipeline.unscopedBufs_held, rest1_pin] at hjoin
    iintro ⟨Ha, HO, ⟨Hp, Hh, Ht⟩, Hrest⟩
    imodintro
    isplitl [Ha Hrest Hh Ht]
    · iapply hjoin
      isplitl [Ha]; · iexact Ha
      isplitl [Ht Hh]
      · isplitl [Ht]; · iexact Ht
        iexact Hh
      iexact Hrest
    isplitl [Hp]; · iexact Hp
    unfold Pipeline.Dat.owesAt Pipeline.owesWithin
    icases HO with ⟨%W, -, HO⟩; iexists W; iexact HO

end Reg1

end Cert.Kernel.Fr

end
-- ==== Proof.B.Fr.Obl2.lean ====
/- Region 2's body obligation, from the gather body's triple (a hypothesis here: `Triple2`). -/
import proofs.«407213_j20864951124667_1_alg».proof.Proof.B.Fr.Dat2

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 2: the body obligation -/

section Obl2

variable (V : (c : Dev nD) → (b : Ref sig .tc) → Buf (Elt F) ((c : Thread nD τ).loc b)) (a : (pcfg2 (F := F)).Adm)

/-- The output window's current staging memref at point `t`. -/
abbrev st2_0 (t : Fin (cfg2 a).N) := ((cfg2 a).win 0).stage ((cfg2 a).slots t 0)

/-- The kernel body at point `t`, on what the pipeline calls it with. -/
abbrev bodyAt2 (t : Fin (cfg2 a).N) : Prog (TpuEff nD τ sig (Elt F) Λ₀ .tc) PUnit :=
  cc2__gather_kernel (grid2.coords t) (Memref.whole main_v14) (Memref.isWhole_whole _) (Memref.whole main_arg2) (Memref.isWhole_whole _)
    (spec2_0.stage ((cfg2 a).slots t 0)) (hstage2_0 (((cfg2 a).slots t 0).cast nbuf2_0)) cc2_scratch0

/-- The gather body's triple in the form the region consumes it: on the table of row numbers and the stacked tables held whole
    (at contents `tbl`, `emb`, every row number the point reads in range), the output block at anything, the body's 26 cells at
    zero and the core owing nothing, the body runs to the continuation holding them as they were and the output block at the
    gathered rows. -/
def Triple2 : Prop :=
  ∀ (c : Dev nD) (i : grid2.Coords) (arg3 : Memref sig .tc .vmem S1x26x64 .f32) (harg3 : arg3.IsWhole)
    (tbl : Vec F S4096x26 .i32) (emb : Vec F S26x131073x64 .f32)
    (hrange : ∀ f : Fin 26, (tbl (ValueIdx.ix2 (⟨(i 0).val, (i 0).isLt⟩ : Fin 4096) f)).toNat < 131073)
    (W : Waits sig Unit) (K : PUnit → sProp 𝕄),
    iprop(owns (c : Thread nD τ) (Memref.whole main_v14) fullShare tbl ∗ owns (c : Thread nD τ) (Memref.whole main_arg2) fullShare emb
        ∗ (∃ d, owns (c : Thread nD τ) arg3 fullShare d)
        ∗ Pipeline.ownSems0 (Ix := Unit) (Name := ℕ) (U := Pipeline.UD sig nD τ) (Lvl := ℕ) (Val := Elt F) (τ := τ) Gather2.osem c
        ∗ owes (c : Thread nD τ) 0 W
        ∗ (iprop(owns (c : Thread nD τ) (Memref.whole main_v14) fullShare tbl ∗ owns (c : Thread nD τ) (Memref.whole main_arg2) fullShare emb
            ∗ owns (c : Thread nD τ) arg3 fullShare (Gather2.gatherBlk tbl emb i)
            ∗ Pipeline.ownSems0 (Ix := Unit) (Name := ℕ) (U := Pipeline.UD sig nD τ) (Lvl := ℕ) (Val := Elt F) (τ := τ) Gather2.osem c
            ∗ (∃ W', owes (c : Thread nD τ) 0 W')) -∗ K ⟨⟩))
      ⊢ wp frame (wpE (defs₀ (F := F)) Variants.none c none) Set.univ
          (cc2__gather_kernel i (Memref.whole main_v14) (Memref.isWhole_whole _) (Memref.whole main_arg2) (Memref.isWhole_whole _) arg3 harg3 cc2_scratch0) K

def bodyPre2 (c : Dev nD) (t : Fin (cfg2 a).N) : sProp 𝕄 :=
  iprop((dat2 V a c).Φ t.castSucc ∗ (dat2 V a c).owesAt () t.castSucc
    ∗ (∃ d, owns (c : Thread nD τ) (st2_0 a t) fullShare ((dat2 V a c).before 0 t d)))

def bodyPost2 (c : Dev nD) (t : Fin (cfg2 a).N) : sProp 𝕄 :=
  iprop((dat2 V a c).Φ t.succ ∗ (dat2 V a c).owesAt () t.succ
    ∗ owns (c : Thread nD τ) (st2_0 a t) fullShare ((dat2 V a c).after 0 t))

theorem sound_body2 (hG : Triple2 (F := F)) (c : Dev nD) (hpf : a.1 0 = V c main_v14)
    (hrng : ∀ (r : Fin 4096) (f : Fin 26), (tbl2 V c (ValueIdx.ix2 r f)).toNat < 131073) (t : Fin (cfg2 a).N) :
    bodyPre2 V a c t ⊢ wp frame (wpE (defs₀ (F := F)) Variants.none c none) Set.univ (bodyAt2 a t) (fun _ => bodyPost2 V a c t) := by
  unfold bodyPre2 bodyPost2 bodyAt2
  rw [Phi_eq2, Phi_eq2, after2_0]
  unfold Phi2
  rw [Pipeline.ΦD_eq, hbm2_eq, pref2_eq, hpf]
  unfold Dat.owesAt Pipeline.owesWithin
  rw [owed_eq2, owed_eq2]
  iintro ⟨⟨⟨HS, Hg, Hq, Hh⟩, Ht⟩, ⟨%W, -, HW⟩, ⟨%d0, H2⟩⟩
  iapply (hG c (grid2.coords t) _ _ (tbl2 V c) (emb2 V c) (fun f => hrng _ f) W _)
  isplitl [Ht]; · iexact Ht
  isplitl [Hh]; · iexact Hh
  isplitl [H2]; · iexists _; iexact H2
  isplitl [Hq]; · iexact Hq
  isplitl [HW]; · iexact HW
  iintro ⟨Ht, Hh, H2, Hq, ⟨%W', HW'⟩⟩
  isplitl [HS Hg Hq Hh Ht]
  · isplitr [Ht]
    · isplitl [HS]; · iexact HS
      isplitl [Hg]; · iexact Hg
      isplitl [Hq]; · iexact Hq
      iexact Hh
    · iexact Ht
  isplitl [HW']
  · iexists W'; isplitr; · ipureintro; exact fun _ _ => Or.inl trivial
    iexact HW'
  iexact H2

theorem body_obligation2 (hG : Triple2 (F := F)) (c : Dev nD) (hpf : a.1 0 = V c main_v14)
    (hrng : ∀ (r : Fin 4096) (f : Fin 26), (tbl2 V c (ValueIdx.ix2 r f)).toNat < 131073) :
    BodyObligation (dat2 (F := F) V a c) (defs₀ (F := F)) Variants.none () Set.univ := fun t => by
  rw [bigSep_W2, bigSep_W2]
  exact sound_body2 V a hG c hpf hrng t

end Obl2

end Cert.Kernel.Fr

end
-- ==== Proof.B.Fr.Reg2.lean ====
/- Region 2 as a segment of the run: entered from the contents before it, left at the contents after it. -/
import proofs.«407213_j20864951124667_1_alg».proof.Proof.B.Fr.Family
import proofs.«407213_j20864951124667_1_alg».proof.Proof.B.Fr.Obl2
import Idealize.ShloMosaic.Lib.Pipeline.RegionsLoop

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 2 as a segment -/

section Reg2

variable (m : (ℓ : Loc nD τ sig) → Buf (Elt F) ℓ) (outs : Outs (F := F))

theorem hF2 (hok : OutsOk m outs) (c : Dev nD) (w : Fin (cfg2 (admM m outs 2)).W) :
    (pdatsM m outs 2 c).arrAt w (cfg2 (admM m outs 2)).N = atRefs (V10 m outs) c (Pipeline.arrRef spec2 w) :=
  match w with
  | ⟨0, _⟩ => by
    show _ = V10 m outs c main_v15
    simp only [Function.update_self]
    exact (hok.o2 c).symm
theorem hrest2 (c : Dev nD) : ∀ b, b ∉ Finset.univ.image (Pipeline.arrRef spec2) → atRefs (V10 m outs) c b = atRefs (V9 m outs) c b :=
  fun b hb => V10_of m outs c b fun h => hb (Finset.mem_image.mpr ⟨0, Finset.mem_univ _, (List.mem_singleton.mp h).symm⟩)

/-- `rest2_split` and `pref2_eq` in the spelling the library's pinned configuration gives them. -/
theorem rest2_pin (c : Dev nD) (W : (b : Ref sig .tc) → Buf (Elt F) ((c : Thread nD τ).loc b)) :
    (Pipeline.unscopedRest (Ix := Unit) (Name := ℕ) (U := Pipeline.UD sig nD τ) (Lvl := ℕ) (Pipeline.pin (pcfgs (F := F)) (admM m outs) 2).spec c W : sProp 𝕄)
      = iprop((owns (c : Thread nD τ) (Memref.whole main_v14) fullShare (W main_v14) ∗ owns (c : Thread nD τ) (Memref.whole main_arg2) fullShare (W main_arg2))
          ∗ bigSep (Pipeline.restRefs sig spec2 \ HT2) fun b => ((c : Thread nD τ).loc b) ↦{fullShare} W b) :=
  rest2_split c W
theorem pref2_pin (c : Dev nD) :
    (Pipeline.prefHeld (Ix := Unit) (Name := ℕ) (U := Pipeline.UD sig nD τ) (Lvl := ℕ) (pcfgs (F := F) 2).pre c (fun _ => fullShare) (admM m outs 2).1 : sProp 𝕄)
      = owns (c : Thread nD τ) (Memref.whole main_v14) fullShare (tbl2 (atRefs (V9 m outs)) c) :=
  (pref2_eq (admM m outs 2) c).trans (congrArg (owns (c : Thread nD τ) (Memref.whole main_v14) fullShare) (adm2_pf (V9 m outs) c))

theorem ownSemFacts2 : Pipeline.OwnSemFacts spec2 Gather2.osem := by decide

set_option backward.isDefEq.respectTransparency.types false in
def reg2 (hG : Triple2 (F := F)) (hok : OutsOk m outs)
    (hrng : ∀ (c : Dev nD) (r : Fin 4096) (f : Fin 26), (tbl2 (atRefs (V9 m outs)) c (ValueIdx.ix2 r f)).toNat < 131073) :
    Pipeline.RegionSeg (pcfgs (F := F)) (admM m outs) (pdatsM m outs) () defs₀ 𝒱₀ L lv 2 where
  win := (launch2 (F := F)).win.to₀
  block_pos := (launch2 (F := F)).block_pos
  stage_whole := (launch2 (F := F)).stage_whole
  K := Fin 26
  osem := Gather2.osem
  ho := ownSemFacts2
  hbody c := (body_obligation2 (atRefs (V9 m outs)) (admM m outs 2) hG c (adm2_pf (V9 m outs) c) (hrng c)).loose
  hwaits := Pipeline.hwaits_of_owed_zero _ _ _ _ L lv 2 fun _ _ => rfl
  pre c := iprop(StableHlo.held (c : Thread nD τ) (Pipeline.ucRefs τ sig) (V9 m outs c) ∗ Rst c)
  post c := iprop(StableHlo.held (c : Thread nD τ) (Pipeline.ucRefs τ sig) (V10 m outs c) ∗ Rst c)
  X c := iprop((∃ r, prngReg c r) ∗ Pipeline.ownSems0 (Ix := Unit) (Name := ℕ) (U := Pipeline.UD sig nD τ) (Lvl := ℕ) (Val := Elt F) (τ := τ) Gather2.osem c
    ∗ owns (c : Thread nD τ) (Memref.whole main_arg2) fullShare (emb2 (atRefs (V9 m outs)) c))
  Y c := iprop((∃ r, prngReg c r) ∗ owns (c : Thread nD τ) (Memref.whole main_arg2) fullShare (emb2 (atRefs (V9 m outs)) c)
    ∗ owns (c : Thread nD τ) (Memref.whole main_v14) fullShare (tbl2 (atRefs (V9 m outs)) c))
  Z c := bigSep (Pipeline.restRefs sig spec2 \ HT2) fun b => ((c : Thread nD τ).loc b) ↦{fullShare} atRefs (V9 m outs) c b
  hentry c := by
    have hsplit := Pipeline.arrays_of_unscopedBufs (p := 2) (pcfgs (F := F)) (admM m outs) (pdatsM m outs) (launch2 (F := F)).win (launch2 (F := F)).arr_whole c
      ((pdatsM m outs 2 c).share_full fun _ => rfl) (atRefs (V9 m outs) c) fun _ => rfl
    rw [Pipeline.unscopedBufs_held, rest2_pin] at hsplit
    rw [pref2_pin]
    iintro ⟨⟨Hub, Hp, HO⟩, Hsem, -⟩
    ihave H := hsplit $$ Hub
    icases H with ⟨Ha, ⟨Ht, Hh⟩, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hsem Hh]
    · isplitl [Hp]; · iexact Hp
      isplitl [Hsem]; · iexact Hsem
      iexact Hh
    iexact Hrest
  hin c := by
    rw [show (pdatsM m outs 2 c).Φ 0 = Phi2 (atRefs (V9 m outs)) (admM m outs 2) c from rfl]
    unfold Phi2; rw [Pipeline.ΦD_eq, hbm2_eq]
    iintro ⟨⟨Hp, Hs, Hh⟩, Ht, Hr⟩
    isplitr [Ht]
    · isplitl [Hr]; · iexact Hr
      isplitl [Hp]; · iexact Hp
      isplitl [Hs]; · iexact Hs
      iexact Hh
    iexact Ht
  hout c := by
    rw [show (pdatsM m outs 2 c).Φ (Fin.last _) = Phi2 (atRefs (V9 m outs)) (admM m outs 2) c from rfl]
    unfold Phi2; rw [Pipeline.ΦD_eq, hbm2_eq, pref2_eq, show (admM m outs 2).1 0 = tbl2 (atRefs (V9 m outs)) c from adm2_pf (V9 m outs) c]
    iintro ⟨⟨Hr, Hp, Hs, Hh⟩, Ht⟩
    isplitl [Hp Hh Ht]
    · isplitl [Hp]; · iexact Hp
      isplitl [Hh]; · iexact Hh
      iexact Ht
    isplitl [Hs]; · iexact Hs
    iexact Hr
  hexit c := by
    have hjoin := Pipeline.unscopedBufs_of_arrays (p := 2) (pcfgs (F := F)) (admM m outs) (Ix := Unit) (Name := ℕ) (U := Pipeline.UD sig nD τ) (Lvl := ℕ)
      (launch2 (F := F)).win (launch2 (F := F)).arr_whole c (pdatsM m outs) ((pdatsM m outs 2 c).share_full fun _ => rfl)
      (atRefs (V9 m outs) c) (atRefs (V10 m outs) c) ((pdatsM m outs 2 c).arrAt · (cfg2 (admM m outs 2)).N) (hF2 m outs hok c) (hrest2 m outs c)
    rw [Pipeline.unscopedBufs_held, rest2_pin] at hjoin
    iintro ⟨Ha, HO, ⟨Hp, Hh, Ht⟩, Hrest⟩
    imodintro
    isplitl [Ha Hrest Hh Ht]
    · iapply hjoin
      isplitl [Ha]; · iexact Ha
      isplitl [Ht Hh]
      · isplitl [Ht]; · iexact Ht
        iexact Hh
      iexact Hrest
    isplitl [Hp]; · iexact Hp
    unfold Pipeline.Dat.owesAt Pipeline.owesWithin
    icases HO with ⟨%W, -, HO⟩; iexists W; iexact HO

end Reg2

end Cert.Kernel.Fr

end
-- ==== Proof.B.Fr.Obl3.lean ====
/- Region 3's body obligation, from the gather body's triple (a hypothesis here: `Triple3`). -/
import proofs.«407213_j20864951124667_1_alg».proof.Proof.B.Fr.Dat3

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 3: the body obligation -/

section Obl3

variable (V : (c : Dev nD) → (b : Ref sig .tc) → Buf (Elt F) ((c : Thread nD τ).loc b)) (a : (pcfg3 (F := F)).Adm)

/-- The output window's current staging memref at point `t`. -/
abbrev st3_0 (t : Fin (cfg3 a).N) := ((cfg3 a).win 0).stage ((cfg3 a).slots t 0)

/-- The kernel body at point `t`, on what the pipeline calls it with. -/
abbrev bodyAt3 (t : Fin (cfg3 a).N) : Prog (TpuEff nD τ sig (Elt F) Λ₀ .tc) PUnit :=
  cc3__gather_kernel (grid3.coords t) (Memref.whole main_v16) (Memref.isWhole_whole _) (Memref.whole main_arg2) (Memref.isWhole_whole _)
    (spec3_0.stage ((cfg3 a).slots t 0)) (hstage3_0 (((cfg3 a).slots t 0).cast nbuf3_0)) cc3_scratch0

/-- The gather body's triple in the form the region consumes it: on the table of row numbers and the stacked tables held whole
    (at contents `tbl`, `emb`, every row number the point reads in range), the output block at anything, the body's 26 cells at
    zero and the core owing nothing, the body runs to the continuation holding them as they were and the output block at the
    gathered rows. -/
def Triple3 : Prop :=
  ∀ (c : Dev nD) (i : grid3.Coords) (arg3 : Memref sig .tc .vmem S1x26x64 .f32) (harg3 : arg3.IsWhole)
    (tbl : Vec F S4096x26 .i32) (emb : Vec F S26x131073x64 .f32)
    (hrange : ∀ f : Fin 26, (tbl (ValueIdx.ix2 (⟨(i 0).val, (i 0).isLt⟩ : Fin 4096) f)).toNat < 131073)
    (W : Waits sig Unit) (K : PUnit → sProp 𝕄),
    iprop(owns (c : Thread nD τ) (Memref.whole main_v16) fullShare tbl ∗ owns (c : Thread nD τ) (Memref.whole main_arg2) fullShare emb
        ∗ (∃ d, owns (c : Thread nD τ) arg3 fullShare d)
        ∗ Pipeline.ownSems0 (Ix := Unit) (Name := ℕ) (U := Pipeline.UD sig nD τ) (Lvl := ℕ) (Val := Elt F) (τ := τ) Gather3.osem c
        ∗ owes (c : Thread nD τ) 0 W
        ∗ (iprop(owns (c : Thread nD τ) (Memref.whole main_v16) fullShare tbl ∗ owns (c : Thread nD τ) (Memref.whole main_arg2) fullShare emb
            ∗ owns (c : Thread nD τ) arg3 fullShare (Gather3.gatherBlk tbl emb i)
            ∗ Pipeline.ownSems0 (Ix := Unit) (Name := ℕ) (U := Pipeline.UD sig nD τ) (Lvl := ℕ) (Val := Elt F) (τ := τ) Gather3.osem c
            ∗ (∃ W', owes (c : Thread nD τ) 0 W')) -∗ K ⟨⟩))
      ⊢ wp frame (wpE (defs₀ (F := F)) Variants.none c none) Set.univ
          (cc3__gather_kernel i (Memref.whole main_v16) (Memref.isWhole_whole _) (Memref.whole main_arg2) (Memref.isWhole_whole _) arg3 harg3 cc3_scratch0) K

def bodyPre3 (c : Dev nD) (t : Fin (cfg3 a).N) : sProp 𝕄 :=
  iprop((dat3 V a c).Φ t.castSucc ∗ (dat3 V a c).owesAt () t.castSucc
    ∗ (∃ d, owns (c : Thread nD τ) (st3_0 a t) fullShare ((dat3 V a c).before 0 t d)))

def bodyPost3 (c : Dev nD) (t : Fin (cfg3 a).N) : sProp 𝕄 :=
  iprop((dat3 V a c).Φ t.succ ∗ (dat3 V a c).owesAt () t.succ
    ∗ owns (c : Thread nD τ) (st3_0 a t) fullShare ((dat3 V a c).after 0 t))

theorem sound_body3 (hG : Triple3 (F := F)) (c : Dev nD) (hpf : a.1 0 = V c main_v16)
    (hrng : ∀ (r : Fin 4096) (f : Fin 26), (tbl3 V c (ValueIdx.ix2 r f)).toNat < 131073) (t : Fin (cfg3 a).N) :
    bodyPre3 V a c t ⊢ wp frame (wpE (defs₀ (F := F)) Variants.none c none) Set.univ (bodyAt3 a t) (fun _ => bodyPost3 V a c t) := by
  unfold bodyPre3 bodyPost3 bodyAt3
  rw [Phi_eq3, Phi_eq3, after3_0]
  unfold Phi3
  rw [Pipeline.ΦD_eq, hbm3_eq, pref3_eq, hpf]
  unfold Dat.owesAt Pipeline.owesWithin
  rw [owed_eq3, owed_eq3]
  iintro ⟨⟨⟨HS, Hg, Hq, Hh⟩, Ht⟩, ⟨%W, -, HW⟩, ⟨%d0, H3⟩⟩
  iapply (hG c (grid3.coords t) _ _ (tbl3 V c) (emb3 V c) (fun f => hrng _ f) W _)
  isplitl [Ht]; · iexact Ht
  isplitl [Hh]; · iexact Hh
  isplitl [H3]; · iexists _; iexact H3
  isplitl [Hq]; · iexact Hq
  isplitl [HW]; · iexact HW
  iintro ⟨Ht, Hh, H3, Hq, ⟨%W', HW'⟩⟩
  isplitl [HS Hg Hq Hh Ht]
  · isplitr [Ht]
    · isplitl [HS]; · iexact HS
      isplitl [Hg]; · iexact Hg
      isplitl [Hq]; · iexact Hq
      iexact Hh
    · iexact Ht
  isplitl [HW']
  · iexists W'; isplitr; · ipureintro; exact fun _ _ => Or.inl trivial
    iexact HW'
  iexact H3

theorem body_obligation3 (hG : Triple3 (F := F)) (c : Dev nD) (hpf : a.1 0 = V c main_v16)
    (hrng : ∀ (r : Fin 4096) (f : Fin 26), (tbl3 V c (ValueIdx.ix2 r f)).toNat < 131073) :
    BodyObligation (dat3 (F := F) V a c) (defs₀ (F := F)) Variants.none () Set.univ := fun t => by
  rw [bigSep_W3, bigSep_W3]
  exact sound_body3 V a hG c hpf hrng t

end Obl3

end Cert.Kernel.Fr

end
-- ==== Proof.B.Fr.Reg3.lean ====
/- Region 3 as a segment of the run: entered from the contents before it, left at the contents after it. -/
import proofs.«407213_j20864951124667_1_alg».proof.Proof.B.Fr.Family
import proofs.«407213_j20864951124667_1_alg».proof.Proof.B.Fr.Obl3
import Idealize.ShloMosaic.Lib.Pipeline.RegionsLoop

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 3 as a segment -/

section Reg3

variable (m : (ℓ : Loc nD τ sig) → Buf (Elt F) ℓ) (outs : Outs (F := F))

theorem hF3 (hok : OutsOk m outs) (c : Dev nD) (w : Fin (cfg3 (admM m outs 3)).W) :
    (pdatsM m outs 3 c).arrAt w (cfg3 (admM m outs 3)).N = atRefs (V12 m outs) c (Pipeline.arrRef spec3 w) :=
  match w with
  | ⟨0, _⟩ => by
    show _ = V12 m outs c main_v17
    simp only [Function.update_self]
    exact (hok.o3 c).symm
theorem hrest3 (c : Dev nD) : ∀ b, b ∉ Finset.univ.image (Pipeline.arrRef spec3) → atRefs (V12 m outs) c b = atRefs (V11 m outs) c b :=
  fun b hb => V12_of m outs c b fun h => hb (Finset.mem_image.mpr ⟨0, Finset.mem_univ _, (List.mem_singleton.mp h).symm⟩)

/-- `rest3_split` and `pref3_eq` in the spelling the library's pinned configuration gives them. -/
theorem rest3_pin (c : Dev nD) (W : (b : Ref sig .tc) → Buf (Elt F) ((c : Thread nD τ).loc b)) :
    (Pipeline.unscopedRest (Ix := Unit) (Name := ℕ) (U := Pipeline.UD sig nD τ) (Lvl := ℕ) (Pipeline.pin (pcfgs (F := F)) (admM m outs) 3).spec c W : sProp 𝕄)
      = iprop((owns (c : Thread nD τ) (Memref.whole main_v16) fullShare (W main_v16) ∗ owns (c : Thread nD τ) (Memref.whole main_arg2) fullShare (W main_arg2))
          ∗ bigSep (Pipeline.restRefs sig spec3 \ HT3) fun b => ((c : Thread nD τ).loc b) ↦{fullShare} W b) :=
  rest3_split c W
theorem pref3_pin (c : Dev nD) :
    (Pipeline.prefHeld (Ix := Unit) (Name := ℕ) (U := Pipeline.UD sig nD τ) (Lvl := ℕ) (pcfgs (F := F) 3).pre c (fun _ => fullShare) (admM m outs 3).1 : sProp 𝕄)
      = owns (c : Thread nD τ) (Memref.whole main_v16) fullShare (tbl3 (atRefs (V11 m outs)) c) :=
  (pref3_eq (admM m outs 3) c).trans (congrArg (owns (c : Thread nD τ) (Memref.whole main_v16) fullShare) (adm3_pf (V11 m outs) c))

theorem ownSemFacts3 : Pipeline.OwnSemFacts spec3 Gather3.osem := by decide

set_option backward.isDefEq.respectTransparency.types false in
def reg3 (hG : Triple3 (F := F)) (hok : OutsOk m outs)
    (hrng : ∀ (c : Dev nD) (r : Fin 4096) (f : Fin 26), (tbl3 (atRefs (V11 m outs)) c (ValueIdx.ix2 r f)).toNat < 131073) :
    Pipeline.RegionSeg (pcfgs (F := F)) (admM m outs) (pdatsM m outs) () defs₀ 𝒱₀ L lv 3 where
  win := (launch3 (F := F)).win.to₀
  block_pos := (launch3 (F := F)).block_pos
  stage_whole := (launch3 (F := F)).stage_whole
  K := Fin 26
  osem := Gather3.osem
  ho := ownSemFacts3
  hbody c := (body_obligation3 (atRefs (V11 m outs)) (admM m outs 3) hG c (adm3_pf (V11 m outs) c) (hrng c)).loose
  hwaits := Pipeline.hwaits_of_owed_zero _ _ _ _ L lv 3 fun _ _ => rfl
  pre c := iprop(StableHlo.held (c : Thread nD τ) (Pipeline.ucRefs τ sig) (V11 m outs c) ∗ Rst c)
  post c := iprop(StableHlo.held (c : Thread nD τ) (Pipeline.ucRefs τ sig) (V12 m outs c) ∗ Rst c)
  X c := iprop((∃ r, prngReg c r) ∗ Pipeline.ownSems0 (Ix := Unit) (Name := ℕ) (U := Pipeline.UD sig nD τ) (Lvl := ℕ) (Val := Elt F) (τ := τ) Gather3.osem c
    ∗ owns (c : Thread nD τ) (Memref.whole main_arg2) fullShare (emb3 (atRefs (V11 m outs)) c))
  Y c := iprop((∃ r, prngReg c r) ∗ owns (c : Thread nD τ) (Memref.whole main_arg2) fullShare (emb3 (atRefs (V11 m outs)) c)
    ∗ owns (c : Thread nD τ) (Memref.whole main_v16) fullShare (tbl3 (atRefs (V11 m outs)) c))
  Z c := bigSep (Pipeline.restRefs sig spec3 \ HT3) fun b => ((c : Thread nD τ).loc b) ↦{fullShare} atRefs (V11 m outs) c b
  hentry c := by
    have hsplit := Pipeline.arrays_of_unscopedBufs (p := 3) (pcfgs (F := F)) (admM m outs) (pdatsM m outs) (launch3 (F := F)).win (launch3 (F := F)).arr_whole c
      ((pdatsM m outs 3 c).share_full fun _ => rfl) (atRefs (V11 m outs) c) fun _ => rfl
    rw [Pipeline.unscopedBufs_held, rest3_pin] at hsplit
    rw [pref3_pin]
    iintro ⟨⟨Hub, Hp, HO⟩, Hsem, -⟩
    ihave H := hsplit $$ Hub
    icases H with ⟨Ha, ⟨Ht, Hh⟩, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hsem Hh]
    · isplitl [Hp]; · iexact Hp
      isplitl [Hsem]; · iexact Hsem
      iexact Hh
    iexact Hrest
  hin c := by
    rw [show (pdatsM m outs 3 c).Φ 0 = Phi3 (atRefs (V11 m outs)) (admM m outs 3) c from rfl]
    unfold Phi3; rw [Pipeline.ΦD_eq, hbm3_eq]
    iintro ⟨⟨Hp, Hs, Hh⟩, Ht, Hr⟩
    isplitr [Ht]
    · isplitl [Hr]; · iexact Hr
      isplitl [Hp]; · iexact Hp
      isplitl [Hs]; · iexact Hs
      iexact Hh
    iexact Ht
  hout c := by
    rw [show (pdatsM m outs 3 c).Φ (Fin.last _) = Phi3 (atRefs (V11 m outs)) (admM m outs 3) c from rfl]
    unfold Phi3; rw [Pipeline.ΦD_eq, hbm3_eq, pref3_eq, show (admM m outs 3).1 0 = tbl3 (atRefs (V11 m outs)) c from adm3_pf (V11 m outs) c]
    iintro ⟨⟨Hr, Hp, Hs, Hh⟩, Ht⟩
    isplitl [Hp Hh Ht]
    · isplitl [Hp]; · iexact Hp
      isplitl [Hh]; · iexact Hh
      iexact Ht
    isplitl [Hs]; · iexact Hs
    iexact Hr
  hexit c := by
    have hjoin := Pipeline.unscopedBufs_of_arrays (p := 3) (pcfgs (F := F)) (admM m outs) (Ix := Unit) (Name := ℕ) (U := Pipeline.UD sig nD τ) (Lvl := ℕ)
      (launch3 (F := F)).win (launch3 (F := F)).arr_whole c (pdatsM m outs) ((pdatsM m outs 3 c).share_full fun _ => rfl)
      (atRefs (V11 m outs) c) (atRefs (V12 m outs) c) ((pdatsM m outs 3 c).arrAt · (cfg3 (admM m outs 3)).N) (hF3 m outs hok c) (hrest3 m outs c)
    rw [Pipeline.unscopedBufs_held, rest3_pin] at hjoin
    iintro ⟨Ha, HO, ⟨Hp, Hh, Ht⟩, Hrest⟩
    imodintro
    isplitl [Ha Hrest Hh Ht]
    · iapply hjoin
      isplitl [Ha]; · iexact Ha
      isplitl [Ht Hh]
      · isplitl [Ht]; · iexact Ht
        iexact Hh
      iexact Hrest
    isplitl [Hp]; · iexact Hp
    unfold Pipeline.Dat.owesAt Pipeline.owesWithin
    icases HO with ⟨%W, -, HO⟩; iexists W; iexact HO

end Reg3

end Cert.Kernel.Fr

end
-- ==== Proof.B.IBody.lean ====
/- The interaction kernel's body as a separation-logic triple. On whole staging memrefs, the two
   input blocks at contents x0 and x1 and the output block at any contents, the body runs to the
   continuation holding the inputs as they were and the output block at `interBlk x0 x1`.
   The body loads both input blocks whole, forms pure vector values of them, loads the output
   block (the value read is not used) and stores one value over the whole output block. The one
   store's rectangle is the whole block at zero offsets, so it covers every index and the block
   reads back as the stored value; a load through the whole-shape rectangle at zero offsets reads
   the contents, so the stored value is `interBlk` of the two contents. -/
import proofs.«407213_j20864951124667_1_alg».proof.Proof.B.IDefs
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.Kernel.Inter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (Pipeline.UD sig nD τ) ℕ

/-- A pair of zero offsets is the zero function on two axes. -/
theorem off2_zero : (![0, 0] : Fin 2 → ℕ) = fun _ => 0 := by
  funext a; fin_cases a <;> rfl

/-- A triple of zero offsets is the zero function on three axes. -/
theorem off3_zero : (![0, 0, 0] : Fin 3 → ℕ) = fun _ => 0 := by
  funext a; fin_cases a <;> rfl

/-- A load through the whole-shape rectangle at zero offsets reads the view's contents. -/
theorem readAt_unit_zero {sig' : RefSig} {κ : Kind} {sp : Space} {S : Shape} {e : EltTy}
    (v : View sig' κ sp S e) (f : v.ty.Contents (Elt F)) {off : Fin S.rank → ℕ} (h : off = fun _ => 0)
    (inb : ∀ a, off a + S.size a ≤ S.size a) :
    v.readAt (Elt F) (Rect.unit off S.size inb).toLoadRect f = v.read (Elt F) f :=
  (View.readAt_eq_ld v f (Rect.unit off S.size inb)).trans (View.ld_unit_zero h inb _)

/-- The rectangle of the body's one store: the whole 256x415 block. -/
abbrev rOut : Rect S256x415 := Rect.unit (s := S256x415) ![0, 0] S256x415.size inb_S256x415_S256x415_0_0

/-- One piece on the whole block covers every index of the block. -/
theorem coverOut (p0 : Vec F S256x415 .f32) (y : S256x415.Idx) :
    ∃ pc ∈ ([⟨rOut, p0⟩] : List (View.Piece (Elt F) S256x415 .f32)), y ∈ pc.1.set :=
  ⟨_, List.mem_singleton_self _, View.mem_set_unit_zero off2_zero inb_S256x415_S256x415_0_0 y⟩

/-- The contents one store over the whole block leaves is the stored value. -/
theorem canonOut (p0 : Vec F S256x415 .f32) :
    View.canon ([⟨rOut, p0⟩] : List (View.Piece (Elt F) S256x415 .f32)) = p0 :=
  View.canon_unit_zero off2_zero inb_S256x415_S256x415_0_0 p0

set_option maxHeartbeats 4000000 in
/-- The body's triple: from the two input blocks at x0 and x1 and the output block at anything, to
    the same inputs and the output block at `interBlk x0 x1`. -/
theorem sound_inter (c : Dev nD) (E : Set ℕ) (i : grid4.Coords)
    (arg1 : Memref sig .tc .vmem S256x64 .f32) (harg1 : arg1.IsWhole)
    (arg2 : Memref sig .tc .vmem S256x26x64 .f32) (harg2 : arg2.IsWhole)
    (arg3 : Memref sig .tc .vmem S256x415 .f32) (harg3 : arg3.IsWhole)
    (x0 : Vec F S256x64 .f32) (x1 : Vec F S256x26x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (interBlk x0 x1)) -∗ K ⟨⟩))
      ⊢ wp frame (wpE (defs₀ (F := F)) Variants.none c none) E
          (cc4__interaction_kernel i arg1 harg1 arg2 harg2 arg3 harg3) K := by
  simp only [cc4__interaction_kernel_eq_skeleton]; unfold cc4__interaction_kernel_skel
  simp only [k4_part1_eq_skeleton]; unfold k4_part1_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the output block after the one covering store is the stored value; the two whole-block loads
  -- read the inputs' contents; what remains is the composition of the payloads, by unfolding
  refine (View.read_writes_eq_canon _ _ _ (coverOut _)).trans ((canonOut _).trans ?_)
  rw [readAt_unit_zero arg1.view f0 off2_zero inb_S256x64_S256x64_0_0,
    readAt_unit_zero arg2.view f1 off3_zero inb_S256x26x64_S256x26x64_0_0_0]
  rfl

end Cert.Kernel.Inter

end
-- ==== Proof.B.Fr.Obl4.lean ====
/- Region 4's body obligation, from the interaction body's triple. -/
import proofs.«407213_j20864951124667_1_alg».proof.Proof.B.Fr.Dat4
import proofs.«407213_j20864951124667_1_alg».proof.Proof.B.IBody

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 4: the body obligation -/

section Obl4

variable (V : (c : Dev nD) → (b : Ref sig .tc) → Buf (Elt F) ((c : Thread nD τ).loc b))

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (Inter.sound_inter c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Obl4

end Cert.Kernel.Fr

end
-- ==== Proof.B.Fr.Reg4.lean ====
/- Region 4 as a segment of the run: entered from the contents before it, left at the contents after it. -/
import proofs.«407213_j20864951124667_1_alg».proof.Proof.B.Fr.Family
import proofs.«407213_j20864951124667_1_alg».proof.Proof.B.Fr.Obl4
import Idealize.ShloMosaic.Lib.Pipeline.RegionsLoop

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 4 as a segment -/

section Reg4

variable (m : (ℓ : Loc nD τ sig) → Buf (Elt F) ℓ) (outs : Outs (F := F))

/-- At the region's exit each of its arrays holds what the pipeline leaves: the inputs as entered, the output its result. -/
theorem hF4 (hok : OutsOk m outs) (c : Dev nD) (w : Fin cfg4.W) :
    (pdatsM m outs 4 c).arrAt w cfg4.N = atRefs (V14 m outs) c (Pipeline.arrRef spec4 w) :=
  match w with
  | ⟨0, _⟩ => ((dat4 (atRefs (V13 m outs)) c).arrAt_in 0 rfl _).trans ((A_eq4 _ c 0).trans (V14_of m outs c main_v9 (by decide)).symm)
  | ⟨1, _⟩ => ((dat4 (atRefs (V13 m outs)) c).arrAt_in 1 rfl _).trans ((A_eq4 _ c 1).trans (V14_of m outs c main_v18 (by decide)).symm)
  | ⟨2, _⟩ => by
    show _ = V14 m outs c main_v19
    simp only [Function.update_self]
    exact (hok.o4 c).symm
/-- and every other buffer what it held at entry. -/
theorem hrest4 (c : Dev nD) : ∀ b, b ∉ Finset.univ.image (Pipeline.arrRef spec4) → atRefs (V14 m outs) c b = atRefs (V13 m outs) c b :=
  fun b hb => V14_of m outs c b fun h => hb (Finset.mem_image.mpr ⟨2, Finset.mem_univ _, (List.mem_singleton.mp h).symm⟩)

set_option backward.isDefEq.respectTransparency.types false in
/-- REGION 4 over the thread state: entered from every unscoped buffer at `V13`, left at `V14`; its arrays split out of the
    unscoped buffers and put back at the exit contents; the generator register into the class invariant and out; nothing
    owed; no semaphore of the kernel's own. -/
def reg4 (hok : OutsOk m outs) :
    Pipeline.RegionSeg (pcfgs (F := F)) (admM m outs) (pdatsM m outs) () defs₀ 𝒱₀ L lv 4 where
  win := (launch4 (F := F)).win.to₀
  block_pos := (launch4 (F := F)).block_pos
  stage_whole := (launch4 (F := F)).stage_whole
  K := PEmpty
  osem k := k.elim
  ho := Pipeline.OwnSemFacts.none _
  hbody c := (body_obligation4 (atRefs (V13 m outs)) c).loose
  hwaits := Pipeline.hwaits_of_owed_zero _ _ _ _ L lv 4 fun _ _ => rfl
  pre c := iprop(StableHlo.held (c : Thread nD τ) (Pipeline.ucRefs τ sig) (V13 m outs c) ∗ Rst c)
  post c := iprop(StableHlo.held (c : Thread nD τ) (Pipeline.ucRefs τ sig) (V14 m outs c) ∗ Rst c)
  X c := iprop(∃ r, prngReg c r)
  Y c := iprop(∃ r, prngReg c r)
  Z c := Pipeline.unscopedRest (Ix := Unit) (Name := ℕ) (U := Pipeline.UD sig nD τ) (Lvl := ℕ) spec4 c (atRefs (V13 m outs) c)
  hentry c := by
    rw [Pipeline.ownSems0_none]
    have hsplit := Pipeline.arrays_of_unscopedBufs (p := 4) (pcfgs (F := F)) (admM m outs) (pdatsM m outs) (launch4 (F := F)).win (launch4 (F := F)).arr_whole c
      ((pdatsM m outs 4 c).share_full fun _ => rfl) (atRefs (V13 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsM m outs 4 c).Φ 0 = Pipeline.ΦA (U := Pipeline.UD sig nD τ) spec4 c from rfl]; unfold Pipeline.ΦA
    iintro ⟨Hp, -, Hr⟩
    isplitl [Hr]; · iexact Hr
    iexact Hp
  hout c := by
    rw [Pipeline.ownSems0_none, show (pdatsM m outs 4 c).Φ (Fin.last _) = Pipeline.ΦA (U := Pipeline.UD sig nD τ) spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) (admM m outs) (Ix := Unit) (Name := ℕ) (U := Pipeline.UD sig nD τ) (Lvl := ℕ)
      (launch4 (F := F)).win (launch4 (F := F)).arr_whole c (pdatsM m outs) ((pdatsM m outs 4 c).share_full fun _ => rfl)
      (atRefs (V13 m outs) c) (atRefs (V14 m outs) c) ((pdatsM m outs 4 c).arrAt · cfg4.N) (hF4 m outs hok c) (hrest4 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Reg4

end Cert.Kernel.Fr

end
-- ==== Proof.B.Fr.Outs.lean ====
/- The regions' results along the run, each what its pipeline leaves in its output array, and the run's valuations over them. -/
import proofs.«407213_j20864951124667_1_alg».proof.Proof.B.Fr.Family

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The regions' results along the run: each what its pipeline leaves in its output array, entered at the contents
    the run has reached; the run's valuations over these results, and that they satisfy the hypothesis tying results
    to proof data. -/

variable (m : (ℓ : Loc nD τ sig) → Buf (Elt F) ℓ)

/-- What region 0's pipeline leaves in its output array. -/
def X0 (c : Dev nD) : Buf (Elt F) ((c : Thread nD τ).loc main_v11) :=
  (dat0 (atRefs (V5 m)) (adm0 (V5 m)) c).arrAt 0 (cfg0 (adm0 (V5 m))).N
/-- The buffers after region 0. -/
def W6 (c : Dev nD) : Valuation τ sig (Elt F) := Function.update (V5 m c) main_v11 (X0 m c)
/-- The buffers after the host stretch that follows region 0. -/
def W7 (c : Dev nD) : Valuation τ sig (Elt F) := StableHlo.after hostOps1 (W6 m c)

/-- What region 1's pipeline leaves in its output array. -/
def X1 (c : Dev nD) : Buf (Elt F) ((c : Thread nD τ).loc main_v13) :=
  (dat1 (atRefs (W7 m)) (adm1 (W7 m)) c).arrAt 0 (cfg1 (adm1 (W7 m))).N
/-- The buffers after region 1. -/
def W8 (c : Dev nD) : Valuation τ sig (Elt F) := Function.update (W7 m c) main_v13 (X1 m c)
/-- The buffers after the host stretch that follows region 1. -/
def W9 (c : Dev nD) : Valuation τ sig (Elt F) := StableHlo.after hostOps2 (W8 m c)

/-- What region 2's pipeline leaves in its output array. -/
def X2 (c : Dev nD) : Buf (Elt F) ((c : Thread nD τ).loc main_v15) :=
  (dat2 (atRefs (W9 m)) (adm2 (W9 m)) c).arrAt 0 (cfg2 (adm2 (W9 m))).N
/-- The buffers after region 2. -/
def W10 (c : Dev nD) : Valuation τ sig (Elt F) := Function.update (W9 m c) main_v15 (X2 m c)
/-- The buffers after the host stretch that follows region 2. -/
def W11 (c : Dev nD) : Valuation τ sig (Elt F) := StableHlo.after hostOps3 (W10 m c)

/-- What region 3's pipeline leaves in its output array. -/
def X3 (c : Dev nD) : Buf (Elt F) ((c : Thread nD τ).loc main_v17) :=
  (dat3 (atRefs (W11 m)) (adm3 (W11 m)) c).arrAt 0 (cfg3 (adm3 (W11 m))).N
/-- The buffers after region 3. -/
def W12 (c : Dev nD) : Valuation τ sig (Elt F) := Function.update (W11 m c) main_v17 (X3 m c)
/-- The buffers after the host stretch that follows region 3. -/
def W13 (c : Dev nD) : Valuation τ sig (Elt F) := StableHlo.after hostOps4 (W12 m c)

/-- What region 4's pipeline leaves in its output array. -/
def X4 (c : Dev nD) : Buf (Elt F) ((c : Thread nD τ).loc main_v19) := (dat4 (atRefs (W13 m)) c).arrAt 2 cfg4.N
/-- The buffers after region 4. -/
def W14 (c : Dev nD) : Valuation τ sig (Elt F) := Function.update (W13 m c) main_v19 (X4 m c)

/-- The regions' results, read off the run's valuations. -/
def outsC : Outs (F := F) := fun J r c =>
  match J with
  | 6 => W6 m c r
  | 8 => W8 m c r
  | 10 => W10 m c r
  | 12 => W12 m c r
  | 14 => W14 m c r
  | _ => V5 m c r

/-! ## A region's result read back -/
theorem W6_self (c : Dev nD) : W6 m c main_v11 = X0 m c := Function.update_self _ _ _
theorem W8_self (c : Dev nD) : W8 m c main_v13 = X1 m c := Function.update_self _ _ _
theorem W10_self (c : Dev nD) : W10 m c main_v15 = X2 m c := Function.update_self _ _ _
theorem W12_self (c : Dev nD) : W12 m c main_v17 = X3 m c := Function.update_self _ _ _
theorem W14_self (c : Dev nD) : W14 m c main_v19 = X4 m c := Function.update_self _ _ _

/-! ## The run's valuations over these results -/

theorem V6_eq : V6 m (outsC m) = W6 m := by
  funext c
  show Function.update (V5 m c) main_v11 (W6 m c main_v11) = W6 m c
  rw [W6_self]; rfl
theorem V7_eq : V7 m (outsC m) = W7 m := by
  funext c
  show StableHlo.after hostOps1 (V6 m (outsC m) c) = W7 m c
  rw [V6_eq]; rfl

theorem V8_eq : V8 m (outsC m) = W8 m := by
  funext c
  show Function.update (V7 m (outsC m) c) main_v13 (W8 m c main_v13) = W8 m c
  rw [V7_eq, W8_self]; rfl
theorem V9_eq : V9 m (outsC m) = W9 m := by
  funext c
  show StableHlo.after hostOps2 (V8 m (outsC m) c) = W9 m c
  rw [V8_eq]; rfl

theorem V10_eq : V10 m (outsC m) = W10 m := by
  funext c
  show Function.update (V9 m (outsC m) c) main_v15 (W10 m c main_v15) = W10 m c
  rw [V9_eq, W10_self]; rfl
theorem V11_eq : V11 m (outsC m) = W11 m := by
  funext c
  show StableHlo.after hostOps3 (V10 m (outsC m) c) = W11 m c
  rw [V10_eq]; rfl

theorem V12_eq : V12 m (outsC m) = W12 m := by
  funext c
  show Function.update (V11 m (outsC m) c) main_v17 (W12 m c main_v17) = W12 m c
  rw [V11_eq, W12_self]; rfl
theorem V13_eq : V13 m (outsC m) = W13 m := by
  funext c
  show StableHlo.after hostOps4 (V12 m (outsC m) c) = W13 m c
  rw [V12_eq]; rfl

theorem V14_eq : V14 m (outsC m) = W14 m := by
  funext c
  show Function.update (V13 m (outsC m) c) main_v19 (W14 m c main_v19) = W14 m c
  rw [V13_eq, W14_self]; rfl

/-! ## The results are what the pipelines leave -/

theorem X1_of (E : Dev nD → Valuation τ sig (Elt F)) (h : E = W7 m) (c : Dev nD) :
    X1 m c = (dat1 (atRefs E) (adm1 E) c).arrAt 0 (cfg1 (adm1 E)).N := by subst h; rfl

theorem X2_of (E : Dev nD → Valuation τ sig (Elt F)) (h : E = W9 m) (c : Dev nD) :
    X2 m c = (dat2 (atRefs E) (adm2 E) c).arrAt 0 (cfg2 (adm2 E)).N := by subst h; rfl

theorem X3_of (E : Dev nD → Valuation τ sig (Elt F)) (h : E = W11 m) (c : Dev nD) :
    X3 m c = (dat3 (atRefs E) (adm3 E) c).arrAt 0 (cfg3 (adm3 E)).N := by subst h; rfl

theorem X4_of (E : Dev nD → Valuation τ sig (Elt F)) (h : E = W13 m) (c : Dev nD) :
    X4 m c = (dat4 (atRefs E) c).arrAt 2 cfg4.N := by subst h; rfl

theorem outsOk : OutsOk m (outsC m) where
  o0 c := W6_self m c
  o1 c := (W8_self m c).trans (X1_of m _ (V7_eq m) c)
  o2 c := (W10_self m c).trans (X2_of m _ (V9_eq m) c)
  o3 c := (W12_self m c).trans (X3_of m _ (V11_eq m) c)
  o4 c := (W14_self m c).trans (X4_of m _ (V13_eq m) c)

end Cert.Kernel.Fr

end
-- ==== Proof.B.Fr.Frame.lean ====
/- The frame: every weakly fair execution of @main terminates and every argument array ends as launched, from the five
   regions' records and the launch. -/
import proofs.«407213_j20864951124667_1_alg».proof.Proof.B.Fr.LaunchCommon
import proofs.«407213_j20864951124667_1_alg».proof.Proof.B.Fr.Reg0
import proofs.«407213_j20864951124667_1_alg».proof.Proof.B.Fr.Reg1
import proofs.«407213_j20864951124667_1_alg».proof.Proof.B.Fr.Reg2
import proofs.«407213_j20864951124667_1_alg».proof.Proof.B.Fr.Reg3
import proofs.«407213_j20864951124667_1_alg».proof.Proof.B.Fr.Reg4
import proofs.«407213_j20864951124667_1_alg».proof.Proof.B.Fr.Outs

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

/-! # The frame

The conditional frame asks, per region, for a segment record entered from the thread state before it and left at the one
after it. The five records are entered and left at exactly those states, the rest being the same at all six points, so
each of the ten entailments is reflexivity; the launch is the shared one, at the tables' contents along the run. The four
gather regions' records are built from their bodies' triples, taken here as hypotheses. -/

/-- The frame over ANY contents `outs` the regions' results are (`hok`), given the four gather bodies' triples, the four
    tables' entries being in range at the contents each gather region is entered with. -/
theorem frame_of (m : (ℓ : Loc nD τ sig) → Buf (Elt F) ℓ) (ρ : Dev nD → PrngReg)
    (hG0 : Triple0 (F := F)) (hG1 : Triple1 (F := F)) (hG2 : Triple2 (F := F)) (hG3 : Triple3 (F := F))
    (outs : Outs (F := F)) (hok : OutsOk m outs)
    (hrng0 : ∀ (c : Dev nD) (r : Fin 4096) (f : Fin 26), (tbl0 (atRefs (V5 m)) c (ValueIdx.ix2 r f)).toNat < 131073)
    (hrng1 : ∀ (c : Dev nD) (r : Fin 4096) (f : Fin 26), (tbl1 (atRefs (V7 m outs)) c (ValueIdx.ix2 r f)).toNat < 131073)
    (hrng2 : ∀ (c : Dev nD) (r : Fin 4096) (f : Fin 26), (tbl2 (atRefs (V9 m outs)) c (ValueIdx.ix2 r f)).toNat < 131073)
    (hrng3 : ∀ (c : Dev nD) (r : Fin 4096) (f : Fin 26), (tbl3 (atRefs (V11 m outs)) c (ValueIdx.ix2 r f)).toNat < 131073) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Gen.frame_cond m embL () 𝒱₀ L lv hL ρ outs (admM m outs) (pdatsM m outs) O₀ G₀ (u₀ (admM m outs)) (hu₀ (admM m outs)) ER (hE0 ρ) hE5
    (reg0 m outs hG0 hok hrng0) (fun _ => .rfl) (fun _ => .rfl)
    (reg1 m outs hG1 hok hrng1) (fun _ => .rfl) (fun _ => .rfl)
    (reg2 m outs hG2 hok hrng2) (fun _ => .rfl) (fun _ => .rfl)
    (reg3 m outs hG3 hok hrng3) (fun _ => .rfl) (fun _ => .rfl)
    (reg4 m outs hok) (fun _ => .rfl) (fun _ => .rfl)

/-- THE FRAME, at the constructed contents: from any memory with zero counters every weakly fair execution of @main
    terminates, nothing faulting, and every final memory holds each argument array as launched, given the four gather
    bodies' triples, the four tables' entries being in range. -/
theorem frame (m : (ℓ : Loc nD τ sig) → Buf (Elt F) ℓ) (ρ : Dev nD → PrngReg)
    (hG0 : Triple0 (F := F)) (hG1 : Triple1 (F := F)) (hG2 : Triple2 (F := F)) (hG3 : Triple3 (F := F))
    (hrng0 : ∀ (c : Dev nD) (r : Fin 4096) (f : Fin 26), (tbl0 (atRefs (V5 m)) c (ValueIdx.ix2 r f)).toNat < 131073)
    (hrng1 : ∀ (c : Dev nD) (r : Fin 4096) (f : Fin 26), (tbl1 (atRefs (V7 m (outsC m))) c (ValueIdx.ix2 r f)).toNat < 131073)
    (hrng2 : ∀ (c : Dev nD) (r : Fin 4096) (f : Fin 26), (tbl2 (atRefs (V9 m (outsC m))) c (ValueIdx.ix2 r f)).toNat < 131073)
    (hrng3 : ∀ (c : Dev nD) (r : Fin 4096) (f : Fin 26), (tbl3 (atRefs (V11 m (outsC m))) c (ValueIdx.ix2 r f)).toNat < 131073) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ hG0 hG1 hG2 hG3 (outsC m) (outsOk m) hrng0 hrng1 hrng2 hrng3

end Cert.Kernel.Fr

end
-- ==== Proof.B.Fr.TripG.lean ====
/- The gather body's triple stated once for all four gather calls: at any table memref, scratch array and cells, at any body table. -/
import proofs.«407213_j20864951124667_1_alg».proof.Proof.B.G0Defs
import proofs.«407213_j20864951124667_1_alg».proof.Proof.Gen.Kernel
import Idealize.ShloMosaic.Lib.Pipeline.Frame

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The gather body's triple at any table memref, scratch array of cells (listed by `osem`) and body table: on the table of row
    numbers and the stacked tables held whole (every row number the point reads in range), the output block at anything, the
    26 cells at zero and the core owing nothing, the body runs to the continuation holding them as they were and the output
    block at the gathered rows. -/
def TripleG (arg1 : Memref sig .tc .smem S4096x26 .i32) (harg1 : arg1.IsWhole) (sems : DmaSems sig S26) (osem : Fin 26 → SemLoc sig)
    (D : Defs nD τ sig (Elt F) Λ₀) : Prop :=
  ∀ (c : Dev nD) (i : grid0.Coords) (arg3 : Memref sig .tc .vmem S1x26x64 .f32) (harg3 : arg3.IsWhole)
    (tbl : Vec F S4096x26 .i32) (emb : Vec F S26x131073x64 .f32)
    (hrange : ∀ f : Fin 26, (tbl (ValueIdx.ix2 (⟨(i 0).val, (i 0).isLt⟩ : Fin 4096) f)).toNat < 131073)
    (W : Waits sig Unit) (K : PUnit → sProp 𝕄),
    iprop(owns (c : Thread nD τ) arg1 fullShare tbl ∗ owns (c : Thread nD τ) (Memref.whole main_arg2) fullShare emb
        ∗ (∃ d, owns (c : Thread nD τ) arg3 fullShare d)
        ∗ Pipeline.ownSems0 (Ix := Unit) (Name := ℕ) (U := Pipeline.UD sig nD τ) (Lvl := ℕ) (Val := Elt F) (τ := τ) osem c
        ∗ owes (c : Thread nD τ) 0 W
        ∗ (iprop(owns (c : Thread nD τ) arg1 fullShare tbl ∗ owns (c : Thread nD τ) (Memref.whole main_arg2) fullShare emb
            ∗ owns (c : Thread nD τ) arg3 fullShare (Gather0.gatherBlk tbl emb i)
            ∗ Pipeline.ownSems0 (Ix := Unit) (Name := ℕ) (U := Pipeline.UD sig nD τ) (Lvl := ℕ) (Val := Elt F) (τ := τ) osem c
            ∗ (∃ W', owes (c : Thread nD τ) 0 W')) -∗ K ⟨⟩))
      ⊢ wp frame (wpE D Variants.none c none) Set.univ
          (cc0__gather_kernel i arg1 harg1 (Memref.whole main_arg2) (Memref.isWhole_whole _) arg3 harg3 sems) K

end Cert.Kernel.Fr

end
-- ==== Proof.B.Fr.KerEq.lean ====
/- The word-level program's gather body equals the idealized program's: what lets the word-level regions reuse the idealized body run. -/
import proofs.«407213_j20864951124667_1_alg».proof.Proof.Gen.Kernel
import proofs.«407213_j20864951124667_1_alg».proof.Proof.Gen.KernelIdeal

set_option maxRecDepth 16384

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # The two printed programs' gather bodies are one function -/

set_option maxHeartbeats 4000000 in
/-- The word-level program's gather body is the idealized program's, argument for argument (the two printed texts are the same). -/
theorem ker_eq (i : grid0.Coords) (arg1 : Memref sig .tc .smem S4096x26 .i32) (harg1 : arg1.IsWhole) (arg2 : Memref sig .tc .hbm S26x131073x64 .f32) (harg2 : arg2.IsWhole) (arg3 : Memref sig .tc .vmem S1x26x64 .f32) (harg3 : arg3.IsWhole) (arg4 : DmaSems sig S26) :
    cc0__gather_kernel (F := F) i arg1 harg1 arg2 harg2 arg3 harg3 arg4 = Cert.KernelIdeal.cc0__gather_kernel (F := F) i arg1 harg1 arg2 harg2 arg3 harg3 arg4 := rfl

end Cert.Kernel.Fr

end
-- ==== Proof.B.Fr.TransG.lean ====
/- The word-level program's generic gather triple, transported ONCE from the idealized program's. -/
import proofs.«407213_j20864951124667_1_alg».proof.Proof.B.Fr.TripG
import proofs.«407213_j20864951124667_1_alg».proof.Proof.B.Fr.KerEq
import proofs.«407213_j20864951124667_1_alg».proof.Proof.Fr.TripG

set_option maxRecDepth 16384

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! # The gather body's generic triple crosses from the idealized program to the word-level one -/

set_option maxHeartbeats 4000000 in
/-- The generic triple of the idealized program, at any body table, gives the word-level program's at its own body table, at
    any table memref, scratch array and cells: the two programs' bodies are one function (`ker_eq`), and the two statements
    agree term for term by unfolding the two programs' names. -/
theorem tripleG_transport (arg1 : Memref sig .tc .smem S4096x26 .i32) (harg1 : arg1.IsWhole) (sems : DmaSems sig S26) (osem : Fin 26 → SemLoc sig)
    (H : ∀ D, Cert.KernelIdeal.Fr.TripleG (F := F) arg1 harg1 sems osem D) : TripleG (F := F) arg1 harg1 sems osem defs₀ := by
  intro c i arg3 harg3 tbl emb hr W K
  have h := H defs₀ c i arg3 harg3 tbl emb hr W K
  rw [ker_eq]
  exact h

end Cert.Kernel.Fr

end
-- ==== Proof.B.Fr.Trip0.lean ====
/- The word-level program's `Triple0`, from the idealized program's gather body run through the transported generic triple. -/
import proofs.«407213_j20864951124667_1_alg».proof.Proof.B.Fr.Obl0
import proofs.«407213_j20864951124667_1_alg».proof.Proof.B.Fr.TransG
import proofs.«407213_j20864951124667_1_alg».proof.Proof.Fr.Trip0

set_option maxRecDepth 16384

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! # The gather body's triple for the word-level program's region 0, from the idealized program's -/

/-- `Triple0` of the word-level program: the generic triple crosses from the idealized program at this call's table and cells
    (the two programs name the same buffers and cells). -/
theorem triple0 : Triple0 (F := F) := fun c i arg3 harg3 tbl emb hr W K =>
  tripleG_transport (Memref.whole main_v10) (Memref.isWhole_whole _) cc0_scratch0 Gather0.osem
    (fun D => Cert.KernelIdeal.Fr.tripleG0 D) c i arg3 harg3 tbl emb hr W K

end Cert.Kernel.Fr

end
-- ==== Proof.B.Fr.Trip1.lean ====
/- The word-level program's `Triple1`, from the idealized program's gather body run through the transported generic triple. -/
import proofs.«407213_j20864951124667_1_alg».proof.Proof.B.Fr.Obl1
import proofs.«407213_j20864951124667_1_alg».proof.Proof.B.Fr.TransG
import proofs.«407213_j20864951124667_1_alg».proof.Proof.Fr.Trip1

set_option maxRecDepth 16384

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! # The gather body's triple for the word-level program's region 1, from the idealized program's -/

/-- The gather calls run one function: this call's body is the first call's. -/
theorem cc1_eq_cc0 (i : grid0.Coords) (arg1 : Memref sig .tc .smem S4096x26 .i32) (harg1 : arg1.IsWhole) (arg2 : Memref sig .tc .hbm S26x131073x64 .f32) (harg2 : arg2.IsWhole) (arg3 : Memref sig .tc .vmem S1x26x64 .f32) (harg3 : arg3.IsWhole) (arg4 : DmaSems sig S26) :
    cc1__gather_kernel (F := F) i arg1 harg1 arg2 harg2 arg3 harg3 arg4 = cc0__gather_kernel (F := F) i arg1 harg1 arg2 harg2 arg3 harg3 arg4 := rfl

/-- `Triple1` of the word-level program: this call runs the first call's body, and the generic triple crosses from the
    idealized program at this call's table and cells (the two programs name the same buffers and cells). -/
theorem triple1 : Triple1 (F := F) := fun c i arg3 harg3 tbl emb hr W K => by
  rw [cc1_eq_cc0]
  exact tripleG_transport (Memref.whole main_v12) (Memref.isWhole_whole _) cc1_scratch0 Gather1.osem
    (fun D => Cert.KernelIdeal.Fr.tripleG1 D) c i arg3 harg3 tbl emb hr W K

end Cert.Kernel.Fr

end
-- ==== Proof.B.Fr.Trip2.lean ====
/- The word-level program's `Triple2`, from the idealized program's gather body run through the transported generic triple. -/
import proofs.«407213_j20864951124667_1_alg».proof.Proof.B.Fr.Obl2
import proofs.«407213_j20864951124667_1_alg».proof.Proof.B.Fr.TransG
import proofs.«407213_j20864951124667_1_alg».proof.Proof.Fr.Trip2

set_option maxRecDepth 16384

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! # The gather body's triple for the word-level program's region 2, from the idealized program's -/

/-- The gather calls run one function: this call's body is the first call's. -/
theorem cc2_eq_cc0 (i : grid0.Coords) (arg1 : Memref sig .tc .smem S4096x26 .i32) (harg1 : arg1.IsWhole) (arg2 : Memref sig .tc .hbm S26x131073x64 .f32) (harg2 : arg2.IsWhole) (arg3 : Memref sig .tc .vmem S1x26x64 .f32) (harg3 : arg3.IsWhole) (arg4 : DmaSems sig S26) :
    cc2__gather_kernel (F := F) i arg1 harg1 arg2 harg2 arg3 harg3 arg4 = cc0__gather_kernel (F := F) i arg1 harg1 arg2 harg2 arg3 harg3 arg4 := rfl

/-- `Triple2` of the word-level program: this call runs the first call's body, and the generic triple crosses from the
    idealized program at this call's table and cells (the two programs name the same buffers and cells). -/
theorem triple2 : Triple2 (F := F) := fun c i arg3 harg3 tbl emb hr W K => by
  rw [cc2_eq_cc0]
  exact tripleG_transport (Memref.whole main_v14) (Memref.isWhole_whole _) cc2_scratch0 Gather2.osem
    (fun D => Cert.KernelIdeal.Fr.tripleG2 D) c i arg3 harg3 tbl emb hr W K

end Cert.Kernel.Fr

end
-- ==== Proof.B.Fr.Trip3.lean ====
/- The word-level program's `Triple3`, from the idealized program's gather body run through the transported generic triple. -/
import proofs.«407213_j20864951124667_1_alg».proof.Proof.B.Fr.Obl3
import proofs.«407213_j20864951124667_1_alg».proof.Proof.B.Fr.TransG
import proofs.«407213_j20864951124667_1_alg».proof.Proof.Fr.Trip3

set_option maxRecDepth 16384

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! # The gather body's triple for the word-level program's region 3, from the idealized program's -/

/-- The gather calls run one function: this call's body is the first call's. -/
theorem cc3_eq_cc0 (i : grid0.Coords) (arg1 : Memref sig .tc .smem S4096x26 .i32) (harg1 : arg1.IsWhole) (arg2 : Memref sig .tc .hbm S26x131073x64 .f32) (harg2 : arg2.IsWhole) (arg3 : Memref sig .tc .vmem S1x26x64 .f32) (harg3 : arg3.IsWhole) (arg4 : DmaSems sig S26) :
    cc3__gather_kernel (F := F) i arg1 harg1 arg2 harg2 arg3 harg3 arg4 = cc0__gather_kernel (F := F) i arg1 harg1 arg2 harg2 arg3 harg3 arg4 := rfl

/-- `Triple3` of the word-level program: this call runs the first call's body, and the generic triple crosses from the
    idealized program at this call's table and cells (the two programs name the same buffers and cells). -/
theorem triple3 : Triple3 (F := F) := fun c i arg3 harg3 tbl emb hr W K => by
  rw [cc3_eq_cc0]
  exact tripleG_transport (Memref.whole main_v16) (Memref.isWhole_whole _) cc3_scratch0 Gather3.osem
    (fun D => Cert.KernelIdeal.Fr.tripleG3 D) c i arg3 harg3 tbl emb hr W K

end Cert.Kernel.Fr

end
-- ==== Proof.Claims.lean ====
/- The five claims, assembled.

   * The reference's frame is its run with the result dropped.
   * The idealized kernel is the kernel's own text read at the ideal values, so nothing is to be preserved.
   * Each kernel program's frame holds where every row number the four lookup regions read is below the tables'
     height; the precondition says so of the whole table of row numbers, and each region reads a slice of it.
   * At the ideal values the kernel's result is the tail of the index-by-index interaction of its head with the
     index-by-index lookup; the reference's result is its own term of arguments that agree with the kernel's; the two
     terms are equal where the row numbers are in range. -/
import proofs.«407213_j20864951124667_1_alg».proof.Defs
import proofs.«407213_j20864951124667_1_alg».proof.Proof.Gen.Kernel
import proofs.«407213_j20864951124667_1_alg».proof.Proof.Gen.KernelIdeal
import proofs.«407213_j20864951124667_1_alg».proof.Proof.Gen.ReferenceIdeal
import proofs.«407213_j20864951124667_1_alg».proof.Proof.Gen.Pre_finite_inputs
import proofs.«407213_j20864951124667_1_alg».proof.Proof.RefRun
import proofs.«407213_j20864951124667_1_alg».proof.Proof.Rng
import proofs.«407213_j20864951124667_1_alg».proof.Proof.HostEq
import proofs.«407213_j20864951124667_1_alg».proof.Proof.RefTerm
import proofs.«407213_j20864951124667_1_alg».proof.Proof.RegVals
import proofs.«407213_j20864951124667_1_alg».proof.Proof.Fr.Frame
import proofs.«407213_j20864951124667_1_alg».proof.Proof.Fr.Run
import proofs.«407213_j20864951124667_1_alg».proof.Proof.Fr.Trip0
import proofs.«407213_j20864951124667_1_alg».proof.Proof.Fr.Trip1
import proofs.«407213_j20864951124667_1_alg».proof.Proof.Fr.Trip2
import proofs.«407213_j20864951124667_1_alg».proof.Proof.Fr.Trip3
import proofs.«407213_j20864951124667_1_alg».proof.Proof.B.Rng
import proofs.«407213_j20864951124667_1_alg».proof.Proof.B.Fr.Frame
import proofs.«407213_j20864951124667_1_alg».proof.Proof.B.Fr.Trip0
import proofs.«407213_j20864951124667_1_alg».proof.Proof.B.Fr.Trip1
import proofs.«407213_j20864951124667_1_alg».proof.Proof.B.Fr.Trip2
import proofs.«407213_j20864951124667_1_alg».proof.Proof.B.Fr.Trip3

noncomputable section

namespace Cert.Proof.Claims

open Idealize.ShloMosaic Idealize.ShloMosaic.TcCoe Idealize.SL.Sem

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealized kernel is the kernel's own text read at the ideal values: nothing was rewritten. -/
theorem preserves : Cert.preserves_Kernel_KernelIdeal := trivial

/-- The kernel as printed runs and leaves its arguments unchanged, given the four lookup bodies' triples: under the
    precondition every row number the four lookup regions read is below the tables' height. -/
theorem frame_p_of (hG0 : Cert.Kernel.Fr.Triple0 (F := Bits)) (hG1 : Cert.Kernel.Fr.Triple1 (F := Bits)) (hG2 : Cert.Kernel.Fr.Triple2 (F := Bits)) (hG3 : Cert.Kernel.Fr.Triple3 (F := Bits)) : Cert.frame_Kernel := fun m ρ hpre =>
  Cert.Kernel.Fr.frame m ρ hG0 hG1 hG2 hG3
    (fun c r f => Cert.Kernel.Rng.rng0 m hpre c (ValueIdx.ix2 r f))
    (fun c r f => Cert.Kernel.Rng.rng1 m (Cert.Kernel.Fr.outsC m) hpre c (ValueIdx.ix2 r f))
    (fun c r f => Cert.Kernel.Rng.rng2 m (Cert.Kernel.Fr.outsC m) hpre c (ValueIdx.ix2 r f))
    (fun c r f => Cert.Kernel.Rng.rng3 m (Cert.Kernel.Fr.outsC m) hpre c (ValueIdx.ix2 r f))

/-- The idealized kernel runs and leaves its arguments unchanged, given the four lookup bodies' triples, for the same
    reason. -/
theorem frame_pi_of (hG0 : Cert.KernelIdeal.Fr.Triple0 (F := Ideal)) (hG1 : Cert.KernelIdeal.Fr.Triple1 (F := Ideal)) (hG2 : Cert.KernelIdeal.Fr.Triple2 (F := Ideal)) (hG3 : Cert.KernelIdeal.Fr.Triple3 (F := Ideal)) : Cert.frame_KernelIdeal := fun m ρ hpre =>
  Cert.KernelIdeal.Fr.frame m ρ hG0 hG1 hG2 hG3
    (fun c r f => Cert.KernelIdeal.Rng.rng0 m hpre c (ValueIdx.ix2 r f))
    (fun c r f => Cert.KernelIdeal.Rng.rng1 m (Cert.KernelIdeal.Fr.outsC m) hpre c (ValueIdx.ix2 r f))
    (fun c r f => Cert.KernelIdeal.Rng.rng2 m (Cert.KernelIdeal.Fr.outsC m) hpre c (ValueIdx.ix2 r f))
    (fun c r f => Cert.KernelIdeal.Rng.rng3 m (Cert.KernelIdeal.Fr.outsC m) hpre c (ValueIdx.ix2 r f))

/-- At the ideal values both programs end at one array, given the four lookup bodies' triples. The kernel's result is
    the tail of the index-by-index interaction of its head with the index-by-index lookup, of its arguments; the
    reference's result is its own term of its arguments, which agree with the kernel's; and the two terms are equal
    where every row number is in range, as the precondition says. -/
theorem algebraic_of (hG0 : Cert.KernelIdeal.Fr.Triple0 (F := Ideal)) (hG1 : Cert.KernelIdeal.Fr.Triple1 (F := Ideal)) (hG2 : Cert.KernelIdeal.Fr.Triple2 (F := Ideal)) (hG3 : Cert.KernelIdeal.Fr.Triple3 (F := Ideal)) : Cert.algebraic_KernelIdeal_ReferenceIdeal := by
  intro m ρ m' ρ' hpre hagree
  refine ⟨fun c => Cert.KernelIdeal.Gen.V19 (F := Ideal) m (Cert.KernelIdeal.Fr.outsC m) c Cert.KernelIdeal.main_v34,
    Cert.KernelIdeal.Fr.run m ρ hG0 hG1 hG2 hG3
    (fun c r f => Cert.KernelIdeal.Rng.rng0 m hpre c (ValueIdx.ix2 r f))
    (fun c r f => Cert.KernelIdeal.Rng.rng1 m (Cert.KernelIdeal.Fr.outsC m) hpre c (ValueIdx.ix2 r f))
    (fun c r f => Cert.KernelIdeal.Rng.rng2 m (Cert.KernelIdeal.Fr.outsC m) hpre c (ValueIdx.ix2 r f))
    (fun c r f => Cert.KernelIdeal.Rng.rng3 m (Cert.KernelIdeal.Fr.outsC m) hpre c (ValueIdx.ix2 r f)), ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8, a9, a10, a11, a12⟩ := hagree c
  rw [Cert.ReferenceIdeal.RefTerm.result_eq m' c, a0, a1, a2, a3, a4, a5, a6, a7, a8, a9, a10, a11, a12]
  exact (Cert.HostEq.result_terms_eq _ _ _ _ _ _ _ _ _ _ _ _ _ (Cert.KernelIdeal.Rng.ids_signed m hpre c)).symm.trans
    (Cert.KernelIdeal.RegVals.result m (Cert.KernelIdeal.Fr.outsC m) (Cert.KernelIdeal.Fr.outsOk m) c).symm

/-! ## The claims, the four lookup bodies' triples supplied -/

theorem frame_p : Cert.frame_Kernel :=
  frame_p_of Cert.Kernel.Fr.triple0 Cert.Kernel.Fr.triple1 Cert.Kernel.Fr.triple2 Cert.Kernel.Fr.triple3
theorem frame_pi : Cert.frame_KernelIdeal :=
  frame_pi_of Cert.KernelIdeal.Fr.triple0 Cert.KernelIdeal.Fr.triple1 Cert.KernelIdeal.Fr.triple2 Cert.KernelIdeal.Fr.triple3
theorem algebraic : Cert.algebraic_KernelIdeal_ReferenceIdeal :=
  algebraic_of Cert.KernelIdeal.Fr.triple0 Cert.KernelIdeal.Fr.triple1 Cert.KernelIdeal.Fr.triple2 Cert.KernelIdeal.Fr.triple3

end Cert.Proof.Claims

end
-- ==== Proof.lean ====
/-
  The certificate of the DLRM forward pass: a two-layer dense MLP on 13 dense features, 26 embedding lookups (tables of
  131073 rows of width 64, ids in `[0, 131073)`), the pairwise-dot interaction of the 27 tokens (the dense token and the 26
  looked-up ones: the dense token followed by the 351 dot products of the strict upper triangle, row by row), and a
  three-layer MLP head, against the same model written with one gather, one batched product and one index gather.

  The kernel program looks the tokens up in four calls of 4096 batch rows each — at a grid point one row: its 26 ids
  are read from scalar memory, each row of the stacked tables is copied by its own transfer, on its own semaphore, into the
  output block, and all 26 transfers are awaited before the point ends — concatenates the four results, and computes the
  interaction in one call over 64 blocks of 256 rows (a batched product of the 27 × 64 token block with its transpose, then
  the 26 row pieces of the triangle laid side by side). At the ideal instance a change of float format is the identity, the
  batched product and the reference's contraction are the same sums over the 64 features, and the triangle's pieces are the
  reference's gather at the pairs `(p, q)`, `p < q`, in row-major order; the host layers around are the same operations
  in both programs. The lookups are in range by the precondition's evident domain `0 ≤ id < 131073`, under which the
  reference's wrap of negative ids and its clamp are the identity and the kernel's copies stay inside the tables.

  The frames (every run ends, nothing faults, the arguments end unchanged) are proved region by region over the library's
  several-region launch; the word-level program has the same text as the idealized one and so the same frame proof.
-/
import proofs.«407213_j20864951124667_1_alg».proof.Defs
import proofs.«407213_j20864951124667_1_alg».proof.Proof.Gen.Kernel
import proofs.«407213_j20864951124667_1_alg».proof.Proof.Gen.KernelIdeal
import proofs.«407213_j20864951124667_1_alg».proof.Proof.Gen.ReferenceIdeal
import proofs.«407213_j20864951124667_1_alg».proof.Proof.Gen.Pre_finite_inputs
import proofs.«407213_j20864951124667_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
